-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  IdealRules.named_const.Statement Cert.KernelIdeal.κ "sel_frac_fifth_over_sel" .f32 0x3ABDF59D#32 ((150119994289903 / 103582791429521408 : ℝ) : EReal)

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1x30720 : Shape := ⟨2, ![1, 30720]⟩
abbrev S1x10240 : Shape := ⟨2, ![1, 10240]⟩
abbrev S1x8192x138 : Shape := ⟨3, ![1, 8192, 138]⟩
abbrev S2x138x1 : Shape := ⟨3, ![2, 138, 1]⟩
abbrev S1x25 : Shape := ⟨2, ![1, 25]⟩
abbrev S25 : Shape := ⟨1, ![25]⟩
abbrev S25x50 : Shape := ⟨2, ![25, 50]⟩
abbrev S50 : Shape := ⟨1, ![50]⟩
abbrev S50x100 : Shape := ⟨2, ![50, 100]⟩
abbrev S100 : Shape := ⟨1, ![100]⟩
abbrev S_ : Shape := ⟨0, ![]⟩

class Facts : Prop where
  bcast_S_S1x30720 : S_.BroadcastsInDim S1x30720 (![] : Fin 0 → Fin S1x30720.rank)
  reducesTo_S1x30720_S_d0_1 : S1x30720.ReducesTo [0, 1] S_
  h_S_ : 0 < S_.numel
  bcast_S_S2x138x1 : S_.BroadcastsInDim S2x138x1 (![] : Fin 0 → Fin S2x138x1.rank)
  reducesTo_S2x138x1_S_d0_1_2 : S2x138x1.ReducesTo [0, 1, 2] S_
  bcast_S_S1x25 : S_.BroadcastsInDim S1x25 (![] : Fin 0 → Fin S1x25.rank)
  reducesTo_S1x25_S_d0_1 : S1x25.ReducesTo [0, 1] S_
  bcast_S_S25 : S_.BroadcastsInDim S25 (![] : Fin 0 → Fin S25.rank)
  reducesTo_S25_S_d0 : S25.ReducesTo [0] S_
  bcast_S_S25x50 : S_.BroadcastsInDim S25x50 (![] : Fin 0 → Fin S25x50.rank)
  reducesTo_S25x50_S_d0_1 : S25x50.ReducesTo [0, 1] S_
  bcast_S_S50 : S_.BroadcastsInDim S50 (![] : Fin 0 → Fin S50.rank)
  reducesTo_S50_S_d0 : S50.ReducesTo [0] S_
  bcast_S_S50x100 : S_.BroadcastsInDim S50x100 (![] : Fin 0 → Fin S50x100.rank)
  reducesTo_S50x100_S_d0_1 : S50x100.ReducesTo [0, 1] S_
  bcast_S_S100 : S_.BroadcastsInDim S100 (![] : Fin 0 → Fin S100.rank)
  reducesTo_S100_S_d0 : S100.ReducesTo [0] S_
  bcast_S_S1x10240 : S_.BroadcastsInDim S1x10240 (![] : Fin 0 → Fin S1x10240.rank)
  reducesTo_S1x10240_S_d0_1 : S1x10240.ReducesTo [0, 1] S_
  bcast_S_S1x8192x138 : S_.BroadcastsInDim S1x8192x138 (![] : Fin 0 → Fin S1x8192x138.rank)
  reducesTo_S1x8192x138_S_d0_1_2 : S1x8192x138.ReducesTo [0, 1, 2] S_

variable [Facts]

def fn_part5 {F : FTy → Type} [FloatOps F] (main_v80 : IVec S_ 1) (main_v82 : IVec S1x8192x138 1) (main_v84 : IVec S1x8192x138 1) : IVec S_ 1 :=
  let main_v85 : IVec S1x8192x138 1 := andi main_v82 main_v84
  let main_c_33 : IVec S_ 1 := constantI S_ 1 1#1
  let main_v86 : IVec S_ 1 := (fun x v => Host.reduce IntOp.andi x v reducesTo_S1x8192x138_S_d0_1_2 h_S_) main_v85 main_c_33
  let main_v87 : IVec S_ 1 := andi main_v80 main_v86
  main_v87

def fn_part4 {F : FTy → Type} [FloatOps F] (main_arg1 : IVec S1x10240 32) (main_arg2 : IVec S1x8192x138 32) (main_arg16 : FVec F S100 .f32) (main_v63 : IVec S_ 1) (main_v67 : IVec S_ 1) : IVec S_ 1 :=
  let main_v68 : IVec S_ 1 := andi main_v63 main_v67
  let main_v69 : FVec F S100 .f32 := Host.absf main_arg16
  let main_cst_26 : FVec F S_ .f32 := constant S_ .f32 0x7F800000#32
  let main_v70 : FVec F S100 .f32 := broadcastInDim S100 ![] bcast_S_S100 main_cst_26
  let main_v71 : IVec S100 1 := cmpf .olt main_v69 main_v70
  let main_c_27 : IVec S_ 1 := constantI S_ 1 1#1
  let main_v72 : IVec S_ 1 := (fun x v => Host.reduce IntOp.andi x v reducesTo_S100_S_d0 h_S_) main_v71 main_c_27
  let main_v73 : IVec S_ 1 := andi main_v68 main_v72
  let main_c_28 : IVec S_ 32 := constantI S_ 32 0#32
  let main_v74 : IVec S1x10240 32 := broadcastInDim S1x10240 ![] bcast_S_S1x10240 main_c_28
  let main_v75 : IVec S1x10240 1 := cmpi .sge main_arg1 main_v74
  let main_c_29 : IVec S_ 32 := constantI S_ 32 1#32
  let main_v76 : IVec S1x10240 32 := broadcastInDim S1x10240 ![] bcast_S_S1x10240 main_c_29
  let main_v77 : IVec S1x10240 1 := cmpi .sle main_arg1 main_v76
  let main_v78 : IVec S1x10240 1 := andi main_v75 main_v77
  let main_c_30 : IVec S_ 1 := constantI S_ 1 1#1
  let main_v79 : IVec S_ 1 := (fun x v => Host.reduce IntOp.andi x v reducesTo_S1x10240_S_d0_1 h_S_) main_v78 main_c_30
  let main_v80 : IVec S_ 1 := andi main_v73 main_v79
  let main_c_31 : IVec S_ 32 := constantI S_ 32 0#32
  let main_v81 : IVec S1x8192x138 32 := broadcastInDim S1x8192x138 ![] bcast_S_S1x8192x138 main_c_31
  let main_v82 : IVec S1x8192x138 1 := cmpi .sge main_arg2 main_v81
  let main_c_32 : IVec S_ 32 := constantI S_ 32 10239#32
  let main_v83 : IVec S1x8192x138 32 := broadcastInDim S1x8192x138 ![] bcast_S_S1x8192x138 main_c_32
  let main_v84 : IVec S1x8192x138 1 := cmpi .sle main_arg2 main_v83
  fn_part5 (F := F) main_v80 main_v82 main_v84

def fn_part3 {F : FTy → Type} [FloatOps F] (main_arg1 : IVec S1x10240 32) (main_arg2 : IVec S1x8192x138 32) (main_arg13 : FVec F S25x50 .f32) (main_arg14 : FVec F S50 .f32) (main_arg15 : FVec F S50x100 .f32) (main_arg16 : FVec F S100 .f32) (main_v48 : IVec S_ 1) (main_v49 : FVec F S25 .f32) (main_v50 : FVec F S25 .f32) : IVec S_ 1 :=
  let main_v51 : IVec S25 1 := cmpf .olt main_v49 main_v50
  let main_c_19 : IVec S_ 1 := constantI S_ 1 1#1
  let main_v52 : IVec S_ 1 := (fun x v => Host.reduce IntOp.andi x v reducesTo_S25_S_d0 h_S_) main_v51 main_c_19
  let main_v53 : IVec S_ 1 := andi main_v48 main_v52
  let main_v54 : FVec F S25x50 .f32 := Host.absf main_arg13
  let main_cst_20 : FVec F S_ .f32 := constant S_ .f32 0x7F800000#32
  let main_v55 : FVec F S25x50 .f32 := broadcastInDim S25x50 ![] bcast_S_S25x50 main_cst_20
  let main_v56 : IVec S25x50 1 := cmpf .olt main_v54 main_v55
  let main_c_21 : IVec S_ 1 := constantI S_ 1 1#1
  let main_v57 : IVec S_ 1 := (fun x v => Host.reduce IntOp.andi x v reducesTo_S25x50_S_d0_1 h_S_) main_v56 main_c_21
  let main_v58 : IVec S_ 1 := andi main_v53 main_v57
  let main_v59 : FVec F S50 .f32 := Host.absf main_arg14
  let main_cst_22 : FVec F S_ .f32 := constant S_ .f32 0x7F800000#32
  let main_v60 : FVec F S50 .f32 := broadcastInDim S50 ![] bcast_S_S50 main_cst_22
  let main_v61 : IVec S50 1 := cmpf .olt main_v59 main_v60
  let main_c_23 : IVec S_ 1 := constantI S_ 1 1#1
  let main_v62 : IVec S_ 1 := (fun x v => Host.reduce IntOp.andi x v reducesTo_S50_S_d0 h_S_) main_v61 main_c_23
  let main_v63 : IVec S_ 1 := andi main_v58 main_v62
  let main_v64 : FVec F S50x100 .f32 := Host.absf main_arg15
  let main_cst_24 : FVec F S_ .f32 := constant S_ .f32 0x7F800000#32
  let main_v65 : FVec F S50x100 .f32 := broadcastInDim S50x100 ![] bcast_S_S50x100 main_cst_24
  let main_v66 : IVec S50x100 1 := cmpf .olt main_v64 main_v65
  let main_c_25 : IVec S_ 1 := constantI S_ 1 1#1
  let main_v67 : IVec S_ 1 := (fun x v => Host.reduce IntOp.andi x v reducesTo_S50x100_S_d0_1 h_S_) main_v66 main_c_25
  fn_part4 (F := F) main_arg1 main_arg2 main_arg16 main_v63 main_v67

def fn_part2 {F : FTy → Type} [FloatOps F] (main_arg1 : IVec S1x10240 32) (main_arg2 : IVec S1x8192x138 32) (main_arg9 : FVec F S50x100 .f32) (main_arg10 : FVec F S100 .f32) (main_arg11 : FVec F S1x25 .f32) (main_arg12 : FVec F S25 .f32) (main_arg13 : FVec F S25x50 .f32) (main_arg14 : FVec F S50 .f32) (main_arg15 : FVec F S50x100 .f32) (main_arg16 : FVec F S100 .f32) (main_v33 : IVec S_ 1) : IVec S_ 1 :=
  let main_v34 : FVec F S50x100 .f32 := Host.absf main_arg9
  let main_cst_12 : FVec F S_ .f32 := constant S_ .f32 0x7F800000#32
  let main_v35 : FVec F S50x100 .f32 := broadcastInDim S50x100 ![] bcast_S_S50x100 main_cst_12
  let main_v36 : IVec S50x100 1 := cmpf .olt main_v34 main_v35
  let main_c_13 : IVec S_ 1 := constantI S_ 1 1#1
  let main_v37 : IVec S_ 1 := (fun x v => Host.reduce IntOp.andi x v reducesTo_S50x100_S_d0_1 h_S_) main_v36 main_c_13
  let main_v38 : IVec S_ 1 := andi main_v33 main_v37
  let main_v39 : FVec F S100 .f32 := Host.absf main_arg10
  let main_cst_14 : FVec F S_ .f32 := constant S_ .f32 0x7F800000#32
  let main_v40 : FVec F S100 .f32 := broadcastInDim S100 ![] bcast_S_S100 main_cst_14
  let main_v41 : IVec S100 1 := cmpf .olt main_v39 main_v40
  let main_c_15 : IVec S_ 1 := constantI S_ 1 1#1
  let main_v42 : IVec S_ 1 := (fun x v => Host.reduce IntOp.andi x v reducesTo_S100_S_d0 h_S_) main_v41 main_c_15
  let main_v43 : IVec S_ 1 := andi main_v38 main_v42
  let main_v44 : FVec F S1x25 .f32 := Host.absf main_arg11
  let main_cst_16 : FVec F S_ .f32 := constant S_ .f32 0x7F800000#32
  let main_v45 : FVec F S1x25 .f32 := broadcastInDim S1x25 ![] bcast_S_S1x25 main_cst_16
  let main_v46 : IVec S1x25 1 := cmpf .olt main_v44 main_v45
  let main_c_17 : IVec S_ 1 := constantI S_ 1 1#1
  let main_v47 : IVec S_ 1 := (fun x v => Host.reduce IntOp.andi x v reducesTo_S1x25_S_d0_1 h_S_) main_v46 main_c_17
  let main_v48 : IVec S_ 1 := andi main_v43 main_v47
  let main_v49 : FVec F S25 .f32 := Host.absf main_arg12
  let main_cst_18 : FVec F S_ .f32 := constant S_ .f32 0x7F800000#32
  let main_v50 : FVec F S25 .f32 := broadcastInDim S25 ![] bcast_S_S25 main_cst_18
  fn_part3 (F := F) main_arg1 main_arg2 main_arg13 main_arg14 main_arg15 main_arg16 main_v48 main_v49 main_v50

def fn_part1 {F : FTy → Type} [FloatOps F] (main_arg1 : IVec S1x10240 32) (main_arg2 : IVec S1x8192x138 32) (main_arg6 : FVec F S25 .f32) (main_arg7 : FVec F S25x50 .f32) (main_arg8 : FVec F S50 .f32) (main_arg9 : FVec F S50x100 .f32) (main_arg10 : FVec F S100 .f32) (main_arg11 : FVec F S1x25 .f32) (main_arg12 : FVec F S25 .f32) (main_arg13 : FVec F S25x50 .f32) (main_arg14 : FVec F S50 .f32) (main_arg15 : FVec F S50x100 .f32) (main_arg16 : FVec F S100 .f32) (main_v13 : IVec S_ 1) (main_v16 : IVec S1x25 1) : IVec S_ 1 :=
  let main_c_5 : IVec S_ 1 := constantI S_ 1 1#1
  let main_v17 : IVec S_ 1 := (fun x v => Host.reduce IntOp.andi x v reducesTo_S1x25_S_d0_1 h_S_) main_v16 main_c_5
  let main_v18 : IVec S_ 1 := andi main_v13 main_v17
  let main_v19 : FVec F S25 .f32 := Host.absf main_arg6
  let main_cst_6 : FVec F S_ .f32 := constant S_ .f32 0x7F800000#32
  let main_v20 : FVec F S25 .f32 := broadcastInDim S25 ![] bcast_S_S25 main_cst_6
  let main_v21 : IVec S25 1 := cmpf .olt main_v19 main_v20
  let main_c_7 : IVec S_ 1 := constantI S_ 1 1#1
  let main_v22 : IVec S_ 1 := (fun x v => Host.reduce IntOp.andi x v reducesTo_S25_S_d0 h_S_) main_v21 main_c_7
  let main_v23 : IVec S_ 1 := andi main_v18 main_v22
  let main_v24 : FVec F S25x50 .f32 := Host.absf main_arg7
  let main_cst_8 : FVec F S_ .f32 := constant S_ .f32 0x7F800000#32
  let main_v25 : FVec F S25x50 .f32 := broadcastInDim S25x50 ![] bcast_S_S25x50 main_cst_8
  let main_v26 : IVec S25x50 1 := cmpf .olt main_v24 main_v25
  let main_c_9 : IVec S_ 1 := constantI S_ 1 1#1
  let main_v27 : IVec S_ 1 := (fun x v => Host.reduce IntOp.andi x v reducesTo_S25x50_S_d0_1 h_S_) main_v26 main_c_9
  let main_v28 : IVec S_ 1 := andi main_v23 main_v27
  let main_v29 : FVec F S50 .f32 := Host.absf main_arg8
  let main_cst_10 : FVec F S_ .f32 := constant S_ .f32 0x7F800000#32
  let main_v30 : FVec F S50 .f32 := broadcastInDim S50 ![] bcast_S_S50 main_cst_10
  let main_v31 : IVec S50 1 := cmpf .olt main_v29 main_v30
  let main_c_11 : IVec S_ 1 := constantI S_ 1 1#1
  let main_v32 : IVec S_ 1 := (fun x v => Host.reduce IntOp.andi x v reducesTo_S50_S_d0 h_S_) main_v31 main_c_11
  let main_v33 : IVec S_ 1 := andi main_v28 main_v32
  fn_part2 (F := F) main_arg1 main_arg2 main_arg9 main_arg10 main_arg11 main_arg12 main_arg13 main_arg14 main_arg15 main_arg16 main_v33

def fn {F : FTy → Type} [FloatOps F] (main_arg0 : FVec F S1x30720 .f32) (main_arg1 : IVec S1x10240 32) (main_arg2 : IVec S1x8192x138 32) (main_arg3 : FVec F S2x138x1 .f32) (main_arg4 : FVec F S2x138x1 .f32) (main_arg5 : FVec F S1x25 .f32) (main_arg6 : FVec F S25 .f32) (main_arg7 : FVec F S25x50 .f32) (main_arg8 : FVec F S50 .f32) (main_arg9 : FVec F S50x100 .f32) (main_arg10 : FVec F S100 .f32) (main_arg11 : FVec F S1x25 .f32) (main_arg12 : FVec F S25 .f32) (main_arg13 : FVec F S25x50 .f32) (main_arg14 : FVec F S50 .f32) (main_arg15 : FVec F S50x100 .f32) (main_arg16 : FVec F S100 .f32) : IVec S_ 1 :=
  let main_v0 : FVec F S1x30720 .f32 := Host.absf main_arg0
  let main_cst : FVec F S_ .f32 := constant S_ .f32 0x7F800000#32
  let main_v1 : FVec F S1x30720 .f32 := broadcastInDim S1x30720 ![] bcast_S_S1x30720 main_cst
  let main_v2 : IVec S1x30720 1 := cmpf .olt main_v0 main_v1
  let main_c : IVec S_ 1 := constantI S_ 1 1#1
  let main_v3 : IVec S_ 1 := (fun x v => Host.reduce IntOp.andi x v reducesTo_S1x30720_S_d0_1 h_S_) main_v2 main_c
  let main_v4 : FVec F S2x138x1 .f32 := Host.absf main_arg3
  let main_cst_0 : FVec F S_ .f32 := constant S_ .f32 0x7F800000#32
  let main_v5 : FVec F S2x138x1 .f32 := broadcastInDim S2x138x1 ![] bcast_S_S2x138x1 main_cst_0
  let main_v6 : IVec S2x138x1 1 := cmpf .olt main_v4 main_v5
  let main_c_1 : IVec S_ 1 := constantI S_ 1 1#1
  let main_v7 : IVec S_ 1 := (fun x v => Host.reduce IntOp.andi x v reducesTo_S2x138x1_S_d0_1_2 h_S_) main_v6 main_c_1
  let main_v8 : IVec S_ 1 := andi main_v3 main_v7
  let main_v9 : FVec F S2x138x1 .f32 := Host.absf main_arg4
  let main_cst_2 : FVec F S_ .f32 := constant S_ .f32 0x7F800000#32
  let main_v10 : FVec F S2x138x1 .f32 := broadcastInDim S2x138x1 ![] bcast_S_S2x138x1 main_cst_2
  let main_v11 : IVec S2x138x1 1 := cmpf .olt main_v9 main_v10
  let main_c_3 : IVec S_ 1 := constantI S_ 1 1#1
  let main_v12 : IVec S_ 1 := (fun x v => Host.reduce IntOp.andi x v reducesTo_S2x138x1_S_d0_1_2 h_S_) main_v11 main_c_3
  let main_v13 : IVec S_ 1 := andi main_v8 main_v12
  let main_v14 : FVec F S1x25 .f32 := Host.absf main_arg5
  let main_cst_4 : FVec F S_ .f32 := constant S_ .f32 0x7F800000#32
  let main_v15 : FVec F S1x25 .f32 := broadcastInDim S1x25 ![] bcast_S_S1x25 main_cst_4
  let main_v16 : IVec S1x25 1 := cmpf .olt main_v14 main_v15
  fn_part1 (F := F) main_arg1 main_arg2 main_arg6 main_arg7 main_arg8 main_arg9 main_arg10 main_arg11 main_arg12 main_arg13 main_arg14 main_arg15 main_arg16 main_v13 main_v16
-- ==== Kernel.lean ====
abbrev S1x30720 : Shape := ⟨2, ![1, 30720]⟩
abbrev S1x10240 : Shape := ⟨2, ![1, 10240]⟩
abbrev S1x8192x138 : Shape := ⟨3, ![1, 8192, 138]⟩
abbrev S2x138x1 : Shape := ⟨3, ![2, 138, 1]⟩
abbrev S1x25 : Shape := ⟨2, ![1, 25]⟩
abbrev S25 : Shape := ⟨1, ![25]⟩
abbrev S25x50 : Shape := ⟨2, ![25, 50]⟩
abbrev S50 : Shape := ⟨1, ![50]⟩
abbrev S50x100 : Shape := ⟨2, ![50, 100]⟩
abbrev S100 : Shape := ⟨1, ![100]⟩
abbrev S30720 : Shape := ⟨1, ![30720]⟩
abbrev S1130496 : Shape := ⟨1, ![1130496]⟩
abbrev S4416 : Shape := ⟨1, ![4416]⟩
abbrev S_ : Shape := ⟨0, ![]⟩
abbrev S16 : Shape := ⟨1, ![16]⟩
abbrev S8192x138 : Shape := ⟨2, ![8192, 138]⟩
abbrev S10240x3 : Shape := ⟨2, ![10240, 3]⟩
abbrev S8192x3 : Shape := ⟨2, ![8192, 3]⟩
abbrev S10240x1 : Shape := ⟨2, ![10240, 1]⟩
abbrev S8192x1 : Shape := ⟨2, ![8192, 1]⟩
abbrev S2x138 : Shape := ⟨2, ![2, 138]⟩
abbrev S8192x46 : Shape := ⟨2, ![8192, 46]⟩
abbrev S8192x92 : Shape := ⟨2, ![8192, 92]⟩
abbrev S512x138 : Shape := ⟨2, ![512, 138]⟩
abbrev S512x3 : Shape := ⟨2, ![512, 3]⟩
abbrev S512x1 : Shape := ⟨2, ![512, 1]⟩
abbrev S512x46 : Shape := ⟨2, ![512, 46]⟩
abbrev S512x92 : Shape := ⟨2, ![512, 92]⟩
abbrev S1x138 : Shape := ⟨2, ![1, 138]⟩
abbrev S64x128x46 : Shape := ⟨3, ![64, 128, 46]⟩
abbrev S64x46x128 : Shape := ⟨3, ![64, 46, 128]⟩
abbrev S1x376832 : Shape := ⟨2, ![1, 376832]⟩
abbrev S64x128x92 : Shape := ⟨3, ![64, 128, 92]⟩
abbrev S64x92x128 : Shape := ⟨3, ![64, 92, 128]⟩
abbrev S1x753664 : Shape := ⟨2, ![1, 753664]⟩
abbrev S100x50 : Shape := ⟨2, ![100, 50]⟩
abbrev S25x100 : Shape := ⟨2, ![25, 100]⟩
abbrev S100x25 : Shape := ⟨2, ![100, 25]⟩
abbrev S100x75 : Shape := ⟨2, ![100, 75]⟩
abbrev S25x1 : Shape := ⟨2, ![25, 1]⟩
abbrev S50x25 : Shape := ⟨2, ![50, 25]⟩
abbrev S50x1 : Shape := ⟨2, ![50, 1]⟩
abbrev S100x1 : Shape := ⟨2, ![100, 1]⟩
abbrev S100x8192 : Shape := ⟨2, ![100, 8192]⟩
abbrev S1x5888 : Shape := ⟨2, ![1, 5888]⟩
abbrev S1x11776 : Shape := ⟨2, ![1, 11776]⟩
abbrev S100x128 : Shape := ⟨2, ![100, 128]⟩
abbrev S25x5888 : Shape := ⟨2, ![25, 5888]⟩
abbrev S50x5888 : Shape := ⟨2, ![50, 5888]⟩
abbrev S75x5888 : Shape := ⟨2, ![75, 5888]⟩
abbrev S100x5888 : Shape := ⟨2, ![100, 5888]⟩
abbrev S25x128 : Shape := ⟨2, ![25, 128]⟩
abbrev S50x128 : Shape := ⟨2, ![50, 128]⟩
abbrev S25x11776 : Shape := ⟨2, ![25, 11776]⟩
abbrev S50x11776 : Shape := ⟨2, ![50, 11776]⟩
abbrev S75x11776 : Shape := ⟨2, ![75, 11776]⟩
abbrev S100x11776 : Shape := ⟨2, ![100, 11776]⟩
abbrev S8192x100 : Shape := ⟨2, ![8192, 100]⟩
abbrev S1x8192x100 : Shape := ⟨3, ![1, 8192, 100]⟩

abbrev nBuf : Table → Nat
  | .hbm => 64
  | .local .tc .vmem => 34
  | .local .scVector .vmem => 5
  | _ => 0

abbrev bufTy : (tb : Table) → Fin (nBuf tb) → BufTy
  | .hbm, ⟨0, _⟩ => ⟨S1x30720, .f32⟩
  | .hbm, ⟨1, _⟩ => ⟨S1x10240, .i32⟩
  | .hbm, ⟨2, _⟩ => ⟨S1x8192x138, .i32⟩
  | .hbm, ⟨3, _⟩ => ⟨S2x138x1, .f32⟩
  | .hbm, ⟨4, _⟩ => ⟨S2x138x1, .f32⟩
  | .hbm, ⟨5, _⟩ => ⟨S1x25, .f32⟩
  | .hbm, ⟨6, _⟩ => ⟨S25, .f32⟩
  | .hbm, ⟨7, _⟩ => ⟨S25x50, .f32⟩
  | .hbm, ⟨8, _⟩ => ⟨S50, .f32⟩
  | .hbm, ⟨9, _⟩ => ⟨S50x100, .f32⟩
  | .hbm, ⟨10, _⟩ => ⟨S100, .f32⟩
  | .hbm, ⟨11, _⟩ => ⟨S1x25, .f32⟩
  | .hbm, ⟨12, _⟩ => ⟨S25, .f32⟩
  | .hbm, ⟨13, _⟩ => ⟨S25x50, .f32⟩
  | .hbm, ⟨14, _⟩ => ⟨S50, .f32⟩
  | .hbm, ⟨15, _⟩ => ⟨S50x100, .f32⟩
  | .hbm, ⟨16, _⟩ => ⟨S100, .f32⟩
  | .hbm, ⟨17, _⟩ => ⟨S30720, .f32⟩
  | .hbm, ⟨18, _⟩ => ⟨S1130496, .i32⟩
  | .hbm, ⟨19, _⟩ => ⟨S1130496, .f32⟩
  | .hbm, ⟨20, _⟩ => ⟨S1130496, .f32⟩
  | .hbm, ⟨21, _⟩ => ⟨S1130496, .f32⟩
  | .hbm, ⟨22, _⟩ => ⟨S8192x138, .f32⟩
  | .hbm, ⟨23, _⟩ => ⟨S8192x138, .f32⟩
  | .hbm, ⟨24, _⟩ => ⟨S8192x138, .f32⟩
  | .hbm, ⟨25, _⟩ => ⟨S10240x3, .f32⟩
  | .hbm, ⟨26, _⟩ => ⟨S8192x3, .f32⟩
  | .hbm, ⟨27, _⟩ => ⟨S10240x1, .i32⟩
  | .hbm, ⟨28, _⟩ => ⟨S8192x1, .i32⟩
  | .hbm, ⟨29, _⟩ => ⟨S2x138, .f32⟩
  | .hbm, ⟨30, _⟩ => ⟨S2x138, .f32⟩
  | .hbm, ⟨31, _⟩ => ⟨S8192x46, .f32⟩
  | .hbm, ⟨32, _⟩ => ⟨S8192x92, .f32⟩
  | .hbm, ⟨33, _⟩ => ⟨S64x128x46, .f32⟩
  | .hbm, ⟨34, _⟩ => ⟨S64x46x128, .f32⟩
  | .hbm, ⟨35, _⟩ => ⟨S1x376832, .f32⟩
  | .hbm, ⟨36, _⟩ => ⟨S64x128x92, .f32⟩
  | .hbm, ⟨37, _⟩ => ⟨S64x92x128, .f32⟩
  | .hbm, ⟨38, _⟩ => ⟨S1x753664, .f32⟩
  | .hbm, ⟨39, _⟩ => ⟨S100x50, .f32⟩
  | .hbm, ⟨40, _⟩ => ⟨S25x100, .f32⟩
  | .hbm, ⟨41, _⟩ => ⟨S25x100, .f32⟩
  | .hbm, ⟨42, _⟩ => ⟨S25x100, .f32⟩
  | .hbm, ⟨43, _⟩ => ⟨S100x25, .f32⟩
  | .hbm, ⟨44, _⟩ => ⟨S100x75, .f32⟩
  | .hbm, ⟨45, _⟩ => ⟨S100x50, .f32⟩
  | .hbm, ⟨46, _⟩ => ⟨S25x100, .f32⟩
  | .hbm, ⟨47, _⟩ => ⟨S25x100, .f32⟩
  | .hbm, ⟨48, _⟩ => ⟨S25x100, .f32⟩
  | .hbm, ⟨49, _⟩ => ⟨S100x25, .f32⟩
  | .hbm, ⟨50, _⟩ => ⟨S100x75, .f32⟩
  | .hbm, ⟨51, _⟩ => ⟨S25x1, .f32⟩
  | .hbm, ⟨52, _⟩ => ⟨S25x1, .f32⟩
  | .hbm, ⟨53, _⟩ => ⟨S50x25, .f32⟩
  | .hbm, ⟨54, _⟩ => ⟨S50x1, .f32⟩
  | .hbm, ⟨55, _⟩ => ⟨S100x1, .f32⟩
  | .hbm, ⟨56, _⟩ => ⟨S25x1, .f32⟩
  | .hbm, ⟨57, _⟩ => ⟨S25x1, .f32⟩
  | .hbm, ⟨58, _⟩ => ⟨S50x25, .f32⟩
  | .hbm, ⟨59, _⟩ => ⟨S50x1, .f32⟩
  | .hbm, ⟨60, _⟩ => ⟨S100x1, .f32⟩
  | .hbm, ⟨61, _⟩ => ⟨S100x8192, .f32⟩
  | .hbm, ⟨62, _⟩ => ⟨S8192x100, .f32⟩
  | .hbm, ⟨63, _⟩ => ⟨S1x8192x100, .f32⟩
  | .local .tc .vmem, ⟨0, _⟩ => ⟨S512x138, .f32⟩
  | .local .tc .vmem, ⟨1, _⟩ => ⟨S512x138, .f32⟩
  | .local .tc .vmem, ⟨2, _⟩ => ⟨S512x138, .f32⟩
  | .local .tc .vmem, ⟨3, _⟩ => ⟨S512x138, .f32⟩
  | .local .tc .vmem, ⟨4, _⟩ => ⟨S512x138, .f32⟩
  | .local .tc .vmem, ⟨5, _⟩ => ⟨S512x138, .f32⟩
  | .local .tc .vmem, ⟨6, _⟩ => ⟨S512x3, .f32⟩
  | .local .tc .vmem, ⟨7, _⟩ => ⟨S512x3, .f32⟩
  | .local .tc .vmem, ⟨8, _⟩ => ⟨S512x1, .i32⟩
  | .local .tc .vmem, ⟨9, _⟩ => ⟨S512x1, .i32⟩
  | .local .tc .vmem, ⟨10, _⟩ => ⟨S2x138, .f32⟩
  | .local .tc .vmem, ⟨11, _⟩ => ⟨S2x138, .f32⟩
  | .local .tc .vmem, ⟨12, _⟩ => ⟨S512x46, .f32⟩
  | .local .tc .vmem, ⟨13, _⟩ => ⟨S512x46, .f32⟩
  | .local .tc .vmem, ⟨14, _⟩ => ⟨S512x92, .f32⟩
  | .local .tc .vmem, ⟨15, _⟩ => ⟨S512x92, .f32⟩
  | .local .tc .vmem, ⟨16, _⟩ => ⟨S1x5888, .f32⟩
  | .local .tc .vmem, ⟨17, _⟩ => ⟨S1x5888, .f32⟩
  | .local .tc .vmem, ⟨18, _⟩ => ⟨S1x11776, .f32⟩
  | .local .tc .vmem, ⟨19, _⟩ => ⟨S1x11776, .f32⟩
  | .local .tc .vmem, ⟨20, _⟩ => ⟨S25x1, .f32⟩
  | .local .tc .vmem, ⟨21, _⟩ => ⟨S25x1, .f32⟩
  | .local .tc .vmem, ⟨22, _⟩ => ⟨S50x25, .f32⟩
  | .local .tc .vmem, ⟨23, _⟩ => ⟨S50x1, .f32⟩
  | .local .tc .vmem, ⟨24, _⟩ => ⟨S100x75, .f32⟩
  | .local .tc .vmem, ⟨25, _⟩ => ⟨S100x1, .f32⟩
  | .local .tc .vmem, ⟨26, _⟩ => ⟨S25x1, .f32⟩
  | .local .tc .vmem, ⟨27, _⟩ => ⟨S25x1, .f32⟩
  | .local .tc .vmem, ⟨28, _⟩ => ⟨S50x25, .f32⟩
  | .local .tc .vmem, ⟨29, _⟩ => ⟨S50x1, .f32⟩
  | .local .tc .vmem, ⟨30, _⟩ => ⟨S100x75, .f32⟩
  | .local .tc .vmem, ⟨31, _⟩ => ⟨S100x1, .f32⟩
  | .local .tc .vmem, ⟨32, _⟩ => ⟨S100x128, .f32⟩
  | .local .tc .vmem, ⟨33, _⟩ => ⟨S100x128, .f32⟩
  | .local .scVector .vmem, ⟨0, _⟩ => ⟨S30720, .f32⟩
  | .local .scVector .vmem, ⟨1, _⟩ => ⟨S4416, .i32⟩
  | .local .scVector .vmem, ⟨2, _⟩ => ⟨S4416, .f32⟩
  | .local .scVector .vmem, ⟨3, _⟩ => ⟨S4416, .f32⟩
  | .local .scVector .vmem, ⟨4, _⟩ => ⟨S4416, .f32⟩
  | _, _ => ⟨S1x30720, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 67 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  ofTables nBuf rfl bufTy 4 67 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2_0 : Ref sig .tc := ⟨.hbm, 19, rfl⟩
abbrev main_v2_1 : Ref sig .tc := ⟨.hbm, 20, rfl⟩
abbrev main_v2_2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12_0 : Ref sig .tc := ⟨.hbm, 31, rfl⟩
abbrev main_v12_1 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v0_scv : Ref sig .scVector := ⟨.hbm, 17, rfl⟩
abbrev main_v1_scv : Ref sig .scVector := ⟨.hbm, 18, rfl⟩
abbrev main_v2_0_scv : Ref sig .scVector := ⟨.hbm, 19, rfl⟩
abbrev main_v2_1_scv : Ref sig .scVector := ⟨.hbm, 20, rfl⟩
abbrev main_v2_2_scv : Ref sig .scVector := ⟨.hbm, 21, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg7_0 : Ref sig .tc := ⟨.vmem, 12, rfl⟩
abbrev cc1_stg7_1 : Ref sig .tc := ⟨.vmem, 13, rfl⟩
abbrev cc1_stg8_0 : Ref sig .tc := ⟨.vmem, 14, rfl⟩
abbrev cc1_stg8_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg8_0 : Ref sig .tc := ⟨.vmem, 26, rfl⟩
abbrev cc2_stg9_0 : Ref sig .tc := ⟨.vmem, 27, rfl⟩
abbrev cc2_stg10_0 : Ref sig .tc := ⟨.vmem, 28, rfl⟩
abbrev cc2_stg11_0 : Ref sig .tc := ⟨.vmem, 29, rfl⟩
abbrev cc2_stg12_0 : Ref sig .tc := ⟨.vmem, 30, rfl⟩
abbrev cc2_stg13_0 : Ref sig .tc := ⟨.vmem, 31, rfl⟩
abbrev cc2_stg14_0 : Ref sig .tc := ⟨.vmem, 32, rfl⟩
abbrev cc2_stg14_1 : Ref sig .tc := ⟨.vmem, 33, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 33
abbrev cc1_sem0_1 : DmaSem sig := 34
abbrev cc1_sem1_0 : DmaSem sig := 35
abbrev cc1_sem1_1 : DmaSem sig := 36
abbrev cc1_sem2_0 : DmaSem sig := 37
abbrev cc1_sem2_1 : DmaSem sig := 38
abbrev cc1_sem3_0 : DmaSem sig := 39
abbrev cc1_sem3_1 : DmaSem sig := 40
abbrev cc1_sem4_0 : DmaSem sig := 41
abbrev cc1_sem4_1 : DmaSem sig := 42
abbrev cc1_sem5_0 : DmaSem sig := 43
abbrev cc1_sem6_0 : DmaSem sig := 44
abbrev cc1_sem7_0 : DmaSem sig := 45
abbrev cc1_sem7_1 : DmaSem sig := 46
abbrev cc1_sem8_0 : DmaSem sig := 47
abbrev cc1_sem8_1 : DmaSem sig := 48
abbrev cc2_sem0_0 : DmaSem sig := 49
abbrev cc2_sem0_1 : DmaSem sig := 50
abbrev cc2_sem1_0 : DmaSem sig := 51
abbrev cc2_sem1_1 : DmaSem sig := 52
abbrev cc2_sem2_0 : DmaSem sig := 53
abbrev cc2_sem3_0 : DmaSem sig := 54
abbrev cc2_sem4_0 : DmaSem sig := 55
abbrev cc2_sem5_0 : DmaSem sig := 56
abbrev cc2_sem6_0 : DmaSem sig := 57
abbrev cc2_sem7_0 : DmaSem sig := 58
abbrev cc2_sem8_0 : DmaSem sig := 59
abbrev cc2_sem9_0 : DmaSem sig := 60
abbrev cc2_sem10_0 : DmaSem sig := 61
abbrev cc2_sem11_0 : DmaSem sig := 62
abbrev cc2_sem12_0 : DmaSem sig := 63
abbrev cc2_sem13_0 : DmaSem sig := 64
abbrev cc2_sem14_0 : DmaSem sig := 65
abbrev cc2_sem14_1 : DmaSem sig := 66
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c35328_i32 : BitVec 32 := 35328#32
  let v2 : BitVec 32 := Scalar.muli v1 c35328_i32
  let v3 : BitVec 32 := Scalar.addi v2 c0_i32
  ![v3.toNat]
@[reducible] def k0_t1_loop : Scf.Loop 32 :=
  let c0_i32_1 : BitVec 32 := 0#32
  let c276_i32 : BitVec 32 := 276#32
  let v4 : BitVec 32 := Scalar.addi c0_i32_1 c276_i32
  let c1_i32 : BitVec 32 := 1#32
  ⟨c0_i32_1, v4, c1_i32⟩
def k0_off2 (k0_t1 : Fin k0_t1_loop.trips) : Fin 1 → Nat :=
  let c0_i32_1 : BitVec 32 := 0#32
  let c1_i32 : BitVec 32 := 1#32
  let arg12 : BitVec 32 := Scf.iv c0_i32_1 c1_i32 k0_t1
  let c16_i32_38 : BitVec 32 := 16#32
  let v19 : BitVec 32 := Scalar.muli arg12 c16_i32_38
  let v20 : Index := Scalar.indexCast v19
  ![v20.toNat]

def k0_chk1 (v23 : IVec S16 32) : Prop :=
  (∀ a x, ((![v23] : Fin 1 → IVec S16 32) a x).toNat < S30720.size a)
instance k0_chk1.dec : ∀ (v23 : IVec S16 32), Decidable (k0_chk1 v23) := fun v23 => decidable_of_iff' _ (Iff.of_eq (k0_chk1.eq_1 v23))
theorem k0_idx1_inb : ∀ (v23 : IVec S16 32) (k0_hw1 : k0_chk1 v23), ∀ a x, ((![v23] : Fin 1 → IVec S16 32) a x).toNat < S30720.size a := fun v23 k0_hw1 => k0_hw1
def k0_off3 (k0_t1 : Fin k0_t1_loop.trips) : Fin 1 → Nat :=
  let c0_i32_1 : BitVec 32 := 0#32
  let c1_i32 : BitVec 32 := 1#32
  let arg12 : BitVec 32 := Scf.iv c0_i32_1 c1_i32 k0_t1
  let c16_i32_38 : BitVec 32 := 16#32
  let v19 : BitVec 32 := Scalar.muli arg12 c16_i32_38
  let v25 : Index := Scalar.indexCast v19
  ![v25.toNat]

def k0_chk2 (v28 : IVec S16 32) : Prop :=
  (∀ a x, ((![v28] : Fin 1 → IVec S16 32) a x).toNat < S30720.size a)
instance k0_chk2.dec : ∀ (v28 : IVec S16 32), Decidable (k0_chk2 v28) := fun v28 => decidable_of_iff' _ (Iff.of_eq (k0_chk2.eq_1 v28))
theorem k0_idx2_inb : ∀ (v28 : IVec S16 32) (k0_hw2 : k0_chk2 v28), ∀ a x, ((![v28] : Fin 1 → IVec S16 32) a x).toNat < S30720.size a := fun v28 k0_hw2 => k0_hw2
def k0_off4 (k0_t1 : Fin k0_t1_loop.trips) : Fin 1 → Nat :=
  let c0_i32_1 : BitVec 32 := 0#32
  let c1_i32 : BitVec 32 := 1#32
  let arg12 : BitVec 32 := Scf.iv c0_i32_1 c1_i32 k0_t1
  let c16_i32_38 : BitVec 32 := 16#32
  let v19 : BitVec 32 := Scalar.muli arg12 c16_i32_38
  let v30 : Index := Scalar.indexCast v19
  ![v30.toNat]

def k0_chk3 (v33 : IVec S16 32) : Prop :=
  (∀ a x, ((![v33] : Fin 1 → IVec S16 32) a x).toNat < S30720.size a)
instance k0_chk3.dec : ∀ (v33 : IVec S16 32), Decidable (k0_chk3 v33) := fun v33 => decidable_of_iff' _ (Iff.of_eq (k0_chk3.eq_1 v33))
theorem k0_idx3_inb : ∀ (v33 : IVec S16 32) (k0_hw3 : k0_chk3 v33), ∀ a x, ((![v33] : Fin 1 → IVec S16 32) a x).toNat < S30720.size a := fun v33 k0_hw3 => k0_hw3
def k0_off5 (k0_t1 : Fin k0_t1_loop.trips) : Fin 1 → Nat :=
  let c0_i32_1 : BitVec 32 := 0#32
  let c1_i32 : BitVec 32 := 1#32
  let arg12 : BitVec 32 := Scf.iv c0_i32_1 c1_i32 k0_t1
  let c16_i32_38 : BitVec 32 := 16#32
  let v19 : BitVec 32 := Scalar.muli arg12 c16_i32_38
  let v35 : Index := Scalar.indexCast v19
  ![v35.toNat]
@[reducible] def k0_t2_loop : Scf.Loop 32 :=
  let c0_i32_4 : BitVec 32 := 0#32
  let c276_i32_5 : BitVec 32 := 276#32
  let v6 : BitVec 32 := Scalar.addi c0_i32_4 c276_i32_5
  let c1_i32_6 : BitVec 32 := 1#32
  ⟨c0_i32_4, v6, c1_i32_6⟩
def k0_off6 (k0_t2 : Fin k0_t2_loop.trips) : Fin 1 → Nat :=
  let c0_i32_4 : BitVec 32 := 0#32
  let c1_i32_6 : BitVec 32 := 1#32
  let arg12 : BitVec 32 := Scf.iv c0_i32_4 c1_i32_6 k0_t2
  let c16_i32_38 : BitVec 32 := 16#32
  let v19 : BitVec 32 := Scalar.muli arg12 c16_i32_38
  let v20 : Index := Scalar.indexCast v19
  ![v20.toNat]

def k0_chk4 (v23 : IVec S16 32) : Prop :=
  (∀ a x, ((![v23] : Fin 1 → IVec S16 32) a x).toNat < S30720.size a)
instance k0_chk4.dec : ∀ (v23 : IVec S16 32), Decidable (k0_chk4 v23) := fun v23 => decidable_of_iff' _ (Iff.of_eq (k0_chk4.eq_1 v23))
theorem k0_idx4_inb : ∀ (v23 : IVec S16 32) (k0_hw4 : k0_chk4 v23), ∀ a x, ((![v23] : Fin 1 → IVec S16 32) a x).toNat < S30720.size a := fun v23 k0_hw4 => k0_hw4
def k0_off7 (k0_t2 : Fin k0_t2_loop.trips) : Fin 1 → Nat :=
  let c0_i32_4 : BitVec 32 := 0#32
  let c1_i32_6 : BitVec 32 := 1#32
  let arg12 : BitVec 32 := Scf.iv c0_i32_4 c1_i32_6 k0_t2
  let c16_i32_38 : BitVec 32 := 16#32
  let v19 : BitVec 32 := Scalar.muli arg12 c16_i32_38
  let v25 : Index := Scalar.indexCast v19
  ![v25.toNat]

def k0_chk5 (v28 : IVec S16 32) : Prop :=
  (∀ a x, ((![v28] : Fin 1 → IVec S16 32) a x).toNat < S30720.size a)
instance k0_chk5.dec : ∀ (v28 : IVec S16 32), Decidable (k0_chk5 v28) := fun v28 => decidable_of_iff' _ (Iff.of_eq (k0_chk5.eq_1 v28))
theorem k0_idx5_inb : ∀ (v28 : IVec S16 32) (k0_hw5 : k0_chk5 v28), ∀ a x, ((![v28] : Fin 1 → IVec S16 32) a x).toNat < S30720.size a := fun v28 k0_hw5 => k0_hw5
def k0_off8 (k0_t2 : Fin k0_t2_loop.trips) : Fin 1 → Nat :=
  let c0_i32_4 : BitVec 32 := 0#32
  let c1_i32_6 : BitVec 32 := 1#32
  let arg12 : BitVec 32 := Scf.iv c0_i32_4 c1_i32_6 k0_t2
  let c16_i32_38 : BitVec 32 := 16#32
  let v19 : BitVec 32 := Scalar.muli arg12 c16_i32_38
  let v30 : Index := Scalar.indexCast v19
  ![v30.toNat]

def k0_chk6 (v33 : IVec S16 32) : Prop :=
  (∀ a x, ((![v33] : Fin 1 → IVec S16 32) a x).toNat < S30720.size a)
instance k0_chk6.dec : ∀ (v33 : IVec S16 32), Decidable (k0_chk6 v33) := fun v33 => decidable_of_iff' _ (Iff.of_eq (k0_chk6.eq_1 v33))
theorem k0_idx6_inb : ∀ (v33 : IVec S16 32) (k0_hw6 : k0_chk6 v33), ∀ a x, ((![v33] : Fin 1 → IVec S16 32) a x).toNat < S30720.size a := fun v33 k0_hw6 => k0_hw6
def k0_off9 (k0_t2 : Fin k0_t2_loop.trips) : Fin 1 → Nat :=
  let c0_i32_4 : BitVec 32 := 0#32
  let c1_i32_6 : BitVec 32 := 1#32
  let arg12 : BitVec 32 := Scf.iv c0_i32_4 c1_i32_6 k0_t2
  let c16_i32_38 : BitVec 32 := 16#32
  let v19 : BitVec 32 := Scalar.muli arg12 c16_i32_38
  let v35 : Index := Scalar.indexCast v19
  ![v35.toNat]
@[reducible] def k0_t3_loop : Scf.Loop 32 :=
  let c0_i32_9 : BitVec 32 := 0#32
  let c276_i32_10 : BitVec 32 := 276#32
  let v8 : BitVec 32 := Scalar.addi c0_i32_9 c276_i32_10
  let c1_i32_11 : BitVec 32 := 1#32
  ⟨c0_i32_9, v8, c1_i32_11⟩
def k0_off10 (k0_t3 : Fin k0_t3_loop.trips) : Fin 1 → Nat :=
  let c0_i32_9 : BitVec 32 := 0#32
  let c1_i32_11 : BitVec 32 := 1#32
  let arg12 : BitVec 32 := Scf.iv c0_i32_9 c1_i32_11 k0_t3
  let c16_i32_38 : BitVec 32 := 16#32
  let v19 : BitVec 32 := Scalar.muli arg12 c16_i32_38
  let v20 : Index := Scalar.indexCast v19
  ![v20.toNat]

def k0_chk7 (v23 : IVec S16 32) : Prop :=
  (∀ a x, ((![v23] : Fin 1 → IVec S16 32) a x).toNat < S30720.size a)
instance k0_chk7.dec : ∀ (v23 : IVec S16 32), Decidable (k0_chk7 v23) := fun v23 => decidable_of_iff' _ (Iff.of_eq (k0_chk7.eq_1 v23))
theorem k0_idx7_inb : ∀ (v23 : IVec S16 32) (k0_hw7 : k0_chk7 v23), ∀ a x, ((![v23] : Fin 1 → IVec S16 32) a x).toNat < S30720.size a := fun v23 k0_hw7 => k0_hw7
def k0_off11 (k0_t3 : Fin k0_t3_loop.trips) : Fin 1 → Nat :=
  let c0_i32_9 : BitVec 32 := 0#32
  let c1_i32_11 : BitVec 32 := 1#32
  let arg12 : BitVec 32 := Scf.iv c0_i32_9 c1_i32_11 k0_t3
  let c16_i32_38 : BitVec 32 := 16#32
  let v19 : BitVec 32 := Scalar.muli arg12 c16_i32_38
  let v25 : Index := Scalar.indexCast v19
  ![v25.toNat]

def k0_chk8 (v28 : IVec S16 32) : Prop :=
  (∀ a x, ((![v28] : Fin 1 → IVec S16 32) a x).toNat < S30720.size a)
instance k0_chk8.dec : ∀ (v28 : IVec S16 32), Decidable (k0_chk8 v28) := fun v28 => decidable_of_iff' _ (Iff.of_eq (k0_chk8.eq_1 v28))
theorem k0_idx8_inb : ∀ (v28 : IVec S16 32) (k0_hw8 : k0_chk8 v28), ∀ a x, ((![v28] : Fin 1 → IVec S16 32) a x).toNat < S30720.size a := fun v28 k0_hw8 => k0_hw8
def k0_off12 (k0_t3 : Fin k0_t3_loop.trips) : Fin 1 → Nat :=
  let c0_i32_9 : BitVec 32 := 0#32
  let c1_i32_11 : BitVec 32 := 1#32
  let arg12 : BitVec 32 := Scf.iv c0_i32_9 c1_i32_11 k0_t3
  let c16_i32_38 : BitVec 32 := 16#32
  let v19 : BitVec 32 := Scalar.muli arg12 c16_i32_38
  let v30 : Index := Scalar.indexCast v19
  ![v30.toNat]

def k0_chk9 (v33 : IVec S16 32) : Prop :=
  (∀ a x, ((![v33] : Fin 1 → IVec S16 32) a x).toNat < S30720.size a)
instance k0_chk9.dec : ∀ (v33 : IVec S16 32), Decidable (k0_chk9 v33) := fun v33 => decidable_of_iff' _ (Iff.of_eq (k0_chk9.eq_1 v33))
theorem k0_idx9_inb : ∀ (v33 : IVec S16 32) (k0_hw9 : k0_chk9 v33), ∀ a x, ((![v33] : Fin 1 → IVec S16 32) a x).toNat < S30720.size a := fun v33 k0_hw9 => k0_hw9
def k0_off13 (k0_t3 : Fin k0_t3_loop.trips) : Fin 1 → Nat :=
  let c0_i32_9 : BitVec 32 := 0#32
  let c1_i32_11 : BitVec 32 := 1#32
  let arg12 : BitVec 32 := Scf.iv c0_i32_9 c1_i32_11 k0_t3
  let c16_i32_38 : BitVec 32 := 16#32
  let v19 : BitVec 32 := Scalar.muli arg12 c16_i32_38
  let v35 : Index := Scalar.indexCast v19
  ![v35.toNat]
@[reducible] def k0_t4_loop : Scf.Loop 32 :=
  let c0_i32_14 : BitVec 32 := 0#32
  let c276_i32_15 : BitVec 32 := 276#32
  let v10 : BitVec 32 := Scalar.addi c0_i32_14 c276_i32_15
  let c1_i32_16 : BitVec 32 := 1#32
  ⟨c0_i32_14, v10, c1_i32_16⟩
def k0_off14 (k0_t4 : Fin k0_t4_loop.trips) : Fin 1 → Nat :=
  let c0_i32_14 : BitVec 32 := 0#32
  let c1_i32_16 : BitVec 32 := 1#32
  let arg12 : BitVec 32 := Scf.iv c0_i32_14 c1_i32_16 k0_t4
  let c16_i32_38 : BitVec 32 := 16#32
  let v19 : BitVec 32 := Scalar.muli arg12 c16_i32_38
  let v20 : Index := Scalar.indexCast v19
  ![v20.toNat]

def k0_chk10 (v23 : IVec S16 32) : Prop :=
  (∀ a x, ((![v23] : Fin 1 → IVec S16 32) a x).toNat < S30720.size a)
instance k0_chk10.dec : ∀ (v23 : IVec S16 32), Decidable (k0_chk10 v23) := fun v23 => decidable_of_iff' _ (Iff.of_eq (k0_chk10.eq_1 v23))
theorem k0_idx10_inb : ∀ (v23 : IVec S16 32) (k0_hw10 : k0_chk10 v23), ∀ a x, ((![v23] : Fin 1 → IVec S16 32) a x).toNat < S30720.size a := fun v23 k0_hw10 => k0_hw10
def k0_off15 (k0_t4 : Fin k0_t4_loop.trips) : Fin 1 → Nat :=
  let c0_i32_14 : BitVec 32 := 0#32
  let c1_i32_16 : BitVec 32 := 1#32
  let arg12 : BitVec 32 := Scf.iv c0_i32_14 c1_i32_16 k0_t4
  let c16_i32_38 : BitVec 32 := 16#32
  let v19 : BitVec 32 := Scalar.muli arg12 c16_i32_38
  let v25 : Index := Scalar.indexCast v19
  ![v25.toNat]

def k0_chk11 (v28 : IVec S16 32) : Prop :=
  (∀ a x, ((![v28] : Fin 1 → IVec S16 32) a x).toNat < S30720.size a)
instance k0_chk11.dec : ∀ (v28 : IVec S16 32), Decidable (k0_chk11 v28) := fun v28 => decidable_of_iff' _ (Iff.of_eq (k0_chk11.eq_1 v28))
theorem k0_idx11_inb : ∀ (v28 : IVec S16 32) (k0_hw11 : k0_chk11 v28), ∀ a x, ((![v28] : Fin 1 → IVec S16 32) a x).toNat < S30720.size a := fun v28 k0_hw11 => k0_hw11
def k0_off16 (k0_t4 : Fin k0_t4_loop.trips) : Fin 1 → Nat :=
  let c0_i32_14 : BitVec 32 := 0#32
  let c1_i32_16 : BitVec 32 := 1#32
  let arg12 : BitVec 32 := Scf.iv c0_i32_14 c1_i32_16 k0_t4
  let c16_i32_38 : BitVec 32 := 16#32
  let v19 : BitVec 32 := Scalar.muli arg12 c16_i32_38
  let v30 : Index := Scalar.indexCast v19
  ![v30.toNat]

def k0_chk12 (v33 : IVec S16 32) : Prop :=
  (∀ a x, ((![v33] : Fin 1 → IVec S16 32) a x).toNat < S30720.size a)
instance k0_chk12.dec : ∀ (v33 : IVec S16 32), Decidable (k0_chk12 v33) := fun v33 => decidable_of_iff' _ (Iff.of_eq (k0_chk12.eq_1 v33))
theorem k0_idx12_inb : ∀ (v33 : IVec S16 32) (k0_hw12 : k0_chk12 v33), ∀ a x, ((![v33] : Fin 1 → IVec S16 32) a x).toNat < S30720.size a := fun v33 k0_hw12 => k0_hw12
def k0_off17 (k0_t4 : Fin k0_t4_loop.trips) : Fin 1 → Nat :=
  let c0_i32_14 : BitVec 32 := 0#32
  let c1_i32_16 : BitVec 32 := 1#32
  let arg12 : BitVec 32 := Scf.iv c0_i32_14 c1_i32_16 k0_t4
  let c16_i32_38 : BitVec 32 := 16#32
  let v19 : BitVec 32 := Scalar.muli arg12 c16_i32_38
  let v35 : Index := Scalar.indexCast v19
  ![v35.toNat]
@[reducible] def k0_t5_loop : Scf.Loop 32 :=
  let c0_i32_19 : BitVec 32 := 0#32
  let c276_i32_20 : BitVec 32 := 276#32
  let v12 : BitVec 32 := Scalar.addi c0_i32_19 c276_i32_20
  let c1_i32_21 : BitVec 32 := 1#32
  ⟨c0_i32_19, v12, c1_i32_21⟩
def k0_off18 (k0_t5 : Fin k0_t5_loop.trips) : Fin 1 → Nat :=
  let c0_i32_19 : BitVec 32 := 0#32
  let c1_i32_21 : BitVec 32 := 1#32
  let arg12 : BitVec 32 := Scf.iv c0_i32_19 c1_i32_21 k0_t5
  let c16_i32_38 : BitVec 32 := 16#32
  let v19 : BitVec 32 := Scalar.muli arg12 c16_i32_38
  let v20 : Index := Scalar.indexCast v19
  ![v20.toNat]

def k0_chk13 (v23 : IVec S16 32) : Prop :=
  (∀ a x, ((![v23] : Fin 1 → IVec S16 32) a x).toNat < S30720.size a)
instance k0_chk13.dec : ∀ (v23 : IVec S16 32), Decidable (k0_chk13 v23) := fun v23 => decidable_of_iff' _ (Iff.of_eq (k0_chk13.eq_1 v23))
theorem k0_idx13_inb : ∀ (v23 : IVec S16 32) (k0_hw13 : k0_chk13 v23), ∀ a x, ((![v23] : Fin 1 → IVec S16 32) a x).toNat < S30720.size a := fun v23 k0_hw13 => k0_hw13
def k0_off19 (k0_t5 : Fin k0_t5_loop.trips) : Fin 1 → Nat :=
  let c0_i32_19 : BitVec 32 := 0#32
  let c1_i32_21 : BitVec 32 := 1#32
  let arg12 : BitVec 32 := Scf.iv c0_i32_19 c1_i32_21 k0_t5
  let c16_i32_38 : BitVec 32 := 16#32
  let v19 : BitVec 32 := Scalar.muli arg12 c16_i32_38
  let v25 : Index := Scalar.indexCast v19
  ![v25.toNat]

def k0_chk14 (v28 : IVec S16 32) : Prop :=
  (∀ a x, ((![v28] : Fin 1 → IVec S16 32) a x).toNat < S30720.size a)
instance k0_chk14.dec : ∀ (v28 : IVec S16 32), Decidable (k0_chk14 v28) := fun v28 => decidable_of_iff' _ (Iff.of_eq (k0_chk14.eq_1 v28))
theorem k0_idx14_inb : ∀ (v28 : IVec S16 32) (k0_hw14 : k0_chk14 v28), ∀ a x, ((![v28] : Fin 1 → IVec S16 32) a x).toNat < S30720.size a := fun v28 k0_hw14 => k0_hw14
def k0_off20 (k0_t5 : Fin k0_t5_loop.trips) : Fin 1 → Nat :=
  let c0_i32_19 : BitVec 32 := 0#32
  let c1_i32_21 : BitVec 32 := 1#32
  let arg12 : BitVec 32 := Scf.iv c0_i32_19 c1_i32_21 k0_t5
  let c16_i32_38 : BitVec 32 := 16#32
  let v19 : BitVec 32 := Scalar.muli arg12 c16_i32_38
  let v30 : Index := Scalar.indexCast v19
  ![v30.toNat]

def k0_chk15 (v33 : IVec S16 32) : Prop :=
  (∀ a x, ((![v33] : Fin 1 → IVec S16 32) a x).toNat < S30720.size a)
instance k0_chk15.dec : ∀ (v33 : IVec S16 32), Decidable (k0_chk15 v33) := fun v33 => decidable_of_iff' _ (Iff.of_eq (k0_chk15.eq_1 v33))
theorem k0_idx15_inb : ∀ (v33 : IVec S16 32) (k0_hw15 : k0_chk15 v33), ∀ a x, ((![v33] : Fin 1 → IVec S16 32) a x).toNat < S30720.size a := fun v33 k0_hw15 => k0_hw15
def k0_off21 (k0_t5 : Fin k0_t5_loop.trips) : Fin 1 → Nat :=
  let c0_i32_19 : BitVec 32 := 0#32
  let c1_i32_21 : BitVec 32 := 1#32
  let arg12 : BitVec 32 := Scf.iv c0_i32_19 c1_i32_21 k0_t5
  let c16_i32_38 : BitVec 32 := 16#32
  let v19 : BitVec 32 := Scalar.muli arg12 c16_i32_38
  let v35 : Index := Scalar.indexCast v19
  ![v35.toNat]
@[reducible] def k0_t6_loop : Scf.Loop 32 :=
  let c0_i32_24 : BitVec 32 := 0#32
  let c276_i32_25 : BitVec 32 := 276#32
  let v14 : BitVec 32 := Scalar.addi c0_i32_24 c276_i32_25
  let c1_i32_26 : BitVec 32 := 1#32
  ⟨c0_i32_24, v14, c1_i32_26⟩
def k0_off22 (k0_t6 : Fin k0_t6_loop.trips) : Fin 1 → Nat :=
  let c0_i32_24 : BitVec 32 := 0#32
  let c1_i32_26 : BitVec 32 := 1#32
  let arg12 : BitVec 32 := Scf.iv c0_i32_24 c1_i32_26 k0_t6
  let c16_i32_38 : BitVec 32 := 16#32
  let v19 : BitVec 32 := Scalar.muli arg12 c16_i32_38
  let v20 : Index := Scalar.indexCast v19
  ![v20.toNat]

def k0_chk16 (v23 : IVec S16 32) : Prop :=
  (∀ a x, ((![v23] : Fin 1 → IVec S16 32) a x).toNat < S30720.size a)
instance k0_chk16.dec : ∀ (v23 : IVec S16 32), Decidable (k0_chk16 v23) := fun v23 => decidable_of_iff' _ (Iff.of_eq (k0_chk16.eq_1 v23))
theorem k0_idx16_inb : ∀ (v23 : IVec S16 32) (k0_hw16 : k0_chk16 v23), ∀ a x, ((![v23] : Fin 1 → IVec S16 32) a x).toNat < S30720.size a := fun v23 k0_hw16 => k0_hw16
def k0_off23 (k0_t6 : Fin k0_t6_loop.trips) : Fin 1 → Nat :=
  let c0_i32_24 : BitVec 32 := 0#32
  let c1_i32_26 : BitVec 32 := 1#32
  let arg12 : BitVec 32 := Scf.iv c0_i32_24 c1_i32_26 k0_t6
  let c16_i32_38 : BitVec 32 := 16#32
  let v19 : BitVec 32 := Scalar.muli arg12 c16_i32_38
  let v25 : Index := Scalar.indexCast v19
  ![v25.toNat]

def k0_chk17 (v28 : IVec S16 32) : Prop :=
  (∀ a x, ((![v28] : Fin 1 → IVec S16 32) a x).toNat < S30720.size a)
instance k0_chk17.dec : ∀ (v28 : IVec S16 32), Decidable (k0_chk17 v28) := fun v28 => decidable_of_iff' _ (Iff.of_eq (k0_chk17.eq_1 v28))
theorem k0_idx17_inb : ∀ (v28 : IVec S16 32) (k0_hw17 : k0_chk17 v28), ∀ a x, ((![v28] : Fin 1 → IVec S16 32) a x).toNat < S30720.size a := fun v28 k0_hw17 => k0_hw17
def k0_off24 (k0_t6 : Fin k0_t6_loop.trips) : Fin 1 → Nat :=
  let c0_i32_24 : BitVec 32 := 0#32
  let c1_i32_26 : BitVec 32 := 1#32
  let arg12 : BitVec 32 := Scf.iv c0_i32_24 c1_i32_26 k0_t6
  let c16_i32_38 : BitVec 32 := 16#32
  let v19 : BitVec 32 := Scalar.muli arg12 c16_i32_38
  let v30 : Index := Scalar.indexCast v19
  ![v30.toNat]

def k0_chk18 (v33 : IVec S16 32) : Prop :=
  (∀ a x, ((![v33] : Fin 1 → IVec S16 32) a x).toNat < S30720.size a)
instance k0_chk18.dec : ∀ (v33 : IVec S16 32), Decidable (k0_chk18 v33) := fun v33 => decidable_of_iff' _ (Iff.of_eq (k0_chk18.eq_1 v33))
theorem k0_idx18_inb : ∀ (v33 : IVec S16 32) (k0_hw18 : k0_chk18 v33), ∀ a x, ((![v33] : Fin 1 → IVec S16 32) a x).toNat < S30720.size a := fun v33 k0_hw18 => k0_hw18
def k0_off25 (k0_t6 : Fin k0_t6_loop.trips) : Fin 1 → Nat :=
  let c0_i32_24 : BitVec 32 := 0#32
  let c1_i32_26 : BitVec 32 := 1#32
  let arg12 : BitVec 32 := Scf.iv c0_i32_24 c1_i32_26 k0_t6
  let c16_i32_38 : BitVec 32 := 16#32
  let v19 : BitVec 32 := Scalar.muli arg12 c16_i32_38
  let v35 : Index := Scalar.indexCast v19
  ![v35.toNat]
@[reducible] def k0_t7_loop : Scf.Loop 32 :=
  let c0_i32_29 : BitVec 32 := 0#32
  let c276_i32_30 : BitVec 32 := 276#32
  let v16 : BitVec 32 := Scalar.addi c0_i32_29 c276_i32_30
  let c1_i32_31 : BitVec 32 := 1#32
  ⟨c0_i32_29, v16, c1_i32_31⟩
def k0_off26 (k0_t7 : Fin k0_t7_loop.trips) : Fin 1 → Nat :=
  let c0_i32_29 : BitVec 32 := 0#32
  let c1_i32_31 : BitVec 32 := 1#32
  let arg12 : BitVec 32 := Scf.iv c0_i32_29 c1_i32_31 k0_t7
  let c16_i32_38 : BitVec 32 := 16#32
  let v19 : BitVec 32 := Scalar.muli arg12 c16_i32_38
  let v20 : Index := Scalar.indexCast v19
  ![v20.toNat]

def k0_chk19 (v23 : IVec S16 32) : Prop :=
  (∀ a x, ((![v23] : Fin 1 → IVec S16 32) a x).toNat < S30720.size a)
instance k0_chk19.dec : ∀ (v23 : IVec S16 32), Decidable (k0_chk19 v23) := fun v23 => decidable_of_iff' _ (Iff.of_eq (k0_chk19.eq_1 v23))
theorem k0_idx19_inb : ∀ (v23 : IVec S16 32) (k0_hw19 : k0_chk19 v23), ∀ a x, ((![v23] : Fin 1 → IVec S16 32) a x).toNat < S30720.size a := fun v23 k0_hw19 => k0_hw19
def k0_off27 (k0_t7 : Fin k0_t7_loop.trips) : Fin 1 → Nat :=
  let c0_i32_29 : BitVec 32 := 0#32
  let c1_i32_31 : BitVec 32 := 1#32
  let arg12 : BitVec 32 := Scf.iv c0_i32_29 c1_i32_31 k0_t7
  let c16_i32_38 : BitVec 32 := 16#32
  let v19 : BitVec 32 := Scalar.muli arg12 c16_i32_38
  let v25 : Index := Scalar.indexCast v19
  ![v25.toNat]

def k0_chk20 (v28 : IVec S16 32) : Prop :=
  (∀ a x, ((![v28] : Fin 1 → IVec S16 32) a x).toNat < S30720.size a)
instance k0_chk20.dec : ∀ (v28 : IVec S16 32), Decidable (k0_chk20 v28) := fun v28 => decidable_of_iff' _ (Iff.of_eq (k0_chk20.eq_1 v28))
theorem k0_idx20_inb : ∀ (v28 : IVec S16 32) (k0_hw20 : k0_chk20 v28), ∀ a x, ((![v28] : Fin 1 → IVec S16 32) a x).toNat < S30720.size a := fun v28 k0_hw20 => k0_hw20
def k0_off28 (k0_t7 : Fin k0_t7_loop.trips) : Fin 1 → Nat :=
  let c0_i32_29 : BitVec 32 := 0#32
  let c1_i32_31 : BitVec 32 := 1#32
  let arg12 : BitVec 32 := Scf.iv c0_i32_29 c1_i32_31 k0_t7
  let c16_i32_38 : BitVec 32 := 16#32
  let v19 : BitVec 32 := Scalar.muli arg12 c16_i32_38
  let v30 : Index := Scalar.indexCast v19
  ![v30.toNat]

def k0_chk21 (v33 : IVec S16 32) : Prop :=
  (∀ a x, ((![v33] : Fin 1 → IVec S16 32) a x).toNat < S30720.size a)
instance k0_chk21.dec : ∀ (v33 : IVec S16 32), Decidable (k0_chk21 v33) := fun v33 => decidable_of_iff' _ (Iff.of_eq (k0_chk21.eq_1 v33))
theorem k0_idx21_inb : ∀ (v33 : IVec S16 32) (k0_hw21 : k0_chk21 v33), ∀ a x, ((![v33] : Fin 1 → IVec S16 32) a x).toNat < S30720.size a := fun v33 k0_hw21 => k0_hw21
def k0_off29 (k0_t7 : Fin k0_t7_loop.trips) : Fin 1 → Nat :=
  let c0_i32_29 : BitVec 32 := 0#32
  let c1_i32_31 : BitVec 32 := 1#32
  let arg12 : BitVec 32 := Scf.iv c0_i32_29 c1_i32_31 k0_t7
  let c16_i32_38 : BitVec 32 := 16#32
  let v19 : BitVec 32 := Scalar.muli arg12 c16_i32_38
  let v35 : Index := Scalar.indexCast v19
  ![v35.toNat]
@[reducible] def k0_t8_loop : Scf.Loop 32 :=
  let c0_i32_34 : BitVec 32 := 0#32
  let c276_i32_35 : BitVec 32 := 276#32
  let v18 : BitVec 32 := Scalar.addi c0_i32_34 c276_i32_35
  let c1_i32_36 : BitVec 32 := 1#32
  ⟨c0_i32_34, v18, c1_i32_36⟩
def k0_off30 (k0_t8 : Fin k0_t8_loop.trips) : Fin 1 → Nat :=
  let c0_i32_34 : BitVec 32 := 0#32
  let c1_i32_36 : BitVec 32 := 1#32
  let arg12 : BitVec 32 := Scf.iv c0_i32_34 c1_i32_36 k0_t8
  let c16_i32_38 : BitVec 32 := 16#32
  let v19 : BitVec 32 := Scalar.muli arg12 c16_i32_38
  let v20 : Index := Scalar.indexCast v19
  ![v20.toNat]

def k0_chk22 (v23 : IVec S16 32) : Prop :=
  (∀ a x, ((![v23] : Fin 1 → IVec S16 32) a x).toNat < S30720.size a)
instance k0_chk22.dec : ∀ (v23 : IVec S16 32), Decidable (k0_chk22 v23) := fun v23 => decidable_of_iff' _ (Iff.of_eq (k0_chk22.eq_1 v23))
theorem k0_idx22_inb : ∀ (v23 : IVec S16 32) (k0_hw22 : k0_chk22 v23), ∀ a x, ((![v23] : Fin 1 → IVec S16 32) a x).toNat < S30720.size a := fun v23 k0_hw22 => k0_hw22
def k0_off31 (k0_t8 : Fin k0_t8_loop.trips) : Fin 1 → Nat :=
  let c0_i32_34 : BitVec 32 := 0#32
  let c1_i32_36 : BitVec 32 := 1#32
  let arg12 : BitVec 32 := Scf.iv c0_i32_34 c1_i32_36 k0_t8
  let c16_i32_38 : BitVec 32 := 16#32
  let v19 : BitVec 32 := Scalar.muli arg12 c16_i32_38
  let v25 : Index := Scalar.indexCast v19
  ![v25.toNat]

def k0_chk23 (v28 : IVec S16 32) : Prop :=
  (∀ a x, ((![v28] : Fin 1 → IVec S16 32) a x).toNat < S30720.size a)
instance k0_chk23.dec : ∀ (v28 : IVec S16 32), Decidable (k0_chk23 v28) := fun v28 => decidable_of_iff' _ (Iff.of_eq (k0_chk23.eq_1 v28))
theorem k0_idx23_inb : ∀ (v28 : IVec S16 32) (k0_hw23 : k0_chk23 v28), ∀ a x, ((![v28] : Fin 1 → IVec S16 32) a x).toNat < S30720.size a := fun v28 k0_hw23 => k0_hw23
def k0_off32 (k0_t8 : Fin k0_t8_loop.trips) : Fin 1 → Nat :=
  let c0_i32_34 : BitVec 32 := 0#32
  let c1_i32_36 : BitVec 32 := 1#32
  let arg12 : BitVec 32 := Scf.iv c0_i32_34 c1_i32_36 k0_t8
  let c16_i32_38 : BitVec 32 := 16#32
  let v19 : BitVec 32 := Scalar.muli arg12 c16_i32_38
  let v30 : Index := Scalar.indexCast v19
  ![v30.toNat]

def k0_chk24 (v33 : IVec S16 32) : Prop :=
  (∀ a x, ((![v33] : Fin 1 → IVec S16 32) a x).toNat < S30720.size a)
instance k0_chk24.dec : ∀ (v33 : IVec S16 32), Decidable (k0_chk24 v33) := fun v33 => decidable_of_iff' _ (Iff.of_eq (k0_chk24.eq_1 v33))
theorem k0_idx24_inb : ∀ (v33 : IVec S16 32) (k0_hw24 : k0_chk24 v33), ∀ a x, ((![v33] : Fin 1 → IVec S16 32) a x).toNat < S30720.size a := fun v33 k0_hw24 => k0_hw24
def k0_off33 (k0_t8 : Fin k0_t8_loop.trips) : Fin 1 → Nat :=
  let c0_i32_34 : BitVec 32 := 0#32
  let c1_i32_36 : BitVec 32 := 1#32
  let arg12 : BitVec 32 := Scf.iv c0_i32_34 c1_i32_36 k0_t8
  let c16_i32_38 : BitVec 32 := 16#32
  let v19 : BitVec 32 := Scalar.muli arg12 c16_i32_38
  let v35 : Index := Scalar.indexCast v19
  ![v35.toNat]
abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x138 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x138 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x138 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x3 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S2x138 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2x138 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x46 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x92 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S1x5888 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x11776 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S25x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S25x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S50x25 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S50x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S100x75 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S100x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S25x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S25x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S50x25 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S50x1 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S100x75 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S100x1 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 2 → Memref sig .tc .vmem S100x128 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1x30720_S30720 : S1x30720.ShapeCasts S30720
  shapeCasts_S1x8192x138_S1130496 : S1x8192x138.ShapeCasts S1130496
  h_S16 : 0 < S16.numel
  h_S30720 : 0 < S30720.numel
  shapeCasts_S1130496_S8192x138 : S1130496.ShapeCasts S8192x138
  shapeCasts_S1x30720_S10240x3 : S1x30720.ShapeCasts S10240x3
  slices_S10240x3_S8192x3_0_0 : S10240x3.Slices ![0, 0] S8192x3
  shapeCasts_S1x10240_S10240x1 : S1x10240.ShapeCasts S10240x1
  slices_S10240x1_S8192x1_0_0 : S10240x1.Slices ![0, 0] S8192x1
  shapeCasts_S2x138x1_S2x138 : S2x138x1.ShapeCasts S2x138
  inb_S512x138_S512x138_0_0 : ∀ a, (![0, 0] : Fin 2 → Nat) a + S512x138.size a ≤ S512x138.size a
  h_S512x138 : 0 < S512x138.numel
  shapeCasts_S512x138_S512x138 : S512x138.ShapeCasts S512x138
  inb_S512x3_S512x1_0_0 : ∀ a, (![0, 0] : Fin 2 → Nat) a + S512x1.size a ≤ S512x3.size a
  h_S512x1 : 0 < S512x1.numel
  shapeCasts_S512x1_S512x1 : S512x1.ShapeCasts S512x1
  broadcasts_S512x1_S512x138 : S512x1.Broadcasts S512x138
  inb_S512x3_S512x1_0_1 : ∀ a, (![0, 1] : Fin 2 → Nat) a + S512x1.size a ≤ S512x3.size a
  inb_S512x3_S512x1_0_2 : ∀ a, (![0, 2] : Fin 2 → Nat) a + S512x1.size a ≤ S512x3.size a
  natLt_1_32 : 1 < 32
  inb_S512x1_S512x1_0_0 : ∀ a, (![0, 0] : Fin 2 → Nat) a + S512x1.size a ≤ S512x1.size a
  inb_S2x138_S1x138_0_0 : ∀ a, (![0, 0] : Fin 2 → Nat) a + S1x138.size a ≤ S2x138.size a
  h_S1x138 : 0 < S1x138.numel
  shapeCasts_S1x138_S1x138 : S1x138.ShapeCasts S1x138
  inb_S2x138_S1x138_1_0 : ∀ a, (![1, 0] : Fin 2 → Nat) a + S1x138.size a ≤ S2x138.size a
  broadcasts_S1x138_S512x138 : S1x138.Broadcasts S512x138
  slices_S512x138_o0_0_S512x46 : S512x138.Slices ![0, 0] S512x46
  inb_S512x46_S512x46_0_0 : ∀ a, (![0, 0] : Fin 2 → Nat) a + S512x46.size a ≤ S512x46.size a
  h_S512x46 : 0 < S512x46.numel
  slices_S512x138_o0_46_S512x92 : S512x138.Slices ![0, 46] S512x92
  inb_S512x92_S512x92_0_0 : ∀ a, (![0, 0] : Fin 2 → Nat) a + S512x92.size a ≤ S512x92.size a
  h_S512x92 : 0 < S512x92.numel
  shapeCasts_S8192x46_S64x128x46 : S8192x46.ShapeCasts S64x128x46
  transposes_S64x128x46_S64x46x128_0_2_1 : S64x128x46.Transposes [0, 2, 1] S64x46x128
  shapeCasts_S64x46x128_S1x376832 : S64x46x128.ShapeCasts S1x376832
  shapeCasts_S8192x92_S64x128x92 : S8192x92.ShapeCasts S64x128x92
  transposes_S64x128x92_S64x92x128_0_2_1 : S64x128x92.Transposes [0, 2, 1] S64x92x128
  shapeCasts_S64x92x128_S1x753664 : S64x92x128.ShapeCasts S1x753664
  transposes_S50x100_S100x50_1_0 : S50x100.Transposes [1, 0] S100x50
  slices_S50x100_S25x100_0_0 : S50x100.Slices ![0, 0] S25x100
  slices_S50x100_S25x100_25_0 : S50x100.Slices ![25, 0] S25x100
  transposes_S25x100_S100x25_1_0 : S25x100.Transposes [1, 0] S100x25
  concatenates_S100x50_S100x25_S100x75_d1 : Shape.Concatenates [S100x50, S100x25] S100x75 1
  transposes_S1x25_S25x1_1_0 : S1x25.Transposes [1, 0] S25x1
  shapeCasts_S25_S25x1 : S25.ShapeCasts S25x1
  transposes_S25x50_S50x25_1_0 : S25x50.Transposes [1, 0] S50x25
  shapeCasts_S50_S50x1 : S50.ShapeCasts S50x1
  shapeCasts_S100_S100x1 : S100.ShapeCasts S100x1
  inb_S1x5888_S1x5888_0_0 : ∀ a, (![0, 0] : Fin 2 → Nat) a + S1x5888.size a ≤ S1x5888.size a
  h_S1x5888 : 0 < S1x5888.numel
  shapeCasts_S1x5888_S1x5888 : S1x5888.ShapeCasts S1x5888
  inb_S25x1_S25x1_0_0 : ∀ a, (![0, 0] : Fin 2 → Nat) a + S25x1.size a ≤ S25x1.size a
  h_S25x1 : 0 < S25x1.numel
  shapeCasts_S25x1_S25x1 : S25x1.ShapeCasts S25x1
  inb_S50x25_S50x25_0_0 : ∀ a, (![0, 0] : Fin 2 → Nat) a + S50x25.size a ≤ S50x25.size a
  h_S50x25 : 0 < S50x25.numel
  shapeCasts_S50x25_S50x25 : S50x25.ShapeCasts S50x25
  inb_S50x1_S50x1_0_0 : ∀ a, (![0, 0] : Fin 2 → Nat) a + S50x1.size a ≤ S50x1.size a
  h_S50x1 : 0 < S50x1.numel
  shapeCasts_S50x1_S50x1 : S50x1.ShapeCasts S50x1
  inb_S100x75_S100x75_0_0 : ∀ a, (![0, 0] : Fin 2 → Nat) a + S100x75.size a ≤ S100x75.size a
  h_S100x75 : 0 < S100x75.numel
  shapeCasts_S100x75_S100x75 : S100x75.ShapeCasts S100x75
  inb_S100x1_S100x1_0_0 : ∀ a, (![0, 0] : Fin 2 → Nat) a + S100x1.size a ≤ S100x1.size a
  h_S100x1 : 0 < S100x1.numel
  shapeCasts_S100x1_S100x1 : S100x1.ShapeCasts S100x1
  broadcasts_S25x1_S25x5888 : S25x1.Broadcasts S25x5888
  broadcasts_S50x1_S50x5888 : S50x1.Broadcasts S50x5888
  concatenates_S50x5888_S25x5888_S75x5888_d0 : Shape.Concatenates [S50x5888, S25x5888] S75x5888 0
  broadcasts_S100x1_S100x5888 : S100x1.Broadcasts S100x5888
  slices_S25x5888_o0_0_S25x128 : S25x5888.Slices ![0, 0] S25x128
  slices_S25x5888_o0_128_S25x128 : S25x5888.Slices ![0, 128] S25x128
  slices_S25x5888_o0_256_S25x128 : S25x5888.Slices ![0, 256] S25x128
  slices_S25x5888_o0_384_S25x128 : S25x5888.Slices ![0, 384] S25x128
  slices_S25x5888_o0_512_S25x128 : S25x5888.Slices ![0, 512] S25x128
  slices_S25x5888_o0_640_S25x128 : S25x5888.Slices ![0, 640] S25x128
  slices_S25x5888_o0_768_S25x128 : S25x5888.Slices ![0, 768] S25x128
  slices_S25x5888_o0_896_S25x128 : S25x5888.Slices ![0, 896] S25x128
  slices_S25x5888_o0_1024_S25x128 : S25x5888.Slices ![0, 1024] S25x128
  slices_S25x5888_o0_1152_S25x128 : S25x5888.Slices ![0, 1152] S25x128
  slices_S25x5888_o0_1280_S25x128 : S25x5888.Slices ![0, 1280] S25x128
  slices_S25x5888_o0_1408_S25x128 : S25x5888.Slices ![0, 1408] S25x128
  slices_S25x5888_o0_1536_S25x128 : S25x5888.Slices ![0, 1536] S25x128
  slices_S25x5888_o0_1664_S25x128 : S25x5888.Slices ![0, 1664] S25x128
  slices_S25x5888_o0_1792_S25x128 : S25x5888.Slices ![0, 1792] S25x128
  slices_S25x5888_o0_1920_S25x128 : S25x5888.Slices ![0, 1920] S25x128
  slices_S25x5888_o0_2048_S25x128 : S25x5888.Slices ![0, 2048] S25x128
  slices_S25x5888_o0_2176_S25x128 : S25x5888.Slices ![0, 2176] S25x128
  slices_S25x5888_o0_2304_S25x128 : S25x5888.Slices ![0, 2304] S25x128
  slices_S25x5888_o0_2432_S25x128 : S25x5888.Slices ![0, 2432] S25x128
  slices_S25x5888_o0_2560_S25x128 : S25x5888.Slices ![0, 2560] S25x128
  slices_S25x5888_o0_2688_S25x128 : S25x5888.Slices ![0, 2688] S25x128
  slices_S25x5888_o0_2816_S25x128 : S25x5888.Slices ![0, 2816] S25x128
  slices_S25x5888_o0_2944_S25x128 : S25x5888.Slices ![0, 2944] S25x128
  slices_S25x5888_o0_3072_S25x128 : S25x5888.Slices ![0, 3072] S25x128
  slices_S25x5888_o0_3200_S25x128 : S25x5888.Slices ![0, 3200] S25x128
  slices_S25x5888_o0_3328_S25x128 : S25x5888.Slices ![0, 3328] S25x128
  slices_S25x5888_o0_3456_S25x128 : S25x5888.Slices ![0, 3456] S25x128
  slices_S25x5888_o0_3584_S25x128 : S25x5888.Slices ![0, 3584] S25x128
  slices_S25x5888_o0_3712_S25x128 : S25x5888.Slices ![0, 3712] S25x128
  slices_S25x5888_o0_3840_S25x128 : S25x5888.Slices ![0, 3840] S25x128
  slices_S25x5888_o0_3968_S25x128 : S25x5888.Slices ![0, 3968] S25x128
  slices_S25x5888_o0_4096_S25x128 : S25x5888.Slices ![0, 4096] S25x128
  slices_S25x5888_o0_4224_S25x128 : S25x5888.Slices ![0, 4224] S25x128
  slices_S25x5888_o0_4352_S25x128 : S25x5888.Slices ![0, 4352] S25x128
  slices_S25x5888_o0_4480_S25x128 : S25x5888.Slices ![0, 4480] S25x128
  slices_S25x5888_o0_4608_S25x128 : S25x5888.Slices ![0, 4608] S25x128
  slices_S25x5888_o0_4736_S25x128 : S25x5888.Slices ![0, 4736] S25x128
  slices_S25x5888_o0_4864_S25x128 : S25x5888.Slices ![0, 4864] S25x128
  slices_S25x5888_o0_4992_S25x128 : S25x5888.Slices ![0, 4992] S25x128
  slices_S25x5888_o0_5120_S25x128 : S25x5888.Slices ![0, 5120] S25x128
  slices_S25x5888_o0_5248_S25x128 : S25x5888.Slices ![0, 5248] S25x128
  slices_S25x5888_o0_5376_S25x128 : S25x5888.Slices ![0, 5376] S25x128
  slices_S25x5888_o0_5504_S25x128 : S25x5888.Slices ![0, 5504] S25x128
  slices_S25x5888_o0_5632_S25x128 : S25x5888.Slices ![0, 5632] S25x128
  slices_S25x5888_o0_5760_S25x128 : S25x5888.Slices ![0, 5760] S25x128
  slices_S50x5888_o0_0_S50x128 : S50x5888.Slices ![0, 0] S50x128
  slices_S50x5888_o0_128_S50x128 : S50x5888.Slices ![0, 128] S50x128
  slices_S50x5888_o0_256_S50x128 : S50x5888.Slices ![0, 256] S50x128
  slices_S50x5888_o0_384_S50x128 : S50x5888.Slices ![0, 384] S50x128
  slices_S50x5888_o0_512_S50x128 : S50x5888.Slices ![0, 512] S50x128
  slices_S50x5888_o0_640_S50x128 : S50x5888.Slices ![0, 640] S50x128
  slices_S50x5888_o0_768_S50x128 : S50x5888.Slices ![0, 768] S50x128
  slices_S50x5888_o0_896_S50x128 : S50x5888.Slices ![0, 896] S50x128
  slices_S50x5888_o0_1024_S50x128 : S50x5888.Slices ![0, 1024] S50x128
  slices_S50x5888_o0_1152_S50x128 : S50x5888.Slices ![0, 1152] S50x128
  slices_S50x5888_o0_1280_S50x128 : S50x5888.Slices ![0, 1280] S50x128
  slices_S50x5888_o0_1408_S50x128 : S50x5888.Slices ![0, 1408] S50x128
  slices_S50x5888_o0_1536_S50x128 : S50x5888.Slices ![0, 1536] S50x128
  slices_S50x5888_o0_1664_S50x128 : S50x5888.Slices ![0, 1664] S50x128
  slices_S50x5888_o0_1792_S50x128 : S50x5888.Slices ![0, 1792] S50x128
  slices_S50x5888_o0_1920_S50x128 : S50x5888.Slices ![0, 1920] S50x128
  slices_S50x5888_o0_2048_S50x128 : S50x5888.Slices ![0, 2048] S50x128
  slices_S50x5888_o0_2176_S50x128 : S50x5888.Slices ![0, 2176] S50x128
  slices_S50x5888_o0_2304_S50x128 : S50x5888.Slices ![0, 2304] S50x128
  slices_S50x5888_o0_2432_S50x128 : S50x5888.Slices ![0, 2432] S50x128
  slices_S50x5888_o0_2560_S50x128 : S50x5888.Slices ![0, 2560] S50x128
  slices_S50x5888_o0_2688_S50x128 : S50x5888.Slices ![0, 2688] S50x128
  slices_S50x5888_o0_2816_S50x128 : S50x5888.Slices ![0, 2816] S50x128
  slices_S50x5888_o0_2944_S50x128 : S50x5888.Slices ![0, 2944] S50x128
  slices_S50x5888_o0_3072_S50x128 : S50x5888.Slices ![0, 3072] S50x128
  slices_S50x5888_o0_3200_S50x128 : S50x5888.Slices ![0, 3200] S50x128
  slices_S50x5888_o0_3328_S50x128 : S50x5888.Slices ![0, 3328] S50x128
  slices_S50x5888_o0_3456_S50x128 : S50x5888.Slices ![0, 3456] S50x128
  slices_S50x5888_o0_3584_S50x128 : S50x5888.Slices ![0, 3584] S50x128
  slices_S50x5888_o0_3712_S50x128 : S50x5888.Slices ![0, 3712] S50x128
  slices_S50x5888_o0_3840_S50x128 : S50x5888.Slices ![0, 3840] S50x128
  slices_S50x5888_o0_3968_S50x128 : S50x5888.Slices ![0, 3968] S50x128
  slices_S50x5888_o0_4096_S50x128 : S50x5888.Slices ![0, 4096] S50x128
  slices_S50x5888_o0_4224_S50x128 : S50x5888.Slices ![0, 4224] S50x128
  slices_S50x5888_o0_4352_S50x128 : S50x5888.Slices ![0, 4352] S50x128
  slices_S50x5888_o0_4480_S50x128 : S50x5888.Slices ![0, 4480] S50x128
  slices_S50x5888_o0_4608_S50x128 : S50x5888.Slices ![0, 4608] S50x128
  slices_S50x5888_o0_4736_S50x128 : S50x5888.Slices ![0, 4736] S50x128
  slices_S50x5888_o0_4864_S50x128 : S50x5888.Slices ![0, 4864] S50x128
  slices_S50x5888_o0_4992_S50x128 : S50x5888.Slices ![0, 4992] S50x128
  slices_S50x5888_o0_5120_S50x128 : S50x5888.Slices ![0, 5120] S50x128
  slices_S50x5888_o0_5248_S50x128 : S50x5888.Slices ![0, 5248] S50x128
  slices_S50x5888_o0_5376_S50x128 : S50x5888.Slices ![0, 5376] S50x128
  slices_S50x5888_o0_5504_S50x128 : S50x5888.Slices ![0, 5504] S50x128
  slices_S50x5888_o0_5632_S50x128 : S50x5888.Slices ![0, 5632] S50x128
  slices_S50x5888_o0_5760_S50x128 : S50x5888.Slices ![0, 5760] S50x128
  slices_S100x5888_o0_0_S100x128 : S100x5888.Slices ![0, 0] S100x128
  slices_S100x5888_o0_128_S100x128 : S100x5888.Slices ![0, 128] S100x128
  slices_S100x5888_o0_256_S100x128 : S100x5888.Slices ![0, 256] S100x128
  slices_S100x5888_o0_384_S100x128 : S100x5888.Slices ![0, 384] S100x128
  slices_S100x5888_o0_512_S100x128 : S100x5888.Slices ![0, 512] S100x128
  slices_S100x5888_o0_640_S100x128 : S100x5888.Slices ![0, 640] S100x128
  slices_S100x5888_o0_768_S100x128 : S100x5888.Slices ![0, 768] S100x128
  slices_S100x5888_o0_896_S100x128 : S100x5888.Slices ![0, 896] S100x128
  slices_S100x5888_o0_1024_S100x128 : S100x5888.Slices ![0, 1024] S100x128
  slices_S100x5888_o0_1152_S100x128 : S100x5888.Slices ![0, 1152] S100x128
  slices_S100x5888_o0_1280_S100x128 : S100x5888.Slices ![0, 1280] S100x128
  slices_S100x5888_o0_1408_S100x128 : S100x5888.Slices ![0, 1408] S100x128
  slices_S100x5888_o0_1536_S100x128 : S100x5888.Slices ![0, 1536] S100x128
  slices_S100x5888_o0_1664_S100x128 : S100x5888.Slices ![0, 1664] S100x128
  slices_S100x5888_o0_1792_S100x128 : S100x5888.Slices ![0, 1792] S100x128
  slices_S100x5888_o0_1920_S100x128 : S100x5888.Slices ![0, 1920] S100x128
  slices_S100x5888_o0_2048_S100x128 : S100x5888.Slices ![0, 2048] S100x128
  slices_S100x5888_o0_2176_S100x128 : S100x5888.Slices ![0, 2176] S100x128
  slices_S100x5888_o0_2304_S100x128 : S100x5888.Slices ![0, 2304] S100x128
  slices_S100x5888_o0_2432_S100x128 : S100x5888.Slices ![0, 2432] S100x128
  slices_S100x5888_o0_2560_S100x128 : S100x5888.Slices ![0, 2560] S100x128
  slices_S100x5888_o0_2688_S100x128 : S100x5888.Slices ![0, 2688] S100x128
  slices_S100x5888_o0_2816_S100x128 : S100x5888.Slices ![0, 2816] S100x128
  slices_S100x5888_o0_2944_S100x128 : S100x5888.Slices ![0, 2944] S100x128
  slices_S100x5888_o0_3072_S100x128 : S100x5888.Slices ![0, 3072] S100x128
  slices_S100x5888_o0_3200_S100x128 : S100x5888.Slices ![0, 3200] S100x128
  slices_S100x5888_o0_3328_S100x128 : S100x5888.Slices ![0, 3328] S100x128
  slices_S100x5888_o0_3456_S100x128 : S100x5888.Slices ![0, 3456] S100x128
  slices_S100x5888_o0_3584_S100x128 : S100x5888.Slices ![0, 3584] S100x128
  slices_S100x5888_o0_3712_S100x128 : S100x5888.Slices ![0, 3712] S100x128
  slices_S100x5888_o0_3840_S100x128 : S100x5888.Slices ![0, 3840] S100x128
  slices_S100x5888_o0_3968_S100x128 : S100x5888.Slices ![0, 3968] S100x128
  slices_S100x5888_o0_4096_S100x128 : S100x5888.Slices ![0, 4096] S100x128
  slices_S100x5888_o0_4224_S100x128 : S100x5888.Slices ![0, 4224] S100x128
  slices_S100x5888_o0_4352_S100x128 : S100x5888.Slices ![0, 4352] S100x128
  slices_S100x5888_o0_4480_S100x128 : S100x5888.Slices ![0, 4480] S100x128
  slices_S100x5888_o0_4608_S100x128 : S100x5888.Slices ![0, 4608] S100x128
  slices_S100x5888_o0_4736_S100x128 : S100x5888.Slices ![0, 4736] S100x128
  slices_S100x5888_o0_4864_S100x128 : S100x5888.Slices ![0, 4864] S100x128
  slices_S100x5888_o0_4992_S100x128 : S100x5888.Slices ![0, 4992] S100x128
  slices_S100x5888_o0_5120_S100x128 : S100x5888.Slices ![0, 5120] S100x128
  slices_S100x5888_o0_5248_S100x128 : S100x5888.Slices ![0, 5248] S100x128
  slices_S100x5888_o0_5376_S100x128 : S100x5888.Slices ![0, 5376] S100x128
  slices_S100x5888_o0_5504_S100x128 : S100x5888.Slices ![0, 5504] S100x128
  slices_S100x5888_o0_5632_S100x128 : S100x5888.Slices ![0, 5632] S100x128
  slices_S100x5888_o0_5760_S100x128 : S100x5888.Slices ![0, 5760] S100x128
  inb_S1x11776_S1x11776_0_0 : ∀ a, (![0, 0] : Fin 2 → Nat) a + S1x11776.size a ≤ S1x11776.size a
  h_S1x11776 : 0 < S1x11776.numel
  shapeCasts_S1x11776_S1x11776 : S1x11776.ShapeCasts S1x11776
  broadcasts_S25x1_S25x11776 : S25x1.Broadcasts S25x11776
  broadcasts_S50x1_S50x11776 : S50x1.Broadcasts S50x11776
  concatenates_S50x11776_S25x11776_S75x11776_d0 : Shape.Concatenates [S50x11776, S25x11776] S75x11776 0
  broadcasts_S100x1_S100x11776 : S100x1.Broadcasts S100x11776
  slices_S25x11776_o0_0_S25x128 : S25x11776.Slices ![0, 0] S25x128
  slices_S25x11776_o0_128_S25x128 : S25x11776.Slices ![0, 128] S25x128
  slices_S25x11776_o0_256_S25x128 : S25x11776.Slices ![0, 256] S25x128
  slices_S25x11776_o0_384_S25x128 : S25x11776.Slices ![0, 384] S25x128
  slices_S25x11776_o0_512_S25x128 : S25x11776.Slices ![0, 512] S25x128
  slices_S25x11776_o0_640_S25x128 : S25x11776.Slices ![0, 640] S25x128
  slices_S25x11776_o0_768_S25x128 : S25x11776.Slices ![0, 768] S25x128
  slices_S25x11776_o0_896_S25x128 : S25x11776.Slices ![0, 896] S25x128
  slices_S25x11776_o0_1024_S25x128 : S25x11776.Slices ![0, 1024] S25x128
  slices_S25x11776_o0_1152_S25x128 : S25x11776.Slices ![0, 1152] S25x128
  slices_S25x11776_o0_1280_S25x128 : S25x11776.Slices ![0, 1280] S25x128
  slices_S25x11776_o0_1408_S25x128 : S25x11776.Slices ![0, 1408] S25x128
  slices_S25x11776_o0_1536_S25x128 : S25x11776.Slices ![0, 1536] S25x128
  slices_S25x11776_o0_1664_S25x128 : S25x11776.Slices ![0, 1664] S25x128
  slices_S25x11776_o0_1792_S25x128 : S25x11776.Slices ![0, 1792] S25x128
  slices_S25x11776_o0_1920_S25x128 : S25x11776.Slices ![0, 1920] S25x128
  slices_S25x11776_o0_2048_S25x128 : S25x11776.Slices ![0, 2048] S25x128
  slices_S25x11776_o0_2176_S25x128 : S25x11776.Slices ![0, 2176] S25x128
  slices_S25x11776_o0_2304_S25x128 : S25x11776.Slices ![0, 2304] S25x128
  slices_S25x11776_o0_2432_S25x128 : S25x11776.Slices ![0, 2432] S25x128
  slices_S25x11776_o0_2560_S25x128 : S25x11776.Slices ![0, 2560] S25x128
  slices_S25x11776_o0_2688_S25x128 : S25x11776.Slices ![0, 2688] S25x128
  slices_S25x11776_o0_2816_S25x128 : S25x11776.Slices ![0, 2816] S25x128
  slices_S25x11776_o0_2944_S25x128 : S25x11776.Slices ![0, 2944] S25x128
  slices_S25x11776_o0_3072_S25x128 : S25x11776.Slices ![0, 3072] S25x128
  slices_S25x11776_o0_3200_S25x128 : S25x11776.Slices ![0, 3200] S25x128
  slices_S25x11776_o0_3328_S25x128 : S25x11776.Slices ![0, 3328] S25x128
  slices_S25x11776_o0_3456_S25x128 : S25x11776.Slices ![0, 3456] S25x128
  slices_S25x11776_o0_3584_S25x128 : S25x11776.Slices ![0, 3584] S25x128
  slices_S25x11776_o0_3712_S25x128 : S25x11776.Slices ![0, 3712] S25x128
  slices_S25x11776_o0_3840_S25x128 : S25x11776.Slices ![0, 3840] S25x128
  slices_S25x11776_o0_3968_S25x128 : S25x11776.Slices ![0, 3968] S25x128
  slices_S25x11776_o0_4096_S25x128 : S25x11776.Slices ![0, 4096] S25x128
  slices_S25x11776_o0_4224_S25x128 : S25x11776.Slices ![0, 4224] S25x128
  slices_S25x11776_o0_4352_S25x128 : S25x11776.Slices ![0, 4352] S25x128
  slices_S25x11776_o0_4480_S25x128 : S25x11776.Slices ![0, 4480] S25x128
  slices_S25x11776_o0_4608_S25x128 : S25x11776.Slices ![0, 4608] S25x128
  slices_S25x11776_o0_4736_S25x128 : S25x11776.Slices ![0, 4736] S25x128
  slices_S25x11776_o0_4864_S25x128 : S25x11776.Slices ![0, 4864] S25x128
  slices_S25x11776_o0_4992_S25x128 : S25x11776.Slices ![0, 4992] S25x128
  slices_S25x11776_o0_5120_S25x128 : S25x11776.Slices ![0, 5120] S25x128
  slices_S25x11776_o0_5248_S25x128 : S25x11776.Slices ![0, 5248] S25x128
  slices_S25x11776_o0_5376_S25x128 : S25x11776.Slices ![0, 5376] S25x128
  slices_S25x11776_o0_5504_S25x128 : S25x11776.Slices ![0, 5504] S25x128
  slices_S25x11776_o0_5632_S25x128 : S25x11776.Slices ![0, 5632] S25x128
  slices_S25x11776_o0_5760_S25x128 : S25x11776.Slices ![0, 5760] S25x128
  slices_S25x11776_o0_5888_S25x128 : S25x11776.Slices ![0, 5888] S25x128
  slices_S25x11776_o0_6016_S25x128 : S25x11776.Slices ![0, 6016] S25x128
  slices_S25x11776_o0_6144_S25x128 : S25x11776.Slices ![0, 6144] S25x128
  slices_S25x11776_o0_6272_S25x128 : S25x11776.Slices ![0, 6272] S25x128
  slices_S25x11776_o0_6400_S25x128 : S25x11776.Slices ![0, 6400] S25x128
  slices_S25x11776_o0_6528_S25x128 : S25x11776.Slices ![0, 6528] S25x128
  slices_S25x11776_o0_6656_S25x128 : S25x11776.Slices ![0, 6656] S25x128
  slices_S25x11776_o0_6784_S25x128 : S25x11776.Slices ![0, 6784] S25x128
  slices_S25x11776_o0_6912_S25x128 : S25x11776.Slices ![0, 6912] S25x128
  slices_S25x11776_o0_7040_S25x128 : S25x11776.Slices ![0, 7040] S25x128
  slices_S25x11776_o0_7168_S25x128 : S25x11776.Slices ![0, 7168] S25x128
  slices_S25x11776_o0_7296_S25x128 : S25x11776.Slices ![0, 7296] S25x128
  slices_S25x11776_o0_7424_S25x128 : S25x11776.Slices ![0, 7424] S25x128
  slices_S25x11776_o0_7552_S25x128 : S25x11776.Slices ![0, 7552] S25x128
  slices_S25x11776_o0_7680_S25x128 : S25x11776.Slices ![0, 7680] S25x128
  slices_S25x11776_o0_7808_S25x128 : S25x11776.Slices ![0, 7808] S25x128
  slices_S25x11776_o0_7936_S25x128 : S25x11776.Slices ![0, 7936] S25x128
  slices_S25x11776_o0_8064_S25x128 : S25x11776.Slices ![0, 8064] S25x128
  slices_S25x11776_o0_8192_S25x128 : S25x11776.Slices ![0, 8192] S25x128
  slices_S25x11776_o0_8320_S25x128 : S25x11776.Slices ![0, 8320] S25x128
  slices_S25x11776_o0_8448_S25x128 : S25x11776.Slices ![0, 8448] S25x128
  slices_S25x11776_o0_8576_S25x128 : S25x11776.Slices ![0, 8576] S25x128
  slices_S25x11776_o0_8704_S25x128 : S25x11776.Slices ![0, 8704] S25x128
  slices_S25x11776_o0_8832_S25x128 : S25x11776.Slices ![0, 8832] S25x128
  slices_S25x11776_o0_8960_S25x128 : S25x11776.Slices ![0, 8960] S25x128
  slices_S25x11776_o0_9088_S25x128 : S25x11776.Slices ![0, 9088] S25x128
  slices_S25x11776_o0_9216_S25x128 : S25x11776.Slices ![0, 9216] S25x128
  slices_S25x11776_o0_9344_S25x128 : S25x11776.Slices ![0, 9344] S25x128
  slices_S25x11776_o0_9472_S25x128 : S25x11776.Slices ![0, 9472] S25x128
  slices_S25x11776_o0_9600_S25x128 : S25x11776.Slices ![0, 9600] S25x128
  slices_S25x11776_o0_9728_S25x128 : S25x11776.Slices ![0, 9728] S25x128
  slices_S25x11776_o0_9856_S25x128 : S25x11776.Slices ![0, 9856] S25x128
  slices_S25x11776_o0_9984_S25x128 : S25x11776.Slices ![0, 9984] S25x128
  slices_S25x11776_o0_10112_S25x128 : S25x11776.Slices ![0, 10112] S25x128
  slices_S25x11776_o0_10240_S25x128 : S25x11776.Slices ![0, 10240] S25x128
  slices_S25x11776_o0_10368_S25x128 : S25x11776.Slices ![0, 10368] S25x128
  slices_S25x11776_o0_10496_S25x128 : S25x11776.Slices ![0, 10496] S25x128
  slices_S25x11776_o0_10624_S25x128 : S25x11776.Slices ![0, 10624] S25x128
  slices_S25x11776_o0_10752_S25x128 : S25x11776.Slices ![0, 10752] S25x128
  slices_S25x11776_o0_10880_S25x128 : S25x11776.Slices ![0, 10880] S25x128
  slices_S25x11776_o0_11008_S25x128 : S25x11776.Slices ![0, 11008] S25x128
  slices_S25x11776_o0_11136_S25x128 : S25x11776.Slices ![0, 11136] S25x128
  slices_S25x11776_o0_11264_S25x128 : S25x11776.Slices ![0, 11264] S25x128
  slices_S25x11776_o0_11392_S25x128 : S25x11776.Slices ![0, 11392] S25x128
  slices_S25x11776_o0_11520_S25x128 : S25x11776.Slices ![0, 11520] S25x128
  slices_S25x11776_o0_11648_S25x128 : S25x11776.Slices ![0, 11648] S25x128
  slices_S50x11776_o0_0_S50x128 : S50x11776.Slices ![0, 0] S50x128
  slices_S50x11776_o0_128_S50x128 : S50x11776.Slices ![0, 128] S50x128
  slices_S50x11776_o0_256_S50x128 : S50x11776.Slices ![0, 256] S50x128
  slices_S50x11776_o0_384_S50x128 : S50x11776.Slices ![0, 384] S50x128
  slices_S50x11776_o0_512_S50x128 : S50x11776.Slices ![0, 512] S50x128
  slices_S50x11776_o0_640_S50x128 : S50x11776.Slices ![0, 640] S50x128
  slices_S50x11776_o0_768_S50x128 : S50x11776.Slices ![0, 768] S50x128
  slices_S50x11776_o0_896_S50x128 : S50x11776.Slices ![0, 896] S50x128
  slices_S50x11776_o0_1024_S50x128 : S50x11776.Slices ![0, 1024] S50x128
  slices_S50x11776_o0_1152_S50x128 : S50x11776.Slices ![0, 1152] S50x128
  slices_S50x11776_o0_1280_S50x128 : S50x11776.Slices ![0, 1280] S50x128
  slices_S50x11776_o0_1408_S50x128 : S50x11776.Slices ![0, 1408] S50x128
  slices_S50x11776_o0_1536_S50x128 : S50x11776.Slices ![0, 1536] S50x128
  slices_S50x11776_o0_1664_S50x128 : S50x11776.Slices ![0, 1664] S50x128
  slices_S50x11776_o0_1792_S50x128 : S50x11776.Slices ![0, 1792] S50x128
  slices_S50x11776_o0_1920_S50x128 : S50x11776.Slices ![0, 1920] S50x128
  slices_S50x11776_o0_2048_S50x128 : S50x11776.Slices ![0, 2048] S50x128
  slices_S50x11776_o0_2176_S50x128 : S50x11776.Slices ![0, 2176] S50x128
  slices_S50x11776_o0_2304_S50x128 : S50x11776.Slices ![0, 2304] S50x128
  slices_S50x11776_o0_2432_S50x128 : S50x11776.Slices ![0, 2432] S50x128
  slices_S50x11776_o0_2560_S50x128 : S50x11776.Slices ![0, 2560] S50x128
  slices_S50x11776_o0_2688_S50x128 : S50x11776.Slices ![0, 2688] S50x128
  slices_S50x11776_o0_2816_S50x128 : S50x11776.Slices ![0, 2816] S50x128
  slices_S50x11776_o0_2944_S50x128 : S50x11776.Slices ![0, 2944] S50x128
  slices_S50x11776_o0_3072_S50x128 : S50x11776.Slices ![0, 3072] S50x128
  slices_S50x11776_o0_3200_S50x128 : S50x11776.Slices ![0, 3200] S50x128
  slices_S50x11776_o0_3328_S50x128 : S50x11776.Slices ![0, 3328] S50x128
  slices_S50x11776_o0_3456_S50x128 : S50x11776.Slices ![0, 3456] S50x128
  slices_S50x11776_o0_3584_S50x128 : S50x11776.Slices ![0, 3584] S50x128
  slices_S50x11776_o0_3712_S50x128 : S50x11776.Slices ![0, 3712] S50x128
  slices_S50x11776_o0_3840_S50x128 : S50x11776.Slices ![0, 3840] S50x128
  slices_S50x11776_o0_3968_S50x128 : S50x11776.Slices ![0, 3968] S50x128
  slices_S50x11776_o0_4096_S50x128 : S50x11776.Slices ![0, 4096] S50x128
  slices_S50x11776_o0_4224_S50x128 : S50x11776.Slices ![0, 4224] S50x128
  slices_S50x11776_o0_4352_S50x128 : S50x11776.Slices ![0, 4352] S50x128
  slices_S50x11776_o0_4480_S50x128 : S50x11776.Slices ![0, 4480] S50x128
  slices_S50x11776_o0_4608_S50x128 : S50x11776.Slices ![0, 4608] S50x128
  slices_S50x11776_o0_4736_S50x128 : S50x11776.Slices ![0, 4736] S50x128
  slices_S50x11776_o0_4864_S50x128 : S50x11776.Slices ![0, 4864] S50x128
  slices_S50x11776_o0_4992_S50x128 : S50x11776.Slices ![0, 4992] S50x128
  slices_S50x11776_o0_5120_S50x128 : S50x11776.Slices ![0, 5120] S50x128
  slices_S50x11776_o0_5248_S50x128 : S50x11776.Slices ![0, 5248] S50x128
  slices_S50x11776_o0_5376_S50x128 : S50x11776.Slices ![0, 5376] S50x128
  slices_S50x11776_o0_5504_S50x128 : S50x11776.Slices ![0, 5504] S50x128
  slices_S50x11776_o0_5632_S50x128 : S50x11776.Slices ![0, 5632] S50x128
  slices_S50x11776_o0_5760_S50x128 : S50x11776.Slices ![0, 5760] S50x128
  slices_S50x11776_o0_5888_S50x128 : S50x11776.Slices ![0, 5888] S50x128
  slices_S50x11776_o0_6016_S50x128 : S50x11776.Slices ![0, 6016] S50x128
  slices_S50x11776_o0_6144_S50x128 : S50x11776.Slices ![0, 6144] S50x128
  slices_S50x11776_o0_6272_S50x128 : S50x11776.Slices ![0, 6272] S50x128
  slices_S50x11776_o0_6400_S50x128 : S50x11776.Slices ![0, 6400] S50x128
  slices_S50x11776_o0_6528_S50x128 : S50x11776.Slices ![0, 6528] S50x128
  slices_S50x11776_o0_6656_S50x128 : S50x11776.Slices ![0, 6656] S50x128
  slices_S50x11776_o0_6784_S50x128 : S50x11776.Slices ![0, 6784] S50x128
  slices_S50x11776_o0_6912_S50x128 : S50x11776.Slices ![0, 6912] S50x128
  slices_S50x11776_o0_7040_S50x128 : S50x11776.Slices ![0, 7040] S50x128
  slices_S50x11776_o0_7168_S50x128 : S50x11776.Slices ![0, 7168] S50x128
  slices_S50x11776_o0_7296_S50x128 : S50x11776.Slices ![0, 7296] S50x128
  slices_S50x11776_o0_7424_S50x128 : S50x11776.Slices ![0, 7424] S50x128
  slices_S50x11776_o0_7552_S50x128 : S50x11776.Slices ![0, 7552] S50x128
  slices_S50x11776_o0_7680_S50x128 : S50x11776.Slices ![0, 7680] S50x128
  slices_S50x11776_o0_7808_S50x128 : S50x11776.Slices ![0, 7808] S50x128
  slices_S50x11776_o0_7936_S50x128 : S50x11776.Slices ![0, 7936] S50x128
  slices_S50x11776_o0_8064_S50x128 : S50x11776.Slices ![0, 8064] S50x128
  slices_S50x11776_o0_8192_S50x128 : S50x11776.Slices ![0, 8192] S50x128
  slices_S50x11776_o0_8320_S50x128 : S50x11776.Slices ![0, 8320] S50x128
  slices_S50x11776_o0_8448_S50x128 : S50x11776.Slices ![0, 8448] S50x128
  slices_S50x11776_o0_8576_S50x128 : S50x11776.Slices ![0, 8576] S50x128
  slices_S50x11776_o0_8704_S50x128 : S50x11776.Slices ![0, 8704] S50x128
  slices_S50x11776_o0_8832_S50x128 : S50x11776.Slices ![0, 8832] S50x128
  slices_S50x11776_o0_8960_S50x128 : S50x11776.Slices ![0, 8960] S50x128
  slices_S50x11776_o0_9088_S50x128 : S50x11776.Slices ![0, 9088] S50x128
  slices_S50x11776_o0_9216_S50x128 : S50x11776.Slices ![0, 9216] S50x128
  slices_S50x11776_o0_9344_S50x128 : S50x11776.Slices ![0, 9344] S50x128
  slices_S50x11776_o0_9472_S50x128 : S50x11776.Slices ![0, 9472] S50x128
  slices_S50x11776_o0_9600_S50x128 : S50x11776.Slices ![0, 9600] S50x128
  slices_S50x11776_o0_9728_S50x128 : S50x11776.Slices ![0, 9728] S50x128
  slices_S50x11776_o0_9856_S50x128 : S50x11776.Slices ![0, 9856] S50x128
  slices_S50x11776_o0_9984_S50x128 : S50x11776.Slices ![0, 9984] S50x128
  slices_S50x11776_o0_10112_S50x128 : S50x11776.Slices ![0, 10112] S50x128
  slices_S50x11776_o0_10240_S50x128 : S50x11776.Slices ![0, 10240] S50x128
  slices_S50x11776_o0_10368_S50x128 : S50x11776.Slices ![0, 10368] S50x128
  slices_S50x11776_o0_10496_S50x128 : S50x11776.Slices ![0, 10496] S50x128
  slices_S50x11776_o0_10624_S50x128 : S50x11776.Slices ![0, 10624] S50x128
  slices_S50x11776_o0_10752_S50x128 : S50x11776.Slices ![0, 10752] S50x128
  slices_S50x11776_o0_10880_S50x128 : S50x11776.Slices ![0, 10880] S50x128
  slices_S50x11776_o0_11008_S50x128 : S50x11776.Slices ![0, 11008] S50x128
  slices_S50x11776_o0_11136_S50x128 : S50x11776.Slices ![0, 11136] S50x128
  slices_S50x11776_o0_11264_S50x128 : S50x11776.Slices ![0, 11264] S50x128
  slices_S50x11776_o0_11392_S50x128 : S50x11776.Slices ![0, 11392] S50x128
  slices_S50x11776_o0_11520_S50x128 : S50x11776.Slices ![0, 11520] S50x128
  slices_S50x11776_o0_11648_S50x128 : S50x11776.Slices ![0, 11648] S50x128
  slices_S100x11776_o0_0_S100x128 : S100x11776.Slices ![0, 0] S100x128
  slices_S100x11776_o0_128_S100x128 : S100x11776.Slices ![0, 128] S100x128
  slices_S100x11776_o0_256_S100x128 : S100x11776.Slices ![0, 256] S100x128
  slices_S100x11776_o0_384_S100x128 : S100x11776.Slices ![0, 384] S100x128
  slices_S100x11776_o0_512_S100x128 : S100x11776.Slices ![0, 512] S100x128
  slices_S100x11776_o0_640_S100x128 : S100x11776.Slices ![0, 640] S100x128
  slices_S100x11776_o0_768_S100x128 : S100x11776.Slices ![0, 768] S100x128
  slices_S100x11776_o0_896_S100x128 : S100x11776.Slices ![0, 896] S100x128
  slices_S100x11776_o0_1024_S100x128 : S100x11776.Slices ![0, 1024] S100x128
  slices_S100x11776_o0_1152_S100x128 : S100x11776.Slices ![0, 1152] S100x128
  slices_S100x11776_o0_1280_S100x128 : S100x11776.Slices ![0, 1280] S100x128
  slices_S100x11776_o0_1408_S100x128 : S100x11776.Slices ![0, 1408] S100x128
  slices_S100x11776_o0_1536_S100x128 : S100x11776.Slices ![0, 1536] S100x128
  slices_S100x11776_o0_1664_S100x128 : S100x11776.Slices ![0, 1664] S100x128
  slices_S100x11776_o0_1792_S100x128 : S100x11776.Slices ![0, 1792] S100x128
  slices_S100x11776_o0_1920_S100x128 : S100x11776.Slices ![0, 1920] S100x128
  slices_S100x11776_o0_2048_S100x128 : S100x11776.Slices ![0, 2048] S100x128
  slices_S100x11776_o0_2176_S100x128 : S100x11776.Slices ![0, 2176] S100x128
  slices_S100x11776_o0_2304_S100x128 : S100x11776.Slices ![0, 2304] S100x128
  slices_S100x11776_o0_2432_S100x128 : S100x11776.Slices ![0, 2432] S100x128
  slices_S100x11776_o0_2560_S100x128 : S100x11776.Slices ![0, 2560] S100x128
  slices_S100x11776_o0_2688_S100x128 : S100x11776.Slices ![0, 2688] S100x128
  slices_S100x11776_o0_2816_S100x128 : S100x11776.Slices ![0, 2816] S100x128
  slices_S100x11776_o0_2944_S100x128 : S100x11776.Slices ![0, 2944] S100x128
  slices_S100x11776_o0_3072_S100x128 : S100x11776.Slices ![0, 3072] S100x128
  slices_S100x11776_o0_3200_S100x128 : S100x11776.Slices ![0, 3200] S100x128
  slices_S100x11776_o0_3328_S100x128 : S100x11776.Slices ![0, 3328] S100x128
  slices_S100x11776_o0_3456_S100x128 : S100x11776.Slices ![0, 3456] S100x128
  slices_S100x11776_o0_3584_S100x128 : S100x11776.Slices ![0, 3584] S100x128
  slices_S100x11776_o0_3712_S100x128 : S100x11776.Slices ![0, 3712] S100x128
  slices_S100x11776_o0_3840_S100x128 : S100x11776.Slices ![0, 3840] S100x128
  slices_S100x11776_o0_3968_S100x128 : S100x11776.Slices ![0, 3968] S100x128
  slices_S100x11776_o0_4096_S100x128 : S100x11776.Slices ![0, 4096] S100x128
  slices_S100x11776_o0_4224_S100x128 : S100x11776.Slices ![0, 4224] S100x128
  slices_S100x11776_o0_4352_S100x128 : S100x11776.Slices ![0, 4352] S100x128
  slices_S100x11776_o0_4480_S100x128 : S100x11776.Slices ![0, 4480] S100x128
  slices_S100x11776_o0_4608_S100x128 : S100x11776.Slices ![0, 4608] S100x128
  slices_S100x11776_o0_4736_S100x128 : S100x11776.Slices ![0, 4736] S100x128
  slices_S100x11776_o0_4864_S100x128 : S100x11776.Slices ![0, 4864] S100x128
  slices_S100x11776_o0_4992_S100x128 : S100x11776.Slices ![0, 4992] S100x128
  slices_S100x11776_o0_5120_S100x128 : S100x11776.Slices ![0, 5120] S100x128
  slices_S100x11776_o0_5248_S100x128 : S100x11776.Slices ![0, 5248] S100x128
  slices_S100x11776_o0_5376_S100x128 : S100x11776.Slices ![0, 5376] S100x128
  slices_S100x11776_o0_5504_S100x128 : S100x11776.Slices ![0, 5504] S100x128
  slices_S100x11776_o0_5632_S100x128 : S100x11776.Slices ![0, 5632] S100x128
  slices_S100x11776_o0_5760_S100x128 : S100x11776.Slices ![0, 5760] S100x128
  slices_S100x11776_o0_5888_S100x128 : S100x11776.Slices ![0, 5888] S100x128
  slices_S100x11776_o0_6016_S100x128 : S100x11776.Slices ![0, 6016] S100x128
  slices_S100x11776_o0_6144_S100x128 : S100x11776.Slices ![0, 6144] S100x128
  slices_S100x11776_o0_6272_S100x128 : S100x11776.Slices ![0, 6272] S100x128
  slices_S100x11776_o0_6400_S100x128 : S100x11776.Slices ![0, 6400] S100x128
  slices_S100x11776_o0_6528_S100x128 : S100x11776.Slices ![0, 6528] S100x128
  slices_S100x11776_o0_6656_S100x128 : S100x11776.Slices ![0, 6656] S100x128
  slices_S100x11776_o0_6784_S100x128 : S100x11776.Slices ![0, 6784] S100x128
  slices_S100x11776_o0_6912_S100x128 : S100x11776.Slices ![0, 6912] S100x128
  slices_S100x11776_o0_7040_S100x128 : S100x11776.Slices ![0, 7040] S100x128
  slices_S100x11776_o0_7168_S100x128 : S100x11776.Slices ![0, 7168] S100x128
  slices_S100x11776_o0_7296_S100x128 : S100x11776.Slices ![0, 7296] S100x128
  slices_S100x11776_o0_7424_S100x128 : S100x11776.Slices ![0, 7424] S100x128
  slices_S100x11776_o0_7552_S100x128 : S100x11776.Slices ![0, 7552] S100x128
  slices_S100x11776_o0_7680_S100x128 : S100x11776.Slices ![0, 7680] S100x128
  slices_S100x11776_o0_7808_S100x128 : S100x11776.Slices ![0, 7808] S100x128
  slices_S100x11776_o0_7936_S100x128 : S100x11776.Slices ![0, 7936] S100x128
  slices_S100x11776_o0_8064_S100x128 : S100x11776.Slices ![0, 8064] S100x128
  slices_S100x11776_o0_8192_S100x128 : S100x11776.Slices ![0, 8192] S100x128
  slices_S100x11776_o0_8320_S100x128 : S100x11776.Slices ![0, 8320] S100x128
  slices_S100x11776_o0_8448_S100x128 : S100x11776.Slices ![0, 8448] S100x128
  slices_S100x11776_o0_8576_S100x128 : S100x11776.Slices ![0, 8576] S100x128
  slices_S100x11776_o0_8704_S100x128 : S100x11776.Slices ![0, 8704] S100x128
  slices_S100x11776_o0_8832_S100x128 : S100x11776.Slices ![0, 8832] S100x128
  slices_S100x11776_o0_8960_S100x128 : S100x11776.Slices ![0, 8960] S100x128
  slices_S100x11776_o0_9088_S100x128 : S100x11776.Slices ![0, 9088] S100x128
  slices_S100x11776_o0_9216_S100x128 : S100x11776.Slices ![0, 9216] S100x128
  slices_S100x11776_o0_9344_S100x128 : S100x11776.Slices ![0, 9344] S100x128
  slices_S100x11776_o0_9472_S100x128 : S100x11776.Slices ![0, 9472] S100x128
  slices_S100x11776_o0_9600_S100x128 : S100x11776.Slices ![0, 9600] S100x128
  slices_S100x11776_o0_9728_S100x128 : S100x11776.Slices ![0, 9728] S100x128
  slices_S100x11776_o0_9856_S100x128 : S100x11776.Slices ![0, 9856] S100x128
  slices_S100x11776_o0_9984_S100x128 : S100x11776.Slices ![0, 9984] S100x128
  slices_S100x11776_o0_10112_S100x128 : S100x11776.Slices ![0, 10112] S100x128
  slices_S100x11776_o0_10240_S100x128 : S100x11776.Slices ![0, 10240] S100x128
  slices_S100x11776_o0_10368_S100x128 : S100x11776.Slices ![0, 10368] S100x128
  slices_S100x11776_o0_10496_S100x128 : S100x11776.Slices ![0, 10496] S100x128
  slices_S100x11776_o0_10624_S100x128 : S100x11776.Slices ![0, 10624] S100x128
  slices_S100x11776_o0_10752_S100x128 : S100x11776.Slices ![0, 10752] S100x128
  slices_S100x11776_o0_10880_S100x128 : S100x11776.Slices ![0, 10880] S100x128
  slices_S100x11776_o0_11008_S100x128 : S100x11776.Slices ![0, 11008] S100x128
  slices_S100x11776_o0_11136_S100x128 : S100x11776.Slices ![0, 11136] S100x128
  slices_S100x11776_o0_11264_S100x128 : S100x11776.Slices ![0, 11264] S100x128
  slices_S100x11776_o0_11392_S100x128 : S100x11776.Slices ![0, 11392] S100x128
  slices_S100x11776_o0_11520_S100x128 : S100x11776.Slices ![0, 11520] S100x128
  slices_S100x11776_o0_11648_S100x128 : S100x11776.Slices ![0, 11648] S100x128
  concatenates_S50x128_S50x128_S100x128_d0 : Shape.Concatenates [S50x128, S50x128] S100x128 0
  concatenates_S25x128_S25x128_S25x128_S25x128_S100x128_d0 : Shape.Concatenates [S25x128, S25x128, S25x128, S25x128] S100x128 0
  inb_S100x128_S100x128_0_0 : ∀ a, (![0, 0] : Fin 2 → Nat) a + S100x128.size a ≤ S100x128.size a
  h_S100x128 : 0 < S100x128.numel
  transposes_S100x8192_S8192x100_1_0 : S100x8192.Transposes [1, 0] S8192x100
  shapeCasts_S8192x100_S1x8192x100 : S8192x100.ShapeCasts S1x8192x100
  dot_S25x1_S1x5888_S25x5888_1_0_0_1_n_n_wf : DotDims.WF S25x1 S1x5888 S25x5888 [1] [0] [0] [1] [] []
  dot_S50x25_S25x5888_S50x5888_1_0_0_1_n_n_wf : DotDims.WF S50x25 S25x5888 S50x5888 [1] [0] [0] [1] [] []
  dot_S100x75_S75x5888_S100x5888_1_0_0_1_n_n_wf : DotDims.WF S100x75 S75x5888 S100x5888 [1] [0] [0] [1] [] []
  dot_S25x1_S1x11776_S25x11776_1_0_0_1_n_n_wf : DotDims.WF S25x1 S1x11776 S25x11776 [1] [0] [0] [1] [] []
  dot_S50x25_S25x11776_S50x11776_1_0_0_1_n_n_wf : DotDims.WF S50x25 S25x11776 S50x11776 [1] [0] [0] [1] [] []
  dot_S100x75_S75x11776_S100x11776_1_0_0_1_n_n_wf : DotDims.WF S100x75 S75x11776 S100x11776 [1] [0] [0] [1] [] []
  hcc0_scoped0 : 0 + S_.numel ≤ 67
  hcc0_scoped1 : 1 + S_.numel ≤ 67
  hcc0_scoped2 : 2 + S_.numel ≤ 67
  hcc0_scoped3 : 3 + S_.numel ≤ 67
  hcc0_scoped4 : 4 + S_.numel ≤ 67
  hcc0_scoped5 : 5 + S_.numel ≤ 67
  hcc0_scoped6 : 6 + S_.numel ≤ 67
  hcc0_scoped7 : 7 + S_.numel ≤ 67
  hcc0_scoped8 : 8 + S_.numel ≤ 67
  hcc0_scoped9 : 9 + S_.numel ≤ 67
  hcc0_scoped10 : 10 + S_.numel ≤ 67
  hcc0_scoped11 : 11 + S_.numel ≤ 67
  hcc0_scoped12 : 12 + S_.numel ≤ 67
  hcc0_scoped13 : 13 + S_.numel ≤ 67
  hcc0_scoped14 : 14 + S_.numel ≤ 67
  hcc0_scoped15 : 15 + S_.numel ≤ 67
  hcc0_scoped16 : 16 + S_.numel ≤ 67
  hcc0_scoped17 : 17 + S_.numel ≤ 67
  hcc0_scoped18 : 18 + S_.numel ≤ 67
  hcc0_scoped19 : 19 + S_.numel ≤ 67
  hcc0_scoped20 : 20 + S_.numel ≤ 67
  hcc0_scoped21 : 21 + S_.numel ≤ 67
  hcc0_scoped22 : 22 + S_.numel ≤ 67
  hcc0_scoped23 : 23 + S_.numel ≤ 67
  hcc0_scoped24 : 24 + S_.numel ≤ 67
  hcc0_scoped25 : 25 + S_.numel ≤ 67
  hcc0_scoped26 : 26 + S_.numel ≤ 67
  hcc0_scoped27 : 27 + S_.numel ≤ 67
  hcc0_scoped28 : 28 + S_.numel ≤ 67
  hcc0_scoped29 : 29 + S_.numel ≤ 67
  hcc0_scoped30 : 30 + S_.numel ≤ 67
  hcc0_scoped31 : 31 + S_.numel ≤ 67
  hcc0_scoped32 : 32 + S_.numel ≤ 67
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 8), ∀ a, (k0_off1 i (BitVec.ofNat 32 (4416 * r.val))) a + S4416.size a ≤ S1130496.size a
  k0_t1_ok : k0_t1_loop.OK
  k0_off2_inb : ∀ k0_t1 : Fin k0_t1_loop.trips, ∀ a, (k0_off2 k0_t1) a + S16.size a ≤ S4416.size a
  k0_off3_inb : ∀ k0_t1 : Fin k0_t1_loop.trips, ∀ a, (k0_off3 k0_t1) a + S16.size a ≤ S4416.size a
  k0_off4_inb : ∀ k0_t1 : Fin k0_t1_loop.trips, ∀ a, (k0_off4 k0_t1) a + S16.size a ≤ S4416.size a
  k0_off5_inb : ∀ k0_t1 : Fin k0_t1_loop.trips, ∀ a, (k0_off5 k0_t1) a + S16.size a ≤ S4416.size a
  k0_t2_ok : k0_t2_loop.OK
  k0_off6_inb : ∀ k0_t2 : Fin k0_t2_loop.trips, ∀ a, (k0_off6 k0_t2) a + S16.size a ≤ S4416.size a
  k0_off7_inb : ∀ k0_t2 : Fin k0_t2_loop.trips, ∀ a, (k0_off7 k0_t2) a + S16.size a ≤ S4416.size a
  k0_off8_inb : ∀ k0_t2 : Fin k0_t2_loop.trips, ∀ a, (k0_off8 k0_t2) a + S16.size a ≤ S4416.size a
  k0_off9_inb : ∀ k0_t2 : Fin k0_t2_loop.trips, ∀ a, (k0_off9 k0_t2) a + S16.size a ≤ S4416.size a
  k0_t3_ok : k0_t3_loop.OK
  k0_off10_inb : ∀ k0_t3 : Fin k0_t3_loop.trips, ∀ a, (k0_off10 k0_t3) a + S16.size a ≤ S4416.size a
  k0_off11_inb : ∀ k0_t3 : Fin k0_t3_loop.trips, ∀ a, (k0_off11 k0_t3) a + S16.size a ≤ S4416.size a
  k0_off12_inb : ∀ k0_t3 : Fin k0_t3_loop.trips, ∀ a, (k0_off12 k0_t3) a + S16.size a ≤ S4416.size a
  k0_off13_inb : ∀ k0_t3 : Fin k0_t3_loop.trips, ∀ a, (k0_off13 k0_t3) a + S16.size a ≤ S4416.size a
  k0_t4_ok : k0_t4_loop.OK
  k0_off14_inb : ∀ k0_t4 : Fin k0_t4_loop.trips, ∀ a, (k0_off14 k0_t4) a + S16.size a ≤ S4416.size a
  k0_off15_inb : ∀ k0_t4 : Fin k0_t4_loop.trips, ∀ a, (k0_off15 k0_t4) a + S16.size a ≤ S4416.size a
  k0_off16_inb : ∀ k0_t4 : Fin k0_t4_loop.trips, ∀ a, (k0_off16 k0_t4) a + S16.size a ≤ S4416.size a
  k0_off17_inb : ∀ k0_t4 : Fin k0_t4_loop.trips, ∀ a, (k0_off17 k0_t4) a + S16.size a ≤ S4416.size a
  k0_t5_ok : k0_t5_loop.OK
  k0_off18_inb : ∀ k0_t5 : Fin k0_t5_loop.trips, ∀ a, (k0_off18 k0_t5) a + S16.size a ≤ S4416.size a
  k0_off19_inb : ∀ k0_t5 : Fin k0_t5_loop.trips, ∀ a, (k0_off19 k0_t5) a + S16.size a ≤ S4416.size a
  k0_off20_inb : ∀ k0_t5 : Fin k0_t5_loop.trips, ∀ a, (k0_off20 k0_t5) a + S16.size a ≤ S4416.size a
  k0_off21_inb : ∀ k0_t5 : Fin k0_t5_loop.trips, ∀ a, (k0_off21 k0_t5) a + S16.size a ≤ S4416.size a
  k0_t6_ok : k0_t6_loop.OK
  k0_off22_inb : ∀ k0_t6 : Fin k0_t6_loop.trips, ∀ a, (k0_off22 k0_t6) a + S16.size a ≤ S4416.size a
  k0_off23_inb : ∀ k0_t6 : Fin k0_t6_loop.trips, ∀ a, (k0_off23 k0_t6) a + S16.size a ≤ S4416.size a
  k0_off24_inb : ∀ k0_t6 : Fin k0_t6_loop.trips, ∀ a, (k0_off24 k0_t6) a + S16.size a ≤ S4416.size a
  k0_off25_inb : ∀ k0_t6 : Fin k0_t6_loop.trips, ∀ a, (k0_off25 k0_t6) a + S16.size a ≤ S4416.size a
  k0_t7_ok : k0_t7_loop.OK
  k0_off26_inb : ∀ k0_t7 : Fin k0_t7_loop.trips, ∀ a, (k0_off26 k0_t7) a + S16.size a ≤ S4416.size a
  k0_off27_inb : ∀ k0_t7 : Fin k0_t7_loop.trips, ∀ a, (k0_off27 k0_t7) a + S16.size a ≤ S4416.size a
  k0_off28_inb : ∀ k0_t7 : Fin k0_t7_loop.trips, ∀ a, (k0_off28 k0_t7) a + S16.size a ≤ S4416.size a
  k0_off29_inb : ∀ k0_t7 : Fin k0_t7_loop.trips, ∀ a, (k0_off29 k0_t7) a + S16.size a ≤ S4416.size a
  k0_t8_ok : k0_t8_loop.OK
  k0_off30_inb : ∀ k0_t8 : Fin k0_t8_loop.trips, ∀ a, (k0_off30 k0_t8) a + S16.size a ≤ S4416.size a
  k0_off31_inb : ∀ k0_t8 : Fin k0_t8_loop.trips, ∀ a, (k0_off31 k0_t8) a + S16.size a ≤ S4416.size a
  k0_off32_inb : ∀ k0_t8 : Fin k0_t8_loop.trips, ∀ a, (k0_off32 k0_t8) a + S16.size a ≤ S4416.size a
  k0_off33_inb : ∀ k0_t8 : Fin k0_t8_loop.trips, ∀ a, (k0_off33 k0_t8) a + S16.size a ≤ S4416.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x138.size a ≤ S8192x138.size a
  hwx1_0 : ∀ i : grid1.Coords, EltTy.bits .f32 = 32 ∨ (Rect.block (s := S8192x138) S512x138.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x138.size a ≤ S8192x138.size a
  hwx1_1 : ∀ i : grid1.Coords, EltTy.bits .f32 = 32 ∨ (Rect.block (s := S8192x138) S512x138.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x138.size a ≤ S8192x138.size a
  hwx1_2 : ∀ i : grid1.Coords, EltTy.bits .f32 = 32 ∨ (Rect.block (s := S8192x138) S512x138.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x3.size a ≤ S8192x3.size a
  hwx1_3 : ∀ i : grid1.Coords, EltTy.bits .f32 = 32 ∨ (Rect.block (s := S8192x3) S512x3.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S8192x1.size a
  hwx1_4 : ∀ i : grid1.Coords, EltTy.bits .i32 = 32 ∨ (Rect.block (s := S8192x1) S512x1.size (cc1_transform_4 i) (hinb1_4 i)).WholeWords (EltTy.packing .i32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2x138.size a ≤ S2x138.size a
  hwx1_5 : ∀ i : grid1.Coords, EltTy.bits .f32 = 32 ∨ (Rect.block (s := S2x138) S2x138.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S2x138.size a ≤ S2x138.size a
  hwx1_6 : ∀ i : grid1.Coords, EltTy.bits .f32 = 32 ∨ (Rect.block (s := S2x138) S2x138.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x46.size a ≤ S8192x46.size a
  hwx1_7 : ∀ i : grid1.Coords, EltTy.bits .f32 = 32 ∨ (Rect.block (s := S8192x46) S512x46.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S512x92.size a ≤ S8192x92.size a
  hwx1_8 : ∀ i : grid1.Coords, EltTy.bits .f32 = 32 ∨ (Rect.block (s := S8192x92) S512x92.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x5888.size a ≤ S1x376832.size a
  hwx2_0 : ∀ i : grid2.Coords, EltTy.bits .f32 = 32 ∨ (Rect.block (s := S1x376832) S1x5888.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x11776.size a ≤ S1x753664.size a
  hwx2_1 : ∀ i : grid2.Coords, EltTy.bits .f32 = 32 ∨ (Rect.block (s := S1x753664) S1x11776.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S25x1.size a ≤ S25x1.size a
  hwx2_2 : ∀ i : grid2.Coords, EltTy.bits .f32 = 32 ∨ (Rect.block (s := S25x1) S25x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S25x1.size a ≤ S25x1.size a
  hwx2_3 : ∀ i : grid2.Coords, EltTy.bits .f32 = 32 ∨ (Rect.block (s := S25x1) S25x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S50x25.size a ≤ S50x25.size a
  hwx2_4 : ∀ i : grid2.Coords, EltTy.bits .f32 = 32 ∨ (Rect.block (s := S50x25) S50x25.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S50x1.size a ≤ S50x1.size a
  hwx2_5 : ∀ i : grid2.Coords, EltTy.bits .f32 = 32 ∨ (Rect.block (s := S50x1) S50x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S100x75.size a ≤ S100x75.size a
  hwx2_6 : ∀ i : grid2.Coords, EltTy.bits .f32 = 32 ∨ (Rect.block (s := S100x75) S100x75.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S100x1.size a ≤ S100x1.size a
  hwx2_7 : ∀ i : grid2.Coords, EltTy.bits .f32 = 32 ∨ (Rect.block (s := S100x1) S100x1.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S25x1.size a ≤ S25x1.size a
  hwx2_8 : ∀ i : grid2.Coords, EltTy.bits .f32 = 32 ∨ (Rect.block (s := S25x1) S25x1.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S25x1.size a ≤ S25x1.size a
  hwx2_9 : ∀ i : grid2.Coords, EltTy.bits .f32 = 32 ∨ (Rect.block (s := S25x1) S25x1.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S50x25.size a ≤ S50x25.size a
  hwx2_10 : ∀ i : grid2.Coords, EltTy.bits .f32 = 32 ∨ (Rect.block (s := S50x25) S50x25.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S50x1.size a ≤ S50x1.size a
  hwx2_11 : ∀ i : grid2.Coords, EltTy.bits .f32 = 32 ∨ (Rect.block (s := S50x1) S50x1.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S100x75.size a ≤ S100x75.size a
  hwx2_12 : ∀ i : grid2.Coords, EltTy.bits .f32 = 32 ∨ (Rect.block (s := S100x75) S100x75.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S100x1.size a ≤ S100x1.size a
  hwx2_13 : ∀ i : grid2.Coords, EltTy.bits .f32 = 32 ∨ (Rect.block (s := S100x1) S100x1.size (cc2_transform_13 i) (hinb2_13 i)).WholeWords (EltTy.packing .f32)
  hstage2_14 : ∀ j, (stage2_14 j).IsWhole
  nbuf2_14 : grid2.bufCount reads2_14 false = 2
  hreads2_14 : ∀ i i' : grid2.Coords, (∀ a, reads2_14 a = true → i a = i' a) → cc2_transform_14 i = cc2_transform_14 i'
  hinb2_14 : ∀ (i : grid2.Coords) a, (cc2_transform_14 i a + 1) * S100x128.size a ≤ S100x8192.size a
  hwx2_14 : ∀ i : grid2.Coords, EltTy.bits .f32 = 32 ∨ (Rect.block (s := S100x8192) S100x128.size (cc2_transform_14 i) (hinb2_14 i)).WholeWords (EltTy.packing .f32)

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2
abbrev cc0_scoped3 : DmaSems sig S_ := SemArray.consecutive 3 S_ hcc0_scoped3
abbrev cc0_scoped4 : DmaSems sig S_ := SemArray.consecutive 4 S_ hcc0_scoped4
abbrev cc0_scoped5 : DmaSems sig S_ := SemArray.consecutive 5 S_ hcc0_scoped5
abbrev cc0_scoped6 : DmaSems sig S_ := SemArray.consecutive 6 S_ hcc0_scoped6
abbrev cc0_scoped7 : DmaSems sig S_ := SemArray.consecutive 7 S_ hcc0_scoped7
abbrev cc0_scoped8 : DmaSems sig S_ := SemArray.consecutive 8 S_ hcc0_scoped8
abbrev cc0_scoped9 : DmaSems sig S_ := SemArray.consecutive 9 S_ hcc0_scoped9
abbrev cc0_scoped10 : DmaSems sig S_ := SemArray.consecutive 10 S_ hcc0_scoped10
abbrev cc0_scoped11 : DmaSems sig S_ := SemArray.consecutive 11 S_ hcc0_scoped11
abbrev cc0_scoped12 : DmaSems sig S_ := SemArray.consecutive 12 S_ hcc0_scoped12
abbrev cc0_scoped13 : DmaSems sig S_ := SemArray.consecutive 13 S_ hcc0_scoped13
abbrev cc0_scoped14 : DmaSems sig S_ := SemArray.consecutive 14 S_ hcc0_scoped14
abbrev cc0_scoped15 : DmaSems sig S_ := SemArray.consecutive 15 S_ hcc0_scoped15
abbrev cc0_scoped16 : DmaSems sig S_ := SemArray.consecutive 16 S_ hcc0_scoped16
abbrev cc0_scoped17 : DmaSems sig S_ := SemArray.consecutive 17 S_ hcc0_scoped17
abbrev cc0_scoped18 : DmaSems sig S_ := SemArray.consecutive 18 S_ hcc0_scoped18
abbrev cc0_scoped19 : DmaSems sig S_ := SemArray.consecutive 19 S_ hcc0_scoped19
abbrev cc0_scoped20 : DmaSems sig S_ := SemArray.consecutive 20 S_ hcc0_scoped20
abbrev cc0_scoped21 : DmaSems sig S_ := SemArray.consecutive 21 S_ hcc0_scoped21
abbrev cc0_scoped22 : DmaSems sig S_ := SemArray.consecutive 22 S_ hcc0_scoped22
abbrev cc0_scoped23 : DmaSems sig S_ := SemArray.consecutive 23 S_ hcc0_scoped23
abbrev cc0_scoped24 : DmaSems sig S_ := SemArray.consecutive 24 S_ hcc0_scoped24
abbrev cc0_scoped25 : DmaSems sig S_ := SemArray.consecutive 25 S_ hcc0_scoped25
abbrev cc0_scoped26 : DmaSems sig S_ := SemArray.consecutive 26 S_ hcc0_scoped26
abbrev cc0_scoped27 : DmaSems sig S_ := SemArray.consecutive 27 S_ hcc0_scoped27
abbrev cc0_scoped28 : DmaSems sig S_ := SemArray.consecutive 28 S_ hcc0_scoped28
abbrev cc0_scoped29 : DmaSems sig S_ := SemArray.consecutive 29 S_ hcc0_scoped29
abbrev cc0_scoped30 : DmaSems sig S_ := SemArray.consecutive 30 S_ hcc0_scoped30
abbrev cc0_scoped31 : DmaSems sig S_ := SemArray.consecutive 31 S_ hcc0_scoped31
abbrev cc0_scoped32 : DmaSems sig S_ := SemArray.consecutive 32 S_ hcc0_scoped32
def dot_S25x1_S1x5888_S25x5888_1_0_0_1_n_n : DotDims S25x1 S1x5888 S25x5888 where
  lhsContracting := [1]
  rhsContracting := [0]
  lhsNonContracting := [0]
  rhsNonContracting := [1]
  lhsBatch := []
  rhsBatch := []
  wf := dot_S25x1_S1x5888_S25x5888_1_0_0_1_n_n_wf
def dot_S50x25_S25x5888_S50x5888_1_0_0_1_n_n : DotDims S50x25 S25x5888 S50x5888 where
  lhsContracting := [1]
  rhsContracting := [0]
  lhsNonContracting := [0]
  rhsNonContracting := [1]
  lhsBatch := []
  rhsBatch := []
  wf := dot_S50x25_S25x5888_S50x5888_1_0_0_1_n_n_wf
def dot_S100x75_S75x5888_S100x5888_1_0_0_1_n_n : DotDims S100x75 S75x5888 S100x5888 where
  lhsContracting := [1]
  rhsContracting := [0]
  lhsNonContracting := [0]
  rhsNonContracting := [1]
  lhsBatch := []
  rhsBatch := []
  wf := dot_S100x75_S75x5888_S100x5888_1_0_0_1_n_n_wf
def dot_S25x1_S1x11776_S25x11776_1_0_0_1_n_n : DotDims S25x1 S1x11776 S25x11776 where
  lhsContracting := [1]
  rhsContracting := [0]
  lhsNonContracting := [0]
  rhsNonContracting := [1]
  lhsBatch := []
  rhsBatch := []
  wf := dot_S25x1_S1x11776_S25x11776_1_0_0_1_n_n_wf
def dot_S50x25_S25x11776_S50x11776_1_0_0_1_n_n : DotDims S50x25 S25x11776 S50x11776 where
  lhsContracting := [1]
  rhsContracting := [0]
  lhsNonContracting := [0]
  rhsNonContracting := [1]
  lhsBatch := []
  rhsBatch := []
  wf := dot_S50x25_S25x11776_S50x11776_1_0_0_1_n_n_wf
def dot_S100x75_S75x11776_S100x11776_1_0_0_1_n_n : DotDims S100x75 S75x11776 S100x11776 where
  lhsContracting := [1]
  rhsContracting := [0]
  lhsNonContracting := [0]
  rhsNonContracting := [1]
  lhsBatch := []
  rhsBatch := []
  wf := dot_S100x75_S75x11776_S100x11776_1_0_0_1_n_n_wf

abbrev win1_0 : Pipeline.Window sig grid1 :=
  Pipeline.Window.ofSpec (Memref.whole main_v3) S512x138.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S512x138.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S512x138.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S512x3.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v9) S512x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v10) S2x138.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v11) S2x138.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v12_0) S512x46.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v12_1) S512x92.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v15) S1x5888.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S1x11776.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v31) S25x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v32) S25x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v33) S50x25.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v34) S50x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v24) S100x75.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v35) S100x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v36) S25x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v37) S25x1.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v38) S50x25.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v39) S50x1.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v30) S100x75.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v40) S100x1.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v41) S100x128.size cc2_transform_14 reads2_14 true false 2 stage2_14 sem2_14
    hrank2 hreads2_14 hinb2_14 nbuf2_14 (Memref.isWhole_whole _) hwx2_14 hstage2_14

abbrev win2 : Fin 15 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | ⟨_ + 15, h⟩ => absurd h (Nat.not_lt.2 (Nat.le_add_left _ _))
abbrev spec2 : Fin 15 → Pipeline.WinSpec sig grid2.rank := fun w => (win2 w).toWinSpec

class Facts : Prop extends Facts₀ where

variable [Facts]
-- ==== ReferenceIdeal.lean ====
abbrev S1x30720 : Shape := ⟨2, ![1, 30720]⟩
abbrev S1x10240 : Shape := ⟨2, ![1, 10240]⟩
abbrev S1x8192x138 : Shape := ⟨3, ![1, 8192, 138]⟩
abbrev S2x138x1 : Shape := ⟨3, ![2, 138, 1]⟩
abbrev S1x25 : Shape := ⟨2, ![1, 25]⟩
abbrev S25 : Shape := ⟨1, ![25]⟩
abbrev S25x50 : Shape := ⟨2, ![25, 50]⟩
abbrev S50 : Shape := ⟨1, ![50]⟩
abbrev S50x100 : Shape := ⟨2, ![50, 100]⟩
abbrev S100 : Shape := ⟨1, ![100]⟩
abbrev S1x10240x3 : Shape := ⟨3, ![1, 10240, 3]⟩
abbrev S_ : Shape := ⟨0, ![]⟩
abbrev S1x8192x3 : Shape := ⟨3, ![1, 8192, 3]⟩
abbrev S1x8192x1x3 : Shape := ⟨4, ![1, 8192, 1, 3]⟩
abbrev S1x1130496 : Shape := ⟨2, ![1, 1130496]⟩
abbrev S1x1130496x1 : Shape := ⟨3, ![1, 1130496, 1]⟩
abbrev S1130496x1 : Shape := ⟨2, ![1130496, 1]⟩
abbrev S1 : Shape := ⟨1, ![1]⟩
abbrev S1x1 : Shape := ⟨2, ![1, 1]⟩
abbrev S1130496 : Shape := ⟨1, ![1130496]⟩
abbrev S1x1130496x3 : Shape := ⟨3, ![1, 1130496, 3]⟩
abbrev S1x8192x138x3 : Shape := ⟨4, ![1, 8192, 138, 3]⟩
abbrev S1x8192x138x1 : Shape := ⟨4, ![1, 8192, 138, 1]⟩
abbrev S1x8192 : Shape := ⟨2, ![1, 8192]⟩
abbrev S1x8192x1 : Shape := ⟨3, ![1, 8192, 1]⟩
abbrev S8192x138x1 : Shape := ⟨3, ![8192, 138, 1]⟩
abbrev S8192x1x100 : Shape := ⟨3, ![8192, 1, 100]⟩
abbrev S8192x46x1 : Shape := ⟨3, ![8192, 46, 1]⟩
abbrev S8192x46x25 : Shape := ⟨3, ![8192, 46, 25]⟩
abbrev S1x1x25 : Shape := ⟨3, ![1, 1, 25]⟩
abbrev S8192x46x50 : Shape := ⟨3, ![8192, 46, 50]⟩
abbrev S1x1x50 : Shape := ⟨3, ![1, 1, 50]⟩
abbrev S8192x46x100 : Shape := ⟨3, ![8192, 46, 100]⟩
abbrev S1x1x100 : Shape := ⟨3, ![1, 1, 100]⟩
abbrev S8192x100 : Shape := ⟨2, ![8192, 100]⟩
abbrev S8192x92x1 : Shape := ⟨3, ![8192, 92, 1]⟩
abbrev S8192x92x25 : Shape := ⟨3, ![8192, 92, 25]⟩
abbrev S8192x92x50 : Shape := ⟨3, ![8192, 92, 50]⟩
abbrev S8192x92x100 : Shape := ⟨3, ![8192, 92, 100]⟩
abbrev S1x8192x100 : Shape := ⟨3, ![1, 8192, 100]⟩

abbrev nBuf : Space → Nat
  | .hbm => 204
  | .vmem => 0
  | .smem => 0
  | _ => 0

abbrev hbmTy0_0 (i : Nat) : BufTy := match i % 128 with
  | 0 => ⟨S1x30720, .f32⟩
  | 1 => ⟨S1x10240, .i32⟩
  | 2 => ⟨S1x8192x138, .i32⟩
  | 3 => ⟨S2x138x1, .f32⟩
  | 4 => ⟨S2x138x1, .f32⟩
  | 5 => ⟨S1x25, .f32⟩
  | 6 => ⟨S25, .f32⟩
  | 7 => ⟨S25x50, .f32⟩
  | 8 => ⟨S50, .f32⟩
  | 9 => ⟨S50x100, .f32⟩
  | 10 => ⟨S100, .f32⟩
  | 11 => ⟨S1x25, .f32⟩
  | 12 => ⟨S25, .f32⟩
  | 13 => ⟨S25x50, .f32⟩
  | 14 => ⟨S50, .f32⟩
  | 15 => ⟨S50x100, .f32⟩
  | 16 => ⟨S100, .f32⟩
  | 17 => ⟨S1x10240x3, .f32⟩
  | 18 => ⟨S_, .i32⟩
  | 19 => ⟨S1x8192x138, .i32⟩
  | 20 => ⟨S1x8192x138, .i1⟩
  | 21 => ⟨S_, .i32⟩
  | 22 => ⟨S_, .i32⟩
  | 23 => ⟨S1x8192x138, .i32⟩
  | 24 => ⟨S1x8192x138, .i32⟩
  | 25 => ⟨S1x8192x3, .f32⟩
  | 26 => ⟨S1x8192x1x3, .f32⟩
  | 27 => ⟨S1x1130496, .i32⟩
  | 28 => ⟨S1x1130496x1, .i32⟩
  | 29 => ⟨S_, .i32⟩
  | 30 => ⟨S1x1130496x1, .i32⟩
  | 31 => ⟨S1x1130496x1, .i1⟩
  | 32 => ⟨S_, .i32⟩
  | 33 => ⟨S1x1130496x1, .i32⟩
  | 34 => ⟨S1x1130496x1, .i32⟩
  | 35 => ⟨S1x1130496x1, .i32⟩
  | 36 => ⟨S1130496x1, .i32⟩
  | 37 => ⟨S1, .i32⟩
  | 38 => ⟨S_, .i32⟩
  | 39 => ⟨S1130496x1, .i32⟩
  | 40 => ⟨S1130496x1, .i1⟩
  | 41 => ⟨S1x1, .i32⟩
  | 42 => ⟨S1130496x1, .i32⟩
  | 43 => ⟨S1130496x1, .i1⟩
  | 44 => ⟨S1130496x1, .i1⟩
  | 45 => ⟨S_, .i1⟩
  | 46 => ⟨S1130496, .i1⟩
  | 47 => ⟨S1x1130496x3, .f32⟩
  | 48 => ⟨S1x1130496x3, .i1⟩
  | 49 => ⟨S_, .f32⟩
  | 50 => ⟨S1x1130496x3, .f32⟩
  | 51 => ⟨S1x1130496x3, .f32⟩
  | 52 => ⟨S1x8192x138x3, .f32⟩
  | 53 => ⟨S1x8192x138x3, .f32⟩
  | 54 => ⟨S1x8192x138x3, .f32⟩
  | 55 => ⟨S1x8192x138x3, .f32⟩
  | 56 => ⟨S_, .f32⟩
  | 57 => ⟨S1x8192x138, .f32⟩
  | 58 => ⟨S1x8192x138x1, .f32⟩
  | 59 => ⟨S1x8192x138x1, .f32⟩
  | 60 => ⟨S1x8192x138, .i1⟩
  | 61 => ⟨S1x8192x138x1, .i1⟩
  | 62 => ⟨S1x8192x138x1, .f32⟩
  | 63 => ⟨S1x8192x138x1, .f32⟩
  | 64 => ⟨S_, .f32⟩
  | 65 => ⟨S1x8192x138x1, .f32⟩
  | 66 => ⟨S1x8192x138x1, .f32⟩
  | 67 => ⟨S_, .f32⟩
  | 68 => ⟨S1x8192x138x1, .f32⟩
  | 69 => ⟨S1x8192x138x1, .i1⟩
  | 70 => ⟨S1x8192x138x1, .f32⟩
  | 71 => ⟨S_, .f32⟩
  | 72 => ⟨S1x8192x138x1, .f32⟩
  | 73 => ⟨S1x8192x138x1, .i1⟩
  | 74 => ⟨S1x8192x138x1, .f32⟩
  | 75 => ⟨S1x8192x138x1, .f32⟩
  | 76 => ⟨S_, .f32⟩
  | 77 => ⟨S_, .f32⟩
  | 78 => ⟨S_, .f32⟩
  | 79 => ⟨S1x8192x138x1, .f32⟩
  | 80 => ⟨S1x8192x138x1, .f32⟩
  | 81 => ⟨S_, .f32⟩
  | 82 => ⟨S1x8192x138x1, .f32⟩
  | 83 => ⟨S1x8192x138x1, .f32⟩
  | 84 => ⟨S_, .f32⟩
  | 85 => ⟨S1x8192x138x1, .f32⟩
  | 86 => ⟨S1x8192x138x1, .f32⟩
  | 87 => ⟨S_, .f32⟩
  | 88 => ⟨S1x8192x138x1, .f32⟩
  | 89 => ⟨S1x8192x138x1, .f32⟩
  | 90 => ⟨S_, .f32⟩
  | 91 => ⟨S1x8192x138x1, .f32⟩
  | 92 => ⟨S1x8192x138x1, .f32⟩
  | 93 => ⟨S1x8192x138x1, .f32⟩
  | 94 => ⟨S1x8192x138x1, .f32⟩
  | 95 => ⟨S_, .f32⟩
  | 96 => ⟨S1x8192x138x1, .f32⟩
  | 97 => ⟨S1x8192x138x1, .f32⟩
  | 98 => ⟨S1x8192x138x1, .f32⟩
  | 99 => ⟨S_, .f32⟩
  | 100 => ⟨S1x8192x138x1, .f32⟩
  | 101 => ⟨S1x8192x138x1, .f32⟩
  | 102 => ⟨S1x8192x138x1, .f32⟩
  | 103 => ⟨S_, .f32⟩
  | 104 => ⟨S1x8192x138x1, .f32⟩
  | 105 => ⟨S1x8192x138x1, .f32⟩
  | 106 => ⟨S1x8192x138x1, .f32⟩
  | 107 => ⟨S_, .f32⟩
  | 108 => ⟨S1x8192x138x1, .f32⟩
  | 109 => ⟨S1x8192x138x1, .f32⟩
  | 110 => ⟨S1x8192x138x1, .f32⟩
  | 111 => ⟨S1x8192x138x1, .f32⟩
  | 112 => ⟨S1x8192x138x1, .i1⟩
  | 113 => ⟨S1x8192x138x1, .f32⟩
  | 114 => ⟨S1x8192x138x1, .f32⟩
  | 115 => ⟨S1x8192x138x1, .f32⟩
  | 116 => ⟨S1x8192, .i32⟩
  | 117 => ⟨S_, .i32⟩
  | 118 => ⟨S1x8192, .i32⟩
  | 119 => ⟨S1x8192, .i1⟩
  | 120 => ⟨S_, .i32⟩
  | 121 => ⟨S1x8192, .i32⟩
  | 122 => ⟨S1x8192, .i32⟩
  | 123 => ⟨S1x8192, .i32⟩
  | 124 => ⟨S1x8192x1, .i32⟩
  | 125 => ⟨S1x8192x138x1, .f32⟩
  | 126 => ⟨S_, .i32⟩
  | 127 => ⟨S1x8192, .i32⟩
  | _ => ⟨S1x30720, .f32⟩

abbrev hbmTy0_1 (i : Nat) : BufTy := match i % 128 with
  | 0 => ⟨S1x8192, .i1⟩
  | 1 => ⟨S_, .i32⟩
  | 2 => ⟨S1x8192, .i32⟩
  | 3 => ⟨S1x8192, .i32⟩
  | 4 => ⟨S1x8192, .i32⟩
  | 5 => ⟨S1x8192x1, .i32⟩
  | 6 => ⟨S1x8192x138x1, .f32⟩
  | 7 => ⟨S1x8192x138x1, .f32⟩
  | 8 => ⟨S1x8192x138x1, .f32⟩
  | 9 => ⟨S8192x138x1, .f32⟩
  | 10 => ⟨S_, .f32⟩
  | 11 => ⟨S8192x1x100, .f32⟩
  | 12 => ⟨S8192x46x1, .f32⟩
  | 13 => ⟨S8192x46x25, .f32⟩
  | 14 => ⟨S1x1x25, .f32⟩
  | 15 => ⟨S8192x46x25, .f32⟩
  | 16 => ⟨S8192x46x25, .f32⟩
  | 17 => ⟨S8192x46x25, .f32⟩
  | 18 => ⟨S8192x46x50, .f32⟩
  | 19 => ⟨S1x1x50, .f32⟩
  | 20 => ⟨S8192x46x50, .f32⟩
  | 21 => ⟨S8192x46x50, .f32⟩
  | 22 => ⟨S8192x46x50, .f32⟩
  | 23 => ⟨S8192x46x50, .f32⟩
  | 24 => ⟨S8192x46x50, .f32⟩
  | 25 => ⟨S8192x46x100, .f32⟩
  | 26 => ⟨S1x1x100, .f32⟩
  | 27 => ⟨S8192x46x100, .f32⟩
  | 28 => ⟨S8192x46x100, .f32⟩
  | 29 => ⟨S8192x46x100, .f32⟩
  | 30 => ⟨S8192x46x100, .f32⟩
  | 31 => ⟨S8192x46x100, .f32⟩
  | 32 => ⟨S_, .f32⟩
  | 33 => ⟨S8192x100, .f32⟩
  | 34 => ⟨S8192x1x100, .f32⟩
  | 35 => ⟨S_, .f32⟩
  | 36 => ⟨S8192x1x100, .f32⟩
  | 37 => ⟨S8192x1x100, .f32⟩
  | 38 => ⟨S_, .f32⟩
  | 39 => ⟨S8192x1x100, .f32⟩
  | 40 => ⟨S8192x1x100, .f32⟩
  | 41 => ⟨S8192x1x100, .f32⟩
  | 42 => ⟨S8192x92x1, .f32⟩
  | 43 => ⟨S8192x92x25, .f32⟩
  | 44 => ⟨S1x1x25, .f32⟩
  | 45 => ⟨S8192x92x25, .f32⟩
  | 46 => ⟨S8192x92x25, .f32⟩
  | 47 => ⟨S8192x92x25, .f32⟩
  | 48 => ⟨S8192x92x50, .f32⟩
  | 49 => ⟨S1x1x50, .f32⟩
  | 50 => ⟨S8192x92x50, .f32⟩
  | 51 => ⟨S8192x92x50, .f32⟩
  | 52 => ⟨S8192x92x50, .f32⟩
  | 53 => ⟨S8192x92x50, .f32⟩
  | 54 => ⟨S8192x92x50, .f32⟩
  | 55 => ⟨S8192x92x100, .f32⟩
  | 56 => ⟨S1x1x100, .f32⟩
  | 57 => ⟨S8192x92x100, .f32⟩
  | 58 => ⟨S8192x92x100, .f32⟩
  | 59 => ⟨S8192x92x100, .f32⟩
  | 60 => ⟨S8192x92x100, .f32⟩
  | 61 => ⟨S8192x92x100, .f32⟩
  | 62 => ⟨S_, .f32⟩
  | 63 => ⟨S8192x100, .f32⟩
  | 64 => ⟨S8192x1x100, .f32⟩
  | 65 => ⟨S_, .f32⟩
  | 66 => ⟨S8192x1x100, .f32⟩
  | 67 => ⟨S8192x1x100, .f32⟩
  | 68 => ⟨S_, .f32⟩
  | 69 => ⟨S8192x1x100, .f32⟩
  | 70 => ⟨S8192x1x100, .f32⟩
  | 71 => ⟨S8192x1x100, .f32⟩
  | 72 => ⟨S_, .f32⟩
  | 73 => ⟨S8192x1x100, .f32⟩
  | 74 => ⟨S8192x1x100, .f32⟩
  | 75 => ⟨S1x8192x100, .f32⟩
  | _ => ⟨S1x30720, .f32⟩

abbrev hbmTy (i : Nat) : BufTy := match i / 128 with
  | 0 => hbmTy0_0 i
  | 1 => hbmTy0_1 i
  | _ => ⟨S1x30720, .f32⟩

abbrev bufTy : (tb : Table) → Fin (tcTables nBuf tb) → BufTy
  | .hbm, ⟨i, _⟩ => hbmTy i
  | _, _ => ⟨S1x30720, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_c : Ref sig .tc := ⟨.hbm, 18, rfl⟩
abbrev main_v1 : Ref sig .tc := ⟨.hbm, 19, rfl⟩
abbrev main_v2 : Ref sig .tc := ⟨.hbm, 20, rfl⟩
abbrev main_c_0 : Ref sig .tc := ⟨.hbm, 21, rfl⟩
abbrev main_call0_v0 : Ref sig .tc := ⟨.hbm, 22, rfl⟩
abbrev main_call0_v1 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_call2_v0 : Ref sig .tc := ⟨.hbm, 55, rfl⟩
abbrev main_call2_cst : Ref sig .tc := ⟨.hbm, 56, rfl⟩
abbrev main_call2_v1 : Ref sig .tc := ⟨.hbm, 57, rfl⟩
abbrev main_call2_v2 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_cst : Ref sig .tc := ⟨.hbm, 64, rfl⟩
abbrev main_v17 : Ref sig .tc := ⟨.hbm, 65, rfl⟩
abbrev main_v18 : Ref sig .tc := ⟨.hbm, 66, rfl⟩
abbrev main_cst_1 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_cst_2 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_cst_3 : Ref sig .tc := ⟨.hbm, 76, rfl⟩
abbrev main_cst_4 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_v26 : Ref sig .tc := ⟨.hbm, 83, rfl⟩
abbrev main_cst_5 : Ref sig .tc := ⟨.hbm, 84, rfl⟩
abbrev main_v27 : Ref sig .tc := ⟨.hbm, 85, rfl⟩
abbrev main_v28 : Ref sig .tc := ⟨.hbm, 86, rfl⟩
abbrev main_cst_6 : Ref sig .tc := ⟨.hbm, 87, rfl⟩
abbrev main_v29 : Ref sig .tc := ⟨.hbm, 88, rfl⟩
abbrev main_v30 : Ref sig .tc := ⟨.hbm, 89, rfl⟩
abbrev main_cst_7 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_cst_8 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_cst_9 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_cst_10 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_cst_11 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_c_12 : Ref sig .tc := ⟨.hbm, 117, rfl⟩
abbrev main_v53 : Ref sig .tc := ⟨.hbm, 118, rfl⟩
abbrev main_v54 : Ref sig .tc := ⟨.hbm, 119, rfl⟩
abbrev main_c_13 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_c_14 : Ref sig .tc := ⟨.hbm, 126, rfl⟩
abbrev main_v60 : Ref sig .tc := ⟨.hbm, 127, rfl⟩
abbrev main_v61 : Ref sig .tc := ⟨.hbm, 128, rfl⟩
abbrev main_c_15 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_cst_16 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_cst_17 : Ref sig .tc := ⟨.hbm, 160, rfl⟩
abbrev main_v91 : Ref sig .tc := ⟨.hbm, 161, rfl⟩
abbrev main_v92 : Ref sig .tc := ⟨.hbm, 162, rfl⟩
abbrev main_cst_18 : Ref sig .tc := ⟨.hbm, 163, rfl⟩
abbrev main_v93 : Ref sig .tc := ⟨.hbm, 164, rfl⟩
abbrev main_v94 : Ref sig .tc := ⟨.hbm, 165, rfl⟩
abbrev main_cst_19 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_cst_20 : Ref sig .tc := ⟨.hbm, 190, rfl⟩
abbrev main_v118 : Ref sig .tc := ⟨.hbm, 191, rfl⟩
abbrev main_v119 : Ref sig .tc := ⟨.hbm, 192, rfl⟩
abbrev main_cst_21 : Ref sig .tc := ⟨.hbm, 193, rfl⟩
abbrev main_v120 : Ref sig .tc := ⟨.hbm, 194, rfl⟩
abbrev main_v121 : Ref sig .tc := ⟨.hbm, 195, rfl⟩
abbrev main_cst_22 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_cst_23 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩

abbrev nD : Nat := 1
abbrev τ : Topo := Topo.v7x

variable {F : FTy → Type} [FloatOps F]

class Facts₀ : Prop where
  shapeCasts_S1x30720_S1x10240x3 : S1x30720.ShapeCasts S1x10240x3
  bcast_S_S1x8192x138 : S_.BroadcastsInDim S1x8192x138 (![] : Fin 0 → Fin S1x8192x138.rank)
  slices_S1x10240x3_S1x8192x3_0_0_0 : S1x10240x3.Slices ![0, 0, 0] S1x8192x3
  shapeCasts_S1x8192x3_S1x8192x1x3 : S1x8192x3.ShapeCasts S1x8192x1x3
  shapeCasts_S1x8192x138_S1x1130496 : S1x8192x138.ShapeCasts S1x1130496
  bcast_S1x1130496_S1x1130496x1_0_1 : S1x1130496.BroadcastsInDim S1x1130496x1 (![0, 1] : Fin 2 → Fin S1x1130496x1.rank)
  bcast_S_S1x1130496x1 : S_.BroadcastsInDim S1x1130496x1 (![] : Fin 0 → Fin S1x1130496x1.rank)
  shapeCasts_S1x1130496x1_S1130496x1 : S1x1130496x1.ShapeCasts S1130496x1
  bcast_S_S1130496x1 : S_.BroadcastsInDim S1130496x1 (![] : Fin 0 → Fin S1130496x1.rank)
  bcast_S1_S1x1_1 : S1.BroadcastsInDim S1x1 (![1] : Fin 1 → Fin S1x1.rank)
  bcast_S1x1_S1130496x1_0_1 : S1x1.BroadcastsInDim S1130496x1 (![0, 1] : Fin 2 → Fin S1130496x1.rank)
  reducesTo_S1130496x1_S1130496_d1 : S1130496x1.ReducesTo [1] S1130496
  h_S_ : 0 < S_.numel
  bcast_S1130496_S1x1130496x3_1 : S1130496.BroadcastsInDim S1x1130496x3 (![1] : Fin 1 → Fin S1x1130496x3.rank)
  bcast_S_S1x1130496x3 : S_.BroadcastsInDim S1x1130496x3 (![] : Fin 0 → Fin S1x1130496x3.rank)
  shapeCasts_S1x1130496x3_S1x8192x138x3 : S1x1130496x3.ShapeCasts S1x8192x138x3
  bcast_S1x8192x1x3_S1x8192x138x3_0_1_2_3 : S1x8192x1x3.BroadcastsInDim S1x8192x138x3 (![0, 1, 2, 3] : Fin 4 → Fin S1x8192x138x3.rank)
  reducesTo_S1x8192x138x3_S1x8192x138_d3 : S1x8192x138x3.ReducesTo [3] S1x8192x138
  bcast_S1x8192x138_S1x8192x138x1_0_1_2 : S1x8192x138.BroadcastsInDim S1x8192x138x1 (![0, 1, 2] : Fin 3 → Fin S1x8192x138x1.rank)
  bcast_S_S1x8192x138x1 : S_.BroadcastsInDim S1x8192x138x1 (![] : Fin 0 → Fin S1x8192x138x1.rank)
  slices_S1x10240_S1x8192_0_0 : S1x10240.Slices ![0, 0] S1x8192
  bcast_S_S1x8192 : S_.BroadcastsInDim S1x8192 (![] : Fin 0 → Fin S1x8192.rank)
  bcast_S1x8192_S1x8192x1_0_1 : S1x8192.BroadcastsInDim S1x8192x1 (![0, 1] : Fin 2 → Fin S1x8192x1.rank)
  shapeCasts_S1x8192x138x1_S8192x138x1 : S1x8192x138x1.ShapeCasts S8192x138x1
  bcast_S_S8192x1x100 : S_.BroadcastsInDim S8192x1x100 (![] : Fin 0 → Fin S8192x1x100.rank)
  slices_S8192x138x1_S8192x46x1_0_0_0 : S8192x138x1.Slices ![0, 0, 0] S8192x46x1
  bcast_S25_S1x1x25_2 : S25.BroadcastsInDim S1x1x25 (![2] : Fin 1 → Fin S1x1x25.rank)
  bcast_S1x1x25_S8192x46x25_0_1_2 : S1x1x25.BroadcastsInDim S8192x46x25 (![0, 1, 2] : Fin 3 → Fin S8192x46x25.rank)
  bcast_S50_S1x1x50_2 : S50.BroadcastsInDim S1x1x50 (![2] : Fin 1 → Fin S1x1x50.rank)
  bcast_S1x1x50_S8192x46x50_0_1_2 : S1x1x50.BroadcastsInDim S8192x46x50 (![0, 1, 2] : Fin 3 → Fin S8192x46x50.rank)
  concatenates_S8192x46x25_S8192x46x25_S8192x46x50_d2 : Shape.Concatenates [S8192x46x25, S8192x46x25] S8192x46x50 2
  bcast_S100_S1x1x100_2 : S100.BroadcastsInDim S1x1x100 (![2] : Fin 1 → Fin S1x1x100.rank)
  bcast_S1x1x100_S8192x46x100_0_1_2 : S1x1x100.BroadcastsInDim S8192x46x100 (![0, 1, 2] : Fin 3 → Fin S8192x46x100.rank)
  concatenates_S8192x46x50_S8192x46x50_S8192x46x100_d2 : Shape.Concatenates [S8192x46x50, S8192x46x50] S8192x46x100 2
  reducesTo_S8192x46x100_S8192x100_d1 : S8192x46x100.ReducesTo [1] S8192x100
  bcast_S8192x100_S8192x1x100_0_2 : S8192x100.BroadcastsInDim S8192x1x100 (![0, 2] : Fin 2 → Fin S8192x1x100.rank)
  slices_S8192x138x1_S8192x92x1_0_46_0 : S8192x138x1.Slices ![0, 46, 0] S8192x92x1
  bcast_S1x1x25_S8192x92x25_0_1_2 : S1x1x25.BroadcastsInDim S8192x92x25 (![0, 1, 2] : Fin 3 → Fin S8192x92x25.rank)
  bcast_S1x1x50_S8192x92x50_0_1_2 : S1x1x50.BroadcastsInDim S8192x92x50 (![0, 1, 2] : Fin 3 → Fin S8192x92x50.rank)
  concatenates_S8192x92x25_S8192x92x25_S8192x92x50_d2 : Shape.Concatenates [S8192x92x25, S8192x92x25] S8192x92x50 2
  bcast_S1x1x100_S8192x92x100_0_1_2 : S1x1x100.BroadcastsInDim S8192x92x100 (![0, 1, 2] : Fin 3 → Fin S8192x92x100.rank)
  concatenates_S8192x92x50_S8192x92x50_S8192x92x100_d2 : Shape.Concatenates [S8192x92x50, S8192x92x50] S8192x92x100 2
  reducesTo_S8192x92x100_S8192x100_d1 : S8192x92x100.ReducesTo [1] S8192x100
  shapeCasts_S8192x1x100_S1x8192x100 : S8192x1x100.ShapeCasts S1x8192x100
  gather_S1x10240x3_S1130496x1_S1x1130496x3_02_1_n_n_1_1_113_wf : GatherDims.WF S1x10240x3 S1130496x1 S1x1130496x3 [0, 2] [1] [] [1] [] 1 ![1, 1, 3]
  gather_S2x138x1_S1x8192x1_S1x8192x138x1_23_0_n_n_0_2_11381_wf : GatherDims.WF S2x138x1 S1x8192x1 S1x8192x138x1 [2, 3] [0] [] [0] [] 2 ![1, 138, 1]
  dot_S8192x46x1_S1x25_S8192x46x25_2_0_01_1_n_n_wf : DotDims.WF S8192x46x1 S1x25 S8192x46x25 [2] [0] [0, 1] [1] [] []
  dot_S8192x46x25_S25x50_S8192x46x50_2_0_01_1_n_n_wf : DotDims.WF S8192x46x25 S25x50 S8192x46x50 [2] [0] [0, 1] [1] [] []
  dot_S8192x46x50_S50x100_S8192x46x100_2_0_01_1_n_n_wf : DotDims.WF S8192x46x50 S50x100 S8192x46x100 [2] [0] [0, 1] [1] [] []
  dot_S8192x92x1_S1x25_S8192x92x25_2_0_01_1_n_n_wf : DotDims.WF S8192x92x1 S1x25 S8192x92x25 [2] [0] [0, 1] [1] [] []
  dot_S8192x92x25_S25x50_S8192x92x50_2_0_01_1_n_n_wf : DotDims.WF S8192x92x25 S25x50 S8192x92x50 [2] [0] [0, 1] [1] [] []
  dot_S8192x92x50_S50x100_S8192x92x100_2_0_01_1_n_n_wf : DotDims.WF S8192x92x50 S50x100 S8192x92x100 [2] [0] [0, 1] [1] [] []

variable [Facts₀]

def gather_S1x10240x3_S1130496x1_S1x1130496x3_02_1_n_n_1_1_113 : GatherDims S1x10240x3 S1130496x1 S1x1130496x3 where
  offsetDims := [0, 2]
  collapsedSliceDims := [1]
  operandBatchingDims := []
  startIndicesBatchingDims := []
  startIndexMap := [1]
  indexVectorDim := 1
  sliceSizes := ![1, 1, 3]
  wf := gather_S1x10240x3_S1130496x1_S1x1130496x3_02_1_n_n_1_1_113_wf
def gather_S2x138x1_S1x8192x1_S1x8192x138x1_23_0_n_n_0_2_11381 : GatherDims S2x138x1 S1x8192x1 S1x8192x138x1 where
  offsetDims := [2, 3]
  collapsedSliceDims := [0]
  operandBatchingDims := []
  startIndicesBatchingDims := []
  startIndexMap := [0]
  indexVectorDim := 2
  sliceSizes := ![1, 138, 1]
  wf := gather_S2x138x1_S1x8192x1_S1x8192x138x1_23_0_n_n_0_2_11381_wf
def dot_S8192x46x1_S1x25_S8192x46x25_2_0_01_1_n_n : DotDims S8192x46x1 S1x25 S8192x46x25 where
  lhsContracting := [2]
  rhsContracting := [0]
  lhsNonContracting := [0, 1]
  rhsNonContracting := [1]
  lhsBatch := []
  rhsBatch := []
  wf := dot_S8192x46x1_S1x25_S8192x46x25_2_0_01_1_n_n_wf
def dot_S8192x46x25_S25x50_S8192x46x50_2_0_01_1_n_n : DotDims S8192x46x25 S25x50 S8192x46x50 where
  lhsContracting := [2]
  rhsContracting := [0]
  lhsNonContracting := [0, 1]
  rhsNonContracting := [1]
  lhsBatch := []
  rhsBatch := []
  wf := dot_S8192x46x25_S25x50_S8192x46x50_2_0_01_1_n_n_wf
def dot_S8192x46x50_S50x100_S8192x46x100_2_0_01_1_n_n : DotDims S8192x46x50 S50x100 S8192x46x100 where
  lhsContracting := [2]
  rhsContracting := [0]
  lhsNonContracting := [0, 1]
  rhsNonContracting := [1]
  lhsBatch := []
  rhsBatch := []
  wf := dot_S8192x46x50_S50x100_S8192x46x100_2_0_01_1_n_n_wf
def dot_S8192x92x1_S1x25_S8192x92x25_2_0_01_1_n_n : DotDims S8192x92x1 S1x25 S8192x92x25 where
  lhsContracting := [2]
  rhsContracting := [0]
  lhsNonContracting := [0, 1]
  rhsNonContracting := [1]
  lhsBatch := []
  rhsBatch := []
  wf := dot_S8192x92x1_S1x25_S8192x92x25_2_0_01_1_n_n_wf
def dot_S8192x92x25_S25x50_S8192x92x50_2_0_01_1_n_n : DotDims S8192x92x25 S25x50 S8192x92x50 where
  lhsContracting := [2]
  rhsContracting := [0]
  lhsNonContracting := [0, 1]
  rhsNonContracting := [1]
  lhsBatch := []
  rhsBatch := []
  wf := dot_S8192x92x25_S25x50_S8192x92x50_2_0_01_1_n_n_wf
def dot_S8192x92x50_S50x100_S8192x92x100_2_0_01_1_n_n : DotDims S8192x92x50 S50x100 S8192x92x100 where
  lhsContracting := [2]
  rhsContracting := [0]
  lhsNonContracting := [0, 1]
  rhsNonContracting := [1]
  lhsBatch := []
  rhsBatch := []
  wf := dot_S8192x92x50_S50x100_S8192x92x100_2_0_01_1_n_n_wf

class Facts : Prop extends Facts₀ where

variable [Facts]
-- ==== Proof.RunVal.lean ====
/-
  The reference's result buffer, after its operations have run in order from the launch contents, holds the last
  stage of the reference read operation by operation, at the seventeen arguments. Each stage is restated as an
  equation between its body over the earlier stages and its name; rewriting with these equations from right to left
  while the operations' results are computed folds every buffer's term back into its stage, so the term never
  grows. Stages with the same body (a repeated constant, the index chain computed twice) share the first one's name.
-/
import proofs.«205418_g46067819217304_cont_8to1_c_241_17_alg».proof.Proof.ReadP
import proofs.«205418_g46067819217304_cont_8to1_c_241_17_alg».proof.Proof.RunP0
import Idealize.ShloMosaic.Lib.StableHlo.Run

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-! ## A two-operand concatenation with its operands as arguments -/

/-- Two arrays joined along an axis. -/
def joined2 {α : Type} (t : Shape) (a : Fin t.rank) (s₁ s₂ : Shape) (x : s₁.Idx → α) (y : s₂.Idx → α)
    (h : Shape.Concatenates [s₁, s₂] t a) : t.Idx → α :=
  concatenate t a [⟨s₁, x⟩, ⟨s₂, y⟩] h

theorem concatenate_eq_joined2 {α : Type} (t : Shape) (a : Fin t.rank) (s₁ s₂ : Shape) (x : s₁.Idx → α) (y : s₂.Idx → α)
    (h : Shape.Concatenates [s₁, s₂] t a) : concatenate t a [⟨s₁, x⟩, ⟨s₂, y⟩] h = joined2 t a s₁ s₂ x y h := rfl

/-! ## Each stage's body is its name -/

theorem fold_val_main_v0 (x0 : (⟨S1x30720, .f32⟩ : BufTy).Contents (Elt F)) :
    (shapeCast _ (x0) shapeCasts_S1x30720_S1x10240x3 : (⟨S1x10240x3, .f32⟩ : BufTy).Contents (Elt F)) = ReadP.val_main_v0 (F := F) x0 := rfl
theorem fold_val_main_c  :
    (constantI S_ 32 0#32 : (⟨S_, .i32⟩ : BufTy).Contents (Elt F)) = ReadP.val_main_c (F := F) := rfl
theorem fold_val_main_v1  :
    (broadcastInDim S1x8192x138 ![] bcast_S_S1x8192x138 (ReadP.val_main_c (F := F)) : (⟨S1x8192x138, .i32⟩ : BufTy).Contents (Elt F)) = ReadP.val_main_v1 (F := F) := rfl
theorem fold_val_main_v2 (x2 : (⟨S1x8192x138, .i32⟩ : BufTy).Contents (Elt F)) :
    (cmpi .sge (x2) (ReadP.val_main_v1 (F := F)) : (⟨S1x8192x138, .i1⟩ : BufTy).Contents (Elt F)) = ReadP.val_main_v2 (F := F) x2 := rfl
theorem fold_val_main_call0_v0  :
    (id (ReadP.val_main_c (F := F)) : (⟨S_, .i32⟩ : BufTy).Contents (Elt F)) = ReadP.val_main_call0_v0 (F := F) := rfl
theorem fold_val_main_call0_v1  :
    (broadcastInDim S1x8192x138 ![] bcast_S_S1x8192x138 (ReadP.val_main_call0_v0 (F := F)) : (⟨S1x8192x138, .i32⟩ : BufTy).Contents (Elt F)) = ReadP.val_main_call0_v1 (F := F) := rfl
theorem fold_val_main_v3 (x2 : (⟨S1x8192x138, .i32⟩ : BufTy).Contents (Elt F)) :
    (select (ReadP.val_main_v2 (F := F) x2) (x2) (ReadP.val_main_call0_v1 (F := F)) : (⟨S1x8192x138, .i32⟩ : BufTy).Contents (Elt F)) = ReadP.val_main_v3 (F := F) x2 := rfl
theorem fold_val_main_v4 (x0 : (⟨S1x30720, .f32⟩ : BufTy).Contents (Elt F)) :
    (extractStridedSlice S1x8192x3 ![0, 0, 0] (ReadP.val_main_v0 (F := F) x0) slices_S1x10240x3_S1x8192x3_0_0_0 : (⟨S1x8192x3, .f32⟩ : BufTy).Contents (Elt F)) = ReadP.val_main_v4 (F := F) x0 := rfl
theorem fold_val_main_v5 (x0 : (⟨S1x30720, .f32⟩ : BufTy).Contents (Elt F)) :
    (shapeCast _ (ReadP.val_main_v4 (F := F) x0) shapeCasts_S1x8192x3_S1x8192x1x3 : (⟨S1x8192x1x3, .f32⟩ : BufTy).Contents (Elt F)) = ReadP.val_main_v5 (F := F) x0 := rfl
theorem fold_val_main_v6 (x2 : (⟨S1x8192x138, .i32⟩ : BufTy).Contents (Elt F)) :
    (shapeCast _ (ReadP.val_main_v3 (F := F) x2) shapeCasts_S1x8192x138_S1x1130496 : (⟨S1x1130496, .i32⟩ : BufTy).Contents (Elt F)) = ReadP.val_main_v6 (F := F) x2 := rfl
theorem fold_val_main_v7 (x2 : (⟨S1x8192x138, .i32⟩ : BufTy).Contents (Elt F)) :
    (broadcastInDim S1x1130496x1 ![0, 1] bcast_S1x1130496_S1x1130496x1_0_1 (ReadP.val_main_v6 (F := F) x2) : (⟨S1x1130496x1, .i32⟩ : BufTy).Contents (Elt F)) = ReadP.val_main_v7 (F := F) x2 := rfl
theorem fold_val_main_call1_v0  :
    (broadcastInDim S1x1130496x1 ![] bcast_S_S1x1130496x1 (ReadP.val_main_c (F := F)) : (⟨S1x1130496x1, .i32⟩ : BufTy).Contents (Elt F)) = ReadP.val_main_call1_v0 (F := F) := rfl
theorem fold_val_main_call1_v1 (x2 : (⟨S1x8192x138, .i32⟩ : BufTy).Contents (Elt F)) :
    (cmpi .slt (ReadP.val_main_v7 (F := F) x2) (ReadP.val_main_call1_v0 (F := F)) : (⟨S1x1130496x1, .i1⟩ : BufTy).Contents (Elt F)) = ReadP.val_main_call1_v1 (F := F) x2 := rfl
theorem fold_val_main_call1_c_0  :
    (constantI S_ 32 10240#32 : (⟨S_, .i32⟩ : BufTy).Contents (Elt F)) = ReadP.val_main_call1_c_0 (F := F) := rfl
theorem fold_val_main_call1_v2  :
    (broadcastInDim S1x1130496x1 ![] bcast_S_S1x1130496x1 (ReadP.val_main_call1_c_0 (F := F)) : (⟨S1x1130496x1, .i32⟩ : BufTy).Contents (Elt F)) = ReadP.val_main_call1_v2 (F := F) := rfl
theorem fold_val_main_call1_v3 (x2 : (⟨S1x8192x138, .i32⟩ : BufTy).Contents (Elt F)) :
    (addi (ReadP.val_main_v7 (F := F) x2) (ReadP.val_main_call1_v2 (F := F)) : (⟨S1x1130496x1, .i32⟩ : BufTy).Contents (Elt F)) = ReadP.val_main_call1_v3 (F := F) x2 := rfl
theorem fold_val_main_call1_v4 (x2 : (⟨S1x8192x138, .i32⟩ : BufTy).Contents (Elt F)) :
    (select (ReadP.val_main_call1_v1 (F := F) x2) (ReadP.val_main_call1_v3 (F := F) x2) (ReadP.val_main_v7 (F := F) x2) : (⟨S1x1130496x1, .i32⟩ : BufTy).Contents (Elt F)) = ReadP.val_main_call1_v4 (F := F) x2 := rfl
theorem fold_val_main_call1_v5 (x2 : (⟨S1x8192x138, .i32⟩ : BufTy).Contents (Elt F)) :
    (shapeCast _ (ReadP.val_main_call1_v4 (F := F) x2) shapeCasts_S1x1130496x1_S1130496x1 : (⟨S1130496x1, .i32⟩ : BufTy).Contents (Elt F)) = ReadP.val_main_call1_v5 (F := F) x2 := rfl
theorem fold_val_main_call1_c_1  :
    (constantI S1 32 10239#32 : (⟨S1, .i32⟩ : BufTy).Contents (Elt F)) = ReadP.val_main_call1_c_1 (F := F) := rfl
theorem fold_val_main_call1_v6  :
    (broadcastInDim S1130496x1 ![] bcast_S_S1130496x1 (ReadP.val_main_c (F := F)) : (⟨S1130496x1, .i32⟩ : BufTy).Contents (Elt F)) = ReadP.val_main_call1_v6 (F := F) := rfl
theorem fold_val_main_call1_v7 (x2 : (⟨S1x8192x138, .i32⟩ : BufTy).Contents (Elt F)) :
    (cmpi .sge (ReadP.val_main_call1_v5 (F := F) x2) (ReadP.val_main_call1_v6 (F := F)) : (⟨S1130496x1, .i1⟩ : BufTy).Contents (Elt F)) = ReadP.val_main_call1_v7 (F := F) x2 := rfl
theorem fold_val_main_call1_v8  :
    (broadcastInDim S1x1 ![1] bcast_S1_S1x1_1 (ReadP.val_main_call1_c_1 (F := F)) : (⟨S1x1, .i32⟩ : BufTy).Contents (Elt F)) = ReadP.val_main_call1_v8 (F := F) := rfl
theorem fold_val_main_call1_v9  :
    (broadcastInDim S1130496x1 ![0, 1] bcast_S1x1_S1130496x1_0_1 (ReadP.val_main_call1_v8 (F := F)) : (⟨S1130496x1, .i32⟩ : BufTy).Contents (Elt F)) = ReadP.val_main_call1_v9 (F := F) := rfl
theorem fold_val_main_call1_v10 (x2 : (⟨S1x8192x138, .i32⟩ : BufTy).Contents (Elt F)) :
    (cmpi .sle (ReadP.val_main_call1_v5 (F := F) x2) (ReadP.val_main_call1_v9 (F := F)) : (⟨S1130496x1, .i1⟩ : BufTy).Contents (Elt F)) = ReadP.val_main_call1_v10 (F := F) x2 := rfl
theorem fold_val_main_call1_v11 (x2 : (⟨S1x8192x138, .i32⟩ : BufTy).Contents (Elt F)) :
    (andi (ReadP.val_main_call1_v7 (F := F) x2) (ReadP.val_main_call1_v10 (F := F) x2) : (⟨S1130496x1, .i1⟩ : BufTy).Contents (Elt F)) = ReadP.val_main_call1_v11 (F := F) x2 := rfl
theorem fold_val_main_call1_c_3  :
    (constantI S_ 1 1#1 : (⟨S_, .i1⟩ : BufTy).Contents (Elt F)) = ReadP.val_main_call1_c_3 (F := F) := rfl
theorem fold_val_main_call1_v12 (x2 : (⟨S1x8192x138, .i32⟩ : BufTy).Contents (Elt F)) :
    (Host.reduce IntOp.andi (ReadP.val_main_call1_v11 (F := F) x2) (ReadP.val_main_call1_c_3 (F := F)) reducesTo_S1130496x1_S1130496_d1 h_S_ : (⟨S1130496, .i1⟩ : BufTy).Contents (Elt F)) = ReadP.val_main_call1_v12 (F := F) x2 := rfl
theorem fold_val_main_call1_v13 (x0 : (⟨S1x30720, .f32⟩ : BufTy).Contents (Elt F)) (x2 : (⟨S1x8192x138, .i32⟩ : BufTy).Contents (Elt F)) :
    (Host.gather gather_S1x10240x3_S1130496x1_S1x1130496x3_02_1_n_n_1_1_113 (ReadP.val_main_v0 (F := F) x0) (ReadP.val_main_call1_v5 (F := F) x2) : (⟨S1x1130496x3, .f32⟩ : BufTy).Contents (Elt F)) = ReadP.val_main_call1_v13 (F := F) x0 x2 := rfl
theorem fold_val_main_call1_v14 (x2 : (⟨S1x8192x138, .i32⟩ : BufTy).Contents (Elt F)) :
    (broadcastInDim S1x1130496x3 ![1] bcast_S1130496_S1x1130496x3_1 (ReadP.val_main_call1_v12 (F := F) x2) : (⟨S1x1130496x3, .i1⟩ : BufTy).Contents (Elt F)) = ReadP.val_main_call1_v14 (F := F) x2 := rfl
theorem fold_val_main_call1_cst  :
    (constant S_ .f32 0x7FC00000#32 : (⟨S_, .f32⟩ : BufTy).Contents (Elt F)) = ReadP.val_main_call1_cst (F := F) := rfl
theorem fold_val_main_call1_v15  :
    (broadcastInDim S1x1130496x3 ![] bcast_S_S1x1130496x3 (ReadP.val_main_call1_cst (F := F)) : (⟨S1x1130496x3, .f32⟩ : BufTy).Contents (Elt F)) = ReadP.val_main_call1_v15 (F := F) := rfl
theorem fold_val_main_v8 (x0 : (⟨S1x30720, .f32⟩ : BufTy).Contents (Elt F)) (x2 : (⟨S1x8192x138, .i32⟩ : BufTy).Contents (Elt F)) :
    (select (ReadP.val_main_call1_v14 (F := F) x2) (ReadP.val_main_call1_v13 (F := F) x0 x2) (ReadP.val_main_call1_v15 (F := F)) : (⟨S1x1130496x3, .f32⟩ : BufTy).Contents (Elt F)) = ReadP.val_main_v8 (F := F) x0 x2 := rfl
theorem fold_val_main_v9 (x0 : (⟨S1x30720, .f32⟩ : BufTy).Contents (Elt F)) (x2 : (⟨S1x8192x138, .i32⟩ : BufTy).Contents (Elt F)) :
    (shapeCast _ (ReadP.val_main_v8 (F := F) x0 x2) shapeCasts_S1x1130496x3_S1x8192x138x3 : (⟨S1x8192x138x3, .f32⟩ : BufTy).Contents (Elt F)) = ReadP.val_main_v9 (F := F) x0 x2 := rfl
theorem fold_val_main_v10 (x0 : (⟨S1x30720, .f32⟩ : BufTy).Contents (Elt F)) :
    (broadcastInDim S1x8192x138x3 ![0, 1, 2, 3] bcast_S1x8192x1x3_S1x8192x138x3_0_1_2_3 (ReadP.val_main_v5 (F := F) x0) : (⟨S1x8192x138x3, .f32⟩ : BufTy).Contents (Elt F)) = ReadP.val_main_v10 (F := F) x0 := rfl
theorem fold_val_main_v11 (x0 : (⟨S1x30720, .f32⟩ : BufTy).Contents (Elt F)) (x2 : (⟨S1x8192x138, .i32⟩ : BufTy).Contents (Elt F)) :
    (subf (ReadP.val_main_v9 (F := F) x0 x2) (ReadP.val_main_v10 (F := F) x0) : (⟨S1x8192x138x3, .f32⟩ : BufTy).Contents (Elt F)) = ReadP.val_main_v11 (F := F) x0 x2 := rfl
theorem fold_val_main_call2_v0 (x0 : (⟨S1x30720, .f32⟩ : BufTy).Contents (Elt F)) (x2 : (⟨S1x8192x138, .i32⟩ : BufTy).Contents (Elt F)) :
    (mulf (ReadP.val_main_v11 (F := F) x0 x2) (ReadP.val_main_v11 (F := F) x0 x2) : (⟨S1x8192x138x3, .f32⟩ : BufTy).Contents (Elt F)) = ReadP.val_main_call2_v0 (F := F) x0 x2 := rfl
theorem fold_val_main_call2_cst  :
    (constant S_ .f32 0x00000000#32 : (⟨S_, .f32⟩ : BufTy).Contents (Elt F)) = ReadP.val_main_call2_cst (F := F) := rfl
theorem fold_val_main_call2_v1 (x0 : (⟨S1x30720, .f32⟩ : BufTy).Contents (Elt F)) (x2 : (⟨S1x8192x138, .i32⟩ : BufTy).Contents (Elt F)) :
    (Host.reduceAdd (ReadP.val_main_call2_v0 (F := F) x0 x2) (ReadP.val_main_call2_cst (F := F)) reducesTo_S1x8192x138x3_S1x8192x138_d3 h_S_ : (⟨S1x8192x138, .f32⟩ : BufTy).Contents (Elt F)) = ReadP.val_main_call2_v1 (F := F) x0 x2 := rfl
theorem fold_val_main_call2_v2 (x0 : (⟨S1x30720, .f32⟩ : BufTy).Contents (Elt F)) (x2 : (⟨S1x8192x138, .i32⟩ : BufTy).Contents (Elt F)) :
    (broadcastInDim S1x8192x138x1 ![0, 1, 2] bcast_S1x8192x138_S1x8192x138x1_0_1_2 (ReadP.val_main_call2_v1 (F := F) x0 x2) : (⟨S1x8192x138x1, .f32⟩ : BufTy).Contents (Elt F)) = ReadP.val_main_call2_v2 (F := F) x0 x2 := rfl
theorem fold_val_main_v12 (x0 : (⟨S1x30720, .f32⟩ : BufTy).Contents (Elt F)) (x2 : (⟨S1x8192x138, .i32⟩ : BufTy).Contents (Elt F)) :
    (Host.sqrt (ReadP.val_main_call2_v2 (F := F) x0 x2) : (⟨S1x8192x138x1, .f32⟩ : BufTy).Contents (Elt F)) = ReadP.val_main_v12 (F := F) x0 x2 := rfl
theorem fold_val_main_v13 (x2 : (⟨S1x8192x138, .i32⟩ : BufTy).Contents (Elt F)) :
    (noti (ReadP.val_main_v2 (F := F) x2) : (⟨S1x8192x138, .i1⟩ : BufTy).Contents (Elt F)) = ReadP.val_main_v13 (F := F) x2 := rfl
theorem fold_val_main_v14 (x2 : (⟨S1x8192x138, .i32⟩ : BufTy).Contents (Elt F)) :
    (broadcastInDim S1x8192x138x1 ![0, 1, 2] bcast_S1x8192x138_S1x8192x138x1_0_1_2 (ReadP.val_main_v13 (F := F) x2) : (⟨S1x8192x138x1, .i1⟩ : BufTy).Contents (Elt F)) = ReadP.val_main_v14 (F := F) x2 := rfl
theorem fold_val_main_v15 (x2 : (⟨S1x8192x138, .i32⟩ : BufTy).Contents (Elt F)) :
    (uitofp .f32 (ReadP.val_main_v14 (F := F) x2) : (⟨S1x8192x138x1, .f32⟩ : BufTy).Contents (Elt F)) = ReadP.val_main_v15 (F := F) x2 := rfl
theorem fold_val_main_v16 (x0 : (⟨S1x30720, .f32⟩ : BufTy).Contents (Elt F)) (x2 : (⟨S1x8192x138, .i32⟩ : BufTy).Contents (Elt F)) :
    (addf (ReadP.val_main_v12 (F := F) x0 x2) (ReadP.val_main_v15 (F := F) x2) : (⟨S1x8192x138x1, .f32⟩ : BufTy).Contents (Elt F)) = ReadP.val_main_v16 (F := F) x0 x2 := rfl
theorem fold_val_main_cst  :
    (constant S_ .f32 0x3F800000#32 : (⟨S_, .f32⟩ : BufTy).Contents (Elt F)) = ReadP.val_main_cst (F := F) := rfl
theorem fold_val_main_v17  :
    (broadcastInDim S1x8192x138x1 ![] bcast_S_S1x8192x138x1 (ReadP.val_main_cst (F := F)) : (⟨S1x8192x138x1, .f32⟩ : BufTy).Contents (Elt F)) = ReadP.val_main_v17 (F := F) := rfl
theorem fold_val_main_v18 (x0 : (⟨S1x30720, .f32⟩ : BufTy).Contents (Elt F)) (x2 : (⟨S1x8192x138, .i32⟩ : BufTy).Contents (Elt F)) :
    (Host.divf (ReadP.val_main_v17 (F := F)) (ReadP.val_main_v16 (F := F) x0 x2) : (⟨S1x8192x138x1, .f32⟩ : BufTy).Contents (Elt F)) = ReadP.val_main_v18 (F := F) x0 x2 := rfl
theorem fold_val_main_cst_1  :
    (constant S_ .f32 0x3F000000#32 : (⟨S_, .f32⟩ : BufTy).Contents (Elt F)) = ReadP.val_main_cst_1 (F := F) := rfl
theorem fold_val_main_v19  :
    (broadcastInDim S1x8192x138x1 ![] bcast_S_S1x8192x138x1 (ReadP.val_main_cst_1 (F := F)) : (⟨S1x8192x138x1, .f32⟩ : BufTy).Contents (Elt F)) = ReadP.val_main_v19 (F := F) := rfl
theorem fold_val_main_v20 (x0 : (⟨S1x30720, .f32⟩ : BufTy).Contents (Elt F)) (x2 : (⟨S1x8192x138, .i32⟩ : BufTy).Contents (Elt F)) :
    (cmpf .ole (ReadP.val_main_v16 (F := F) x0 x2) (ReadP.val_main_v19 (F := F)) : (⟨S1x8192x138x1, .i1⟩ : BufTy).Contents (Elt F)) = ReadP.val_main_v20 (F := F) x0 x2 := rfl
theorem fold_val_main_v21 (x0 : (⟨S1x30720, .f32⟩ : BufTy).Contents (Elt F)) (x2 : (⟨S1x8192x138, .i32⟩ : BufTy).Contents (Elt F)) :
    (uitofp .f32 (ReadP.val_main_v20 (F := F) x0 x2) : (⟨S1x8192x138x1, .f32⟩ : BufTy).Contents (Elt F)) = ReadP.val_main_v21 (F := F) x0 x2 := rfl
theorem fold_val_main_cst_2  :
    (constant S_ .f32 0x40C00000#32 : (⟨S_, .f32⟩ : BufTy).Contents (Elt F)) = ReadP.val_main_cst_2 (F := F) := rfl
theorem fold_val_main_v22  :
    (broadcastInDim S1x8192x138x1 ![] bcast_S_S1x8192x138x1 (ReadP.val_main_cst_2 (F := F)) : (⟨S1x8192x138x1, .f32⟩ : BufTy).Contents (Elt F)) = ReadP.val_main_v22 (F := F) := rfl
theorem fold_val_main_v23 (x0 : (⟨S1x30720, .f32⟩ : BufTy).Contents (Elt F)) (x2 : (⟨S1x8192x138, .i32⟩ : BufTy).Contents (Elt F)) :
    (cmpf .oge (ReadP.val_main_v16 (F := F) x0 x2) (ReadP.val_main_v22 (F := F)) : (⟨S1x8192x138x1, .i1⟩ : BufTy).Contents (Elt F)) = ReadP.val_main_v23 (F := F) x0 x2 := rfl
theorem fold_val_main_v24 (x0 : (⟨S1x30720, .f32⟩ : BufTy).Contents (Elt F)) (x2 : (⟨S1x8192x138, .i32⟩ : BufTy).Contents (Elt F)) :
    (uitofp .f32 (ReadP.val_main_v23 (F := F) x0 x2) : (⟨S1x8192x138x1, .f32⟩ : BufTy).Contents (Elt F)) = ReadP.val_main_v24 (F := F) x0 x2 := rfl
theorem fold_val_main_v25 (x0 : (⟨S1x30720, .f32⟩ : BufTy).Contents (Elt F)) (x2 : (⟨S1x8192x138, .i32⟩ : BufTy).Contents (Elt F)) :
    (addf (ReadP.val_main_v21 (F := F) x0 x2) (ReadP.val_main_v24 (F := F) x0 x2) : (⟨S1x8192x138x1, .f32⟩ : BufTy).Contents (Elt F)) = ReadP.val_main_v25 (F := F) x0 x2 := rfl
theorem fold_val_main_call3_v0  :
    (id (ReadP.val_main_call2_cst (F := F)) : (⟨S_, .f32⟩ : BufTy).Contents (Elt F)) = ReadP.val_main_call3_v0 (F := F) := rfl
theorem fold_val_main_call3_v1  :
    (broadcastInDim S1x8192x138x1 ![] bcast_S_S1x8192x138x1 (ReadP.val_main_call3_v0 (F := F)) : (⟨S1x8192x138x1, .f32⟩ : BufTy).Contents (Elt F)) = ReadP.val_main_call3_v1 (F := F) := rfl
theorem fold_val_main_call3_v2 (x0 : (⟨S1x30720, .f32⟩ : BufTy).Contents (Elt F)) (x2 : (⟨S1x8192x138, .i32⟩ : BufTy).Contents (Elt F)) :
    (maximumf (ReadP.val_main_call3_v1 (F := F)) (ReadP.val_main_v25 (F := F) x0 x2) : (⟨S1x8192x138x1, .f32⟩ : BufTy).Contents (Elt F)) = ReadP.val_main_call3_v2 (F := F) x0 x2 := rfl
theorem fold_val_main_call3_v3  :
    (id (ReadP.val_main_cst (F := F)) : (⟨S_, .f32⟩ : BufTy).Contents (Elt F)) = ReadP.val_main_call3_v3 (F := F) := rfl
theorem fold_val_main_call3_v4  :
    (broadcastInDim S1x8192x138x1 ![] bcast_S_S1x8192x138x1 (ReadP.val_main_call3_v3 (F := F)) : (⟨S1x8192x138x1, .f32⟩ : BufTy).Contents (Elt F)) = ReadP.val_main_call3_v4 (F := F) := rfl
theorem fold_val_main_v26 (x0 : (⟨S1x30720, .f32⟩ : BufTy).Contents (Elt F)) (x2 : (⟨S1x8192x138, .i32⟩ : BufTy).Contents (Elt F)) :
    (minimumf (ReadP.val_main_call3_v4 (F := F)) (ReadP.val_main_call3_v2 (F := F) x0 x2) : (⟨S1x8192x138x1, .f32⟩ : BufTy).Contents (Elt F)) = ReadP.val_main_v26 (F := F) x0 x2 := rfl
theorem fold_val_main_v28 (x0 : (⟨S1x30720, .f32⟩ : BufTy).Contents (Elt F)) (x2 : (⟨S1x8192x138, .i32⟩ : BufTy).Contents (Elt F)) :
    (subf (ReadP.val_main_v17 (F := F)) (ReadP.val_main_v26 (F := F) x0 x2) : (⟨S1x8192x138x1, .f32⟩ : BufTy).Contents (Elt F)) = ReadP.val_main_v28 (F := F) x0 x2 := rfl
theorem fold_val_main_v30 (x0 : (⟨S1x30720, .f32⟩ : BufTy).Contents (Elt F)) (x2 : (⟨S1x8192x138, .i32⟩ : BufTy).Contents (Elt F)) :
    (subf (ReadP.val_main_v16 (F := F) x0 x2) (ReadP.val_main_v19 (F := F)) : (⟨S1x8192x138x1, .f32⟩ : BufTy).Contents (Elt F)) = ReadP.val_main_v30 (F := F) x0 x2 := rfl
theorem fold_val_main_cst_7  :
    (constant S_ .f32 0x40B00000#32 : (⟨S_, .f32⟩ : BufTy).Contents (Elt F)) = ReadP.val_main_cst_7 (F := F) := rfl
theorem fold_val_main_v31  :
    (broadcastInDim S1x8192x138x1 ![] bcast_S_S1x8192x138x1 (ReadP.val_main_cst_7 (F := F)) : (⟨S1x8192x138x1, .f32⟩ : BufTy).Contents (Elt F)) = ReadP.val_main_v31 (F := F) := rfl
theorem fold_val_main_v32 (x0 : (⟨S1x30720, .f32⟩ : BufTy).Contents (Elt F)) (x2 : (⟨S1x8192x138, .i32⟩ : BufTy).Contents (Elt F)) :
    (Host.divf (ReadP.val_main_v30 (F := F) x0 x2) (ReadP.val_main_v31 (F := F)) : (⟨S1x8192x138x1, .f32⟩ : BufTy).Contents (Elt F)) = ReadP.val_main_v32 (F := F) x0 x2 := rfl
theorem fold_val_main_v33 (x0 : (⟨S1x30720, .f32⟩ : BufTy).Contents (Elt F)) (x2 : (⟨S1x8192x138, .i32⟩ : BufTy).Contents (Elt F)) :
    (mulf (ReadP.val_main_v32 (F := F) x0 x2) (ReadP.val_main_v32 (F := F) x0 x2) : (⟨S1x8192x138x1, .f32⟩ : BufTy).Contents (Elt F)) = ReadP.val_main_v33 (F := F) x0 x2 := rfl
theorem fold_val_main_v34 (x0 : (⟨S1x30720, .f32⟩ : BufTy).Contents (Elt F)) (x2 : (⟨S1x8192x138, .i32⟩ : BufTy).Contents (Elt F)) :
    (mulf (ReadP.val_main_v33 (F := F) x0 x2) (ReadP.val_main_v32 (F := F) x0 x2) : (⟨S1x8192x138x1, .f32⟩ : BufTy).Contents (Elt F)) = ReadP.val_main_v34 (F := F) x0 x2 := rfl
theorem fold_val_main_cst_8  :
    (constant S_ .f32 0xC0C00000#32 : (⟨S_, .f32⟩ : BufTy).Contents (Elt F)) = ReadP.val_main_cst_8 (F := F) := rfl
theorem fold_val_main_v35  :
    (broadcastInDim S1x8192x138x1 ![] bcast_S_S1x8192x138x1 (ReadP.val_main_cst_8 (F := F)) : (⟨S1x8192x138x1, .f32⟩ : BufTy).Contents (Elt F)) = ReadP.val_main_v35 (F := F) := rfl
theorem fold_val_main_v36 (x0 : (⟨S1x30720, .f32⟩ : BufTy).Contents (Elt F)) (x2 : (⟨S1x8192x138, .i32⟩ : BufTy).Contents (Elt F)) :
    (mulf (ReadP.val_main_v35 (F := F)) (ReadP.val_main_v32 (F := F) x0 x2) : (⟨S1x8192x138x1, .f32⟩ : BufTy).Contents (Elt F)) = ReadP.val_main_v36 (F := F) x0 x2 := rfl
theorem fold_val_main_v37 (x0 : (⟨S1x30720, .f32⟩ : BufTy).Contents (Elt F)) (x2 : (⟨S1x8192x138, .i32⟩ : BufTy).Contents (Elt F)) :
    (mulf (ReadP.val_main_v36 (F := F) x0 x2) (ReadP.val_main_v32 (F := F) x0 x2) : (⟨S1x8192x138x1, .f32⟩ : BufTy).Contents (Elt F)) = ReadP.val_main_v37 (F := F) x0 x2 := rfl
theorem fold_val_main_cst_9  :
    (constant S_ .f32 0x41700000#32 : (⟨S_, .f32⟩ : BufTy).Contents (Elt F)) = ReadP.val_main_cst_9 (F := F) := rfl
theorem fold_val_main_v38  :
    (broadcastInDim S1x8192x138x1 ![] bcast_S_S1x8192x138x1 (ReadP.val_main_cst_9 (F := F)) : (⟨S1x8192x138x1, .f32⟩ : BufTy).Contents (Elt F)) = ReadP.val_main_v38 (F := F) := rfl
theorem fold_val_main_v39 (x0 : (⟨S1x30720, .f32⟩ : BufTy).Contents (Elt F)) (x2 : (⟨S1x8192x138, .i32⟩ : BufTy).Contents (Elt F)) :
    (mulf (ReadP.val_main_v38 (F := F)) (ReadP.val_main_v32 (F := F) x0 x2) : (⟨S1x8192x138x1, .f32⟩ : BufTy).Contents (Elt F)) = ReadP.val_main_v39 (F := F) x0 x2 := rfl
theorem fold_val_main_v40 (x0 : (⟨S1x30720, .f32⟩ : BufTy).Contents (Elt F)) (x2 : (⟨S1x8192x138, .i32⟩ : BufTy).Contents (Elt F)) :
    (addf (ReadP.val_main_v37 (F := F) x0 x2) (ReadP.val_main_v39 (F := F) x0 x2) : (⟨S1x8192x138x1, .f32⟩ : BufTy).Contents (Elt F)) = ReadP.val_main_v40 (F := F) x0 x2 := rfl
theorem fold_val_main_cst_10  :
    (constant S_ .f32 0x41200000#32 : (⟨S_, .f32⟩ : BufTy).Contents (Elt F)) = ReadP.val_main_cst_10 (F := F) := rfl
theorem fold_val_main_v41  :
    (broadcastInDim S1x8192x138x1 ![] bcast_S_S1x8192x138x1 (ReadP.val_main_cst_10 (F := F)) : (⟨S1x8192x138x1, .f32⟩ : BufTy).Contents (Elt F)) = ReadP.val_main_v41 (F := F) := rfl
theorem fold_val_main_v42 (x0 : (⟨S1x30720, .f32⟩ : BufTy).Contents (Elt F)) (x2 : (⟨S1x8192x138, .i32⟩ : BufTy).Contents (Elt F)) :
    (subf (ReadP.val_main_v40 (F := F) x0 x2) (ReadP.val_main_v41 (F := F)) : (⟨S1x8192x138x1, .f32⟩ : BufTy).Contents (Elt F)) = ReadP.val_main_v42 (F := F) x0 x2 := rfl
theorem fold_val_main_v43 (x0 : (⟨S1x30720, .f32⟩ : BufTy).Contents (Elt F)) (x2 : (⟨S1x8192x138, .i32⟩ : BufTy).Contents (Elt F)) :
    (mulf (ReadP.val_main_v34 (F := F) x0 x2) (ReadP.val_main_v42 (F := F) x0 x2) : (⟨S1x8192x138x1, .f32⟩ : BufTy).Contents (Elt F)) = ReadP.val_main_v43 (F := F) x0 x2 := rfl
theorem fold_val_main_v45 (x0 : (⟨S1x30720, .f32⟩ : BufTy).Contents (Elt F)) (x2 : (⟨S1x8192x138, .i32⟩ : BufTy).Contents (Elt F)) :
    (addf (ReadP.val_main_v43 (F := F) x0 x2) (ReadP.val_main_v17 (F := F)) : (⟨S1x8192x138x1, .f32⟩ : BufTy).Contents (Elt F)) = ReadP.val_main_v45 (F := F) x0 x2 := rfl
theorem fold_val_main_v46 (x0 : (⟨S1x30720, .f32⟩ : BufTy).Contents (Elt F)) (x2 : (⟨S1x8192x138, .i32⟩ : BufTy).Contents (Elt F)) :
    (mulf (ReadP.val_main_v45 (F := F) x0 x2) (ReadP.val_main_v28 (F := F) x0 x2) : (⟨S1x8192x138x1, .f32⟩ : BufTy).Contents (Elt F)) = ReadP.val_main_v46 (F := F) x0 x2 := rfl
theorem fold_val_main_v47 (x0 : (⟨S1x30720, .f32⟩ : BufTy).Contents (Elt F)) (x2 : (⟨S1x8192x138, .i32⟩ : BufTy).Contents (Elt F)) :
    (addf (ReadP.val_main_v46 (F := F) x0 x2) (ReadP.val_main_v21 (F := F) x0 x2) : (⟨S1x8192x138x1, .f32⟩ : BufTy).Contents (Elt F)) = ReadP.val_main_v47 (F := F) x0 x2 := rfl
theorem fold_val_main_v48 (x2 : (⟨S1x8192x138, .i32⟩ : BufTy).Contents (Elt F)) :
    (broadcastInDim S1x8192x138x1 ![0, 1, 2] bcast_S1x8192x138_S1x8192x138x1_0_1_2 (ReadP.val_main_v2 (F := F) x2) : (⟨S1x8192x138x1, .i1⟩ : BufTy).Contents (Elt F)) = ReadP.val_main_v48 (F := F) x2 := rfl
theorem fold_val_main_v49 (x2 : (⟨S1x8192x138, .i32⟩ : BufTy).Contents (Elt F)) :
    (uitofp .f32 (ReadP.val_main_v48 (F := F) x2) : (⟨S1x8192x138x1, .f32⟩ : BufTy).Contents (Elt F)) = ReadP.val_main_v49 (F := F) x2 := rfl
theorem fold_val_main_v50 (x0 : (⟨S1x30720, .f32⟩ : BufTy).Contents (Elt F)) (x2 : (⟨S1x8192x138, .i32⟩ : BufTy).Contents (Elt F)) :
    (mulf (ReadP.val_main_v47 (F := F) x0 x2) (ReadP.val_main_v49 (F := F) x2) : (⟨S1x8192x138x1, .f32⟩ : BufTy).Contents (Elt F)) = ReadP.val_main_v50 (F := F) x0 x2 := rfl
theorem fold_val_main_v51 (x0 : (⟨S1x30720, .f32⟩ : BufTy).Contents (Elt F)) (x2 : (⟨S1x8192x138, .i32⟩ : BufTy).Contents (Elt F)) :
    (mulf (ReadP.val_main_v18 (F := F) x0 x2) (ReadP.val_main_v50 (F := F) x0 x2) : (⟨S1x8192x138x1, .f32⟩ : BufTy).Contents (Elt F)) = ReadP.val_main_v51 (F := F) x0 x2 := rfl
theorem fold_val_main_v52 (x1 : (⟨S1x10240, .i32⟩ : BufTy).Contents (Elt F)) :
    (extractStridedSlice S1x8192 ![0, 0] (x1) slices_S1x10240_S1x8192_0_0 : (⟨S1x8192, .i32⟩ : BufTy).Contents (Elt F)) = ReadP.val_main_v52 (F := F) x1 := rfl
theorem fold_val_main_v53  :
    (broadcastInDim S1x8192 ![] bcast_S_S1x8192 (ReadP.val_main_c (F := F)) : (⟨S1x8192, .i32⟩ : BufTy).Contents (Elt F)) = ReadP.val_main_v53 (F := F) := rfl
theorem fold_val_main_v54 (x1 : (⟨S1x10240, .i32⟩ : BufTy).Contents (Elt F)) :
    (cmpi .slt (ReadP.val_main_v52 (F := F) x1) (ReadP.val_main_v53 (F := F)) : (⟨S1x8192, .i1⟩ : BufTy).Contents (Elt F)) = ReadP.val_main_v54 (F := F) x1 := rfl
theorem fold_val_main_c_13  :
    (constantI S_ 32 2#32 : (⟨S_, .i32⟩ : BufTy).Contents (Elt F)) = ReadP.val_main_c_13 (F := F) := rfl
theorem fold_val_main_v55  :
    (broadcastInDim S1x8192 ![] bcast_S_S1x8192 (ReadP.val_main_c_13 (F := F)) : (⟨S1x8192, .i32⟩ : BufTy).Contents (Elt F)) = ReadP.val_main_v55 (F := F) := rfl
theorem fold_val_main_v56 (x1 : (⟨S1x10240, .i32⟩ : BufTy).Contents (Elt F)) :
    (addi (ReadP.val_main_v52 (F := F) x1) (ReadP.val_main_v55 (F := F)) : (⟨S1x8192, .i32⟩ : BufTy).Contents (Elt F)) = ReadP.val_main_v56 (F := F) x1 := rfl
theorem fold_val_main_v57 (x1 : (⟨S1x10240, .i32⟩ : BufTy).Contents (Elt F)) :
    (select (ReadP.val_main_v54 (F := F) x1) (ReadP.val_main_v56 (F := F) x1) (ReadP.val_main_v52 (F := F) x1) : (⟨S1x8192, .i32⟩ : BufTy).Contents (Elt F)) = ReadP.val_main_v57 (F := F) x1 := rfl
theorem fold_val_main_v58 (x1 : (⟨S1x10240, .i32⟩ : BufTy).Contents (Elt F)) :
    (broadcastInDim S1x8192x1 ![0, 1] bcast_S1x8192_S1x8192x1_0_1 (ReadP.val_main_v57 (F := F) x1) : (⟨S1x8192x1, .i32⟩ : BufTy).Contents (Elt F)) = ReadP.val_main_v58 (F := F) x1 := rfl
theorem fold_val_main_v59 (x1 : (⟨S1x10240, .i32⟩ : BufTy).Contents (Elt F)) (x3 : (⟨S2x138x1, .f32⟩ : BufTy).Contents (Elt F)) :
    (Host.gather gather_S2x138x1_S1x8192x1_S1x8192x138x1_23_0_n_n_0_2_11381 (x3) (ReadP.val_main_v58 (F := F) x1) : (⟨S1x8192x138x1, .f32⟩ : BufTy).Contents (Elt F)) = ReadP.val_main_v59 (F := F) x1 x3 := rfl
theorem fold_val_main_v67 (x0 : (⟨S1x30720, .f32⟩ : BufTy).Contents (Elt F)) (x1 : (⟨S1x10240, .i32⟩ : BufTy).Contents (Elt F)) (x2 : (⟨S1x8192x138, .i32⟩ : BufTy).Contents (Elt F)) (x3 : (⟨S2x138x1, .f32⟩ : BufTy).Contents (Elt F)) :
    (subf (ReadP.val_main_v51 (F := F) x0 x2) (ReadP.val_main_v59 (F := F) x1 x3) : (⟨S1x8192x138x1, .f32⟩ : BufTy).Contents (Elt F)) = ReadP.val_main_v67 (F := F) x0 x1 x2 x3 := rfl
theorem fold_val_main_v68 (x0 : (⟨S1x30720, .f32⟩ : BufTy).Contents (Elt F)) (x1 : (⟨S1x10240, .i32⟩ : BufTy).Contents (Elt F)) (x2 : (⟨S1x8192x138, .i32⟩ : BufTy).Contents (Elt F)) (x3 x4 : (⟨S2x138x1, .f32⟩ : BufTy).Contents (Elt F)) :
    (Host.divf (ReadP.val_main_v67 (F := F) x0 x1 x2 x3) (ReadP.val_main_v59 (F := F) x1 x4) : (⟨S1x8192x138x1, .f32⟩ : BufTy).Contents (Elt F)) = ReadP.val_main_v68 (F := F) x0 x1 x2 x3 x4 := rfl
theorem fold_val_main_v69 (x0 : (⟨S1x30720, .f32⟩ : BufTy).Contents (Elt F)) (x1 : (⟨S1x10240, .i32⟩ : BufTy).Contents (Elt F)) (x2 : (⟨S1x8192x138, .i32⟩ : BufTy).Contents (Elt F)) (x3 x4 : (⟨S2x138x1, .f32⟩ : BufTy).Contents (Elt F)) :
    (shapeCast _ (ReadP.val_main_v68 (F := F) x0 x1 x2 x3 x4) shapeCasts_S1x8192x138x1_S8192x138x1 : (⟨S8192x138x1, .f32⟩ : BufTy).Contents (Elt F)) = ReadP.val_main_v69 (F := F) x0 x1 x2 x3 x4 := rfl
theorem fold_val_main_v70  :
    (broadcastInDim S8192x1x100 ![] bcast_S_S8192x1x100 (ReadP.val_main_call2_cst (F := F)) : (⟨S8192x1x100, .f32⟩ : BufTy).Contents (Elt F)) = ReadP.val_main_v70 (F := F) := rfl
theorem fold_val_main_v71 (x0 : (⟨S1x30720, .f32⟩ : BufTy).Contents (Elt F)) (x1 : (⟨S1x10240, .i32⟩ : BufTy).Contents (Elt F)) (x2 : (⟨S1x8192x138, .i32⟩ : BufTy).Contents (Elt F)) (x3 x4 : (⟨S2x138x1, .f32⟩ : BufTy).Contents (Elt F)) :
    (extractStridedSlice S8192x46x1 ![0, 0, 0] (ReadP.val_main_v69 (F := F) x0 x1 x2 x3 x4) slices_S8192x138x1_S8192x46x1_0_0_0 : (⟨S8192x46x1, .f32⟩ : BufTy).Contents (Elt F)) = ReadP.val_main_v71 (F := F) x0 x1 x2 x3 x4 := rfl
theorem fold_val_main_v72 (x0 : (⟨S1x30720, .f32⟩ : BufTy).Contents (Elt F)) (x1 : (⟨S1x10240, .i32⟩ : BufTy).Contents (Elt F)) (x2 : (⟨S1x8192x138, .i32⟩ : BufTy).Contents (Elt F)) (x3 x4 : (⟨S2x138x1, .f32⟩ : BufTy).Contents (Elt F)) (x5 : (⟨S1x25, .f32⟩ : BufTy).Contents (Elt F)) :
    (Host.dotGeneral dot_S8192x46x1_S1x25_S8192x46x25_2_0_01_1_n_n none (ReadP.val_main_v71 (F := F) x0 x1 x2 x3 x4) (x5) : (⟨S8192x46x25, .f32⟩ : BufTy).Contents (Elt F)) = ReadP.val_main_v72 (F := F) x0 x1 x2 x3 x4 x5 := rfl
theorem fold_val_main_v73 (x6 : (⟨S25, .f32⟩ : BufTy).Contents (Elt F)) :
    (broadcastInDim S1x1x25 ![2] bcast_S25_S1x1x25_2 (x6) : (⟨S1x1x25, .f32⟩ : BufTy).Contents (Elt F)) = ReadP.val_main_v73 (F := F) x6 := rfl
theorem fold_val_main_v74 (x6 : (⟨S25, .f32⟩ : BufTy).Contents (Elt F)) :
    (broadcastInDim S8192x46x25 ![0, 1, 2] bcast_S1x1x25_S8192x46x25_0_1_2 (ReadP.val_main_v73 (F := F) x6) : (⟨S8192x46x25, .f32⟩ : BufTy).Contents (Elt F)) = ReadP.val_main_v74 (F := F) x6 := rfl
theorem fold_val_main_v75 (x0 : (⟨S1x30720, .f32⟩ : BufTy).Contents (Elt F)) (x1 : (⟨S1x10240, .i32⟩ : BufTy).Contents (Elt F)) (x2 : (⟨S1x8192x138, .i32⟩ : BufTy).Contents (Elt F)) (x3 x4 : (⟨S2x138x1, .f32⟩ : BufTy).Contents (Elt F)) (x5 : (⟨S1x25, .f32⟩ : BufTy).Contents (Elt F)) (x6 : (⟨S25, .f32⟩ : BufTy).Contents (Elt F)) :
    (addf (ReadP.val_main_v72 (F := F) x0 x1 x2 x3 x4 x5) (ReadP.val_main_v74 (F := F) x6) : (⟨S8192x46x25, .f32⟩ : BufTy).Contents (Elt F)) = ReadP.val_main_v75 (F := F) x0 x1 x2 x3 x4 x5 x6 := rfl
theorem fold_val_main_v76 (x0 : (⟨S1x30720, .f32⟩ : BufTy).Contents (Elt F)) (x1 : (⟨S1x10240, .i32⟩ : BufTy).Contents (Elt F)) (x2 : (⟨S1x8192x138, .i32⟩ : BufTy).Contents (Elt F)) (x3 x4 : (⟨S2x138x1, .f32⟩ : BufTy).Contents (Elt F)) (x5 : (⟨S1x25, .f32⟩ : BufTy).Contents (Elt F)) (x6 : (⟨S25, .f32⟩ : BufTy).Contents (Elt F)) :
    (Host.tanh (ReadP.val_main_v75 (F := F) x0 x1 x2 x3 x4 x5 x6) : (⟨S8192x46x25, .f32⟩ : BufTy).Contents (Elt F)) = ReadP.val_main_v76 (F := F) x0 x1 x2 x3 x4 x5 x6 := rfl
theorem fold_val_main_v77 (x0 : (⟨S1x30720, .f32⟩ : BufTy).Contents (Elt F)) (x1 : (⟨S1x10240, .i32⟩ : BufTy).Contents (Elt F)) (x2 : (⟨S1x8192x138, .i32⟩ : BufTy).Contents (Elt F)) (x3 x4 : (⟨S2x138x1, .f32⟩ : BufTy).Contents (Elt F)) (x5 : (⟨S1x25, .f32⟩ : BufTy).Contents (Elt F)) (x6 : (⟨S25, .f32⟩ : BufTy).Contents (Elt F)) (x7 : (⟨S25x50, .f32⟩ : BufTy).Contents (Elt F)) :
    (Host.dotGeneral dot_S8192x46x25_S25x50_S8192x46x50_2_0_01_1_n_n none (ReadP.val_main_v76 (F := F) x0 x1 x2 x3 x4 x5 x6) (x7) : (⟨S8192x46x50, .f32⟩ : BufTy).Contents (Elt F)) = ReadP.val_main_v77 (F := F) x0 x1 x2 x3 x4 x5 x6 x7 := rfl
theorem fold_val_main_v78 (x8 : (⟨S50, .f32⟩ : BufTy).Contents (Elt F)) :
    (broadcastInDim S1x1x50 ![2] bcast_S50_S1x1x50_2 (x8) : (⟨S1x1x50, .f32⟩ : BufTy).Contents (Elt F)) = ReadP.val_main_v78 (F := F) x8 := rfl
theorem fold_val_main_v79 (x8 : (⟨S50, .f32⟩ : BufTy).Contents (Elt F)) :
    (broadcastInDim S8192x46x50 ![0, 1, 2] bcast_S1x1x50_S8192x46x50_0_1_2 (ReadP.val_main_v78 (F := F) x8) : (⟨S8192x46x50, .f32⟩ : BufTy).Contents (Elt F)) = ReadP.val_main_v79 (F := F) x8 := rfl
theorem fold_val_main_v80 (x0 : (⟨S1x30720, .f32⟩ : BufTy).Contents (Elt F)) (x1 : (⟨S1x10240, .i32⟩ : BufTy).Contents (Elt F)) (x2 : (⟨S1x8192x138, .i32⟩ : BufTy).Contents (Elt F)) (x3 x4 : (⟨S2x138x1, .f32⟩ : BufTy).Contents (Elt F)) (x5 : (⟨S1x25, .f32⟩ : BufTy).Contents (Elt F)) (x6 : (⟨S25, .f32⟩ : BufTy).Contents (Elt F)) (x7 : (⟨S25x50, .f32⟩ : BufTy).Contents (Elt F)) (x8 : (⟨S50, .f32⟩ : BufTy).Contents (Elt F)) :
    (addf (ReadP.val_main_v77 (F := F) x0 x1 x2 x3 x4 x5 x6 x7) (ReadP.val_main_v79 (F := F) x8) : (⟨S8192x46x50, .f32⟩ : BufTy).Contents (Elt F)) = ReadP.val_main_v80 (F := F) x0 x1 x2 x3 x4 x5 x6 x7 x8 := rfl
theorem fold_val_main_v81 (x0 : (⟨S1x30720, .f32⟩ : BufTy).Contents (Elt F)) (x1 : (⟨S1x10240, .i32⟩ : BufTy).Contents (Elt F)) (x2 : (⟨S1x8192x138, .i32⟩ : BufTy).Contents (Elt F)) (x3 x4 : (⟨S2x138x1, .f32⟩ : BufTy).Contents (Elt F)) (x5 : (⟨S1x25, .f32⟩ : BufTy).Contents (Elt F)) (x6 : (⟨S25, .f32⟩ : BufTy).Contents (Elt F)) (x7 : (⟨S25x50, .f32⟩ : BufTy).Contents (Elt F)) (x8 : (⟨S50, .f32⟩ : BufTy).Contents (Elt F)) :
    (Host.tanh (ReadP.val_main_v80 (F := F) x0 x1 x2 x3 x4 x5 x6 x7 x8) : (⟨S8192x46x50, .f32⟩ : BufTy).Contents (Elt F)) = ReadP.val_main_v81 (F := F) x0 x1 x2 x3 x4 x5 x6 x7 x8 := rfl
theorem fold_val_main_v82 (x0 : (⟨S1x30720, .f32⟩ : BufTy).Contents (Elt F)) (x1 : (⟨S1x10240, .i32⟩ : BufTy).Contents (Elt F)) (x2 : (⟨S1x8192x138, .i32⟩ : BufTy).Contents (Elt F)) (x3 x4 : (⟨S2x138x1, .f32⟩ : BufTy).Contents (Elt F)) (x5 : (⟨S1x25, .f32⟩ : BufTy).Contents (Elt F)) (x6 : (⟨S25, .f32⟩ : BufTy).Contents (Elt F)) :
    (joined2 S8192x46x50 2 S8192x46x25 S8192x46x25 (ReadP.val_main_v76 (F := F) x0 x1 x2 x3 x4 x5 x6) (ReadP.val_main_v76 (F := F) x0 x1 x2 x3 x4 x5 x6) concatenates_S8192x46x25_S8192x46x25_S8192x46x50_d2 : (⟨S8192x46x50, .f32⟩ : BufTy).Contents (Elt F)) = ReadP.val_main_v82 (F := F) x0 x1 x2 x3 x4 x5 x6 := rfl
theorem fold_val_main_v83 (x0 : (⟨S1x30720, .f32⟩ : BufTy).Contents (Elt F)) (x1 : (⟨S1x10240, .i32⟩ : BufTy).Contents (Elt F)) (x2 : (⟨S1x8192x138, .i32⟩ : BufTy).Contents (Elt F)) (x3 x4 : (⟨S2x138x1, .f32⟩ : BufTy).Contents (Elt F)) (x5 : (⟨S1x25, .f32⟩ : BufTy).Contents (Elt F)) (x6 : (⟨S25, .f32⟩ : BufTy).Contents (Elt F)) (x7 : (⟨S25x50, .f32⟩ : BufTy).Contents (Elt F)) (x8 : (⟨S50, .f32⟩ : BufTy).Contents (Elt F)) :
    (addf (ReadP.val_main_v81 (F := F) x0 x1 x2 x3 x4 x5 x6 x7 x8) (ReadP.val_main_v82 (F := F) x0 x1 x2 x3 x4 x5 x6) : (⟨S8192x46x50, .f32⟩ : BufTy).Contents (Elt F)) = ReadP.val_main_v83 (F := F) x0 x1 x2 x3 x4 x5 x6 x7 x8 := rfl
theorem fold_val_main_v84 (x0 : (⟨S1x30720, .f32⟩ : BufTy).Contents (Elt F)) (x1 : (⟨S1x10240, .i32⟩ : BufTy).Contents (Elt F)) (x2 : (⟨S1x8192x138, .i32⟩ : BufTy).Contents (Elt F)) (x3 x4 : (⟨S2x138x1, .f32⟩ : BufTy).Contents (Elt F)) (x5 : (⟨S1x25, .f32⟩ : BufTy).Contents (Elt F)) (x6 : (⟨S25, .f32⟩ : BufTy).Contents (Elt F)) (x7 : (⟨S25x50, .f32⟩ : BufTy).Contents (Elt F)) (x8 : (⟨S50, .f32⟩ : BufTy).Contents (Elt F)) (x9 : (⟨S50x100, .f32⟩ : BufTy).Contents (Elt F)) :
    (Host.dotGeneral dot_S8192x46x50_S50x100_S8192x46x100_2_0_01_1_n_n none (ReadP.val_main_v83 (F := F) x0 x1 x2 x3 x4 x5 x6 x7 x8) (x9) : (⟨S8192x46x100, .f32⟩ : BufTy).Contents (Elt F)) = ReadP.val_main_v84 (F := F) x0 x1 x2 x3 x4 x5 x6 x7 x8 x9 := rfl
theorem fold_val_main_v85 (x10 : (⟨S100, .f32⟩ : BufTy).Contents (Elt F)) :
    (broadcastInDim S1x1x100 ![2] bcast_S100_S1x1x100_2 (x10) : (⟨S1x1x100, .f32⟩ : BufTy).Contents (Elt F)) = ReadP.val_main_v85 (F := F) x10 := rfl
theorem fold_val_main_v86 (x10 : (⟨S100, .f32⟩ : BufTy).Contents (Elt F)) :
    (broadcastInDim S8192x46x100 ![0, 1, 2] bcast_S1x1x100_S8192x46x100_0_1_2 (ReadP.val_main_v85 (F := F) x10) : (⟨S8192x46x100, .f32⟩ : BufTy).Contents (Elt F)) = ReadP.val_main_v86 (F := F) x10 := rfl
theorem fold_val_main_v87 (x0 : (⟨S1x30720, .f32⟩ : BufTy).Contents (Elt F)) (x1 : (⟨S1x10240, .i32⟩ : BufTy).Contents (Elt F)) (x2 : (⟨S1x8192x138, .i32⟩ : BufTy).Contents (Elt F)) (x3 x4 : (⟨S2x138x1, .f32⟩ : BufTy).Contents (Elt F)) (x5 : (⟨S1x25, .f32⟩ : BufTy).Contents (Elt F)) (x6 : (⟨S25, .f32⟩ : BufTy).Contents (Elt F)) (x7 : (⟨S25x50, .f32⟩ : BufTy).Contents (Elt F)) (x8 : (⟨S50, .f32⟩ : BufTy).Contents (Elt F)) (x9 : (⟨S50x100, .f32⟩ : BufTy).Contents (Elt F)) (x10 : (⟨S100, .f32⟩ : BufTy).Contents (Elt F)) :
    (addf (ReadP.val_main_v84 (F := F) x0 x1 x2 x3 x4 x5 x6 x7 x8 x9) (ReadP.val_main_v86 (F := F) x10) : (⟨S8192x46x100, .f32⟩ : BufTy).Contents (Elt F)) = ReadP.val_main_v87 (F := F) x0 x1 x2 x3 x4 x5 x6 x7 x8 x9 x10 := rfl
theorem fold_val_main_v88 (x0 : (⟨S1x30720, .f32⟩ : BufTy).Contents (Elt F)) (x1 : (⟨S1x10240, .i32⟩ : BufTy).Contents (Elt F)) (x2 : (⟨S1x8192x138, .i32⟩ : BufTy).Contents (Elt F)) (x3 x4 : (⟨S2x138x1, .f32⟩ : BufTy).Contents (Elt F)) (x5 : (⟨S1x25, .f32⟩ : BufTy).Contents (Elt F)) (x6 : (⟨S25, .f32⟩ : BufTy).Contents (Elt F)) (x7 : (⟨S25x50, .f32⟩ : BufTy).Contents (Elt F)) (x8 : (⟨S50, .f32⟩ : BufTy).Contents (Elt F)) (x9 : (⟨S50x100, .f32⟩ : BufTy).Contents (Elt F)) (x10 : (⟨S100, .f32⟩ : BufTy).Contents (Elt F)) :
    (Host.tanh (ReadP.val_main_v87 (F := F) x0 x1 x2 x3 x4 x5 x6 x7 x8 x9 x10) : (⟨S8192x46x100, .f32⟩ : BufTy).Contents (Elt F)) = ReadP.val_main_v88 (F := F) x0 x1 x2 x3 x4 x5 x6 x7 x8 x9 x10 := rfl
theorem fold_val_main_v89 (x0 : (⟨S1x30720, .f32⟩ : BufTy).Contents (Elt F)) (x1 : (⟨S1x10240, .i32⟩ : BufTy).Contents (Elt F)) (x2 : (⟨S1x8192x138, .i32⟩ : BufTy).Contents (Elt F)) (x3 x4 : (⟨S2x138x1, .f32⟩ : BufTy).Contents (Elt F)) (x5 : (⟨S1x25, .f32⟩ : BufTy).Contents (Elt F)) (x6 : (⟨S25, .f32⟩ : BufTy).Contents (Elt F)) (x7 : (⟨S25x50, .f32⟩ : BufTy).Contents (Elt F)) (x8 : (⟨S50, .f32⟩ : BufTy).Contents (Elt F)) :
    (joined2 S8192x46x100 2 S8192x46x50 S8192x46x50 (ReadP.val_main_v83 (F := F) x0 x1 x2 x3 x4 x5 x6 x7 x8) (ReadP.val_main_v83 (F := F) x0 x1 x2 x3 x4 x5 x6 x7 x8) concatenates_S8192x46x50_S8192x46x50_S8192x46x100_d2 : (⟨S8192x46x100, .f32⟩ : BufTy).Contents (Elt F)) = ReadP.val_main_v89 (F := F) x0 x1 x2 x3 x4 x5 x6 x7 x8 := rfl
theorem fold_val_main_v90 (x0 : (⟨S1x30720, .f32⟩ : BufTy).Contents (Elt F)) (x1 : (⟨S1x10240, .i32⟩ : BufTy).Contents (Elt F)) (x2 : (⟨S1x8192x138, .i32⟩ : BufTy).Contents (Elt F)) (x3 x4 : (⟨S2x138x1, .f32⟩ : BufTy).Contents (Elt F)) (x5 : (⟨S1x25, .f32⟩ : BufTy).Contents (Elt F)) (x6 : (⟨S25, .f32⟩ : BufTy).Contents (Elt F)) (x7 : (⟨S25x50, .f32⟩ : BufTy).Contents (Elt F)) (x8 : (⟨S50, .f32⟩ : BufTy).Contents (Elt F)) (x9 : (⟨S50x100, .f32⟩ : BufTy).Contents (Elt F)) (x10 : (⟨S100, .f32⟩ : BufTy).Contents (Elt F)) :
    (addf (ReadP.val_main_v88 (F := F) x0 x1 x2 x3 x4 x5 x6 x7 x8 x9 x10) (ReadP.val_main_v89 (F := F) x0 x1 x2 x3 x4 x5 x6 x7 x8) : (⟨S8192x46x100, .f32⟩ : BufTy).Contents (Elt F)) = ReadP.val_main_v90 (F := F) x0 x1 x2 x3 x4 x5 x6 x7 x8 x9 x10 := rfl
theorem fold_val_main_v91 (x0 : (⟨S1x30720, .f32⟩ : BufTy).Contents (Elt F)) (x1 : (⟨S1x10240, .i32⟩ : BufTy).Contents (Elt F)) (x2 : (⟨S1x8192x138, .i32⟩ : BufTy).Contents (Elt F)) (x3 x4 : (⟨S2x138x1, .f32⟩ : BufTy).Contents (Elt F)) (x5 : (⟨S1x25, .f32⟩ : BufTy).Contents (Elt F)) (x6 : (⟨S25, .f32⟩ : BufTy).Contents (Elt F)) (x7 : (⟨S25x50, .f32⟩ : BufTy).Contents (Elt F)) (x8 : (⟨S50, .f32⟩ : BufTy).Contents (Elt F)) (x9 : (⟨S50x100, .f32⟩ : BufTy).Contents (Elt F)) (x10 : (⟨S100, .f32⟩ : BufTy).Contents (Elt F)) :
    (Host.reduceAdd (ReadP.val_main_v90 (F := F) x0 x1 x2 x3 x4 x5 x6 x7 x8 x9 x10) (ReadP.val_main_call2_cst (F := F)) reducesTo_S8192x46x100_S8192x100_d1 h_S_ : (⟨S8192x100, .f32⟩ : BufTy).Contents (Elt F)) = ReadP.val_main_v91 (F := F) x0 x1 x2 x3 x4 x5 x6 x7 x8 x9 x10 := rfl
theorem fold_val_main_v92 (x0 : (⟨S1x30720, .f32⟩ : BufTy).Contents (Elt F)) (x1 : (⟨S1x10240, .i32⟩ : BufTy).Contents (Elt F)) (x2 : (⟨S1x8192x138, .i32⟩ : BufTy).Contents (Elt F)) (x3 x4 : (⟨S2x138x1, .f32⟩ : BufTy).Contents (Elt F)) (x5 : (⟨S1x25, .f32⟩ : BufTy).Contents (Elt F)) (x6 : (⟨S25, .f32⟩ : BufTy).Contents (Elt F)) (x7 : (⟨S25x50, .f32⟩ : BufTy).Contents (Elt F)) (x8 : (⟨S50, .f32⟩ : BufTy).Contents (Elt F)) (x9 : (⟨S50x100, .f32⟩ : BufTy).Contents (Elt F)) (x10 : (⟨S100, .f32⟩ : BufTy).Contents (Elt F)) :
    (broadcastInDim S8192x1x100 ![0, 2] bcast_S8192x100_S8192x1x100_0_2 (ReadP.val_main_v91 (F := F) x0 x1 x2 x3 x4 x5 x6 x7 x8 x9 x10) : (⟨S8192x1x100, .f32⟩ : BufTy).Contents (Elt F)) = ReadP.val_main_v92 (F := F) x0 x1 x2 x3 x4 x5 x6 x7 x8 x9 x10 := rfl
theorem fold_val_main_cst_18  :
    (constant S_ .f32 0x42380000#32 : (⟨S_, .f32⟩ : BufTy).Contents (Elt F)) = ReadP.val_main_cst_18 (F := F) := rfl
theorem fold_val_main_v93  :
    (broadcastInDim S8192x1x100 ![] bcast_S_S8192x1x100 (ReadP.val_main_cst_18 (F := F)) : (⟨S8192x1x100, .f32⟩ : BufTy).Contents (Elt F)) = ReadP.val_main_v93 (F := F) := rfl
theorem fold_val_main_v94 (x0 : (⟨S1x30720, .f32⟩ : BufTy).Contents (Elt F)) (x1 : (⟨S1x10240, .i32⟩ : BufTy).Contents (Elt F)) (x2 : (⟨S1x8192x138, .i32⟩ : BufTy).Contents (Elt F)) (x3 x4 : (⟨S2x138x1, .f32⟩ : BufTy).Contents (Elt F)) (x5 : (⟨S1x25, .f32⟩ : BufTy).Contents (Elt F)) (x6 : (⟨S25, .f32⟩ : BufTy).Contents (Elt F)) (x7 : (⟨S25x50, .f32⟩ : BufTy).Contents (Elt F)) (x8 : (⟨S50, .f32⟩ : BufTy).Contents (Elt F)) (x9 : (⟨S50x100, .f32⟩ : BufTy).Contents (Elt F)) (x10 : (⟨S100, .f32⟩ : BufTy).Contents (Elt F)) :
    (Host.divf (ReadP.val_main_v92 (F := F) x0 x1 x2 x3 x4 x5 x6 x7 x8 x9 x10) (ReadP.val_main_v93 (F := F)) : (⟨S8192x1x100, .f32⟩ : BufTy).Contents (Elt F)) = ReadP.val_main_v94 (F := F) x0 x1 x2 x3 x4 x5 x6 x7 x8 x9 x10 := rfl
theorem fold_val_main_cst_19  :
    (constant S_ .f32 0x3EAAAAAB#32 : (⟨S_, .f32⟩ : BufTy).Contents (Elt F)) = ReadP.val_main_cst_19 (F := F) := rfl
theorem fold_val_main_v95  :
    (broadcastInDim S8192x1x100 ![] bcast_S_S8192x1x100 (ReadP.val_main_cst_19 (F := F)) : (⟨S8192x1x100, .f32⟩ : BufTy).Contents (Elt F)) = ReadP.val_main_v95 (F := F) := rfl
theorem fold_val_main_v96 (x0 : (⟨S1x30720, .f32⟩ : BufTy).Contents (Elt F)) (x1 : (⟨S1x10240, .i32⟩ : BufTy).Contents (Elt F)) (x2 : (⟨S1x8192x138, .i32⟩ : BufTy).Contents (Elt F)) (x3 x4 : (⟨S2x138x1, .f32⟩ : BufTy).Contents (Elt F)) (x5 : (⟨S1x25, .f32⟩ : BufTy).Contents (Elt F)) (x6 : (⟨S25, .f32⟩ : BufTy).Contents (Elt F)) (x7 : (⟨S25x50, .f32⟩ : BufTy).Contents (Elt F)) (x8 : (⟨S50, .f32⟩ : BufTy).Contents (Elt F)) (x9 : (⟨S50x100, .f32⟩ : BufTy).Contents (Elt F)) (x10 : (⟨S100, .f32⟩ : BufTy).Contents (Elt F)) :
    (mulf (ReadP.val_main_v94 (F := F) x0 x1 x2 x3 x4 x5 x6 x7 x8 x9 x10) (ReadP.val_main_v95 (F := F)) : (⟨S8192x1x100, .f32⟩ : BufTy).Contents (Elt F)) = ReadP.val_main_v96 (F := F) x0 x1 x2 x3 x4 x5 x6 x7 x8 x9 x10 := rfl
theorem fold_val_main_v97 (x0 : (⟨S1x30720, .f32⟩ : BufTy).Contents (Elt F)) (x1 : (⟨S1x10240, .i32⟩ : BufTy).Contents (Elt F)) (x2 : (⟨S1x8192x138, .i32⟩ : BufTy).Contents (Elt F)) (x3 x4 : (⟨S2x138x1, .f32⟩ : BufTy).Contents (Elt F)) (x5 : (⟨S1x25, .f32⟩ : BufTy).Contents (Elt F)) (x6 : (⟨S25, .f32⟩ : BufTy).Contents (Elt F)) (x7 : (⟨S25x50, .f32⟩ : BufTy).Contents (Elt F)) (x8 : (⟨S50, .f32⟩ : BufTy).Contents (Elt F)) (x9 : (⟨S50x100, .f32⟩ : BufTy).Contents (Elt F)) (x10 : (⟨S100, .f32⟩ : BufTy).Contents (Elt F)) :
    (addf (ReadP.val_main_v70 (F := F)) (ReadP.val_main_v96 (F := F) x0 x1 x2 x3 x4 x5 x6 x7 x8 x9 x10) : (⟨S8192x1x100, .f32⟩ : BufTy).Contents (Elt F)) = ReadP.val_main_v97 (F := F) x0 x1 x2 x3 x4 x5 x6 x7 x8 x9 x10 := rfl
theorem fold_val_main_v98 (x0 : (⟨S1x30720, .f32⟩ : BufTy).Contents (Elt F)) (x1 : (⟨S1x10240, .i32⟩ : BufTy).Contents (Elt F)) (x2 : (⟨S1x8192x138, .i32⟩ : BufTy).Contents (Elt F)) (x3 x4 : (⟨S2x138x1, .f32⟩ : BufTy).Contents (Elt F)) :
    (extractStridedSlice S8192x92x1 ![0, 46, 0] (ReadP.val_main_v69 (F := F) x0 x1 x2 x3 x4) slices_S8192x138x1_S8192x92x1_0_46_0 : (⟨S8192x92x1, .f32⟩ : BufTy).Contents (Elt F)) = ReadP.val_main_v98 (F := F) x0 x1 x2 x3 x4 := rfl
theorem fold_val_main_v99 (x0 : (⟨S1x30720, .f32⟩ : BufTy).Contents (Elt F)) (x1 : (⟨S1x10240, .i32⟩ : BufTy).Contents (Elt F)) (x2 : (⟨S1x8192x138, .i32⟩ : BufTy).Contents (Elt F)) (x3 x4 : (⟨S2x138x1, .f32⟩ : BufTy).Contents (Elt F)) (x11 : (⟨S1x25, .f32⟩ : BufTy).Contents (Elt F)) :
    (Host.dotGeneral dot_S8192x92x1_S1x25_S8192x92x25_2_0_01_1_n_n none (ReadP.val_main_v98 (F := F) x0 x1 x2 x3 x4) (x11) : (⟨S8192x92x25, .f32⟩ : BufTy).Contents (Elt F)) = ReadP.val_main_v99 (F := F) x0 x1 x2 x3 x4 x11 := rfl
theorem fold_val_main_v101 (x12 : (⟨S25, .f32⟩ : BufTy).Contents (Elt F)) :
    (broadcastInDim S8192x92x25 ![0, 1, 2] bcast_S1x1x25_S8192x92x25_0_1_2 (ReadP.val_main_v73 (F := F) x12) : (⟨S8192x92x25, .f32⟩ : BufTy).Contents (Elt F)) = ReadP.val_main_v101 (F := F) x12 := rfl
theorem fold_val_main_v102 (x0 : (⟨S1x30720, .f32⟩ : BufTy).Contents (Elt F)) (x1 : (⟨S1x10240, .i32⟩ : BufTy).Contents (Elt F)) (x2 : (⟨S1x8192x138, .i32⟩ : BufTy).Contents (Elt F)) (x3 x4 : (⟨S2x138x1, .f32⟩ : BufTy).Contents (Elt F)) (x11 : (⟨S1x25, .f32⟩ : BufTy).Contents (Elt F)) (x12 : (⟨S25, .f32⟩ : BufTy).Contents (Elt F)) :
    (addf (ReadP.val_main_v99 (F := F) x0 x1 x2 x3 x4 x11) (ReadP.val_main_v101 (F := F) x12) : (⟨S8192x92x25, .f32⟩ : BufTy).Contents (Elt F)) = ReadP.val_main_v102 (F := F) x0 x1 x2 x3 x4 x11 x12 := rfl
theorem fold_val_main_v103 (x0 : (⟨S1x30720, .f32⟩ : BufTy).Contents (Elt F)) (x1 : (⟨S1x10240, .i32⟩ : BufTy).Contents (Elt F)) (x2 : (⟨S1x8192x138, .i32⟩ : BufTy).Contents (Elt F)) (x3 x4 : (⟨S2x138x1, .f32⟩ : BufTy).Contents (Elt F)) (x11 : (⟨S1x25, .f32⟩ : BufTy).Contents (Elt F)) (x12 : (⟨S25, .f32⟩ : BufTy).Contents (Elt F)) :
    (Host.tanh (ReadP.val_main_v102 (F := F) x0 x1 x2 x3 x4 x11 x12) : (⟨S8192x92x25, .f32⟩ : BufTy).Contents (Elt F)) = ReadP.val_main_v103 (F := F) x0 x1 x2 x3 x4 x11 x12 := rfl
theorem fold_val_main_v104 (x0 : (⟨S1x30720, .f32⟩ : BufTy).Contents (Elt F)) (x1 : (⟨S1x10240, .i32⟩ : BufTy).Contents (Elt F)) (x2 : (⟨S1x8192x138, .i32⟩ : BufTy).Contents (Elt F)) (x3 x4 : (⟨S2x138x1, .f32⟩ : BufTy).Contents (Elt F)) (x11 : (⟨S1x25, .f32⟩ : BufTy).Contents (Elt F)) (x12 : (⟨S25, .f32⟩ : BufTy).Contents (Elt F)) (x13 : (⟨S25x50, .f32⟩ : BufTy).Contents (Elt F)) :
    (Host.dotGeneral dot_S8192x92x25_S25x50_S8192x92x50_2_0_01_1_n_n none (ReadP.val_main_v103 (F := F) x0 x1 x2 x3 x4 x11 x12) (x13) : (⟨S8192x92x50, .f32⟩ : BufTy).Contents (Elt F)) = ReadP.val_main_v104 (F := F) x0 x1 x2 x3 x4 x11 x12 x13 := rfl
theorem fold_val_main_v106 (x14 : (⟨S50, .f32⟩ : BufTy).Contents (Elt F)) :
    (broadcastInDim S8192x92x50 ![0, 1, 2] bcast_S1x1x50_S8192x92x50_0_1_2 (ReadP.val_main_v78 (F := F) x14) : (⟨S8192x92x50, .f32⟩ : BufTy).Contents (Elt F)) = ReadP.val_main_v106 (F := F) x14 := rfl
theorem fold_val_main_v107 (x0 : (⟨S1x30720, .f32⟩ : BufTy).Contents (Elt F)) (x1 : (⟨S1x10240, .i32⟩ : BufTy).Contents (Elt F)) (x2 : (⟨S1x8192x138, .i32⟩ : BufTy).Contents (Elt F)) (x3 x4 : (⟨S2x138x1, .f32⟩ : BufTy).Contents (Elt F)) (x11 : (⟨S1x25, .f32⟩ : BufTy).Contents (Elt F)) (x12 : (⟨S25, .f32⟩ : BufTy).Contents (Elt F)) (x13 : (⟨S25x50, .f32⟩ : BufTy).Contents (Elt F)) (x14 : (⟨S50, .f32⟩ : BufTy).Contents (Elt F)) :
    (addf (ReadP.val_main_v104 (F := F) x0 x1 x2 x3 x4 x11 x12 x13) (ReadP.val_main_v106 (F := F) x14) : (⟨S8192x92x50, .f32⟩ : BufTy).Contents (Elt F)) = ReadP.val_main_v107 (F := F) x0 x1 x2 x3 x4 x11 x12 x13 x14 := rfl
theorem fold_val_main_v108 (x0 : (⟨S1x30720, .f32⟩ : BufTy).Contents (Elt F)) (x1 : (⟨S1x10240, .i32⟩ : BufTy).Contents (Elt F)) (x2 : (⟨S1x8192x138, .i32⟩ : BufTy).Contents (Elt F)) (x3 x4 : (⟨S2x138x1, .f32⟩ : BufTy).Contents (Elt F)) (x11 : (⟨S1x25, .f32⟩ : BufTy).Contents (Elt F)) (x12 : (⟨S25, .f32⟩ : BufTy).Contents (Elt F)) (x13 : (⟨S25x50, .f32⟩ : BufTy).Contents (Elt F)) (x14 : (⟨S50, .f32⟩ : BufTy).Contents (Elt F)) :
    (Host.tanh (ReadP.val_main_v107 (F := F) x0 x1 x2 x3 x4 x11 x12 x13 x14) : (⟨S8192x92x50, .f32⟩ : BufTy).Contents (Elt F)) = ReadP.val_main_v108 (F := F) x0 x1 x2 x3 x4 x11 x12 x13 x14 := rfl
theorem fold_val_main_v109 (x0 : (⟨S1x30720, .f32⟩ : BufTy).Contents (Elt F)) (x1 : (⟨S1x10240, .i32⟩ : BufTy).Contents (Elt F)) (x2 : (⟨S1x8192x138, .i32⟩ : BufTy).Contents (Elt F)) (x3 x4 : (⟨S2x138x1, .f32⟩ : BufTy).Contents (Elt F)) (x11 : (⟨S1x25, .f32⟩ : BufTy).Contents (Elt F)) (x12 : (⟨S25, .f32⟩ : BufTy).Contents (Elt F)) :
    (joined2 S8192x92x50 2 S8192x92x25 S8192x92x25 (ReadP.val_main_v103 (F := F) x0 x1 x2 x3 x4 x11 x12) (ReadP.val_main_v103 (F := F) x0 x1 x2 x3 x4 x11 x12) concatenates_S8192x92x25_S8192x92x25_S8192x92x50_d2 : (⟨S8192x92x50, .f32⟩ : BufTy).Contents (Elt F)) = ReadP.val_main_v109 (F := F) x0 x1 x2 x3 x4 x11 x12 := rfl
theorem fold_val_main_v110 (x0 : (⟨S1x30720, .f32⟩ : BufTy).Contents (Elt F)) (x1 : (⟨S1x10240, .i32⟩ : BufTy).Contents (Elt F)) (x2 : (⟨S1x8192x138, .i32⟩ : BufTy).Contents (Elt F)) (x3 x4 : (⟨S2x138x1, .f32⟩ : BufTy).Contents (Elt F)) (x11 : (⟨S1x25, .f32⟩ : BufTy).Contents (Elt F)) (x12 : (⟨S25, .f32⟩ : BufTy).Contents (Elt F)) (x13 : (⟨S25x50, .f32⟩ : BufTy).Contents (Elt F)) (x14 : (⟨S50, .f32⟩ : BufTy).Contents (Elt F)) :
    (addf (ReadP.val_main_v108 (F := F) x0 x1 x2 x3 x4 x11 x12 x13 x14) (ReadP.val_main_v109 (F := F) x0 x1 x2 x3 x4 x11 x12) : (⟨S8192x92x50, .f32⟩ : BufTy).Contents (Elt F)) = ReadP.val_main_v110 (F := F) x0 x1 x2 x3 x4 x11 x12 x13 x14 := rfl
theorem fold_val_main_v111 (x0 : (⟨S1x30720, .f32⟩ : BufTy).Contents (Elt F)) (x1 : (⟨S1x10240, .i32⟩ : BufTy).Contents (Elt F)) (x2 : (⟨S1x8192x138, .i32⟩ : BufTy).Contents (Elt F)) (x3 x4 : (⟨S2x138x1, .f32⟩ : BufTy).Contents (Elt F)) (x11 : (⟨S1x25, .f32⟩ : BufTy).Contents (Elt F)) (x12 : (⟨S25, .f32⟩ : BufTy).Contents (Elt F)) (x13 : (⟨S25x50, .f32⟩ : BufTy).Contents (Elt F)) (x14 : (⟨S50, .f32⟩ : BufTy).Contents (Elt F)) (x15 : (⟨S50x100, .f32⟩ : BufTy).Contents (Elt F)) :
    (Host.dotGeneral dot_S8192x92x50_S50x100_S8192x92x100_2_0_01_1_n_n none (ReadP.val_main_v110 (F := F) x0 x1 x2 x3 x4 x11 x12 x13 x14) (x15) : (⟨S8192x92x100, .f32⟩ : BufTy).Contents (Elt F)) = ReadP.val_main_v111 (F := F) x0 x1 x2 x3 x4 x11 x12 x13 x14 x15 := rfl
theorem fold_val_main_v113 (x16 : (⟨S100, .f32⟩ : BufTy).Contents (Elt F)) :
    (broadcastInDim S8192x92x100 ![0, 1, 2] bcast_S1x1x100_S8192x92x100_0_1_2 (ReadP.val_main_v85 (F := F) x16) : (⟨S8192x92x100, .f32⟩ : BufTy).Contents (Elt F)) = ReadP.val_main_v113 (F := F) x16 := rfl
theorem fold_val_main_v114 (x0 : (⟨S1x30720, .f32⟩ : BufTy).Contents (Elt F)) (x1 : (⟨S1x10240, .i32⟩ : BufTy).Contents (Elt F)) (x2 : (⟨S1x8192x138, .i32⟩ : BufTy).Contents (Elt F)) (x3 x4 : (⟨S2x138x1, .f32⟩ : BufTy).Contents (Elt F)) (x11 : (⟨S1x25, .f32⟩ : BufTy).Contents (Elt F)) (x12 : (⟨S25, .f32⟩ : BufTy).Contents (Elt F)) (x13 : (⟨S25x50, .f32⟩ : BufTy).Contents (Elt F)) (x14 : (⟨S50, .f32⟩ : BufTy).Contents (Elt F)) (x15 : (⟨S50x100, .f32⟩ : BufTy).Contents (Elt F)) (x16 : (⟨S100, .f32⟩ : BufTy).Contents (Elt F)) :
    (addf (ReadP.val_main_v111 (F := F) x0 x1 x2 x3 x4 x11 x12 x13 x14 x15) (ReadP.val_main_v113 (F := F) x16) : (⟨S8192x92x100, .f32⟩ : BufTy).Contents (Elt F)) = ReadP.val_main_v114 (F := F) x0 x1 x2 x3 x4 x11 x12 x13 x14 x15 x16 := rfl
theorem fold_val_main_v115 (x0 : (⟨S1x30720, .f32⟩ : BufTy).Contents (Elt F)) (x1 : (⟨S1x10240, .i32⟩ : BufTy).Contents (Elt F)) (x2 : (⟨S1x8192x138, .i32⟩ : BufTy).Contents (Elt F)) (x3 x4 : (⟨S2x138x1, .f32⟩ : BufTy).Contents (Elt F)) (x11 : (⟨S1x25, .f32⟩ : BufTy).Contents (Elt F)) (x12 : (⟨S25, .f32⟩ : BufTy).Contents (Elt F)) (x13 : (⟨S25x50, .f32⟩ : BufTy).Contents (Elt F)) (x14 : (⟨S50, .f32⟩ : BufTy).Contents (Elt F)) (x15 : (⟨S50x100, .f32⟩ : BufTy).Contents (Elt F)) (x16 : (⟨S100, .f32⟩ : BufTy).Contents (Elt F)) :
    (Host.tanh (ReadP.val_main_v114 (F := F) x0 x1 x2 x3 x4 x11 x12 x13 x14 x15 x16) : (⟨S8192x92x100, .f32⟩ : BufTy).Contents (Elt F)) = ReadP.val_main_v115 (F := F) x0 x1 x2 x3 x4 x11 x12 x13 x14 x15 x16 := rfl
theorem fold_val_main_v116 (x0 : (⟨S1x30720, .f32⟩ : BufTy).Contents (Elt F)) (x1 : (⟨S1x10240, .i32⟩ : BufTy).Contents (Elt F)) (x2 : (⟨S1x8192x138, .i32⟩ : BufTy).Contents (Elt F)) (x3 x4 : (⟨S2x138x1, .f32⟩ : BufTy).Contents (Elt F)) (x11 : (⟨S1x25, .f32⟩ : BufTy).Contents (Elt F)) (x12 : (⟨S25, .f32⟩ : BufTy).Contents (Elt F)) (x13 : (⟨S25x50, .f32⟩ : BufTy).Contents (Elt F)) (x14 : (⟨S50, .f32⟩ : BufTy).Contents (Elt F)) :
    (joined2 S8192x92x100 2 S8192x92x50 S8192x92x50 (ReadP.val_main_v110 (F := F) x0 x1 x2 x3 x4 x11 x12 x13 x14) (ReadP.val_main_v110 (F := F) x0 x1 x2 x3 x4 x11 x12 x13 x14) concatenates_S8192x92x50_S8192x92x50_S8192x92x100_d2 : (⟨S8192x92x100, .f32⟩ : BufTy).Contents (Elt F)) = ReadP.val_main_v116 (F := F) x0 x1 x2 x3 x4 x11 x12 x13 x14 := rfl
theorem fold_val_main_v117 (x0 : (⟨S1x30720, .f32⟩ : BufTy).Contents (Elt F)) (x1 : (⟨S1x10240, .i32⟩ : BufTy).Contents (Elt F)) (x2 : (⟨S1x8192x138, .i32⟩ : BufTy).Contents (Elt F)) (x3 x4 : (⟨S2x138x1, .f32⟩ : BufTy).Contents (Elt F)) (x11 : (⟨S1x25, .f32⟩ : BufTy).Contents (Elt F)) (x12 : (⟨S25, .f32⟩ : BufTy).Contents (Elt F)) (x13 : (⟨S25x50, .f32⟩ : BufTy).Contents (Elt F)) (x14 : (⟨S50, .f32⟩ : BufTy).Contents (Elt F)) (x15 : (⟨S50x100, .f32⟩ : BufTy).Contents (Elt F)) (x16 : (⟨S100, .f32⟩ : BufTy).Contents (Elt F)) :
    (addf (ReadP.val_main_v115 (F := F) x0 x1 x2 x3 x4 x11 x12 x13 x14 x15 x16) (ReadP.val_main_v116 (F := F) x0 x1 x2 x3 x4 x11 x12 x13 x14) : (⟨S8192x92x100, .f32⟩ : BufTy).Contents (Elt F)) = ReadP.val_main_v117 (F := F) x0 x1 x2 x3 x4 x11 x12 x13 x14 x15 x16 := rfl
theorem fold_val_main_v118 (x0 : (⟨S1x30720, .f32⟩ : BufTy).Contents (Elt F)) (x1 : (⟨S1x10240, .i32⟩ : BufTy).Contents (Elt F)) (x2 : (⟨S1x8192x138, .i32⟩ : BufTy).Contents (Elt F)) (x3 x4 : (⟨S2x138x1, .f32⟩ : BufTy).Contents (Elt F)) (x11 : (⟨S1x25, .f32⟩ : BufTy).Contents (Elt F)) (x12 : (⟨S25, .f32⟩ : BufTy).Contents (Elt F)) (x13 : (⟨S25x50, .f32⟩ : BufTy).Contents (Elt F)) (x14 : (⟨S50, .f32⟩ : BufTy).Contents (Elt F)) (x15 : (⟨S50x100, .f32⟩ : BufTy).Contents (Elt F)) (x16 : (⟨S100, .f32⟩ : BufTy).Contents (Elt F)) :
    (Host.reduceAdd (ReadP.val_main_v117 (F := F) x0 x1 x2 x3 x4 x11 x12 x13 x14 x15 x16) (ReadP.val_main_call2_cst (F := F)) reducesTo_S8192x92x100_S8192x100_d1 h_S_ : (⟨S8192x100, .f32⟩ : BufTy).Contents (Elt F)) = ReadP.val_main_v118 (F := F) x0 x1 x2 x3 x4 x11 x12 x13 x14 x15 x16 := rfl
theorem fold_val_main_v119 (x0 : (⟨S1x30720, .f32⟩ : BufTy).Contents (Elt F)) (x1 : (⟨S1x10240, .i32⟩ : BufTy).Contents (Elt F)) (x2 : (⟨S1x8192x138, .i32⟩ : BufTy).Contents (Elt F)) (x3 x4 : (⟨S2x138x1, .f32⟩ : BufTy).Contents (Elt F)) (x11 : (⟨S1x25, .f32⟩ : BufTy).Contents (Elt F)) (x12 : (⟨S25, .f32⟩ : BufTy).Contents (Elt F)) (x13 : (⟨S25x50, .f32⟩ : BufTy).Contents (Elt F)) (x14 : (⟨S50, .f32⟩ : BufTy).Contents (Elt F)) (x15 : (⟨S50x100, .f32⟩ : BufTy).Contents (Elt F)) (x16 : (⟨S100, .f32⟩ : BufTy).Contents (Elt F)) :
    (broadcastInDim S8192x1x100 ![0, 2] bcast_S8192x100_S8192x1x100_0_2 (ReadP.val_main_v118 (F := F) x0 x1 x2 x3 x4 x11 x12 x13 x14 x15 x16) : (⟨S8192x1x100, .f32⟩ : BufTy).Contents (Elt F)) = ReadP.val_main_v119 (F := F) x0 x1 x2 x3 x4 x11 x12 x13 x14 x15 x16 := rfl
theorem fold_val_main_cst_21  :
    (constant S_ .f32 0x42B80000#32 : (⟨S_, .f32⟩ : BufTy).Contents (Elt F)) = ReadP.val_main_cst_21 (F := F) := rfl
theorem fold_val_main_v120  :
    (broadcastInDim S8192x1x100 ![] bcast_S_S8192x1x100 (ReadP.val_main_cst_21 (F := F)) : (⟨S8192x1x100, .f32⟩ : BufTy).Contents (Elt F)) = ReadP.val_main_v120 (F := F) := rfl
theorem fold_val_main_v121 (x0 : (⟨S1x30720, .f32⟩ : BufTy).Contents (Elt F)) (x1 : (⟨S1x10240, .i32⟩ : BufTy).Contents (Elt F)) (x2 : (⟨S1x8192x138, .i32⟩ : BufTy).Contents (Elt F)) (x3 x4 : (⟨S2x138x1, .f32⟩ : BufTy).Contents (Elt F)) (x11 : (⟨S1x25, .f32⟩ : BufTy).Contents (Elt F)) (x12 : (⟨S25, .f32⟩ : BufTy).Contents (Elt F)) (x13 : (⟨S25x50, .f32⟩ : BufTy).Contents (Elt F)) (x14 : (⟨S50, .f32⟩ : BufTy).Contents (Elt F)) (x15 : (⟨S50x100, .f32⟩ : BufTy).Contents (Elt F)) (x16 : (⟨S100, .f32⟩ : BufTy).Contents (Elt F)) :
    (Host.divf (ReadP.val_main_v119 (F := F) x0 x1 x2 x3 x4 x11 x12 x13 x14 x15 x16) (ReadP.val_main_v120 (F := F)) : (⟨S8192x1x100, .f32⟩ : BufTy).Contents (Elt F)) = ReadP.val_main_v121 (F := F) x0 x1 x2 x3 x4 x11 x12 x13 x14 x15 x16 := rfl
theorem fold_val_main_cst_22  :
    (constant S_ .f32 0x3F2AAAAB#32 : (⟨S_, .f32⟩ : BufTy).Contents (Elt F)) = ReadP.val_main_cst_22 (F := F) := rfl
theorem fold_val_main_v122  :
    (broadcastInDim S8192x1x100 ![] bcast_S_S8192x1x100 (ReadP.val_main_cst_22 (F := F)) : (⟨S8192x1x100, .f32⟩ : BufTy).Contents (Elt F)) = ReadP.val_main_v122 (F := F) := rfl
theorem fold_val_main_v123 (x0 : (⟨S1x30720, .f32⟩ : BufTy).Contents (Elt F)) (x1 : (⟨S1x10240, .i32⟩ : BufTy).Contents (Elt F)) (x2 : (⟨S1x8192x138, .i32⟩ : BufTy).Contents (Elt F)) (x3 x4 : (⟨S2x138x1, .f32⟩ : BufTy).Contents (Elt F)) (x11 : (⟨S1x25, .f32⟩ : BufTy).Contents (Elt F)) (x12 : (⟨S25, .f32⟩ : BufTy).Contents (Elt F)) (x13 : (⟨S25x50, .f32⟩ : BufTy).Contents (Elt F)) (x14 : (⟨S50, .f32⟩ : BufTy).Contents (Elt F)) (x15 : (⟨S50x100, .f32⟩ : BufTy).Contents (Elt F)) (x16 : (⟨S100, .f32⟩ : BufTy).Contents (Elt F)) :
    (mulf (ReadP.val_main_v121 (F := F) x0 x1 x2 x3 x4 x11 x12 x13 x14 x15 x16) (ReadP.val_main_v122 (F := F)) : (⟨S8192x1x100, .f32⟩ : BufTy).Contents (Elt F)) = ReadP.val_main_v123 (F := F) x0 x1 x2 x3 x4 x11 x12 x13 x14 x15 x16 := rfl
theorem fold_val_main_v124 (x0 : (⟨S1x30720, .f32⟩ : BufTy).Contents (Elt F)) (x1 : (⟨S1x10240, .i32⟩ : BufTy).Contents (Elt F)) (x2 : (⟨S1x8192x138, .i32⟩ : BufTy).Contents (Elt F)) (x3 x4 : (⟨S2x138x1, .f32⟩ : BufTy).Contents (Elt F)) (x5 : (⟨S1x25, .f32⟩ : BufTy).Contents (Elt F)) (x6 : (⟨S25, .f32⟩ : BufTy).Contents (Elt F)) (x7 : (⟨S25x50, .f32⟩ : BufTy).Contents (Elt F)) (x8 : (⟨S50, .f32⟩ : BufTy).Contents (Elt F)) (x9 : (⟨S50x100, .f32⟩ : BufTy).Contents (Elt F)) (x10 : (⟨S100, .f32⟩ : BufTy).Contents (Elt F)) (x11 : (⟨S1x25, .f32⟩ : BufTy).Contents (Elt F)) (x12 : (⟨S25, .f32⟩ : BufTy).Contents (Elt F)) (x13 : (⟨S25x50, .f32⟩ : BufTy).Contents (Elt F)) (x14 : (⟨S50, .f32⟩ : BufTy).Contents (Elt F)) (x15 : (⟨S50x100, .f32⟩ : BufTy).Contents (Elt F)) (x16 : (⟨S100, .f32⟩ : BufTy).Contents (Elt F)) :
    (addf (ReadP.val_main_v97 (F := F) x0 x1 x2 x3 x4 x5 x6 x7 x8 x9 x10) (ReadP.val_main_v123 (F := F) x0 x1 x2 x3 x4 x11 x12 x13 x14 x15 x16) : (⟨S8192x1x100, .f32⟩ : BufTy).Contents (Elt F)) = ReadP.val_main_v124 (F := F) x0 x1 x2 x3 x4 x5 x6 x7 x8 x9 x10 x11 x12 x13 x14 x15 x16 := rfl
theorem fold_val_main_cst_23  :
    (constant S_ .f32 0x3E4CCCCD#32 : (⟨S_, .f32⟩ : BufTy).Contents (Elt F)) = ReadP.val_main_cst_23 (F := F) := rfl
theorem fold_val_main_v125  :
    (broadcastInDim S8192x1x100 ![] bcast_S_S8192x1x100 (ReadP.val_main_cst_23 (F := F)) : (⟨S8192x1x100, .f32⟩ : BufTy).Contents (Elt F)) = ReadP.val_main_v125 (F := F) := rfl
theorem fold_val_main_v126 (x0 : (⟨S1x30720, .f32⟩ : BufTy).Contents (Elt F)) (x1 : (⟨S1x10240, .i32⟩ : BufTy).Contents (Elt F)) (x2 : (⟨S1x8192x138, .i32⟩ : BufTy).Contents (Elt F)) (x3 x4 : (⟨S2x138x1, .f32⟩ : BufTy).Contents (Elt F)) (x5 : (⟨S1x25, .f32⟩ : BufTy).Contents (Elt F)) (x6 : (⟨S25, .f32⟩ : BufTy).Contents (Elt F)) (x7 : (⟨S25x50, .f32⟩ : BufTy).Contents (Elt F)) (x8 : (⟨S50, .f32⟩ : BufTy).Contents (Elt F)) (x9 : (⟨S50x100, .f32⟩ : BufTy).Contents (Elt F)) (x10 : (⟨S100, .f32⟩ : BufTy).Contents (Elt F)) (x11 : (⟨S1x25, .f32⟩ : BufTy).Contents (Elt F)) (x12 : (⟨S25, .f32⟩ : BufTy).Contents (Elt F)) (x13 : (⟨S25x50, .f32⟩ : BufTy).Contents (Elt F)) (x14 : (⟨S50, .f32⟩ : BufTy).Contents (Elt F)) (x15 : (⟨S50x100, .f32⟩ : BufTy).Contents (Elt F)) (x16 : (⟨S100, .f32⟩ : BufTy).Contents (Elt F)) :
    (mulf (ReadP.val_main_v124 (F := F) x0 x1 x2 x3 x4 x5 x6 x7 x8 x9 x10 x11 x12 x13 x14 x15 x16) (ReadP.val_main_v125 (F := F)) : (⟨S8192x1x100, .f32⟩ : BufTy).Contents (Elt F)) = ReadP.val_main_v126 (F := F) x0 x1 x2 x3 x4 x5 x6 x7 x8 x9 x10 x11 x12 x13 x14 x15 x16 := rfl
theorem fold_val_main_v127 (x0 : (⟨S1x30720, .f32⟩ : BufTy).Contents (Elt F)) (x1 : (⟨S1x10240, .i32⟩ : BufTy).Contents (Elt F)) (x2 : (⟨S1x8192x138, .i32⟩ : BufTy).Contents (Elt F)) (x3 x4 : (⟨S2x138x1, .f32⟩ : BufTy).Contents (Elt F)) (x5 : (⟨S1x25, .f32⟩ : BufTy).Contents (Elt F)) (x6 : (⟨S25, .f32⟩ : BufTy).Contents (Elt F)) (x7 : (⟨S25x50, .f32⟩ : BufTy).Contents (Elt F)) (x8 : (⟨S50, .f32⟩ : BufTy).Contents (Elt F)) (x9 : (⟨S50x100, .f32⟩ : BufTy).Contents (Elt F)) (x10 : (⟨S100, .f32⟩ : BufTy).Contents (Elt F)) (x11 : (⟨S1x25, .f32⟩ : BufTy).Contents (Elt F)) (x12 : (⟨S25, .f32⟩ : BufTy).Contents (Elt F)) (x13 : (⟨S25x50, .f32⟩ : BufTy).Contents (Elt F)) (x14 : (⟨S50, .f32⟩ : BufTy).Contents (Elt F)) (x15 : (⟨S50x100, .f32⟩ : BufTy).Contents (Elt F)) (x16 : (⟨S100, .f32⟩ : BufTy).Contents (Elt F)) :
    (shapeCast _ (ReadP.val_main_v126 (F := F) x0 x1 x2 x3 x4 x5 x6 x7 x8 x9 x10 x11 x12 x13 x14 x15 x16) shapeCasts_S8192x1x100_S1x8192x100 : (⟨S1x8192x100, .f32⟩ : BufTy).Contents (Elt F)) = ReadP.val_main_v127 (F := F) x0 x1 x2 x3 x4 x5 x6 x7 x8 x9 x10 x11 x12 x13 x14 x15 x16 := rfl

/-! ## A reshape's result, without the transport along the element type -/

theorem rs_0 (W : Valuation τ sig (Elt F)) :
    (reshape main_arg0 main_v0 rfl shapeCasts_S1x30720_S1x10240x3 : HloOp τ sig (Elt F)).result W (no_index (Proc.devRef .tc main_v0)) = shapeCast _ (W (Proc.devRef .tc main_arg0)) shapeCasts_S1x30720_S1x10240x3 :=
  reshape_result' _ _ _ _ W
theorem rs_9 (W : Valuation τ sig (Elt F)) :
    (reshape main_v4 main_v5 rfl shapeCasts_S1x8192x3_S1x8192x1x3 : HloOp τ sig (Elt F)).result W (no_index (Proc.devRef .tc main_v5)) = shapeCast _ (W (Proc.devRef .tc main_v4)) shapeCasts_S1x8192x3_S1x8192x1x3 :=
  reshape_result' _ _ _ _ W
theorem rs_10 (W : Valuation τ sig (Elt F)) :
    (reshape main_v3 main_v6 rfl shapeCasts_S1x8192x138_S1x1130496 : HloOp τ sig (Elt F)).result W (no_index (Proc.devRef .tc main_v6)) = shapeCast _ (W (Proc.devRef .tc main_v3)) shapeCasts_S1x8192x138_S1x1130496 :=
  reshape_result' _ _ _ _ W
theorem rs_19 (W : Valuation τ sig (Elt F)) :
    (TRef.reshape (TRef.of (T := ⟨S1x1130496x1, .i32⟩) main_call1_v4) (TRef.of (T := ⟨S1130496x1, .i32⟩) main_call1_v5) rfl shapeCasts_S1x1130496x1_S1130496x1 : HloOp τ sig (Elt F)).result W (no_index (Proc.devRef .tc main_call1_v5)) = shapeCast _ (W (Proc.devRef .tc main_call1_v4)) shapeCasts_S1x1130496x1_S1130496x1 :=
  reshape_result' _ _ _ _ W
theorem rs_35 (W : Valuation τ sig (Elt F)) :
    (reshape main_v8 main_v9 rfl shapeCasts_S1x1130496x3_S1x8192x138x3 : HloOp τ sig (Elt F)).result W (no_index (Proc.devRef .tc main_v9)) = shapeCast _ (W (Proc.devRef .tc main_v8)) shapeCasts_S1x1130496x3_S1x8192x138x3 :=
  reshape_result' _ _ _ _ W
theorem rs_120 (W : Valuation τ sig (Elt F)) :
    (reshape main_v68 main_v69 rfl shapeCasts_S1x8192x138x1_S8192x138x1 : HloOp τ sig (Elt F)).result W (no_index (Proc.devRef .tc main_v69)) = shapeCast _ (W (Proc.devRef .tc main_v68)) shapeCasts_S1x8192x138x1_S8192x138x1 :=
  reshape_result' _ _ _ _ W
theorem rs_186 (W : Valuation τ sig (Elt F)) :
    (reshape main_v126 main_v127 rfl shapeCasts_S8192x1x100_S1x8192x100 : HloOp τ sig (Elt F)).result W (no_index (Proc.devRef .tc main_v127)) = shapeCast _ (W (Proc.devRef .tc main_v126)) shapeCasts_S8192x1x100_S1x8192x100 :=
  reshape_result' _ _ _ _ W

/-! ## The result -/

set_option maxRecDepth 8192 in
set_option maxHeartbeats 0 in
theorem result_after (m : (ℓ : Loc nD τ sig) → Buf (Elt F) ℓ) (c : Dev nD) :
    after (ops (F := F)) (launchContents m c) (Proc.devRef .tc main_v127)
      = ReadP.val_main_v127 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  simp (disch := decide) only [after_cons, after_nil, nullary_result', unary_result', binary_result', ternary_result', quaternary_result', rs_0, rs_9, rs_10, rs_19, rs_35, rs_120, rs_186, nullary_result_ne', unary_result_ne', binary_result_ne', ternary_result_ne', quaternary_result_ne', reshape_result_ne', TRef.ofBuf, TRef.toBuf, cast_eq, concatenate_eq_joined2, fold_val_main_v0 (F := F), fold_val_main_c (F := F), fold_val_main_v1 (F := F), fold_val_main_v2 (F := F), fold_val_main_call0_v0 (F := F), fold_val_main_call0_v1 (F := F), fold_val_main_v3 (F := F), fold_val_main_v4 (F := F), fold_val_main_v5 (F := F), fold_val_main_v6 (F := F), fold_val_main_v7 (F := F), fold_val_main_call1_v0 (F := F), fold_val_main_call1_v1 (F := F), fold_val_main_call1_c_0 (F := F), fold_val_main_call1_v2 (F := F), fold_val_main_call1_v3 (F := F), fold_val_main_call1_v4 (F := F), fold_val_main_call1_v5 (F := F), fold_val_main_call1_c_1 (F := F), fold_val_main_call1_v6 (F := F), fold_val_main_call1_v7 (F := F), fold_val_main_call1_v8 (F := F), fold_val_main_call1_v9 (F := F), fold_val_main_call1_v10 (F := F), fold_val_main_call1_v11 (F := F), fold_val_main_call1_c_3 (F := F), fold_val_main_call1_v12 (F := F), fold_val_main_call1_v13 (F := F), fold_val_main_call1_v14 (F := F), fold_val_main_call1_cst (F := F), fold_val_main_call1_v15 (F := F), fold_val_main_v8 (F := F), fold_val_main_v9 (F := F), fold_val_main_v10 (F := F), fold_val_main_v11 (F := F), fold_val_main_call2_v0 (F := F), fold_val_main_call2_cst (F := F), fold_val_main_call2_v1 (F := F), fold_val_main_call2_v2 (F := F), fold_val_main_v12 (F := F), fold_val_main_v13 (F := F), fold_val_main_v14 (F := F), fold_val_main_v15 (F := F), fold_val_main_v16 (F := F), fold_val_main_cst (F := F), fold_val_main_v17 (F := F), fold_val_main_v18 (F := F), fold_val_main_cst_1 (F := F), fold_val_main_v19 (F := F), fold_val_main_v20 (F := F), fold_val_main_v21 (F := F), fold_val_main_cst_2 (F := F), fold_val_main_v22 (F := F), fold_val_main_v23 (F := F), fold_val_main_v24 (F := F), fold_val_main_v25 (F := F), fold_val_main_call3_v0 (F := F), fold_val_main_call3_v1 (F := F), fold_val_main_call3_v2 (F := F), fold_val_main_call3_v3 (F := F), fold_val_main_call3_v4 (F := F), fold_val_main_v26 (F := F), fold_val_main_v28 (F := F), fold_val_main_v30 (F := F), fold_val_main_cst_7 (F := F), fold_val_main_v31 (F := F), fold_val_main_v32 (F := F), fold_val_main_v33 (F := F), fold_val_main_v34 (F := F), fold_val_main_cst_8 (F := F), fold_val_main_v35 (F := F), fold_val_main_v36 (F := F), fold_val_main_v37 (F := F), fold_val_main_cst_9 (F := F), fold_val_main_v38 (F := F), fold_val_main_v39 (F := F), fold_val_main_v40 (F := F), fold_val_main_cst_10 (F := F), fold_val_main_v41 (F := F), fold_val_main_v42 (F := F), fold_val_main_v43 (F := F), fold_val_main_v45 (F := F), fold_val_main_v46 (F := F), fold_val_main_v47 (F := F), fold_val_main_v48 (F := F), fold_val_main_v49 (F := F), fold_val_main_v50 (F := F), fold_val_main_v51 (F := F), fold_val_main_v52 (F := F), fold_val_main_v53 (F := F), fold_val_main_v54 (F := F), fold_val_main_c_13 (F := F), fold_val_main_v55 (F := F), fold_val_main_v56 (F := F), fold_val_main_v57 (F := F), fold_val_main_v58 (F := F), fold_val_main_v59 (F := F), fold_val_main_v67 (F := F), fold_val_main_v68 (F := F), fold_val_main_v69 (F := F), fold_val_main_v70 (F := F), fold_val_main_v71 (F := F), fold_val_main_v72 (F := F), fold_val_main_v73 (F := F), fold_val_main_v74 (F := F), fold_val_main_v75 (F := F), fold_val_main_v76 (F := F), fold_val_main_v77 (F := F), fold_val_main_v78 (F := F), fold_val_main_v79 (F := F), fold_val_main_v80 (F := F), fold_val_main_v81 (F := F), fold_val_main_v82 (F := F), fold_val_main_v83 (F := F), fold_val_main_v84 (F := F), fold_val_main_v85 (F := F), fold_val_main_v86 (F := F), fold_val_main_v87 (F := F), fold_val_main_v88 (F := F), fold_val_main_v89 (F := F), fold_val_main_v90 (F := F), fold_val_main_v91 (F := F), fold_val_main_v92 (F := F), fold_val_main_cst_18 (F := F), fold_val_main_v93 (F := F), fold_val_main_v94 (F := F), fold_val_main_cst_19 (F := F), fold_val_main_v95 (F := F), fold_val_main_v96 (F := F), fold_val_main_v97 (F := F), fold_val_main_v98 (F := F), fold_val_main_v99 (F := F), fold_val_main_v101 (F := F), fold_val_main_v102 (F := F), fold_val_main_v103 (F := F), fold_val_main_v104 (F := F), fold_val_main_v106 (F := F), fold_val_main_v107 (F := F), fold_val_main_v108 (F := F), fold_val_main_v109 (F := F), fold_val_main_v110 (F := F), fold_val_main_v111 (F := F), fold_val_main_v113 (F := F), fold_val_main_v114 (F := F), fold_val_main_v115 (F := F), fold_val_main_v116 (F := F), fold_val_main_v117 (F := F), fold_val_main_v118 (F := F), fold_val_main_v119 (F := F), fold_val_main_cst_21 (F := F), fold_val_main_v120 (F := F), fold_val_main_v121 (F := F), fold_val_main_cst_22 (F := F), fold_val_main_v122 (F := F), fold_val_main_v123 (F := F), fold_val_main_v124 (F := F), fold_val_main_cst_23 (F := F), fold_val_main_v125 (F := F), fold_val_main_v126 (F := F), fold_val_main_v127 (F := F)]
  all_goals rfl

end Cert.ReferenceIdeal.ValueP

end
-- ==== Proof.Setup.lean ====
/-
  The program as the SparseCore launch theorem sees it, and the ghost state its proof runs over: the launch handshakes'
  rounds, the two TensorCore pipelines' staging cells (rounds with unit duties) and the counters of the gather
  kernel's local copies, side by side in one product. Every copy of the gather kernel is waited for by the tile that
  issued it and no tile signals another, so the kernel's part needs no schedule of its own: counters suffice.
-/
import proofs.«205418_g46067819217304_cont_8to1_c_241_17_alg».proof.KernelIdeal
import proofs.«205418_g46067819217304_cont_8to1_c_241_17_alg».proof.Proof.Gen.KernelIdeal
import Idealize.ShloMosaic.Lib.SparseCore.Launch
import Idealize.ShloMosaic.Lib.Pipeline.Kit
import Idealize.ShloMosaic.Lib.Pipeline.Regions
import Idealize.ShloMosaic.Lib.Transfers

noncomputable section

namespace Cert.KernelIdeal.Setup

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.Sem
open Idealize.ShloMosaic.Rounds

variable {F : FTy → Type}

/-- The kernels' label signature: the base labels and the two pipelines' regions. -/
abbrev ΛP : Labels := Pipeline.Sig Λ₀ (Fin 2) fun p => (pcfgs (F := F) p).Adm
/-- The one SparseCore call of @main. -/
abbrev K : SparseCore.Cfg τ sig (ΛP (F := F)) 1 := sc (F := F)
/-- The body table below the SparseCore dispatch: the pipelines' over the kernels'. -/
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds. -/
abbrev UH : Type := URounds (GSem nD τ sig) ℕ
/-- The pipelines' staging cells' rounds. -/
abbrev UP : Type := URounds (GSem nD τ sig) Unit
/-- Handshakes, pipelines, and the gather kernel's transfer counters (found by instance, rightmost). -/
abbrev UU : Type := UH × (UP × Counters)

/-- The model the whole proof runs over. -/
abbrev 𝕄F (F : FTy → Type) : Type := MT nD τ sig (HIx 1) (Elt F) ℕ UU ℕ

/-- The handshakes' rounds, the left factor. -/
abbrev EH : Emb UH (𝕄F F) := embL
/-- The pipelines' rounds: the left factor of the right factor. -/
def EP : Emb UP (𝕄F F) := (Emb.inl : Emb UP (UP × Counters)).trans embR

instance EP_landsIn : (EP : Emb UP (𝕄F F)).LandsIn (upEmb : UEmb _ (𝕄F F)) := by unfold EP; infer_instance

/-- The index the kernels' own waits and the pipelines' cells sit at: none of the launch's calls. -/
abbrev ι₀ : HIx 1 := none

end Cert.KernelIdeal.Setup

end
-- ==== Proof.MainShape.lean ====
/-
  @main of the kernel program, cut at its three launches: the SparseCore gather and the two TensorCore kernels. Between
  them stand only layout operations and one addition of weight halves, listed here in program order as four straight
  lines, so that @main is the chain: line, gather, line, environment kernel, line, embedding kernel, line. Every
  operation touches TensorCore arrays only. The statements are generic in the float instance.
-/
import proofs.«205418_g46067819217304_cont_8to1_c_241_17_alg».proof.KernelIdeal
import proofs.«205418_g46067819217304_cont_8to1_c_241_17_alg».proof.Proof.Gen.KernelIdeal
import Idealize.ShloMosaic.Lib.StableHlo.Run
import Idealize.ShloMosaic.Lib.Pipeline.Regions

noncomputable section

namespace Cert.KernelIdeal.MainShape

open Cert.KernelIdeal Cert.KernelIdeal.Facts₀ Cert.KernelIdeal.Facts Idealize.ShloMosaic Idealize.ShloMosaic.TcCoe Idealize.SL.Sem

variable {F : FTy → Type} [FloatOps F] [Named F]

/-- The two reshapes that flatten the coordinates and the neighbour list for the gather. -/
abbrev opsHead : List (HloOp τ sig (Elt F)) :=
  [ StableHlo.reshape main_arg0 main_v0 rfl shapeCasts_S1x30720_S30720,
    StableHlo.reshape main_arg2 main_v1 rfl shapeCasts_S1x8192x138_S1130496 ]
/-- Each operation of the line touches TensorCore arrays only. -/
theorem opsHead_sub : (opsHead : List (HloOp τ sig (Elt F))).Forall fun op => op.bufs ⊆ StableHlo.tcRefs τ sig :=
  ⟨StableHlo.reshape_bufs_sub .., StableHlo.reshape_bufs_sub ..⟩

/-- After the gather: the three gathered coordinate planes as [8192,138] matrices, the centre atoms' coordinates and types (the first 8192 rows of the extended arrays), the statistics tables as [2,138] matrices. -/
abbrev opsAfterGather : List (HloOp τ sig (Elt F)) :=
  [ StableHlo.reshape main_v2_0 main_v3 rfl shapeCasts_S1130496_S8192x138,
    StableHlo.reshape main_v2_1 main_v4 rfl shapeCasts_S1130496_S8192x138,
    StableHlo.reshape main_v2_2 main_v5 rfl shapeCasts_S1130496_S8192x138,
    StableHlo.reshape main_arg0 main_v6 rfl shapeCasts_S1x30720_S10240x3,
    StableHlo.unary main_v6 main_v7 ((extractStridedSlice S8192x3 ![0, 0] · slices_S10240x3_S8192x3_0_0) : (⟨S10240x3, .f32⟩ : BufTy).Contents (Elt F) → (⟨S8192x3, .f32⟩ : BufTy).Contents (Elt F)),
    StableHlo.reshape main_arg1 main_v8 rfl shapeCasts_S1x10240_S10240x1,
    StableHlo.unary main_v8 main_v9 ((extractStridedSlice S8192x1 ![0, 0] · slices_S10240x1_S8192x1_0_0) : (⟨S10240x1, .i32⟩ : BufTy).Contents (Elt F) → (⟨S8192x1, .i32⟩ : BufTy).Contents (Elt F)),
    StableHlo.reshape main_arg3 main_v10 rfl shapeCasts_S2x138x1_S2x138,
    StableHlo.reshape main_arg4 main_v11 rfl shapeCasts_S2x138x1_S2x138 ]
/-- Each operation of the line touches TensorCore arrays only. -/
theorem opsAfterGather_sub : (opsAfterGather : List (HloOp τ sig (Elt F))).Forall fun op => op.bufs ⊆ StableHlo.tcRefs τ sig :=
  ⟨StableHlo.reshape_bufs_sub .., StableHlo.reshape_bufs_sub .., StableHlo.reshape_bufs_sub .., StableHlo.reshape_bufs_sub .., StableHlo.unary_bufs_sub .., StableHlo.reshape_bufs_sub .., StableHlo.unary_bufs_sub .., StableHlo.reshape_bufs_sub .., StableHlo.reshape_bufs_sub ..⟩

/-- After the environment kernel: each slot type's normalised entries laid out as 64 blocks of (slot, 128 atoms) in one row; the third-layer weights transposed and joined with the transposed sum of their two row halves; the other weights transposed and the biases as columns. -/
abbrev opsAfterEnv : List (HloOp τ sig (Elt F)) :=
  [ StableHlo.reshape main_v12_0 main_v13 rfl shapeCasts_S8192x46_S64x128x46,
    StableHlo.unary main_v13 main_v14 ((transpose S64x46x128 [0, 2, 1] · transposes_S64x128x46_S64x46x128_0_2_1) : (⟨S64x128x46, .f32⟩ : BufTy).Contents (Elt F) → (⟨S64x46x128, .f32⟩ : BufTy).Contents (Elt F)),
    StableHlo.reshape main_v14 main_v15 rfl shapeCasts_S64x46x128_S1x376832,
    StableHlo.reshape main_v12_1 main_v16 rfl shapeCasts_S8192x92_S64x128x92,
    StableHlo.unary main_v16 main_v17 ((transpose S64x92x128 [0, 2, 1] · transposes_S64x128x92_S64x92x128_0_2_1) : (⟨S64x128x92, .f32⟩ : BufTy).Contents (Elt F) → (⟨S64x92x128, .f32⟩ : BufTy).Contents (Elt F)),
    StableHlo.reshape main_v17 main_v18 rfl shapeCasts_S64x92x128_S1x753664,
    StableHlo.unary main_arg9 main_v19 ((transpose S100x50 [1, 0] · transposes_S50x100_S100x50_1_0) : (⟨S50x100, .f32⟩ : BufTy).Contents (Elt F) → (⟨S100x50, .f32⟩ : BufTy).Contents (Elt F)),
    StableHlo.unary main_arg9 main_v20 ((extractStridedSlice S25x100 ![0, 0] · slices_S50x100_S25x100_0_0) : (⟨S50x100, .f32⟩ : BufTy).Contents (Elt F) → (⟨S25x100, .f32⟩ : BufTy).Contents (Elt F)),
    StableHlo.unary main_arg9 main_v21 ((extractStridedSlice S25x100 ![25, 0] · slices_S50x100_S25x100_25_0) : (⟨S50x100, .f32⟩ : BufTy).Contents (Elt F) → (⟨S25x100, .f32⟩ : BufTy).Contents (Elt F)),
    StableHlo.binary main_v20 main_v21 main_v22 (addf : (⟨S25x100, .f32⟩ : BufTy).Contents (Elt F) → (⟨S25x100, .f32⟩ : BufTy).Contents (Elt F) → (⟨S25x100, .f32⟩ : BufTy).Contents (Elt F)),
    StableHlo.unary main_v22 main_v23 ((transpose S100x25 [1, 0] · transposes_S25x100_S100x25_1_0) : (⟨S25x100, .f32⟩ : BufTy).Contents (Elt F) → (⟨S100x25, .f32⟩ : BufTy).Contents (Elt F)),
    StableHlo.binary main_v19 main_v23 main_v24 ((fun a b => concatenate S100x75 1 [⟨S100x50, a⟩, ⟨S100x25, b⟩] concatenates_S100x50_S100x25_S100x75_d1) : (⟨S100x50, .f32⟩ : BufTy).Contents (Elt F) → (⟨S100x25, .f32⟩ : BufTy).Contents (Elt F) → (⟨S100x75, .f32⟩ : BufTy).Contents (Elt F)),
    StableHlo.unary main_arg15 main_v25 ((transpose S100x50 [1, 0] · transposes_S50x100_S100x50_1_0) : (⟨S50x100, .f32⟩ : BufTy).Contents (Elt F) → (⟨S100x50, .f32⟩ : BufTy).Contents (Elt F)),
    StableHlo.unary main_arg15 main_v26 ((extractStridedSlice S25x100 ![0, 0] · slices_S50x100_S25x100_0_0) : (⟨S50x100, .f32⟩ : BufTy).Contents (Elt F) → (⟨S25x100, .f32⟩ : BufTy).Contents (Elt F)),
    StableHlo.unary main_arg15 main_v27 ((extractStridedSlice S25x100 ![25, 0] · slices_S50x100_S25x100_25_0) : (⟨S50x100, .f32⟩ : BufTy).Contents (Elt F) → (⟨S25x100, .f32⟩ : BufTy).Contents (Elt F)),
    StableHlo.binary main_v26 main_v27 main_v28 (addf : (⟨S25x100, .f32⟩ : BufTy).Contents (Elt F) → (⟨S25x100, .f32⟩ : BufTy).Contents (Elt F) → (⟨S25x100, .f32⟩ : BufTy).Contents (Elt F)),
    StableHlo.unary main_v28 main_v29 ((transpose S100x25 [1, 0] · transposes_S25x100_S100x25_1_0) : (⟨S25x100, .f32⟩ : BufTy).Contents (Elt F) → (⟨S100x25, .f32⟩ : BufTy).Contents (Elt F)),
    StableHlo.binary main_v25 main_v29 main_v30 ((fun a b => concatenate S100x75 1 [⟨S100x50, a⟩, ⟨S100x25, b⟩] concatenates_S100x50_S100x25_S100x75_d1) : (⟨S100x50, .f32⟩ : BufTy).Contents (Elt F) → (⟨S100x25, .f32⟩ : BufTy).Contents (Elt F) → (⟨S100x75, .f32⟩ : BufTy).Contents (Elt F)),
    StableHlo.unary main_arg5 main_v31 ((transpose S25x1 [1, 0] · transposes_S1x25_S25x1_1_0) : (⟨S1x25, .f32⟩ : BufTy).Contents (Elt F) → (⟨S25x1, .f32⟩ : BufTy).Contents (Elt F)),
    StableHlo.reshape main_arg6 main_v32 rfl shapeCasts_S25_S25x1,
    StableHlo.unary main_arg7 main_v33 ((transpose S50x25 [1, 0] · transposes_S25x50_S50x25_1_0) : (⟨S25x50, .f32⟩ : BufTy).Contents (Elt F) → (⟨S50x25, .f32⟩ : BufTy).Contents (Elt F)),
    StableHlo.reshape main_arg8 main_v34 rfl shapeCasts_S50_S50x1,
    StableHlo.reshape main_arg10 main_v35 rfl shapeCasts_S100_S100x1,
    StableHlo.unary main_arg11 main_v36 ((transpose S25x1 [1, 0] · transposes_S1x25_S25x1_1_0) : (⟨S1x25, .f32⟩ : BufTy).Contents (Elt F) → (⟨S25x1, .f32⟩ : BufTy).Contents (Elt F)),
    StableHlo.reshape main_arg12 main_v37 rfl shapeCasts_S25_S25x1,
    StableHlo.unary main_arg13 main_v38 ((transpose S50x25 [1, 0] · transposes_S25x50_S50x25_1_0) : (⟨S25x50, .f32⟩ : BufTy).Contents (Elt F) → (⟨S50x25, .f32⟩ : BufTy).Contents (Elt F)),
    StableHlo.reshape main_arg14 main_v39 rfl shapeCasts_S50_S50x1,
    StableHlo.reshape main_arg16 main_v40 rfl shapeCasts_S100_S100x1 ]
/-- Each operation of the line touches TensorCore arrays only. -/
theorem opsAfterEnv_sub : (opsAfterEnv : List (HloOp τ sig (Elt F))).Forall fun op => op.bufs ⊆ StableHlo.tcRefs τ sig :=
  ⟨StableHlo.reshape_bufs_sub .., StableHlo.unary_bufs_sub .., StableHlo.reshape_bufs_sub .., StableHlo.reshape_bufs_sub .., StableHlo.unary_bufs_sub .., StableHlo.reshape_bufs_sub .., StableHlo.unary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.unary_bufs_sub .., StableHlo.reshape_bufs_sub .., StableHlo.unary_bufs_sub .., StableHlo.reshape_bufs_sub .., StableHlo.reshape_bufs_sub .., StableHlo.unary_bufs_sub .., StableHlo.reshape_bufs_sub .., StableHlo.unary_bufs_sub .., StableHlo.reshape_bufs_sub .., StableHlo.reshape_bufs_sub ..⟩

/-- After the embedding kernel: the [100,8192] result transposed and given its leading unit axis. -/
abbrev opsTail : List (HloOp τ sig (Elt F)) :=
  [ StableHlo.unary main_v41 main_v42 ((transpose S8192x100 [1, 0] · transposes_S100x8192_S8192x100_1_0) : (⟨S100x8192, .f32⟩ : BufTy).Contents (Elt F) → (⟨S8192x100, .f32⟩ : BufTy).Contents (Elt F)),
    StableHlo.reshape main_v42 main_v43 rfl shapeCasts_S8192x100_S1x8192x100 ]
/-- Each operation of the line touches TensorCore arrays only. -/
theorem opsTail_sub : (opsTail : List (HloOp τ sig (Elt F))).Forall fun op => op.bufs ⊆ StableHlo.tcRefs τ sig :=
  ⟨StableHlo.unary_bufs_sub .., StableHlo.reshape_bufs_sub ..⟩

/-- @main is the chain of its seven items. -/
theorem main_chain (d : Dev nD) : main (F := F) d = (Pipeline.chain
  [ StableHlo.seq opsHead,
    sc.run d 0,
    StableHlo.seq opsAfterGather,
    Prog.lift (.customCall (SparseCore.inner (Pipeline.entry 0)) ()),
    StableHlo.seq opsAfterEnv,
    Prog.lift (.customCall (SparseCore.inner (Pipeline.entry 1)) ()),
    StableHlo.seq opsTail ] : Prog (TpuEff nD τ sig (Elt F) (SparseCore.Sig (Pipeline.Sig Λ₀ (Fin 2) fun p => (pcfgs (F := F) p).Adm) 1) .tc) PUnit) := by
  chain_rfl

end Cert.KernelIdeal.MainShape

end
-- ==== Proof.ScSplit.lean ====
/-
  The SparseCore gather call's interface: the five arrays, the value each result holds after it (gatherAt, one
  function of the call's two operands per result), the ranges of flat positions a SparseCore, a tile and a
  sub-chunk own, what the launch handshakes carry for the call (P), and how the arrays split along those ranges and
  the operands' read shares among the readers, and join again: between the TensorCore and the two SparseCores
  (st_intro, dn_elim), and between a SparseCore and its sixteen tiles (vecSplit).
-/
import proofs.«205418_g46067819217304_cont_8to1_c_241_17_alg».proof.KernelIdeal
import proofs.«205418_g46067819217304_cont_8to1_c_241_17_alg».proof.Proof.Setup
import Idealize.ShloMosaic.Lib.SparseCore.Launch
import Idealize.ShloMosaic.Lib.Tactic
import Idealize.ShloMosaic.Lib.Transfers
import Idealize.ShloMosaic.Lib.ValueIdx

noncomputable section

namespace Cert.ScGather

open Cert.KernelIdeal Cert.KernelIdeal.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => 𝕄F F

/-! ## The arrays -/

/-- The flat coordinate array and the flat neighbour list (the call's operands) and its three results, on device d. -/
abbrev cLoc (d : Dev nD) : Loc nD τ sig := (SparseCore.T d).loc main_v0
abbrev nLoc (d : Dev nD) : Loc nD τ sig := (SparseCore.T d).loc main_v1
abbrev xLoc (d : Dev nD) : Loc nD τ sig := (SparseCore.T d).loc main_v2_0
abbrev yLoc (d : Dev nD) : Loc nD τ sig := (SparseCore.T d).loc main_v2_1
abbrev zLoc (d : Dev nD) : Loc nD τ sig := (SparseCore.T d).loc main_v2_2

/-! ## The value -/

/-- Position n of the flat coordinate array, reduced modulo its extent so that the function is total. -/
def cIx (n : Nat) : S30720.Idx := ValueIdx.ix1 ⟨n % 30720, Nat.mod_lt _ (by decide)⟩

/-- What the gather leaves at flat position k of the result for axis a (0, 1, 2 for x, y, z): the coordinate word
    at 3 n + a, n the neighbour word at k. -/
def gatherAt (cf : Vec F S30720 .f32) (nf : IVec S1130496 32) (a : Nat) : Vec F S1130496 .f32 :=
  fun k => cf (cIx (3 * (nf k).toNat + a))

/-- Every neighbour word names an atom: read as a signed word it lies in [0, 10239]. Then 3 n + 2 < 30720 and no
    32-bit product wraps. -/
def NlOK (nf : (d : Dev nD) → Buf (Elt F) (nLoc d)) : Prop :=
  ∀ d k, 0 ≤ ((nf d k : BitVec 32)).toInt ∧ ((nf d k : BitVec 32)).toInt ≤ 10239

/-! ## Ranges of flat positions -/

/-- The flat positions [off, off + len). -/
def seg (off len : Nat) (h : off + len ≤ 1130496) : Finset S1130496.Idx :=
  (Rect.unit (s := S1130496) ![off] ![len] (Rect.inb₁ h)).set

theorem mem_seg {off len : Nat} {h : off + len ≤ 1130496} {k : S1130496.Idx} :
    k ∈ seg off len h ↔ off ≤ (k 0).val ∧ (k 0).val < off + len := by
  unfold seg
  rw [Rect.mem_set_unit]
  constructor
  · intro hk; exact hk 0
  · intro hk a
    obtain rfl : a = 0 := Subsingleton.elim _ _
    exact hk

/-- SparseCore c's half, tile (c, i)'s range, and sub-chunk b of it. -/
def coreSeg (c : Fin 2) : Finset S1130496.Idx := seg (565248 * c.val) 565248 (by have := c.isLt; omega)
def tileSeg (c : Fin 2) (i : Fin 16) : Finset S1130496.Idx :=
  seg (565248 * c.val + 35328 * i.val) 35328 (by have := c.isLt; have := i.isLt; omega)
def chunkSeg (c : Fin 2) (i : Fin 16) (b : Fin 8) : Finset S1130496.Idx :=
  seg (565248 * c.val + 35328 * i.val + 4416 * b.val) 4416 (by have := c.isLt; have := i.isLt; have := b.isLt; omega)

theorem chunk_disjoint (c : Fin 2) (i : Fin 16) : ∀ b ∈ (Finset.univ : Finset (Fin 8)), ∀ b' ∈ (Finset.univ : Finset (Fin 8)), b ≠ b' →
    Disjoint (chunkSeg c i b) (chunkSeg c i b') := by
  intro b _ b' _ hbb
  refine Finset.disjoint_left.mpr fun k h1 h2 => ?_
  unfold chunkSeg at h1 h2
  rw [mem_seg] at h1 h2
  have : b.val ≠ b'.val := fun e => hbb (Fin.ext e)
  omega

/-- A tile's range is its eight sub-chunks. -/
theorem chunk_cover (c : Fin 2) (i : Fin 16) : (Finset.univ : Finset (Fin 8)).biUnion (chunkSeg c i) = tileSeg c i := by
  ext k
  simp only [Finset.mem_biUnion, Finset.mem_univ, true_and]
  unfold chunkSeg tileSeg
  simp only [mem_seg]
  constructor
  · rintro ⟨b, hb⟩; have := b.isLt; omega
  · intro hk
    refine ⟨⟨((k 0).val - (565248 * c.val + 35328 * i.val)) / 4416, by omega⟩, ?_⟩
    simp only
    omega

theorem tile_disjoint (c : Fin 2) : ∀ i ∈ (Finset.univ : Finset (Fin 16)), ∀ i' ∈ (Finset.univ : Finset (Fin 16)), i ≠ i' →
    Disjoint (tileSeg c i) (tileSeg c i') := by
  intro i _ i' _ hii
  refine Finset.disjoint_left.mpr fun k h1 h2 => ?_
  unfold tileSeg at h1 h2
  rw [mem_seg] at h1 h2
  have : i.val ≠ i'.val := fun e => hii (Fin.ext e)
  omega

/-- A SparseCore's half is its sixteen tiles' ranges. -/
theorem tile_cover (c : Fin 2) : (Finset.univ : Finset (Fin 16)).biUnion (tileSeg c) = coreSeg c := by
  ext k
  simp only [Finset.mem_biUnion, Finset.mem_univ, true_and]
  unfold tileSeg coreSeg
  simp only [mem_seg]
  constructor
  · rintro ⟨i, hi⟩; have := i.isLt; omega
  · intro hk
    refine ⟨⟨((k 0).val - 565248 * c.val) / 35328, by omega⟩, ?_⟩
    simp only
    omega

theorem core_disjoint : Disjoint (coreSeg 0) (coreSeg 1) := by
  refine Finset.disjoint_left.mpr fun k h1 h2 => ?_
  unfold coreSeg at h1 h2
  rw [mem_seg] at h1 h2
  simp only [Fin.val_zero, Fin.val_one] at h1 h2
  omega

/-- The two halves are every position. -/
theorem core_cover : coreSeg 0 ∪ coreSeg 1 = Finset.univ := by
  ext k
  simp only [Finset.mem_union, Finset.mem_univ, iff_true]
  unfold coreSeg
  simp only [mem_seg, Fin.val_zero, Fin.val_one]
  have hk : (k 0).val < 1130496 := (k 0).isLt
  omega

/-! ## Index words -/

/-- A word in [0, 10239] as a signed number is at most 10239 as an unsigned one. -/
theorem toNat_of_ok {w : BitVec 32} (h0 : 0 ≤ w.toInt) (h1 : w.toInt ≤ 10239) : w.toNat ≤ 10239 := by
  rw [BitVec.toInt_eq_toNat_cond] at h0 h1
  split at h0 <;> omega

/-- Three times such a word does not wrap, -/
theorem mul3_toNat {w : BitVec 32} (hw : w.toNat ≤ 10239) : (w * 3#32).toNat = 3 * w.toNat := by
  rw [BitVec.toNat_mul]
  simp only [BitVec.toNat_ofNat]
  omega

/-- nor does adding 1 or 2 to it. -/
theorem mul3_add_toNat {w : BitVec 32} (hw : w.toNat ≤ 10239) (a : Nat) (ha : a ≤ 2) :
    (w * 3#32 + BitVec.ofNat 32 a).toNat = 3 * w.toNat + a := by
  rw [BitVec.toNat_add, mul3_toNat hw]
  simp only [BitVec.toNat_ofNat]
  omega

/-! ## What the handshakes carry -/

theorem nCore_zero : (K (F := F)).nCore 0 = 2 := rfl
theorem nSub_zero : (K (F := F)).nSub 0 = 16 := rfl

/-- The read share of the operands a SparseCore is handed: the two halves of the whole, so that the two come
    back to exactly the whole. A tile's: the sixteen read tokens of its SparseCore's half, the remainder staying
    with the split. -/
def qC (c : Fin 2) : PosShare TreeShare := if c.val = 0 then fullShare.left else fullShare.right
abbrev qT (c : Fin 2) (i : Fin 16) : PosShare TreeShare := Transfers.shareTok (qC c) 16 i

variable (cf : (d : Dev nD) → Buf (Elt F) (cLoc d)) (nf : (d : Dev nD) → Buf (Elt F) (nLoc d))

/-- The operands read-only at share q, and the positions R of the three results at whatever they hold. -/
def handed (d : Dev nD) (q : PosShare TreeShare) (R : Finset S1130496.Idx) : sProp 𝕄 :=
  iprop((cLoc d ↦{q} cf d) ∗ (nLoc d ↦{q} nf d)
    ∗ (∃ f, xLoc d ↦[R]{fullShare} f) ∗ (∃ f, yLoc d ↦[R]{fullShare} f) ∗ (∃ f, zLoc d ↦[R]{fullShare} f))

/-- The same back, the positions R of the three results holding the gathered words. -/
def gathered (d : Dev nD) (q : PosShare TreeShare) (R : Finset S1130496.Idx) : sProp 𝕄 :=
  iprop((cLoc d ↦{q} cf d) ∗ (nLoc d ↦{q} nf d)
    ∗ (xLoc d ↦[R]{fullShare} gatherAt (cf d) (nf d) 0) ∗ (yLoc d ↦[R]{fullShare} gatherAt (cf d) (nf d) 1)
    ∗ (zLoc d ↦[R]{fullShare} gatherAt (cf d) (nf d) 2))

/-- The one call: a SparseCore takes a read share of the operands and its half of the results and brings them back
    gathered; a tile the same of its range. The kernel's proof consumes nothing of the launch's. -/
def P : (K (F := F)).Pay (nD := nD) (Val := Elt F) (Name := ℕ) (U := UU) where
  st := fun q d c => match q with | 0 => handed cf nf d (qC (Fin.cast nCore_zero c)) (coreSeg (Fin.cast nCore_zero c))
  dn := fun q d c => match q with | 0 => gathered cf nf d (qC (Fin.cast nCore_zero c)) (coreSeg (Fin.cast nCore_zero c))
  go := fun q d c i => match q with
    | 0 => handed cf nf d (qT (Fin.cast nCore_zero c) (Fin.cast nSub_zero i)) (tileSeg (Fin.cast nCore_zero c) (Fin.cast nSub_zero i))
  td := fun q d c i => match q with
    | 0 => gathered cf nf d (qT (Fin.cast nCore_zero c) (Fin.cast nSub_zero i)) (tileSeg (Fin.cast nCore_zero c) (Fin.cast nSub_zero i))
  x := fun _ _ => iprop(emp)

set_option synthInstance.maxHeartbeats 400000 in
instance handed_storable (d : Dev nD) (q : PosShare TreeShare) (R : Finset S1130496.Idx) :
    BI.Storable (upEmb : UEmb _ 𝕄) (handed cf nf d q R) := by unfold handed; infer_instance
set_option synthInstance.maxHeartbeats 400000 in
instance gathered_storable (d : Dev nD) (q : PosShare TreeShare) (R : Finset S1130496.Idx) :
    BI.Storable (upEmb : UEmb _ 𝕄) (gathered cf nf d q R) := by unfold gathered; infer_instance

set_option synthInstance.maxHeartbeats 400000 in
instance P_storable : (P (F := F) cf nf).IsStorable where
  st q d c := match q with | 0 => by unfold P; infer_instance
  dn q d c := match q with | 0 => by unfold P; infer_instance
  go q d c i := match q with | 0 => by unfold P; infer_instance
  td q d c i := match q with | 0 => by unfold P; infer_instance

/-! ## Splitting and joining the arrays -/

theorem qC_zero : qC 0 = fullShare.left := if_pos rfl
theorem qC_one : qC 1 = fullShare.right := if_neg (by decide)

omit [FloatOps F] [Named F] in
/-- A result whole is its two halves, -/
theorem x_cores (d : Dev nD) (f : Buf (Elt F) (xLoc d)) :
    (xLoc d ↦{fullShare} f : sProp 𝕄) ⊣⊢ iprop((xLoc d ↦[coreSeg 0]{fullShare} f) ∗ xLoc d ↦[coreSeg 1]{fullShare} f) := by
  have h : (xLoc d ↦[coreSeg 0 ∪ coreSeg 1]{fullShare} f : sProp 𝕄)
      ⊣⊢ iprop((xLoc d ↦[coreSeg 0]{fullShare} f) ∗ xLoc d ↦[coreSeg 1]{fullShare} f) := pointsTo_union core_disjoint
  rwa [core_cover] at h
omit [FloatOps F] [Named F] in
theorem y_cores (d : Dev nD) (f : Buf (Elt F) (yLoc d)) :
    (yLoc d ↦{fullShare} f : sProp 𝕄) ⊣⊢ iprop((yLoc d ↦[coreSeg 0]{fullShare} f) ∗ yLoc d ↦[coreSeg 1]{fullShare} f) := by
  have h : (yLoc d ↦[coreSeg 0 ∪ coreSeg 1]{fullShare} f : sProp 𝕄)
      ⊣⊢ iprop((yLoc d ↦[coreSeg 0]{fullShare} f) ∗ yLoc d ↦[coreSeg 1]{fullShare} f) := pointsTo_union core_disjoint
  rwa [core_cover] at h
omit [FloatOps F] [Named F] in
theorem z_cores (d : Dev nD) (f : Buf (Elt F) (zLoc d)) :
    (zLoc d ↦{fullShare} f : sProp 𝕄) ⊣⊢ iprop((zLoc d ↦[coreSeg 0]{fullShare} f) ∗ zLoc d ↦[coreSeg 1]{fullShare} f) := by
  have h : (zLoc d ↦[coreSeg 0 ∪ coreSeg 1]{fullShare} f : sProp 𝕄)
      ⊣⊢ iprop((zLoc d ↦[coreSeg 0]{fullShare} f) ∗ zLoc d ↦[coreSeg 1]{fullShare} f) := pointsTo_union core_disjoint
  rwa [core_cover] at h

omit [FloatOps F] [Named F] in
/-- a half its sixteen tiles' ranges, -/
theorem x_tiles (d : Dev nD) (c : Fin 2) (f : Buf (Elt F) (xLoc d)) :
    (xLoc d ↦[coreSeg c]{fullShare} f : sProp 𝕄) = bigSep Finset.univ fun i : Fin 16 => xLoc d ↦[tileSeg c i]{fullShare} f := by
  rw [← pointsTo_biUnion Finset.univ (ℓ := xLoc d) (tileSeg c) (tile_disjoint c), tile_cover]
omit [FloatOps F] [Named F] in
theorem y_tiles (d : Dev nD) (c : Fin 2) (f : Buf (Elt F) (yLoc d)) :
    (yLoc d ↦[coreSeg c]{fullShare} f : sProp 𝕄) = bigSep Finset.univ fun i : Fin 16 => yLoc d ↦[tileSeg c i]{fullShare} f := by
  rw [← pointsTo_biUnion Finset.univ (ℓ := yLoc d) (tileSeg c) (tile_disjoint c), tile_cover]
omit [FloatOps F] [Named F] in
theorem z_tiles (d : Dev nD) (c : Fin 2) (f : Buf (Elt F) (zLoc d)) :
    (zLoc d ↦[coreSeg c]{fullShare} f : sProp 𝕄) = bigSep Finset.univ fun i : Fin 16 => zLoc d ↦[tileSeg c i]{fullShare} f := by
  rw [← pointsTo_biUnion Finset.univ (ℓ := zLoc d) (tileSeg c) (tile_disjoint c), tile_cover]

omit [FloatOps F] [Named F] in
/-- and a tile's range its eight sub-chunks. -/
theorem x_chunks (d : Dev nD) (c : Fin 2) (i : Fin 16) (f : Buf (Elt F) (xLoc d)) :
    (xLoc d ↦[tileSeg c i]{fullShare} f : sProp 𝕄) = bigSep Finset.univ fun b : Fin 8 => xLoc d ↦[chunkSeg c i b]{fullShare} f := by
  rw [← pointsTo_biUnion Finset.univ (ℓ := xLoc d) (chunkSeg c i) (chunk_disjoint c i), chunk_cover]
omit [FloatOps F] [Named F] in
theorem y_chunks (d : Dev nD) (c : Fin 2) (i : Fin 16) (f : Buf (Elt F) (yLoc d)) :
    (yLoc d ↦[tileSeg c i]{fullShare} f : sProp 𝕄) = bigSep Finset.univ fun b : Fin 8 => yLoc d ↦[chunkSeg c i b]{fullShare} f := by
  rw [← pointsTo_biUnion Finset.univ (ℓ := yLoc d) (chunkSeg c i) (chunk_disjoint c i), chunk_cover]
omit [FloatOps F] [Named F] in
theorem z_chunks (d : Dev nD) (c : Fin 2) (i : Fin 16) (f : Buf (Elt F) (zLoc d)) :
    (zLoc d ↦[tileSeg c i]{fullShare} f : sProp 𝕄) = bigSep Finset.univ fun b : Fin 8 => zLoc d ↦[chunkSeg c i b]{fullShare} f := by
  rw [← pointsTo_biUnion Finset.univ (ℓ := zLoc d) (chunkSeg c i) (chunk_disjoint c i), chunk_cover]

/-- A family over the call's SparseCores, or over a SparseCore's tiles, indexed by their literal counts. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] [Named F] in
/-- Pieces all held at one contents are pieces each held at some. -/
theorem bigSep_some {I : Type} {Y : Type} (s : Finset I) (Φ : I → Y → sProp 𝕄) (y : Y) :
    (bigSep s fun i => Φ i y) ⊢ bigSep s fun i => iprop(∃ y, Φ i y) :=
  bigSep_mono fun i _ => exists_intro (Φ := fun y => Φ i y) y

/-! ## The splits -/

/-- A SparseCore's share splits among its sixteen tiles, and their gathered ranges join to its half. -/
theorem vecSplit : (K (F := F)).VecSplit' (P cf nf) 0 := by
  intro d c
  show handed cf nf d (qC (Fin.cast nCore_zero c)) (coreSeg (Fin.cast nCore_zero c)) ⊢ |={Set.univ}=> iprop(
      (bigSep Finset.univ fun i : Fin ((K (F := F)).nSub 0) =>
        handed cf nf d (qT (Fin.cast nCore_zero c) (Fin.cast nSub_zero i)) (tileSeg (Fin.cast nCore_zero c) (Fin.cast nSub_zero i)))
      ∗ ((bigSep Finset.univ fun i : Fin ((K (F := F)).nSub 0) =>
          gathered cf nf d (qT (Fin.cast nCore_zero c) (Fin.cast nSub_zero i)) (tileSeg (Fin.cast nCore_zero c) (Fin.cast nSub_zero i)))
          -∗ gathered cf nf d (qC (Fin.cast nCore_zero c)) (coreSeg (Fin.cast nCore_zero c))))
  generalize Fin.cast nCore_zero c = c'
  rw [bigSep_tasks (F := F) (fun i => handed cf nf d (qT c' i) (tileSeg c' i)),
    bigSep_tasks (F := F) (fun i => gathered cf nf d (qT c' i) (tileSeg c' i))]
  unfold handed gathered
  simp only [bigSep_sep', x_tiles, y_tiles, z_tiles]
  iintro ⟨Hc, Hn, ⟨%fx, Hx⟩, ⟨%fy, Hy⟩, ⟨%fz, Hz⟩⟩
  imodintro
  -- each operand's share: sixteen read tokens out, the remainder kept for the join
  ihave Hc' := (Transfers.pointsTo_toks_split (qC c') 16) $$ Hc
  icases Hc' with ⟨Hcd, Hct⟩
  ihave Hn' := (Transfers.pointsTo_toks_split (qC c') 16) $$ Hn
  icases Hn' with ⟨Hnd, Hnt⟩
  isplitl [Hct Hnt Hx Hy Hz]
  · isplitl [Hct]; · iexact Hct
    isplitl [Hnt]; · iexact Hnt
    isplitl [Hx]; · iapply (bigSep_some Finset.univ (fun (i : Fin 16) f => xLoc d ↦[tileSeg c' i]{fullShare} f) fx); iexact Hx
    isplitl [Hy]; · iapply (bigSep_some Finset.univ (fun (i : Fin 16) f => yLoc d ↦[tileSeg c' i]{fullShare} f) fy); iexact Hy
    iapply (bigSep_some Finset.univ (fun (i : Fin 16) f => zLoc d ↦[tileSeg c' i]{fullShare} f) fz); iexact Hz
  iintro ⟨Hct, Hnt, Hx, Hy, Hz⟩
  isplitl [Hcd Hct]
  · iapply (Transfers.pointsTo_toks_join (qC c') 16); isplitl [Hcd] <;> iassumption
  isplitl [Hnd Hnt]
  · iapply (Transfers.pointsTo_toks_join (qC c') 16); isplitl [Hnd] <;> iassumption
  isplitl [Hx]; · iexact Hx
  isplitl [Hy]; · iexact Hy
  iexact Hz

/-- At the call, on the TensorCore: the operands whole and the three results whole, at whatever they hold, are what
    the two SparseCores are handed; -/
theorem st_intro (d : Dev nD) :
    iprop((cLoc d ↦{fullShare} cf d) ∗ (nLoc d ↦{fullShare} nf d)
        ∗ (∃ f, xLoc d ↦{fullShare} f) ∗ (∃ f, yLoc d ↦{fullShare} f) ∗ (∃ f, zLoc d ↦{fullShare} f))
      ⊢ (bigSep Finset.univ fun c : Fin ((K (F := F)).nCore 0) => (P cf nf).st 0 d c : sProp 𝕄) := by
  show _ ⊢ bigSep Finset.univ fun c : Fin ((K (F := F)).nCore 0) =>
    handed cf nf d (qC (Fin.cast nCore_zero c)) (coreSeg (Fin.cast nCore_zero c))
  rw [bigSep_cores (F := F) (fun c => handed cf nf d (qC c) (coreSeg c)), bigSep_univ_two, qC_zero, qC_one]
  unfold handed
  iintro ⟨Hc, Hn, ⟨%fx, Hx⟩, ⟨%fy, Hy⟩, ⟨%fz, Hz⟩⟩
  ihave Hc' := (pointsTo_share (PosShare.mem_left_op_right fullShare)).1 $$ Hc
  icases Hc' with ⟨Hc0, Hc1⟩
  ihave Hn' := (pointsTo_share (PosShare.mem_left_op_right fullShare)).1 $$ Hn
  icases Hn' with ⟨Hn0, Hn1⟩
  ihave Hx' := (x_cores (F := F) d fx).1 $$ Hx
  icases Hx' with ⟨Hx0, Hx1⟩
  ihave Hy' := (y_cores (F := F) d fy).1 $$ Hy
  icases Hy' with ⟨Hy0, Hy1⟩
  ihave Hz' := (z_cores (F := F) d fz).1 $$ Hz
  icases Hz' with ⟨Hz0, Hz1⟩
  isplitl [Hc0 Hn0 Hx0 Hy0 Hz0]
  · isplitl [Hc0]; · iexact Hc0
    isplitl [Hn0]; · iexact Hn0
    isplitl [Hx0]; · iexists fx; iexact Hx0
    isplitl [Hy0]; · iexists fy; iexact Hy0
    iexists fz; iexact Hz0
  · isplitl [Hc1]; · iexact Hc1
    isplitl [Hn1]; · iexact Hn1
    isplitl [Hx1]; · iexists fx; iexact Hx1
    isplitl [Hy1]; · iexists fy; iexact Hy1
    iexists fz; iexact Hz1

/-- and what they bring back is the operands whole again and the three results whole, gathered. -/
theorem dn_elim (d : Dev nD) :
    (bigSep Finset.univ fun c : Fin ((K (F := F)).nCore 0) => (P cf nf).dn 0 d c : sProp 𝕄)
      ⊢ iprop((cLoc d ↦{fullShare} cf d) ∗ (nLoc d ↦{fullShare} nf d)
          ∗ (xLoc d ↦{fullShare} gatherAt (cf d) (nf d) 0) ∗ (yLoc d ↦{fullShare} gatherAt (cf d) (nf d) 1)
          ∗ (zLoc d ↦{fullShare} gatherAt (cf d) (nf d) 2)) := by
  show (bigSep Finset.univ fun c : Fin ((K (F := F)).nCore 0) =>
    gathered cf nf d (qC (Fin.cast nCore_zero c)) (coreSeg (Fin.cast nCore_zero c))) ⊢ _
  rw [bigSep_cores (F := F) (fun c => gathered cf nf d (qC c) (coreSeg c)), bigSep_univ_two, qC_zero, qC_one]
  unfold gathered
  iintro ⟨⟨Hc0, Hn0, Hx0, Hy0, Hz0⟩, ⟨Hc1, Hn1, Hx1, Hy1, Hz1⟩⟩
  isplitl [Hc0 Hc1]
  · iapply (pointsTo_share (PosShare.mem_left_op_right fullShare)).2; isplitl [Hc0] <;> iassumption
  isplitl [Hn0 Hn1]
  · iapply (pointsTo_share (PosShare.mem_left_op_right fullShare)).2; isplitl [Hn0] <;> iassumption
  isplitl [Hx0 Hx1]
  · iapply (x_cores (F := F) d _).2; isplitl [Hx0] <;> iassumption
  isplitl [Hy0 Hy1]
  · iapply (y_cores (F := F) d _).2; isplitl [Hy0] <;> iassumption
  iapply (z_cores (F := F) d _).2; isplitl [Hz0] <;> iassumption

end Cert.ScGather

end
-- ==== Proof.ScGather.lean ====
/-
  The SparseCore gather of the neighbour coordinates. Thirty-two vector subcores, tile (c, s) numbered w = 16 c + s,
  each own the flat positions [35328 w, 35328 (w + 1)) of the three results. A tile copies the whole flat coordinate
  array into its scratch once, then, eight times over, copies 4416 neighbour words of its range in, gathers for each
  word n the coordinate words 3 n, 3 n + 1 and 3 n + 2 sixteen lanes at a time, and copies the three gathered
  stretches out. Stated here: what the call is handed and hands back, per SparseCore and per tile, with each result
  range named as ONE function of the call's operands (gatherAt), so that the ranges join by extensionality; the
  tile's task from that; and how a SparseCore's share splits among its sixteen tiles and joins again.
-/
import proofs.«205418_g46067819217304_cont_8to1_c_241_17_alg».proof.KernelIdeal
import proofs.«205418_g46067819217304_cont_8to1_c_241_17_alg».proof.Proof.Gen.KernelIdeal
import proofs.«205418_g46067819217304_cont_8to1_c_241_17_alg».proof.Proof.Gen.KernelIdeal.Skeleton
import proofs.«205418_g46067819217304_cont_8to1_c_241_17_alg».proof.Proof.Setup
import proofs.«205418_g46067819217304_cont_8to1_c_241_17_alg».proof.Proof.ScSplit
import Idealize.ShloMosaic.Lib.SparseCore.Launch
import Idealize.ShloMosaic.Lib.SparseCore.Ops
import Idealize.ShloMosaic.Lib.Tactic
import Idealize.ShloMosaic.Lib.Transfers
import Idealize.ShloMosaic.Lib.ValueIdx

noncomputable section

namespace Cert.ScGather

open Cert.KernelIdeal Cert.KernelIdeal.Gen Cert.KernelIdeal.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => 𝕄F F

variable (cf : (d : Dev nD) → Buf (Elt F) (cLoc d)) (nf : (d : Dev nD) → Buf (Elt F) (nLoc d))

/-! ## The task -/

section Tile

variable (d : Dev nD) (L : grid0.Coords)

abbrev cV (L : grid0.Coords) : Fin τ.nSC := (L 0).castLE hcore0
abbrev jV (L : grid0.Coords) : Fin τ.nSub := (L 1).castLE hsub0
omit [FloatOps F] [Named F] in
theorem bound_zero : grid0.bound 0 = 2 := rfl
omit [FloatOps F] [Named F] in
theorem bound_one : grid0.bound 1 = 16 := rfl
abbrev cL (L : grid0.Coords) : Fin 2 := Fin.cast bound_zero (L 0)
abbrev iL (L : grid0.Coords) : Fin 16 := Fin.cast bound_one (L 1)

-- the kernel's memrefs, spelt as the body table passes them
local notation "cW" => (Memref.whole Cert.KernelIdeal.main_v0_scv : Memref Cert.KernelIdeal.sig Kind.scVector Space.hbm Cert.KernelIdeal.S30720 EltTy.f32)
local notation "nW" => (Memref.whole Cert.KernelIdeal.main_v1_scv : Memref Cert.KernelIdeal.sig Kind.scVector Space.hbm Cert.KernelIdeal.S1130496 EltTy.i32)
local notation "xW" => (Memref.whole Cert.KernelIdeal.main_v2_0_scv : Memref Cert.KernelIdeal.sig Kind.scVector Space.hbm Cert.KernelIdeal.S1130496 EltTy.f32)
local notation "yW" => (Memref.whole Cert.KernelIdeal.main_v2_1_scv : Memref Cert.KernelIdeal.sig Kind.scVector Space.hbm Cert.KernelIdeal.S1130496 EltTy.f32)
local notation "zW" => (Memref.whole Cert.KernelIdeal.main_v2_2_scv : Memref Cert.KernelIdeal.sig Kind.scVector Space.hbm Cert.KernelIdeal.S1130496 EltTy.f32)
local notation "sC" => (Memref.whole Cert.KernelIdeal.cc0_scratch0 : Memref Cert.KernelIdeal.sig Kind.scVector Space.vmem Cert.KernelIdeal.S30720 EltTy.f32)
local notation "sN" => (Memref.whole Cert.KernelIdeal.cc0_scratch1 : Memref Cert.KernelIdeal.sig Kind.scVector Space.vmem Cert.KernelIdeal.S4416 EltTy.i32)
local notation "sX" => (Memref.whole Cert.KernelIdeal.cc0_scratch2 : Memref Cert.KernelIdeal.sig Kind.scVector Space.vmem Cert.KernelIdeal.S4416 EltTy.f32)
local notation "sY" => (Memref.whole Cert.KernelIdeal.cc0_scratch3 : Memref Cert.KernelIdeal.sig Kind.scVector Space.vmem Cert.KernelIdeal.S4416 EltTy.f32)
local notation "sZ" => (Memref.whole Cert.KernelIdeal.cc0_scratch4 : Memref Cert.KernelIdeal.sig Kind.scVector Space.vmem Cert.KernelIdeal.S4416 EltTy.f32)

/-- The 4416 positions from the kernel's offset o of an array, as the kernel slices it. -/
abbrev sl {e : EltTy} (m : Memref sig .scVector .hbm S1130496 e) (L : grid0.Coords) (o : BitVec 32)
    (h : ∀ a, (k0_off1 L o) a + S4416.size a ≤ S1130496.size a) : Memref sig .scVector .hbm S4416 e :=
  m.slice (Rect.unit (s := S1130496) (k0_off1 L o) S4416.size h) (fun _ => rfl)

omit [FloatOps F] [Named F] in
/-- The rectangle of sub-chunk b of tile L is the range chunkSeg names. -/
theorem unit_set_chunk (b : Fin 8) :
    (Rect.unit (s := S1130496) (k0_off1 L (BitVec.ofNat 32 (4416 * b.val))) S4416.size (k0_off1_inb L b)).set = chunkSeg (cL L) (iL L) b := by
  ext k
  rw [Rect.mem_set_unit, chunkSeg, mem_seg, k0_off1_eq]
  constructor
  · intro hk; exact hk 0
  · intro hk a
    obtain rfl : a = 0 := Subsingleton.elim _ _
    exact hk

/-! ### The tile's ranges as the kernel's slices -/

omit [FloatOps F] [Named F] in
theorem pts_slx (b : Fin 8) (f : Buf (Elt F) (xLoc d)) :
    ((sl (xW) L (BitVec.ofNat 32 (4416 * b.val)) (k0_off1_inb L b)).view.loc (V d (cV L) (jV L))
        ↦[(sl (xW) L (BitVec.ofNat 32 (4416 * b.val)) (k0_off1_inb L b)).view.set]{fullShare} f : sProp 𝕄)
      = xLoc d ↦[chunkSeg (cL L) (iL L) b]{fullShare} f := by
  rw [show (sl (xW) L (BitVec.ofNat 32 (4416 * b.val)) (k0_off1_inb L b)).view.set = chunkSeg (cL L) (iL L) b from
    (View.set_slice_whole _ _).trans (unit_set_chunk L b)]
omit [FloatOps F] [Named F] in
theorem pts_sly (b : Fin 8) (f : Buf (Elt F) (yLoc d)) :
    ((sl (yW) L (BitVec.ofNat 32 (4416 * b.val)) (k0_off1_inb L b)).view.loc (V d (cV L) (jV L))
        ↦[(sl (yW) L (BitVec.ofNat 32 (4416 * b.val)) (k0_off1_inb L b)).view.set]{fullShare} f : sProp 𝕄)
      = yLoc d ↦[chunkSeg (cL L) (iL L) b]{fullShare} f := by
  rw [show (sl (yW) L (BitVec.ofNat 32 (4416 * b.val)) (k0_off1_inb L b)).view.set = chunkSeg (cL L) (iL L) b from
    (View.set_slice_whole _ _).trans (unit_set_chunk L b)]
omit [FloatOps F] [Named F] in
theorem pts_slz (b : Fin 8) (f : Buf (Elt F) (zLoc d)) :
    ((sl (zW) L (BitVec.ofNat 32 (4416 * b.val)) (k0_off1_inb L b)).view.loc (V d (cV L) (jV L))
        ↦[(sl (zW) L (BitVec.ofNat 32 (4416 * b.val)) (k0_off1_inb L b)).view.set]{fullShare} f : sProp 𝕄)
      = zLoc d ↦[chunkSeg (cL L) (iL L) b]{fullShare} f := by
  rw [show (sl (zW) L (BitVec.ofNat 32 (4416 * b.val)) (k0_off1_inb L b)).view.set = chunkSeg (cL L) (iL L) b from
    (View.set_slice_whole _ _).trans (unit_set_chunk L b)]
omit [FloatOps F] [Named F] in
/-- A tile's range of this array, as the eight slices the kernel copies. -/
theorem x_chunks8 (f : Buf (Elt F) (xLoc d)) :
    (xLoc d ↦[tileSeg (cL L) (iL L)]{fullShare} f : sProp 𝕄)
      = iprop(((sl (xW) L 0#32 (k0_off1_inb L 0)).view.loc (V d (cV L) (jV L)) ↦[(sl (xW) L 0#32 (k0_off1_inb L 0)).view.set]{fullShare} f)
        ∗ ((sl (xW) L 4416#32 (k0_off1_inb L 1)).view.loc (V d (cV L) (jV L)) ↦[(sl (xW) L 4416#32 (k0_off1_inb L 1)).view.set]{fullShare} f)
        ∗ ((sl (xW) L 8832#32 (k0_off1_inb L 2)).view.loc (V d (cV L) (jV L)) ↦[(sl (xW) L 8832#32 (k0_off1_inb L 2)).view.set]{fullShare} f)
        ∗ ((sl (xW) L 13248#32 (k0_off1_inb L 3)).view.loc (V d (cV L) (jV L)) ↦[(sl (xW) L 13248#32 (k0_off1_inb L 3)).view.set]{fullShare} f)
        ∗ ((sl (xW) L 17664#32 (k0_off1_inb L 4)).view.loc (V d (cV L) (jV L)) ↦[(sl (xW) L 17664#32 (k0_off1_inb L 4)).view.set]{fullShare} f)
        ∗ ((sl (xW) L 22080#32 (k0_off1_inb L 5)).view.loc (V d (cV L) (jV L)) ↦[(sl (xW) L 22080#32 (k0_off1_inb L 5)).view.set]{fullShare} f)
        ∗ ((sl (xW) L 26496#32 (k0_off1_inb L 6)).view.loc (V d (cV L) (jV L)) ↦[(sl (xW) L 26496#32 (k0_off1_inb L 6)).view.set]{fullShare} f)
        ∗ ((sl (xW) L 30912#32 (k0_off1_inb L 7)).view.loc (V d (cV L) (jV L)) ↦[(sl (xW) L 30912#32 (k0_off1_inb L 7)).view.set]{fullShare} f)) := by
  have e : ∀ (b : Fin 8) (o : BitVec 32) (ho : o = BitVec.ofNat 32 (4416 * b.val)) (h : ∀ a, (k0_off1 L o) a + S4416.size a ≤ S1130496.size a),
      ((sl (xW) L o h).view.loc (V d (cV L) (jV L)) ↦[(sl (xW) L o h).view.set]{fullShare} f : sProp 𝕄)
        = xLoc d ↦[chunkSeg (cL L) (iL L) b]{fullShare} f := by
    intro b o ho h; subst ho; exact pts_slx d L b f
  rw [e 0 0#32 rfl, e 1 4416#32 rfl, e 2 8832#32 rfl, e 3 13248#32 rfl, e 4 17664#32 rfl, e 5 22080#32 rfl, e 6 26496#32 rfl,
    e 7 30912#32 rfl, x_chunks, BI.bigSep_univ_eq_bigSepL (I := Fin 8) [0, 1, 2, 3, 4, 5, 6, 7] (by decide) (by decide)]
  rfl

omit [FloatOps F] [Named F] in
/-- A tile's range of this array, as the eight slices the kernel copies. -/
theorem y_chunks8 (f : Buf (Elt F) (yLoc d)) :
    (yLoc d ↦[tileSeg (cL L) (iL L)]{fullShare} f : sProp 𝕄)
      = iprop(((sl (yW) L 0#32 (k0_off1_inb L 0)).view.loc (V d (cV L) (jV L)) ↦[(sl (yW) L 0#32 (k0_off1_inb L 0)).view.set]{fullShare} f)
        ∗ ((sl (yW) L 4416#32 (k0_off1_inb L 1)).view.loc (V d (cV L) (jV L)) ↦[(sl (yW) L 4416#32 (k0_off1_inb L 1)).view.set]{fullShare} f)
        ∗ ((sl (yW) L 8832#32 (k0_off1_inb L 2)).view.loc (V d (cV L) (jV L)) ↦[(sl (yW) L 8832#32 (k0_off1_inb L 2)).view.set]{fullShare} f)
        ∗ ((sl (yW) L 13248#32 (k0_off1_inb L 3)).view.loc (V d (cV L) (jV L)) ↦[(sl (yW) L 13248#32 (k0_off1_inb L 3)).view.set]{fullShare} f)
        ∗ ((sl (yW) L 17664#32 (k0_off1_inb L 4)).view.loc (V d (cV L) (jV L)) ↦[(sl (yW) L 17664#32 (k0_off1_inb L 4)).view.set]{fullShare} f)
        ∗ ((sl (yW) L 22080#32 (k0_off1_inb L 5)).view.loc (V d (cV L) (jV L)) ↦[(sl (yW) L 22080#32 (k0_off1_inb L 5)).view.set]{fullShare} f)
        ∗ ((sl (yW) L 26496#32 (k0_off1_inb L 6)).view.loc (V d (cV L) (jV L)) ↦[(sl (yW) L 26496#32 (k0_off1_inb L 6)).view.set]{fullShare} f)
        ∗ ((sl (yW) L 30912#32 (k0_off1_inb L 7)).view.loc (V d (cV L) (jV L)) ↦[(sl (yW) L 30912#32 (k0_off1_inb L 7)).view.set]{fullShare} f)) := by
  have e : ∀ (b : Fin 8) (o : BitVec 32) (ho : o = BitVec.ofNat 32 (4416 * b.val)) (h : ∀ a, (k0_off1 L o) a + S4416.size a ≤ S1130496.size a),
      ((sl (yW) L o h).view.loc (V d (cV L) (jV L)) ↦[(sl (yW) L o h).view.set]{fullShare} f : sProp 𝕄)
        = yLoc d ↦[chunkSeg (cL L) (iL L) b]{fullShare} f := by
    intro b o ho h; subst ho; exact pts_sly d L b f
  rw [e 0 0#32 rfl, e 1 4416#32 rfl, e 2 8832#32 rfl, e 3 13248#32 rfl, e 4 17664#32 rfl, e 5 22080#32 rfl, e 6 26496#32 rfl,
    e 7 30912#32 rfl, y_chunks, BI.bigSep_univ_eq_bigSepL (I := Fin 8) [0, 1, 2, 3, 4, 5, 6, 7] (by decide) (by decide)]
  rfl

omit [FloatOps F] [Named F] in
/-- A tile's range of this array, as the eight slices the kernel copies. -/
theorem z_chunks8 (f : Buf (Elt F) (zLoc d)) :
    (zLoc d ↦[tileSeg (cL L) (iL L)]{fullShare} f : sProp 𝕄)
      = iprop(((sl (zW) L 0#32 (k0_off1_inb L 0)).view.loc (V d (cV L) (jV L)) ↦[(sl (zW) L 0#32 (k0_off1_inb L 0)).view.set]{fullShare} f)
        ∗ ((sl (zW) L 4416#32 (k0_off1_inb L 1)).view.loc (V d (cV L) (jV L)) ↦[(sl (zW) L 4416#32 (k0_off1_inb L 1)).view.set]{fullShare} f)
        ∗ ((sl (zW) L 8832#32 (k0_off1_inb L 2)).view.loc (V d (cV L) (jV L)) ↦[(sl (zW) L 8832#32 (k0_off1_inb L 2)).view.set]{fullShare} f)
        ∗ ((sl (zW) L 13248#32 (k0_off1_inb L 3)).view.loc (V d (cV L) (jV L)) ↦[(sl (zW) L 13248#32 (k0_off1_inb L 3)).view.set]{fullShare} f)
        ∗ ((sl (zW) L 17664#32 (k0_off1_inb L 4)).view.loc (V d (cV L) (jV L)) ↦[(sl (zW) L 17664#32 (k0_off1_inb L 4)).view.set]{fullShare} f)
        ∗ ((sl (zW) L 22080#32 (k0_off1_inb L 5)).view.loc (V d (cV L) (jV L)) ↦[(sl (zW) L 22080#32 (k0_off1_inb L 5)).view.set]{fullShare} f)
        ∗ ((sl (zW) L 26496#32 (k0_off1_inb L 6)).view.loc (V d (cV L) (jV L)) ↦[(sl (zW) L 26496#32 (k0_off1_inb L 6)).view.set]{fullShare} f)
        ∗ ((sl (zW) L 30912#32 (k0_off1_inb L 7)).view.loc (V d (cV L) (jV L)) ↦[(sl (zW) L 30912#32 (k0_off1_inb L 7)).view.set]{fullShare} f)) := by
  have e : ∀ (b : Fin 8) (o : BitVec 32) (ho : o = BitVec.ofNat 32 (4416 * b.val)) (h : ∀ a, (k0_off1 L o) a + S4416.size a ≤ S1130496.size a),
      ((sl (zW) L o h).view.loc (V d (cV L) (jV L)) ↦[(sl (zW) L o h).view.set]{fullShare} f : sProp 𝕄)
        = zLoc d ↦[chunkSeg (cL L) (iL L) b]{fullShare} f := by
    intro b o ho h; subst ho; exact pts_slz d L b f
  rw [e 0 0#32 rfl, e 1 4416#32 rfl, e 2 8832#32 rfl, e 3 13248#32 rfl, e 4 17664#32 rfl, e 5 22080#32 rfl, e 6 26496#32 rfl,
    e 7 30912#32 rfl, z_chunks, BI.bigSep_univ_eq_bigSepL (I := Fin 8) [0, 1, 2, 3, 4, 5, 6, 7] (by decide) (by decide)]
  rfl

/-! ### The scratch contents a loop's trips have finished -/

/-- Of an out scratch g: its positions below 16 t hold the gathered words for axis a, cs the coordinate scratch and
    nw the neighbour words of the sub-chunk. -/
def Done (t a : Nat) (cs : Vec F S30720 .f32) (nw : IVec S4416 32) (g : Vec F S4416 .f32) : Prop :=
  ∀ j : S4416.Idx, (j 0).val < 16 * t → g j = cs (cIx (3 * (nw j).toNat + a))

omit [FloatOps F] [Named F] in
theorem Done_zero (a : Nat) (cs : Vec F S30720 .f32) (nw : IVec S4416 32) (g : Vec F S4416 .f32) : Done 0 a cs nw g :=
  fun j hj => absurd hj (by omega)

omit [FloatOps F] [Named F] in
/-- Sixteen more lanes written right, the rest kept: one more trip done. -/
theorem Done_succ {t a : Nat} {cs : Vec F S30720 .f32} {nw : IVec S4416 32} {g g' : Vec F S4416 .f32} (hD : Done t a cs nw g)
    (hin : ∀ j : S4416.Idx, 16 * t ≤ (j 0).val → (j 0).val < 16 * t + 16 → g' j = cs (cIx (3 * (nw j).toNat + a)))
    (hout : ∀ j : S4416.Idx, (j 0).val < 16 * t → g' j = g j) : Done (t + 1) a cs nw g' := by
  intro j hj
  by_cases h : (j 0).val < 16 * t
  · rw [hout j h]; exact hD j h
  · exact hin j (by omega) (by omega)

/-! ### Sixteen lanes of a scratch -/

/-- The scratch g with the sixteen positions from 16 t replaced by the vector v. -/
def putLanes (t : Nat) (g : Vec F S4416 .f32) (v : Vec F S16 .f32) : Vec F S4416 .f32 :=
  fun j => if h : 16 * t ≤ (j 0).val ∧ (j 0).val < 16 * t + 16 then v (ValueIdx.ix1 ⟨(j 0).val - 16 * t, by omega⟩) else g j

/-- Position 16 t + x of a scratch. -/
def lane (t : Nat) (ht : 16 * t + 16 ≤ 4416) (x : S16.Idx) : S4416.Idx :=
  ValueIdx.ix1 ⟨16 * t + (x 0).val, by have : (x 0).val < 16 := (x 0).isLt; omega⟩

omit [FloatOps F] [Named F] in
/-- The lane of position j - 16 t, for j among the trip's sixteen, is j. -/
theorem lane_sub {t : Nat} (ht : 16 * t + 16 ≤ 4416) (j : S4416.Idx) (h1 : 16 * t ≤ (j 0).val) (h2 : (j 0).val < 16 * t + 16) :
    lane t ht (ValueIdx.ix1 ⟨(j 0).val - 16 * t, by omega⟩) = j := by
  funext a'
  obtain rfl : a' = 0 := Subsingleton.elim _ _
  apply Fin.ext
  show 16 * t + ((j 0).val - 16 * t) = (j 0).val
  omega

-- a store of sixteen lanes into each out scratch is putLanes
omit [FloatOps F] [Named F] in
theorem write_sX (t : Nat) (off : Fin 1 → Nat) (hoff : off 0 = 16 * t) (h : ∀ a, off a + S16.size a ≤ S4416.size a) (g : Vec F S4416 .f32) (v : Vec F S16 .f32) :
    ((sX).access (Rect.unit (s := S4416) off S16.size h)).write (Elt F) g v Finset.univ = putLanes t g v := by
  funext j
  unfold putLanes
  split
  · rename_i hj
    have hx : (Rect.unit (s := S4416) off S16.size h).emb (ValueIdx.ix1 ⟨(j 0).val - 16 * t, by omega⟩) = j := by
      funext a
      obtain rfl : a = 0 := Subsingleton.elim _ _
      apply Fin.ext
      show off 0 + 1 * ((j 0).val - 16 * t) = (j 0).val
      omega
    have hw := View.write_emb_of_mem (v := (sX).access (Rect.unit (s := S4416) off S16.size h)) (Val := Elt F) g v
      (Finset.mem_univ (ValueIdx.ix1 ⟨(j 0).val - 16 * t, by omega⟩))
    exact (congrArg _ hx.symm).trans (hw.trans (cast_eq _ _))
  · rename_i hj
    refine View.write_of_not_mem (v := (sX).access (Rect.unit (s := S4416) off S16.size h)) g v Finset.univ fun hmem => hj ?_
    obtain ⟨x, -, hx⟩ := Finset.mem_map.mp hmem
    have hj0 : (j 0).val = off 0 + 1 * (x 0).val := by rw [← hx]; rfl
    have hx0 : (x 0).val < 16 := (x 0).isLt
    omega
omit [FloatOps F] [Named F] in
theorem write_sY (t : Nat) (off : Fin 1 → Nat) (hoff : off 0 = 16 * t) (h : ∀ a, off a + S16.size a ≤ S4416.size a) (g : Vec F S4416 .f32) (v : Vec F S16 .f32) :
    ((sY).access (Rect.unit (s := S4416) off S16.size h)).write (Elt F) g v Finset.univ = putLanes t g v := by
  funext j
  unfold putLanes
  split
  · rename_i hj
    have hx : (Rect.unit (s := S4416) off S16.size h).emb (ValueIdx.ix1 ⟨(j 0).val - 16 * t, by omega⟩) = j := by
      funext a
      obtain rfl : a = 0 := Subsingleton.elim _ _
      apply Fin.ext
      show off 0 + 1 * ((j 0).val - 16 * t) = (j 0).val
      omega
    have hw := View.write_emb_of_mem (v := (sY).access (Rect.unit (s := S4416) off S16.size h)) (Val := Elt F) g v
      (Finset.mem_univ (ValueIdx.ix1 ⟨(j 0).val - 16 * t, by omega⟩))
    exact (congrArg _ hx.symm).trans (hw.trans (cast_eq _ _))
  · rename_i hj
    refine View.write_of_not_mem (v := (sY).access (Rect.unit (s := S4416) off S16.size h)) g v Finset.univ fun hmem => hj ?_
    obtain ⟨x, -, hx⟩ := Finset.mem_map.mp hmem
    have hj0 : (j 0).val = off 0 + 1 * (x 0).val := by rw [← hx]; rfl
    have hx0 : (x 0).val < 16 := (x 0).isLt
    omega
omit [FloatOps F] [Named F] in
theorem write_sZ (t : Nat) (off : Fin 1 → Nat) (hoff : off 0 = 16 * t) (h : ∀ a, off a + S16.size a ≤ S4416.size a) (g : Vec F S4416 .f32) (v : Vec F S16 .f32) :
    ((sZ).access (Rect.unit (s := S4416) off S16.size h)).write (Elt F) g v Finset.univ = putLanes t g v := by
  funext j
  unfold putLanes
  split
  · rename_i hj
    have hx : (Rect.unit (s := S4416) off S16.size h).emb (ValueIdx.ix1 ⟨(j 0).val - 16 * t, by omega⟩) = j := by
      funext a
      obtain rfl : a = 0 := Subsingleton.elim _ _
      apply Fin.ext
      show off 0 + 1 * ((j 0).val - 16 * t) = (j 0).val
      omega
    have hw := View.write_emb_of_mem (v := (sZ).access (Rect.unit (s := S4416) off S16.size h)) (Val := Elt F) g v
      (Finset.mem_univ (ValueIdx.ix1 ⟨(j 0).val - 16 * t, by omega⟩))
    exact (congrArg _ hx.symm).trans (hw.trans (cast_eq _ _))
  · rename_i hj
    refine View.write_of_not_mem (v := (sZ).access (Rect.unit (s := S4416) off S16.size h)) g v Finset.univ fun hmem => hj ?_
    obtain ⟨x, -, hx⟩ := Finset.mem_map.mp hmem
    have hj0 : (j 0).val = off 0 + 1 * (x 0).val := by rw [← hx]; rfl
    have hx0 : (x 0).val < 16 := (x 0).isLt
    omega
omit [FloatOps F] [Named F] in
/-- The sixteen words a trip loads are the index scratch's at the trip's lanes. -/
theorem read_sN (t : Nat) (ht : 16 * t + 16 ≤ 4416) (off : Fin 1 → Nat) (hoff : off 0 = 16 * t) (h : ∀ a, off a + S16.size a ≤ S4416.size a)
    (nw : IVec S4416 32) (x : S16.Idx) :
    (sN).view.readAt (Elt F) (Rect.unit (s := S4416) off S16.size h).toLoadRect nw x = nw (lane t ht x) := by
  have e : ((Rect.unit (s := S4416) off S16.size h).toLoadRect.idx x : S4416.Idx) = lane t ht x := by
    funext a
    match a with
    | ⟨0, _⟩ => exact Fin.ext (by show off 0 + 1 * (x 0).val = 16 * t + (x 0).val; omega)
  simp only [View.readAt_apply, Memref.view_whole, View.read_whole]
  exact congrArg nw e

omit [FloatOps F] [Named F] in
/-- The element an index vector names for lane x, when the word there is n below the array's extent. -/
theorem idxAt_eq {v : IVec S16 32} {h : ∀ a x, ((![v] : Fin 1 → IVec S16 32) a x).toNat < S30720.size a} {x : S16.Idx} {n : Nat}
    (hn : (v x).toNat = n) (hlt : n < 30720) : idxAt (s := S30720) ![v] h x = cIx n := by
  funext a
  obtain rfl : a = 0 := Subsingleton.elim _ _
  apply Fin.ext
  show (v x).toNat = n % 30720
  rw [hn, Nat.mod_eq_of_lt hlt]

omit [FloatOps F] [Named F] in
/-- The coordinate scratch read through its whole rectangle is its contents, -/
theorem read_sC (cs : Vec F S30720 .f32) (y : S30720.Idx) : ((sC).access (Rect.whole S30720)).read (Elt F) cs y = cs y := by
  rw [View.read_apply]
  exact (cast_eq _ _).trans (congrArg cs (Rect.emb_whole_apply S30720 y))

omit [Named F] in
/-- so an indexed load of it at a word n below its extent is the coordinate word at n. -/
theorem gathered_lane (cs : Vec F S30720 .f32) (v : IVec S16 32) (h : ∀ a x, ((![v] : Fin 1 → IVec S16 32) a x).toNat < S30720.size a)
    (x : S16.Idx) (n : Nat) (hn : (v x).toNat = n) (hlt : n < 30720) :
    loadIdx (((sC).access (Rect.whole S30720)).read (Elt F) cs) ![v] h x = cs (cIx n) := by
  show ((sC).access (Rect.whole S30720)).read (Elt F) cs (idxAt ![v] h x) = _
  rw [read_sC, idxAt_eq hn hlt]

omit [FloatOps F] [Named F] in
/-- After a trip's store of the gathered lanes, one more trip of the scratch is done. -/
theorem Done_put {t a : Nat} (ht : 16 * t + 16 ≤ 4416) {cs : Vec F S30720 .f32} {nw : IVec S4416 32} {g : Vec F S4416 .f32} (hD : Done t a cs nw g)
    (v : Vec F S16 .f32) (hv : ∀ x, v x = cs (cIx (3 * (nw (lane t ht x)).toNat + a))) : Done (t + 1) a cs nw (putLanes t g v) := by
  refine Done_succ hD (fun j h1 h2 => ?_) (fun j h1 => ?_)
  · unfold putLanes
    rw [dif_pos ⟨h1, h2⟩, hv, lane_sub ht j h1 h2]
  · unfold putLanes
    rw [dif_neg (by omega)]

/-- What a loop's trips carry: the coordinate scratch and the sub-chunk's words read-only in effect, the three out
    scratches finished below 16 t. -/
def tripInv (cs : Vec F S30720 .f32) (nw : IVec S4416 32) (t : Nat) (_ : Unit) : sProp 𝕄 :=
  iprop(((sC).view.loc (V d (cV L) (jV L)) ↦{fullShare} cs) ∗ ((sN).view.loc (V d (cV L) (jV L)) ↦{fullShare} nw)
    ∗ ∃ (gx gy gz : Vec F S4416 .f32), ((sX).view.loc (V d (cV L) (jV L)) ↦{fullShare} gx) ∗ ((sY).view.loc (V d (cV L) (jV L)) ↦{fullShare} gy)
      ∗ ((sZ).view.loc (V d (cV L) (jV L)) ↦{fullShare} gz) ∗ ⌜Done t 0 cs nw gx ∧ Done t 1 cs nw gy ∧ Done t 2 cs nw gz⌝)

/-- One trip: sixteen words loaded, and for each axis the check (the words name atoms), the indexed load of the
    coordinate scratch, and the store of the sixteen gathered words at the trip's lanes. -/
theorem trip (cs : Vec F S30720 .f32) (nw : IVec S4416 32) (hw : ∀ j, (nw j).toNat ≤ 10239) (t : Fin k0_t1_loop.trips) (u : Unit) :
    tripInv d L cs nw t.val u
      ⊢ wp frame (wpE (defs₀ (F := F)) 𝒱₀ (V d (cV L) (jV L)) none) Set.univ
          (k0_t1_body L cW (Memref.isWhole_whole _) nW (Memref.isWhole_whole _) xW (Memref.isWhole_whole _) yW (Memref.isWhole_whole _) zW (Memref.isWhole_whole _)
            sC (Memref.isWhole_whole _) sN (Memref.isWhole_whole _) sX (Memref.isWhole_whole _) sY (Memref.isWhole_whole _) sZ (Memref.isWhole_whole _)
            cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 t u)
          (tripInv d L cs nw (t.val + 1)) := by
  have ht : 16 * t.val + 16 ≤ 4416 := by have := (k0_t1_abs).2.1; have := t.isLt; omega
  have ho2 : k0_off2 t 0 = 16 * t.val := by rw [k0_off2_eq]; rfl
  have ho3 : k0_off3 t 0 = 16 * t.val := by rw [k0_off3_eq]; rfl
  have ho4 : k0_off4 t 0 = 16 * t.val := by rw [k0_off4_eq]; rfl
  have ho5 : k0_off5 t 0 = 16 * t.val := by rw [k0_off5_eq]; rfl
  unfold k0_t1_body tripInv
  simp only [Prog.lift, Prog.bind_op, Prog.bind_ret, Prog.pure_eq_ret]
  iintro ⟨HC, HN, %gx, %gy, %gz, HX, HY, HZ, %hD⟩
  obtain ⟨hDx, hDy, hDz⟩ := hD
  -- the trip's sixteen neighbour words
  iapply (wp_load 𝒱₀ (V d (cV L) (jV L)) none Set.univ (m := sN) (S := Finset.univ) (Finset.subset_univ _)) $$ HN; iintro HN
  set v21 : IVec S16 32 := (sN).view.readAt (Elt F) (Rect.unit (s := S4416) (k0_off2 t) S16.size (k0_off2_inb t)).toLoadRect nw with hv21
  have h21 : ∀ x, v21 x = nw (lane t.val ht x) := fun x => read_sN t.val ht (k0_off2 t) ho2 (k0_off2_inb t) nw x
  -- the three index vectors: 3 n, 3 n + 1, 3 n + 2, none wrapping
  have hx0 : ∀ x, ((k0_pay4 (F := F) v21) x).toNat = 3 * (nw (lane t.val ht x)).toNat := fun x => by
    show (v21 x * 3#32).toNat = _
    rw [h21 x]; exact mul3_toNat (hw _)
  have hx1 : ∀ x, ((k0_pay5 (k0_pay4 (F := F) v21)) x).toNat = 3 * (nw (lane t.val ht x)).toNat + 1 := fun x => by
    show (v21 x * 3#32 + BitVec.ofNat 32 1).toNat = _
    rw [h21 x]; exact mul3_add_toNat (hw _) 1 (by omega)
  have hx2 : ∀ x, ((k0_pay6 (k0_pay4 (F := F) v21)) x).toNat = 3 * (nw (lane t.val ht x)).toNat + 2 := fun x => by
    show (v21 x * 3#32 + BitVec.ofNat 32 2).toNat = _
    rw [h21 x]; exact mul3_add_toNat (hw _) 2 (by omega)
  -- axis 0: the check, the indexed load of the coordinate scratch, the trip's lanes of the out scratch
  have c0 : k0_chk1 (k0_pay4 (F := F) v21) := by
    intro a x
    obtain rfl : a = 0 := Subsingleton.elim _ _
    show ((k0_pay4 (F := F) v21) x).toNat < 30720
    rw [hx0 x]; have := hw (lane t.val ht x); omega
  rw [wp_assume_of _ _ _ _ c0]
  iapply (SparseCore.wp_vectorLoadIdx 𝒱₀ (V d (cV L) (jV L)) none Set.univ (base := sC) (S := Finset.univ) (q := fullShare) (Finset.subset_univ _)) $$ HC; iintro HC
  iapply (wp_load 𝒱₀ (V d (cV L) (jV L)) none Set.univ (m := sX) (S := Finset.univ) (Finset.subset_univ _)) $$ HX; iintro HX
  iapply (wp_store 𝒱₀ (V d (cV L) (jV L)) none Set.univ (m := sX) (r := Rect.unit (s := S4416) (k0_off3 t) S16.size (k0_off3_inb t)) (Mk := Finset.univ) (S := Finset.univ) (Finset.subset_univ _)) $$ HX; iintro HX
  -- axis 1: the check, the indexed load of the coordinate scratch, the trip's lanes of the out scratch
  have c1 : k0_chk2 (k0_pay5 (k0_pay4 (F := F) v21)) := by
    intro a x
    obtain rfl : a = 0 := Subsingleton.elim _ _
    show ((k0_pay5 (k0_pay4 (F := F) v21)) x).toNat < 30720
    rw [hx1 x]; have := hw (lane t.val ht x); omega
  rw [wp_assume_of _ _ _ _ c1]
  iapply (SparseCore.wp_vectorLoadIdx 𝒱₀ (V d (cV L) (jV L)) none Set.univ (base := sC) (S := Finset.univ) (q := fullShare) (Finset.subset_univ _)) $$ HC; iintro HC
  iapply (wp_load 𝒱₀ (V d (cV L) (jV L)) none Set.univ (m := sY) (S := Finset.univ) (Finset.subset_univ _)) $$ HY; iintro HY
  iapply (wp_store 𝒱₀ (V d (cV L) (jV L)) none Set.univ (m := sY) (r := Rect.unit (s := S4416) (k0_off4 t) S16.size (k0_off4_inb t)) (Mk := Finset.univ) (S := Finset.univ) (Finset.subset_univ _)) $$ HY; iintro HY
  -- axis 2: the check, the indexed load of the coordinate scratch, the trip's lanes of the out scratch
  have c2 : k0_chk3 (k0_pay6 (k0_pay4 (F := F) v21)) := by
    intro a x
    obtain rfl : a = 0 := Subsingleton.elim _ _
    show ((k0_pay6 (k0_pay4 (F := F) v21)) x).toNat < 30720
    rw [hx2 x]; have := hw (lane t.val ht x); omega
  rw [wp_assume_of _ _ _ _ c2]
  iapply (SparseCore.wp_vectorLoadIdx 𝒱₀ (V d (cV L) (jV L)) none Set.univ (base := sC) (S := Finset.univ) (q := fullShare) (Finset.subset_univ _)) $$ HC; iintro HC
  iapply (wp_load 𝒱₀ (V d (cV L) (jV L)) none Set.univ (m := sZ) (S := Finset.univ) (Finset.subset_univ _)) $$ HZ; iintro HZ
  iapply (wp_store 𝒱₀ (V d (cV L) (jV L)) none Set.univ (m := sZ) (r := Rect.unit (s := S4416) (k0_off5 t) S16.size (k0_off5_inb t)) (Mk := Finset.univ) (S := Finset.univ) (Finset.subset_univ _)) $$ HZ; iintro HZ
  rw [wp_ret]; imodintro
  isplitl [HC]; · iexact HC
  isplitl [HN]; · iexact HN
  iexists _, _, _
  isplitl [HX]; · iexact HX
  isplitl [HY]; · iexact HY
  isplitl [HZ]; · iexact HZ
  ipureintro
  refine ⟨?_, ?_, ?_⟩
  · rw [write_sX t.val (k0_off3 t) ho3]
    exact Done_put ht hDx _ fun x => gathered_lane cs _ _ x _ (hx0 x) (by have := hw (lane t.val ht x); omega)
  · rw [write_sY t.val (k0_off4 t) ho4]
    exact Done_put ht hDy _ fun x => gathered_lane cs _ _ x _ (hx1 x) (by have := hw (lane t.val ht x); omega)
  · rw [write_sZ t.val (k0_off5 t) ho5]
    exact Done_put ht hDz _ fun x => gathered_lane cs _ _ x _ (hx2 x) (by have := hw (lane t.val ht x); omega)

/-! ### The scoped storage, piece by piece -/

omit [FloatOps F] [Named F] in
/-- The five scratch buffers are among the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f)
          ∗ bigSep ((((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3)).erase ((Proc.scVector (cV L) (jV L)).devRef cc0_scratch4))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩)]

/-- The kernel's DMA semaphore of region n. -/
def dsem (n : Fin 33) : DmaSem sig := ⟨n.val, Nat.lt_of_lt_of_le n.isLt (by decide)⟩

/-- The tile's cells of the thirty-three regions' semaphores. -/
def regCells (d : Dev nD) (L : grid0.Coords) : Finset (GSem nD τ sig) := Finset.univ.image fun n : Fin 33 => ((V d (cV L) (jV L), SemLoc.dma (dsem n)) : GSem nD τ sig)

omit [FloatOps F] [Named F] in
theorem regCells_subset : regCells d L ⊆ ownCells (V d (cV L) (jV L)) := by
  intro g hg
  obtain ⟨n, -, rfl⟩ := Finset.mem_image.mp hg
  refine mem_ownCells.mpr ⟨rfl, ?_⟩
  exact (by decide : ∀ n : Fin 33, (SemLoc.dma (dsem n) : SemLoc sig).isScoped .scVector = true) n

omit [FloatOps F] [Named F] in
theorem regCells_inj :
    Set.InjOn (fun n : Fin 33 => ((V d (cV L) (jV L), SemLoc.dma (dsem n)) : GSem nD τ sig)) ((Finset.univ : Finset (Fin 33)) : Set _) := by
  intro a _ b _ e
  have h : dsem a = dsem b := SemLoc.dma.inj (Prod.mk.inj e).2
  have hv : (dsem a).val = (dsem b).val := congrArg Fin.val h
  exact Fin.ext hv

omit [FloatOps F] [Named F] in
/-- Each region's semaphore at zero, and the tile's other scoped cells. -/
theorem ownSems0_V :
    (ownSems0 (V d (cV L) (jV L)) : sProp 𝕄)
      = iprop((semVal (V d (cV L) (jV L), SemLoc.dma cc0_scoped0.sem) 0
          ∗ semVal (V d (cV L) (jV L), SemLoc.dma cc0_scoped1.sem) 0
          ∗ semVal (V d (cV L) (jV L), SemLoc.dma cc0_scoped2.sem) 0
          ∗ semVal (V d (cV L) (jV L), SemLoc.dma cc0_scoped3.sem) 0
          ∗ semVal (V d (cV L) (jV L), SemLoc.dma cc0_scoped4.sem) 0
          ∗ semVal (V d (cV L) (jV L), SemLoc.dma cc0_scoped5.sem) 0
          ∗ semVal (V d (cV L) (jV L), SemLoc.dma cc0_scoped6.sem) 0
          ∗ semVal (V d (cV L) (jV L), SemLoc.dma cc0_scoped7.sem) 0
          ∗ semVal (V d (cV L) (jV L), SemLoc.dma cc0_scoped8.sem) 0
          ∗ semVal (V d (cV L) (jV L), SemLoc.dma cc0_scoped9.sem) 0
          ∗ semVal (V d (cV L) (jV L), SemLoc.dma cc0_scoped10.sem) 0
          ∗ semVal (V d (cV L) (jV L), SemLoc.dma cc0_scoped11.sem) 0
          ∗ semVal (V d (cV L) (jV L), SemLoc.dma cc0_scoped12.sem) 0
          ∗ semVal (V d (cV L) (jV L), SemLoc.dma cc0_scoped13.sem) 0
          ∗ semVal (V d (cV L) (jV L), SemLoc.dma cc0_scoped14.sem) 0
          ∗ semVal (V d (cV L) (jV L), SemLoc.dma cc0_scoped15.sem) 0
          ∗ semVal (V d (cV L) (jV L), SemLoc.dma cc0_scoped16.sem) 0
          ∗ semVal (V d (cV L) (jV L), SemLoc.dma cc0_scoped17.sem) 0
          ∗ semVal (V d (cV L) (jV L), SemLoc.dma cc0_scoped18.sem) 0
          ∗ semVal (V d (cV L) (jV L), SemLoc.dma cc0_scoped19.sem) 0
          ∗ semVal (V d (cV L) (jV L), SemLoc.dma cc0_scoped20.sem) 0
          ∗ semVal (V d (cV L) (jV L), SemLoc.dma cc0_scoped21.sem) 0
          ∗ semVal (V d (cV L) (jV L), SemLoc.dma cc0_scoped22.sem) 0
          ∗ semVal (V d (cV L) (jV L), SemLoc.dma cc0_scoped23.sem) 0
          ∗ semVal (V d (cV L) (jV L), SemLoc.dma cc0_scoped24.sem) 0
          ∗ semVal (V d (cV L) (jV L), SemLoc.dma cc0_scoped25.sem) 0
          ∗ semVal (V d (cV L) (jV L), SemLoc.dma cc0_scoped26.sem) 0
          ∗ semVal (V d (cV L) (jV L), SemLoc.dma cc0_scoped27.sem) 0
          ∗ semVal (V d (cV L) (jV L), SemLoc.dma cc0_scoped28.sem) 0
          ∗ semVal (V d (cV L) (jV L), SemLoc.dma cc0_scoped29.sem) 0
          ∗ semVal (V d (cV L) (jV L), SemLoc.dma cc0_scoped30.sem) 0
          ∗ semVal (V d (cV L) (jV L), SemLoc.dma cc0_scoped31.sem) 0
          ∗ semVal (V d (cV L) (jV L), SemLoc.dma cc0_scoped32.sem) 0
)
          ∗ bigSep (ownCells (V d (cV L) (jV L)) \ regCells d L) fun g => semVal g 0) := by
  unfold SparseCore.Cfg.ownSems0
  rw [SparseCore.bigSep_sdiff_split' (regCells_subset d L)]
  unfold regCells
  rw [SparseCore.bigSep_image_of_injOn (regCells_inj d L),
    BI.bigSep_univ_eq_bigSepL (I := Fin 33) [0, 1, 2, 3, 4, 5, 6, 7, 8, 9, 10, 11, 12, 13, 14, 15, 16, 17, 18, 19, 20, 21, 22, 23, 24, 25, 26, 27, 28, 29, 30, 31, 32] (by decide) (by decide)]
  rfl

/-! ### The arrays and scratches as the tile addresses them -/

omit [FloatOps F] [Named F] in
theorem pts_c (q : PosShare TreeShare) (f : Buf (Elt F) (cLoc d)) :
    (((cW).view.loc (V d (cV L) (jV L)) ↦{q} f : sProp 𝕄)) = (cLoc d ↦{q} f) := rfl
omit [FloatOps F] [Named F] in
theorem pts_n (q : PosShare TreeShare) (f : Buf (Elt F) (nLoc d)) :
    (((nW).view.loc (V d (cV L) (jV L)) ↦{q} f : sProp 𝕄)) = (nLoc d ↦{q} f) := rfl
omit [FloatOps F] [Named F] in
theorem pts_sC (f : Buf (Elt F) ((V d (cV L) (jV L)).loc cc0_scratch0)) :
    (((sC).view.loc (V d (cV L) (jV L)) ↦{fullShare} f : sProp 𝕄)) = ((V d (cV L) (jV L)).loc cc0_scratch0 ↦{fullShare} f) := rfl
omit [FloatOps F] [Named F] in
theorem pts_sN (f : Buf (Elt F) ((V d (cV L) (jV L)).loc cc0_scratch1)) :
    (((sN).view.loc (V d (cV L) (jV L)) ↦{fullShare} f : sProp 𝕄)) = ((V d (cV L) (jV L)).loc cc0_scratch1 ↦{fullShare} f) := rfl
omit [FloatOps F] [Named F] in
theorem pts_sX (f : Buf (Elt F) ((V d (cV L) (jV L)).loc cc0_scratch2)) :
    (((sX).view.loc (V d (cV L) (jV L)) ↦{fullShare} f : sProp 𝕄)) = ((V d (cV L) (jV L)).loc cc0_scratch2 ↦{fullShare} f) := rfl
omit [FloatOps F] [Named F] in
theorem pts_sY (f : Buf (Elt F) ((V d (cV L) (jV L)).loc cc0_scratch3)) :
    (((sY).view.loc (V d (cV L) (jV L)) ↦{fullShare} f : sProp 𝕄)) = ((V d (cV L) (jV L)).loc cc0_scratch3 ↦{fullShare} f) := rfl
omit [FloatOps F] [Named F] in
theorem pts_sZ (f : Buf (Elt F) ((V d (cV L) (jV L)).loc cc0_scratch4)) :
    (((sZ).view.loc (V d (cV L) (jV L)) ↦{fullShare} f : sProp 𝕄)) = ((V d (cV L) (jV L)).loc cc0_scratch4 ↦{fullShare} f) := rfl

end Tile

/-! ## The launch theorem's obligations for the call -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          (Memref.whole main_v0_scv) (Memref.isWhole_whole _) (Memref.whole main_v1_scv) (Memref.isWhole_whole _)
          (Memref.whole main_v2_0_scv) (Memref.isWhole_whole _) (Memref.whole main_v2_1_scv) (Memref.isWhole_whole _)
          (Memref.whole main_v2_2_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _)
          cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32) ⟨⟩ c s := rfl

omit [FloatOps F] [Named F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Cert.ScGather

end
-- ==== Proof.ScVal.lean ====
import proofs.«205418_g46067819217304_cont_8to1_c_241_17_alg».proof.Proof.ScGather

/-!
# What a copied-out sub-chunk holds

A tile gathers, for each of its eight sub-chunks, the coordinate words of 4416 neighbour words into a scratch and copies
the scratch over the sub-chunk's 4416 positions of the result. Once the scratch holds, at every position, the coordinate
word 3 n + a of the neighbour word n read at that position of the sub-chunk, the positions written hold the gather of
the whole arrays: the result's and the neighbour list's sub-chunks are the same 4416 positions of two arrays of one
shape, so position j of the scratch lands at the flat position whose neighbour word it was gathered for.
-/

noncomputable section

namespace Cert.ScGather

open Cert.KernelIdeal Cert.KernelIdeal.Gen Cert.KernelIdeal.Setup

open Idealize.ShloMosaic
open Idealize.ShloMosaic.SparseCore (S V T)

variable {F : FTy → Type} [FloatOps F] [Named F]

/-- Axis 0: after a sub-chunk's gathered words are copied out over its 4416 positions of the result, those positions
    hold the gather: position k the coordinate word 3 n + 0, n the neighbour word at k. -/
theorem chunk_val_x (cf : (d : Dev nD) → Buf (Elt F) (cLoc d)) (nf : (d : Dev nD) → Buf (Elt F) (nLoc d)) (d : Dev nD) (L : grid0.Coords)
    (o : BitVec 32) (h : ∀ a, (k0_off1 L o) a + S4416.size a ≤ S1130496.size a)
    (fprev : Buf (Elt F) (xLoc d)) (g : Vec F S4416 .f32) (nw : IVec S4416 32) (cs : Vec F S30720 .f32)
    (hcs : cs = cf d)
    (hnw : ∀ j, nw j = (sl (Memref.whole main_v1_scv : Memref sig .scVector .hbm S1130496 .i32) L o h).view.read (Elt F) (nf d) j)
    (hD : Done 276 0 cs nw g) :
    ∀ i ∈ (sl (Memref.whole main_v2_0_scv : Memref sig .scVector .hbm S1130496 .f32) L o h).view.set,
      (sl (Memref.whole main_v2_0_scv : Memref sig .scVector .hbm S1130496 .f32) L o h).view.write (Elt F) fprev g Finset.univ i
        = gatherAt (cf d) (nf d) 0 i := by
  intro i hi
  obtain ⟨j, -, rfl⟩ := Finset.mem_map.mp hi
  have hj : (j 0).val < 4416 := (j 0).isLt
  rw [View.write_emb_of_mem (v := (sl (Memref.whole main_v2_0_scv : Memref sig .scVector .hbm S1130496 .f32) L o h).view) fprev g (Finset.mem_univ j)]
  refine (cast_eq _ _).trans ?_
  rw [hD j (by omega), hcs, hnw j]
  unfold gatherAt
  have e : (sl (Memref.whole main_v1_scv : Memref sig .scVector .hbm S1130496 .i32) L o h).view.read (Elt F) (nf d) j
      = nf d ((sl (Memref.whole main_v2_0_scv : Memref sig .scVector .hbm S1130496 .f32) L o h).view.emb j) :=
    (View.read_apply (v := (sl (Memref.whole main_v1_scv : Memref sig .scVector .hbm S1130496 .i32) L o h).view) (nf d) j).trans ((cast_eq _ _).trans rfl)
  rw [e]

/-- Axis 1: after a sub-chunk's gathered words are copied out over its 4416 positions of the result, those positions
    hold the gather: position k the coordinate word 3 n + 1, n the neighbour word at k. -/
theorem chunk_val_y (cf : (d : Dev nD) → Buf (Elt F) (cLoc d)) (nf : (d : Dev nD) → Buf (Elt F) (nLoc d)) (d : Dev nD) (L : grid0.Coords)
    (o : BitVec 32) (h : ∀ a, (k0_off1 L o) a + S4416.size a ≤ S1130496.size a)
    (fprev : Buf (Elt F) (yLoc d)) (g : Vec F S4416 .f32) (nw : IVec S4416 32) (cs : Vec F S30720 .f32)
    (hcs : cs = cf d)
    (hnw : ∀ j, nw j = (sl (Memref.whole main_v1_scv : Memref sig .scVector .hbm S1130496 .i32) L o h).view.read (Elt F) (nf d) j)
    (hD : Done 276 1 cs nw g) :
    ∀ i ∈ (sl (Memref.whole main_v2_1_scv : Memref sig .scVector .hbm S1130496 .f32) L o h).view.set,
      (sl (Memref.whole main_v2_1_scv : Memref sig .scVector .hbm S1130496 .f32) L o h).view.write (Elt F) fprev g Finset.univ i
        = gatherAt (cf d) (nf d) 1 i := by
  intro i hi
  obtain ⟨j, -, rfl⟩ := Finset.mem_map.mp hi
  have hj : (j 0).val < 4416 := (j 0).isLt
  rw [View.write_emb_of_mem (v := (sl (Memref.whole main_v2_1_scv : Memref sig .scVector .hbm S1130496 .f32) L o h).view) fprev g (Finset.mem_univ j)]
  refine (cast_eq _ _).trans ?_
  rw [hD j (by omega), hcs, hnw j]
  unfold gatherAt
  have e : (sl (Memref.whole main_v1_scv : Memref sig .scVector .hbm S1130496 .i32) L o h).view.read (Elt F) (nf d) j
      = nf d ((sl (Memref.whole main_v2_1_scv : Memref sig .scVector .hbm S1130496 .f32) L o h).view.emb j) :=
    (View.read_apply (v := (sl (Memref.whole main_v1_scv : Memref sig .scVector .hbm S1130496 .i32) L o h).view) (nf d) j).trans ((cast_eq _ _).trans rfl)
  rw [e]

/-- Axis 2: after a sub-chunk's gathered words are copied out over its 4416 positions of the result, those positions
    hold the gather: position k the coordinate word 3 n + 2, n the neighbour word at k. -/
theorem chunk_val_z (cf : (d : Dev nD) → Buf (Elt F) (cLoc d)) (nf : (d : Dev nD) → Buf (Elt F) (nLoc d)) (d : Dev nD) (L : grid0.Coords)
    (o : BitVec 32) (h : ∀ a, (k0_off1 L o) a + S4416.size a ≤ S1130496.size a)
    (fprev : Buf (Elt F) (zLoc d)) (g : Vec F S4416 .f32) (nw : IVec S4416 32) (cs : Vec F S30720 .f32)
    (hcs : cs = cf d)
    (hnw : ∀ j, nw j = (sl (Memref.whole main_v1_scv : Memref sig .scVector .hbm S1130496 .i32) L o h).view.read (Elt F) (nf d) j)
    (hD : Done 276 2 cs nw g) :
    ∀ i ∈ (sl (Memref.whole main_v2_2_scv : Memref sig .scVector .hbm S1130496 .f32) L o h).view.set,
      (sl (Memref.whole main_v2_2_scv : Memref sig .scVector .hbm S1130496 .f32) L o h).view.write (Elt F) fprev g Finset.univ i
        = gatherAt (cf d) (nf d) 2 i := by
  intro i hi
  obtain ⟨j, -, rfl⟩ := Finset.mem_map.mp hi
  have hj : (j 0).val < 4416 := (j 0).isLt
  rw [View.write_emb_of_mem (v := (sl (Memref.whole main_v2_2_scv : Memref sig .scVector .hbm S1130496 .f32) L o h).view) fprev g (Finset.mem_univ j)]
  refine (cast_eq _ _).trans ?_
  rw [hD j (by omega), hcs, hnw j]
  unfold gatherAt
  have e : (sl (Memref.whole main_v1_scv : Memref sig .scVector .hbm S1130496 .i32) L o h).view.read (Elt F) (nf d) j
      = nf d ((sl (Memref.whole main_v2_2_scv : Memref sig .scVector .hbm S1130496 .f32) L o h).view.emb j) :=
    (View.read_apply (v := (sl (Memref.whole main_v1_scv : Memref sig .scVector .hbm S1130496 .i32) L o h).view) (nf d) j).trans ((cast_eq _ _).trans rfl)
  rw [e]

/-- Axis 0, the same with the copy-out written as one listed piece through the whole 4416-position rectangle of the
    sub-chunk: the rectangle's positions are the sub-chunk's own. -/
theorem chunk_wr_x (cf : (d : Dev nD) → Buf (Elt F) (cLoc d)) (nf : (d : Dev nD) → Buf (Elt F) (nLoc d)) (d : Dev nD) (L : grid0.Coords)
    (o : BitVec 32) (h : ∀ a, (k0_off1 L o) a + S4416.size a ≤ S1130496.size a)
    (fprev : Buf (Elt F) (xLoc d)) (g : Vec F S4416 .f32) (nw : IVec S4416 32) (cs : Vec F S30720 .f32)
    (hcs : cs = cf d)
    (hnw : ∀ j, nw j = (sl (Memref.whole main_v1_scv : Memref sig .scVector .hbm S1130496 .i32) L o h).view.read (Elt F) (nf d) j)
    (hD : Done 276 0 cs nw g) :
    ∀ i ∈ (sl (Memref.whole main_v2_0_scv : Memref sig .scVector .hbm S1130496 .f32) L o h).view.set,
      (sl (Memref.whole main_v2_0_scv : Memref sig .scVector .hbm S1130496 .f32) L o h).view.writes (Elt F) fprev [⟨Rect.whole S4416, g⟩] i
        = gatherAt (cf d) (nf d) 0 i := by
  intro i hi
  refine Eq.trans ?_ (chunk_val_x cf nf d L o h fprev g nw cs hcs hnw hD i hi)
  obtain ⟨j, -, rfl⟩ := Finset.mem_map.mp hi
  have e1 : ((sl (Memref.whole main_v2_0_scv : Memref sig .scVector .hbm S1130496 .f32) L o h).view.slice (Rect.whole S4416)).emb j = (sl (Memref.whole main_v2_0_scv : Memref sig .scVector .hbm S1130496 .f32) L o h).view.emb j :=
    congrArg (sl (Memref.whole main_v2_0_scv : Memref sig .scVector .hbm S1130496 .f32) L o h).view.emb (Rect.emb_whole_apply S4416 j)
  show ((sl (Memref.whole main_v2_0_scv : Memref sig .scVector .hbm S1130496 .f32) L o h).view.slice (Rect.whole S4416)).write (Elt F) fprev g Finset.univ ((sl (Memref.whole main_v2_0_scv : Memref sig .scVector .hbm S1130496 .f32) L o h).view.emb j) = _
  rw [← e1, View.write_emb_of_mem (v := (sl (Memref.whole main_v2_0_scv : Memref sig .scVector .hbm S1130496 .f32) L o h).view.slice (Rect.whole S4416)) fprev g (Finset.mem_univ j), e1,
    View.write_emb_of_mem (v := (sl (Memref.whole main_v2_0_scv : Memref sig .scVector .hbm S1130496 .f32) L o h).view) fprev g (Finset.mem_univ j)]

/-- Axis 1, the same with the copy-out written as one listed piece through the whole 4416-position rectangle of the
    sub-chunk: the rectangle's positions are the sub-chunk's own. -/
theorem chunk_wr_y (cf : (d : Dev nD) → Buf (Elt F) (cLoc d)) (nf : (d : Dev nD) → Buf (Elt F) (nLoc d)) (d : Dev nD) (L : grid0.Coords)
    (o : BitVec 32) (h : ∀ a, (k0_off1 L o) a + S4416.size a ≤ S1130496.size a)
    (fprev : Buf (Elt F) (yLoc d)) (g : Vec F S4416 .f32) (nw : IVec S4416 32) (cs : Vec F S30720 .f32)
    (hcs : cs = cf d)
    (hnw : ∀ j, nw j = (sl (Memref.whole main_v1_scv : Memref sig .scVector .hbm S1130496 .i32) L o h).view.read (Elt F) (nf d) j)
    (hD : Done 276 1 cs nw g) :
    ∀ i ∈ (sl (Memref.whole main_v2_1_scv : Memref sig .scVector .hbm S1130496 .f32) L o h).view.set,
      (sl (Memref.whole main_v2_1_scv : Memref sig .scVector .hbm S1130496 .f32) L o h).view.writes (Elt F) fprev [⟨Rect.whole S4416, g⟩] i
        = gatherAt (cf d) (nf d) 1 i := by
  intro i hi
  refine Eq.trans ?_ (chunk_val_y cf nf d L o h fprev g nw cs hcs hnw hD i hi)
  obtain ⟨j, -, rfl⟩ := Finset.mem_map.mp hi
  have e1 : ((sl (Memref.whole main_v2_1_scv : Memref sig .scVector .hbm S1130496 .f32) L o h).view.slice (Rect.whole S4416)).emb j = (sl (Memref.whole main_v2_1_scv : Memref sig .scVector .hbm S1130496 .f32) L o h).view.emb j :=
    congrArg (sl (Memref.whole main_v2_1_scv : Memref sig .scVector .hbm S1130496 .f32) L o h).view.emb (Rect.emb_whole_apply S4416 j)
  show ((sl (Memref.whole main_v2_1_scv : Memref sig .scVector .hbm S1130496 .f32) L o h).view.slice (Rect.whole S4416)).write (Elt F) fprev g Finset.univ ((sl (Memref.whole main_v2_1_scv : Memref sig .scVector .hbm S1130496 .f32) L o h).view.emb j) = _
  rw [← e1, View.write_emb_of_mem (v := (sl (Memref.whole main_v2_1_scv : Memref sig .scVector .hbm S1130496 .f32) L o h).view.slice (Rect.whole S4416)) fprev g (Finset.mem_univ j), e1,
    View.write_emb_of_mem (v := (sl (Memref.whole main_v2_1_scv : Memref sig .scVector .hbm S1130496 .f32) L o h).view) fprev g (Finset.mem_univ j)]

/-- Axis 2, the same with the copy-out written as one listed piece through the whole 4416-position rectangle of the
    sub-chunk: the rectangle's positions are the sub-chunk's own. -/
theorem chunk_wr_z (cf : (d : Dev nD) → Buf (Elt F) (cLoc d)) (nf : (d : Dev nD) → Buf (Elt F) (nLoc d)) (d : Dev nD) (L : grid0.Coords)
    (o : BitVec 32) (h : ∀ a, (k0_off1 L o) a + S4416.size a ≤ S1130496.size a)
    (fprev : Buf (Elt F) (zLoc d)) (g : Vec F S4416 .f32) (nw : IVec S4416 32) (cs : Vec F S30720 .f32)
    (hcs : cs = cf d)
    (hnw : ∀ j, nw j = (sl (Memref.whole main_v1_scv : Memref sig .scVector .hbm S1130496 .i32) L o h).view.read (Elt F) (nf d) j)
    (hD : Done 276 2 cs nw g) :
    ∀ i ∈ (sl (Memref.whole main_v2_2_scv : Memref sig .scVector .hbm S1130496 .f32) L o h).view.set,
      (sl (Memref.whole main_v2_2_scv : Memref sig .scVector .hbm S1130496 .f32) L o h).view.writes (Elt F) fprev [⟨Rect.whole S4416, g⟩] i
        = gatherAt (cf d) (nf d) 2 i := by
  intro i hi
  refine Eq.trans ?_ (chunk_val_z cf nf d L o h fprev g nw cs hcs hnw hD i hi)
  obtain ⟨j, -, rfl⟩ := Finset.mem_map.mp hi
  have e1 : ((sl (Memref.whole main_v2_2_scv : Memref sig .scVector .hbm S1130496 .f32) L o h).view.slice (Rect.whole S4416)).emb j = (sl (Memref.whole main_v2_2_scv : Memref sig .scVector .hbm S1130496 .f32) L o h).view.emb j :=
    congrArg (sl (Memref.whole main_v2_2_scv : Memref sig .scVector .hbm S1130496 .f32) L o h).view.emb (Rect.emb_whole_apply S4416 j)
  show ((sl (Memref.whole main_v2_2_scv : Memref sig .scVector .hbm S1130496 .f32) L o h).view.slice (Rect.whole S4416)).write (Elt F) fprev g Finset.univ ((sl (Memref.whole main_v2_2_scv : Memref sig .scVector .hbm S1130496 .f32) L o h).view.emb j) = _
  rw [← e1, View.write_emb_of_mem (v := (sl (Memref.whole main_v2_2_scv : Memref sig .scVector .hbm S1130496 .f32) L o h).view.slice (Rect.whole S4416)) fprev g (Finset.mem_univ j), e1,
    View.write_emb_of_mem (v := (sl (Memref.whole main_v2_2_scv : Memref sig .scVector .hbm S1130496 .f32) L o h).view) fprev g (Finset.mem_univ j)]

end Cert.ScGather

end
-- ==== Proof.ScTile.lean ====
/-
  The gather tile's task itself. A tile copies the coordinate array into its scratch, then eight times: copies its
  next 4416 neighbour words in, runs the 276 trips of the gather loop (each trip's region is the one trip lemma, the
  eight loops being one text under eight names), and copies the three gathered stretches out to its slices of the
  results. Every copy is issued and waited for in turn on a semaphore of its own, so the run needs no schedule. At
  the end each of the twenty-four result slices holds, position by position, the coordinate word its neighbour word
  names, which is the whole-array value restricted to the slice; the scratches, the semaphores and the read shares
  go back as they came. From that, the launch theorem's obligation for the call.
-/
import proofs.«205418_g46067819217304_cont_8to1_c_241_17_alg».proof.KernelIdeal
import proofs.«205418_g46067819217304_cont_8to1_c_241_17_alg».proof.Proof.Gen.KernelIdeal
import proofs.«205418_g46067819217304_cont_8to1_c_241_17_alg».proof.Proof.Gen.KernelIdeal.Skeleton
import proofs.«205418_g46067819217304_cont_8to1_c_241_17_alg».proof.Proof.Setup
import proofs.«205418_g46067819217304_cont_8to1_c_241_17_alg».proof.Proof.ScSplit
import proofs.«205418_g46067819217304_cont_8to1_c_241_17_alg».proof.Proof.ScGather
import proofs.«205418_g46067819217304_cont_8to1_c_241_17_alg».proof.Proof.ScVal
import Idealize.ShloMosaic.Lib.SparseCore.Launch
import Idealize.ShloMosaic.Lib.SparseCore.Ops
import Idealize.ShloMosaic.Lib.Tactic
import Idealize.ShloMosaic.Lib.Transfers
import Idealize.ShloMosaic.Lib.ValueIdx

noncomputable section

namespace Cert.ScGather

open Cert.KernelIdeal Cert.KernelIdeal.Gen Cert.KernelIdeal.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => 𝕄F F

variable (cf : (d : Dev nD) → Buf (Elt F) (cLoc d)) (nf : (d : Dev nD) → Buf (Elt F) (nLoc d))

section Tile

variable (d : Dev nD) (L : grid0.Coords)

-- the kernel's memrefs, spelt as the body table passes them
local notation "cW" => (Memref.whole Cert.KernelIdeal.main_v0_scv : Memref Cert.KernelIdeal.sig Kind.scVector Space.hbm Cert.KernelIdeal.S30720 EltTy.f32)
local notation "nW" => (Memref.whole Cert.KernelIdeal.main_v1_scv : Memref Cert.KernelIdeal.sig Kind.scVector Space.hbm Cert.KernelIdeal.S1130496 EltTy.i32)
local notation "xW" => (Memref.whole Cert.KernelIdeal.main_v2_0_scv : Memref Cert.KernelIdeal.sig Kind.scVector Space.hbm Cert.KernelIdeal.S1130496 EltTy.f32)
local notation "yW" => (Memref.whole Cert.KernelIdeal.main_v2_1_scv : Memref Cert.KernelIdeal.sig Kind.scVector Space.hbm Cert.KernelIdeal.S1130496 EltTy.f32)
local notation "zW" => (Memref.whole Cert.KernelIdeal.main_v2_2_scv : Memref Cert.KernelIdeal.sig Kind.scVector Space.hbm Cert.KernelIdeal.S1130496 EltTy.f32)
local notation "sC" => (Memref.whole Cert.KernelIdeal.cc0_scratch0 : Memref Cert.KernelIdeal.sig Kind.scVector Space.vmem Cert.KernelIdeal.S30720 EltTy.f32)
local notation "sN" => (Memref.whole Cert.KernelIdeal.cc0_scratch1 : Memref Cert.KernelIdeal.sig Kind.scVector Space.vmem Cert.KernelIdeal.S4416 EltTy.i32)
local notation "sX" => (Memref.whole Cert.KernelIdeal.cc0_scratch2 : Memref Cert.KernelIdeal.sig Kind.scVector Space.vmem Cert.KernelIdeal.S4416 EltTy.f32)
local notation "sY" => (Memref.whole Cert.KernelIdeal.cc0_scratch3 : Memref Cert.KernelIdeal.sig Kind.scVector Space.vmem Cert.KernelIdeal.S4416 EltTy.f32)
local notation "sZ" => (Memref.whole Cert.KernelIdeal.cc0_scratch4 : Memref Cert.KernelIdeal.sig Kind.scVector Space.vmem Cert.KernelIdeal.S4416 EltTy.f32)

omit [FloatOps F] [Named F] in
/-- One more wait recorded at the kernels' own index keeps the record within what the launch allows. -/
theorem ins_ok {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with rfl | hp
  · exact .inr rfl
  · exact h p hp

/-! ### The body -/

set_option maxHeartbeats 40000000 in
/-- The task on tile L of device d. -/
theorem tile_body (hF : (K (F := F)).Facts) (hpre : NlOK nf) (O : CellTallies nD τ sig (HIx 1)) (W : Waits sig (HIx 1)) (hO : ∀ g, O g none = 0) :
    iprop(levAts (K (F := F)).L (K (F := F)).lev ∗ emp ∗ handed cf nf d (qT (cL L) (iL L)) (tileSeg (cL L) (iL L))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L cW (Memref.isWhole_whole _) nW (Memref.isWhole_whole _) xW (Memref.isWhole_whole _) yW (Memref.isWhole_whole _) zW (Memref.isWhole_whole _)
            sC (Memref.isWhole_whole _) sN (Memref.isWhole_whole _) sX (Memref.isWhole_whole _) sY (Memref.isWhole_whole _) sZ (Memref.isWhole_whole _)
            cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32)
          fun _ => iprop(gathered cf nf d (qT (cL L) (iL L)) (tileSeg (cL L) (iL L)) ∗ scopedBufs (V d (cV L) (jV L)) ∗ scopedSems0 (V d (cV L) (jV L))
            ∗ ∃ W', ⌜∀ p ∈ W', p ∈ W ∨ p.2 = none⌝ ∗ owes (V d (cV L) (jV L)) O W') := by
  have hwOK : ∀ k, ((nf d k : BitVec 32)).toNat ≤ 10239 := fun k => toNat_of_ok (hpre d k).1 (hpre d k).2
  simp only [cc0_k_eq_skeleton]; unfold cc0_k_skel
  simp only [k0_part1_eq_skeleton, k0_part2_eq_skeleton, k0_part3_eq_skeleton, k0_part4_eq_skeleton]
  unfold k0_part1_skel k0_part2_skel k0_part3_skel k0_part4_skel
  rw [(K (F := F)).scopedBufs_V hF d (cV L) (jV L), SparseCore.Cfg.scopedSems0_V (Val := Elt F) d (cV L) (jV L), ownSems0_V, ownBufs_V,
    handed, gathered]
  iintro ⟨#Hlv, -, ⟨Hc, Hn, ⟨%fx, Hx⟩, ⟨%fy, Hy⟩, ⟨%fz, Hz⟩⟩,
    ⟨⟨%f0, HsC⟩, ⟨%f1, HsN⟩, ⟨%f2, HsX⟩, ⟨%f3, HsY⟩, ⟨%f4, HsZ⟩, Hbufs⟩, ⟨⟨Hs0, Hs1, Hs2, Hs3, Hs4, Hs5, Hs6, Hs7, Hs8, Hs9, Hs10, Hs11, Hs12, Hs13, Hs14, Hs15, Hs16, Hs17, Hs18, Hs19, Hs20, Hs21, Hs22, Hs23, Hs24, Hs25, Hs26, Hs27, Hs28, Hs29, Hs30, Hs31, Hs32⟩, Hsems⟩, HO⟩
  ihave Hmw := ((K (F := F)).mayWaits_none (thr := (V d (cV L) (jV L))) hO) $$ Hlv
  -- the tile's range of each result as the eight slices the kernel copies into
  ihave Hx := (Entails.of_eq (x_chunks8 (F := F) d L fx)) $$ Hx
  icases Hx with ⟨Hx0, Hx1, Hx2, Hx3, Hx4, Hx5, Hx6, Hx7⟩
  ihave Hy := (Entails.of_eq (y_chunks8 (F := F) d L fy)) $$ Hy
  icases Hy with ⟨Hy0, Hy1, Hy2, Hy3, Hy4, Hy5, Hy6, Hy7⟩
  ihave Hz := (Entails.of_eq (z_chunks8 (F := F) d L fz)) $$ Hz
  icases Hz with ⟨Hz0, Hz1, Hz2, Hz3, Hz4, Hz5, Hz6, Hz7⟩
  -- the operands and the scratches as the tile addresses them
  ihave Hc := (Entails.of_eq (pts_c (F := F) d L _ _).symm) $$ Hc
  ihave Hn := (Entails.of_eq (pts_n (F := F) d L _ _).symm) $$ Hn
  ihave HsC := (Entails.of_eq (pts_sC (F := F) d L _).symm) $$ HsC
  ihave HsN := (Entails.of_eq (pts_sN (F := F) d L _).symm) $$ HsN
  ihave HsX := (Entails.of_eq (pts_sX (F := F) d L _).symm) $$ HsX
  ihave HsY := (Entails.of_eq (pts_sY (F := F) d L _).symm) $$ HsY
  ihave HsZ := (Entails.of_eq (pts_sZ (F := F) d L _).symm) $$ HsZ
  sl_exec
  -- sub-chunk 0: the words copied in, the trips, the three stretches copied out
  generalize hcs : View.write (Elt F) (sC).view f0 _ Finset.univ = cs
  generalize hnw0 : View.write (Elt F) (sN).view _ _ Finset.univ = nw0
  have hw0 : ∀ j, ((nw0 j : BitVec 32)).toNat ≤ 10239 := by
    intro j; rw [← hnw0]
    show BitVec.toNat ((View.whole cc0_scratch1).write (Elt F) _ _ Finset.univ j) ≤ 10239
    rw [View.write_whole_univ]; exact hwOK _
  rw [Prog.bind_assoc]
  sl_for (tripInv (F := F) d L cs nw0) $$ [HsC HsN HsX HsY HsZ]
  · exact fun t u => trip (F := F) d L cs nw0 hw0 t u
  · rw [tripInv]
    isplitl [HsC]; · iexact HsC
    isplitl [HsN]; · iexact HsN
    iexists _, _, _
    isplitl [HsX]; · iexact HsX
    isplitl [HsY]; · iexact HsY
    isplitl [HsZ]; · iexact HsZ
    ipureintro; exact ⟨Done_zero _ _ _ _, Done_zero _ _ _ _, Done_zero _ _ _ _⟩
  iintro %_ HI
  ihave HI := (Entails.of_eq (tripInv.eq_1 (F := F) d L cs nw0 _ _)) $$ HI
  icases HI with ⟨HsC, HsN, %gx0, %gy0, %gz0, HsX, HsY, HsZ, %hD0⟩
  sl_exec
  -- sub-chunk 1: the words copied in, the trips, the three stretches copied out
  generalize hnw1 : View.write (Elt F) (sN).view _ _ Finset.univ = nw1
  have hw1 : ∀ j, ((nw1 j : BitVec 32)).toNat ≤ 10239 := by
    intro j; rw [← hnw1]
    show BitVec.toNat ((View.whole cc0_scratch1).write (Elt F) _ _ Finset.univ j) ≤ 10239
    rw [View.write_whole_univ]; exact hwOK _
  rw [Prog.bind_assoc]
  sl_for (tripInv (F := F) d L cs nw1) $$ [HsC HsN HsX HsY HsZ]
  · exact fun t u => trip (F := F) d L cs nw1 hw1 t u
  · rw [tripInv]
    isplitl [HsC]; · iexact HsC
    isplitl [HsN]; · iexact HsN
    iexists _, _, _
    isplitl [HsX]; · iexact HsX
    isplitl [HsY]; · iexact HsY
    isplitl [HsZ]; · iexact HsZ
    ipureintro; exact ⟨Done_zero _ _ _ _, Done_zero _ _ _ _, Done_zero _ _ _ _⟩
  iintro %_ HI
  ihave HI := (Entails.of_eq (tripInv.eq_1 (F := F) d L cs nw1 _ _)) $$ HI
  icases HI with ⟨HsC, HsN, %gx1, %gy1, %gz1, HsX, HsY, HsZ, %hD1⟩
  sl_exec
  -- sub-chunk 2: the words copied in, the trips, the three stretches copied out
  generalize hnw2 : View.write (Elt F) (sN).view _ _ Finset.univ = nw2
  have hw2 : ∀ j, ((nw2 j : BitVec 32)).toNat ≤ 10239 := by
    intro j; rw [← hnw2]
    show BitVec.toNat ((View.whole cc0_scratch1).write (Elt F) _ _ Finset.univ j) ≤ 10239
    rw [View.write_whole_univ]; exact hwOK _
  rw [Prog.bind_assoc]
  sl_for (tripInv (F := F) d L cs nw2) $$ [HsC HsN HsX HsY HsZ]
  · exact fun t u => trip (F := F) d L cs nw2 hw2 t u
  · rw [tripInv]
    isplitl [HsC]; · iexact HsC
    isplitl [HsN]; · iexact HsN
    iexists _, _, _
    isplitl [HsX]; · iexact HsX
    isplitl [HsY]; · iexact HsY
    isplitl [HsZ]; · iexact HsZ
    ipureintro; exact ⟨Done_zero _ _ _ _, Done_zero _ _ _ _, Done_zero _ _ _ _⟩
  iintro %_ HI
  ihave HI := (Entails.of_eq (tripInv.eq_1 (F := F) d L cs nw2 _ _)) $$ HI
  icases HI with ⟨HsC, HsN, %gx2, %gy2, %gz2, HsX, HsY, HsZ, %hD2⟩
  sl_exec
  -- sub-chunk 3: the words copied in, the trips, the three stretches copied out
  generalize hnw3 : View.write (Elt F) (sN).view _ _ Finset.univ = nw3
  have hw3 : ∀ j, ((nw3 j : BitVec 32)).toNat ≤ 10239 := by
    intro j; rw [← hnw3]
    show BitVec.toNat ((View.whole cc0_scratch1).write (Elt F) _ _ Finset.univ j) ≤ 10239
    rw [View.write_whole_univ]; exact hwOK _
  rw [Prog.bind_assoc]
  sl_for (tripInv (F := F) d L cs nw3) $$ [HsC HsN HsX HsY HsZ]
  · exact fun t u => trip (F := F) d L cs nw3 hw3 t u
  · rw [tripInv]
    isplitl [HsC]; · iexact HsC
    isplitl [HsN]; · iexact HsN
    iexists _, _, _
    isplitl [HsX]; · iexact HsX
    isplitl [HsY]; · iexact HsY
    isplitl [HsZ]; · iexact HsZ
    ipureintro; exact ⟨Done_zero _ _ _ _, Done_zero _ _ _ _, Done_zero _ _ _ _⟩
  iintro %_ HI
  ihave HI := (Entails.of_eq (tripInv.eq_1 (F := F) d L cs nw3 _ _)) $$ HI
  icases HI with ⟨HsC, HsN, %gx3, %gy3, %gz3, HsX, HsY, HsZ, %hD3⟩
  sl_exec
  -- sub-chunk 4: the words copied in, the trips, the three stretches copied out
  generalize hnw4 : View.write (Elt F) (sN).view _ _ Finset.univ = nw4
  have hw4 : ∀ j, ((nw4 j : BitVec 32)).toNat ≤ 10239 := by
    intro j; rw [← hnw4]
    show BitVec.toNat ((View.whole cc0_scratch1).write (Elt F) _ _ Finset.univ j) ≤ 10239
    rw [View.write_whole_univ]; exact hwOK _
  rw [Prog.bind_assoc]
  sl_for (tripInv (F := F) d L cs nw4) $$ [HsC HsN HsX HsY HsZ]
  · exact fun t u => trip (F := F) d L cs nw4 hw4 t u
  · rw [tripInv]
    isplitl [HsC]; · iexact HsC
    isplitl [HsN]; · iexact HsN
    iexists _, _, _
    isplitl [HsX]; · iexact HsX
    isplitl [HsY]; · iexact HsY
    isplitl [HsZ]; · iexact HsZ
    ipureintro; exact ⟨Done_zero _ _ _ _, Done_zero _ _ _ _, Done_zero _ _ _ _⟩
  iintro %_ HI
  ihave HI := (Entails.of_eq (tripInv.eq_1 (F := F) d L cs nw4 _ _)) $$ HI
  icases HI with ⟨HsC, HsN, %gx4, %gy4, %gz4, HsX, HsY, HsZ, %hD4⟩
  sl_exec
  -- sub-chunk 5: the words copied in, the trips, the three stretches copied out
  generalize hnw5 : View.write (Elt F) (sN).view _ _ Finset.univ = nw5
  have hw5 : ∀ j, ((nw5 j : BitVec 32)).toNat ≤ 10239 := by
    intro j; rw [← hnw5]
    show BitVec.toNat ((View.whole cc0_scratch1).write (Elt F) _ _ Finset.univ j) ≤ 10239
    rw [View.write_whole_univ]; exact hwOK _
  rw [Prog.bind_assoc]
  sl_for (tripInv (F := F) d L cs nw5) $$ [HsC HsN HsX HsY HsZ]
  · exact fun t u => trip (F := F) d L cs nw5 hw5 t u
  · rw [tripInv]
    isplitl [HsC]; · iexact HsC
    isplitl [HsN]; · iexact HsN
    iexists _, _, _
    isplitl [HsX]; · iexact HsX
    isplitl [HsY]; · iexact HsY
    isplitl [HsZ]; · iexact HsZ
    ipureintro; exact ⟨Done_zero _ _ _ _, Done_zero _ _ _ _, Done_zero _ _ _ _⟩
  iintro %_ HI
  ihave HI := (Entails.of_eq (tripInv.eq_1 (F := F) d L cs nw5 _ _)) $$ HI
  icases HI with ⟨HsC, HsN, %gx5, %gy5, %gz5, HsX, HsY, HsZ, %hD5⟩
  sl_exec
  -- sub-chunk 6: the words copied in, the trips, the three stretches copied out
  generalize hnw6 : View.write (Elt F) (sN).view _ _ Finset.univ = nw6
  have hw6 : ∀ j, ((nw6 j : BitVec 32)).toNat ≤ 10239 := by
    intro j; rw [← hnw6]
    show BitVec.toNat ((View.whole cc0_scratch1).write (Elt F) _ _ Finset.univ j) ≤ 10239
    rw [View.write_whole_univ]; exact hwOK _
  rw [Prog.bind_assoc]
  sl_for (tripInv (F := F) d L cs nw6) $$ [HsC HsN HsX HsY HsZ]
  · exact fun t u => trip (F := F) d L cs nw6 hw6 t u
  · rw [tripInv]
    isplitl [HsC]; · iexact HsC
    isplitl [HsN]; · iexact HsN
    iexists _, _, _
    isplitl [HsX]; · iexact HsX
    isplitl [HsY]; · iexact HsY
    isplitl [HsZ]; · iexact HsZ
    ipureintro; exact ⟨Done_zero _ _ _ _, Done_zero _ _ _ _, Done_zero _ _ _ _⟩
  iintro %_ HI
  ihave HI := (Entails.of_eq (tripInv.eq_1 (F := F) d L cs nw6 _ _)) $$ HI
  icases HI with ⟨HsC, HsN, %gx6, %gy6, %gz6, HsX, HsY, HsZ, %hD6⟩
  sl_exec
  -- sub-chunk 7: the words copied in, the trips, the three stretches copied out
  generalize hnw7 : View.write (Elt F) (sN).view _ _ Finset.univ = nw7
  have hw7 : ∀ j, ((nw7 j : BitVec 32)).toNat ≤ 10239 := by
    intro j; rw [← hnw7]
    show BitVec.toNat ((View.whole cc0_scratch1).write (Elt F) _ _ Finset.univ j) ≤ 10239
    rw [View.write_whole_univ]; exact hwOK _
  sl_for (tripInv (F := F) d L cs nw7) $$ [HsC HsN HsX HsY HsZ]
  · exact fun t u => trip (F := F) d L cs nw7 hw7 t u
  · rw [tripInv]
    isplitl [HsC]; · iexact HsC
    isplitl [HsN]; · iexact HsN
    iexists _, _, _
    isplitl [HsX]; · iexact HsX
    isplitl [HsY]; · iexact HsY
    isplitl [HsZ]; · iexact HsZ
    ipureintro; exact ⟨Done_zero _ _ _ _, Done_zero _ _ _ _, Done_zero _ _ _ _⟩
  iintro %_ HI
  ihave HI := (Entails.of_eq (tripInv.eq_1 (F := F) d L cs nw7 _ _)) $$ HI
  icases HI with ⟨HsC, HsN, %gx7, %gy7, %gz7, HsX, HsY, HsZ, %hD7⟩
  sl_exec
  -- the end: what the scratches and the copied-in words were
  have hcs' : cs = cf d := by
    rw [← hcs]
    show (View.whole cc0_scratch0).write (Elt F) _ _ Finset.univ = _
    rw [View.write_whole_univ]; rfl
  have hnw0' : ∀ j, nw0 j = (sl (nW) L 0#32 (k0_off1_inb L 0)).view.read (Elt F) (nf d) j := fun j => by
    rw [← hnw0]
    show (View.whole cc0_scratch1).write (Elt F) _ _ Finset.univ j = _
    rw [View.write_whole_univ]; rfl
  have hnw1' : ∀ j, nw1 j = (sl (nW) L 4416#32 (k0_off1_inb L 1)).view.read (Elt F) (nf d) j := fun j => by
    rw [← hnw1]
    show (View.whole cc0_scratch1).write (Elt F) _ _ Finset.univ j = _
    rw [View.write_whole_univ]; rfl
  have hnw2' : ∀ j, nw2 j = (sl (nW) L 8832#32 (k0_off1_inb L 2)).view.read (Elt F) (nf d) j := fun j => by
    rw [← hnw2]
    show (View.whole cc0_scratch1).write (Elt F) _ _ Finset.univ j = _
    rw [View.write_whole_univ]; rfl
  have hnw3' : ∀ j, nw3 j = (sl (nW) L 13248#32 (k0_off1_inb L 3)).view.read (Elt F) (nf d) j := fun j => by
    rw [← hnw3]
    show (View.whole cc0_scratch1).write (Elt F) _ _ Finset.univ j = _
    rw [View.write_whole_univ]; rfl
  have hnw4' : ∀ j, nw4 j = (sl (nW) L 17664#32 (k0_off1_inb L 4)).view.read (Elt F) (nf d) j := fun j => by
    rw [← hnw4]
    show (View.whole cc0_scratch1).write (Elt F) _ _ Finset.univ j = _
    rw [View.write_whole_univ]; rfl
  have hnw5' : ∀ j, nw5 j = (sl (nW) L 22080#32 (k0_off1_inb L 5)).view.read (Elt F) (nf d) j := fun j => by
    rw [← hnw5]
    show (View.whole cc0_scratch1).write (Elt F) _ _ Finset.univ j = _
    rw [View.write_whole_univ]; rfl
  have hnw6' : ∀ j, nw6 j = (sl (nW) L 26496#32 (k0_off1_inb L 6)).view.read (Elt F) (nf d) j := fun j => by
    rw [← hnw6]
    show (View.whole cc0_scratch1).write (Elt F) _ _ Finset.univ j = _
    rw [View.write_whole_univ]; rfl
  have hnw7' : ∀ j, nw7 j = (sl (nW) L 30912#32 (k0_off1_inb L 7)).view.read (Elt F) (nf d) j := fun j => by
    rw [← hnw7]
    show (View.whole cc0_scratch1).write (Elt F) _ _ Finset.univ j = _
    rw [View.write_whole_univ]; rfl
  sl_step
  isplitl [Hc Hn Hx0 Hx1 Hx2 Hx3 Hx4 Hx5 Hx6 Hx7 Hy0 Hy1 Hy2 Hy3 Hy4 Hy5 Hy6 Hy7 Hz0 Hz1 Hz2 Hz3 Hz4 Hz5 Hz6 Hz7]
  · isplitl [Hc]; · iapply (Entails.of_eq (pts_c (F := F) d L _ _)); iexact Hc
    isplitl [Hn]; · iapply (Entails.of_eq (pts_n (F := F) d L _ _)); iexact Hn
    isplitl [Hx0 Hx1 Hx2 Hx3 Hx4 Hx5 Hx6 Hx7]
    · iapply (Entails.of_eq (x_chunks8 (F := F) d L _).symm)
      isplitl [Hx0]; · iapply (Entails.of_eq (pointsTo_congr (chunk_wr_x cf nf d L _ _ _ _ nw0 cs hcs' hnw0' hD0.1))); iexact Hx0
      isplitl [Hx1]; · iapply (Entails.of_eq (pointsTo_congr (chunk_wr_x cf nf d L _ _ _ _ nw1 cs hcs' hnw1' hD1.1))); iexact Hx1
      isplitl [Hx2]; · iapply (Entails.of_eq (pointsTo_congr (chunk_wr_x cf nf d L _ _ _ _ nw2 cs hcs' hnw2' hD2.1))); iexact Hx2
      isplitl [Hx3]; · iapply (Entails.of_eq (pointsTo_congr (chunk_wr_x cf nf d L _ _ _ _ nw3 cs hcs' hnw3' hD3.1))); iexact Hx3
      isplitl [Hx4]; · iapply (Entails.of_eq (pointsTo_congr (chunk_wr_x cf nf d L _ _ _ _ nw4 cs hcs' hnw4' hD4.1))); iexact Hx4
      isplitl [Hx5]; · iapply (Entails.of_eq (pointsTo_congr (chunk_wr_x cf nf d L _ _ _ _ nw5 cs hcs' hnw5' hD5.1))); iexact Hx5
      isplitl [Hx6]; · iapply (Entails.of_eq (pointsTo_congr (chunk_wr_x cf nf d L _ _ _ _ nw6 cs hcs' hnw6' hD6.1))); iexact Hx6
      iapply (Entails.of_eq (pointsTo_congr (chunk_wr_x cf nf d L _ _ _ _ nw7 cs hcs' hnw7' hD7.1))); iexact Hx7
    isplitl [Hy0 Hy1 Hy2 Hy3 Hy4 Hy5 Hy6 Hy7]
    · iapply (Entails.of_eq (y_chunks8 (F := F) d L _).symm)
      isplitl [Hy0]; · iapply (Entails.of_eq (pointsTo_congr (chunk_wr_y cf nf d L _ _ _ _ nw0 cs hcs' hnw0' hD0.2.1))); iexact Hy0
      isplitl [Hy1]; · iapply (Entails.of_eq (pointsTo_congr (chunk_wr_y cf nf d L _ _ _ _ nw1 cs hcs' hnw1' hD1.2.1))); iexact Hy1
      isplitl [Hy2]; · iapply (Entails.of_eq (pointsTo_congr (chunk_wr_y cf nf d L _ _ _ _ nw2 cs hcs' hnw2' hD2.2.1))); iexact Hy2
      isplitl [Hy3]; · iapply (Entails.of_eq (pointsTo_congr (chunk_wr_y cf nf d L _ _ _ _ nw3 cs hcs' hnw3' hD3.2.1))); iexact Hy3
      isplitl [Hy4]; · iapply (Entails.of_eq (pointsTo_congr (chunk_wr_y cf nf d L _ _ _ _ nw4 cs hcs' hnw4' hD4.2.1))); iexact Hy4
      isplitl [Hy5]; · iapply (Entails.of_eq (pointsTo_congr (chunk_wr_y cf nf d L _ _ _ _ nw5 cs hcs' hnw5' hD5.2.1))); iexact Hy5
      isplitl [Hy6]; · iapply (Entails.of_eq (pointsTo_congr (chunk_wr_y cf nf d L _ _ _ _ nw6 cs hcs' hnw6' hD6.2.1))); iexact Hy6
      iapply (Entails.of_eq (pointsTo_congr (chunk_wr_y cf nf d L _ _ _ _ nw7 cs hcs' hnw7' hD7.2.1))); iexact Hy7
    iapply (Entails.of_eq (z_chunks8 (F := F) d L _).symm)
    isplitl [Hz0]; · iapply (Entails.of_eq (pointsTo_congr (chunk_wr_z cf nf d L _ _ _ _ nw0 cs hcs' hnw0' hD0.2.2))); iexact Hz0
    isplitl [Hz1]; · iapply (Entails.of_eq (pointsTo_congr (chunk_wr_z cf nf d L _ _ _ _ nw1 cs hcs' hnw1' hD1.2.2))); iexact Hz1
    isplitl [Hz2]; · iapply (Entails.of_eq (pointsTo_congr (chunk_wr_z cf nf d L _ _ _ _ nw2 cs hcs' hnw2' hD2.2.2))); iexact Hz2
    isplitl [Hz3]; · iapply (Entails.of_eq (pointsTo_congr (chunk_wr_z cf nf d L _ _ _ _ nw3 cs hcs' hnw3' hD3.2.2))); iexact Hz3
    isplitl [Hz4]; · iapply (Entails.of_eq (pointsTo_congr (chunk_wr_z cf nf d L _ _ _ _ nw4 cs hcs' hnw4' hD4.2.2))); iexact Hz4
    isplitl [Hz5]; · iapply (Entails.of_eq (pointsTo_congr (chunk_wr_z cf nf d L _ _ _ _ nw5 cs hcs' hnw5' hD5.2.2))); iexact Hz5
    isplitl [Hz6]; · iapply (Entails.of_eq (pointsTo_congr (chunk_wr_z cf nf d L _ _ _ _ nw6 cs hcs' hnw6' hD6.2.2))); iexact Hz6
    iapply (Entails.of_eq (pointsTo_congr (chunk_wr_z cf nf d L _ _ _ _ nw7 cs hcs' hnw7' hD7.2.2))); iexact Hz7
  isplitl [HsC HsN HsX HsY HsZ Hbufs]
  · isplitl [HsC]; · iexists _; iapply (Entails.of_eq (pts_sC (F := F) d L _)); iexact HsC
    isplitl [HsN]; · iexists _; iapply (Entails.of_eq (pts_sN (F := F) d L _)); iexact HsN
    isplitl [HsX]; · iexists _; iapply (Entails.of_eq (pts_sX (F := F) d L _)); iexact HsX
    isplitl [HsY]; · iexists _; iapply (Entails.of_eq (pts_sY (F := F) d L _)); iexact HsY
    isplitl [HsZ]; · iexists _; iapply (Entails.of_eq (pts_sZ (F := F) d L _)); iexact HsZ
    iexact Hbufs
  isplitl [Hs0 Hs1 Hs2 Hs3 Hs4 Hs5 Hs6 Hs7 Hs8 Hs9 Hs10 Hs11 Hs12 Hs13 Hs14 Hs15 Hs16 Hs17 Hs18 Hs19 Hs20 Hs21 Hs22 Hs23 Hs24 Hs25 Hs26 Hs27 Hs28 Hs29 Hs30 Hs31 Hs32 Hsems]
  · isplitl [Hs0 Hs1 Hs2 Hs3 Hs4 Hs5 Hs6 Hs7 Hs8 Hs9 Hs10 Hs11 Hs12 Hs13 Hs14 Hs15 Hs16 Hs17 Hs18 Hs19 Hs20 Hs21 Hs22 Hs23 Hs24 Hs25 Hs26 Hs27 Hs28 Hs29 Hs30 Hs31 Hs32]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      isplitl [Hs10]; · iexact Hs10
      isplitl [Hs11]; · iexact Hs11
      isplitl [Hs12]; · iexact Hs12
      isplitl [Hs13]; · iexact Hs13
      isplitl [Hs14]; · iexact Hs14
      isplitl [Hs15]; · iexact Hs15
      isplitl [Hs16]; · iexact Hs16
      isplitl [Hs17]; · iexact Hs17
      isplitl [Hs18]; · iexact Hs18
      isplitl [Hs19]; · iexact Hs19
      isplitl [Hs20]; · iexact Hs20
      isplitl [Hs21]; · iexact Hs21
      isplitl [Hs22]; · iexact Hs22
      isplitl [Hs23]; · iexact Hs23
      isplitl [Hs24]; · iexact Hs24
      isplitl [Hs25]; · iexact Hs25
      isplitl [Hs26]; · iexact Hs26
      isplitl [Hs27]; · iexact Hs27
      isplitl [Hs28]; · iexact Hs28
      isplitl [Hs29]; · iexact Hs29
      isplitl [Hs30]; · iexact Hs30
      isplitl [Hs31]; · iexact Hs31
      iexact Hs32
    iexact Hsems
  iexists _; isplitr
  rotate_left
  · iexact HO
  · ipureintro
    iterate 33 (refine ins_ok _ ?_)
    exact fun p hp => .inl hp

end Tile

/-- A tile's task: from its read share of the operands and its range of the results, the range gathered. -/
theorem tileObl (hF : (K (F := F)).Facts) (hpre : NlOK nf) : (K (F := F)).TileObl (D (F := F)) 𝒱 (P cf nf) v₀ 0 := by
  intro d c i O W hO _ _
  -- the kernel owes nothing for a protocol of its own
  simp only [show (P cf nf).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body cf nf d (coordsV ⟨_, hc.1⟩ ⟨_, hc.2⟩) hF hpre O W hO).trans (wp_mono frame _ _ fun _ => obl_post)

end Cert.ScGather

end
-- ==== Proof.EnvRegion.lean ====
import proofs.«205418_g46067819217304_cont_8to1_c_241_17_alg».proof.KernelIdeal
import proofs.«205418_g46067819217304_cont_8to1_c_241_17_alg».proof.Proof.Gen.KernelIdeal
import proofs.«205418_g46067819217304_cont_8to1_c_241_17_alg».proof.Proof.Gen.KernelIdeal.Skeleton
import proofs.«205418_g46067819217304_cont_8to1_c_241_17_alg».proof.Proof.Gen.KernelIdeal.Launch
import proofs.«205418_g46067819217304_cont_8to1_c_241_17_alg».proof.Proof.Gen.KernelIdeal.Points
import Idealize.ShloMosaic.Lib.Pipeline.FrameBody
import Idealize.ShloMosaic.Lib.Pipeline.Regions
import Idealize.ShloMosaic.Lib.Pipeline.Kit
import Idealize.ShloMosaic.Lib.Pipeline.Value
import Idealize.ShloMosaic.Lib.Tactic

/-!
# The environment kernel as one pipelined region

The first TensorCore call walks the 8192 atoms in 16 blocks of 512 rows. At a grid point it is handed
seven input blocks — the gathered neighbour coordinates x, y, z (512 × 138 each), the centre atoms'
coordinates (512 × 3), their types (512 × 1, integer words), and the two 2 × 138 tables of means and
standard deviations, which do not move with the point — and it leaves two output blocks: columns
[0, 46) and columns [46, 138) of the 512 × 138 block of normalised environment entries

    dm(r, j) = ((1 / len) · sw(len) − mean[a_r, j]) / std[a_r, j],
    len = sqrt((x − cx)² + (y − cy)² + (z − cz)²),   a_r = 0 if the type word of row r is 0, else 1.

Everything in the block is pointwise in (r, j): nothing is carried from one grid point to the next, and
each output block is one covering store of a slice of that 512 × 138 value.

This module states what each staging buffer holds after the body as a function of the seven input
blocks, runs the body once at a symbolic grid point, and packages that as the pipeline's proof data
and body obligation. It is generic in the float instance and in the ghost state it is used under.
-/

set_option maxRecDepth 16384

noncomputable section

namespace Cert.EnvRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable {Ix : Type} [DecidableEq Ix] {Name : Type} [DecidableEq Name] {U : Type} [URA U] {Lvl : Type} [Preorder Lvl]

local notation "𝕄" => MT nD τ sig Ix (Elt F) Name U Lvl

/-! ## The rectangles the body reads and writes -/

/-- A whole 512 × 138 block (a neighbour coordinate). -/
abbrev rNbr : Rect S512x138 := Rect.unit (s := S512x138) ![0, 0] S512x138.size inb_S512x138_S512x138_0_0
/-- Column 0, 1, 2 of the 512 × 3 block of centre coordinates. -/
abbrev rCx : Rect S512x3 := Rect.unit (s := S512x3) ![0, 0] S512x1.size inb_S512x3_S512x1_0_0
abbrev rCy : Rect S512x3 := Rect.unit (s := S512x3) ![0, 1] S512x1.size inb_S512x3_S512x1_0_1
abbrev rCz : Rect S512x3 := Rect.unit (s := S512x3) ![0, 2] S512x1.size inb_S512x3_S512x1_0_2
/-- The whole 512 × 1 block of type words. -/
abbrev rTy : Rect S512x1 := Rect.unit (s := S512x1) ![0, 0] S512x1.size inb_S512x1_S512x1_0_0
/-- Row 0 and row 1 of a 2 × 138 table. -/
abbrev rRow0 : Rect S2x138 := Rect.unit (s := S2x138) ![0, 0] S1x138.size inb_S2x138_S1x138_0_0
abbrev rRow1 : Rect S2x138 := Rect.unit (s := S2x138) ![1, 0] S1x138.size inb_S2x138_S1x138_1_0
/-- The two whole output blocks. -/
abbrev rLo : Rect S512x46 := Rect.unit (s := S512x46) ![0, 0] S512x46.size inb_S512x46_S512x46_0_0
abbrev rHi : Rect S512x92 := Rect.unit (s := S512x92) ![0, 0] S512x92.size inb_S512x92_S512x92_0_0

/-! ## The block of environment entries, from the seven input blocks -/

/-- The distance block: sqrt of the summed squared coordinate differences. -/
def lenBlk (x0 x1 x2 : Vec F S512x138 .f32) (x3 : Vec F S512x3 .f32) : FVec F S512x138 .f32 :=
  k1_pay4 (View.ld x0 rNbr) (View.ld x3 rCx) (View.ld x1 rNbr) (View.ld x3 rCy) (View.ld x2 rNbr) (View.ld x3 rCz)
/-- 1 / len. -/
def invBlk (x0 x1 x2 : Vec F S512x138 .f32) (x3 : Vec F S512x3 .f32) : FVec F S512x138 .f32 :=
  k1_pay5 (View.ld x0 rNbr) (View.ld x3 rCx) (View.ld x1 rNbr) (View.ld x3 rCy) (View.ld x2 rNbr) (View.ld x3 rCz)
/-- [len ≤ 1/2] as a number. -/
def innerBlk (x0 x1 x2 : Vec F S512x138 .f32) (x3 : Vec F S512x3 .f32) : FVec F S512x138 .f32 :=
  k1_pay6 (View.ld x0 rNbr) (View.ld x3 rCx) (View.ld x1 rNbr) (View.ld x3 rCy) (View.ld x2 rNbr) (View.ld x3 rCz)
/-- 1 − clip([len ≤ 1/2] + [len ≥ 6], 0, 1). -/
def midBlk (x0 x1 x2 : Vec F S512x138 .f32) (x3 : Vec F S512x3 .f32) : FVec F S512x138 .f32 :=
  k1_pay7 (View.ld x0 rNbr) (View.ld x3 rCx) (View.ld x1 rNbr) (View.ld x3 rCy) (View.ld x2 rNbr) (View.ld x3 rCz)
/-- The raw entries (1 / len) · sw(len). -/
def rawBlk (x0 x1 x2 : Vec F S512x138 .f32) (x3 : Vec F S512x3 .f32) : FVec F S512x138 .f32 :=
  k1_pay8 (lenBlk x0 x1 x2 x3) (invBlk x0 x1 x2 x3) (innerBlk x0 x1 x2 x3) (midBlk x0 x1 x2 x3)

/-- The 512 × 138 block of normalised entries: (raw − mean[type]) / std[type]. -/
def dmBlk (x0 x1 x2 : Vec F S512x138 .f32) (x3 : Vec F S512x3 .f32) (x4 : Vec F S512x1 .i32) (x5 x6 : Vec F S2x138 .f32) : FVec F S512x138 .f32 :=
  k1_pay1 (rawBlk x0 x1 x2 x3) (k1_pay10 (View.ld x4 rTy) (View.ld x5 rRow0) (View.ld x5 rRow1)) (k1_pay11 (View.ld x6 rRow1))
    (k1_pay12 (View.ld x4 rTy)) (k1_pay13 (View.ld x6 rRow0))

/-- Its columns [0, 46), as the body slices them. -/
def loBlk (x0 x1 x2 : Vec F S512x138 .f32) (x3 : Vec F S512x3 .f32) (x4 : Vec F S512x1 .i32) (x5 x6 : Vec F S2x138 .f32) : FVec F S512x46 .f32 :=
  k1_pay2 (rawBlk x0 x1 x2 x3) (k1_pay10 (View.ld x4 rTy) (View.ld x5 rRow0) (View.ld x5 rRow1)) (k1_pay11 (View.ld x6 rRow1))
    (k1_pay12 (View.ld x4 rTy)) (k1_pay13 (View.ld x6 rRow0))
/-- Its columns [46, 138). -/
def hiBlk (x0 x1 x2 : Vec F S512x138 .f32) (x3 : Vec F S512x3 .f32) (x4 : Vec F S512x1 .i32) (x5 x6 : Vec F S2x138 .f32) : FVec F S512x92 .f32 :=
  k1_pay3 (rawBlk x0 x1 x2 x3) (k1_pay10 (View.ld x4 rTy) (View.ld x5 rRow0) (View.ld x5 rRow1)) (k1_pay11 (View.ld x6 rRow1))
    (k1_pay12 (View.ld x4 rTy)) (k1_pay13 (View.ld x6 rRow0))

theorem loBlk_eq (x0 x1 x2 : Vec F S512x138 .f32) (x3 : Vec F S512x3 .f32) (x4 : Vec F S512x1 .i32) (x5 x6 : Vec F S2x138 .f32) :
    loBlk x0 x1 x2 x3 x4 x5 x6 = extractStridedSlice S512x46 ![0, 0] (dmBlk x0 x1 x2 x3 x4 x5 x6) slices_S512x138_o0_0_S512x46 := rfl
theorem hiBlk_eq (x0 x1 x2 : Vec F S512x138 .f32) (x3 : Vec F S512x3 .f32) (x4 : Vec F S512x1 .i32) (x5 x6 : Vec F S2x138 .f32) :
    hiBlk x0 x1 x2 x3 x4 x5 x6 = extractStridedSlice S512x92 ![0, 46] (dmBlk x0 x1 x2 x3 x4 x5 x6) slices_S512x138_o0_46_S512x92 := rfl

/-! ## What the body leaves in the two output buffers -/

/-- The first output's staging buffer after the body: one store of the whole block. -/
def outLo (x0 x1 x2 : Vec F S512x138 .f32) (x3 : Vec F S512x3 .f32) (x4 : Vec F S512x1 .i32) (x5 x6 : Vec F S2x138 .f32) : Vec F S512x46 .f32 :=
  View.canon [⟨rLo, loBlk x0 x1 x2 x3 x4 x5 x6⟩]
/-- The second output's. -/
def outHi (x0 x1 x2 : Vec F S512x138 .f32) (x3 : Vec F S512x3 .f32) (x4 : Vec F S512x1 .i32) (x5 x6 : Vec F S2x138 .f32) : Vec F S512x92 .f32 :=
  View.canon [⟨rHi, hiBlk x0 x1 x2 x3 x4 x5 x6⟩]

/-- One store over the whole buffer covers it. -/
theorem coverLo (p : Vec F S512x46 .f32) (y : S512x46.Idx) :
    ∃ pc ∈ ([⟨rLo, p⟩] : List (View.Piece (Elt F) S512x46 .f32)), y ∈ pc.1.set :=
  View.cover_of_tiled [⟨rLo, p⟩] S512x46.size (by rfl) y
theorem coverHi (p : Vec F S512x92 .f32) (y : S512x92.Idx) :
    ∃ pc ∈ ([⟨rHi, p⟩] : List (View.Piece (Elt F) S512x92 .f32)), y ∈ pc.1.set :=
  View.cover_of_tiled [⟨rHi, p⟩] S512x92.size (by rfl) y

theorem hz2 : (![0, 0] : Fin 2 → Nat) = fun _ => 0 := funext fun a => by fin_cases a <;> rfl

/-- The covering store leaves exactly its payload. -/
theorem outLo_eq (x0 x1 x2 : Vec F S512x138 .f32) (x3 : Vec F S512x3 .f32) (x4 : Vec F S512x1 .i32) (x5 x6 : Vec F S2x138 .f32) : outLo x0 x1 x2 x3 x4 x5 x6 = loBlk x0 x1 x2 x3 x4 x5 x6 := by
  unfold outLo; exact View.canon_unit_zero hz2 _ _
theorem outHi_eq (x0 x1 x2 : Vec F S512x138 .f32) (x3 : Vec F S512x3 .f32) (x4 : Vec F S512x1 .i32) (x5 x6 : Vec F S2x138 .f32) : outHi x0 x1 x2 x3 x4 x5 x6 = hiBlk x0 x1 x2 x3 x4 x5 x6 := by
  unfold outHi; exact View.canon_unit_zero hz2 _ _

/-! ## The body, run once on whole staging buffers -/

set_option maxHeartbeats 4000000 in
/-- On nine whole staging buffers, the seven inputs' at contents x0 … x6 and the outputs' at anything, the body
    runs to the end leaving the inputs as they were and the outputs at the two slices of the entry block. -/
theorem sound_kernel (c : Dev nD) (E : Set Name) (i : grid1.Coords) (arg1 : Memref sig .tc .vmem S512x138 .f32) (harg1 : arg1.IsWhole) (arg2 : Memref sig .tc .vmem S512x138 .f32) (harg2 : arg2.IsWhole) (arg3 : Memref sig .tc .vmem S512x138 .f32) (harg3 : arg3.IsWhole) (arg4 : Memref sig .tc .vmem S512x3 .f32) (harg4 : arg4.IsWhole) (arg5 : Memref sig .tc .vmem S512x1 .i32) (harg5 : arg5.IsWhole) (arg6 : Memref sig .tc .vmem S2x138 .f32) (harg6 : arg6.IsWhole) (arg7 : Memref sig .tc .vmem S2x138 .f32) (harg7 : arg7.IsWhole) (arg8 : Memref sig .tc .vmem S512x46 .f32) (harg8 : arg8.IsWhole) (arg9 : Memref sig .tc .vmem S512x92 .f32) (harg9 : arg9.IsWhole)
    (x0 x1 x2 : Vec F S512x138 .f32) (x3 : Vec F S512x3 .f32) (x4 : Vec F S512x1 .i32) (x5 x6 : Vec F S2x138 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (outLo x0 x1 x2 x3 x4 x5 x6) ∗ owns (c : Thread nD τ) arg9 fullShare (outHi x0 x1 x2 x3 x4 x5 x6)) -∗ K ⟨⟩))
      ⊢ wp frame (wpE (defs₀ (F := F)) Variants.none c none) E
          (cc1__env_body i arg1 harg1 arg2 harg2 arg3 harg3 arg4 harg4 arg5 harg5 arg6 harg6 arg7 harg7 arg8 harg8 arg9 harg9) K := by
  simp only [cc1__env_body_eq_skeleton]; unfold cc1__env_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (coverLo _)
  · iexists _; isplitr
    swap; · iexact H8
    ipureintro
    exact View.read_writes_eq_canon _ _ _ (coverHi _)

/-! ## The pipeline's proof data -/

section Data

-- the TensorCore's buffer contents when the region is entered
variable (V : (c : Dev nD) → (b : Ref sig .tc) → Buf (Elt F) ((c : Thread nD τ).loc b))
-- a bound on the wait pairs the core has recorded when the region is entered; the body records none
variable (B : Set (SemLoc sig × Ix))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body may use and need not describe: the core's scoped buffers that are no staging buffer of this call,
    each at some contents, and its generator register at some state. -/
def Φenv (c : Dev nD) : sProp 𝕄 :=
  iprop(Pipeline.scopedRest (Ix := Ix) (Name := Name) (U := U) (Lvl := Lvl) (Val := Elt F) spec1 c ∗ ∃ r, prngReg c r)

/-- The proof data of the call on core `c`: the arrays as the region finds them; after the body at point `t` each
    input's buffer at its block and each output's at its slice of the entry block of the input blocks; the
    invariant untouched; nothing owed; full shares; the recorded wait pairs within `B` throughout. -/
def dat0 (c : Dev nD) : Dat τ (Elt F) Ix Name U Lvl cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => outLo (iblk V c 0 t) (iblk V c 1 t) (iblk V c 2 t) (iblk V c 3 t) (iblk V c 4 t) (iblk V c 5 t) (iblk V c 6 t)
    | ⟨8, _⟩ => outHi (iblk V c 0 t) (iblk V c 1 t) (iblk V c 2 t) (iblk V c 3 t) (iblk V c 4 t) (iblk V c 5 t) (iblk V c 6 t)
  Φ _ := Φenv c
  q _ := fullShare
  owed _ := 0
  recorded _ := B

-- the proof data of the call, on any core
local notation "dat₀" => dat0 (Name := Name) (U := U) (Lvl := Lvl) V B

/-- The proof data's arrays are the region-entry contents. -/
theorem A_eq (c : Dev nD) (w : Fin cfg1.W) : (dat₀ c).A w = V c (Pipeline.arrRef spec1 w) := by
  dsimp only [dat0]

/-- What the body leaves, window by window. -/
theorem after_0 (c : Dev nD) (t : Fin cfg1.N) : (dat₀ c).after 0 t = iblk V c 0 t := by dsimp only [dat0]
theorem after_1 (c : Dev nD) (t : Fin cfg1.N) : (dat₀ c).after 1 t = iblk V c 1 t := by dsimp only [dat0]
theorem after_2 (c : Dev nD) (t : Fin cfg1.N) : (dat₀ c).after 2 t = iblk V c 2 t := by dsimp only [dat0]
theorem after_3 (c : Dev nD) (t : Fin cfg1.N) : (dat₀ c).after 3 t = iblk V c 3 t := by dsimp only [dat0]
theorem after_4 (c : Dev nD) (t : Fin cfg1.N) : (dat₀ c).after 4 t = iblk V c 4 t := by dsimp only [dat0]
theorem after_5 (c : Dev nD) (t : Fin cfg1.N) : (dat₀ c).after 5 t = iblk V c 5 t := by dsimp only [dat0]
theorem after_6 (c : Dev nD) (t : Fin cfg1.N) : (dat₀ c).after 6 t = iblk V c 6 t := by dsimp only [dat0]
theorem after_7 (c : Dev nD) (t : Fin cfg1.N) : (dat₀ c).after 7 t = outLo (iblk V c 0 t) (iblk V c 1 t) (iblk V c 2 t) (iblk V c 3 t) (iblk V c 4 t) (iblk V c 5 t) (iblk V c 6 t) := by dsimp only [dat0]
theorem after_8 (c : Dev nD) (t : Fin cfg1.N) : (dat₀ c).after 8 t = outHi (iblk V c 0 t) (iblk V c 1 t) (iblk V c 2 t) (iblk V c 3 t) (iblk V c 4 t) (iblk V c 5 t) (iblk V c 6 t) := by dsimp only [dat0]

/-- Each input's current staging buffer holds its block at every point, fetched there or not: an input the body
    leaves in place keeps the block its last fetch brought, and where no fetch happens the block index has not moved. -/
theorem before_0 (c : Dev nD) (t : Fin cfg1.N) (d) : (dat₀ c).before 0 t d = iblk V c 0 t :=
  ((dat₀ c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat₀ c).before 1 t d = iblk V c 1 t :=
  ((dat₀ c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat₀ c).before 2 t d = iblk V c 2 t :=
  ((dat₀ c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat₀ c).before 3 t d = iblk V c 3 t :=
  ((dat₀ c).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat₀ c).before 4 t d = iblk V c 4 t :=
  ((dat₀ c).before_in_eq_fetched 4 rfl (fun _ => rfl) (fun _ _ _ => rfl)
      (fun t => by rw [after_4]; unfold Dat.blockOf iblk; rw [A_eq]; try rfl) t d).trans
    (by unfold Dat.fetched Dat.blockOf iblk; rw [A_eq]; try rfl)
theorem before_5 (c : Dev nD) (t : Fin cfg1.N) (d) : (dat₀ c).before 5 t d = iblk V c 5 t :=
  ((dat₀ c).before_in_eq_fetched 5 rfl (fun _ => rfl) (fun _ _ _ => rfl)
      (fun t => by rw [after_5]; unfold Dat.blockOf iblk; rw [A_eq]; try rfl) t d).trans
    (by unfold Dat.fetched Dat.blockOf iblk; rw [A_eq]; try rfl)
theorem before_6 (c : Dev nD) (t : Fin cfg1.N) (d) : (dat₀ c).before 6 t d = iblk V c 6 t :=
  ((dat₀ c).before_in_eq_fetched 6 rfl (fun _ => rfl) (fun _ _ _ => rfl)
      (fun t => by rw [after_6]; unfold Dat.blockOf iblk; rw [A_eq]; try rfl) t d).trans
    (by unfold Dat.fetched Dat.blockOf iblk; rw [A_eq]; try rfl)

/-- An input array is never written: after any number of points it is as the region found it. -/
theorem arrAt_in (c : Dev nD) (w : Fin cfg1.W) (hw : (cfg1.win w).isOut = false) (n : Nat) :
    (dat₀ c).arrAt w n = V c (Pipeline.arrRef spec1 w) :=
  ((dat₀ c).arrAt_in w hw n).trans (A_eq V B c w)

/-! ## The body obligation, at a generic point -/

variable (ι : Ix)

/-- What the body is called with at point `t`, the windows one by one, -/
def bodyPre (c : Dev nD) (t : Fin cfg1.N) : sProp 𝕄 :=
  iprop((dat₀ c).Φ t.castSucc ∗ (dat₀ c).owesAt ι t.castSucc
    ∗ (∃ d, owns (c : Thread nD τ) (st1_0 t) fullShare ((dat₀ c).before 0 t d))
    ∗ (∃ d, owns (c : Thread nD τ) (st1_1 t) fullShare ((dat₀ c).before 1 t d))
    ∗ (∃ d, owns (c : Thread nD τ) (st1_2 t) fullShare ((dat₀ c).before 2 t d))
    ∗ (∃ d, owns (c : Thread nD τ) (st1_3 t) fullShare ((dat₀ c).before 3 t d))
    ∗ (∃ d, owns (c : Thread nD τ) (st1_4 t) fullShare ((dat₀ c).before 4 t d))
    ∗ (∃ d, owns (c : Thread nD τ) (st1_5 t) fullShare ((dat₀ c).before 5 t d))
    ∗ (∃ d, owns (c : Thread nD τ) (st1_6 t) fullShare ((dat₀ c).before 6 t d))
    ∗ (∃ d, owns (c : Thread nD τ) (st1_7 t) fullShare ((dat₀ c).before 7 t d))
    ∗ (∃ d, owns (c : Thread nD τ) (st1_8 t) fullShare ((dat₀ c).before 8 t d)))

/-- and what it returns. -/
def bodyPost (c : Dev nD) (t : Fin cfg1.N) : sProp 𝕄 :=
  iprop((dat₀ c).Φ t.succ ∗ (dat₀ c).owesAt ι t.succ
    ∗ owns (c : Thread nD τ) (st1_0 t) fullShare ((dat₀ c).after 0 t)
    ∗ owns (c : Thread nD τ) (st1_1 t) fullShare ((dat₀ c).after 1 t)
    ∗ owns (c : Thread nD τ) (st1_2 t) fullShare ((dat₀ c).after 2 t)
    ∗ owns (c : Thread nD τ) (st1_3 t) fullShare ((dat₀ c).after 3 t)
    ∗ owns (c : Thread nD τ) (st1_4 t) fullShare ((dat₀ c).after 4 t)
    ∗ owns (c : Thread nD τ) (st1_5 t) fullShare ((dat₀ c).after 5 t)
    ∗ owns (c : Thread nD τ) (st1_6 t) fullShare ((dat₀ c).after 6 t)
    ∗ owns (c : Thread nD τ) (st1_7 t) fullShare ((dat₀ c).after 7 t)
    ∗ owns (c : Thread nD τ) (st1_8 t) fullShare ((dat₀ c).after 8 t))

set_option maxHeartbeats 1000000 in
/-- The body at any point: the inputs' buffers hold their blocks, so the run above applies; the invariant and what
    the core owes pass through unread. -/
theorem sound_body (c : Dev nD) (t : Fin cfg1.N) :
    (bodyPre V B ι c t : sProp 𝕄) ⊢ wp frame (wpE (defs₀ (F := F)) Variants.none c none) Set.univ (bodyAt1 t) (fun _ => bodyPost V B ι c t) := by
  unfold bodyPre bodyPost bodyAt1
  simp only [before_0, before_1, before_2, before_3, before_4, before_5, before_6]
  rw [show (dat₀ c).Φ t.succ = (dat₀ c).Φ t.castSucc from rfl,
    show (dat₀ c).owesAt ι t.succ = (dat₀ c).owesAt ι t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk V c 0 t) (iblk V c 1 t) (iblk V c 2 t) (iblk V c 3 t) (iblk V c 4 t) (iblk V c 5 t) (iblk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's body obligation, at every point. -/
theorem body_obligation (c : Dev nD) :
    BodyObligation (dat₀ c) (defs₀ (F := F)) Variants.none ι Set.univ := fun t => by
  rw [bigSep_W1, bigSep_W1]
  exact sound_body V B ι c t

end Data

end Cert.EnvRegion

end
-- ==== Proof.MlpThread.lean ====
/-
  The values the embedding kernel's body computes between its loads and its one store, threaded: the printed body
  passes some hundreds of intermediate vectors from part to part, each a named payload of earlier ones. Here the
  same payloads are composed as plain functions, grouped by what they compute: for each of the two slot types the
  three layers over all columns of the row block, and for each layer the pairwise tree sum of its 128-column
  slices; then the stored vector. (Which payload feeds which is read off the skeleton; nothing is proved here.)
-/
import proofs.«205418_g46067819217304_cont_8to1_c_241_17_alg».proof.Proof.Gen.KernelIdeal.Skeleton

noncomputable section

namespace Cert.MlpRegion

open Idealize.ShloMosaic Cert.KernelIdeal Cert.KernelIdeal.Gen

variable {F : FTy → Type} [FloatOps F] [Named F]

/-- Slot type 0, first layer: the tree sum of the 46 column slices of v17 (the first slices come straight from the loads). -/
def sumT1a (x0 : Vec F S1x5888 .f32) (x2 : Vec F S25x1 .f32) (x3 : Vec F S25x1 .f32) (v17 : FVec F S25x5888 .f32) : FVec F S25x128 .f32 :=
  have v85 : FVec F S25x128 .f32 := k2_pay21 v17
  have v86 : FVec F S25x128 .f32 := k2_pay22 v17
  have v87 : FVec F S25x128 .f32 := k2_pay23 v17
  have v88 : FVec F S25x128 .f32 := k2_pay24 v17
  have v89 : FVec F S25x128 .f32 := k2_pay25 v17
  have v90 : FVec F S25x128 .f32 := k2_pay26 v17
  have v91 : FVec F S25x128 .f32 := k2_pay27 v17
  have v92 : FVec F S25x128 .f32 := k2_pay28 v17
  have v93 : FVec F S25x128 .f32 := k2_pay29 v17
  have v94 : FVec F S25x128 .f32 := k2_pay30 v17
  have v95 : FVec F S25x128 .f32 := k2_pay31 v17
  have v27 : FVec F S25x128 .f32 := k2_pay6 x0 x2 x3
  have v28 : FVec F S25x128 .f32 := k2_pay7 x0 x2 x3
  have v29 : FVec F S25x128 .f32 := k2_pay8 x0 x2 x3
  have v30 : FVec F S25x128 .f32 := k2_pay9 x0 x2 x3
  have v96 : FVec F S25x128 .f32 := k2_pay32 v27 v28 v29 v30
  have v31 : FVec F S25x128 .f32 := k2_pay10 x0 x2 x3
  have v32 : FVec F S25x128 .f32 := k2_pay11 x0 x2 x3
  have v33 : FVec F S25x128 .f32 := k2_pay12 x0 x2 x3
  have v34 : FVec F S25x128 .f32 := k2_pay13 x0 x2 x3
  have v97 : FVec F S25x128 .f32 := k2_pay33 v31 v32 v33 v34
  have v35 : FVec F S25x128 .f32 := k2_pay14 x0 x2 x3
  have v36 : FVec F S25x128 .f32 := k2_pay15 x0 x2 x3
  have v37 : FVec F S25x128 .f32 := k2_pay16 x0 x2 x3
  have v38 : FVec F S25x128 .f32 := k2_pay17 x0 x2 x3
  have v98 : FVec F S25x128 .f32 := k2_pay34 v35 v36 v37 v38
  have v39 : FVec F S25x128 .f32 := k2_pay18 x0 x2 x3
  have v40 : FVec F S25x128 .f32 := k2_pay19 x0 x2 x3
  have v41 : FVec F S25x128 .f32 := k2_pay20 x0 x2 x3
  have v99 : FVec F S25x128 .f32 := k2_pay35 v17 v39 v40 v41
  have v100 : FVec F S25x128 .f32 := k2_pay36 v17
  have v101 : FVec F S25x128 .f32 := k2_pay37 v17
  have v117 : FVec F S25x128 .f32 := k2_pay38 v85 v86 v87 v88 v89 v90 v91 v92 v93 v94 v95 v96 v97 v98 v99 v100 v101
  v117

/-- Slot type 0, second layer: the tree sum of the 46 column slices of v21. -/
def sumT2a (v21 : FVec F S50x5888 .f32) : FVec F S50x128 .f32 :=
  have v118 : FVec F S50x128 .f32 := k2_pay39 v21
  have v119 : FVec F S50x128 .f32 := k2_pay40 v21
  have v120 : FVec F S50x128 .f32 := k2_pay41 v21
  have v121 : FVec F S50x128 .f32 := k2_pay42 v21
  have v122 : FVec F S50x128 .f32 := k2_pay43 v21
  have v123 : FVec F S50x128 .f32 := k2_pay44 v21
  have v124 : FVec F S50x128 .f32 := k2_pay45 v21
  have v125 : FVec F S50x128 .f32 := k2_pay46 v21
  have v126 : FVec F S50x128 .f32 := k2_pay47 v21
  have v127 : FVec F S50x128 .f32 := k2_pay48 v21
  have v128 : FVec F S50x128 .f32 := k2_pay49 v21
  have v129 : FVec F S50x128 .f32 := k2_pay50 v21
  have v130 : FVec F S50x128 .f32 := k2_pay51 v21
  have v131 : FVec F S50x128 .f32 := k2_pay52 v21
  have v132 : FVec F S50x128 .f32 := k2_pay53 v21
  have v133 : FVec F S50x128 .f32 := k2_pay54 v21
  have v134 : FVec F S50x128 .f32 := k2_pay55 v21
  have v135 : FVec F S50x128 .f32 := k2_pay56 v21
  have v136 : FVec F S50x128 .f32 := k2_pay57 v21
  have v137 : FVec F S50x128 .f32 := k2_pay58 v21
  have v138 : FVec F S50x128 .f32 := k2_pay59 v21
  have v139 : FVec F S50x128 .f32 := k2_pay60 v21
  have v140 : FVec F S50x128 .f32 := k2_pay61 v21
  have v141 : FVec F S50x128 .f32 := k2_pay62 v21
  have v142 : FVec F S50x128 .f32 := k2_pay63 v21
  have v143 : FVec F S50x128 .f32 := k2_pay64 v21
  have v144 : FVec F S50x128 .f32 := k2_pay65 v21
  have v145 : FVec F S50x128 .f32 := k2_pay66 v21
  have v146 : FVec F S50x128 .f32 := k2_pay67 v21
  have v147 : FVec F S50x128 .f32 := k2_pay68 v21
  have v148 : FVec F S50x128 .f32 := k2_pay69 v21
  have v149 : FVec F S50x128 .f32 := k2_pay70 v21
  have v150 : FVec F S50x128 .f32 := k2_pay71 v21
  have v151 : FVec F S50x128 .f32 := k2_pay72 v21
  have v152 : FVec F S50x128 .f32 := k2_pay73 v21
  have v153 : FVec F S50x128 .f32 := k2_pay74 v21
  have v154 : FVec F S50x128 .f32 := k2_pay75 v21
  have v155 : FVec F S50x128 .f32 := k2_pay76 v21
  have v156 : FVec F S50x128 .f32 := k2_pay77 v21
  have v157 : FVec F S50x128 .f32 := k2_pay78 v21
  have v158 : FVec F S50x128 .f32 := k2_pay79 v21
  have v159 : FVec F S50x128 .f32 := k2_pay80 v21
  have v160 : FVec F S50x128 .f32 := k2_pay81 v21
  have v161 : FVec F S50x128 .f32 := k2_pay82 v21
  have v208 : FVec F S50x128 .f32 := k2_pay83 v21 v118 v119 v120 v121 v122 v123 v124 v125 v126 v127 v128 v129 v130 v131 v132 v133 v134 v135 v136 v137 v138 v139 v140 v141 v142 v143 v144 v145 v146 v147 v148 v149 v150 v151 v152 v153 v154 v155 v156 v157 v158 v159 v160 v161
  v208

/-- Slot type 0, third layer: the tree sum of the 46 column slices of v26. -/
def sumT3a (v26 : FVec F S100x5888 .f32) : FVec F S100x128 .f32 :=
  have v263 : FVec F S100x128 .f32 := k2_pay97 v26
  have v264 : FVec F S100x128 .f32 := k2_pay98 v26
  have v265 : FVec F S100x128 .f32 := k2_pay99 v26
  have v266 : FVec F S100x128 .f32 := k2_pay100 v26
  have v267 : FVec F S100x128 .f32 := k2_pay101 v26
  have v268 : FVec F S100x128 .f32 := k2_pay102 v26
  have v269 : FVec F S100x128 .f32 := k2_pay103 v26
  have v270 : FVec F S100x128 .f32 := k2_pay104 v26
  have v271 : FVec F S100x128 .f32 := k2_pay105 v26
  have v272 : FVec F S100x128 .f32 := k2_pay106 v26
  have v273 : FVec F S100x128 .f32 := k2_pay107 v26
  have v274 : FVec F S100x128 .f32 := k2_pay108 v26
  have v275 : FVec F S100x128 .f32 := k2_pay109 v26
  have v276 : FVec F S100x128 .f32 := k2_pay110 v26
  have v277 : FVec F S100x128 .f32 := k2_pay111 v26
  have v209 : FVec F S100x128 .f32 := k2_pay84 v26
  have v210 : FVec F S100x128 .f32 := k2_pay85 v26
  have v211 : FVec F S100x128 .f32 := k2_pay86 v26
  have v212 : FVec F S100x128 .f32 := k2_pay87 v26
  have v278 : FVec F S100x128 .f32 := k2_pay112 v209 v210 v211 v212
  have v213 : FVec F S100x128 .f32 := k2_pay88 v26
  have v214 : FVec F S100x128 .f32 := k2_pay89 v26
  have v215 : FVec F S100x128 .f32 := k2_pay90 v26
  have v216 : FVec F S100x128 .f32 := k2_pay91 v26
  have v279 : FVec F S100x128 .f32 := k2_pay113 v213 v214 v215 v216
  have v217 : FVec F S100x128 .f32 := k2_pay92 v26
  have v218 : FVec F S100x128 .f32 := k2_pay93 v26
  have v219 : FVec F S100x128 .f32 := k2_pay94 v26
  have v220 : FVec F S100x128 .f32 := k2_pay95 v26
  have v280 : FVec F S100x128 .f32 := k2_pay114 v217 v218 v219 v220
  have v221 : FVec F S100x128 .f32 := k2_pay96 v26
  have v281 : FVec F S100x128 .f32 := k2_pay115 v26 v221
  have v299 : FVec F S100x128 .f32 := k2_pay116 v263 v264 v265 v266 v267 v268 v269 v270 v271 v272 v273 v274 v275 v276 v277 v278 v279 v280 v281
  v299

/-- Slot type 1, first layer: the tree sum of the 92 column slices of v317. -/
def sumT1b (v317 : FVec F S25x11776 .f32) : FVec F S25x128 .f32 :=
  have v327 : FVec F S25x128 .f32 := k2_pay122 v317
  have v328 : FVec F S25x128 .f32 := k2_pay123 v317
  have v419 : FVec F S25x128 .f32 := k2_pay214 v327 v328
  have v329 : FVec F S25x128 .f32 := k2_pay124 v317
  have v330 : FVec F S25x128 .f32 := k2_pay125 v317
  have v420 : FVec F S25x128 .f32 := k2_pay215 v329 v330
  have v331 : FVec F S25x128 .f32 := k2_pay126 v317
  have v332 : FVec F S25x128 .f32 := k2_pay127 v317
  have v421 : FVec F S25x128 .f32 := k2_pay216 v331 v332
  have v333 : FVec F S25x128 .f32 := k2_pay128 v317
  have v334 : FVec F S25x128 .f32 := k2_pay129 v317
  have v422 : FVec F S25x128 .f32 := k2_pay217 v333 v334
  have v335 : FVec F S25x128 .f32 := k2_pay130 v317
  have v336 : FVec F S25x128 .f32 := k2_pay131 v317
  have v423 : FVec F S25x128 .f32 := k2_pay218 v335 v336
  have v337 : FVec F S25x128 .f32 := k2_pay132 v317
  have v338 : FVec F S25x128 .f32 := k2_pay133 v317
  have v424 : FVec F S25x128 .f32 := k2_pay219 v337 v338
  have v339 : FVec F S25x128 .f32 := k2_pay134 v317
  have v340 : FVec F S25x128 .f32 := k2_pay135 v317
  have v425 : FVec F S25x128 .f32 := k2_pay220 v339 v340
  have v341 : FVec F S25x128 .f32 := k2_pay136 v317
  have v342 : FVec F S25x128 .f32 := k2_pay137 v317
  have v426 : FVec F S25x128 .f32 := k2_pay221 v341 v342
  have v499 : FVec F S25x128 .f32 := k2_pay240 v419 v420 v421 v422 v423 v424 v425 v426
  have v343 : FVec F S25x128 .f32 := k2_pay138 v317
  have v344 : FVec F S25x128 .f32 := k2_pay139 v317
  have v427 : FVec F S25x128 .f32 := k2_pay222 v343 v344
  have v345 : FVec F S25x128 .f32 := k2_pay140 v317
  have v346 : FVec F S25x128 .f32 := k2_pay141 v317
  have v428 : FVec F S25x128 .f32 := k2_pay223 v345 v346
  have v347 : FVec F S25x128 .f32 := k2_pay142 v317
  have v348 : FVec F S25x128 .f32 := k2_pay143 v317
  have v429 : FVec F S25x128 .f32 := k2_pay224 v347 v348
  have v349 : FVec F S25x128 .f32 := k2_pay144 v317
  have v350 : FVec F S25x128 .f32 := k2_pay145 v317
  have v430 : FVec F S25x128 .f32 := k2_pay225 v349 v350
  have v351 : FVec F S25x128 .f32 := k2_pay146 v317
  have v352 : FVec F S25x128 .f32 := k2_pay147 v317
  have v431 : FVec F S25x128 .f32 := k2_pay226 v351 v352
  have v353 : FVec F S25x128 .f32 := k2_pay148 v317
  have v354 : FVec F S25x128 .f32 := k2_pay149 v317
  have v432 : FVec F S25x128 .f32 := k2_pay227 v353 v354
  have v355 : FVec F S25x128 .f32 := k2_pay150 v317
  have v356 : FVec F S25x128 .f32 := k2_pay151 v317
  have v433 : FVec F S25x128 .f32 := k2_pay228 v355 v356
  have v357 : FVec F S25x128 .f32 := k2_pay152 v317
  have v358 : FVec F S25x128 .f32 := k2_pay153 v317
  have v434 : FVec F S25x128 .f32 := k2_pay229 v357 v358
  have v500 : FVec F S25x128 .f32 := k2_pay241 v427 v428 v429 v430 v431 v432 v433 v434
  have v359 : FVec F S25x128 .f32 := k2_pay154 v317
  have v360 : FVec F S25x128 .f32 := k2_pay155 v317
  have v435 : FVec F S25x128 .f32 := k2_pay230 v359 v360
  have v361 : FVec F S25x128 .f32 := k2_pay156 v317
  have v362 : FVec F S25x128 .f32 := k2_pay157 v317
  have v436 : FVec F S25x128 .f32 := k2_pay231 v361 v362
  have v363 : FVec F S25x128 .f32 := k2_pay158 v317
  have v364 : FVec F S25x128 .f32 := k2_pay159 v317
  have v437 : FVec F S25x128 .f32 := k2_pay232 v363 v364
  have v365 : FVec F S25x128 .f32 := k2_pay160 v317
  have v366 : FVec F S25x128 .f32 := k2_pay161 v317
  have v438 : FVec F S25x128 .f32 := k2_pay233 v365 v366
  have v367 : FVec F S25x128 .f32 := k2_pay162 v317
  have v368 : FVec F S25x128 .f32 := k2_pay163 v317
  have v439 : FVec F S25x128 .f32 := k2_pay234 v367 v368
  have v369 : FVec F S25x128 .f32 := k2_pay164 v317
  have v370 : FVec F S25x128 .f32 := k2_pay165 v317
  have v440 : FVec F S25x128 .f32 := k2_pay235 v369 v370
  have v371 : FVec F S25x128 .f32 := k2_pay166 v317
  have v372 : FVec F S25x128 .f32 := k2_pay167 v317
  have v441 : FVec F S25x128 .f32 := k2_pay236 v371 v372
  have v373 : FVec F S25x128 .f32 := k2_pay168 v317
  have v374 : FVec F S25x128 .f32 := k2_pay169 v317
  have v442 : FVec F S25x128 .f32 := k2_pay237 v373 v374
  have v501 : FVec F S25x128 .f32 := k2_pay242 v435 v436 v437 v438 v439 v440 v441 v442
  have v379 : FVec F S25x128 .f32 := k2_pay174 v317
  have v380 : FVec F S25x128 .f32 := k2_pay175 v317
  have v381 : FVec F S25x128 .f32 := k2_pay176 v317
  have v382 : FVec F S25x128 .f32 := k2_pay177 v317
  have v383 : FVec F S25x128 .f32 := k2_pay178 v317
  have v384 : FVec F S25x128 .f32 := k2_pay179 v317
  have v385 : FVec F S25x128 .f32 := k2_pay180 v317
  have v386 : FVec F S25x128 .f32 := k2_pay181 v317
  have v387 : FVec F S25x128 .f32 := k2_pay182 v317
  have v388 : FVec F S25x128 .f32 := k2_pay183 v317
  have v389 : FVec F S25x128 .f32 := k2_pay184 v317
  have v390 : FVec F S25x128 .f32 := k2_pay185 v317
  have v375 : FVec F S25x128 .f32 := k2_pay170 v317
  have v376 : FVec F S25x128 .f32 := k2_pay171 v317
  have v443 : FVec F S25x128 .f32 := k2_pay238 v375 v376
  have v377 : FVec F S25x128 .f32 := k2_pay172 v317
  have v378 : FVec F S25x128 .f32 := k2_pay173 v317
  have v444 : FVec F S25x128 .f32 := k2_pay239 v377 v378
  have v502 : FVec F S25x128 .f32 := k2_pay243 v379 v380 v381 v382 v383 v384 v385 v386 v387 v388 v389 v390 v443 v444
  have v391 : FVec F S25x128 .f32 := k2_pay186 v317
  have v392 : FVec F S25x128 .f32 := k2_pay187 v317
  have v393 : FVec F S25x128 .f32 := k2_pay188 v317
  have v394 : FVec F S25x128 .f32 := k2_pay189 v317
  have v395 : FVec F S25x128 .f32 := k2_pay190 v317
  have v396 : FVec F S25x128 .f32 := k2_pay191 v317
  have v397 : FVec F S25x128 .f32 := k2_pay192 v317
  have v398 : FVec F S25x128 .f32 := k2_pay193 v317
  have v399 : FVec F S25x128 .f32 := k2_pay194 v317
  have v400 : FVec F S25x128 .f32 := k2_pay195 v317
  have v401 : FVec F S25x128 .f32 := k2_pay196 v317
  have v402 : FVec F S25x128 .f32 := k2_pay197 v317
  have v403 : FVec F S25x128 .f32 := k2_pay198 v317
  have v404 : FVec F S25x128 .f32 := k2_pay199 v317
  have v405 : FVec F S25x128 .f32 := k2_pay200 v317
  have v406 : FVec F S25x128 .f32 := k2_pay201 v317
  have v503 : FVec F S25x128 .f32 := k2_pay244 v391 v392 v393 v394 v395 v396 v397 v398 v399 v400 v401 v402 v403 v404 v405 v406
  have v407 : FVec F S25x128 .f32 := k2_pay202 v317
  have v408 : FVec F S25x128 .f32 := k2_pay203 v317
  have v409 : FVec F S25x128 .f32 := k2_pay204 v317
  have v410 : FVec F S25x128 .f32 := k2_pay205 v317
  have v411 : FVec F S25x128 .f32 := k2_pay206 v317
  have v412 : FVec F S25x128 .f32 := k2_pay207 v317
  have v413 : FVec F S25x128 .f32 := k2_pay208 v317
  have v414 : FVec F S25x128 .f32 := k2_pay209 v317
  have v415 : FVec F S25x128 .f32 := k2_pay210 v317
  have v416 : FVec F S25x128 .f32 := k2_pay211 v317
  have v417 : FVec F S25x128 .f32 := k2_pay212 v317
  have v418 : FVec F S25x128 .f32 := k2_pay213 v317
  have v504 : FVec F S25x128 .f32 := k2_pay245 v407 v408 v409 v410 v411 v412 v413 v414 v415 v416 v417 v418
  have v509 : FVec F S25x128 .f32 := k2_pay246 v499 v500 v501 v502 v503 v504
  v509

/-- Slot type 1, second layer: the tree sum of the 92 column slices of v321. -/
def sumT2b (v321 : FVec F S50x11776 .f32) : FVec F S50x128 .f32 :=
  have v598 : FVec F S50x128 .f32 := k2_pay335 v321
  have v599 : FVec F S50x128 .f32 := k2_pay336 v321
  have v600 : FVec F S50x128 .f32 := k2_pay337 v321
  have v601 : FVec F S50x128 .f32 := k2_pay338 v321
  have v670 : FVec F S50x128 .f32 := k2_pay362 v598 v599 v600 v601
  have v558 : FVec F S50x128 .f32 := k2_pay295 v321
  have v559 : FVec F S50x128 .f32 := k2_pay296 v321
  have v560 : FVec F S50x128 .f32 := k2_pay297 v321
  have v561 : FVec F S50x128 .f32 := k2_pay298 v321
  have v562 : FVec F S50x128 .f32 := k2_pay299 v321
  have v563 : FVec F S50x128 .f32 := k2_pay300 v321
  have v564 : FVec F S50x128 .f32 := k2_pay301 v321
  have v565 : FVec F S50x128 .f32 := k2_pay302 v321
  have v677 : FVec F S50x128 .f32 := k2_pay363 v558 v559 v560 v561 v562 v563 v564 v565
  have v566 : FVec F S50x128 .f32 := k2_pay303 v321
  have v567 : FVec F S50x128 .f32 := k2_pay304 v321
  have v568 : FVec F S50x128 .f32 := k2_pay305 v321
  have v569 : FVec F S50x128 .f32 := k2_pay306 v321
  have v570 : FVec F S50x128 .f32 := k2_pay307 v321
  have v571 : FVec F S50x128 .f32 := k2_pay308 v321
  have v572 : FVec F S50x128 .f32 := k2_pay309 v321
  have v573 : FVec F S50x128 .f32 := k2_pay310 v321
  have v678 : FVec F S50x128 .f32 := k2_pay364 v566 v567 v568 v569 v570 v571 v572 v573
  have v574 : FVec F S50x128 .f32 := k2_pay311 v321
  have v575 : FVec F S50x128 .f32 := k2_pay312 v321
  have v576 : FVec F S50x128 .f32 := k2_pay313 v321
  have v577 : FVec F S50x128 .f32 := k2_pay314 v321
  have v578 : FVec F S50x128 .f32 := k2_pay315 v321
  have v579 : FVec F S50x128 .f32 := k2_pay316 v321
  have v580 : FVec F S50x128 .f32 := k2_pay317 v321
  have v581 : FVec F S50x128 .f32 := k2_pay318 v321
  have v679 : FVec F S50x128 .f32 := k2_pay365 v574 v575 v576 v577 v578 v579 v580 v581
  have v582 : FVec F S50x128 .f32 := k2_pay319 v321
  have v583 : FVec F S50x128 .f32 := k2_pay320 v321
  have v584 : FVec F S50x128 .f32 := k2_pay321 v321
  have v585 : FVec F S50x128 .f32 := k2_pay322 v321
  have v586 : FVec F S50x128 .f32 := k2_pay323 v321
  have v587 : FVec F S50x128 .f32 := k2_pay324 v321
  have v588 : FVec F S50x128 .f32 := k2_pay325 v321
  have v589 : FVec F S50x128 .f32 := k2_pay326 v321
  have v680 : FVec F S50x128 .f32 := k2_pay366 v582 v583 v584 v585 v586 v587 v588 v589
  have v590 : FVec F S50x128 .f32 := k2_pay327 v321
  have v591 : FVec F S50x128 .f32 := k2_pay328 v321
  have v592 : FVec F S50x128 .f32 := k2_pay329 v321
  have v593 : FVec F S50x128 .f32 := k2_pay330 v321
  have v594 : FVec F S50x128 .f32 := k2_pay331 v321
  have v595 : FVec F S50x128 .f32 := k2_pay332 v321
  have v596 : FVec F S50x128 .f32 := k2_pay333 v321
  have v597 : FVec F S50x128 .f32 := k2_pay334 v321
  have v681 : FVec F S50x128 .f32 := k2_pay367 v590 v591 v592 v593 v594 v595 v596 v597
  have v510 : FVec F S50x128 .f32 := k2_pay247 v321
  have v511 : FVec F S50x128 .f32 := k2_pay248 v321
  have v602 : FVec F S50x128 .f32 := k2_pay339 v510 v511
  have v512 : FVec F S50x128 .f32 := k2_pay249 v321
  have v513 : FVec F S50x128 .f32 := k2_pay250 v321
  have v603 : FVec F S50x128 .f32 := k2_pay340 v512 v513
  have v514 : FVec F S50x128 .f32 := k2_pay251 v321
  have v515 : FVec F S50x128 .f32 := k2_pay252 v321
  have v604 : FVec F S50x128 .f32 := k2_pay341 v514 v515
  have v516 : FVec F S50x128 .f32 := k2_pay253 v321
  have v517 : FVec F S50x128 .f32 := k2_pay254 v321
  have v605 : FVec F S50x128 .f32 := k2_pay342 v516 v517
  have v518 : FVec F S50x128 .f32 := k2_pay255 v321
  have v519 : FVec F S50x128 .f32 := k2_pay256 v321
  have v606 : FVec F S50x128 .f32 := k2_pay343 v518 v519
  have v520 : FVec F S50x128 .f32 := k2_pay257 v321
  have v521 : FVec F S50x128 .f32 := k2_pay258 v321
  have v607 : FVec F S50x128 .f32 := k2_pay344 v520 v521
  have v522 : FVec F S50x128 .f32 := k2_pay259 v321
  have v523 : FVec F S50x128 .f32 := k2_pay260 v321
  have v608 : FVec F S50x128 .f32 := k2_pay345 v522 v523
  have v524 : FVec F S50x128 .f32 := k2_pay261 v321
  have v525 : FVec F S50x128 .f32 := k2_pay262 v321
  have v609 : FVec F S50x128 .f32 := k2_pay346 v524 v525
  have v682 : FVec F S50x128 .f32 := k2_pay368 v602 v603 v604 v605 v606 v607 v608 v609
  have v526 : FVec F S50x128 .f32 := k2_pay263 v321
  have v527 : FVec F S50x128 .f32 := k2_pay264 v321
  have v610 : FVec F S50x128 .f32 := k2_pay347 v526 v527
  have v528 : FVec F S50x128 .f32 := k2_pay265 v321
  have v529 : FVec F S50x128 .f32 := k2_pay266 v321
  have v611 : FVec F S50x128 .f32 := k2_pay348 v528 v529
  have v530 : FVec F S50x128 .f32 := k2_pay267 v321
  have v531 : FVec F S50x128 .f32 := k2_pay268 v321
  have v612 : FVec F S50x128 .f32 := k2_pay349 v530 v531
  have v532 : FVec F S50x128 .f32 := k2_pay269 v321
  have v533 : FVec F S50x128 .f32 := k2_pay270 v321
  have v613 : FVec F S50x128 .f32 := k2_pay350 v532 v533
  have v534 : FVec F S50x128 .f32 := k2_pay271 v321
  have v535 : FVec F S50x128 .f32 := k2_pay272 v321
  have v614 : FVec F S50x128 .f32 := k2_pay351 v534 v535
  have v536 : FVec F S50x128 .f32 := k2_pay273 v321
  have v537 : FVec F S50x128 .f32 := k2_pay274 v321
  have v615 : FVec F S50x128 .f32 := k2_pay352 v536 v537
  have v538 : FVec F S50x128 .f32 := k2_pay275 v321
  have v539 : FVec F S50x128 .f32 := k2_pay276 v321
  have v616 : FVec F S50x128 .f32 := k2_pay353 v538 v539
  have v540 : FVec F S50x128 .f32 := k2_pay277 v321
  have v541 : FVec F S50x128 .f32 := k2_pay278 v321
  have v617 : FVec F S50x128 .f32 := k2_pay354 v540 v541
  have v683 : FVec F S50x128 .f32 := k2_pay369 v610 v611 v612 v613 v614 v615 v616 v617
  have v556 : FVec F S50x128 .f32 := k2_pay293 v321
  have v557 : FVec F S50x128 .f32 := k2_pay294 v321
  have v542 : FVec F S50x128 .f32 := k2_pay279 v321
  have v543 : FVec F S50x128 .f32 := k2_pay280 v321
  have v618 : FVec F S50x128 .f32 := k2_pay355 v542 v543
  have v544 : FVec F S50x128 .f32 := k2_pay281 v321
  have v545 : FVec F S50x128 .f32 := k2_pay282 v321
  have v619 : FVec F S50x128 .f32 := k2_pay356 v544 v545
  have v546 : FVec F S50x128 .f32 := k2_pay283 v321
  have v547 : FVec F S50x128 .f32 := k2_pay284 v321
  have v620 : FVec F S50x128 .f32 := k2_pay357 v546 v547
  have v548 : FVec F S50x128 .f32 := k2_pay285 v321
  have v549 : FVec F S50x128 .f32 := k2_pay286 v321
  have v621 : FVec F S50x128 .f32 := k2_pay358 v548 v549
  have v550 : FVec F S50x128 .f32 := k2_pay287 v321
  have v551 : FVec F S50x128 .f32 := k2_pay288 v321
  have v622 : FVec F S50x128 .f32 := k2_pay359 v550 v551
  have v552 : FVec F S50x128 .f32 := k2_pay289 v321
  have v553 : FVec F S50x128 .f32 := k2_pay290 v321
  have v623 : FVec F S50x128 .f32 := k2_pay360 v552 v553
  have v554 : FVec F S50x128 .f32 := k2_pay291 v321
  have v555 : FVec F S50x128 .f32 := k2_pay292 v321
  have v624 : FVec F S50x128 .f32 := k2_pay361 v554 v555
  have v684 : FVec F S50x128 .f32 := k2_pay370 v556 v557 v618 v619 v620 v621 v622 v623 v624
  have v692 : FVec F S50x128 .f32 := k2_pay371 v670 v677 v678 v679 v680 v681 v682 v683 v684
  v692

/-- Slot type 1, third layer: the partial tree sum v853 of column slices of v326 (the last five partial sums are joined in the stored payload). -/
def sumT3b_v853 (v326 : FVec F S100x11776 .f32) : FVec F S100x128 .f32 :=
  have v781 : FVec F S100x128 .f32 := k2_pay460 v326
  have v782 : FVec F S100x128 .f32 := k2_pay461 v326
  have v783 : FVec F S100x128 .f32 := k2_pay462 v326
  have v784 : FVec F S100x128 .f32 := k2_pay463 v326
  have v853 : FVec F S100x128 .f32 := k2_pay484 v781 v782 v783 v784
  v853

/-- Slot type 1, third layer: the partial tree sum v862 of column slices of v326 (the last five partial sums are joined in the stored payload). -/
def sumT3b_v862 (v326 : FVec F S100x11776 .f32) : FVec F S100x128 .f32 :=
  have v757 : FVec F S100x128 .f32 := k2_pay436 v326
  have v758 : FVec F S100x128 .f32 := k2_pay437 v326
  have v759 : FVec F S100x128 .f32 := k2_pay438 v326
  have v760 : FVec F S100x128 .f32 := k2_pay439 v326
  have v761 : FVec F S100x128 .f32 := k2_pay440 v326
  have v762 : FVec F S100x128 .f32 := k2_pay441 v326
  have v763 : FVec F S100x128 .f32 := k2_pay442 v326
  have v764 : FVec F S100x128 .f32 := k2_pay443 v326
  have v862 : FVec F S100x128 .f32 := k2_pay493 v757 v758 v759 v760 v761 v762 v763 v764
  v862

/-- Slot type 1, third layer: the partial tree sum v863 of column slices of v326 (the last five partial sums are joined in the stored payload). -/
def sumT3b_v863 (v326 : FVec F S100x11776 .f32) : FVec F S100x128 .f32 :=
  have v765 : FVec F S100x128 .f32 := k2_pay444 v326
  have v766 : FVec F S100x128 .f32 := k2_pay445 v326
  have v767 : FVec F S100x128 .f32 := k2_pay446 v326
  have v768 : FVec F S100x128 .f32 := k2_pay447 v326
  have v769 : FVec F S100x128 .f32 := k2_pay448 v326
  have v770 : FVec F S100x128 .f32 := k2_pay449 v326
  have v771 : FVec F S100x128 .f32 := k2_pay450 v326
  have v772 : FVec F S100x128 .f32 := k2_pay451 v326
  have v863 : FVec F S100x128 .f32 := k2_pay494 v765 v766 v767 v768 v769 v770 v771 v772
  v863

/-- Slot type 1, third layer: the partial tree sum v864 of column slices of v326 (the last five partial sums are joined in the stored payload). -/
def sumT3b_v864 (v326 : FVec F S100x11776 .f32) : FVec F S100x128 .f32 :=
  have v773 : FVec F S100x128 .f32 := k2_pay452 v326
  have v774 : FVec F S100x128 .f32 := k2_pay453 v326
  have v775 : FVec F S100x128 .f32 := k2_pay454 v326
  have v776 : FVec F S100x128 .f32 := k2_pay455 v326
  have v777 : FVec F S100x128 .f32 := k2_pay456 v326
  have v778 : FVec F S100x128 .f32 := k2_pay457 v326
  have v779 : FVec F S100x128 .f32 := k2_pay458 v326
  have v780 : FVec F S100x128 .f32 := k2_pay459 v326
  have v864 : FVec F S100x128 .f32 := k2_pay495 v773 v774 v775 v776 v777 v778 v779 v780
  v864

/-- Slot type 1, third layer: the partial tree sum v874 of column slices of v326 (the last five partial sums are joined in the stored payload). -/
def sumT3b_v874 (v326 : FVec F S100x11776 .f32) : FVec F S100x128 .f32 :=
  have v693 : FVec F S100x128 .f32 := k2_pay372 v326
  have v694 : FVec F S100x128 .f32 := k2_pay373 v326
  have v785 : FVec F S100x128 .f32 := k2_pay464 v693 v694
  have v695 : FVec F S100x128 .f32 := k2_pay374 v326
  have v696 : FVec F S100x128 .f32 := k2_pay375 v326
  have v786 : FVec F S100x128 .f32 := k2_pay465 v695 v696
  have v697 : FVec F S100x128 .f32 := k2_pay376 v326
  have v698 : FVec F S100x128 .f32 := k2_pay377 v326
  have v787 : FVec F S100x128 .f32 := k2_pay466 v697 v698
  have v699 : FVec F S100x128 .f32 := k2_pay378 v326
  have v700 : FVec F S100x128 .f32 := k2_pay379 v326
  have v788 : FVec F S100x128 .f32 := k2_pay467 v699 v700
  have v854 : FVec F S100x128 .f32 := k2_pay485 v785 v786 v787 v788
  have v701 : FVec F S100x128 .f32 := k2_pay380 v326
  have v702 : FVec F S100x128 .f32 := k2_pay381 v326
  have v789 : FVec F S100x128 .f32 := k2_pay468 v701 v702
  have v703 : FVec F S100x128 .f32 := k2_pay382 v326
  have v704 : FVec F S100x128 .f32 := k2_pay383 v326
  have v790 : FVec F S100x128 .f32 := k2_pay469 v703 v704
  have v705 : FVec F S100x128 .f32 := k2_pay384 v326
  have v706 : FVec F S100x128 .f32 := k2_pay385 v326
  have v791 : FVec F S100x128 .f32 := k2_pay470 v705 v706
  have v707 : FVec F S100x128 .f32 := k2_pay386 v326
  have v708 : FVec F S100x128 .f32 := k2_pay387 v326
  have v792 : FVec F S100x128 .f32 := k2_pay471 v707 v708
  have v855 : FVec F S100x128 .f32 := k2_pay486 v789 v790 v791 v792
  have v709 : FVec F S100x128 .f32 := k2_pay388 v326
  have v710 : FVec F S100x128 .f32 := k2_pay389 v326
  have v793 : FVec F S100x128 .f32 := k2_pay472 v709 v710
  have v711 : FVec F S100x128 .f32 := k2_pay390 v326
  have v712 : FVec F S100x128 .f32 := k2_pay391 v326
  have v794 : FVec F S100x128 .f32 := k2_pay473 v711 v712
  have v713 : FVec F S100x128 .f32 := k2_pay392 v326
  have v714 : FVec F S100x128 .f32 := k2_pay393 v326
  have v795 : FVec F S100x128 .f32 := k2_pay474 v713 v714
  have v715 : FVec F S100x128 .f32 := k2_pay394 v326
  have v716 : FVec F S100x128 .f32 := k2_pay395 v326
  have v796 : FVec F S100x128 .f32 := k2_pay475 v715 v716
  have v856 : FVec F S100x128 .f32 := k2_pay487 v793 v794 v795 v796
  have v717 : FVec F S100x128 .f32 := k2_pay396 v326
  have v718 : FVec F S100x128 .f32 := k2_pay397 v326
  have v797 : FVec F S100x128 .f32 := k2_pay476 v717 v718
  have v719 : FVec F S100x128 .f32 := k2_pay398 v326
  have v720 : FVec F S100x128 .f32 := k2_pay399 v326
  have v798 : FVec F S100x128 .f32 := k2_pay477 v719 v720
  have v721 : FVec F S100x128 .f32 := k2_pay400 v326
  have v722 : FVec F S100x128 .f32 := k2_pay401 v326
  have v799 : FVec F S100x128 .f32 := k2_pay478 v721 v722
  have v723 : FVec F S100x128 .f32 := k2_pay402 v326
  have v724 : FVec F S100x128 .f32 := k2_pay403 v326
  have v800 : FVec F S100x128 .f32 := k2_pay479 v723 v724
  have v857 : FVec F S100x128 .f32 := k2_pay488 v797 v798 v799 v800
  have v725 : FVec F S100x128 .f32 := k2_pay404 v326
  have v726 : FVec F S100x128 .f32 := k2_pay405 v326
  have v801 : FVec F S100x128 .f32 := k2_pay480 v725 v726
  have v727 : FVec F S100x128 .f32 := k2_pay406 v326
  have v728 : FVec F S100x128 .f32 := k2_pay407 v326
  have v802 : FVec F S100x128 .f32 := k2_pay481 v727 v728
  have v729 : FVec F S100x128 .f32 := k2_pay408 v326
  have v730 : FVec F S100x128 .f32 := k2_pay409 v326
  have v803 : FVec F S100x128 .f32 := k2_pay482 v729 v730
  have v731 : FVec F S100x128 .f32 := k2_pay410 v326
  have v732 : FVec F S100x128 .f32 := k2_pay411 v326
  have v804 : FVec F S100x128 .f32 := k2_pay483 v731 v732
  have v858 : FVec F S100x128 .f32 := k2_pay489 v801 v802 v803 v804
  have v733 : FVec F S100x128 .f32 := k2_pay412 v326
  have v734 : FVec F S100x128 .f32 := k2_pay413 v326
  have v735 : FVec F S100x128 .f32 := k2_pay414 v326
  have v736 : FVec F S100x128 .f32 := k2_pay415 v326
  have v737 : FVec F S100x128 .f32 := k2_pay416 v326
  have v738 : FVec F S100x128 .f32 := k2_pay417 v326
  have v739 : FVec F S100x128 .f32 := k2_pay418 v326
  have v740 : FVec F S100x128 .f32 := k2_pay419 v326
  have v859 : FVec F S100x128 .f32 := k2_pay490 v733 v734 v735 v736 v737 v738 v739 v740
  have v741 : FVec F S100x128 .f32 := k2_pay420 v326
  have v742 : FVec F S100x128 .f32 := k2_pay421 v326
  have v743 : FVec F S100x128 .f32 := k2_pay422 v326
  have v744 : FVec F S100x128 .f32 := k2_pay423 v326
  have v745 : FVec F S100x128 .f32 := k2_pay424 v326
  have v746 : FVec F S100x128 .f32 := k2_pay425 v326
  have v747 : FVec F S100x128 .f32 := k2_pay426 v326
  have v748 : FVec F S100x128 .f32 := k2_pay427 v326
  have v860 : FVec F S100x128 .f32 := k2_pay491 v741 v742 v743 v744 v745 v746 v747 v748
  have v749 : FVec F S100x128 .f32 := k2_pay428 v326
  have v750 : FVec F S100x128 .f32 := k2_pay429 v326
  have v751 : FVec F S100x128 .f32 := k2_pay430 v326
  have v752 : FVec F S100x128 .f32 := k2_pay431 v326
  have v753 : FVec F S100x128 .f32 := k2_pay432 v326
  have v754 : FVec F S100x128 .f32 := k2_pay433 v326
  have v755 : FVec F S100x128 .f32 := k2_pay434 v326
  have v756 : FVec F S100x128 .f32 := k2_pay435 v326
  have v861 : FVec F S100x128 .f32 := k2_pay492 v749 v750 v751 v752 v753 v754 v755 v756
  have v874 : FVec F S100x128 .f32 := k2_pay1 v854 v855 v856 v857 v858 v859 v860 v861
  v874

/-- Slot type 1's third layer over all columns. -/
def layer3b (x1 : Vec F S1x11776 .f32) (x8 : Vec F S25x1 .f32) (x9 : Vec F S25x1 .f32) (x10 : Vec F S50x25 .f32) (x11 : Vec F S50x1 .f32) (x12 : Vec F S100x75 .f32) (x13 : Vec F S100x1 .f32) : FVec F S100x11776 .f32 :=
  have v323 : FVec F S100x11776 .f32 := k2_pay119 x1 x8 x9 x10 x11 x12
  have v324 : FVec F S100x11776 .f32 := k2_pay120 x13
  have v326 : FVec F S100x11776 .f32 := k2_pay121 v323 v324
  v326

/-- The vector the body stores, from the fourteen loaded blocks. -/
def bodyOut (x0 : Vec F S1x5888 .f32) (x1 : Vec F S1x11776 .f32) (x2 : Vec F S25x1 .f32) (x3 : Vec F S25x1 .f32) (x4 : Vec F S50x25 .f32) (x5 : Vec F S50x1 .f32) (x6 : Vec F S100x75 .f32) (x7 : Vec F S100x1 .f32) (x8 : Vec F S25x1 .f32) (x9 : Vec F S25x1 .f32) (x10 : Vec F S50x25 .f32) (x11 : Vec F S50x1 .f32) (x12 : Vec F S100x75 .f32) (x13 : Vec F S100x1 .f32) : FVec F S100x128 .f32 :=
  have v17 : FVec F S25x5888 .f32 := k2_pay3 x0 x2 x3
  have v21 : FVec F S50x5888 .f32 := k2_pay4 x0 x2 x3 x4 x5
  have v26 : FVec F S100x5888 .f32 := k2_pay5 x0 x2 x3 x4 x5 x6 x7
  have v317 : FVec F S25x11776 .f32 := k2_pay117 x1 x8 x9
  have v321 : FVec F S50x11776 .f32 := k2_pay118 x1 x8 x9 x10 x11
  have v326 : FVec F S100x11776 .f32 := layer3b x1 x8 x9 x10 x11 x12 x13
  k2_pay2 (sumT1a x0 x2 x3 v17) (sumT2a v21) (sumT3a v26) (sumT1b v317) (sumT2b v321) (sumT3b_v853 v326) (sumT3b_v862 v326) (sumT3b_v863 v326) (sumT3b_v864 v326) (sumT3b_v874 v326)

end Cert.MlpRegion

end
-- ==== Proof.MlpRegion.lean ====
import proofs.«205418_g46067819217304_cont_8to1_c_241_17_alg».proof.Proof.MlpThread
import proofs.«205418_g46067819217304_cont_8to1_c_241_17_alg».proof.Proof.Gen.KernelIdeal.Launch
import proofs.«205418_g46067819217304_cont_8to1_c_241_17_alg».proof.Proof.Gen.KernelIdeal.Points
import Idealize.ShloMosaic.Lib.Pipeline.FrameBody
import Idealize.ShloMosaic.Lib.Pipeline.Regions
import Idealize.ShloMosaic.Lib.Pipeline.Kit
import Idealize.ShloMosaic.Lib.Ring
import Idealize.ShloMosaic.Lib.Tactic

/-!
# The embedding kernel as a pipeline region

The second TensorCore kernel walks 64 grid points. At point t it is handed a row block of 46 × 128 environment
entries of slot type 0 and one of 92 × 128 entries of slot type 1 (the 128 atoms of the point, slot by slot), and
the twelve weight blocks, which are whole arrays and the same at every point. It stores one 100 × 128 block: for each
of the 128 atoms the 100 features summed over all 138 slots, scaled. Nothing is carried from point to point, so what
the body leaves in the output buffer is one function of the fourteen blocks it was handed, and an input buffer holds
its block whether or not the pipeline fetched it at that point. This module states that as the pipeline's proof data
and proves the body's obligation at a symbolic point, once, for any float instance and any ghost state.
-/

set_option maxRecDepth 16384

noncomputable section

namespace Cert.MlpRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]
variable {Ix : Type} [DecidableEq Ix] {Name : Type} [DecidableEq Name] {U : Type} [URA U] {Lvl : Type}

local notation "𝕄" => MT nD τ sig Ix (Elt F) Name U Lvl

-- the TensorCore's buffer contents when the region is entered, and the bound on the wait pairs recorded so far
variable (V : (c : Dev nD) → (b : Ref sig .tc) → Buf (Elt F) ((c : Thread nD τ).loc b)) (B : Set (SemLoc sig × Ix))

/-- The region's invariant on core c: the scoped buffers no window of this pipeline stages, at some contents each, and
    the generator register at some state. The body uses neither. -/
def Φmlp (c : Dev nD) : sProp 𝕄 :=
  iprop(Pipeline.scopedRest (Ix := Ix) (Name := Name) (U := U) (Lvl := Lvl) (Val := Elt F) spec2 c ∗ ∃ r, prngReg c r)

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof
    data whose array is the entry contents and whose body leaves the block in place: a window that is not fetched at a
    point has not moved its block index since the last fetch. One statement per input window. -/
theorem before2_0_of {c : Dev nD} (dat : Dat τ (Elt F) Ix Name U Lvl cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Ix Name U Lvl cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Ix Name U Lvl cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Ix Name U Lvl cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Ix Name U Lvl cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Ix Name U Lvl cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Ix Name U Lvl cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Ix Name U Lvl cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Ix Name U Lvl cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_9_of {c : Dev nD} (dat : Dat τ (Elt F) Ix Name U Lvl cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
theorem before2_10_of {c : Dev nD} (dat : Dat τ (Elt F) Ix Name U Lvl cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)
theorem before2_11_of {c : Dev nD} (dat : Dat τ (Elt F) Ix Name U Lvl cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)
theorem before2_12_of {c : Dev nD} (dat : Dat τ (Elt F) Ix Name U Lvl cfg2 c) (hA : dat.A 12 = V c (Pipeline.arrRef spec2 12))
    (hafter : ∀ t, dat.after 12 t = iblk2 V c 12 t) (t : Fin cfg2.N) (d) : dat.before 12 t d = iblk2 V c 12 t :=
  (dat.before_in_eq_fetched 12 rfl (fun _ => rfl) (fun _ _ _ => rfl) (fun t => by rw [hafter]; unfold Dat.blockOf iblk2; rw [hA]; try rfl) t d).trans
    (by unfold Dat.fetched Dat.blockOf iblk2; rw [hA]; try rfl)
theorem before2_13_of {c : Dev nD} (dat : Dat τ (Elt F) Ix Name U Lvl cfg2 c) (hA : dat.A 13 = V c (Pipeline.arrRef spec2 13))
    (hafter : ∀ t, dat.after 13 t = iblk2 V c 13 t) (t : Fin cfg2.N) (d) : dat.before 13 t d = iblk2 V c 13 t :=
  (dat.before_in_eq_fetched 13 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store take the whole buffer -/

abbrev rw_S1x5888 : Rect S1x5888 := Rect.unit (s := S1x5888) ![0, 0] S1x5888.size inb_S1x5888_S1x5888_0_0
abbrev rw_S1x11776 : Rect S1x11776 := Rect.unit (s := S1x11776) ![0, 0] S1x11776.size inb_S1x11776_S1x11776_0_0
abbrev rw_S25x1 : Rect S25x1 := Rect.unit (s := S25x1) ![0, 0] S25x1.size inb_S25x1_S25x1_0_0
abbrev rw_S50x25 : Rect S50x25 := Rect.unit (s := S50x25) ![0, 0] S50x25.size inb_S50x25_S50x25_0_0
abbrev rw_S50x1 : Rect S50x1 := Rect.unit (s := S50x1) ![0, 0] S50x1.size inb_S50x1_S50x1_0_0
abbrev rw_S100x75 : Rect S100x75 := Rect.unit (s := S100x75) ![0, 0] S100x75.size inb_S100x75_S100x75_0_0
abbrev rw_S100x1 : Rect S100x1 := Rect.unit (s := S100x1) ![0, 0] S100x1.size inb_S100x1_S100x1_0_0
abbrev rw_S100x128 : Rect S100x128 := Rect.unit (s := S100x128) ![0, 0] S100x128.size inb_S100x128_S100x128_0_0

/-! ## What the body leaves in the output window's buffer -/

/-- The output buffer after the body, from the fourteen input blocks: the one store's payload laid over the buffer. -/
def out2_14 (x0 : Vec F S1x5888 .f32) (x1 : Vec F S1x11776 .f32) (x2 : Vec F S25x1 .f32) (x3 : Vec F S25x1 .f32) (x4 : Vec F S50x25 .f32) (x5 : Vec F S50x1 .f32) (x6 : Vec F S100x75 .f32) (x7 : Vec F S100x1 .f32) (x8 : Vec F S25x1 .f32) (x9 : Vec F S25x1 .f32) (x10 : Vec F S50x25 .f32) (x11 : Vec F S50x1 .f32) (x12 : Vec F S100x75 .f32) (x13 : Vec F S100x1 .f32) : Vec F S100x128 .f32 :=
  View.canon [⟨rw_S100x128, bodyOut (View.ld x0 rw_S1x5888) (View.ld x1 rw_S1x11776) (View.ld x2 rw_S25x1) (View.ld x3 rw_S25x1) (View.ld x4 rw_S50x25) (View.ld x5 rw_S50x1) (View.ld x6 rw_S100x75) (View.ld x7 rw_S100x1) (View.ld x8 rw_S25x1) (View.ld x9 rw_S25x1) (View.ld x10 rw_S50x25) (View.ld x11 rw_S50x1) (View.ld x12 rw_S100x75) (View.ld x13 rw_S100x1)⟩]

/-- The store covers the buffer. -/
theorem cover2_14 (p0 : Vec F S100x128 .f32) (y : S100x128.Idx) :
    ∃ pc ∈ ([⟨rw_S100x128, p0⟩] : List (View.Piece (Elt F) S100x128 .f32)), y ∈ pc.1.set :=
  View.cover_of_tiled [⟨rw_S100x128, p0⟩] S100x128.size (by rfl) y

/-! ## The body's triple -/

variable [Preorder Lvl]

set_option maxHeartbeats 4000000 in
/-- The body on whole staging memrefs, the inputs' at read contents x0 … x13 and the output's at anything, runs to the
    continuation holding the inputs' as they were and the output's at the stored function of them. -/
theorem sound_kernel2 (c : Dev nD) (E : Set Name) (i : grid2.Coords) (arg1 : Memref sig .tc .vmem S1x5888 .f32) (harg1 : arg1.IsWhole) (arg2 : Memref sig .tc .vmem S1x11776 .f32) (harg2 : arg2.IsWhole) (arg3 : Memref sig .tc .vmem S25x1 .f32) (harg3 : arg3.IsWhole) (arg4 : Memref sig .tc .vmem S25x1 .f32) (harg4 : arg4.IsWhole) (arg5 : Memref sig .tc .vmem S50x25 .f32) (harg5 : arg5.IsWhole) (arg6 : Memref sig .tc .vmem S50x1 .f32) (harg6 : arg6.IsWhole) (arg7 : Memref sig .tc .vmem S100x75 .f32) (harg7 : arg7.IsWhole) (arg8 : Memref sig .tc .vmem S100x1 .f32) (harg8 : arg8.IsWhole) (arg9 : Memref sig .tc .vmem S25x1 .f32) (harg9 : arg9.IsWhole) (arg10 : Memref sig .tc .vmem S25x1 .f32) (harg10 : arg10.IsWhole) (arg11 : Memref sig .tc .vmem S50x25 .f32) (harg11 : arg11.IsWhole) (arg12 : Memref sig .tc .vmem S50x1 .f32) (harg12 : arg12.IsWhole) (arg13 : Memref sig .tc .vmem S100x75 .f32) (harg13 : arg13.IsWhole) (arg14 : Memref sig .tc .vmem S100x1 .f32) (harg14 : arg14.IsWhole) (arg15 : Memref sig .tc .vmem S100x128 .f32) (harg15 : arg15.IsWhole)
    (x0 : Vec F S1x5888 .f32) (x1 : Vec F S1x11776 .f32) (x2 : Vec F S25x1 .f32) (x3 : Vec F S25x1 .f32) (x4 : Vec F S50x25 .f32) (x5 : Vec F S50x1 .f32) (x6 : Vec F S100x75 .f32) (x7 : Vec F S100x1 .f32) (x8 : Vec F S25x1 .f32) (x9 : Vec F S25x1 .f32) (x10 : Vec F S50x25 .f32) (x11 : Vec F S50x1 .f32) (x12 : Vec F S100x75 .f32) (x13 : Vec F S100x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (out2_14 x0 x1 x2 x3 x4 x5 x6 x7 x8 x9 x10 x11 x12 x13)) -∗ K ⟨⟩))
      ⊢ wp frame (wpE (defs₀ (F := F)) Variants.none c none) E (cc2__mlp_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc2__mlp_body_eq_skeleton]; unfold cc2__mlp_body_skel
  simp only [k2_part1_eq_skeleton, k2_part2_eq_skeleton, k2_part3_eq_skeleton, k2_part4_eq_skeleton, k2_part5_eq_skeleton,
    k2_part6_eq_skeleton, k2_part7_eq_skeleton, k2_part8_eq_skeleton, k2_part9_eq_skeleton, k2_part10_eq_skeleton,
    k2_part11_eq_skeleton, k2_part12_eq_skeleton, k2_part13_eq_skeleton, k2_part14_eq_skeleton, k2_part15_eq_skeleton]
  unfold k2_part1_skel k2_part2_skel k2_part3_skel k2_part4_skel k2_part5_skel k2_part6_skel k2_part7_skel k2_part8_skel
    k2_part9_skel k2_part10_skel k2_part11_skel k2_part12_skel k2_part13_skel k2_part14_skel k2_part15_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  try dsimp only
  exact View.read_writes_eq_canon _ _ _ (cover2_14 _)

/-! ## The pipeline's proof data -/

/-- The proof data of the embedding pipeline on core c: the arrays as the region finds them; after the body at point t
    each input's buffer at its block and the output's at the stored function of the input blocks; the invariant only the
    scoped buffers no window stages and the generator register, untouched; nothing owed; full shares; the recorded wait
    pairs within B throughout (the body waits for nothing). -/
def dat1 (c : Dev nD) : Dat τ (Elt F) Ix Name U Lvl cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => out2_14 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t)
  Φ _ := Φmlp c
  q _ := fullShare
  owed _ := 0
  recorded _ := B

/-- The proof data's arrays are the region-entry contents. -/
theorem A_eq2 (c : Dev nD) (w : Fin cfg2.W) : (dat1 (Name := Name) (U := U) (Lvl := Lvl) V B c).A w = V c (Pipeline.arrRef spec2 w) := by
  dsimp only [dat1]

/-- What the body leaves, window by window. -/
theorem after2_0 (c : Dev nD) (t : Fin cfg2.N) : (dat1 (Name := Name) (U := U) (Lvl := Lvl) V B c).after 0 t = iblk2 V c 0 t := by dsimp only [dat1]
theorem after2_1 (c : Dev nD) (t : Fin cfg2.N) : (dat1 (Name := Name) (U := U) (Lvl := Lvl) V B c).after 1 t = iblk2 V c 1 t := by dsimp only [dat1]
theorem after2_2 (c : Dev nD) (t : Fin cfg2.N) : (dat1 (Name := Name) (U := U) (Lvl := Lvl) V B c).after 2 t = iblk2 V c 2 t := by dsimp only [dat1]
theorem after2_3 (c : Dev nD) (t : Fin cfg2.N) : (dat1 (Name := Name) (U := U) (Lvl := Lvl) V B c).after 3 t = iblk2 V c 3 t := by dsimp only [dat1]
theorem after2_4 (c : Dev nD) (t : Fin cfg2.N) : (dat1 (Name := Name) (U := U) (Lvl := Lvl) V B c).after 4 t = iblk2 V c 4 t := by dsimp only [dat1]
theorem after2_5 (c : Dev nD) (t : Fin cfg2.N) : (dat1 (Name := Name) (U := U) (Lvl := Lvl) V B c).after 5 t = iblk2 V c 5 t := by dsimp only [dat1]
theorem after2_6 (c : Dev nD) (t : Fin cfg2.N) : (dat1 (Name := Name) (U := U) (Lvl := Lvl) V B c).after 6 t = iblk2 V c 6 t := by dsimp only [dat1]
theorem after2_7 (c : Dev nD) (t : Fin cfg2.N) : (dat1 (Name := Name) (U := U) (Lvl := Lvl) V B c).after 7 t = iblk2 V c 7 t := by dsimp only [dat1]
theorem after2_8 (c : Dev nD) (t : Fin cfg2.N) : (dat1 (Name := Name) (U := U) (Lvl := Lvl) V B c).after 8 t = iblk2 V c 8 t := by dsimp only [dat1]
theorem after2_9 (c : Dev nD) (t : Fin cfg2.N) : (dat1 (Name := Name) (U := U) (Lvl := Lvl) V B c).after 9 t = iblk2 V c 9 t := by dsimp only [dat1]
theorem after2_10 (c : Dev nD) (t : Fin cfg2.N) : (dat1 (Name := Name) (U := U) (Lvl := Lvl) V B c).after 10 t = iblk2 V c 10 t := by dsimp only [dat1]
theorem after2_11 (c : Dev nD) (t : Fin cfg2.N) : (dat1 (Name := Name) (U := U) (Lvl := Lvl) V B c).after 11 t = iblk2 V c 11 t := by dsimp only [dat1]
theorem after2_12 (c : Dev nD) (t : Fin cfg2.N) : (dat1 (Name := Name) (U := U) (Lvl := Lvl) V B c).after 12 t = iblk2 V c 12 t := by dsimp only [dat1]
theorem after2_13 (c : Dev nD) (t : Fin cfg2.N) : (dat1 (Name := Name) (U := U) (Lvl := Lvl) V B c).after 13 t = iblk2 V c 13 t := by dsimp only [dat1]
theorem after2_14 (c : Dev nD) (t : Fin cfg2.N) :
    (dat1 (Name := Name) (U := U) (Lvl := Lvl) V B c).after 14 t = out2_14 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) := by dsimp only [dat1]

/-- Each input's current staging buffer holds its block at every point, fetched there or not. -/
theorem before2_0 (c : Dev nD) (t : Fin cfg2.N) (d) : (dat1 (Name := Name) (U := U) (Lvl := Lvl) V B c).before 0 t d = iblk2 V c 0 t :=
  before2_0_of V (dat1 (Name := Name) (U := U) (Lvl := Lvl) V B c) (A_eq2 V B c 0) (after2_0 V B c) t d
theorem before2_1 (c : Dev nD) (t : Fin cfg2.N) (d) : (dat1 (Name := Name) (U := U) (Lvl := Lvl) V B c).before 1 t d = iblk2 V c 1 t :=
  before2_1_of V (dat1 (Name := Name) (U := U) (Lvl := Lvl) V B c) (A_eq2 V B c 1) (after2_1 V B c) t d
theorem before2_2 (c : Dev nD) (t : Fin cfg2.N) (d) : (dat1 (Name := Name) (U := U) (Lvl := Lvl) V B c).before 2 t d = iblk2 V c 2 t :=
  before2_2_of V (dat1 (Name := Name) (U := U) (Lvl := Lvl) V B c) (A_eq2 V B c 2) (after2_2 V B c) t d
theorem before2_3 (c : Dev nD) (t : Fin cfg2.N) (d) : (dat1 (Name := Name) (U := U) (Lvl := Lvl) V B c).before 3 t d = iblk2 V c 3 t :=
  before2_3_of V (dat1 (Name := Name) (U := U) (Lvl := Lvl) V B c) (A_eq2 V B c 3) (after2_3 V B c) t d
theorem before2_4 (c : Dev nD) (t : Fin cfg2.N) (d) : (dat1 (Name := Name) (U := U) (Lvl := Lvl) V B c).before 4 t d = iblk2 V c 4 t :=
  before2_4_of V (dat1 (Name := Name) (U := U) (Lvl := Lvl) V B c) (A_eq2 V B c 4) (after2_4 V B c) t d
theorem before2_5 (c : Dev nD) (t : Fin cfg2.N) (d) : (dat1 (Name := Name) (U := U) (Lvl := Lvl) V B c).before 5 t d = iblk2 V c 5 t :=
  before2_5_of V (dat1 (Name := Name) (U := U) (Lvl := Lvl) V B c) (A_eq2 V B c 5) (after2_5 V B c) t d
theorem before2_6 (c : Dev nD) (t : Fin cfg2.N) (d) : (dat1 (Name := Name) (U := U) (Lvl := Lvl) V B c).before 6 t d = iblk2 V c 6 t :=
  before2_6_of V (dat1 (Name := Name) (U := U) (Lvl := Lvl) V B c) (A_eq2 V B c 6) (after2_6 V B c) t d
theorem before2_7 (c : Dev nD) (t : Fin cfg2.N) (d) : (dat1 (Name := Name) (U := U) (Lvl := Lvl) V B c).before 7 t d = iblk2 V c 7 t :=
  before2_7_of V (dat1 (Name := Name) (U := U) (Lvl := Lvl) V B c) (A_eq2 V B c 7) (after2_7 V B c) t d
theorem before2_8 (c : Dev nD) (t : Fin cfg2.N) (d) : (dat1 (Name := Name) (U := U) (Lvl := Lvl) V B c).before 8 t d = iblk2 V c 8 t :=
  before2_8_of V (dat1 (Name := Name) (U := U) (Lvl := Lvl) V B c) (A_eq2 V B c 8) (after2_8 V B c) t d
theorem before2_9 (c : Dev nD) (t : Fin cfg2.N) (d) : (dat1 (Name := Name) (U := U) (Lvl := Lvl) V B c).before 9 t d = iblk2 V c 9 t :=
  before2_9_of V (dat1 (Name := Name) (U := U) (Lvl := Lvl) V B c) (A_eq2 V B c 9) (after2_9 V B c) t d
theorem before2_10 (c : Dev nD) (t : Fin cfg2.N) (d) : (dat1 (Name := Name) (U := U) (Lvl := Lvl) V B c).before 10 t d = iblk2 V c 10 t :=
  before2_10_of V (dat1 (Name := Name) (U := U) (Lvl := Lvl) V B c) (A_eq2 V B c 10) (after2_10 V B c) t d
theorem before2_11 (c : Dev nD) (t : Fin cfg2.N) (d) : (dat1 (Name := Name) (U := U) (Lvl := Lvl) V B c).before 11 t d = iblk2 V c 11 t :=
  before2_11_of V (dat1 (Name := Name) (U := U) (Lvl := Lvl) V B c) (A_eq2 V B c 11) (after2_11 V B c) t d
theorem before2_12 (c : Dev nD) (t : Fin cfg2.N) (d) : (dat1 (Name := Name) (U := U) (Lvl := Lvl) V B c).before 12 t d = iblk2 V c 12 t :=
  before2_12_of V (dat1 (Name := Name) (U := U) (Lvl := Lvl) V B c) (A_eq2 V B c 12) (after2_12 V B c) t d
theorem before2_13 (c : Dev nD) (t : Fin cfg2.N) (d) : (dat1 (Name := Name) (U := U) (Lvl := Lvl) V B c).before 13 t d = iblk2 V c 13 t :=
  before2_13_of V (dat1 (Name := Name) (U := U) (Lvl := Lvl) V B c) (A_eq2 V B c 13) (after2_13 V B c) t d

/-! ## The body obligation, at a generic point -/

variable (ι : Ix)

/-- What the body is called with at point t, the windows one by one, -/
def bodyPre2 (c : Dev nD) (t : Fin cfg2.N) : sProp 𝕄 :=
  iprop((dat1 (Name := Name) (U := U) (Lvl := Lvl) V B c).Φ t.castSucc ∗ (dat1 (Name := Name) (U := U) (Lvl := Lvl) V B c).owesAt ι t.castSucc
    ∗ (∃ d, owns (c : Thread nD τ) (st2_0 t) fullShare ((dat1 (Name := Name) (U := U) (Lvl := Lvl) V B c).before 0 t d))
    ∗ (∃ d, owns (c : Thread nD τ) (st2_1 t) fullShare ((dat1 (Name := Name) (U := U) (Lvl := Lvl) V B c).before 1 t d))
    ∗ (∃ d, owns (c : Thread nD τ) (st2_2 t) fullShare ((dat1 (Name := Name) (U := U) (Lvl := Lvl) V B c).before 2 t d))
    ∗ (∃ d, owns (c : Thread nD τ) (st2_3 t) fullShare ((dat1 (Name := Name) (U := U) (Lvl := Lvl) V B c).before 3 t d))
    ∗ (∃ d, owns (c : Thread nD τ) (st2_4 t) fullShare ((dat1 (Name := Name) (U := U) (Lvl := Lvl) V B c).before 4 t d))
    ∗ (∃ d, owns (c : Thread nD τ) (st2_5 t) fullShare ((dat1 (Name := Name) (U := U) (Lvl := Lvl) V B c).before 5 t d))
    ∗ (∃ d, owns (c : Thread nD τ) (st2_6 t) fullShare ((dat1 (Name := Name) (U := U) (Lvl := Lvl) V B c).before 6 t d))
    ∗ (∃ d, owns (c : Thread nD τ) (st2_7 t) fullShare ((dat1 (Name := Name) (U := U) (Lvl := Lvl) V B c).before 7 t d))
    ∗ (∃ d, owns (c : Thread nD τ) (st2_8 t) fullShare ((dat1 (Name := Name) (U := U) (Lvl := Lvl) V B c).before 8 t d))
    ∗ (∃ d, owns (c : Thread nD τ) (st2_9 t) fullShare ((dat1 (Name := Name) (U := U) (Lvl := Lvl) V B c).before 9 t d))
    ∗ (∃ d, owns (c : Thread nD τ) (st2_10 t) fullShare ((dat1 (Name := Name) (U := U) (Lvl := Lvl) V B c).before 10 t d))
    ∗ (∃ d, owns (c : Thread nD τ) (st2_11 t) fullShare ((dat1 (Name := Name) (U := U) (Lvl := Lvl) V B c).before 11 t d))
    ∗ (∃ d, owns (c : Thread nD τ) (st2_12 t) fullShare ((dat1 (Name := Name) (U := U) (Lvl := Lvl) V B c).before 12 t d))
    ∗ (∃ d, owns (c : Thread nD τ) (st2_13 t) fullShare ((dat1 (Name := Name) (U := U) (Lvl := Lvl) V B c).before 13 t d))
    ∗ (∃ d, owns (c : Thread nD τ) (st2_14 t) fullShare ((dat1 (Name := Name) (U := U) (Lvl := Lvl) V B c).before 14 t d)))

/-- and what it returns. -/
def bodyPost2 (c : Dev nD) (t : Fin cfg2.N) : sProp 𝕄 :=
  iprop((dat1 (Name := Name) (U := U) (Lvl := Lvl) V B c).Φ t.succ ∗ (dat1 (Name := Name) (U := U) (Lvl := Lvl) V B c).owesAt ι t.succ
    ∗ owns (c : Thread nD τ) (st2_0 t) fullShare ((dat1 (Name := Name) (U := U) (Lvl := Lvl) V B c).after 0 t)
    ∗ owns (c : Thread nD τ) (st2_1 t) fullShare ((dat1 (Name := Name) (U := U) (Lvl := Lvl) V B c).after 1 t)
    ∗ owns (c : Thread nD τ) (st2_2 t) fullShare ((dat1 (Name := Name) (U := U) (Lvl := Lvl) V B c).after 2 t)
    ∗ owns (c : Thread nD τ) (st2_3 t) fullShare ((dat1 (Name := Name) (U := U) (Lvl := Lvl) V B c).after 3 t)
    ∗ owns (c : Thread nD τ) (st2_4 t) fullShare ((dat1 (Name := Name) (U := U) (Lvl := Lvl) V B c).after 4 t)
    ∗ owns (c : Thread nD τ) (st2_5 t) fullShare ((dat1 (Name := Name) (U := U) (Lvl := Lvl) V B c).after 5 t)
    ∗ owns (c : Thread nD τ) (st2_6 t) fullShare ((dat1 (Name := Name) (U := U) (Lvl := Lvl) V B c).after 6 t)
    ∗ owns (c : Thread nD τ) (st2_7 t) fullShare ((dat1 (Name := Name) (U := U) (Lvl := Lvl) V B c).after 7 t)
    ∗ owns (c : Thread nD τ) (st2_8 t) fullShare ((dat1 (Name := Name) (U := U) (Lvl := Lvl) V B c).after 8 t)
    ∗ owns (c : Thread nD τ) (st2_9 t) fullShare ((dat1 (Name := Name) (U := U) (Lvl := Lvl) V B c).after 9 t)
    ∗ owns (c : Thread nD τ) (st2_10 t) fullShare ((dat1 (Name := Name) (U := U) (Lvl := Lvl) V B c).after 10 t)
    ∗ owns (c : Thread nD τ) (st2_11 t) fullShare ((dat1 (Name := Name) (U := U) (Lvl := Lvl) V B c).after 11 t)
    ∗ owns (c : Thread nD τ) (st2_12 t) fullShare ((dat1 (Name := Name) (U := U) (Lvl := Lvl) V B c).after 12 t)
    ∗ owns (c : Thread nD τ) (st2_13 t) fullShare ((dat1 (Name := Name) (U := U) (Lvl := Lvl) V B c).after 13 t)
    ∗ owns (c : Thread nD τ) (st2_14 t) fullShare ((dat1 (Name := Name) (U := U) (Lvl := Lvl) V B c).after 14 t))

/-- The body at any point: the inputs' memrefs hold their blocks, so the body's triple applies; the invariant and the
    core's owes pass through unread. -/
theorem sound_body2 (c : Dev nD) (t : Fin cfg2.N) :
    bodyPre2 (Name := Name) (U := U) (Lvl := Lvl) V B ι c t ⊢ wp frame (wpE (defs₀ (F := F)) Variants.none c none) Set.univ (bodyAt2 t) (fun _ => bodyPost2 (Name := Name) (U := U) (Lvl := Lvl) V B ι c t) := by
  unfold bodyPre2 bodyPost2 bodyAt2
  simp only [before2_0, before2_1, before2_2, before2_3, before2_4, before2_5, before2_6, before2_7, before2_8, before2_9, before2_10, before2_11, before2_12, before2_13]
  rw [show (dat1 (Name := Name) (U := U) (Lvl := Lvl) V B c).Φ t.succ = (dat1 (Name := Name) (U := U) (Lvl := Lvl) V B c).Φ t.castSucc from rfl,
    show (dat1 (Name := Name) (U := U) (Lvl := Lvl) V B c).owesAt ι t.succ = (dat1 (Name := Name) (U := U) (Lvl := Lvl) V B c).owesAt ι t.castSucc from rfl,
    after2_0, after2_1, after2_2, after2_3, after2_4, after2_5, after2_6, after2_7, after2_8, after2_9, after2_10, after2_11, after2_12, after2_13, after2_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel2 c Set.univ _ _ _ _ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The pipeline's body obligation, at every point. -/
theorem body_obligation2 (c : Dev nD) :
    BodyObligation (dat1 (F := F) (Name := Name) (U := U) (Lvl := Lvl) V B c) (defs₀ (F := F)) Variants.none ι Set.univ := fun t => by
  rw [bigSep_W2, bigSep_W2]
  exact sound_body2 V B ι c t

end Cert.MlpRegion

end
-- ==== Proof.Main.lean ====
/-
  The kernel program's run. On each device the TensorCore runs @main: two reshapes, the SparseCore gather (started,
  run by the two SparseCores' thirty-two tiles, waited for), a line of layout operations, the environment kernel, a line
  of layout operations and the addition of the third-layer weight halves, the embedding kernel, a transpose and a reshape.
  The contents of the TensorCore's arrays are followed through @main as a fold: the launch memory, then each line's
  operations applied in order, the gather's three results at the gathered words, each kernel's outputs at what its
  pipeline leaves, everything else as it was. The arguments are never written, so they end as launched, and the result
  ends at the fold's last value.
-/
import proofs.«205418_g46067819217304_cont_8to1_c_241_17_alg».proof.Proof.Setup
import proofs.«205418_g46067819217304_cont_8to1_c_241_17_alg».proof.Proof.MainShape
import proofs.«205418_g46067819217304_cont_8to1_c_241_17_alg».proof.Proof.ScGather
import proofs.«205418_g46067819217304_cont_8to1_c_241_17_alg».proof.Proof.ScTile
import proofs.«205418_g46067819217304_cont_8to1_c_241_17_alg».proof.Proof.EnvRegion
import proofs.«205418_g46067819217304_cont_8to1_c_241_17_alg».proof.Proof.MlpRegion
import proofs.«205418_g46067819217304_cont_8to1_c_241_17_alg».proof.Proof.Gen.KernelIdeal.Launch
import Idealize.ShloMosaic.Lib.SparseCore.Launch
import Idealize.ShloMosaic.Lib.StableHlo.Run
import Idealize.ShloMosaic.Lib.Pipeline.Regions
import Idealize.ShloMosaic.Lib.Pipeline.RegionsLoop
import Idealize.ShloMosaic.Lib.Pipeline.FrameSuffix
import Idealize.ShloMosaic.Lib.Pipeline.Frame
import Idealize.ShloMosaic.Lib.Tactic

noncomputable section

namespace Cert.KernelIdeal.Main

open Cert.KernelIdeal Cert.KernelIdeal.Gen Cert.KernelIdeal.Setup Cert.KernelIdeal.MainShape Cert.ScGather

open Idealize.ShloMosaic Idealize.ShloMosaic.TcCoe
open Idealize.ShloMosaic.SparseCore (S V T)
open Idealize.ShloMosaic.SparseCore.Cfg (HIx Pay)
open Idealize.ShloMosaic.StableHlo (held held_sub_split held_congr wp_seq)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => 𝕄F F

variable (m : (ℓ : Loc nD τ sig) → Buf (Elt F) ℓ) (ρ : Dev nD → PrngReg)

/-! ## The arrays' contents along @main -/

/-- The TensorCore's arrays the gather reads and writes, as buffers of the device. -/
abbrev c' : DevRef τ sig := Proc.devRef .tc (main_v0 : Ref sig .tc)
abbrev n' : DevRef τ sig := Proc.devRef .tc (main_v1 : Ref sig .tc)
abbrev x' : DevRef τ sig := Proc.devRef .tc (main_v2_0 : Ref sig .tc)
abbrev y' : DevRef τ sig := Proc.devRef .tc (main_v2_1 : Ref sig .tc)
abbrev z' : DevRef τ sig := Proc.devRef .tc (main_v2_2 : Ref sig .tc)
/-- The five of them. -/
abbrev S5 : Finset (DevRef τ sig) := {c', n', x', y', z'}

/-- At launch. -/
abbrev W0 (d : Dev nD) : Valuation τ sig (Elt F) := fun b => m (d, b)
/-- After the two reshapes: the coordinates and the neighbour list flat. -/
def W1 (d : Dev nD) : Valuation τ sig (Elt F) := StableHlo.after opsHead (W0 m d)
/-- The gather's operands as the call finds them. -/
def cfAt (d : Dev nD) : Buf (Elt F) (cLoc d) := W1 m d c'
def nfAt (d : Dev nD) : Buf (Elt F) (nLoc d) := W1 m d n'
/-- After the gather: its three results at the gathered words, the rest as before. -/
def W2 (d : Dev nD) : Valuation τ sig (Elt F) :=
  Function.update (Function.update (Function.update (W1 m d) x' (gatherAt (cfAt m d) (nfAt m d) 0)) y' (gatherAt (cfAt m d) (nfAt m d) 1))
    z' (gatherAt (cfAt m d) (nfAt m d) 2)

theorem W2_x (d : Dev nD) : W2 m d x' = gatherAt (cfAt m d) (nfAt m d) 0 := by
  unfold W2
  rw [Function.update_of_ne (show x' ≠ z' by decide), Function.update_of_ne (show x' ≠ y' by decide), Function.update_self]
theorem W2_y (d : Dev nD) : W2 m d y' = gatherAt (cfAt m d) (nfAt m d) 1 := by
  unfold W2
  rw [Function.update_of_ne (show y' ≠ z' by decide), Function.update_self]
theorem W2_z (d : Dev nD) : W2 m d z' = gatherAt (cfAt m d) (nfAt m d) 2 := by
  unfold W2
  rw [Function.update_self]
theorem W2_of_ne (d : Dev nD) (b : DevRef τ sig) (hx : b ≠ x') (hy : b ≠ y') (hz : b ≠ z') : W2 m d b = W1 m d b := by
  unfold W2
  rw [Function.update_of_ne hz, Function.update_of_ne hy, Function.update_of_ne hx]

/-- The five arrays, one by one. -/
theorem held_S5 (d : Dev nD) (W : Valuation τ sig (Elt F)) :
    (held (SparseCore.T d) S5 W : sProp 𝕄) = iprop((cLoc d ↦{fullShare} W c') ∗ (nLoc d ↦{fullShare} W n') ∗ (xLoc d ↦{fullShare} W x')
      ∗ (yLoc d ↦{fullShare} W y') ∗ (zLoc d ↦{fullShare} W z')) := by
  unfold held S5
  rw [SparseCore.bigSep_insert' (by decide), SparseCore.bigSep_insert' (by decide), SparseCore.bigSep_insert' (by decide),
    SparseCore.bigSep_insert' (by decide), bigSep_singleton]

theorem S5_sub : S5 ⊆ Pipeline.ucRefs τ sig := by decide

/-- Outside the gather's results the call changes nothing. -/
theorem held_rest_W2 (d : Dev nD) :
    (held (SparseCore.T d) (Pipeline.ucRefs τ sig \ S5) (W2 m d) : sProp 𝕄) = held (SparseCore.T d) (Pipeline.ucRefs τ sig \ S5) (W1 m d) :=
  held_congr (SparseCore.T d) fun b hb => by
    have hb' := (Finset.mem_sdiff.mp hb).2
    exact W2_of_ne m d b (fun e => hb' (by rw [e]; decide)) (fun e => hb' (by rw [e]; decide)) (fun e => hb' (by rw [e]; decide))

/-! ## The lines' side conditions -/

theorem opsHead_uc : ∀ op ∈ (opsHead : List (HloOp τ sig (Elt F))), op.bufs ⊆ Pipeline.ucRefs τ sig :=
  fun op h => Pipeline.sub_ucRefs op ((List.forall_iff_forall_mem.mp opsHead_sub) op h)
theorem opsHead_fresh : ∀ op ∈ (opsHead : List (HloOp τ sig (Elt F))), op.fresh = ∅ := by
  intro _ h; (repeat (cases h with | head => rfl | tail _ h => ?_)); exact nomatch h

/-! ## After the gather: the two kernels and the lines around them -/

theorem opsAfterGather_uc : ∀ op ∈ (opsAfterGather : List (HloOp τ sig (Elt F))), op.bufs ⊆ Pipeline.ucRefs τ sig :=
  fun op h => Pipeline.sub_ucRefs op ((List.forall_iff_forall_mem.mp opsAfterGather_sub) op h)
theorem opsAfterGather_fresh : ∀ op ∈ (opsAfterGather : List (HloOp τ sig (Elt F))), op.fresh = ∅ := by
  intro _ h; (repeat (cases h with | head => rfl | tail _ h => ?_)); exact nomatch h
theorem opsAfterEnv_uc : ∀ op ∈ (opsAfterEnv : List (HloOp τ sig (Elt F))), op.bufs ⊆ Pipeline.ucRefs τ sig :=
  fun op h => Pipeline.sub_ucRefs op ((List.forall_iff_forall_mem.mp opsAfterEnv_sub) op h)
theorem opsAfterEnv_fresh : ∀ op ∈ (opsAfterEnv : List (HloOp τ sig (Elt F))), op.fresh = ∅ := by
  intro _ h; (repeat (cases h with | head => rfl | tail _ h => ?_)); exact nomatch h
theorem opsTail_uc : ∀ op ∈ (opsTail : List (HloOp τ sig (Elt F))), op.bufs ⊆ Pipeline.ucRefs τ sig :=
  fun op h => Pipeline.sub_ucRefs op ((List.forall_iff_forall_mem.mp opsTail_sub) op h)
theorem opsTail_fresh : ∀ op ∈ (opsTail : List (HloOp τ sig (Elt F))), op.fresh = ∅ := by
  intro _ h; (repeat (cases h with | head => rfl | tail _ h => ?_)); exact nomatch h

/-- No bound is asked of the waits the pipelines record: with one SparseCore call every level is at most seven. -/
abbrev Bany : Set (SemLoc sig × HIx 1) := Set.univ

/-- After the line behind the gather: what the environment kernel finds. -/
abbrev W3 (d : Dev nD) : Valuation τ sig (Elt F) := StableHlo.after opsAfterGather (W2 m d)
abbrev V3 : (c : Dev nD) → (b : Ref sig .tc) → Buf (Elt F) ((c : Thread nD τ).loc b) := fun c b => W3 m c b
/-- After the environment kernel: its arrays at what its pipeline leaves, the rest as before. -/
def W4 (d : Dev nD) : Valuation τ sig (Elt F) :=
  Pipeline.withArrays spec1 d (W3 m d) fun w => (Cert.EnvRegion.dat0 (Ix := HIx 1) (Name := ℕ) (U := UU) (Lvl := ℕ) (V3 m) Bany d).arrAt w cfg1.N
theorem W4_arr (d : Dev nD) (w : Fin cfg1.W) :
    W4 m d (Proc.devRef .tc (Pipeline.arrRef spec1 w)) = (Cert.EnvRegion.dat0 (Ix := HIx 1) (Name := ℕ) (U := UU) (Lvl := ℕ) (V3 m) Bany d).arrAt w cfg1.N := by
  unfold W4; exact Pipeline.withArrays_arr spec1 launch1.win.arr_inj d _ _ w
theorem W4_of_ne (d : Dev nD) (b : Ref sig .tc) (hb : ∀ w, Pipeline.arrRef spec1 w ≠ b) :
    W4 m d (Proc.devRef .tc b) = W3 m d (Proc.devRef .tc b) := by
  unfold W4; exact Pipeline.withArrays_of_ne spec1 d _ _ b hb
abbrev V4 : (c : Dev nD) → (b : Ref sig .tc) → Buf (Elt F) ((c : Thread nD τ).loc b) := fun c b => W4 m c b
/-- After the line behind the environment kernel: what the embedding kernel finds. -/
abbrev W5 (d : Dev nD) : Valuation τ sig (Elt F) := StableHlo.after opsAfterEnv (W4 m d)
abbrev V5 : (c : Dev nD) → (b : Ref sig .tc) → Buf (Elt F) ((c : Thread nD τ).loc b) := fun c b => W5 m c b
/-- After the embedding kernel. -/
def W6 (d : Dev nD) : Valuation τ sig (Elt F) :=
  Pipeline.withArrays spec2 d (W5 m d) fun w => (Cert.MlpRegion.dat1 (Ix := HIx 1) (Name := ℕ) (U := UU) (Lvl := ℕ) (V5 m) Bany d).arrAt w cfg2.N
theorem W6_arr (d : Dev nD) (w : Fin cfg2.W) :
    W6 m d (Proc.devRef .tc (Pipeline.arrRef spec2 w)) = (Cert.MlpRegion.dat1 (Ix := HIx 1) (Name := ℕ) (U := UU) (Lvl := ℕ) (V5 m) Bany d).arrAt w cfg2.N := by
  unfold W6; exact Pipeline.withArrays_arr spec2 launch2.win.arr_inj d _ _ w
theorem W6_of_ne (d : Dev nD) (b : Ref sig .tc) (hb : ∀ w, Pipeline.arrRef spec2 w ≠ b) :
    W6 m d (Proc.devRef .tc b) = W5 m d (Proc.devRef .tc b) := by
  unfold W6; exact Pipeline.withArrays_of_ne spec2 d _ _ b hb
abbrev V6 : (c : Dev nD) → (b : Ref sig .tc) → Buf (Elt F) ((c : Thread nD τ).loc b) := fun c b => W6 m c b
/-- When @main returns: the fold's last value. -/
abbrev W7 (d : Dev nD) : Valuation τ sig (Elt F) := StableHlo.after opsTail (W6 m d)

theorem hF0 (c : Dev nD) (w : Fin cfg1.W) :
    (Cert.EnvRegion.dat0 (Ix := HIx 1) (Name := ℕ) (U := UU) (Lvl := ℕ) (V3 m) Bany c).arrAt w cfg1.N = V4 m c (Pipeline.arrRef spec1 w) :=
  (W4_arr m c w).symm
theorem hrest0 (c : Dev nD) : ∀ b, b ∉ Finset.univ.image (Pipeline.arrRef spec1) → V4 m c b = V3 m c b :=
  fun b hb => W4_of_ne m c b fun w e => hb (Finset.mem_image.mpr ⟨w, Finset.mem_univ _, e⟩)
theorem hF1 (c : Dev nD) (w : Fin cfg2.W) :
    (Cert.MlpRegion.dat1 (Ix := HIx 1) (Name := ℕ) (U := UU) (Lvl := ℕ) (V5 m) Bany c).arrAt w cfg2.N = V6 m c (Pipeline.arrRef spec2 w) :=
  (W6_arr m c w).symm
theorem hrest1 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- What rides beside the arrays from the gather's return to @main's: the generator register at some state and the
    core owing nothing. -/
abbrev Ride (d : Dev nD) : sProp 𝕄 :=
  iprop((∃ r, prngReg d r) ∗ ∃ W, owes (d : Thread nD τ) (0 : CellTallies nD τ sig (HIx 1)) W)

/-- No pipeline has a prefetched table. -/
abbrev adm : (p : Fin 2) → (pcfgs (F := F) p).Adm := fun p => (cfgs p).toPCfg_adm
/-- The two pipelines' proof data, each at its region's entry contents: a literal match on the pipeline. -/
def pdats : (p : Fin 2) → (c : Dev nD) → Pipeline.Dat τ (Elt F) (HIx 1) ℕ UU ℕ (Pipeline.pin (pcfgs (F := F)) adm p) c
  | ⟨0, _⟩ => fun c => Cert.EnvRegion.dat0 (V3 m) Bany c
  | ⟨1, _⟩ => fun c => Cert.MlpRegion.dat1 (V5 m) Bany c

/-- The pipelines' staging cells' ghost state on device d, as the launch deals it. -/
abbrev Gd (d : Dev nD) : sProp 𝕄 := Pipeline.ghostOn (pcfgs (F := F)) adm (EP (F := F)) Finset.univ d

/-- A line of host operations as a segment over the unscoped arrays, the riding state beside them. -/
abbrev hseg (ops : List (HloOp τ sig (Elt F))) (huc : ∀ op ∈ ops, op.bufs ⊆ Pipeline.ucRefs τ sig)
    (hfresh : ∀ op ∈ ops, op.fresh = ∅) (W : Dev nD → Valuation τ sig (Elt F)) :
    Pipeline.HostSeg (Name := ℕ) (U := UU) (pcfgs (F := F)) defs₀ 𝒱₀ (K (F := F)).L (K (F := F)).lev :=
  Pipeline.HostSeg.ofOps _ _ _ _ _ (Pipeline.ucRefs τ sig) ops huc hfresh W (Ride (F := F))

set_option backward.isDefEq.respectTransparency.types false in
/-- The environment kernel over the thread state: entered from every unscoped array at W3, left at W4. Its nine arrays
    are split out of the unscoped arrays and put back at the exit contents; the generator register goes into the body's
    invariant and comes out; nothing is owed; the kernel has no semaphore of its own. -/
def reg0 : Pipeline.RegionSeg (pcfgs (F := F)) adm (pdats m) ι₀ defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (Cert.EnvRegion.body_obligation (V3 m) Bany ι₀ c).loose
  hwaits := Pipeline.hwaits_of_owed_zero _ _ _ _ (K (F := F)).L (K (F := F)).lev 0 fun _ _ => rfl
  pre c := iprop(held (c : Thread nD τ) (Pipeline.ucRefs τ sig) (W3 m c) ∗ Ride (F := F) c)
  post c := iprop(held (c : Thread nD τ) (Pipeline.ucRefs τ sig) (W4 m c) ∗ Ride (F := F) c)
  X c := iprop(∃ r, prngReg c r)
  Y c := iprop(∃ r, prngReg c r)
  Z c := Pipeline.unscopedRest (Ix := HIx 1) (Name := ℕ) (U := UU) (Lvl := ℕ) spec1 c (V3 m c)
  hentry c := by
    rw [Pipeline.ownSems0_none]
    have hsplit := Pipeline.arrays_of_unscopedBufs (p := 0) (pcfgs (F := F)) adm (pdats m) launch1.win launch1.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Cert.EnvRegion.Φenv c from rfl]; unfold Cert.EnvRegion.Φenv
    iintro ⟨Hp, -, Hr⟩
    isplitl [Hr]; · iexact Hr
    iexact Hp
  hout c := by
    rw [Pipeline.ownSems0_none, show (pdats m 0 c).Φ (Fin.last _) = Cert.EnvRegion.Φenv c from rfl]; unfold Cert.EnvRegion.Φenv
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch1.win launch1.arr_whole c (pdats m) ((pdats m 0 c).share_full fun _ => rfl)
      (V3 m c) (V4 m c) ((pdats m 0 c).arrAt · cfg1.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The embedding kernel over the thread state: entered from every unscoped array at W5, left at W6, by the same road. -/
def reg1 : Pipeline.RegionSeg (pcfgs (F := F)) adm (pdats m) ι₀ defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (Cert.MlpRegion.body_obligation2 (V5 m) Bany ι₀ c).loose
  hwaits := Pipeline.hwaits_of_owed_zero _ _ _ _ (K (F := F)).L (K (F := F)).lev 1 fun _ _ => rfl
  pre c := iprop(held (c : Thread nD τ) (Pipeline.ucRefs τ sig) (W5 m c) ∗ Ride (F := F) c)
  post c := iprop(held (c : Thread nD τ) (Pipeline.ucRefs τ sig) (W6 m c) ∗ Ride (F := F) c)
  X c := iprop(∃ r, prngReg c r)
  Y c := iprop(∃ r, prngReg c r)
  Z c := Pipeline.unscopedRest (Ix := HIx 1) (Name := ℕ) (U := UU) (Lvl := ℕ) spec2 c (V5 m c)
  hentry c := by
    rw [Pipeline.ownSems0_none]
    have hsplit := Pipeline.arrays_of_unscopedBufs (p := 1) (pcfgs (F := F)) adm (pdats m) launch2.win launch2.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Cert.MlpRegion.Φmlp c from rfl]; unfold Cert.MlpRegion.Φmlp
    iintro ⟨Hp, -, Hr⟩
    isplitl [Hr]; · iexact Hr
    iexact Hp
  hout c := by
    rw [Pipeline.ownSems0_none, show (pdats m 1 c).Φ (Fin.last _) = Cert.MlpRegion.Φmlp c from rfl]; unfold Cert.MlpRegion.Φmlp
    iintro ⟨Hr, Hp⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats m) ((pdats m 1 c).share_full fun _ => rfl)
      (V5 m c) (V6 m c) ((pdats m 1 c).arrAt · cfg2.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- From the gather's return to @main's, as segments: line, environment kernel, line, embedding kernel, line. -/
abbrev segs : List (Pipeline.Seg (pcfgs (F := F)) adm (pdats m) ι₀ defs₀ 𝒱₀ (K (F := F)).L (K (F := F)).lev) :=
  [ .host (hseg opsAfterGather opsAfterGather_uc opsAfterGather_fresh (W2 m)),
    .region (reg0 m),
    .host (hseg opsAfterEnv opsAfterEnv_uc opsAfterEnv_fresh (W4 m)),
    .region (reg1 m),
    .host (hseg opsTail opsTail_uc opsTail_fresh (W6 m)) ]

/-- The printed tail of @main is the segments' run, read in the SparseCore program's label signature. -/
theorem tail_eq :
    (Pipeline.chain
      [ StableHlo.seq opsAfterGather,
        Prog.lift (.customCall (SparseCore.inner (Pipeline.entry 0)) ()),
        StableHlo.seq opsAfterEnv,
        Prog.lift (.customCall (SparseCore.inner (Pipeline.entry 1)) ()),
        StableHlo.seq opsTail ] : Prog (TpuEff nD τ sig (Elt F) (SparseCore.Sig (ΛP (F := F)) 1) .tc) PUnit)
      = SparseCore.liftProg (Pipeline.Seg.run (segs m)) := by
  chain_rfl

theorem segs_chain : Pipeline.Seg.Chains (fun c => iprop(held (c : Thread nD τ) (Pipeline.ucRefs τ sig) (W2 m c) ∗ Ride (F := F) c)) (segs m)
    (fun c => iprop(held (c : Thread nD τ) (Pipeline.ucRefs τ sig) (W7 m c) ∗ Ride (F := F) c)) :=
  ⟨fun _ => .rfl, fun _ => .rfl, fun _ => .rfl, fun _ => .rfl, fun _ => .rfl, fun _ => .rfl⟩

set_option backward.isDefEq.respectTransparency.types false in
/-- The segments' run in the kernels' own label signature, before it is read in the SparseCore program's. -/
theorem tail_inner [∀ e, Nonempty (Elt F e)] (d : Dev nD) (Φ : PUnit → sProp 𝕄) :
    iprop(levAts (K (F := F)).L (K (F := F)).lev ∗ boundary (SparseCore.T d) ∗ held (SparseCore.T d) (Pipeline.ucRefs τ sig) (W2 m d) ∗ Ride (F := F) d ∗ Gd (F := F) d
        ∗ (iprop(boundary (SparseCore.T d) ∗ held (SparseCore.T d) (Pipeline.ucRefs τ sig) (W7 m d) ∗ Ride (F := F) d) -∗ Φ ⟨⟩))
      ⊢ wp frame (wpE (D (F := F)) 𝒱 (SparseCore.T d) none) Set.univ (Pipeline.Seg.run (segs m)) Φ := by
  iintro ⟨#Hla, Hbd, Hh, HR, Hg, Hk⟩
  iapply (Pipeline.wp_segs (pcfgs (F := F)) adm (pdats m) ι₀ cellOf_inj (EP (F := F)) defs₀ 𝒱₀ (K (F := F)).L (K (F := F)).lev d (segs m) Finset.univ _ _
    (by simp only [segs, Pipeline.Seg.pipes_host, Pipeline.Seg.pipes_region, Pipeline.Seg.pipes_nil]; decide)
    (fun p _ => Finset.mem_univ p) (segs_chain m))
  isplitl [Hk]
  · iintro ⟨Hbd, Hh, HR⟩
    iapply Hk
    isplitl [Hbd]; · iexact Hbd
    isplitl [Hh]; · iexact Hh
    iexact HR
  isplitl [Hbd]; · iexact Hbd
  isplitl [Hh HR]
  · isplitl [Hh]; · iexact Hh
    iexact HR
  isplitr; · iexact Hla
  iexact Hg

set_option backward.isDefEq.respectTransparency.types false in
/-- From the gather's return to @main's: line, environment kernel, line, embedding kernel, line. -/
theorem tail_run [∀ e, Nonempty (Elt F e)] (d : Dev nD) (Φ : PUnit → sProp 𝕄) :
    iprop(levAts (K (F := F)).L (K (F := F)).lev ∗ boundary (SparseCore.T d) ∗ held (SparseCore.T d) (Pipeline.ucRefs τ sig) (W2 m d) ∗ Ride (F := F) d ∗ Gd (F := F) d
        ∗ (iprop(boundary (SparseCore.T d) ∗ held (SparseCore.T d) (Pipeline.ucRefs τ sig) (W7 m d) ∗ Ride (F := F) d) -∗ Φ ⟨⟩))
      ⊢ wp frame (wpE ((K (F := F)).defs (D (F := F))) 𝒱 (SparseCore.T d) none) Set.univ
          (Pipeline.chain
            [ StableHlo.seq opsAfterGather,
              Prog.lift (.customCall (SparseCore.inner (Pipeline.entry 0)) ()),
              StableHlo.seq opsAfterEnv,
              Prog.lift (.customCall (SparseCore.inner (Pipeline.entry 1)) ()),
              StableHlo.seq opsTail ]) Φ := by
  rw [tail_eq m]
  refine BI.Entails.trans (tail_inner m d Φ) ((K (F := F)).wp_liftProg (D (F := F)) 𝒱 (SparseCore.T d) Set.univ none _ Φ)

/-! ## @main on the TensorCore -/

/-- What @main leaves the claim: every array at the fold's last value. -/
abbrev FIN (d : Dev nD) : sProp 𝕄 := held (SparseCore.T d) (Pipeline.ucRefs τ sig) (W7 m d)

/-- The TensorCore's handshake state before call n, its debts apart. -/
def tcRest (P : (K (F := F)).Pay (nD := nD) (Val := Elt F) (Name := ℕ) (U := UU)) (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (P : (K (F := F)).Pay (nD := nD) (Val := Elt F) (Name := ℕ) (U := UU)) (d : Dev nD) (n : ℕ) :
    ((K (F := F)).tcSt EH d n : sProp 𝕄)
      = iprop((∃ W, ⌜(K (F := F)).WBelow (SparseCore.T d) W (8 * n)⌝ ∗ owes (SparseCore.T d) ((K (F := F)).Otc d n) W) ∗ tcRest (F := F) P d n) := rfl

/-- With one call every level is at most seven: any recorded waits sit within the bound after it. -/
theorem wbelow_any (d : Dev nD) (W : Waits sig (HIx 1)) : (K (F := F)).WBelow (SparseCore.T d) W (8 * 1) := fun p _ => by
  rcases p with ⟨sm, _ | q⟩
  · show (K (F := F)).lev (SparseCore.T d, sm) none ≤ 8; rw [SparseCore.Cfg.lev_none]; omega
  · have := (K (F := F)).lev_some_le (SparseCore.T d, sm) q
    have hq : q.val = 0 := by omega
    show (K (F := F)).lev (SparseCore.T d, sm) (some q) ≤ 8; omega

theorem unscoped_held (d : Dev nD) :
    (unscopedBufs d (fun b => m ((SparseCore.T d).loc b)) : sProp 𝕄) = held (SparseCore.T d) (Pipeline.ucRefs τ sig) (W0 m d) :=
  Pipeline.unscopedBufs_held d (W0 m d)

theorem hmain (κ : GSem nD τ sig → ℕ) (d : Dev nD) :
    iprop((K (F := F)).ctx EH (P (cfAt m) (nfAt m)) κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_chain, Pipeline.chain_cons]
  iintro ⟨#Hctx, Hst, ⟨Hb, Hheld, -, Hprng⟩, HG⟩
  -- the two reshapes
  iapply (wp_seq (defs := (K (F := F)).defs (D (F := F))) 𝒱 none Set.univ d (Pipeline.ucRefs τ sig) _ opsHead opsHead_uc opsHead_fresh (W0 m d)) $$ [Hb Hheld]
  · isplitl [Hb] <;> iassumption
  iintro ⟨Hb, Hheld⟩
  -- the gather: its operands and results to the two SparseCores and back
  rw [Pipeline.chain_cons, wp_bind]
  ihave Hh := (Entails.of_eq (held_sub_split (SparseCore.T d) S5_sub (StableHlo.after opsHead (W0 m d)))) $$ Hheld
  icases Hh with ⟨H5, Hrest⟩
  ihave H5' := (Entails.of_eq (held_S5 (F := F) d _)) $$ H5
  icases H5' with ⟨Hc, Hn, Hx, Hy, Hz⟩
  iapply ((K (F := F)).wp_run (D (F := F)) 𝒱 (EH := EH) (P := P (cfAt m) (nfAt m)) κ d 0) $$ [Hst Hc Hn Hx Hy Hz Hb Hrest Hprng HG]
  isplitr; · iexact Hctx
  isplitl [Hst]; · iexact Hst
  isplitl [Hc Hn Hx Hy Hz]
  · iapply (st_intro (cfAt m) (nfAt m) d)
    isplitl [Hc]; · iexact Hc
    isplitl [Hn]; · iexact Hn
    isplitl [Hx]; · iexists _; iexact Hx
    isplitl [Hy]; · iexists _; iexact Hy
    iexists _; iexact Hz
  iintro ⟨Hst, Hdn⟩
  ihave Hdn' := (dn_elim (cfAt m) (nfAt m) d) $$ Hdn
  icases Hdn' with ⟨Hc, Hn, Hx, Hy, Hz⟩
  -- the arrays again, whole, at the contents after the gather
  ihave Hheld := (Entails.of_eq (held_sub_split (SparseCore.T d) S5_sub (W2 m d)).symm) $$ [Hc Hn Hx Hy Hz Hrest]
  · isplitl [Hc Hn Hx Hy Hz]
    · rw [held_S5, W2_x, W2_y, W2_z, W2_of_ne m d c' (by decide) (by decide) (by decide), W2_of_ne m d n' (by decide) (by decide) (by decide)]
      isplitl [Hc]; · iexact Hc
      isplitl [Hn]; · iexact Hn
      isplitl [Hx]; · iexact Hx
      isplitl [Hy]; · iexact Hy
      iexact Hz
    · rw [held_rest_W2]; iexact Hrest
  -- the TensorCore owes nothing more: its debts ride through the two kernels and come back
  ihave Hst' := (Entails.of_eq (show ((K (F := F)).tcSt EH d ((0 : Fin 1).val + 1) : sProp 𝕄) = _ from tcSt_eq (F := F) (P (cfAt m) (nfAt m)) d 1)) $$ Hst
  icases Hst' with ⟨⟨%W, -, HO⟩, Hstr⟩
  rw [(K (F := F)).Otc_end d (le_refl 1)]
  ihave Hla := (SparseCore.Cfg.ctx_levAts κ) $$ Hctx
  iapply (tail_run m d) $$ [Hla Hb Hheld Hprng HO HG Hstr]
  isplitl [Hla]; · iexact Hla
  isplitl [Hb]; · iexact Hb
  isplitl [Hheld]; · iexact Hheld
  isplitl [Hprng HO]
  · isplitl [Hprng]; · iexists _; iexact Hprng
    iexists W; iexact HO
  isplitl [HG]; · iexact HG
  iintro ⟨-, Hheld, -, %W', HO⟩
  isplitl [HO Hstr]
  · iapply (Entails.of_eq (tcSt_eq (F := F) (P (cfAt m) (nfAt m)) d 1).symm)
    isplitl [HO]
    · iexists W'; isplitr; · ipureintro; exact wbelow_any d W'
      rw [(K (F := F)).Otc_end d (le_refl 1)]; iexact HO
    iexact Hstr
  iexact Hheld

/-! ## The final memory -/

/-- What the TensorCore's final assertion says of the physical memory: every array at the fold's last value. -/
def fq (d : Dev nD) (s' : Phys nD τ sig (Elt F)) : Prop := ∀ b ∈ Pipeline.ucRefs τ sig, s'.mem.mem (d, b) = W7 m d b

theorem hfin (d : Dev nD) (s' : Phys nD τ sig (Elt F)) : iprop(FIN m d ∗ SI s') ⊢ (⌜fq m d s'⌝ : sProp 𝕄) := by
  show iprop((bigSep (Pipeline.ucRefs τ sig) fun b => ((SparseCore.T d).1, b) ↦{fullShare} W7 m d b) ∗ SI s') ⊢ _
  iintro ⟨Hh, HSI⟩
  ihave H := (pointsTo_read_all (Pipeline.ucRefs τ sig) (fun b => ((d, b) : Loc nD τ sig)) (W7 m d) s') $$ [Hh HSI]
  · isplitl [Hh] <;> iassumption
  icases H with ⟨%h, -⟩
  ipureintro; exact h

/-! ## The launch element of the ghost state -/

/-- The handshakes' cells, the pipelines' staging cells, and no counter yet. -/
def u₀ : UU :=
  (initOf (K (F := F)).hsCells (K (F := F)).hsToks, (initOf (Pipeline.cells cfgs cellOf_inj) (Pipeline.launchToks cfgs cellOf_inj), 1))

theorem Px_emp (cf : (d : Dev nD) → Buf (Elt F) (cLoc d)) (nf : (d : Dev nD) → Buf (Elt F) (nLoc d)) :
    (bigSep Finset.univ fun thr : Thread nD τ => bigSep Finset.univ fun q : Fin 1 => (P cf nf).x q thr) = (iprop(emp) : sProp 𝕄) := by
  have h1 : ∀ _ : Thread nD τ, (bigSep Finset.univ fun _ : Fin 1 => (iprop(emp) : sProp 𝕄)) = iprop(emp) := fun _ => BI.bigSep_emp_const _
  calc (bigSep Finset.univ fun thr : Thread nD τ => bigSep Finset.univ fun q : Fin 1 => (P cf nf).x q thr)
      = bigSep Finset.univ fun _ : Thread nD τ => (iprop(emp) : sProp 𝕄) := bigSep_congr fun thr _ => h1 thr
    _ = iprop(emp) := BI.bigSep_emp_const _

theorem hu₀ (cf : (d : Dev nD) → Buf (Elt F) (cLoc d)) (nf : (d : Dev nD) → Buf (Elt F) (nLoc d)) :
    (ownU (u₀ (F := F)) : sProp 𝕄)
      ⊢ |={Set.univ}=> iprop(BI.own (EH (initOf (K (F := F)).hsCells (K (F := F)).hsToks)) ∗ (bigSep Finset.univ fun d : Dev nD => Gd (F := F) d)
          ∗ bigSep Finset.univ fun thr : Thread nD τ => bigSep Finset.univ fun q : Fin 1 => (P cf nf).x q thr) := by
  unfold u₀
  rw [Px_emp]
  iintro Hu
  ihave H := (ownU_pair _ _) $$ Hu
  icases H with ⟨HH, HR⟩
  ihave H' := (own_pair_emb embR _ _) $$ HR
  icases H' with ⟨HP, -⟩
  ihave HP' := (Entails.of_eq (show (BI.own (((Emb.inl : Emb UP (UP × Counters)).trans embR) (initOf (Pipeline.cells cfgs cellOf_inj) (Pipeline.launchToks cfgs cellOf_inj))) : sProp 𝕄)
      = BI.own (EP (F := F) (initOf (Pipeline.cells cfgs cellOf_inj) (Pipeline.launchToks cfgs cellOf_inj))) from rfl)) $$ HP
  imod (Pipeline.fund_ghost cfgs (EP (F := F)) cellOf_inj) $$ HP' with ⟨Hg, Ht⟩
  imodintro
  isplitl [HH]; · iexact HH
  isplitl [Hg Ht]
  · iapply (show iprop((bigSep Finset.univ fun c : Dev nD => bigSep Finset.univ fun p => Pipeline.cellsGhost cfgs (EP (F := F)) p c)
          ∗ (bigSep Finset.univ fun c : Dev nD => bigSep Finset.univ fun p => (Pipeline.toksInit cfgs (EP (F := F)) p c : sProp 𝕄)))
        ⊢ bigSep Finset.univ fun c : Dev nD => Gd (F := F) c from by
      rw [← bigSep_sep']
      exact bigSep_mono fun c _ => show iprop((bigSep Finset.univ fun p : Fin 2 => Pipeline.cellsGhost cfgs (EP (F := F)) p c)
            ∗ bigSep Finset.univ fun p : Fin 2 => (Pipeline.toksInit cfgs (EP (F := F)) p c : sProp 𝕄))
          ⊢ (bigSep Finset.univ fun p : Fin 2 => iprop(Pipeline.cellsGhost cfgs (EP (F := F)) p c ∗ Pipeline.toksInit cfgs (EP (F := F)) p c) : sProp 𝕄)
        from Entails.of_eq (by rw [← bigSep_sep']))
    isplitl [Hg] <;> iassumption
  iempintro

/-! ## The run -/

/-- What every final memory satisfies: on each device every unscoped array holds the fold's last value. -/
def QC : PUnit × MemSt nD τ sig (Elt F) → Prop := fun r => ∀ d : Dev nD, ∀ b ∈ Pipeline.ucRefs τ sig, r.2.mem (d, b) = W7 m d b

/-- Every weakly fair execution of the whole family of threads terminates, nothing faulting, and ends with every
    TensorCore array at the fold's last value — provided every neighbour word names an atom. -/
theorem run_main [∀ e, Nonempty (Elt F e)] (hpre : NlOK (nfAt m)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (cfAt m) (nfAt m)) facts v₀
    (fun q hq => match q with | 0 => nomatch hq)
    (fun q _ => match q with | 0 => tileObl (cfAt m) (nfAt m) facts hpre)
    (fun q _ => match q with | 0 => SparseCore.Cfg.VecSplit.of_plain (vecSplit (cfAt m) (nfAt m)))
    m ρ main (Gd (F := F)) (FIN m) (u₀ (F := F)) (sep_elim_left.trans (hu₀ (cfAt m) (nfAt m))) (hmain m ρ) (fq m) (hfin m) (QC m) (fun _ h => h)

end Cert.KernelIdeal.Main

end
-- ==== Proof.ArgsKept.lean ====
/-
  The arguments of @main end as launched. Along @main the contents of the TensorCore's arrays are a fold from the launch
  memory: four straight lines of layout operations, the gather between the first two, a kernel between each later pair.
  An operation of a line writes its one result array; the gather writes its three coordinate planes; a kernel writes
  among its own arrays only, and those are results of the lines before it. None of these is one of the seventeen
  argument arrays, so at an argument the fold walks back, boundary by boundary, to the launch memory. Which array is
  which is a comparison of references, made once for all seventeen arguments.
-/
import proofs.«205418_g46067819217304_cont_8to1_c_241_17_alg».proof.Proof.Main
import Idealize.ShloMosaic.Lib.StableHlo.Run
import Idealize.ShloMosaic.Lib.Pipeline.FrameSuffix
import Mathlib.Data.Finset.Insert
import Mathlib.Data.Finset.Dedup

noncomputable section

namespace Cert.KernelIdeal.ArgsKept

open Cert.KernelIdeal Cert.KernelIdeal.MainShape Cert.KernelIdeal.Main
open Idealize.ShloMosaic Idealize.ShloMosaic.TcCoe
open Idealize.SL.Sem

variable {F : FTy → Type} [FloatOps F] [Named F]

variable (m : (ℓ : Loc nD τ sig) → Buf (Elt F) ℓ)

/-! ## The arrays in question -/

/-- The seventeen arguments of @main: coordinates, atom types, neighbour list, the two statistics tables and the two
    embedding nets' six weight and bias arrays each. -/
abbrev args : List (Ref sig .tc) :=
  [main_arg0, main_arg1, main_arg2, main_arg3, main_arg4, main_arg5, main_arg6, main_arg7, main_arg8, main_arg9,
   main_arg10, main_arg11, main_arg12, main_arg13, main_arg14, main_arg15, main_arg16]

/-- The results of the two reshapes before the gather. -/
abbrev wHead : List (Ref sig .tc) := [main_v0, main_v1]
/-- The gather's three results. -/
abbrev wGather : List (Ref sig .tc) := [main_v2_0, main_v2_1, main_v2_2]
/-- The results of the line between the gather and the environment kernel. -/
abbrev wAfterGather : List (Ref sig .tc) := [main_v3, main_v4, main_v5, main_v6, main_v7, main_v8, main_v9, main_v10, main_v11]
/-- The results of the line between the two kernels. -/
abbrev wAfterEnv : List (Ref sig .tc) :=
  [main_v13, main_v14, main_v15, main_v16, main_v17, main_v18, main_v19, main_v20, main_v21, main_v22, main_v23,
   main_v24, main_v25, main_v26, main_v27, main_v28, main_v29, main_v30, main_v31, main_v32, main_v33, main_v34,
   main_v35, main_v36, main_v37, main_v38, main_v39, main_v40]
/-- The results of the last line. -/
abbrev wTail : List (Ref sig .tc) := [main_v42, main_v43]

/-! ## Each line writes its results only -/

/-- An operation whose one written array is a member of a list writes within the list. -/
theorem sub_of_mem {W : List (Ref sig .tc)} {y : Ref sig .tc} (hy : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem hy))

theorem opsHead_writes :
    (opsHead : List (HloOp τ sig (Elt F))).Forall fun op => op.writes ⊆ (wHead.map (Proc.devRef (τ := τ) .tc)).toFinset :=
  ⟨sub_of_mem (by decide), sub_of_mem (by decide)⟩
theorem opsAfterGather_writes :
    (opsAfterGather : List (HloOp τ sig (Elt F))).Forall fun op => op.writes ⊆ (wAfterGather.map (Proc.devRef (τ := τ) .tc)).toFinset :=
  ⟨sub_of_mem (by decide), sub_of_mem (by decide), sub_of_mem (by decide), sub_of_mem (by decide), sub_of_mem (by decide), sub_of_mem (by decide), sub_of_mem (by decide), sub_of_mem (by decide), sub_of_mem (by decide)⟩
theorem opsAfterEnv_writes :
    (opsAfterEnv : List (HloOp τ sig (Elt F))).Forall fun op => op.writes ⊆ (wAfterEnv.map (Proc.devRef (τ := τ) .tc)).toFinset :=
  ⟨sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide)⟩
theorem opsTail_writes :
    (opsTail : List (HloOp τ sig (Elt F))).Forall fun op => op.writes ⊆ (wTail.map (Proc.devRef (τ := τ) .tc)).toFinset :=
  ⟨sub_of_mem (by decide), sub_of_mem (by decide)⟩

/-! ## No argument is written: the comparisons, once for the seventeen -/

theorem args_not_wHead : ∀ r ∈ args, r ∉ wHead := by decide
theorem args_not_wGather : ∀ r ∈ args, r ∉ wGather := by decide
theorem args_not_wAfterGather : ∀ r ∈ args, r ∉ wAfterGather := by decide
theorem args_not_wAfterEnv : ∀ r ∈ args, r ∉ wAfterEnv := by decide
theorem args_not_wTail : ∀ r ∈ args, r ∉ wTail := by decide
/-- No argument is an array of the environment kernel: its operands are results of the line before it. -/
theorem args_not_arr1 : ∀ r ∈ args, ∀ w, Pipeline.arrRef spec1 w ≠ r := by decide
/-- No argument is an array of the embedding kernel. -/
theorem args_not_arr2 : ∀ r ∈ args, ∀ w, Pipeline.arrRef spec2 w ≠ r := by decide

/-- An argument is none of the gather's results, as arrays of the device. -/
theorem arg_ne_gather {r : Ref sig .tc} (hr : r ∈ args) {y : Ref sig .tc} (hy : y ∈ wGather) :
    (Proc.devRef .tc r : DevRef τ sig) ≠ Proc.devRef .tc y :=
  StableHlo.devRef_ne_of_ne fun e => args_not_wGather r hr (e ▸ hy)

/-! ## The fold at an argument -/

/-- When @main returns every argument array holds what it was launched with: the fold's last value at the argument is
    the value before the last line, which is the value before the embedding kernel, and so on back to the launch. -/
theorem W7_arg (d : Dev nD) (r : Ref sig .tc) (hr : r ∈ args) :
    W7 m d (Proc.devRef .tc r) = m ((d.tc : Thread nD τ).loc r) :=
  calc W7 m d (Proc.devRef .tc r)
    _ = W6 m d (Proc.devRef .tc r) := StableHlo.after_of_writes_sub opsTail _ opsTail_writes (args_not_wTail r hr)
    _ = W5 m d (Proc.devRef .tc r) := W6_of_ne m d r (args_not_arr2 r hr)
    _ = W4 m d (Proc.devRef .tc r) := StableHlo.after_of_writes_sub opsAfterEnv _ opsAfterEnv_writes (args_not_wAfterEnv r hr)
    _ = W3 m d (Proc.devRef .tc r) := W4_of_ne m d r (args_not_arr1 r hr)
    _ = W2 m d (Proc.devRef .tc r) := StableHlo.after_of_writes_sub opsAfterGather _ opsAfterGather_writes (args_not_wAfterGather r hr)
    _ = W1 m d (Proc.devRef .tc r) :=
        W2_of_ne m d _ (arg_ne_gather hr (by decide)) (arg_ne_gather hr (by decide)) (arg_ne_gather hr (by decide))
    _ = W0 m d (Proc.devRef .tc r) := StableHlo.after_of_writes_sub opsHead _ opsHead_writes (args_not_wHead r hr)
    _ = m ((d.tc : Thread nD τ).loc r) := rfl

/-! ## Argument by argument -/

theorem W7_main_arg0 (d : Dev nD) : W7 m d (Proc.devRef .tc main_arg0) = m ((d.tc : Thread nD τ).loc main_arg0) := W7_arg m d main_arg0 (by decide)
theorem W7_main_arg1 (d : Dev nD) : W7 m d (Proc.devRef .tc main_arg1) = m ((d.tc : Thread nD τ).loc main_arg1) := W7_arg m d main_arg1 (by decide)
theorem W7_main_arg2 (d : Dev nD) : W7 m d (Proc.devRef .tc main_arg2) = m ((d.tc : Thread nD τ).loc main_arg2) := W7_arg m d main_arg2 (by decide)
theorem W7_main_arg3 (d : Dev nD) : W7 m d (Proc.devRef .tc main_arg3) = m ((d.tc : Thread nD τ).loc main_arg3) := W7_arg m d main_arg3 (by decide)
theorem W7_main_arg4 (d : Dev nD) : W7 m d (Proc.devRef .tc main_arg4) = m ((d.tc : Thread nD τ).loc main_arg4) := W7_arg m d main_arg4 (by decide)
theorem W7_main_arg5 (d : Dev nD) : W7 m d (Proc.devRef .tc main_arg5) = m ((d.tc : Thread nD τ).loc main_arg5) := W7_arg m d main_arg5 (by decide)
theorem W7_main_arg6 (d : Dev nD) : W7 m d (Proc.devRef .tc main_arg6) = m ((d.tc : Thread nD τ).loc main_arg6) := W7_arg m d main_arg6 (by decide)
theorem W7_main_arg7 (d : Dev nD) : W7 m d (Proc.devRef .tc main_arg7) = m ((d.tc : Thread nD τ).loc main_arg7) := W7_arg m d main_arg7 (by decide)
theorem W7_main_arg8 (d : Dev nD) : W7 m d (Proc.devRef .tc main_arg8) = m ((d.tc : Thread nD τ).loc main_arg8) := W7_arg m d main_arg8 (by decide)
theorem W7_main_arg9 (d : Dev nD) : W7 m d (Proc.devRef .tc main_arg9) = m ((d.tc : Thread nD τ).loc main_arg9) := W7_arg m d main_arg9 (by decide)
theorem W7_main_arg10 (d : Dev nD) : W7 m d (Proc.devRef .tc main_arg10) = m ((d.tc : Thread nD τ).loc main_arg10) := W7_arg m d main_arg10 (by decide)
theorem W7_main_arg11 (d : Dev nD) : W7 m d (Proc.devRef .tc main_arg11) = m ((d.tc : Thread nD τ).loc main_arg11) := W7_arg m d main_arg11 (by decide)
theorem W7_main_arg12 (d : Dev nD) : W7 m d (Proc.devRef .tc main_arg12) = m ((d.tc : Thread nD τ).loc main_arg12) := W7_arg m d main_arg12 (by decide)
theorem W7_main_arg13 (d : Dev nD) : W7 m d (Proc.devRef .tc main_arg13) = m ((d.tc : Thread nD τ).loc main_arg13) := W7_arg m d main_arg13 (by decide)
theorem W7_main_arg14 (d : Dev nD) : W7 m d (Proc.devRef .tc main_arg14) = m ((d.tc : Thread nD τ).loc main_arg14) := W7_arg m d main_arg14 (by decide)
theorem W7_main_arg15 (d : Dev nD) : W7 m d (Proc.devRef .tc main_arg15) = m ((d.tc : Thread nD τ).loc main_arg15) := W7_arg m d main_arg15 (by decide)
theorem W7_main_arg16 (d : Dev nD) : W7 m d (Proc.devRef .tc main_arg16) = m ((d.tc : Thread nD τ).loc main_arg16) := W7_arg m d main_arg16 (by decide)

end Cert.KernelIdeal.ArgsKept

end
-- ==== Proof.KSetup.lean ====
/-
  The program as the SparseCore launch theorem sees it, and the ghost state its proof runs over: the launch handshakes'
  rounds, the two TensorCore pipelines' staging cells (rounds with unit duties) and the counters of the gather
  kernel's local copies, side by side in one product. Every copy of the gather kernel is waited for by the tile that
  issued it and no tile signals another, so the kernel's part needs no schedule of its own: counters suffice.
-/
import proofs.«205418_g46067819217304_cont_8to1_c_241_17_alg».proof.Kernel
import proofs.«205418_g46067819217304_cont_8to1_c_241_17_alg».proof.Proof.Gen.Kernel
import Idealize.ShloMosaic.Lib.SparseCore.Launch
import Idealize.ShloMosaic.Lib.Pipeline.Kit
import Idealize.ShloMosaic.Lib.Pipeline.Regions
import Idealize.ShloMosaic.Lib.Transfers

noncomputable section

namespace Cert.Kernel.Setup

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.Sem
open Idealize.ShloMosaic.Rounds

variable {F : FTy → Type}

/-- The kernels' label signature: the base labels and the two pipelines' regions. -/
abbrev ΛP : Labels := Pipeline.Sig Λ₀ (Fin 2) fun p => (pcfgs (F := F) p).Adm
/-- The one SparseCore call of @main. -/
abbrev K : SparseCore.Cfg τ sig (ΛP (F := F)) 1 := sc (F := F)
/-- The body table below the SparseCore dispatch: the pipelines' over the kernels'. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds. -/
abbrev UH : Type := URounds (GSem nD τ sig) ℕ
/-- The pipelines' staging cells' rounds. -/
abbrev UP : Type := URounds (GSem nD τ sig) Unit
/-- Handshakes, pipelines, and the gather kernel's transfer counters (found by instance, rightmost). -/
abbrev UU : Type := UH × (UP × Counters)

/-- The model the whole proof runs over. -/
abbrev 𝕄F (F : FTy → Type) : Type := MT nD τ sig (HIx 1) (Elt F) ℕ UU ℕ

/-- The handshakes' rounds, the left factor. -/
abbrev EH : Emb UH (𝕄F F) := embL
/-- The pipelines' rounds: the left factor of the right factor. -/
def EP : Emb UP (𝕄F F) := (Emb.inl : Emb UP (UP × Counters)).trans embR

instance EP_landsIn : (EP : Emb UP (𝕄F F)).LandsIn (upEmb : UEmb _ (𝕄F F)) := by unfold EP; infer_instance

/-- The index the kernels' own waits and the pipelines' cells sit at: none of the launch's calls. -/
abbrev ι₀ : HIx 1 := none

end Cert.Kernel.Setup

end
-- ==== Proof.KMainShape.lean ====
/-
  @main of the kernel program, cut at its three launches: the SparseCore gather and the two TensorCore kernels. Between
  them stand only layout operations and one addition of weight halves, listed here in program order as four straight
  lines, so that @main is the chain: line, gather, line, environment kernel, line, embedding kernel, line. Every
  operation touches TensorCore arrays only. The statements are generic in the float instance.
-/
import proofs.«205418_g46067819217304_cont_8to1_c_241_17_alg».proof.Kernel
import proofs.«205418_g46067819217304_cont_8to1_c_241_17_alg».proof.Proof.Gen.Kernel
import Idealize.ShloMosaic.Lib.StableHlo.Run
import Idealize.ShloMosaic.Lib.Pipeline.Regions

noncomputable section

namespace Cert.Kernel.MainShape

open Cert.Kernel Cert.Kernel.Facts₀ Cert.Kernel.Facts Idealize.ShloMosaic Idealize.ShloMosaic.TcCoe Idealize.SL.Sem

variable {F : FTy → Type} [FloatOps F]

/-- The two reshapes that flatten the coordinates and the neighbour list for the gather. -/
abbrev opsHead : List (HloOp τ sig (Elt F)) :=
  [ StableHlo.reshape main_arg0 main_v0 rfl shapeCasts_S1x30720_S30720,
    StableHlo.reshape main_arg2 main_v1 rfl shapeCasts_S1x8192x138_S1130496 ]
/-- Each operation of the line touches TensorCore arrays only. -/
theorem opsHead_sub : (opsHead : List (HloOp τ sig (Elt F))).Forall fun op => op.bufs ⊆ StableHlo.tcRefs τ sig :=
  ⟨StableHlo.reshape_bufs_sub .., StableHlo.reshape_bufs_sub ..⟩

/-- After the gather: the three gathered coordinate planes as [8192,138] matrices, the centre atoms' coordinates and types (the first 8192 rows of the extended arrays), the statistics tables as [2,138] matrices. -/
abbrev opsAfterGather : List (HloOp τ sig (Elt F)) :=
  [ StableHlo.reshape main_v2_0 main_v3 rfl shapeCasts_S1130496_S8192x138,
    StableHlo.reshape main_v2_1 main_v4 rfl shapeCasts_S1130496_S8192x138,
    StableHlo.reshape main_v2_2 main_v5 rfl shapeCasts_S1130496_S8192x138,
    StableHlo.reshape main_arg0 main_v6 rfl shapeCasts_S1x30720_S10240x3,
    StableHlo.unary main_v6 main_v7 ((extractStridedSlice S8192x3 ![0, 0] · slices_S10240x3_S8192x3_0_0) : (⟨S10240x3, .f32⟩ : BufTy).Contents (Elt F) → (⟨S8192x3, .f32⟩ : BufTy).Contents (Elt F)),
    StableHlo.reshape main_arg1 main_v8 rfl shapeCasts_S1x10240_S10240x1,
    StableHlo.unary main_v8 main_v9 ((extractStridedSlice S8192x1 ![0, 0] · slices_S10240x1_S8192x1_0_0) : (⟨S10240x1, .i32⟩ : BufTy).Contents (Elt F) → (⟨S8192x1, .i32⟩ : BufTy).Contents (Elt F)),
    StableHlo.reshape main_arg3 main_v10 rfl shapeCasts_S2x138x1_S2x138,
    StableHlo.reshape main_arg4 main_v11 rfl shapeCasts_S2x138x1_S2x138 ]
/-- Each operation of the line touches TensorCore arrays only. -/
theorem opsAfterGather_sub : (opsAfterGather : List (HloOp τ sig (Elt F))).Forall fun op => op.bufs ⊆ StableHlo.tcRefs τ sig :=
  ⟨StableHlo.reshape_bufs_sub .., StableHlo.reshape_bufs_sub .., StableHlo.reshape_bufs_sub .., StableHlo.reshape_bufs_sub .., StableHlo.unary_bufs_sub .., StableHlo.reshape_bufs_sub .., StableHlo.unary_bufs_sub .., StableHlo.reshape_bufs_sub .., StableHlo.reshape_bufs_sub ..⟩

/-- After the environment kernel: each slot type's normalised entries laid out as 64 blocks of (slot, 128 atoms) in one row; the third-layer weights transposed and joined with the transposed sum of their two row halves; the other weights transposed and the biases as columns. -/
abbrev opsAfterEnv : List (HloOp τ sig (Elt F)) :=
  [ StableHlo.reshape main_v12_0 main_v13 rfl shapeCasts_S8192x46_S64x128x46,
    StableHlo.unary main_v13 main_v14 ((transpose S64x46x128 [0, 2, 1] · transposes_S64x128x46_S64x46x128_0_2_1) : (⟨S64x128x46, .f32⟩ : BufTy).Contents (Elt F) → (⟨S64x46x128, .f32⟩ : BufTy).Contents (Elt F)),
    StableHlo.reshape main_v14 main_v15 rfl shapeCasts_S64x46x128_S1x376832,
    StableHlo.reshape main_v12_1 main_v16 rfl shapeCasts_S8192x92_S64x128x92,
    StableHlo.unary main_v16 main_v17 ((transpose S64x92x128 [0, 2, 1] · transposes_S64x128x92_S64x92x128_0_2_1) : (⟨S64x128x92, .f32⟩ : BufTy).Contents (Elt F) → (⟨S64x92x128, .f32⟩ : BufTy).Contents (Elt F)),
    StableHlo.reshape main_v17 main_v18 rfl shapeCasts_S64x92x128_S1x753664,
    StableHlo.unary main_arg9 main_v19 ((transpose S100x50 [1, 0] · transposes_S50x100_S100x50_1_0) : (⟨S50x100, .f32⟩ : BufTy).Contents (Elt F) → (⟨S100x50, .f32⟩ : BufTy).Contents (Elt F)),
    StableHlo.unary main_arg9 main_v20 ((extractStridedSlice S25x100 ![0, 0] · slices_S50x100_S25x100_0_0) : (⟨S50x100, .f32⟩ : BufTy).Contents (Elt F) → (⟨S25x100, .f32⟩ : BufTy).Contents (Elt F)),
    StableHlo.unary main_arg9 main_v21 ((extractStridedSlice S25x100 ![25, 0] · slices_S50x100_S25x100_25_0) : (⟨S50x100, .f32⟩ : BufTy).Contents (Elt F) → (⟨S25x100, .f32⟩ : BufTy).Contents (Elt F)),
    StableHlo.binary main_v20 main_v21 main_v22 (addf : (⟨S25x100, .f32⟩ : BufTy).Contents (Elt F) → (⟨S25x100, .f32⟩ : BufTy).Contents (Elt F) → (⟨S25x100, .f32⟩ : BufTy).Contents (Elt F)),
    StableHlo.unary main_v22 main_v23 ((transpose S100x25 [1, 0] · transposes_S25x100_S100x25_1_0) : (⟨S25x100, .f32⟩ : BufTy).Contents (Elt F) → (⟨S100x25, .f32⟩ : BufTy).Contents (Elt F)),
    StableHlo.binary main_v19 main_v23 main_v24 ((fun a b => concatenate S100x75 1 [⟨S100x50, a⟩, ⟨S100x25, b⟩] concatenates_S100x50_S100x25_S100x75_d1) : (⟨S100x50, .f32⟩ : BufTy).Contents (Elt F) → (⟨S100x25, .f32⟩ : BufTy).Contents (Elt F) → (⟨S100x75, .f32⟩ : BufTy).Contents (Elt F)),
    StableHlo.unary main_arg15 main_v25 ((transpose S100x50 [1, 0] · transposes_S50x100_S100x50_1_0) : (⟨S50x100, .f32⟩ : BufTy).Contents (Elt F) → (⟨S100x50, .f32⟩ : BufTy).Contents (Elt F)),
    StableHlo.unary main_arg15 main_v26 ((extractStridedSlice S25x100 ![0, 0] · slices_S50x100_S25x100_0_0) : (⟨S50x100, .f32⟩ : BufTy).Contents (Elt F) → (⟨S25x100, .f32⟩ : BufTy).Contents (Elt F)),
    StableHlo.unary main_arg15 main_v27 ((extractStridedSlice S25x100 ![25, 0] · slices_S50x100_S25x100_25_0) : (⟨S50x100, .f32⟩ : BufTy).Contents (Elt F) → (⟨S25x100, .f32⟩ : BufTy).Contents (Elt F)),
    StableHlo.binary main_v26 main_v27 main_v28 (addf : (⟨S25x100, .f32⟩ : BufTy).Contents (Elt F) → (⟨S25x100, .f32⟩ : BufTy).Contents (Elt F) → (⟨S25x100, .f32⟩ : BufTy).Contents (Elt F)),
    StableHlo.unary main_v28 main_v29 ((transpose S100x25 [1, 0] · transposes_S25x100_S100x25_1_0) : (⟨S25x100, .f32⟩ : BufTy).Contents (Elt F) → (⟨S100x25, .f32⟩ : BufTy).Contents (Elt F)),
    StableHlo.binary main_v25 main_v29 main_v30 ((fun a b => concatenate S100x75 1 [⟨S100x50, a⟩, ⟨S100x25, b⟩] concatenates_S100x50_S100x25_S100x75_d1) : (⟨S100x50, .f32⟩ : BufTy).Contents (Elt F) → (⟨S100x25, .f32⟩ : BufTy).Contents (Elt F) → (⟨S100x75, .f32⟩ : BufTy).Contents (Elt F)),
    StableHlo.unary main_arg5 main_v31 ((transpose S25x1 [1, 0] · transposes_S1x25_S25x1_1_0) : (⟨S1x25, .f32⟩ : BufTy).Contents (Elt F) → (⟨S25x1, .f32⟩ : BufTy).Contents (Elt F)),
    StableHlo.reshape main_arg6 main_v32 rfl shapeCasts_S25_S25x1,
    StableHlo.unary main_arg7 main_v33 ((transpose S50x25 [1, 0] · transposes_S25x50_S50x25_1_0) : (⟨S25x50, .f32⟩ : BufTy).Contents (Elt F) → (⟨S50x25, .f32⟩ : BufTy).Contents (Elt F)),
    StableHlo.reshape main_arg8 main_v34 rfl shapeCasts_S50_S50x1,
    StableHlo.reshape main_arg10 main_v35 rfl shapeCasts_S100_S100x1,
    StableHlo.unary main_arg11 main_v36 ((transpose S25x1 [1, 0] · transposes_S1x25_S25x1_1_0) : (⟨S1x25, .f32⟩ : BufTy).Contents (Elt F) → (⟨S25x1, .f32⟩ : BufTy).Contents (Elt F)),
    StableHlo.reshape main_arg12 main_v37 rfl shapeCasts_S25_S25x1,
    StableHlo.unary main_arg13 main_v38 ((transpose S50x25 [1, 0] · transposes_S25x50_S50x25_1_0) : (⟨S25x50, .f32⟩ : BufTy).Contents (Elt F) → (⟨S50x25, .f32⟩ : BufTy).Contents (Elt F)),
    StableHlo.reshape main_arg14 main_v39 rfl shapeCasts_S50_S50x1,
    StableHlo.reshape main_arg16 main_v40 rfl shapeCasts_S100_S100x1 ]
/-- Each operation of the line touches TensorCore arrays only. -/
theorem opsAfterEnv_sub : (opsAfterEnv : List (HloOp τ sig (Elt F))).Forall fun op => op.bufs ⊆ StableHlo.tcRefs τ sig :=
  ⟨StableHlo.reshape_bufs_sub .., StableHlo.unary_bufs_sub .., StableHlo.reshape_bufs_sub .., StableHlo.reshape_bufs_sub .., StableHlo.unary_bufs_sub .., StableHlo.reshape_bufs_sub .., StableHlo.unary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.unary_bufs_sub .., StableHlo.reshape_bufs_sub .., StableHlo.unary_bufs_sub .., StableHlo.reshape_bufs_sub .., StableHlo.reshape_bufs_sub .., StableHlo.unary_bufs_sub .., StableHlo.reshape_bufs_sub .., StableHlo.unary_bufs_sub .., StableHlo.reshape_bufs_sub .., StableHlo.reshape_bufs_sub ..⟩

/-- After the embedding kernel: the [100,8192] result transposed and given its leading unit axis. -/
abbrev opsTail : List (HloOp τ sig (Elt F)) :=
  [ StableHlo.unary main_v41 main_v42 ((transpose S8192x100 [1, 0] · transposes_S100x8192_S8192x100_1_0) : (⟨S100x8192, .f32⟩ : BufTy).Contents (Elt F) → (⟨S8192x100, .f32⟩ : BufTy).Contents (Elt F)),
    StableHlo.reshape main_v42 main_v43 rfl shapeCasts_S8192x100_S1x8192x100 ]
/-- Each operation of the line touches TensorCore arrays only. -/
theorem opsTail_sub : (opsTail : List (HloOp τ sig (Elt F))).Forall fun op => op.bufs ⊆ StableHlo.tcRefs τ sig :=
  ⟨StableHlo.unary_bufs_sub .., StableHlo.reshape_bufs_sub ..⟩

/-- @main is the chain of its seven items. -/
theorem main_chain (d : Dev nD) : main (F := F) d = (Pipeline.chain
  [ StableHlo.seq opsHead,
    sc.run d 0,
    StableHlo.seq opsAfterGather,
    Prog.lift (.customCall (SparseCore.inner (Pipeline.entry 0)) ()),
    StableHlo.seq opsAfterEnv,
    Prog.lift (.customCall (SparseCore.inner (Pipeline.entry 1)) ()),
    StableHlo.seq opsTail ] : Prog (TpuEff nD τ sig (Elt F) (SparseCore.Sig (Pipeline.Sig Λ₀ (Fin 2) fun p => (pcfgs (F := F) p).Adm) 1) .tc) PUnit) := by
  chain_rfl

end Cert.Kernel.MainShape

end
-- ==== Proof.KScSplit.lean ====
/-
  The SparseCore gather call's interface: the five arrays, the value each result holds after it (gatherAt, one
  function of the call's two operands per result), the ranges of flat positions a SparseCore, a tile and a
  sub-chunk own, what the launch handshakes carry for the call (P), and how the arrays split along those ranges and
  the operands' read shares among the readers, and join again: between the TensorCore and the two SparseCores
  (st_intro, dn_elim), and between a SparseCore and its sixteen tiles (vecSplit).
-/
import proofs.«205418_g46067819217304_cont_8to1_c_241_17_alg».proof.Kernel
import proofs.«205418_g46067819217304_cont_8to1_c_241_17_alg».proof.Proof.KSetup
import Idealize.ShloMosaic.Lib.SparseCore.Launch
import Idealize.ShloMosaic.Lib.Tactic
import Idealize.ShloMosaic.Lib.Transfers
import Idealize.ShloMosaic.Lib.ValueIdx

noncomputable section

namespace Cert.KScGather

open Cert.Kernel Cert.Kernel.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => 𝕄F F

/-! ## The arrays -/

/-- The flat coordinate array and the flat neighbour list (the call's operands) and its three results, on device d. -/
abbrev cLoc (d : Dev nD) : Loc nD τ sig := (SparseCore.T d).loc main_v0
abbrev nLoc (d : Dev nD) : Loc nD τ sig := (SparseCore.T d).loc main_v1
abbrev xLoc (d : Dev nD) : Loc nD τ sig := (SparseCore.T d).loc main_v2_0
abbrev yLoc (d : Dev nD) : Loc nD τ sig := (SparseCore.T d).loc main_v2_1
abbrev zLoc (d : Dev nD) : Loc nD τ sig := (SparseCore.T d).loc main_v2_2

/-! ## The value -/

/-- Position n of the flat coordinate array, reduced modulo its extent so that the function is total. -/
def cIx (n : Nat) : S30720.Idx := ValueIdx.ix1 ⟨n % 30720, Nat.mod_lt _ (by decide)⟩

/-- What the gather leaves at flat position k of the result for axis a (0, 1, 2 for x, y, z): the coordinate word
    at 3 n + a, n the neighbour word at k. -/
def gatherAt (cf : Vec F S30720 .f32) (nf : IVec S1130496 32) (a : Nat) : Vec F S1130496 .f32 :=
  fun k => cf (cIx (3 * (nf k).toNat + a))

/-- Every neighbour word names an atom: read as a signed word it lies in [0, 10239]. Then 3 n + 2 < 30720 and no
    32-bit product wraps. -/
def NlOK (nf : (d : Dev nD) → Buf (Elt F) (nLoc d)) : Prop :=
  ∀ d k, 0 ≤ ((nf d k : BitVec 32)).toInt ∧ ((nf d k : BitVec 32)).toInt ≤ 10239

/-! ## Ranges of flat positions -/

/-- The flat positions [off, off + len). -/
def seg (off len : Nat) (h : off + len ≤ 1130496) : Finset S1130496.Idx :=
  (Rect.unit (s := S1130496) ![off] ![len] (Rect.inb₁ h)).set

theorem mem_seg {off len : Nat} {h : off + len ≤ 1130496} {k : S1130496.Idx} :
    k ∈ seg off len h ↔ off ≤ (k 0).val ∧ (k 0).val < off + len := by
  unfold seg
  rw [Rect.mem_set_unit]
  constructor
  · intro hk; exact hk 0
  · intro hk a
    obtain rfl : a = 0 := Subsingleton.elim _ _
    exact hk

/-- SparseCore c's half, tile (c, i)'s range, and sub-chunk b of it. -/
def coreSeg (c : Fin 2) : Finset S1130496.Idx := seg (565248 * c.val) 565248 (by have := c.isLt; omega)
def tileSeg (c : Fin 2) (i : Fin 16) : Finset S1130496.Idx :=
  seg (565248 * c.val + 35328 * i.val) 35328 (by have := c.isLt; have := i.isLt; omega)
def chunkSeg (c : Fin 2) (i : Fin 16) (b : Fin 8) : Finset S1130496.Idx :=
  seg (565248 * c.val + 35328 * i.val + 4416 * b.val) 4416 (by have := c.isLt; have := i.isLt; have := b.isLt; omega)

theorem chunk_disjoint (c : Fin 2) (i : Fin 16) : ∀ b ∈ (Finset.univ : Finset (Fin 8)), ∀ b' ∈ (Finset.univ : Finset (Fin 8)), b ≠ b' →
    Disjoint (chunkSeg c i b) (chunkSeg c i b') := by
  intro b _ b' _ hbb
  refine Finset.disjoint_left.mpr fun k h1 h2 => ?_
  unfold chunkSeg at h1 h2
  rw [mem_seg] at h1 h2
  have : b.val ≠ b'.val := fun e => hbb (Fin.ext e)
  omega

/-- A tile's range is its eight sub-chunks. -/
theorem chunk_cover (c : Fin 2) (i : Fin 16) : (Finset.univ : Finset (Fin 8)).biUnion (chunkSeg c i) = tileSeg c i := by
  ext k
  simp only [Finset.mem_biUnion, Finset.mem_univ, true_and]
  unfold chunkSeg tileSeg
  simp only [mem_seg]
  constructor
  · rintro ⟨b, hb⟩; have := b.isLt; omega
  · intro hk
    refine ⟨⟨((k 0).val - (565248 * c.val + 35328 * i.val)) / 4416, by omega⟩, ?_⟩
    simp only
    omega

theorem tile_disjoint (c : Fin 2) : ∀ i ∈ (Finset.univ : Finset (Fin 16)), ∀ i' ∈ (Finset.univ : Finset (Fin 16)), i ≠ i' →
    Disjoint (tileSeg c i) (tileSeg c i') := by
  intro i _ i' _ hii
  refine Finset.disjoint_left.mpr fun k h1 h2 => ?_
  unfold tileSeg at h1 h2
  rw [mem_seg] at h1 h2
  have : i.val ≠ i'.val := fun e => hii (Fin.ext e)
  omega

/-- A SparseCore's half is its sixteen tiles' ranges. -/
theorem tile_cover (c : Fin 2) : (Finset.univ : Finset (Fin 16)).biUnion (tileSeg c) = coreSeg c := by
  ext k
  simp only [Finset.mem_biUnion, Finset.mem_univ, true_and]
  unfold tileSeg coreSeg
  simp only [mem_seg]
  constructor
  · rintro ⟨i, hi⟩; have := i.isLt; omega
  · intro hk
    refine ⟨⟨((k 0).val - 565248 * c.val) / 35328, by omega⟩, ?_⟩
    simp only
    omega

theorem core_disjoint : Disjoint (coreSeg 0) (coreSeg 1) := by
  refine Finset.disjoint_left.mpr fun k h1 h2 => ?_
  unfold coreSeg at h1 h2
  rw [mem_seg] at h1 h2
  simp only [Fin.val_zero, Fin.val_one] at h1 h2
  omega

/-- The two halves are every position. -/
theorem core_cover : coreSeg 0 ∪ coreSeg 1 = Finset.univ := by
  ext k
  simp only [Finset.mem_union, Finset.mem_univ, iff_true]
  unfold coreSeg
  simp only [mem_seg, Fin.val_zero, Fin.val_one]
  have hk : (k 0).val < 1130496 := (k 0).isLt
  omega

/-! ## Index words -/

/-- A word in [0, 10239] as a signed number is at most 10239 as an unsigned one. -/
theorem toNat_of_ok {w : BitVec 32} (h0 : 0 ≤ w.toInt) (h1 : w.toInt ≤ 10239) : w.toNat ≤ 10239 := by
  rw [BitVec.toInt_eq_toNat_cond] at h0 h1
  split at h0 <;> omega

/-- Three times such a word does not wrap, -/
theorem mul3_toNat {w : BitVec 32} (hw : w.toNat ≤ 10239) : (w * 3#32).toNat = 3 * w.toNat := by
  rw [BitVec.toNat_mul]
  simp only [BitVec.toNat_ofNat]
  omega

/-- nor does adding 1 or 2 to it. -/
theorem mul3_add_toNat {w : BitVec 32} (hw : w.toNat ≤ 10239) (a : Nat) (ha : a ≤ 2) :
    (w * 3#32 + BitVec.ofNat 32 a).toNat = 3 * w.toNat + a := by
  rw [BitVec.toNat_add, mul3_toNat hw]
  simp only [BitVec.toNat_ofNat]
  omega

/-! ## What the handshakes carry -/

theorem nCore_zero : (K (F := F)).nCore 0 = 2 := rfl
theorem nSub_zero : (K (F := F)).nSub 0 = 16 := rfl

/-- The read share of the operands a SparseCore is handed: the two halves of the whole, so that the two come
    back to exactly the whole. A tile's: the sixteen read tokens of its SparseCore's half, the remainder staying
    with the split. -/
def qC (c : Fin 2) : PosShare TreeShare := if c.val = 0 then fullShare.left else fullShare.right
abbrev qT (c : Fin 2) (i : Fin 16) : PosShare TreeShare := Transfers.shareTok (qC c) 16 i

variable (cf : (d : Dev nD) → Buf (Elt F) (cLoc d)) (nf : (d : Dev nD) → Buf (Elt F) (nLoc d))

/-- The operands read-only at share q, and the positions R of the three results at whatever they hold. -/
def handed (d : Dev nD) (q : PosShare TreeShare) (R : Finset S1130496.Idx) : sProp 𝕄 :=
  iprop((cLoc d ↦{q} cf d) ∗ (nLoc d ↦{q} nf d)
    ∗ (∃ f, xLoc d ↦[R]{fullShare} f) ∗ (∃ f, yLoc d ↦[R]{fullShare} f) ∗ (∃ f, zLoc d ↦[R]{fullShare} f))

/-- The same back, the positions R of the three results holding the gathered words. -/
def gathered (d : Dev nD) (q : PosShare TreeShare) (R : Finset S1130496.Idx) : sProp 𝕄 :=
  iprop((cLoc d ↦{q} cf d) ∗ (nLoc d ↦{q} nf d)
    ∗ (xLoc d ↦[R]{fullShare} gatherAt (cf d) (nf d) 0) ∗ (yLoc d ↦[R]{fullShare} gatherAt (cf d) (nf d) 1)
    ∗ (zLoc d ↦[R]{fullShare} gatherAt (cf d) (nf d) 2))

/-- The one call: a SparseCore takes a read share of the operands and its half of the results and brings them back
    gathered; a tile the same of its range. The kernel's proof consumes nothing of the launch's. -/
def P : (K (F := F)).Pay (nD := nD) (Val := Elt F) (Name := ℕ) (U := UU) where
  st := fun q d c => match q with | 0 => handed cf nf d (qC (Fin.cast nCore_zero c)) (coreSeg (Fin.cast nCore_zero c))
  dn := fun q d c => match q with | 0 => gathered cf nf d (qC (Fin.cast nCore_zero c)) (coreSeg (Fin.cast nCore_zero c))
  go := fun q d c i => match q with
    | 0 => handed cf nf d (qT (Fin.cast nCore_zero c) (Fin.cast nSub_zero i)) (tileSeg (Fin.cast nCore_zero c) (Fin.cast nSub_zero i))
  td := fun q d c i => match q with
    | 0 => gathered cf nf d (qT (Fin.cast nCore_zero c) (Fin.cast nSub_zero i)) (tileSeg (Fin.cast nCore_zero c) (Fin.cast nSub_zero i))
  x := fun _ _ => iprop(emp)

set_option synthInstance.maxHeartbeats 400000 in
instance handed_storable (d : Dev nD) (q : PosShare TreeShare) (R : Finset S1130496.Idx) :
    BI.Storable (upEmb : UEmb _ 𝕄) (handed cf nf d q R) := by unfold handed; infer_instance
set_option synthInstance.maxHeartbeats 400000 in
instance gathered_storable (d : Dev nD) (q : PosShare TreeShare) (R : Finset S1130496.Idx) :
    BI.Storable (upEmb : UEmb _ 𝕄) (gathered cf nf d q R) := by unfold gathered; infer_instance

set_option synthInstance.maxHeartbeats 400000 in
instance P_storable : (P (F := F) cf nf).IsStorable where
  st q d c := match q with | 0 => by unfold P; infer_instance
  dn q d c := match q with | 0 => by unfold P; infer_instance
  go q d c i := match q with | 0 => by unfold P; infer_instance
  td q d c i := match q with | 0 => by unfold P; infer_instance

/-! ## Splitting and joining the arrays -/

theorem qC_zero : qC 0 = fullShare.left := if_pos rfl
theorem qC_one : qC 1 = fullShare.right := if_neg (by decide)

omit [FloatOps F] in
/-- A result whole is its two halves, -/
theorem x_cores (d : Dev nD) (f : Buf (Elt F) (xLoc d)) :
    (xLoc d ↦{fullShare} f : sProp 𝕄) ⊣⊢ iprop((xLoc d ↦[coreSeg 0]{fullShare} f) ∗ xLoc d ↦[coreSeg 1]{fullShare} f) := by
  have h : (xLoc d ↦[coreSeg 0 ∪ coreSeg 1]{fullShare} f : sProp 𝕄)
      ⊣⊢ iprop((xLoc d ↦[coreSeg 0]{fullShare} f) ∗ xLoc d ↦[coreSeg 1]{fullShare} f) := pointsTo_union core_disjoint
  rwa [core_cover] at h
omit [FloatOps F] in
theorem y_cores (d : Dev nD) (f : Buf (Elt F) (yLoc d)) :
    (yLoc d ↦{fullShare} f : sProp 𝕄) ⊣⊢ iprop((yLoc d ↦[coreSeg 0]{fullShare} f) ∗ yLoc d ↦[coreSeg 1]{fullShare} f) := by
  have h : (yLoc d ↦[coreSeg 0 ∪ coreSeg 1]{fullShare} f : sProp 𝕄)
      ⊣⊢ iprop((yLoc d ↦[coreSeg 0]{fullShare} f) ∗ yLoc d ↦[coreSeg 1]{fullShare} f) := pointsTo_union core_disjoint
  rwa [core_cover] at h
omit [FloatOps F] in
theorem z_cores (d : Dev nD) (f : Buf (Elt F) (zLoc d)) :
    (zLoc d ↦{fullShare} f : sProp 𝕄) ⊣⊢ iprop((zLoc d ↦[coreSeg 0]{fullShare} f) ∗ zLoc d ↦[coreSeg 1]{fullShare} f) := by
  have h : (zLoc d ↦[coreSeg 0 ∪ coreSeg 1]{fullShare} f : sProp 𝕄)
      ⊣⊢ iprop((zLoc d ↦[coreSeg 0]{fullShare} f) ∗ zLoc d ↦[coreSeg 1]{fullShare} f) := pointsTo_union core_disjoint
  rwa [core_cover] at h

omit [FloatOps F] in
/-- a half its sixteen tiles' ranges, -/
theorem x_tiles (d : Dev nD) (c : Fin 2) (f : Buf (Elt F) (xLoc d)) :
    (xLoc d ↦[coreSeg c]{fullShare} f : sProp 𝕄) = bigSep Finset.univ fun i : Fin 16 => xLoc d ↦[tileSeg c i]{fullShare} f := by
  rw [← pointsTo_biUnion Finset.univ (ℓ := xLoc d) (tileSeg c) (tile_disjoint c), tile_cover]
omit [FloatOps F] in
theorem y_tiles (d : Dev nD) (c : Fin 2) (f : Buf (Elt F) (yLoc d)) :
    (yLoc d ↦[coreSeg c]{fullShare} f : sProp 𝕄) = bigSep Finset.univ fun i : Fin 16 => yLoc d ↦[tileSeg c i]{fullShare} f := by
  rw [← pointsTo_biUnion Finset.univ (ℓ := yLoc d) (tileSeg c) (tile_disjoint c), tile_cover]
omit [FloatOps F] in
theorem z_tiles (d : Dev nD) (c : Fin 2) (f : Buf (Elt F) (zLoc d)) :
    (zLoc d ↦[coreSeg c]{fullShare} f : sProp 𝕄) = bigSep Finset.univ fun i : Fin 16 => zLoc d ↦[tileSeg c i]{fullShare} f := by
  rw [← pointsTo_biUnion Finset.univ (ℓ := zLoc d) (tileSeg c) (tile_disjoint c), tile_cover]

omit [FloatOps F] in
/-- and a tile's range its eight sub-chunks. -/
theorem x_chunks (d : Dev nD) (c : Fin 2) (i : Fin 16) (f : Buf (Elt F) (xLoc d)) :
    (xLoc d ↦[tileSeg c i]{fullShare} f : sProp 𝕄) = bigSep Finset.univ fun b : Fin 8 => xLoc d ↦[chunkSeg c i b]{fullShare} f := by
  rw [← pointsTo_biUnion Finset.univ (ℓ := xLoc d) (chunkSeg c i) (chunk_disjoint c i), chunk_cover]
omit [FloatOps F] in
theorem y_chunks (d : Dev nD) (c : Fin 2) (i : Fin 16) (f : Buf (Elt F) (yLoc d)) :
    (yLoc d ↦[tileSeg c i]{fullShare} f : sProp 𝕄) = bigSep Finset.univ fun b : Fin 8 => yLoc d ↦[chunkSeg c i b]{fullShare} f := by
  rw [← pointsTo_biUnion Finset.univ (ℓ := yLoc d) (chunkSeg c i) (chunk_disjoint c i), chunk_cover]
omit [FloatOps F] in
theorem z_chunks (d : Dev nD) (c : Fin 2) (i : Fin 16) (f : Buf (Elt F) (zLoc d)) :
    (zLoc d ↦[tileSeg c i]{fullShare} f : sProp 𝕄) = bigSep Finset.univ fun b : Fin 8 => zLoc d ↦[chunkSeg c i b]{fullShare} f := by
  rw [← pointsTo_biUnion Finset.univ (ℓ := zLoc d) (chunkSeg c i) (chunk_disjoint c i), chunk_cover]

/-- A family over the call's SparseCores, or over a SparseCore's tiles, indexed by their literal counts. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- Pieces all held at one contents are pieces each held at some. -/
theorem bigSep_some {I : Type} {Y : Type} (s : Finset I) (Φ : I → Y → sProp 𝕄) (y : Y) :
    (bigSep s fun i => Φ i y) ⊢ bigSep s fun i => iprop(∃ y, Φ i y) :=
  bigSep_mono fun i _ => exists_intro (Φ := fun y => Φ i y) y

/-! ## The splits -/

/-- A SparseCore's share splits among its sixteen tiles, and their gathered ranges join to its half. -/
theorem vecSplit : (K (F := F)).VecSplit' (P cf nf) 0 := by
  intro d c
  show handed cf nf d (qC (Fin.cast nCore_zero c)) (coreSeg (Fin.cast nCore_zero c)) ⊢ |={Set.univ}=> iprop(
      (bigSep Finset.univ fun i : Fin ((K (F := F)).nSub 0) =>
        handed cf nf d (qT (Fin.cast nCore_zero c) (Fin.cast nSub_zero i)) (tileSeg (Fin.cast nCore_zero c) (Fin.cast nSub_zero i)))
      ∗ ((bigSep Finset.univ fun i : Fin ((K (F := F)).nSub 0) =>
          gathered cf nf d (qT (Fin.cast nCore_zero c) (Fin.cast nSub_zero i)) (tileSeg (Fin.cast nCore_zero c) (Fin.cast nSub_zero i)))
          -∗ gathered cf nf d (qC (Fin.cast nCore_zero c)) (coreSeg (Fin.cast nCore_zero c))))
  generalize Fin.cast nCore_zero c = c'
  rw [bigSep_tasks (F := F) (fun i => handed cf nf d (qT c' i) (tileSeg c' i)),
    bigSep_tasks (F := F) (fun i => gathered cf nf d (qT c' i) (tileSeg c' i))]
  unfold handed gathered
  simp only [bigSep_sep', x_tiles, y_tiles, z_tiles]
  iintro ⟨Hc, Hn, ⟨%fx, Hx⟩, ⟨%fy, Hy⟩, ⟨%fz, Hz⟩⟩
  imodintro
  -- each operand's share: sixteen read tokens out, the remainder kept for the join
  ihave Hc' := (Transfers.pointsTo_toks_split (qC c') 16) $$ Hc
  icases Hc' with ⟨Hcd, Hct⟩
  ihave Hn' := (Transfers.pointsTo_toks_split (qC c') 16) $$ Hn
  icases Hn' with ⟨Hnd, Hnt⟩
  isplitl [Hct Hnt Hx Hy Hz]
  · isplitl [Hct]; · iexact Hct
    isplitl [Hnt]; · iexact Hnt
    isplitl [Hx]; · iapply (bigSep_some Finset.univ (fun (i : Fin 16) f => xLoc d ↦[tileSeg c' i]{fullShare} f) fx); iexact Hx
    isplitl [Hy]; · iapply (bigSep_some Finset.univ (fun (i : Fin 16) f => yLoc d ↦[tileSeg c' i]{fullShare} f) fy); iexact Hy
    iapply (bigSep_some Finset.univ (fun (i : Fin 16) f => zLoc d ↦[tileSeg c' i]{fullShare} f) fz); iexact Hz
  iintro ⟨Hct, Hnt, Hx, Hy, Hz⟩
  isplitl [Hcd Hct]
  · iapply (Transfers.pointsTo_toks_join (qC c') 16); isplitl [Hcd] <;> iassumption
  isplitl [Hnd Hnt]
  · iapply (Transfers.pointsTo_toks_join (qC c') 16); isplitl [Hnd] <;> iassumption
  isplitl [Hx]; · iexact Hx
  isplitl [Hy]; · iexact Hy
  iexact Hz

/-- At the call, on the TensorCore: the operands whole and the three results whole, at whatever they hold, are what
    the two SparseCores are handed; -/
theorem st_intro (d : Dev nD) :
    iprop((cLoc d ↦{fullShare} cf d) ∗ (nLoc d ↦{fullShare} nf d)
        ∗ (∃ f, xLoc d ↦{fullShare} f) ∗ (∃ f, yLoc d ↦{fullShare} f) ∗ (∃ f, zLoc d ↦{fullShare} f))
      ⊢ (bigSep Finset.univ fun c : Fin ((K (F := F)).nCore 0) => (P cf nf).st 0 d c : sProp 𝕄) := by
  show _ ⊢ bigSep Finset.univ fun c : Fin ((K (F := F)).nCore 0) =>
    handed cf nf d (qC (Fin.cast nCore_zero c)) (coreSeg (Fin.cast nCore_zero c))
  rw [bigSep_cores (F := F) (fun c => handed cf nf d (qC c) (coreSeg c)), bigSep_univ_two, qC_zero, qC_one]
  unfold handed
  iintro ⟨Hc, Hn, ⟨%fx, Hx⟩, ⟨%fy, Hy⟩, ⟨%fz, Hz⟩⟩
  ihave Hc' := (pointsTo_share (PosShare.mem_left_op_right fullShare)).1 $$ Hc
  icases Hc' with ⟨Hc0, Hc1⟩
  ihave Hn' := (pointsTo_share (PosShare.mem_left_op_right fullShare)).1 $$ Hn
  icases Hn' with ⟨Hn0, Hn1⟩
  ihave Hx' := (x_cores (F := F) d fx).1 $$ Hx
  icases Hx' with ⟨Hx0, Hx1⟩
  ihave Hy' := (y_cores (F := F) d fy).1 $$ Hy
  icases Hy' with ⟨Hy0, Hy1⟩
  ihave Hz' := (z_cores (F := F) d fz).1 $$ Hz
  icases Hz' with ⟨Hz0, Hz1⟩
  isplitl [Hc0 Hn0 Hx0 Hy0 Hz0]
  · isplitl [Hc0]; · iexact Hc0
    isplitl [Hn0]; · iexact Hn0
    isplitl [Hx0]; · iexists fx; iexact Hx0
    isplitl [Hy0]; · iexists fy; iexact Hy0
    iexists fz; iexact Hz0
  · isplitl [Hc1]; · iexact Hc1
    isplitl [Hn1]; · iexact Hn1
    isplitl [Hx1]; · iexists fx; iexact Hx1
    isplitl [Hy1]; · iexists fy; iexact Hy1
    iexists fz; iexact Hz1

/-- and what they bring back is the operands whole again and the three results whole, gathered. -/
theorem dn_elim (d : Dev nD) :
    (bigSep Finset.univ fun c : Fin ((K (F := F)).nCore 0) => (P cf nf).dn 0 d c : sProp 𝕄)
      ⊢ iprop((cLoc d ↦{fullShare} cf d) ∗ (nLoc d ↦{fullShare} nf d)
          ∗ (xLoc d ↦{fullShare} gatherAt (cf d) (nf d) 0) ∗ (yLoc d ↦{fullShare} gatherAt (cf d) (nf d) 1)
          ∗ (zLoc d ↦{fullShare} gatherAt (cf d) (nf d) 2)) := by
  show (bigSep Finset.univ fun c : Fin ((K (F := F)).nCore 0) =>
    gathered cf nf d (qC (Fin.cast nCore_zero c)) (coreSeg (Fin.cast nCore_zero c))) ⊢ _
  rw [bigSep_cores (F := F) (fun c => gathered cf nf d (qC c) (coreSeg c)), bigSep_univ_two, qC_zero, qC_one]
  unfold gathered
  iintro ⟨⟨Hc0, Hn0, Hx0, Hy0, Hz0⟩, ⟨Hc1, Hn1, Hx1, Hy1, Hz1⟩⟩
  isplitl [Hc0 Hc1]
  · iapply (pointsTo_share (PosShare.mem_left_op_right fullShare)).2; isplitl [Hc0] <;> iassumption
  isplitl [Hn0 Hn1]
  · iapply (pointsTo_share (PosShare.mem_left_op_right fullShare)).2; isplitl [Hn0] <;> iassumption
  isplitl [Hx0 Hx1]
  · iapply (x_cores (F := F) d _).2; isplitl [Hx0] <;> iassumption
  isplitl [Hy0 Hy1]
  · iapply (y_cores (F := F) d _).2; isplitl [Hy0] <;> iassumption
  iapply (z_cores (F := F) d _).2; isplitl [Hz0] <;> iassumption

end Cert.KScGather

end
-- ==== Proof.KScGather.lean ====
/-
  The SparseCore gather of the neighbour coordinates. Thirty-two vector subcores, tile (c, s) numbered w = 16 c + s,
  each own the flat positions [35328 w, 35328 (w + 1)) of the three results. A tile copies the whole flat coordinate
  array into its scratch once, then, eight times over, copies 4416 neighbour words of its range in, gathers for each
  word n the coordinate words 3 n, 3 n + 1 and 3 n + 2 sixteen lanes at a time, and copies the three gathered
  stretches out. Stated here: what the call is handed and hands back, per SparseCore and per tile, with each result
  range named as ONE function of the call's operands (gatherAt), so that the ranges join by extensionality; the
  tile's task from that; and how a SparseCore's share splits among its sixteen tiles and joins again.
-/
import proofs.«205418_g46067819217304_cont_8to1_c_241_17_alg».proof.Kernel
import proofs.«205418_g46067819217304_cont_8to1_c_241_17_alg».proof.Proof.Gen.Kernel
import proofs.«205418_g46067819217304_cont_8to1_c_241_17_alg».proof.Proof.Gen.Kernel.Skeleton
import proofs.«205418_g46067819217304_cont_8to1_c_241_17_alg».proof.Proof.KSetup
import proofs.«205418_g46067819217304_cont_8to1_c_241_17_alg».proof.Proof.KScSplit
import Idealize.ShloMosaic.Lib.SparseCore.Launch
import Idealize.ShloMosaic.Lib.SparseCore.Ops
import Idealize.ShloMosaic.Lib.Tactic
import Idealize.ShloMosaic.Lib.Transfers
import Idealize.ShloMosaic.Lib.ValueIdx

noncomputable section

namespace Cert.KScGather

open Cert.Kernel Cert.Kernel.Gen Cert.Kernel.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => 𝕄F F

variable (cf : (d : Dev nD) → Buf (Elt F) (cLoc d)) (nf : (d : Dev nD) → Buf (Elt F) (nLoc d))

/-! ## The task -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cL (L : grid0.Coords) : Fin 2 := Fin.cast bound_zero (L 0)
abbrev iL (L : grid0.Coords) : Fin 16 := Fin.cast bound_one (L 1)

-- the kernel's memrefs, spelt as the body table passes them
local notation "cW" => (Memref.whole Cert.Kernel.main_v0_scv : Memref Cert.Kernel.sig Kind.scVector Space.hbm Cert.Kernel.S30720 EltTy.f32)
local notation "nW" => (Memref.whole Cert.Kernel.main_v1_scv : Memref Cert.Kernel.sig Kind.scVector Space.hbm Cert.Kernel.S1130496 EltTy.i32)
local notation "xW" => (Memref.whole Cert.Kernel.main_v2_0_scv : Memref Cert.Kernel.sig Kind.scVector Space.hbm Cert.Kernel.S1130496 EltTy.f32)
local notation "yW" => (Memref.whole Cert.Kernel.main_v2_1_scv : Memref Cert.Kernel.sig Kind.scVector Space.hbm Cert.Kernel.S1130496 EltTy.f32)
local notation "zW" => (Memref.whole Cert.Kernel.main_v2_2_scv : Memref Cert.Kernel.sig Kind.scVector Space.hbm Cert.Kernel.S1130496 EltTy.f32)
local notation "sC" => (Memref.whole Cert.Kernel.cc0_scratch0 : Memref Cert.Kernel.sig Kind.scVector Space.vmem Cert.Kernel.S30720 EltTy.f32)
local notation "sN" => (Memref.whole Cert.Kernel.cc0_scratch1 : Memref Cert.Kernel.sig Kind.scVector Space.vmem Cert.Kernel.S4416 EltTy.i32)
local notation "sX" => (Memref.whole Cert.Kernel.cc0_scratch2 : Memref Cert.Kernel.sig Kind.scVector Space.vmem Cert.Kernel.S4416 EltTy.f32)
local notation "sY" => (Memref.whole Cert.Kernel.cc0_scratch3 : Memref Cert.Kernel.sig Kind.scVector Space.vmem Cert.Kernel.S4416 EltTy.f32)
local notation "sZ" => (Memref.whole Cert.Kernel.cc0_scratch4 : Memref Cert.Kernel.sig Kind.scVector Space.vmem Cert.Kernel.S4416 EltTy.f32)

/-- The 4416 positions from the kernel's offset o of an array, as the kernel slices it. -/
abbrev sl {e : EltTy} (m : Memref sig .scVector .hbm S1130496 e) (L : grid0.Coords) (o : BitVec 32)
    (h : ∀ a, (k0_off1 L o) a + S4416.size a ≤ S1130496.size a) : Memref sig .scVector .hbm S4416 e :=
  m.slice (Rect.unit (s := S1130496) (k0_off1 L o) S4416.size h) (fun _ => rfl)

omit [FloatOps F] in
/-- The rectangle of sub-chunk b of tile L is the range chunkSeg names. -/
theorem unit_set_chunk (b : Fin 8) :
    (Rect.unit (s := S1130496) (k0_off1 L (BitVec.ofNat 32 (4416 * b.val))) S4416.size (k0_off1_inb L b)).set = chunkSeg (cL L) (iL L) b := by
  ext k
  rw [Rect.mem_set_unit, chunkSeg, mem_seg, k0_off1_eq]
  constructor
  · intro hk; exact hk 0
  · intro hk a
    obtain rfl : a = 0 := Subsingleton.elim _ _
    exact hk

/-! ### The tile's ranges as the kernel's slices -/

omit [FloatOps F] in
theorem pts_slx (b : Fin 8) (f : Buf (Elt F) (xLoc d)) :
    ((sl (xW) L (BitVec.ofNat 32 (4416 * b.val)) (k0_off1_inb L b)).view.loc (V d (cV L) (jV L))
        ↦[(sl (xW) L (BitVec.ofNat 32 (4416 * b.val)) (k0_off1_inb L b)).view.set]{fullShare} f : sProp 𝕄)
      = xLoc d ↦[chunkSeg (cL L) (iL L) b]{fullShare} f := by
  rw [show (sl (xW) L (BitVec.ofNat 32 (4416 * b.val)) (k0_off1_inb L b)).view.set = chunkSeg (cL L) (iL L) b from
    (View.set_slice_whole _ _).trans (unit_set_chunk L b)]
omit [FloatOps F] in
theorem pts_sly (b : Fin 8) (f : Buf (Elt F) (yLoc d)) :
    ((sl (yW) L (BitVec.ofNat 32 (4416 * b.val)) (k0_off1_inb L b)).view.loc (V d (cV L) (jV L))
        ↦[(sl (yW) L (BitVec.ofNat 32 (4416 * b.val)) (k0_off1_inb L b)).view.set]{fullShare} f : sProp 𝕄)
      = yLoc d ↦[chunkSeg (cL L) (iL L) b]{fullShare} f := by
  rw [show (sl (yW) L (BitVec.ofNat 32 (4416 * b.val)) (k0_off1_inb L b)).view.set = chunkSeg (cL L) (iL L) b from
    (View.set_slice_whole _ _).trans (unit_set_chunk L b)]
omit [FloatOps F] in
theorem pts_slz (b : Fin 8) (f : Buf (Elt F) (zLoc d)) :
    ((sl (zW) L (BitVec.ofNat 32 (4416 * b.val)) (k0_off1_inb L b)).view.loc (V d (cV L) (jV L))
        ↦[(sl (zW) L (BitVec.ofNat 32 (4416 * b.val)) (k0_off1_inb L b)).view.set]{fullShare} f : sProp 𝕄)
      = zLoc d ↦[chunkSeg (cL L) (iL L) b]{fullShare} f := by
  rw [show (sl (zW) L (BitVec.ofNat 32 (4416 * b.val)) (k0_off1_inb L b)).view.set = chunkSeg (cL L) (iL L) b from
    (View.set_slice_whole _ _).trans (unit_set_chunk L b)]
omit [FloatOps F] in
/-- A tile's range of this array, as the eight slices the kernel copies. -/
theorem x_chunks8 (f : Buf (Elt F) (xLoc d)) :
    (xLoc d ↦[tileSeg (cL L) (iL L)]{fullShare} f : sProp 𝕄)
      = iprop(((sl (xW) L 0#32 (k0_off1_inb L 0)).view.loc (V d (cV L) (jV L)) ↦[(sl (xW) L 0#32 (k0_off1_inb L 0)).view.set]{fullShare} f)
        ∗ ((sl (xW) L 4416#32 (k0_off1_inb L 1)).view.loc (V d (cV L) (jV L)) ↦[(sl (xW) L 4416#32 (k0_off1_inb L 1)).view.set]{fullShare} f)
        ∗ ((sl (xW) L 8832#32 (k0_off1_inb L 2)).view.loc (V d (cV L) (jV L)) ↦[(sl (xW) L 8832#32 (k0_off1_inb L 2)).view.set]{fullShare} f)
        ∗ ((sl (xW) L 13248#32 (k0_off1_inb L 3)).view.loc (V d (cV L) (jV L)) ↦[(sl (xW) L 13248#32 (k0_off1_inb L 3)).view.set]{fullShare} f)
        ∗ ((sl (xW) L 17664#32 (k0_off1_inb L 4)).view.loc (V d (cV L) (jV L)) ↦[(sl (xW) L 17664#32 (k0_off1_inb L 4)).view.set]{fullShare} f)
        ∗ ((sl (xW) L 22080#32 (k0_off1_inb L 5)).view.loc (V d (cV L) (jV L)) ↦[(sl (xW) L 22080#32 (k0_off1_inb L 5)).view.set]{fullShare} f)
        ∗ ((sl (xW) L 26496#32 (k0_off1_inb L 6)).view.loc (V d (cV L) (jV L)) ↦[(sl (xW) L 26496#32 (k0_off1_inb L 6)).view.set]{fullShare} f)
        ∗ ((sl (xW) L 30912#32 (k0_off1_inb L 7)).view.loc (V d (cV L) (jV L)) ↦[(sl (xW) L 30912#32 (k0_off1_inb L 7)).view.set]{fullShare} f)) := by
  have e : ∀ (b : Fin 8) (o : BitVec 32) (ho : o = BitVec.ofNat 32 (4416 * b.val)) (h : ∀ a, (k0_off1 L o) a + S4416.size a ≤ S1130496.size a),
      ((sl (xW) L o h).view.loc (V d (cV L) (jV L)) ↦[(sl (xW) L o h).view.set]{fullShare} f : sProp 𝕄)
        = xLoc d ↦[chunkSeg (cL L) (iL L) b]{fullShare} f := by
    intro b o ho h; subst ho; exact pts_slx d L b f
  rw [e 0 0#32 rfl, e 1 4416#32 rfl, e 2 8832#32 rfl, e 3 13248#32 rfl, e 4 17664#32 rfl, e 5 22080#32 rfl, e 6 26496#32 rfl,
    e 7 30912#32 rfl, x_chunks, BI.bigSep_univ_eq_bigSepL (I := Fin 8) [0, 1, 2, 3, 4, 5, 6, 7] (by decide) (by decide)]
  rfl

omit [FloatOps F] in
/-- A tile's range of this array, as the eight slices the kernel copies. -/
theorem y_chunks8 (f : Buf (Elt F) (yLoc d)) :
    (yLoc d ↦[tileSeg (cL L) (iL L)]{fullShare} f : sProp 𝕄)
      = iprop(((sl (yW) L 0#32 (k0_off1_inb L 0)).view.loc (V d (cV L) (jV L)) ↦[(sl (yW) L 0#32 (k0_off1_inb L 0)).view.set]{fullShare} f)
        ∗ ((sl (yW) L 4416#32 (k0_off1_inb L 1)).view.loc (V d (cV L) (jV L)) ↦[(sl (yW) L 4416#32 (k0_off1_inb L 1)).view.set]{fullShare} f)
        ∗ ((sl (yW) L 8832#32 (k0_off1_inb L 2)).view.loc (V d (cV L) (jV L)) ↦[(sl (yW) L 8832#32 (k0_off1_inb L 2)).view.set]{fullShare} f)
        ∗ ((sl (yW) L 13248#32 (k0_off1_inb L 3)).view.loc (V d (cV L) (jV L)) ↦[(sl (yW) L 13248#32 (k0_off1_inb L 3)).view.set]{fullShare} f)
        ∗ ((sl (yW) L 17664#32 (k0_off1_inb L 4)).view.loc (V d (cV L) (jV L)) ↦[(sl (yW) L 17664#32 (k0_off1_inb L 4)).view.set]{fullShare} f)
        ∗ ((sl (yW) L 22080#32 (k0_off1_inb L 5)).view.loc (V d (cV L) (jV L)) ↦[(sl (yW) L 22080#32 (k0_off1_inb L 5)).view.set]{fullShare} f)
        ∗ ((sl (yW) L 26496#32 (k0_off1_inb L 6)).view.loc (V d (cV L) (jV L)) ↦[(sl (yW) L 26496#32 (k0_off1_inb L 6)).view.set]{fullShare} f)
        ∗ ((sl (yW) L 30912#32 (k0_off1_inb L 7)).view.loc (V d (cV L) (jV L)) ↦[(sl (yW) L 30912#32 (k0_off1_inb L 7)).view.set]{fullShare} f)) := by
  have e : ∀ (b : Fin 8) (o : BitVec 32) (ho : o = BitVec.ofNat 32 (4416 * b.val)) (h : ∀ a, (k0_off1 L o) a + S4416.size a ≤ S1130496.size a),
      ((sl (yW) L o h).view.loc (V d (cV L) (jV L)) ↦[(sl (yW) L o h).view.set]{fullShare} f : sProp 𝕄)
        = yLoc d ↦[chunkSeg (cL L) (iL L) b]{fullShare} f := by
    intro b o ho h; subst ho; exact pts_sly d L b f
  rw [e 0 0#32 rfl, e 1 4416#32 rfl, e 2 8832#32 rfl, e 3 13248#32 rfl, e 4 17664#32 rfl, e 5 22080#32 rfl, e 6 26496#32 rfl,
    e 7 30912#32 rfl, y_chunks, BI.bigSep_univ_eq_bigSepL (I := Fin 8) [0, 1, 2, 3, 4, 5, 6, 7] (by decide) (by decide)]
  rfl

omit [FloatOps F] in
/-- A tile's range of this array, as the eight slices the kernel copies. -/
theorem z_chunks8 (f : Buf (Elt F) (zLoc d)) :
    (zLoc d ↦[tileSeg (cL L) (iL L)]{fullShare} f : sProp 𝕄)
      = iprop(((sl (zW) L 0#32 (k0_off1_inb L 0)).view.loc (V d (cV L) (jV L)) ↦[(sl (zW) L 0#32 (k0_off1_inb L 0)).view.set]{fullShare} f)
        ∗ ((sl (zW) L 4416#32 (k0_off1_inb L 1)).view.loc (V d (cV L) (jV L)) ↦[(sl (zW) L 4416#32 (k0_off1_inb L 1)).view.set]{fullShare} f)
        ∗ ((sl (zW) L 8832#32 (k0_off1_inb L 2)).view.loc (V d (cV L) (jV L)) ↦[(sl (zW) L 8832#32 (k0_off1_inb L 2)).view.set]{fullShare} f)
        ∗ ((sl (zW) L 13248#32 (k0_off1_inb L 3)).view.loc (V d (cV L) (jV L)) ↦[(sl (zW) L 13248#32 (k0_off1_inb L 3)).view.set]{fullShare} f)
        ∗ ((sl (zW) L 17664#32 (k0_off1_inb L 4)).view.loc (V d (cV L) (jV L)) ↦[(sl (zW) L 17664#32 (k0_off1_inb L 4)).view.set]{fullShare} f)
        ∗ ((sl (zW) L 22080#32 (k0_off1_inb L 5)).view.loc (V d (cV L) (jV L)) ↦[(sl (zW) L 22080#32 (k0_off1_inb L 5)).view.set]{fullShare} f)
        ∗ ((sl (zW) L 26496#32 (k0_off1_inb L 6)).view.loc (V d (cV L) (jV L)) ↦[(sl (zW) L 26496#32 (k0_off1_inb L 6)).view.set]{fullShare} f)
        ∗ ((sl (zW) L 30912#32 (k0_off1_inb L 7)).view.loc (V d (cV L) (jV L)) ↦[(sl (zW) L 30912#32 (k0_off1_inb L 7)).view.set]{fullShare} f)) := by
  have e : ∀ (b : Fin 8) (o : BitVec 32) (ho : o = BitVec.ofNat 32 (4416 * b.val)) (h : ∀ a, (k0_off1 L o) a + S4416.size a ≤ S1130496.size a),
      ((sl (zW) L o h).view.loc (V d (cV L) (jV L)) ↦[(sl (zW) L o h).view.set]{fullShare} f : sProp 𝕄)
        = zLoc d ↦[chunkSeg (cL L) (iL L) b]{fullShare} f := by
    intro b o ho h; subst ho; exact pts_slz d L b f
  rw [e 0 0#32 rfl, e 1 4416#32 rfl, e 2 8832#32 rfl, e 3 13248#32 rfl, e 4 17664#32 rfl, e 5 22080#32 rfl, e 6 26496#32 rfl,
    e 7 30912#32 rfl, z_chunks, BI.bigSep_univ_eq_bigSepL (I := Fin 8) [0, 1, 2, 3, 4, 5, 6, 7] (by decide) (by decide)]
  rfl

/-! ### The scratch contents a loop's trips have finished -/

/-- Of an out scratch g: its positions below 16 t hold the gathered words for axis a, cs the coordinate scratch and
    nw the neighbour words of the sub-chunk. -/
def Done (t a : Nat) (cs : Vec F S30720 .f32) (nw : IVec S4416 32) (g : Vec F S4416 .f32) : Prop :=
  ∀ j : S4416.Idx, (j 0).val < 16 * t → g j = cs (cIx (3 * (nw j).toNat + a))

omit [FloatOps F] in
theorem Done_zero (a : Nat) (cs : Vec F S30720 .f32) (nw : IVec S4416 32) (g : Vec F S4416 .f32) : Done 0 a cs nw g :=
  fun j hj => absurd hj (by omega)

omit [FloatOps F] in
/-- Sixteen more lanes written right, the rest kept: one more trip done. -/
theorem Done_succ {t a : Nat} {cs : Vec F S30720 .f32} {nw : IVec S4416 32} {g g' : Vec F S4416 .f32} (hD : Done t a cs nw g)
    (hin : ∀ j : S4416.Idx, 16 * t ≤ (j 0).val → (j 0).val < 16 * t + 16 → g' j = cs (cIx (3 * (nw j).toNat + a)))
    (hout : ∀ j : S4416.Idx, (j 0).val < 16 * t → g' j = g j) : Done (t + 1) a cs nw g' := by
  intro j hj
  by_cases h : (j 0).val < 16 * t
  · rw [hout j h]; exact hD j h
  · exact hin j (by omega) (by omega)

/-! ### Sixteen lanes of a scratch -/

/-- The scratch g with the sixteen positions from 16 t replaced by the vector v. -/
def putLanes (t : Nat) (g : Vec F S4416 .f32) (v : Vec F S16 .f32) : Vec F S4416 .f32 :=
  fun j => if h : 16 * t ≤ (j 0).val ∧ (j 0).val < 16 * t + 16 then v (ValueIdx.ix1 ⟨(j 0).val - 16 * t, by omega⟩) else g j

/-- Position 16 t + x of a scratch. -/
def lane (t : Nat) (ht : 16 * t + 16 ≤ 4416) (x : S16.Idx) : S4416.Idx :=
  ValueIdx.ix1 ⟨16 * t + (x 0).val, by have : (x 0).val < 16 := (x 0).isLt; omega⟩

omit [FloatOps F] in
/-- The lane of position j - 16 t, for j among the trip's sixteen, is j. -/
theorem lane_sub {t : Nat} (ht : 16 * t + 16 ≤ 4416) (j : S4416.Idx) (h1 : 16 * t ≤ (j 0).val) (h2 : (j 0).val < 16 * t + 16) :
    lane t ht (ValueIdx.ix1 ⟨(j 0).val - 16 * t, by omega⟩) = j := by
  funext a'
  obtain rfl : a' = 0 := Subsingleton.elim _ _
  apply Fin.ext
  show 16 * t + ((j 0).val - 16 * t) = (j 0).val
  omega

-- a store of sixteen lanes into each out scratch is putLanes
omit [FloatOps F] in
theorem write_sX (t : Nat) (off : Fin 1 → Nat) (hoff : off 0 = 16 * t) (h : ∀ a, off a + S16.size a ≤ S4416.size a) (g : Vec F S4416 .f32) (v : Vec F S16 .f32) :
    ((sX).access (Rect.unit (s := S4416) off S16.size h)).write (Elt F) g v Finset.univ = putLanes t g v := by
  funext j
  unfold putLanes
  split
  · rename_i hj
    have hx : (Rect.unit (s := S4416) off S16.size h).emb (ValueIdx.ix1 ⟨(j 0).val - 16 * t, by omega⟩) = j := by
      funext a
      obtain rfl : a = 0 := Subsingleton.elim _ _
      apply Fin.ext
      show off 0 + 1 * ((j 0).val - 16 * t) = (j 0).val
      omega
    have hw := View.write_emb_of_mem (v := (sX).access (Rect.unit (s := S4416) off S16.size h)) (Val := Elt F) g v
      (Finset.mem_univ (ValueIdx.ix1 ⟨(j 0).val - 16 * t, by omega⟩))
    exact (congrArg _ hx.symm).trans (hw.trans (cast_eq _ _))
  · rename_i hj
    refine View.write_of_not_mem (v := (sX).access (Rect.unit (s := S4416) off S16.size h)) g v Finset.univ fun hmem => hj ?_
    obtain ⟨x, -, hx⟩ := Finset.mem_map.mp hmem
    have hj0 : (j 0).val = off 0 + 1 * (x 0).val := by rw [← hx]; rfl
    have hx0 : (x 0).val < 16 := (x 0).isLt
    omega
omit [FloatOps F] in
theorem write_sY (t : Nat) (off : Fin 1 → Nat) (hoff : off 0 = 16 * t) (h : ∀ a, off a + S16.size a ≤ S4416.size a) (g : Vec F S4416 .f32) (v : Vec F S16 .f32) :
    ((sY).access (Rect.unit (s := S4416) off S16.size h)).write (Elt F) g v Finset.univ = putLanes t g v := by
  funext j
  unfold putLanes
  split
  · rename_i hj
    have hx : (Rect.unit (s := S4416) off S16.size h).emb (ValueIdx.ix1 ⟨(j 0).val - 16 * t, by omega⟩) = j := by
      funext a
      obtain rfl : a = 0 := Subsingleton.elim _ _
      apply Fin.ext
      show off 0 + 1 * ((j 0).val - 16 * t) = (j 0).val
      omega
    have hw := View.write_emb_of_mem (v := (sY).access (Rect.unit (s := S4416) off S16.size h)) (Val := Elt F) g v
      (Finset.mem_univ (ValueIdx.ix1 ⟨(j 0).val - 16 * t, by omega⟩))
    exact (congrArg _ hx.symm).trans (hw.trans (cast_eq _ _))
  · rename_i hj
    refine View.write_of_not_mem (v := (sY).access (Rect.unit (s := S4416) off S16.size h)) g v Finset.univ fun hmem => hj ?_
    obtain ⟨x, -, hx⟩ := Finset.mem_map.mp hmem
    have hj0 : (j 0).val = off 0 + 1 * (x 0).val := by rw [← hx]; rfl
    have hx0 : (x 0).val < 16 := (x 0).isLt
    omega
omit [FloatOps F] in
theorem write_sZ (t : Nat) (off : Fin 1 → Nat) (hoff : off 0 = 16 * t) (h : ∀ a, off a + S16.size a ≤ S4416.size a) (g : Vec F S4416 .f32) (v : Vec F S16 .f32) :
    ((sZ).access (Rect.unit (s := S4416) off S16.size h)).write (Elt F) g v Finset.univ = putLanes t g v := by
  funext j
  unfold putLanes
  split
  · rename_i hj
    have hx : (Rect.unit (s := S4416) off S16.size h).emb (ValueIdx.ix1 ⟨(j 0).val - 16 * t, by omega⟩) = j := by
      funext a
      obtain rfl : a = 0 := Subsingleton.elim _ _
      apply Fin.ext
      show off 0 + 1 * ((j 0).val - 16 * t) = (j 0).val
      omega
    have hw := View.write_emb_of_mem (v := (sZ).access (Rect.unit (s := S4416) off S16.size h)) (Val := Elt F) g v
      (Finset.mem_univ (ValueIdx.ix1 ⟨(j 0).val - 16 * t, by omega⟩))
    exact (congrArg _ hx.symm).trans (hw.trans (cast_eq _ _))
  · rename_i hj
    refine View.write_of_not_mem (v := (sZ).access (Rect.unit (s := S4416) off S16.size h)) g v Finset.univ fun hmem => hj ?_
    obtain ⟨x, -, hx⟩ := Finset.mem_map.mp hmem
    have hj0 : (j 0).val = off 0 + 1 * (x 0).val := by rw [← hx]; rfl
    have hx0 : (x 0).val < 16 := (x 0).isLt
    omega
omit [FloatOps F] in
/-- The sixteen words a trip loads are the index scratch's at the trip's lanes. -/
theorem read_sN (t : Nat) (ht : 16 * t + 16 ≤ 4416) (off : Fin 1 → Nat) (hoff : off 0 = 16 * t) (h : ∀ a, off a + S16.size a ≤ S4416.size a)
    (nw : IVec S4416 32) (x : S16.Idx) :
    (sN).view.readAt (Elt F) (Rect.unit (s := S4416) off S16.size h).toLoadRect nw x = nw (lane t ht x) := by
  have e : ((Rect.unit (s := S4416) off S16.size h).toLoadRect.idx x : S4416.Idx) = lane t ht x := by
    funext a
    match a with
    | ⟨0, _⟩ => exact Fin.ext (by show off 0 + 1 * (x 0).val = 16 * t + (x 0).val; omega)
  simp only [View.readAt_apply, Memref.view_whole, View.read_whole]
  exact congrArg nw e

omit [FloatOps F] in
/-- The element an index vector names for lane x, when the word there is n below the array's extent. -/
theorem idxAt_eq {v : IVec S16 32} {h : ∀ a x, ((![v] : Fin 1 → IVec S16 32) a x).toNat < S30720.size a} {x : S16.Idx} {n : Nat}
    (hn : (v x).toNat = n) (hlt : n < 30720) : idxAt (s := S30720) ![v] h x = cIx n := by
  funext a
  obtain rfl : a = 0 := Subsingleton.elim _ _
  apply Fin.ext
  show (v x).toNat = n % 30720
  rw [hn, Nat.mod_eq_of_lt hlt]

omit [FloatOps F] in
/-- The coordinate scratch read through its whole rectangle is its contents, -/
theorem read_sC (cs : Vec F S30720 .f32) (y : S30720.Idx) : ((sC).access (Rect.whole S30720)).read (Elt F) cs y = cs y := by
  rw [View.read_apply]
  exact (cast_eq _ _).trans (congrArg cs (Rect.emb_whole_apply S30720 y))

/-- so an indexed load of it at a word n below its extent is the coordinate word at n. -/
theorem gathered_lane (cs : Vec F S30720 .f32) (v : IVec S16 32) (h : ∀ a x, ((![v] : Fin 1 → IVec S16 32) a x).toNat < S30720.size a)
    (x : S16.Idx) (n : Nat) (hn : (v x).toNat = n) (hlt : n < 30720) :
    loadIdx (((sC).access (Rect.whole S30720)).read (Elt F) cs) ![v] h x = cs (cIx n) := by
  show ((sC).access (Rect.whole S30720)).read (Elt F) cs (idxAt ![v] h x) = _
  rw [read_sC, idxAt_eq hn hlt]

omit [FloatOps F] in
/-- After a trip's store of the gathered lanes, one more trip of the scratch is done. -/
theorem Done_put {t a : Nat} (ht : 16 * t + 16 ≤ 4416) {cs : Vec F S30720 .f32} {nw : IVec S4416 32} {g : Vec F S4416 .f32} (hD : Done t a cs nw g)
    (v : Vec F S16 .f32) (hv : ∀ x, v x = cs (cIx (3 * (nw (lane t ht x)).toNat + a))) : Done (t + 1) a cs nw (putLanes t g v) := by
  refine Done_succ hD (fun j h1 h2 => ?_) (fun j h1 => ?_)
  · unfold putLanes
    rw [dif_pos ⟨h1, h2⟩, hv, lane_sub ht j h1 h2]
  · unfold putLanes
    rw [dif_neg (by omega)]

/-- What a loop's trips carry: the coordinate scratch and the sub-chunk's words read-only in effect, the three out
    scratches finished below 16 t. -/
def tripInv (cs : Vec F S30720 .f32) (nw : IVec S4416 32) (t : Nat) (_ : Unit) : sProp 𝕄 :=
  iprop(((sC).view.loc (V d (cV L) (jV L)) ↦{fullShare} cs) ∗ ((sN).view.loc (V d (cV L) (jV L)) ↦{fullShare} nw)
    ∗ ∃ (gx gy gz : Vec F S4416 .f32), ((sX).view.loc (V d (cV L) (jV L)) ↦{fullShare} gx) ∗ ((sY).view.loc (V d (cV L) (jV L)) ↦{fullShare} gy)
      ∗ ((sZ).view.loc (V d (cV L) (jV L)) ↦{fullShare} gz) ∗ ⌜Done t 0 cs nw gx ∧ Done t 1 cs nw gy ∧ Done t 2 cs nw gz⌝)

/-- One trip: sixteen words loaded, and for each axis the check (the words name atoms), the indexed load of the
    coordinate scratch, and the store of the sixteen gathered words at the trip's lanes. -/
theorem trip (cs : Vec F S30720 .f32) (nw : IVec S4416 32) (hw : ∀ j, (nw j).toNat ≤ 10239) (t : Fin k0_t1_loop.trips) (u : Unit) :
    tripInv d L cs nw t.val u
      ⊢ wp frame (wpE (defs₀ (F := F)) 𝒱₀ (V d (cV L) (jV L)) none) Set.univ
          (k0_t1_body L cW (Memref.isWhole_whole _) nW (Memref.isWhole_whole _) xW (Memref.isWhole_whole _) yW (Memref.isWhole_whole _) zW (Memref.isWhole_whole _)
            sC (Memref.isWhole_whole _) sN (Memref.isWhole_whole _) sX (Memref.isWhole_whole _) sY (Memref.isWhole_whole _) sZ (Memref.isWhole_whole _)
            cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 t u)
          (tripInv d L cs nw (t.val + 1)) := by
  have ht : 16 * t.val + 16 ≤ 4416 := by have := (k0_t1_abs).2.1; have := t.isLt; omega
  have ho2 : k0_off2 t 0 = 16 * t.val := by rw [k0_off2_eq]; rfl
  have ho3 : k0_off3 t 0 = 16 * t.val := by rw [k0_off3_eq]; rfl
  have ho4 : k0_off4 t 0 = 16 * t.val := by rw [k0_off4_eq]; rfl
  have ho5 : k0_off5 t 0 = 16 * t.val := by rw [k0_off5_eq]; rfl
  unfold k0_t1_body tripInv
  simp only [Prog.lift, Prog.bind_op, Prog.bind_ret, Prog.pure_eq_ret]
  iintro ⟨HC, HN, %gx, %gy, %gz, HX, HY, HZ, %hD⟩
  obtain ⟨hDx, hDy, hDz⟩ := hD
  -- the trip's sixteen neighbour words
  iapply (wp_load 𝒱₀ (V d (cV L) (jV L)) none Set.univ (m := sN) (S := Finset.univ) (Finset.subset_univ _)) $$ HN; iintro HN
  set v21 : IVec S16 32 := (sN).view.readAt (Elt F) (Rect.unit (s := S4416) (k0_off2 t) S16.size (k0_off2_inb t)).toLoadRect nw with hv21
  have h21 : ∀ x, v21 x = nw (lane t.val ht x) := fun x => read_sN t.val ht (k0_off2 t) ho2 (k0_off2_inb t) nw x
  -- the three index vectors: 3 n, 3 n + 1, 3 n + 2, none wrapping
  have hx0 : ∀ x, ((k0_pay4 (F := F) v21) x).toNat = 3 * (nw (lane t.val ht x)).toNat := fun x => by
    show (v21 x * 3#32).toNat = _
    rw [h21 x]; exact mul3_toNat (hw _)
  have hx1 : ∀ x, ((k0_pay5 (k0_pay4 (F := F) v21)) x).toNat = 3 * (nw (lane t.val ht x)).toNat + 1 := fun x => by
    show (v21 x * 3#32 + BitVec.ofNat 32 1).toNat = _
    rw [h21 x]; exact mul3_add_toNat (hw _) 1 (by omega)
  have hx2 : ∀ x, ((k0_pay6 (k0_pay4 (F := F) v21)) x).toNat = 3 * (nw (lane t.val ht x)).toNat + 2 := fun x => by
    show (v21 x * 3#32 + BitVec.ofNat 32 2).toNat = _
    rw [h21 x]; exact mul3_add_toNat (hw _) 2 (by omega)
  -- axis 0: the check, the indexed load of the coordinate scratch, the trip's lanes of the out scratch
  have c0 : k0_chk1 (k0_pay4 (F := F) v21) := by
    intro a x
    obtain rfl : a = 0 := Subsingleton.elim _ _
    show ((k0_pay4 (F := F) v21) x).toNat < 30720
    rw [hx0 x]; have := hw (lane t.val ht x); omega
  rw [wp_assume_of _ _ _ _ c0]
  iapply (SparseCore.wp_vectorLoadIdx 𝒱₀ (V d (cV L) (jV L)) none Set.univ (base := sC) (S := Finset.univ) (q := fullShare) (Finset.subset_univ _)) $$ HC; iintro HC
  iapply (wp_load 𝒱₀ (V d (cV L) (jV L)) none Set.univ (m := sX) (S := Finset.univ) (Finset.subset_univ _)) $$ HX; iintro HX
  iapply (wp_store 𝒱₀ (V d (cV L) (jV L)) none Set.univ (m := sX) (r := Rect.unit (s := S4416) (k0_off3 t) S16.size (k0_off3_inb t)) (Mk := Finset.univ) (S := Finset.univ) (Finset.subset_univ _)) $$ HX; iintro HX
  -- axis 1: the check, the indexed load of the coordinate scratch, the trip's lanes of the out scratch
  have c1 : k0_chk2 (k0_pay5 (k0_pay4 (F := F) v21)) := by
    intro a x
    obtain rfl : a = 0 := Subsingleton.elim _ _
    show ((k0_pay5 (k0_pay4 (F := F) v21)) x).toNat < 30720
    rw [hx1 x]; have := hw (lane t.val ht x); omega
  rw [wp_assume_of _ _ _ _ c1]
  iapply (SparseCore.wp_vectorLoadIdx 𝒱₀ (V d (cV L) (jV L)) none Set.univ (base := sC) (S := Finset.univ) (q := fullShare) (Finset.subset_univ _)) $$ HC; iintro HC
  iapply (wp_load 𝒱₀ (V d (cV L) (jV L)) none Set.univ (m := sY) (S := Finset.univ) (Finset.subset_univ _)) $$ HY; iintro HY
  iapply (wp_store 𝒱₀ (V d (cV L) (jV L)) none Set.univ (m := sY) (r := Rect.unit (s := S4416) (k0_off4 t) S16.size (k0_off4_inb t)) (Mk := Finset.univ) (S := Finset.univ) (Finset.subset_univ _)) $$ HY; iintro HY
  -- axis 2: the check, the indexed load of the coordinate scratch, the trip's lanes of the out scratch
  have c2 : k0_chk3 (k0_pay6 (k0_pay4 (F := F) v21)) := by
    intro a x
    obtain rfl : a = 0 := Subsingleton.elim _ _
    show ((k0_pay6 (k0_pay4 (F := F) v21)) x).toNat < 30720
    rw [hx2 x]; have := hw (lane t.val ht x); omega
  rw [wp_assume_of _ _ _ _ c2]
  iapply (SparseCore.wp_vectorLoadIdx 𝒱₀ (V d (cV L) (jV L)) none Set.univ (base := sC) (S := Finset.univ) (q := fullShare) (Finset.subset_univ _)) $$ HC; iintro HC
  iapply (wp_load 𝒱₀ (V d (cV L) (jV L)) none Set.univ (m := sZ) (S := Finset.univ) (Finset.subset_univ _)) $$ HZ; iintro HZ
  iapply (wp_store 𝒱₀ (V d (cV L) (jV L)) none Set.univ (m := sZ) (r := Rect.unit (s := S4416) (k0_off5 t) S16.size (k0_off5_inb t)) (Mk := Finset.univ) (S := Finset.univ) (Finset.subset_univ _)) $$ HZ; iintro HZ
  rw [wp_ret]; imodintro
  isplitl [HC]; · iexact HC
  isplitl [HN]; · iexact HN
  iexists _, _, _
  isplitl [HX]; · iexact HX
  isplitl [HY]; · iexact HY
  isplitl [HZ]; · iexact HZ
  ipureintro
  refine ⟨?_, ?_, ?_⟩
  · rw [write_sX t.val (k0_off3 t) ho3]
    exact Done_put ht hDx _ fun x => gathered_lane cs _ _ x _ (hx0 x) (by have := hw (lane t.val ht x); omega)
  · rw [write_sY t.val (k0_off4 t) ho4]
    exact Done_put ht hDy _ fun x => gathered_lane cs _ _ x _ (hx1 x) (by have := hw (lane t.val ht x); omega)
  · rw [write_sZ t.val (k0_off5 t) ho5]
    exact Done_put ht hDz _ fun x => gathered_lane cs _ _ x _ (hx2 x) (by have := hw (lane t.val ht x); omega)

/-! ### The scoped storage, piece by piece -/

omit [FloatOps F] in
/-- The five scratch buffers are among the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f)
          ∗ bigSep ((((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3)).erase ((Proc.scVector (cV L) (jV L)).devRef cc0_scratch4))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩)]

/-- The kernel's DMA semaphore of region n. -/
def dsem (n : Fin 33) : DmaSem sig := ⟨n.val, Nat.lt_of_lt_of_le n.isLt (by decide)⟩

/-- The tile's cells of the thirty-three regions' semaphores. -/
def regCells (d : Dev nD) (L : grid0.Coords) : Finset (GSem nD τ sig) := Finset.univ.image fun n : Fin 33 => ((V d (cV L) (jV L), SemLoc.dma (dsem n)) : GSem nD τ sig)

omit [FloatOps F] in
theorem regCells_subset : regCells d L ⊆ ownCells (V d (cV L) (jV L)) := by
  intro g hg
  obtain ⟨n, -, rfl⟩ := Finset.mem_image.mp hg
  refine mem_ownCells.mpr ⟨rfl, ?_⟩
  exact (by decide : ∀ n : Fin 33, (SemLoc.dma (dsem n) : SemLoc sig).isScoped .scVector = true) n

omit [FloatOps F] in
theorem regCells_inj :
    Set.InjOn (fun n : Fin 33 => ((V d (cV L) (jV L), SemLoc.dma (dsem n)) : GSem nD τ sig)) ((Finset.univ : Finset (Fin 33)) : Set _) := by
  intro a _ b _ e
  have h : dsem a = dsem b := SemLoc.dma.inj (Prod.mk.inj e).2
  have hv : (dsem a).val = (dsem b).val := congrArg Fin.val h
  exact Fin.ext hv

omit [FloatOps F] in
/-- Each region's semaphore at zero, and the tile's other scoped cells. -/
theorem ownSems0_V :
    (ownSems0 (V d (cV L) (jV L)) : sProp 𝕄)
      = iprop((semVal (V d (cV L) (jV L), SemLoc.dma cc0_scoped0.sem) 0
          ∗ semVal (V d (cV L) (jV L), SemLoc.dma cc0_scoped1.sem) 0
          ∗ semVal (V d (cV L) (jV L), SemLoc.dma cc0_scoped2.sem) 0
          ∗ semVal (V d (cV L) (jV L), SemLoc.dma cc0_scoped3.sem) 0
          ∗ semVal (V d (cV L) (jV L), SemLoc.dma cc0_scoped4.sem) 0
          ∗ semVal (V d (cV L) (jV L), SemLoc.dma cc0_scoped5.sem) 0
          ∗ semVal (V d (cV L) (jV L), SemLoc.dma cc0_scoped6.sem) 0
          ∗ semVal (V d (cV L) (jV L), SemLoc.dma cc0_scoped7.sem) 0
          ∗ semVal (V d (cV L) (jV L), SemLoc.dma cc0_scoped8.sem) 0
          ∗ semVal (V d (cV L) (jV L), SemLoc.dma cc0_scoped9.sem) 0
          ∗ semVal (V d (cV L) (jV L), SemLoc.dma cc0_scoped10.sem) 0
          ∗ semVal (V d (cV L) (jV L), SemLoc.dma cc0_scoped11.sem) 0
          ∗ semVal (V d (cV L) (jV L), SemLoc.dma cc0_scoped12.sem) 0
          ∗ semVal (V d (cV L) (jV L), SemLoc.dma cc0_scoped13.sem) 0
          ∗ semVal (V d (cV L) (jV L), SemLoc.dma cc0_scoped14.sem) 0
          ∗ semVal (V d (cV L) (jV L), SemLoc.dma cc0_scoped15.sem) 0
          ∗ semVal (V d (cV L) (jV L), SemLoc.dma cc0_scoped16.sem) 0
          ∗ semVal (V d (cV L) (jV L), SemLoc.dma cc0_scoped17.sem) 0
          ∗ semVal (V d (cV L) (jV L), SemLoc.dma cc0_scoped18.sem) 0
          ∗ semVal (V d (cV L) (jV L), SemLoc.dma cc0_scoped19.sem) 0
          ∗ semVal (V d (cV L) (jV L), SemLoc.dma cc0_scoped20.sem) 0
          ∗ semVal (V d (cV L) (jV L), SemLoc.dma cc0_scoped21.sem) 0
          ∗ semVal (V d (cV L) (jV L), SemLoc.dma cc0_scoped22.sem) 0
          ∗ semVal (V d (cV L) (jV L), SemLoc.dma cc0_scoped23.sem) 0
          ∗ semVal (V d (cV L) (jV L), SemLoc.dma cc0_scoped24.sem) 0
          ∗ semVal (V d (cV L) (jV L), SemLoc.dma cc0_scoped25.sem) 0
          ∗ semVal (V d (cV L) (jV L), SemLoc.dma cc0_scoped26.sem) 0
          ∗ semVal (V d (cV L) (jV L), SemLoc.dma cc0_scoped27.sem) 0
          ∗ semVal (V d (cV L) (jV L), SemLoc.dma cc0_scoped28.sem) 0
          ∗ semVal (V d (cV L) (jV L), SemLoc.dma cc0_scoped29.sem) 0
          ∗ semVal (V d (cV L) (jV L), SemLoc.dma cc0_scoped30.sem) 0
          ∗ semVal (V d (cV L) (jV L), SemLoc.dma cc0_scoped31.sem) 0
          ∗ semVal (V d (cV L) (jV L), SemLoc.dma cc0_scoped32.sem) 0
)
          ∗ bigSep (ownCells (V d (cV L) (jV L)) \ regCells d L) fun g => semVal g 0) := by
  unfold SparseCore.Cfg.ownSems0
  rw [SparseCore.bigSep_sdiff_split' (regCells_subset d L)]
  unfold regCells
  rw [SparseCore.bigSep_image_of_injOn (regCells_inj d L),
    BI.bigSep_univ_eq_bigSepL (I := Fin 33) [0, 1, 2, 3, 4, 5, 6, 7, 8, 9, 10, 11, 12, 13, 14, 15, 16, 17, 18, 19, 20, 21, 22, 23, 24, 25, 26, 27, 28, 29, 30, 31, 32] (by decide) (by decide)]
  rfl

/-! ### The arrays and scratches as the tile addresses them -/

omit [FloatOps F] in
theorem pts_c (q : PosShare TreeShare) (f : Buf (Elt F) (cLoc d)) :
    (((cW).view.loc (V d (cV L) (jV L)) ↦{q} f : sProp 𝕄)) = (cLoc d ↦{q} f) := rfl
omit [FloatOps F] in
theorem pts_n (q : PosShare TreeShare) (f : Buf (Elt F) (nLoc d)) :
    (((nW).view.loc (V d (cV L) (jV L)) ↦{q} f : sProp 𝕄)) = (nLoc d ↦{q} f) := rfl
omit [FloatOps F] in
theorem pts_sC (f : Buf (Elt F) ((V d (cV L) (jV L)).loc cc0_scratch0)) :
    (((sC).view.loc (V d (cV L) (jV L)) ↦{fullShare} f : sProp 𝕄)) = ((V d (cV L) (jV L)).loc cc0_scratch0 ↦{fullShare} f) := rfl
omit [FloatOps F] in
theorem pts_sN (f : Buf (Elt F) ((V d (cV L) (jV L)).loc cc0_scratch1)) :
    (((sN).view.loc (V d (cV L) (jV L)) ↦{fullShare} f : sProp 𝕄)) = ((V d (cV L) (jV L)).loc cc0_scratch1 ↦{fullShare} f) := rfl
omit [FloatOps F] in
theorem pts_sX (f : Buf (Elt F) ((V d (cV L) (jV L)).loc cc0_scratch2)) :
    (((sX).view.loc (V d (cV L) (jV L)) ↦{fullShare} f : sProp 𝕄)) = ((V d (cV L) (jV L)).loc cc0_scratch2 ↦{fullShare} f) := rfl
omit [FloatOps F] in
theorem pts_sY (f : Buf (Elt F) ((V d (cV L) (jV L)).loc cc0_scratch3)) :
    (((sY).view.loc (V d (cV L) (jV L)) ↦{fullShare} f : sProp 𝕄)) = ((V d (cV L) (jV L)).loc cc0_scratch3 ↦{fullShare} f) := rfl
omit [FloatOps F] in
theorem pts_sZ (f : Buf (Elt F) ((V d (cV L) (jV L)).loc cc0_scratch4)) :
    (((sZ).view.loc (V d (cV L) (jV L)) ↦{fullShare} f : sProp 𝕄)) = ((V d (cV L) (jV L)).loc cc0_scratch4 ↦{fullShare} f) := rfl

end Tile

/-! ## The launch theorem's obligations for the call -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          (Memref.whole main_v0_scv) (Memref.isWhole_whole _) (Memref.whole main_v1_scv) (Memref.isWhole_whole _)
          (Memref.whole main_v2_0_scv) (Memref.isWhole_whole _) (Memref.whole main_v2_1_scv) (Memref.isWhole_whole _)
          (Memref.whole main_v2_2_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _)
          cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Cert.KScGather

end
-- ==== Proof.KScVal.lean ====
import proofs.«205418_g46067819217304_cont_8to1_c_241_17_alg».proof.Proof.KScGather

/-!
# What a copied-out sub-chunk holds

A tile gathers, for each of its eight sub-chunks, the coordinate words of 4416 neighbour words into a scratch and copies
the scratch over the sub-chunk's 4416 positions of the result. Once the scratch holds, at every position, the coordinate
word 3 n + a of the neighbour word n read at that position of the sub-chunk, the positions written hold the gather of
the whole arrays: the result's and the neighbour list's sub-chunks are the same 4416 positions of two arrays of one
shape, so position j of the scratch lands at the flat position whose neighbour word it was gathered for.
-/

noncomputable section

namespace Cert.KScGather

open Cert.Kernel Cert.Kernel.Gen Cert.Kernel.Setup

open Idealize.ShloMosaic
open Idealize.ShloMosaic.SparseCore (S V T)

variable {F : FTy → Type} [FloatOps F]

/-- Axis 0: after a sub-chunk's gathered words are copied out over its 4416 positions of the result, those positions
    hold the gather: position k the coordinate word 3 n + 0, n the neighbour word at k. -/
theorem chunk_val_x (cf : (d : Dev nD) → Buf (Elt F) (cLoc d)) (nf : (d : Dev nD) → Buf (Elt F) (nLoc d)) (d : Dev nD) (L : grid0.Coords)
    (o : BitVec 32) (h : ∀ a, (k0_off1 L o) a + S4416.size a ≤ S1130496.size a)
    (fprev : Buf (Elt F) (xLoc d)) (g : Vec F S4416 .f32) (nw : IVec S4416 32) (cs : Vec F S30720 .f32)
    (hcs : cs = cf d)
    (hnw : ∀ j, nw j = (sl (Memref.whole main_v1_scv : Memref sig .scVector .hbm S1130496 .i32) L o h).view.read (Elt F) (nf d) j)
    (hD : Done 276 0 cs nw g) :
    ∀ i ∈ (sl (Memref.whole main_v2_0_scv : Memref sig .scVector .hbm S1130496 .f32) L o h).view.set,
      (sl (Memref.whole main_v2_0_scv : Memref sig .scVector .hbm S1130496 .f32) L o h).view.write (Elt F) fprev g Finset.univ i
        = gatherAt (cf d) (nf d) 0 i := by
  intro i hi
  obtain ⟨j, -, rfl⟩ := Finset.mem_map.mp hi
  have hj : (j 0).val < 4416 := (j 0).isLt
  rw [View.write_emb_of_mem (v := (sl (Memref.whole main_v2_0_scv : Memref sig .scVector .hbm S1130496 .f32) L o h).view) fprev g (Finset.mem_univ j)]
  refine (cast_eq _ _).trans ?_
  rw [hD j (by omega), hcs, hnw j]
  unfold gatherAt
  have e : (sl (Memref.whole main_v1_scv : Memref sig .scVector .hbm S1130496 .i32) L o h).view.read (Elt F) (nf d) j
      = nf d ((sl (Memref.whole main_v2_0_scv : Memref sig .scVector .hbm S1130496 .f32) L o h).view.emb j) :=
    (View.read_apply (v := (sl (Memref.whole main_v1_scv : Memref sig .scVector .hbm S1130496 .i32) L o h).view) (nf d) j).trans ((cast_eq _ _).trans rfl)
  rw [e]

/-- Axis 1: after a sub-chunk's gathered words are copied out over its 4416 positions of the result, those positions
    hold the gather: position k the coordinate word 3 n + 1, n the neighbour word at k. -/
theorem chunk_val_y (cf : (d : Dev nD) → Buf (Elt F) (cLoc d)) (nf : (d : Dev nD) → Buf (Elt F) (nLoc d)) (d : Dev nD) (L : grid0.Coords)
    (o : BitVec 32) (h : ∀ a, (k0_off1 L o) a + S4416.size a ≤ S1130496.size a)
    (fprev : Buf (Elt F) (yLoc d)) (g : Vec F S4416 .f32) (nw : IVec S4416 32) (cs : Vec F S30720 .f32)
    (hcs : cs = cf d)
    (hnw : ∀ j, nw j = (sl (Memref.whole main_v1_scv : Memref sig .scVector .hbm S1130496 .i32) L o h).view.read (Elt F) (nf d) j)
    (hD : Done 276 1 cs nw g) :
    ∀ i ∈ (sl (Memref.whole main_v2_1_scv : Memref sig .scVector .hbm S1130496 .f32) L o h).view.set,
      (sl (Memref.whole main_v2_1_scv : Memref sig .scVector .hbm S1130496 .f32) L o h).view.write (Elt F) fprev g Finset.univ i
        = gatherAt (cf d) (nf d) 1 i := by
  intro i hi
  obtain ⟨j, -, rfl⟩ := Finset.mem_map.mp hi
  have hj : (j 0).val < 4416 := (j 0).isLt
  rw [View.write_emb_of_mem (v := (sl (Memref.whole main_v2_1_scv : Memref sig .scVector .hbm S1130496 .f32) L o h).view) fprev g (Finset.mem_univ j)]
  refine (cast_eq _ _).trans ?_
  rw [hD j (by omega), hcs, hnw j]
  unfold gatherAt
  have e : (sl (Memref.whole main_v1_scv : Memref sig .scVector .hbm S1130496 .i32) L o h).view.read (Elt F) (nf d) j
      = nf d ((sl (Memref.whole main_v2_1_scv : Memref sig .scVector .hbm S1130496 .f32) L o h).view.emb j) :=
    (View.read_apply (v := (sl (Memref.whole main_v1_scv : Memref sig .scVector .hbm S1130496 .i32) L o h).view) (nf d) j).trans ((cast_eq _ _).trans rfl)
  rw [e]

/-- Axis 2: after a sub-chunk's gathered words are copied out over its 4416 positions of the result, those positions
    hold the gather: position k the coordinate word 3 n + 2, n the neighbour word at k. -/
theorem chunk_val_z (cf : (d : Dev nD) → Buf (Elt F) (cLoc d)) (nf : (d : Dev nD) → Buf (Elt F) (nLoc d)) (d : Dev nD) (L : grid0.Coords)
    (o : BitVec 32) (h : ∀ a, (k0_off1 L o) a + S4416.size a ≤ S1130496.size a)
    (fprev : Buf (Elt F) (zLoc d)) (g : Vec F S4416 .f32) (nw : IVec S4416 32) (cs : Vec F S30720 .f32)
    (hcs : cs = cf d)
    (hnw : ∀ j, nw j = (sl (Memref.whole main_v1_scv : Memref sig .scVector .hbm S1130496 .i32) L o h).view.read (Elt F) (nf d) j)
    (hD : Done 276 2 cs nw g) :
    ∀ i ∈ (sl (Memref.whole main_v2_2_scv : Memref sig .scVector .hbm S1130496 .f32) L o h).view.set,
      (sl (Memref.whole main_v2_2_scv : Memref sig .scVector .hbm S1130496 .f32) L o h).view.write (Elt F) fprev g Finset.univ i
        = gatherAt (cf d) (nf d) 2 i := by
  intro i hi
  obtain ⟨j, -, rfl⟩ := Finset.mem_map.mp hi
  have hj : (j 0).val < 4416 := (j 0).isLt
  rw [View.write_emb_of_mem (v := (sl (Memref.whole main_v2_2_scv : Memref sig .scVector .hbm S1130496 .f32) L o h).view) fprev g (Finset.mem_univ j)]
  refine (cast_eq _ _).trans ?_
  rw [hD j (by omega), hcs, hnw j]
  unfold gatherAt
  have e : (sl (Memref.whole main_v1_scv : Memref sig .scVector .hbm S1130496 .i32) L o h).view.read (Elt F) (nf d) j
      = nf d ((sl (Memref.whole main_v2_2_scv : Memref sig .scVector .hbm S1130496 .f32) L o h).view.emb j) :=
    (View.read_apply (v := (sl (Memref.whole main_v1_scv : Memref sig .scVector .hbm S1130496 .i32) L o h).view) (nf d) j).trans ((cast_eq _ _).trans rfl)
  rw [e]

/-- Axis 0, the same with the copy-out written as one listed piece through the whole 4416-position rectangle of the
    sub-chunk: the rectangle's positions are the sub-chunk's own. -/
theorem chunk_wr_x (cf : (d : Dev nD) → Buf (Elt F) (cLoc d)) (nf : (d : Dev nD) → Buf (Elt F) (nLoc d)) (d : Dev nD) (L : grid0.Coords)
    (o : BitVec 32) (h : ∀ a, (k0_off1 L o) a + S4416.size a ≤ S1130496.size a)
    (fprev : Buf (Elt F) (xLoc d)) (g : Vec F S4416 .f32) (nw : IVec S4416 32) (cs : Vec F S30720 .f32)
    (hcs : cs = cf d)
    (hnw : ∀ j, nw j = (sl (Memref.whole main_v1_scv : Memref sig .scVector .hbm S1130496 .i32) L o h).view.read (Elt F) (nf d) j)
    (hD : Done 276 0 cs nw g) :
    ∀ i ∈ (sl (Memref.whole main_v2_0_scv : Memref sig .scVector .hbm S1130496 .f32) L o h).view.set,
      (sl (Memref.whole main_v2_0_scv : Memref sig .scVector .hbm S1130496 .f32) L o h).view.writes (Elt F) fprev [⟨Rect.whole S4416, g⟩] i
        = gatherAt (cf d) (nf d) 0 i := by
  intro i hi
  refine Eq.trans ?_ (chunk_val_x cf nf d L o h fprev g nw cs hcs hnw hD i hi)
  obtain ⟨j, -, rfl⟩ := Finset.mem_map.mp hi
  have e1 : ((sl (Memref.whole main_v2_0_scv : Memref sig .scVector .hbm S1130496 .f32) L o h).view.slice (Rect.whole S4416)).emb j = (sl (Memref.whole main_v2_0_scv : Memref sig .scVector .hbm S1130496 .f32) L o h).view.emb j :=
    congrArg (sl (Memref.whole main_v2_0_scv : Memref sig .scVector .hbm S1130496 .f32) L o h).view.emb (Rect.emb_whole_apply S4416 j)
  show ((sl (Memref.whole main_v2_0_scv : Memref sig .scVector .hbm S1130496 .f32) L o h).view.slice (Rect.whole S4416)).write (Elt F) fprev g Finset.univ ((sl (Memref.whole main_v2_0_scv : Memref sig .scVector .hbm S1130496 .f32) L o h).view.emb j) = _
  rw [← e1, View.write_emb_of_mem (v := (sl (Memref.whole main_v2_0_scv : Memref sig .scVector .hbm S1130496 .f32) L o h).view.slice (Rect.whole S4416)) fprev g (Finset.mem_univ j), e1,
    View.write_emb_of_mem (v := (sl (Memref.whole main_v2_0_scv : Memref sig .scVector .hbm S1130496 .f32) L o h).view) fprev g (Finset.mem_univ j)]

/-- Axis 1, the same with the copy-out written as one listed piece through the whole 4416-position rectangle of the
    sub-chunk: the rectangle's positions are the sub-chunk's own. -/
theorem chunk_wr_y (cf : (d : Dev nD) → Buf (Elt F) (cLoc d)) (nf : (d : Dev nD) → Buf (Elt F) (nLoc d)) (d : Dev nD) (L : grid0.Coords)
    (o : BitVec 32) (h : ∀ a, (k0_off1 L o) a + S4416.size a ≤ S1130496.size a)
    (fprev : Buf (Elt F) (yLoc d)) (g : Vec F S4416 .f32) (nw : IVec S4416 32) (cs : Vec F S30720 .f32)
    (hcs : cs = cf d)
    (hnw : ∀ j, nw j = (sl (Memref.whole main_v1_scv : Memref sig .scVector .hbm S1130496 .i32) L o h).view.read (Elt F) (nf d) j)
    (hD : Done 276 1 cs nw g) :
    ∀ i ∈ (sl (Memref.whole main_v2_1_scv : Memref sig .scVector .hbm S1130496 .f32) L o h).view.set,
      (sl (Memref.whole main_v2_1_scv : Memref sig .scVector .hbm S1130496 .f32) L o h).view.writes (Elt F) fprev [⟨Rect.whole S4416, g⟩] i
        = gatherAt (cf d) (nf d) 1 i := by
  intro i hi
  refine Eq.trans ?_ (chunk_val_y cf nf d L o h fprev g nw cs hcs hnw hD i hi)
  obtain ⟨j, -, rfl⟩ := Finset.mem_map.mp hi
  have e1 : ((sl (Memref.whole main_v2_1_scv : Memref sig .scVector .hbm S1130496 .f32) L o h).view.slice (Rect.whole S4416)).emb j = (sl (Memref.whole main_v2_1_scv : Memref sig .scVector .hbm S1130496 .f32) L o h).view.emb j :=
    congrArg (sl (Memref.whole main_v2_1_scv : Memref sig .scVector .hbm S1130496 .f32) L o h).view.emb (Rect.emb_whole_apply S4416 j)
  show ((sl (Memref.whole main_v2_1_scv : Memref sig .scVector .hbm S1130496 .f32) L o h).view.slice (Rect.whole S4416)).write (Elt F) fprev g Finset.univ ((sl (Memref.whole main_v2_1_scv : Memref sig .scVector .hbm S1130496 .f32) L o h).view.emb j) = _
  rw [← e1, View.write_emb_of_mem (v := (sl (Memref.whole main_v2_1_scv : Memref sig .scVector .hbm S1130496 .f32) L o h).view.slice (Rect.whole S4416)) fprev g (Finset.mem_univ j), e1,
    View.write_emb_of_mem (v := (sl (Memref.whole main_v2_1_scv : Memref sig .scVector .hbm S1130496 .f32) L o h).view) fprev g (Finset.mem_univ j)]

/-- Axis 2, the same with the copy-out written as one listed piece through the whole 4416-position rectangle of the
    sub-chunk: the rectangle's positions are the sub-chunk's own. -/
theorem chunk_wr_z (cf : (d : Dev nD) → Buf (Elt F) (cLoc d)) (nf : (d : Dev nD) → Buf (Elt F) (nLoc d)) (d : Dev nD) (L : grid0.Coords)
    (o : BitVec 32) (h : ∀ a, (k0_off1 L o) a + S4416.size a ≤ S1130496.size a)
    (fprev : Buf (Elt F) (zLoc d)) (g : Vec F S4416 .f32) (nw : IVec S4416 32) (cs : Vec F S30720 .f32)
    (hcs : cs = cf d)
    (hnw : ∀ j, nw j = (sl (Memref.whole main_v1_scv : Memref sig .scVector .hbm S1130496 .i32) L o h).view.read (Elt F) (nf d) j)
    (hD : Done 276 2 cs nw g) :
    ∀ i ∈ (sl (Memref.whole main_v2_2_scv : Memref sig .scVector .hbm S1130496 .f32) L o h).view.set,
      (sl (Memref.whole main_v2_2_scv : Memref sig .scVector .hbm S1130496 .f32) L o h).view.writes (Elt F) fprev [⟨Rect.whole S4416, g⟩] i
        = gatherAt (cf d) (nf d) 2 i := by
  intro i hi
  refine Eq.trans ?_ (chunk_val_z cf nf d L o h fprev g nw cs hcs hnw hD i hi)
  obtain ⟨j, -, rfl⟩ := Finset.mem_map.mp hi
  have e1 : ((sl (Memref.whole main_v2_2_scv : Memref sig .scVector .hbm S1130496 .f32) L o h).view.slice (Rect.whole S4416)).emb j = (sl (Memref.whole main_v2_2_scv : Memref sig .scVector .hbm S1130496 .f32) L o h).view.emb j :=
    congrArg (sl (Memref.whole main_v2_2_scv : Memref sig .scVector .hbm S1130496 .f32) L o h).view.emb (Rect.emb_whole_apply S4416 j)
  show ((sl (Memref.whole main_v2_2_scv : Memref sig .scVector .hbm S1130496 .f32) L o h).view.slice (Rect.whole S4416)).write (Elt F) fprev g Finset.univ ((sl (Memref.whole main_v2_2_scv : Memref sig .scVector .hbm S1130496 .f32) L o h).view.emb j) = _
  rw [← e1, View.write_emb_of_mem (v := (sl (Memref.whole main_v2_2_scv : Memref sig .scVector .hbm S1130496 .f32) L o h).view.slice (Rect.whole S4416)) fprev g (Finset.mem_univ j), e1,
    View.write_emb_of_mem (v := (sl (Memref.whole main_v2_2_scv : Memref sig .scVector .hbm S1130496 .f32) L o h).view) fprev g (Finset.mem_univ j)]

end Cert.KScGather

end
-- ==== Proof.KScTile.lean ====
/-
  The gather tile's task itself. A tile copies the coordinate array into its scratch, then eight times: copies its
  next 4416 neighbour words in, runs the 276 trips of the gather loop (each trip's region is the one trip lemma, the
  eight loops being one text under eight names), and copies the three gathered stretches out to its slices of the
  results. Every copy is issued and waited for in turn on a semaphore of its own, so the run needs no schedule. At
  the end each of the twenty-four result slices holds, position by position, the coordinate word its neighbour word
  names, which is the whole-array value restricted to the slice; the scratches, the semaphores and the read shares
  go back as they came. From that, the launch theorem's obligation for the call.
-/
import proofs.«205418_g46067819217304_cont_8to1_c_241_17_alg».proof.Kernel
import proofs.«205418_g46067819217304_cont_8to1_c_241_17_alg».proof.Proof.Gen.Kernel
import proofs.«205418_g46067819217304_cont_8to1_c_241_17_alg».proof.Proof.Gen.Kernel.Skeleton
import proofs.«205418_g46067819217304_cont_8to1_c_241_17_alg».proof.Proof.KSetup
import proofs.«205418_g46067819217304_cont_8to1_c_241_17_alg».proof.Proof.KScSplit
import proofs.«205418_g46067819217304_cont_8to1_c_241_17_alg».proof.Proof.KScGather
import proofs.«205418_g46067819217304_cont_8to1_c_241_17_alg».proof.Proof.KScVal
import Idealize.ShloMosaic.Lib.SparseCore.Launch
import Idealize.ShloMosaic.Lib.SparseCore.Ops
import Idealize.ShloMosaic.Lib.Tactic
import Idealize.ShloMosaic.Lib.Transfers
import Idealize.ShloMosaic.Lib.ValueIdx

noncomputable section

namespace Cert.KScGather

open Cert.Kernel Cert.Kernel.Gen Cert.Kernel.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => 𝕄F F

variable (cf : (d : Dev nD) → Buf (Elt F) (cLoc d)) (nf : (d : Dev nD) → Buf (Elt F) (nLoc d))

section Tile

variable (d : Dev nD) (L : grid0.Coords)

-- the kernel's memrefs, spelt as the body table passes them
local notation "cW" => (Memref.whole Cert.Kernel.main_v0_scv : Memref Cert.Kernel.sig Kind.scVector Space.hbm Cert.Kernel.S30720 EltTy.f32)
local notation "nW" => (Memref.whole Cert.Kernel.main_v1_scv : Memref Cert.Kernel.sig Kind.scVector Space.hbm Cert.Kernel.S1130496 EltTy.i32)
local notation "xW" => (Memref.whole Cert.Kernel.main_v2_0_scv : Memref Cert.Kernel.sig Kind.scVector Space.hbm Cert.Kernel.S1130496 EltTy.f32)
local notation "yW" => (Memref.whole Cert.Kernel.main_v2_1_scv : Memref Cert.Kernel.sig Kind.scVector Space.hbm Cert.Kernel.S1130496 EltTy.f32)
local notation "zW" => (Memref.whole Cert.Kernel.main_v2_2_scv : Memref Cert.Kernel.sig Kind.scVector Space.hbm Cert.Kernel.S1130496 EltTy.f32)
local notation "sC" => (Memref.whole Cert.Kernel.cc0_scratch0 : Memref Cert.Kernel.sig Kind.scVector Space.vmem Cert.Kernel.S30720 EltTy.f32)
local notation "sN" => (Memref.whole Cert.Kernel.cc0_scratch1 : Memref Cert.Kernel.sig Kind.scVector Space.vmem Cert.Kernel.S4416 EltTy.i32)
local notation "sX" => (Memref.whole Cert.Kernel.cc0_scratch2 : Memref Cert.Kernel.sig Kind.scVector Space.vmem Cert.Kernel.S4416 EltTy.f32)
local notation "sY" => (Memref.whole Cert.Kernel.cc0_scratch3 : Memref Cert.Kernel.sig Kind.scVector Space.vmem Cert.Kernel.S4416 EltTy.f32)
local notation "sZ" => (Memref.whole Cert.Kernel.cc0_scratch4 : Memref Cert.Kernel.sig Kind.scVector Space.vmem Cert.Kernel.S4416 EltTy.f32)

omit [FloatOps F] in
/-- One more wait recorded at the kernels' own index keeps the record within what the launch allows. -/
theorem ins_ok {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with rfl | hp
  · exact .inr rfl
  · exact h p hp

/-! ### The body -/

set_option maxHeartbeats 40000000 in
/-- The task on tile L of device d. -/
theorem tile_body (hF : (K (F := F)).Facts) (hpre : NlOK nf) (O : CellTallies nD τ sig (HIx 1)) (W : Waits sig (HIx 1)) (hO : ∀ g, O g none = 0) :
    iprop(levAts (K (F := F)).L (K (F := F)).lev ∗ emp ∗ handed cf nf d (qT (cL L) (iL L)) (tileSeg (cL L) (iL L))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L cW (Memref.isWhole_whole _) nW (Memref.isWhole_whole _) xW (Memref.isWhole_whole _) yW (Memref.isWhole_whole _) zW (Memref.isWhole_whole _)
            sC (Memref.isWhole_whole _) sN (Memref.isWhole_whole _) sX (Memref.isWhole_whole _) sY (Memref.isWhole_whole _) sZ (Memref.isWhole_whole _)
            cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32)
          fun _ => iprop(gathered cf nf d (qT (cL L) (iL L)) (tileSeg (cL L) (iL L)) ∗ scopedBufs (V d (cV L) (jV L)) ∗ scopedSems0 (V d (cV L) (jV L))
            ∗ ∃ W', ⌜∀ p ∈ W', p ∈ W ∨ p.2 = none⌝ ∗ owes (V d (cV L) (jV L)) O W') := by
  have hwOK : ∀ k, ((nf d k : BitVec 32)).toNat ≤ 10239 := fun k => toNat_of_ok (hpre d k).1 (hpre d k).2
  simp only [cc0_k_eq_skeleton]; unfold cc0_k_skel
  simp only [k0_part1_eq_skeleton, k0_part2_eq_skeleton, k0_part3_eq_skeleton, k0_part4_eq_skeleton]
  unfold k0_part1_skel k0_part2_skel k0_part3_skel k0_part4_skel
  rw [(K (F := F)).scopedBufs_V hF d (cV L) (jV L), SparseCore.Cfg.scopedSems0_V (Val := Elt F) d (cV L) (jV L), ownSems0_V, ownBufs_V,
    handed, gathered]
  iintro ⟨#Hlv, -, ⟨Hc, Hn, ⟨%fx, Hx⟩, ⟨%fy, Hy⟩, ⟨%fz, Hz⟩⟩,
    ⟨⟨%f0, HsC⟩, ⟨%f1, HsN⟩, ⟨%f2, HsX⟩, ⟨%f3, HsY⟩, ⟨%f4, HsZ⟩, Hbufs⟩, ⟨⟨Hs0, Hs1, Hs2, Hs3, Hs4, Hs5, Hs6, Hs7, Hs8, Hs9, Hs10, Hs11, Hs12, Hs13, Hs14, Hs15, Hs16, Hs17, Hs18, Hs19, Hs20, Hs21, Hs22, Hs23, Hs24, Hs25, Hs26, Hs27, Hs28, Hs29, Hs30, Hs31, Hs32⟩, Hsems⟩, HO⟩
  ihave Hmw := ((K (F := F)).mayWaits_none (thr := (V d (cV L) (jV L))) hO) $$ Hlv
  -- the tile's range of each result as the eight slices the kernel copies into
  ihave Hx := (Entails.of_eq (x_chunks8 (F := F) d L fx)) $$ Hx
  icases Hx with ⟨Hx0, Hx1, Hx2, Hx3, Hx4, Hx5, Hx6, Hx7⟩
  ihave Hy := (Entails.of_eq (y_chunks8 (F := F) d L fy)) $$ Hy
  icases Hy with ⟨Hy0, Hy1, Hy2, Hy3, Hy4, Hy5, Hy6, Hy7⟩
  ihave Hz := (Entails.of_eq (z_chunks8 (F := F) d L fz)) $$ Hz
  icases Hz with ⟨Hz0, Hz1, Hz2, Hz3, Hz4, Hz5, Hz6, Hz7⟩
  -- the operands and the scratches as the tile addresses them
  ihave Hc := (Entails.of_eq (pts_c (F := F) d L _ _).symm) $$ Hc
  ihave Hn := (Entails.of_eq (pts_n (F := F) d L _ _).symm) $$ Hn
  ihave HsC := (Entails.of_eq (pts_sC (F := F) d L _).symm) $$ HsC
  ihave HsN := (Entails.of_eq (pts_sN (F := F) d L _).symm) $$ HsN
  ihave HsX := (Entails.of_eq (pts_sX (F := F) d L _).symm) $$ HsX
  ihave HsY := (Entails.of_eq (pts_sY (F := F) d L _).symm) $$ HsY
  ihave HsZ := (Entails.of_eq (pts_sZ (F := F) d L _).symm) $$ HsZ
  sl_exec
  -- sub-chunk 0: the words copied in, the trips, the three stretches copied out
  generalize hcs : View.write (Elt F) (sC).view f0 _ Finset.univ = cs
  generalize hnw0 : View.write (Elt F) (sN).view _ _ Finset.univ = nw0
  have hw0 : ∀ j, ((nw0 j : BitVec 32)).toNat ≤ 10239 := by
    intro j; rw [← hnw0]
    show BitVec.toNat ((View.whole cc0_scratch1).write (Elt F) _ _ Finset.univ j) ≤ 10239
    rw [View.write_whole_univ]; exact hwOK _
  rw [Prog.bind_assoc]
  sl_for (tripInv (F := F) d L cs nw0) $$ [HsC HsN HsX HsY HsZ]
  · exact fun t u => trip (F := F) d L cs nw0 hw0 t u
  · rw [tripInv]
    isplitl [HsC]; · iexact HsC
    isplitl [HsN]; · iexact HsN
    iexists _, _, _
    isplitl [HsX]; · iexact HsX
    isplitl [HsY]; · iexact HsY
    isplitl [HsZ]; · iexact HsZ
    ipureintro; exact ⟨Done_zero _ _ _ _, Done_zero _ _ _ _, Done_zero _ _ _ _⟩
  iintro %_ HI
  ihave HI := (Entails.of_eq (tripInv.eq_1 (F := F) d L cs nw0 _ _)) $$ HI
  icases HI with ⟨HsC, HsN, %gx0, %gy0, %gz0, HsX, HsY, HsZ, %hD0⟩
  sl_exec
  -- sub-chunk 1: the words copied in, the trips, the three stretches copied out
  generalize hnw1 : View.write (Elt F) (sN).view _ _ Finset.univ = nw1
  have hw1 : ∀ j, ((nw1 j : BitVec 32)).toNat ≤ 10239 := by
    intro j; rw [← hnw1]
    show BitVec.toNat ((View.whole cc0_scratch1).write (Elt F) _ _ Finset.univ j) ≤ 10239
    rw [View.write_whole_univ]; exact hwOK _
  rw [Prog.bind_assoc]
  sl_for (tripInv (F := F) d L cs nw1) $$ [HsC HsN HsX HsY HsZ]
  · exact fun t u => trip (F := F) d L cs nw1 hw1 t u
  · rw [tripInv]
    isplitl [HsC]; · iexact HsC
    isplitl [HsN]; · iexact HsN
    iexists _, _, _
    isplitl [HsX]; · iexact HsX
    isplitl [HsY]; · iexact HsY
    isplitl [HsZ]; · iexact HsZ
    ipureintro; exact ⟨Done_zero _ _ _ _, Done_zero _ _ _ _, Done_zero _ _ _ _⟩
  iintro %_ HI
  ihave HI := (Entails.of_eq (tripInv.eq_1 (F := F) d L cs nw1 _ _)) $$ HI
  icases HI with ⟨HsC, HsN, %gx1, %gy1, %gz1, HsX, HsY, HsZ, %hD1⟩
  sl_exec
  -- sub-chunk 2: the words copied in, the trips, the three stretches copied out
  generalize hnw2 : View.write (Elt F) (sN).view _ _ Finset.univ = nw2
  have hw2 : ∀ j, ((nw2 j : BitVec 32)).toNat ≤ 10239 := by
    intro j; rw [← hnw2]
    show BitVec.toNat ((View.whole cc0_scratch1).write (Elt F) _ _ Finset.univ j) ≤ 10239
    rw [View.write_whole_univ]; exact hwOK _
  rw [Prog.bind_assoc]
  sl_for (tripInv (F := F) d L cs nw2) $$ [HsC HsN HsX HsY HsZ]
  · exact fun t u => trip (F := F) d L cs nw2 hw2 t u
  · rw [tripInv]
    isplitl [HsC]; · iexact HsC
    isplitl [HsN]; · iexact HsN
    iexists _, _, _
    isplitl [HsX]; · iexact HsX
    isplitl [HsY]; · iexact HsY
    isplitl [HsZ]; · iexact HsZ
    ipureintro; exact ⟨Done_zero _ _ _ _, Done_zero _ _ _ _, Done_zero _ _ _ _⟩
  iintro %_ HI
  ihave HI := (Entails.of_eq (tripInv.eq_1 (F := F) d L cs nw2 _ _)) $$ HI
  icases HI with ⟨HsC, HsN, %gx2, %gy2, %gz2, HsX, HsY, HsZ, %hD2⟩
  sl_exec
  -- sub-chunk 3: the words copied in, the trips, the three stretches copied out
  generalize hnw3 : View.write (Elt F) (sN).view _ _ Finset.univ = nw3
  have hw3 : ∀ j, ((nw3 j : BitVec 32)).toNat ≤ 10239 := by
    intro j; rw [← hnw3]
    show BitVec.toNat ((View.whole cc0_scratch1).write (Elt F) _ _ Finset.univ j) ≤ 10239
    rw [View.write_whole_univ]; exact hwOK _
  rw [Prog.bind_assoc]
  sl_for (tripInv (F := F) d L cs nw3) $$ [HsC HsN HsX HsY HsZ]
  · exact fun t u => trip (F := F) d L cs nw3 hw3 t u
  · rw [tripInv]
    isplitl [HsC]; · iexact HsC
    isplitl [HsN]; · iexact HsN
    iexists _, _, _
    isplitl [HsX]; · iexact HsX
    isplitl [HsY]; · iexact HsY
    isplitl [HsZ]; · iexact HsZ
    ipureintro; exact ⟨Done_zero _ _ _ _, Done_zero _ _ _ _, Done_zero _ _ _ _⟩
  iintro %_ HI
  ihave HI := (Entails.of_eq (tripInv.eq_1 (F := F) d L cs nw3 _ _)) $$ HI
  icases HI with ⟨HsC, HsN, %gx3, %gy3, %gz3, HsX, HsY, HsZ, %hD3⟩
  sl_exec
  -- sub-chunk 4: the words copied in, the trips, the three stretches copied out
  generalize hnw4 : View.write (Elt F) (sN).view _ _ Finset.univ = nw4
  have hw4 : ∀ j, ((nw4 j : BitVec 32)).toNat ≤ 10239 := by
    intro j; rw [← hnw4]
    show BitVec.toNat ((View.whole cc0_scratch1).write (Elt F) _ _ Finset.univ j) ≤ 10239
    rw [View.write_whole_univ]; exact hwOK _
  rw [Prog.bind_assoc]
  sl_for (tripInv (F := F) d L cs nw4) $$ [HsC HsN HsX HsY HsZ]
  · exact fun t u => trip (F := F) d L cs nw4 hw4 t u
  · rw [tripInv]
    isplitl [HsC]; · iexact HsC
    isplitl [HsN]; · iexact HsN
    iexists _, _, _
    isplitl [HsX]; · iexact HsX
    isplitl [HsY]; · iexact HsY
    isplitl [HsZ]; · iexact HsZ
    ipureintro; exact ⟨Done_zero _ _ _ _, Done_zero _ _ _ _, Done_zero _ _ _ _⟩
  iintro %_ HI
  ihave HI := (Entails.of_eq (tripInv.eq_1 (F := F) d L cs nw4 _ _)) $$ HI
  icases HI with ⟨HsC, HsN, %gx4, %gy4, %gz4, HsX, HsY, HsZ, %hD4⟩
  sl_exec
  -- sub-chunk 5: the words copied in, the trips, the three stretches copied out
  generalize hnw5 : View.write (Elt F) (sN).view _ _ Finset.univ = nw5
  have hw5 : ∀ j, ((nw5 j : BitVec 32)).toNat ≤ 10239 := by
    intro j; rw [← hnw5]
    show BitVec.toNat ((View.whole cc0_scratch1).write (Elt F) _ _ Finset.univ j) ≤ 10239
    rw [View.write_whole_univ]; exact hwOK _
  rw [Prog.bind_assoc]
  sl_for (tripInv (F := F) d L cs nw5) $$ [HsC HsN HsX HsY HsZ]
  · exact fun t u => trip (F := F) d L cs nw5 hw5 t u
  · rw [tripInv]
    isplitl [HsC]; · iexact HsC
    isplitl [HsN]; · iexact HsN
    iexists _, _, _
    isplitl [HsX]; · iexact HsX
    isplitl [HsY]; · iexact HsY
    isplitl [HsZ]; · iexact HsZ
    ipureintro; exact ⟨Done_zero _ _ _ _, Done_zero _ _ _ _, Done_zero _ _ _ _⟩
  iintro %_ HI
  ihave HI := (Entails.of_eq (tripInv.eq_1 (F := F) d L cs nw5 _ _)) $$ HI
  icases HI with ⟨HsC, HsN, %gx5, %gy5, %gz5, HsX, HsY, HsZ, %hD5⟩
  sl_exec
  -- sub-chunk 6: the words copied in, the trips, the three stretches copied out
  generalize hnw6 : View.write (Elt F) (sN).view _ _ Finset.univ = nw6
  have hw6 : ∀ j, ((nw6 j : BitVec 32)).toNat ≤ 10239 := by
    intro j; rw [← hnw6]
    show BitVec.toNat ((View.whole cc0_scratch1).write (Elt F) _ _ Finset.univ j) ≤ 10239
    rw [View.write_whole_univ]; exact hwOK _
  rw [Prog.bind_assoc]
  sl_for (tripInv (F := F) d L cs nw6) $$ [HsC HsN HsX HsY HsZ]
  · exact fun t u => trip (F := F) d L cs nw6 hw6 t u
  · rw [tripInv]
    isplitl [HsC]; · iexact HsC
    isplitl [HsN]; · iexact HsN
    iexists _, _, _
    isplitl [HsX]; · iexact HsX
    isplitl [HsY]; · iexact HsY
    isplitl [HsZ]; · iexact HsZ
    ipureintro; exact ⟨Done_zero _ _ _ _, Done_zero _ _ _ _, Done_zero _ _ _ _⟩
  iintro %_ HI
  ihave HI := (Entails.of_eq (tripInv.eq_1 (F := F) d L cs nw6 _ _)) $$ HI
  icases HI with ⟨HsC, HsN, %gx6, %gy6, %gz6, HsX, HsY, HsZ, %hD6⟩
  sl_exec
  -- sub-chunk 7: the words copied in, the trips, the three stretches copied out
  generalize hnw7 : View.write (Elt F) (sN).view _ _ Finset.univ = nw7
  have hw7 : ∀ j, ((nw7 j : BitVec 32)).toNat ≤ 10239 := by
    intro j; rw [← hnw7]
    show BitVec.toNat ((View.whole cc0_scratch1).write (Elt F) _ _ Finset.univ j) ≤ 10239
    rw [View.write_whole_univ]; exact hwOK _
  sl_for (tripInv (F := F) d L cs nw7) $$ [HsC HsN HsX HsY HsZ]
  · exact fun t u => trip (F := F) d L cs nw7 hw7 t u
  · rw [tripInv]
    isplitl [HsC]; · iexact HsC
    isplitl [HsN]; · iexact HsN
    iexists _, _, _
    isplitl [HsX]; · iexact HsX
    isplitl [HsY]; · iexact HsY
    isplitl [HsZ]; · iexact HsZ
    ipureintro; exact ⟨Done_zero _ _ _ _, Done_zero _ _ _ _, Done_zero _ _ _ _⟩
  iintro %_ HI
  ihave HI := (Entails.of_eq (tripInv.eq_1 (F := F) d L cs nw7 _ _)) $$ HI
  icases HI with ⟨HsC, HsN, %gx7, %gy7, %gz7, HsX, HsY, HsZ, %hD7⟩
  sl_exec
  -- the end: what the scratches and the copied-in words were
  have hcs' : cs = cf d := by
    rw [← hcs]
    show (View.whole cc0_scratch0).write (Elt F) _ _ Finset.univ = _
    rw [View.write_whole_univ]; rfl
  have hnw0' : ∀ j, nw0 j = (sl (nW) L 0#32 (k0_off1_inb L 0)).view.read (Elt F) (nf d) j := fun j => by
    rw [← hnw0]
    show (View.whole cc0_scratch1).write (Elt F) _ _ Finset.univ j = _
    rw [View.write_whole_univ]; rfl
  have hnw1' : ∀ j, nw1 j = (sl (nW) L 4416#32 (k0_off1_inb L 1)).view.read (Elt F) (nf d) j := fun j => by
    rw [← hnw1]
    show (View.whole cc0_scratch1).write (Elt F) _ _ Finset.univ j = _
    rw [View.write_whole_univ]; rfl
  have hnw2' : ∀ j, nw2 j = (sl (nW) L 8832#32 (k0_off1_inb L 2)).view.read (Elt F) (nf d) j := fun j => by
    rw [← hnw2]
    show (View.whole cc0_scratch1).write (Elt F) _ _ Finset.univ j = _
    rw [View.write_whole_univ]; rfl
  have hnw3' : ∀ j, nw3 j = (sl (nW) L 13248#32 (k0_off1_inb L 3)).view.read (Elt F) (nf d) j := fun j => by
    rw [← hnw3]
    show (View.whole cc0_scratch1).write (Elt F) _ _ Finset.univ j = _
    rw [View.write_whole_univ]; rfl
  have hnw4' : ∀ j, nw4 j = (sl (nW) L 17664#32 (k0_off1_inb L 4)).view.read (Elt F) (nf d) j := fun j => by
    rw [← hnw4]
    show (View.whole cc0_scratch1).write (Elt F) _ _ Finset.univ j = _
    rw [View.write_whole_univ]; rfl
  have hnw5' : ∀ j, nw5 j = (sl (nW) L 22080#32 (k0_off1_inb L 5)).view.read (Elt F) (nf d) j := fun j => by
    rw [← hnw5]
    show (View.whole cc0_scratch1).write (Elt F) _ _ Finset.univ j = _
    rw [View.write_whole_univ]; rfl
  have hnw6' : ∀ j, nw6 j = (sl (nW) L 26496#32 (k0_off1_inb L 6)).view.read (Elt F) (nf d) j := fun j => by
    rw [← hnw6]
    show (View.whole cc0_scratch1).write (Elt F) _ _ Finset.univ j = _
    rw [View.write_whole_univ]; rfl
  have hnw7' : ∀ j, nw7 j = (sl (nW) L 30912#32 (k0_off1_inb L 7)).view.read (Elt F) (nf d) j := fun j => by
    rw [← hnw7]
    show (View.whole cc0_scratch1).write (Elt F) _ _ Finset.univ j = _
    rw [View.write_whole_univ]; rfl
  sl_step
  isplitl [Hc Hn Hx0 Hx1 Hx2 Hx3 Hx4 Hx5 Hx6 Hx7 Hy0 Hy1 Hy2 Hy3 Hy4 Hy5 Hy6 Hy7 Hz0 Hz1 Hz2 Hz3 Hz4 Hz5 Hz6 Hz7]
  · isplitl [Hc]; · iapply (Entails.of_eq (pts_c (F := F) d L _ _)); iexact Hc
    isplitl [Hn]; · iapply (Entails.of_eq (pts_n (F := F) d L _ _)); iexact Hn
    isplitl [Hx0 Hx1 Hx2 Hx3 Hx4 Hx5 Hx6 Hx7]
    · iapply (Entails.of_eq (x_chunks8 (F := F) d L _).symm)
      isplitl [Hx0]; · iapply (Entails.of_eq (pointsTo_congr (chunk_wr_x cf nf d L _ _ _ _ nw0 cs hcs' hnw0' hD0.1))); iexact Hx0
      isplitl [Hx1]; · iapply (Entails.of_eq (pointsTo_congr (chunk_wr_x cf nf d L _ _ _ _ nw1 cs hcs' hnw1' hD1.1))); iexact Hx1
      isplitl [Hx2]; · iapply (Entails.of_eq (pointsTo_congr (chunk_wr_x cf nf d L _ _ _ _ nw2 cs hcs' hnw2' hD2.1))); iexact Hx2
      isplitl [Hx3]; · iapply (Entails.of_eq (pointsTo_congr (chunk_wr_x cf nf d L _ _ _ _ nw3 cs hcs' hnw3' hD3.1))); iexact Hx3
      isplitl [Hx4]; · iapply (Entails.of_eq (pointsTo_congr (chunk_wr_x cf nf d L _ _ _ _ nw4 cs hcs' hnw4' hD4.1))); iexact Hx4
      isplitl [Hx5]; · iapply (Entails.of_eq (pointsTo_congr (chunk_wr_x cf nf d L _ _ _ _ nw5 cs hcs' hnw5' hD5.1))); iexact Hx5
      isplitl [Hx6]; · iapply (Entails.of_eq (pointsTo_congr (chunk_wr_x cf nf d L _ _ _ _ nw6 cs hcs' hnw6' hD6.1))); iexact Hx6
      iapply (Entails.of_eq (pointsTo_congr (chunk_wr_x cf nf d L _ _ _ _ nw7 cs hcs' hnw7' hD7.1))); iexact Hx7
    isplitl [Hy0 Hy1 Hy2 Hy3 Hy4 Hy5 Hy6 Hy7]
    · iapply (Entails.of_eq (y_chunks8 (F := F) d L _).symm)
      isplitl [Hy0]; · iapply (Entails.of_eq (pointsTo_congr (chunk_wr_y cf nf d L _ _ _ _ nw0 cs hcs' hnw0' hD0.2.1))); iexact Hy0
      isplitl [Hy1]; · iapply (Entails.of_eq (pointsTo_congr (chunk_wr_y cf nf d L _ _ _ _ nw1 cs hcs' hnw1' hD1.2.1))); iexact Hy1
      isplitl [Hy2]; · iapply (Entails.of_eq (pointsTo_congr (chunk_wr_y cf nf d L _ _ _ _ nw2 cs hcs' hnw2' hD2.2.1))); iexact Hy2
      isplitl [Hy3]; · iapply (Entails.of_eq (pointsTo_congr (chunk_wr_y cf nf d L _ _ _ _ nw3 cs hcs' hnw3' hD3.2.1))); iexact Hy3
      isplitl [Hy4]; · iapply (Entails.of_eq (pointsTo_congr (chunk_wr_y cf nf d L _ _ _ _ nw4 cs hcs' hnw4' hD4.2.1))); iexact Hy4
      isplitl [Hy5]; · iapply (Entails.of_eq (pointsTo_congr (chunk_wr_y cf nf d L _ _ _ _ nw5 cs hcs' hnw5' hD5.2.1))); iexact Hy5
      isplitl [Hy6]; · iapply (Entails.of_eq (pointsTo_congr (chunk_wr_y cf nf d L _ _ _ _ nw6 cs hcs' hnw6' hD6.2.1))); iexact Hy6
      iapply (Entails.of_eq (pointsTo_congr (chunk_wr_y cf nf d L _ _ _ _ nw7 cs hcs' hnw7' hD7.2.1))); iexact Hy7
    iapply (Entails.of_eq (z_chunks8 (F := F) d L _).symm)
    isplitl [Hz0]; · iapply (Entails.of_eq (pointsTo_congr (chunk_wr_z cf nf d L _ _ _ _ nw0 cs hcs' hnw0' hD0.2.2))); iexact Hz0
    isplitl [Hz1]; · iapply (Entails.of_eq (pointsTo_congr (chunk_wr_z cf nf d L _ _ _ _ nw1 cs hcs' hnw1' hD1.2.2))); iexact Hz1
    isplitl [Hz2]; · iapply (Entails.of_eq (pointsTo_congr (chunk_wr_z cf nf d L _ _ _ _ nw2 cs hcs' hnw2' hD2.2.2))); iexact Hz2
    isplitl [Hz3]; · iapply (Entails.of_eq (pointsTo_congr (chunk_wr_z cf nf d L _ _ _ _ nw3 cs hcs' hnw3' hD3.2.2))); iexact Hz3
    isplitl [Hz4]; · iapply (Entails.of_eq (pointsTo_congr (chunk_wr_z cf nf d L _ _ _ _ nw4 cs hcs' hnw4' hD4.2.2))); iexact Hz4
    isplitl [Hz5]; · iapply (Entails.of_eq (pointsTo_congr (chunk_wr_z cf nf d L _ _ _ _ nw5 cs hcs' hnw5' hD5.2.2))); iexact Hz5
    isplitl [Hz6]; · iapply (Entails.of_eq (pointsTo_congr (chunk_wr_z cf nf d L _ _ _ _ nw6 cs hcs' hnw6' hD6.2.2))); iexact Hz6
    iapply (Entails.of_eq (pointsTo_congr (chunk_wr_z cf nf d L _ _ _ _ nw7 cs hcs' hnw7' hD7.2.2))); iexact Hz7
  isplitl [HsC HsN HsX HsY HsZ Hbufs]
  · isplitl [HsC]; · iexists _; iapply (Entails.of_eq (pts_sC (F := F) d L _)); iexact HsC
    isplitl [HsN]; · iexists _; iapply (Entails.of_eq (pts_sN (F := F) d L _)); iexact HsN
    isplitl [HsX]; · iexists _; iapply (Entails.of_eq (pts_sX (F := F) d L _)); iexact HsX
    isplitl [HsY]; · iexists _; iapply (Entails.of_eq (pts_sY (F := F) d L _)); iexact HsY
    isplitl [HsZ]; · iexists _; iapply (Entails.of_eq (pts_sZ (F := F) d L _)); iexact HsZ
    iexact Hbufs
  isplitl [Hs0 Hs1 Hs2 Hs3 Hs4 Hs5 Hs6 Hs7 Hs8 Hs9 Hs10 Hs11 Hs12 Hs13 Hs14 Hs15 Hs16 Hs17 Hs18 Hs19 Hs20 Hs21 Hs22 Hs23 Hs24 Hs25 Hs26 Hs27 Hs28 Hs29 Hs30 Hs31 Hs32 Hsems]
  · isplitl [Hs0 Hs1 Hs2 Hs3 Hs4 Hs5 Hs6 Hs7 Hs8 Hs9 Hs10 Hs11 Hs12 Hs13 Hs14 Hs15 Hs16 Hs17 Hs18 Hs19 Hs20 Hs21 Hs22 Hs23 Hs24 Hs25 Hs26 Hs27 Hs28 Hs29 Hs30 Hs31 Hs32]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      isplitl [Hs10]; · iexact Hs10
      isplitl [Hs11]; · iexact Hs11
      isplitl [Hs12]; · iexact Hs12
      isplitl [Hs13]; · iexact Hs13
      isplitl [Hs14]; · iexact Hs14
      isplitl [Hs15]; · iexact Hs15
      isplitl [Hs16]; · iexact Hs16
      isplitl [Hs17]; · iexact Hs17
      isplitl [Hs18]; · iexact Hs18
      isplitl [Hs19]; · iexact Hs19
      isplitl [Hs20]; · iexact Hs20
      isplitl [Hs21]; · iexact Hs21
      isplitl [Hs22]; · iexact Hs22
      isplitl [Hs23]; · iexact Hs23
      isplitl [Hs24]; · iexact Hs24
      isplitl [Hs25]; · iexact Hs25
      isplitl [Hs26]; · iexact Hs26
      isplitl [Hs27]; · iexact Hs27
      isplitl [Hs28]; · iexact Hs28
      isplitl [Hs29]; · iexact Hs29
      isplitl [Hs30]; · iexact Hs30
      isplitl [Hs31]; · iexact Hs31
      iexact Hs32
    iexact Hsems
  iexists _; isplitr
  rotate_left
  · iexact HO
  · ipureintro
    iterate 33 (refine ins_ok _ ?_)
    exact fun p hp => .inl hp

end Tile

/-- A tile's task: from its read share of the operands and its range of the results, the range gathered. -/
theorem tileObl (hF : (K (F := F)).Facts) (hpre : NlOK nf) : (K (F := F)).TileObl (D (F := F)) 𝒱 (P cf nf) v₀ 0 := by
  intro d c i O W hO _ _
  -- the kernel owes nothing for a protocol of its own
  simp only [show (P cf nf).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body cf nf d (coordsV ⟨_, hc.1⟩ ⟨_, hc.2⟩) hF hpre O W hO).trans (wp_mono frame _ _ fun _ => obl_post)

end Cert.KScGather

end
-- ==== Proof.KEnvRegion.lean ====
import proofs.«205418_g46067819217304_cont_8to1_c_241_17_alg».proof.Kernel
import proofs.«205418_g46067819217304_cont_8to1_c_241_17_alg».proof.Proof.Gen.Kernel
import proofs.«205418_g46067819217304_cont_8to1_c_241_17_alg».proof.Proof.Gen.Kernel.Skeleton
import proofs.«205418_g46067819217304_cont_8to1_c_241_17_alg».proof.Proof.Gen.Kernel.Launch
import proofs.«205418_g46067819217304_cont_8to1_c_241_17_alg».proof.Proof.Gen.Kernel.Points
import Idealize.ShloMosaic.Lib.Pipeline.FrameBody
import Idealize.ShloMosaic.Lib.Pipeline.Regions
import Idealize.ShloMosaic.Lib.Pipeline.Kit
import Idealize.ShloMosaic.Lib.Pipeline.Value
import Idealize.ShloMosaic.Lib.Tactic

/-!
# The environment kernel as one pipelined region

The first TensorCore call walks the 8192 atoms in 16 blocks of 512 rows. At a grid point it is handed
seven input blocks — the gathered neighbour coordinates x, y, z (512 × 138 each), the centre atoms'
coordinates (512 × 3), their types (512 × 1, integer words), and the two 2 × 138 tables of means and
standard deviations, which do not move with the point — and it leaves two output blocks: columns
[0, 46) and columns [46, 138) of the 512 × 138 block of normalised environment entries

    dm(r, j) = ((1 / len) · sw(len) − mean[a_r, j]) / std[a_r, j],
    len = sqrt((x − cx)² + (y − cy)² + (z − cz)²),   a_r = 0 if the type word of row r is 0, else 1.

Everything in the block is pointwise in (r, j): nothing is carried from one grid point to the next, and
each output block is one covering store of a slice of that 512 × 138 value.

This module states what each staging buffer holds after the body as a function of the seven input
blocks, runs the body once at a symbolic grid point, and packages that as the pipeline's proof data
and body obligation. It is generic in the float instance and in the ghost state it is used under.
-/

set_option maxRecDepth 16384

noncomputable section

namespace Cert.KEnvRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The rectangles the body reads and writes -/

/-- A whole 512 × 138 block (a neighbour coordinate). -/
abbrev rNbr : Rect S512x138 := Rect.unit (s := S512x138) ![0, 0] S512x138.size inb_S512x138_S512x138_0_0
/-- Column 0, 1, 2 of the 512 × 3 block of centre coordinates. -/
abbrev rCx : Rect S512x3 := Rect.unit (s := S512x3) ![0, 0] S512x1.size inb_S512x3_S512x1_0_0
abbrev rCy : Rect S512x3 := Rect.unit (s := S512x3) ![0, 1] S512x1.size inb_S512x3_S512x1_0_1
abbrev rCz : Rect S512x3 := Rect.unit (s := S512x3) ![0, 2] S512x1.size inb_S512x3_S512x1_0_2
/-- The whole 512 × 1 block of type words. -/
abbrev rTy : Rect S512x1 := Rect.unit (s := S512x1) ![0, 0] S512x1.size inb_S512x1_S512x1_0_0
/-- Row 0 and row 1 of a 2 × 138 table. -/
abbrev rRow0 : Rect S2x138 := Rect.unit (s := S2x138) ![0, 0] S1x138.size inb_S2x138_S1x138_0_0
abbrev rRow1 : Rect S2x138 := Rect.unit (s := S2x138) ![1, 0] S1x138.size inb_S2x138_S1x138_1_0
/-- The two whole output blocks. -/
abbrev rLo : Rect S512x46 := Rect.unit (s := S512x46) ![0, 0] S512x46.size inb_S512x46_S512x46_0_0
abbrev rHi : Rect S512x92 := Rect.unit (s := S512x92) ![0, 0] S512x92.size inb_S512x92_S512x92_0_0

/-! ## The block of environment entries, from the seven input blocks -/

/-- The distance block: sqrt of the summed squared coordinate differences. -/
def lenBlk (x0 x1 x2 : Vec F S512x138 .f32) (x3 : Vec F S512x3 .f32) : FVec F S512x138 .f32 :=
  k1_pay4 (View.ld x0 rNbr) (View.ld x3 rCx) (View.ld x1 rNbr) (View.ld x3 rCy) (View.ld x2 rNbr) (View.ld x3 rCz)
/-- 1 / len. -/
def invBlk (x0 x1 x2 : Vec F S512x138 .f32) (x3 : Vec F S512x3 .f32) : FVec F S512x138 .f32 :=
  k1_pay5 (View.ld x0 rNbr) (View.ld x3 rCx) (View.ld x1 rNbr) (View.ld x3 rCy) (View.ld x2 rNbr) (View.ld x3 rCz)
/-- [len ≤ 1/2] as a number. -/
def innerBlk (x0 x1 x2 : Vec F S512x138 .f32) (x3 : Vec F S512x3 .f32) : FVec F S512x138 .f32 :=
  k1_pay6 (View.ld x0 rNbr) (View.ld x3 rCx) (View.ld x1 rNbr) (View.ld x3 rCy) (View.ld x2 rNbr) (View.ld x3 rCz)
/-- 1 − clip([len ≤ 1/2] + [len ≥ 6], 0, 1). -/
def midBlk (x0 x1 x2 : Vec F S512x138 .f32) (x3 : Vec F S512x3 .f32) : FVec F S512x138 .f32 :=
  k1_pay7 (View.ld x0 rNbr) (View.ld x3 rCx) (View.ld x1 rNbr) (View.ld x3 rCy) (View.ld x2 rNbr) (View.ld x3 rCz)
/-- The raw entries (1 / len) · sw(len). -/
def rawBlk (x0 x1 x2 : Vec F S512x138 .f32) (x3 : Vec F S512x3 .f32) : FVec F S512x138 .f32 :=
  k1_pay8 (lenBlk x0 x1 x2 x3) (invBlk x0 x1 x2 x3) (innerBlk x0 x1 x2 x3) (midBlk x0 x1 x2 x3)

/-- The 512 × 138 block of normalised entries: (raw − mean[type]) / std[type]. -/
def dmBlk (x0 x1 x2 : Vec F S512x138 .f32) (x3 : Vec F S512x3 .f32) (x4 : Vec F S512x1 .i32) (x5 x6 : Vec F S2x138 .f32) : FVec F S512x138 .f32 :=
  k1_pay1 (rawBlk x0 x1 x2 x3) (k1_pay10 (View.ld x4 rTy) (View.ld x5 rRow0) (View.ld x5 rRow1)) (k1_pay11 (View.ld x6 rRow1))
    (k1_pay12 (View.ld x4 rTy)) (k1_pay13 (View.ld x6 rRow0))

/-- Its columns [0, 46), as the body slices them. -/
def loBlk (x0 x1 x2 : Vec F S512x138 .f32) (x3 : Vec F S512x3 .f32) (x4 : Vec F S512x1 .i32) (x5 x6 : Vec F S2x138 .f32) : FVec F S512x46 .f32 :=
  k1_pay2 (rawBlk x0 x1 x2 x3) (k1_pay10 (View.ld x4 rTy) (View.ld x5 rRow0) (View.ld x5 rRow1)) (k1_pay11 (View.ld x6 rRow1))
    (k1_pay12 (View.ld x4 rTy)) (k1_pay13 (View.ld x6 rRow0))
/-- Its columns [46, 138). -/
def hiBlk (x0 x1 x2 : Vec F S512x138 .f32) (x3 : Vec F S512x3 .f32) (x4 : Vec F S512x1 .i32) (x5 x6 : Vec F S2x138 .f32) : FVec F S512x92 .f32 :=
  k1_pay3 (rawBlk x0 x1 x2 x3) (k1_pay10 (View.ld x4 rTy) (View.ld x5 rRow0) (View.ld x5 rRow1)) (k1_pay11 (View.ld x6 rRow1))
    (k1_pay12 (View.ld x4 rTy)) (k1_pay13 (View.ld x6 rRow0))

theorem loBlk_eq (x0 x1 x2 : Vec F S512x138 .f32) (x3 : Vec F S512x3 .f32) (x4 : Vec F S512x1 .i32) (x5 x6 : Vec F S2x138 .f32) :
    loBlk x0 x1 x2 x3 x4 x5 x6 = extractStridedSlice S512x46 ![0, 0] (dmBlk x0 x1 x2 x3 x4 x5 x6) slices_S512x138_o0_0_S512x46 := rfl
theorem hiBlk_eq (x0 x1 x2 : Vec F S512x138 .f32) (x3 : Vec F S512x3 .f32) (x4 : Vec F S512x1 .i32) (x5 x6 : Vec F S2x138 .f32) :
    hiBlk x0 x1 x2 x3 x4 x5 x6 = extractStridedSlice S512x92 ![0, 46] (dmBlk x0 x1 x2 x3 x4 x5 x6) slices_S512x138_o0_46_S512x92 := rfl

/-! ## What the body leaves in the two output buffers -/

/-- The first output's staging buffer after the body: one store of the whole block. -/
def outLo (x0 x1 x2 : Vec F S512x138 .f32) (x3 : Vec F S512x3 .f32) (x4 : Vec F S512x1 .i32) (x5 x6 : Vec F S2x138 .f32) : Vec F S512x46 .f32 :=
  View.canon [⟨rLo, loBlk x0 x1 x2 x3 x4 x5 x6⟩]
/-- The second output's. -/
def outHi (x0 x1 x2 : Vec F S512x138 .f32) (x3 : Vec F S512x3 .f32) (x4 : Vec F S512x1 .i32) (x5 x6 : Vec F S2x138 .f32) : Vec F S512x92 .f32 :=
  View.canon [⟨rHi, hiBlk x0 x1 x2 x3 x4 x5 x6⟩]

/-- One store over the whole buffer covers it. -/
theorem coverLo (p : Vec F S512x46 .f32) (y : S512x46.Idx) :
    ∃ pc ∈ ([⟨rLo, p⟩] : List (View.Piece (Elt F) S512x46 .f32)), y ∈ pc.1.set :=
  View.cover_of_tiled [⟨rLo, p⟩] S512x46.size (by rfl) y
theorem coverHi (p : Vec F S512x92 .f32) (y : S512x92.Idx) :
    ∃ pc ∈ ([⟨rHi, p⟩] : List (View.Piece (Elt F) S512x92 .f32)), y ∈ pc.1.set :=
  View.cover_of_tiled [⟨rHi, p⟩] S512x92.size (by rfl) y

theorem hz2 : (![0, 0] : Fin 2 → Nat) = fun _ => 0 := funext fun a => by fin_cases a <;> rfl

/-- The covering store leaves exactly its payload. -/
theorem outLo_eq (x0 x1 x2 : Vec F S512x138 .f32) (x3 : Vec F S512x3 .f32) (x4 : Vec F S512x1 .i32) (x5 x6 : Vec F S2x138 .f32) : outLo x0 x1 x2 x3 x4 x5 x6 = loBlk x0 x1 x2 x3 x4 x5 x6 := by
  unfold outLo; exact View.canon_unit_zero hz2 _ _
theorem outHi_eq (x0 x1 x2 : Vec F S512x138 .f32) (x3 : Vec F S512x3 .f32) (x4 : Vec F S512x1 .i32) (x5 x6 : Vec F S2x138 .f32) : outHi x0 x1 x2 x3 x4 x5 x6 = hiBlk x0 x1 x2 x3 x4 x5 x6 := by
  unfold outHi; exact View.canon_unit_zero hz2 _ _

/-! ## The body, run once on whole staging buffers -/

set_option maxHeartbeats 4000000 in
/-- On nine whole staging buffers, the seven inputs' at contents x0 … x6 and the outputs' at anything, the body
    runs to the end leaving the inputs as they were and the outputs at the two slices of the entry block. -/
theorem sound_kernel (c : Dev nD) (E : Set Name) (i : grid1.Coords) (arg1 : Memref sig .tc .vmem S512x138 .f32) (harg1 : arg1.IsWhole) (arg2 : Memref sig .tc .vmem S512x138 .f32) (harg2 : arg2.IsWhole) (arg3 : Memref sig .tc .vmem S512x138 .f32) (harg3 : arg3.IsWhole) (arg4 : Memref sig .tc .vmem S512x3 .f32) (harg4 : arg4.IsWhole) (arg5 : Memref sig .tc .vmem S512x1 .i32) (harg5 : arg5.IsWhole) (arg6 : Memref sig .tc .vmem S2x138 .f32) (harg6 : arg6.IsWhole) (arg7 : Memref sig .tc .vmem S2x138 .f32) (harg7 : arg7.IsWhole) (arg8 : Memref sig .tc .vmem S512x46 .f32) (harg8 : arg8.IsWhole) (arg9 : Memref sig .tc .vmem S512x92 .f32) (harg9 : arg9.IsWhole)
    (x0 x1 x2 : Vec F S512x138 .f32) (x3 : Vec F S512x3 .f32) (x4 : Vec F S512x1 .i32) (x5 x6 : Vec F S2x138 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (outLo x0 x1 x2 x3 x4 x5 x6) ∗ owns (c : Thread nD τ) arg9 fullShare (outHi x0 x1 x2 x3 x4 x5 x6)) -∗ K ⟨⟩))
      ⊢ wp frame (wpE (defs₀ (F := F)) Variants.none c none) E
          (cc1__env_body i arg1 harg1 arg2 harg2 arg3 harg3 arg4 harg4 arg5 harg5 arg6 harg6 arg7 harg7 arg8 harg8 arg9 harg9) K := by
  simp only [cc1__env_body_eq_skeleton]; unfold cc1__env_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (coverLo _)
  · iexists _; isplitr
    swap; · iexact H8
    ipureintro
    exact View.read_writes_eq_canon _ _ _ (coverHi _)

/-! ## The pipeline's proof data -/

section Data

-- the TensorCore's buffer contents when the region is entered
variable (V : (c : Dev nD) → (b : Ref sig .tc) → Buf (Elt F) ((c : Thread nD τ).loc b))
-- a bound on the wait pairs the core has recorded when the region is entered; the body records none
variable (B : Set (SemLoc sig × Ix))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body may use and need not describe: the core's scoped buffers that are no staging buffer of this call,
    each at some contents, and its generator register at some state. -/
def Φenv (c : Dev nD) : sProp 𝕄 :=
  iprop(Pipeline.scopedRest (Ix := Ix) (Name := Name) (U := U) (Lvl := Lvl) (Val := Elt F) spec1 c ∗ ∃ r, prngReg c r)

/-- The proof data of the call on core `c`: the arrays as the region finds them; after the body at point `t` each
    input's buffer at its block and each output's at its slice of the entry block of the input blocks; the
    invariant untouched; nothing owed; full shares; the recorded wait pairs within `B` throughout. -/
def dat0 (c : Dev nD) : Dat τ (Elt F) Ix Name U Lvl cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => outLo (iblk V c 0 t) (iblk V c 1 t) (iblk V c 2 t) (iblk V c 3 t) (iblk V c 4 t) (iblk V c 5 t) (iblk V c 6 t)
    | ⟨8, _⟩ => outHi (iblk V c 0 t) (iblk V c 1 t) (iblk V c 2 t) (iblk V c 3 t) (iblk V c 4 t) (iblk V c 5 t) (iblk V c 6 t)
  Φ _ := Φenv c
  q _ := fullShare
  owed _ := 0
  recorded _ := B

-- the proof data of the call, on any core
local notation "dat₀" => dat0 (Name := Name) (U := U) (Lvl := Lvl) V B

/-- The proof data's arrays are the region-entry contents. -/
theorem A_eq (c : Dev nD) (w : Fin cfg1.W) : (dat₀ c).A w = V c (Pipeline.arrRef spec1 w) := by
  dsimp only [dat0]

/-- What the body leaves, window by window. -/
theorem after_0 (c : Dev nD) (t : Fin cfg1.N) : (dat₀ c).after 0 t = iblk V c 0 t := by dsimp only [dat0]
theorem after_1 (c : Dev nD) (t : Fin cfg1.N) : (dat₀ c).after 1 t = iblk V c 1 t := by dsimp only [dat0]
theorem after_2 (c : Dev nD) (t : Fin cfg1.N) : (dat₀ c).after 2 t = iblk V c 2 t := by dsimp only [dat0]
theorem after_3 (c : Dev nD) (t : Fin cfg1.N) : (dat₀ c).after 3 t = iblk V c 3 t := by dsimp only [dat0]
theorem after_4 (c : Dev nD) (t : Fin cfg1.N) : (dat₀ c).after 4 t = iblk V c 4 t := by dsimp only [dat0]
theorem after_5 (c : Dev nD) (t : Fin cfg1.N) : (dat₀ c).after 5 t = iblk V c 5 t := by dsimp only [dat0]
theorem after_6 (c : Dev nD) (t : Fin cfg1.N) : (dat₀ c).after 6 t = iblk V c 6 t := by dsimp only [dat0]
theorem after_7 (c : Dev nD) (t : Fin cfg1.N) : (dat₀ c).after 7 t = outLo (iblk V c 0 t) (iblk V c 1 t) (iblk V c 2 t) (iblk V c 3 t) (iblk V c 4 t) (iblk V c 5 t) (iblk V c 6 t) := by dsimp only [dat0]
theorem after_8 (c : Dev nD) (t : Fin cfg1.N) : (dat₀ c).after 8 t = outHi (iblk V c 0 t) (iblk V c 1 t) (iblk V c 2 t) (iblk V c 3 t) (iblk V c 4 t) (iblk V c 5 t) (iblk V c 6 t) := by dsimp only [dat0]

/-- Each input's current staging buffer holds its block at every point, fetched there or not: an input the body
    leaves in place keeps the block its last fetch brought, and where no fetch happens the block index has not moved. -/
theorem before_0 (c : Dev nD) (t : Fin cfg1.N) (d) : (dat₀ c).before 0 t d = iblk V c 0 t :=
  ((dat₀ c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat₀ c).before 1 t d = iblk V c 1 t :=
  ((dat₀ c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat₀ c).before 2 t d = iblk V c 2 t :=
  ((dat₀ c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat₀ c).before 3 t d = iblk V c 3 t :=
  ((dat₀ c).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat₀ c).before 4 t d = iblk V c 4 t :=
  ((dat₀ c).before_in_eq_fetched 4 rfl (fun _ => rfl) (fun _ _ _ => rfl)
      (fun t => by rw [after_4]; unfold Dat.blockOf iblk; rw [A_eq]; try rfl) t d).trans
    (by unfold Dat.fetched Dat.blockOf iblk; rw [A_eq]; try rfl)
theorem before_5 (c : Dev nD) (t : Fin cfg1.N) (d) : (dat₀ c).before 5 t d = iblk V c 5 t :=
  ((dat₀ c).before_in_eq_fetched 5 rfl (fun _ => rfl) (fun _ _ _ => rfl)
      (fun t => by rw [after_5]; unfold Dat.blockOf iblk; rw [A_eq]; try rfl) t d).trans
    (by unfold Dat.fetched Dat.blockOf iblk; rw [A_eq]; try rfl)
theorem before_6 (c : Dev nD) (t : Fin cfg1.N) (d) : (dat₀ c).before 6 t d = iblk V c 6 t :=
  ((dat₀ c).before_in_eq_fetched 6 rfl (fun _ => rfl) (fun _ _ _ => rfl)
      (fun t => by rw [after_6]; unfold Dat.blockOf iblk; rw [A_eq]; try rfl) t d).trans
    (by unfold Dat.fetched Dat.blockOf iblk; rw [A_eq]; try rfl)

/-- An input array is never written: after any number of points it is as the region found it. -/
theorem arrAt_in (c : Dev nD) (w : Fin cfg1.W) (hw : (cfg1.win w).isOut = false) (n : Nat) :
    (dat₀ c).arrAt w n = V c (Pipeline.arrRef spec1 w) :=
  ((dat₀ c).arrAt_in w hw n).trans (A_eq V B c w)

/-! ## The body obligation, at a generic point -/

variable (ι : Ix)

/-- What the body is called with at point `t`, the windows one by one, -/
def bodyPre (c : Dev nD) (t : Fin cfg1.N) : sProp 𝕄 :=
  iprop((dat₀ c).Φ t.castSucc ∗ (dat₀ c).owesAt ι t.castSucc
    ∗ (∃ d, owns (c : Thread nD τ) (st1_0 t) fullShare ((dat₀ c).before 0 t d))
    ∗ (∃ d, owns (c : Thread nD τ) (st1_1 t) fullShare ((dat₀ c).before 1 t d))
    ∗ (∃ d, owns (c : Thread nD τ) (st1_2 t) fullShare ((dat₀ c).before 2 t d))
    ∗ (∃ d, owns (c : Thread nD τ) (st1_3 t) fullShare ((dat₀ c).before 3 t d))
    ∗ (∃ d, owns (c : Thread nD τ) (st1_4 t) fullShare ((dat₀ c).before 4 t d))
    ∗ (∃ d, owns (c : Thread nD τ) (st1_5 t) fullShare ((dat₀ c).before 5 t d))
    ∗ (∃ d, owns (c : Thread nD τ) (st1_6 t) fullShare ((dat₀ c).before 6 t d))
    ∗ (∃ d, owns (c : Thread nD τ) (st1_7 t) fullShare ((dat₀ c).before 7 t d))
    ∗ (∃ d, owns (c : Thread nD τ) (st1_8 t) fullShare ((dat₀ c).before 8 t d)))

/-- and what it returns. -/
def bodyPost (c : Dev nD) (t : Fin cfg1.N) : sProp 𝕄 :=
  iprop((dat₀ c).Φ t.succ ∗ (dat₀ c).owesAt ι t.succ
    ∗ owns (c : Thread nD τ) (st1_0 t) fullShare ((dat₀ c).after 0 t)
    ∗ owns (c : Thread nD τ) (st1_1 t) fullShare ((dat₀ c).after 1 t)
    ∗ owns (c : Thread nD τ) (st1_2 t) fullShare ((dat₀ c).after 2 t)
    ∗ owns (c : Thread nD τ) (st1_3 t) fullShare ((dat₀ c).after 3 t)
    ∗ owns (c : Thread nD τ) (st1_4 t) fullShare ((dat₀ c).after 4 t)
    ∗ owns (c : Thread nD τ) (st1_5 t) fullShare ((dat₀ c).after 5 t)
    ∗ owns (c : Thread nD τ) (st1_6 t) fullShare ((dat₀ c).after 6 t)
    ∗ owns (c : Thread nD τ) (st1_7 t) fullShare ((dat₀ c).after 7 t)
    ∗ owns (c : Thread nD τ) (st1_8 t) fullShare ((dat₀ c).after 8 t))

set_option maxHeartbeats 1000000 in
/-- The body at any point: the inputs' buffers hold their blocks, so the run above applies; the invariant and what
    the core owes pass through unread. -/
theorem sound_body (c : Dev nD) (t : Fin cfg1.N) :
    (bodyPre V B ι c t : sProp 𝕄) ⊢ wp frame (wpE (defs₀ (F := F)) Variants.none c none) Set.univ (bodyAt1 t) (fun _ => bodyPost V B ι c t) := by
  unfold bodyPre bodyPost bodyAt1
  simp only [before_0, before_1, before_2, before_3, before_4, before_5, before_6]
  rw [show (dat₀ c).Φ t.succ = (dat₀ c).Φ t.castSucc from rfl,
    show (dat₀ c).owesAt ι t.succ = (dat₀ c).owesAt ι t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk V c 0 t) (iblk V c 1 t) (iblk V c 2 t) (iblk V c 3 t) (iblk V c 4 t) (iblk V c 5 t) (iblk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's body obligation, at every point. -/
theorem body_obligation (c : Dev nD) :
    BodyObligation (dat₀ c) (defs₀ (F := F)) Variants.none ι Set.univ := fun t => by
  rw [bigSep_W1, bigSep_W1]
  exact sound_body V B ι c t

end Data

end Cert.KEnvRegion

end
-- ==== Proof.KMlpThread.lean ====
/-
  The values the embedding kernel's body computes between its loads and its one store, threaded: the printed body
  passes some hundreds of intermediate vectors from part to part, each a named payload of earlier ones. Here the
  same payloads are composed as plain functions, grouped by what they compute: for each of the two slot types the
  three layers over all columns of the row block, and for each layer the pairwise tree sum of its 128-column
  slices; then the stored vector. (Which payload feeds which is read off the skeleton; nothing is proved here.)
-/
import proofs.«205418_g46067819217304_cont_8to1_c_241_17_alg».proof.Proof.Gen.Kernel.Skeleton

noncomputable section

namespace Cert.KMlpRegion

open Idealize.ShloMosaic Cert.Kernel Cert.Kernel.Gen

variable {F : FTy → Type} [FloatOps F]

/-- Slot type 0, first layer: the tree sum of the 46 column slices of v17 (the first slices come straight from the loads). -/
def sumT1a (x0 : Vec F S1x5888 .f32) (x2 : Vec F S25x1 .f32) (x3 : Vec F S25x1 .f32) (v17 : FVec F S25x5888 .f32) : FVec F S25x128 .f32 :=
  have v85 : FVec F S25x128 .f32 := k2_pay21 v17
  have v86 : FVec F S25x128 .f32 := k2_pay22 v17
  have v87 : FVec F S25x128 .f32 := k2_pay23 v17
  have v88 : FVec F S25x128 .f32 := k2_pay24 v17
  have v89 : FVec F S25x128 .f32 := k2_pay25 v17
  have v90 : FVec F S25x128 .f32 := k2_pay26 v17
  have v91 : FVec F S25x128 .f32 := k2_pay27 v17
  have v92 : FVec F S25x128 .f32 := k2_pay28 v17
  have v93 : FVec F S25x128 .f32 := k2_pay29 v17
  have v94 : FVec F S25x128 .f32 := k2_pay30 v17
  have v95 : FVec F S25x128 .f32 := k2_pay31 v17
  have v27 : FVec F S25x128 .f32 := k2_pay6 x0 x2 x3
  have v28 : FVec F S25x128 .f32 := k2_pay7 x0 x2 x3
  have v29 : FVec F S25x128 .f32 := k2_pay8 x0 x2 x3
  have v30 : FVec F S25x128 .f32 := k2_pay9 x0 x2 x3
  have v96 : FVec F S25x128 .f32 := k2_pay32 v27 v28 v29 v30
  have v31 : FVec F S25x128 .f32 := k2_pay10 x0 x2 x3
  have v32 : FVec F S25x128 .f32 := k2_pay11 x0 x2 x3
  have v33 : FVec F S25x128 .f32 := k2_pay12 x0 x2 x3
  have v34 : FVec F S25x128 .f32 := k2_pay13 x0 x2 x3
  have v97 : FVec F S25x128 .f32 := k2_pay33 v31 v32 v33 v34
  have v35 : FVec F S25x128 .f32 := k2_pay14 x0 x2 x3
  have v36 : FVec F S25x128 .f32 := k2_pay15 x0 x2 x3
  have v37 : FVec F S25x128 .f32 := k2_pay16 x0 x2 x3
  have v38 : FVec F S25x128 .f32 := k2_pay17 x0 x2 x3
  have v98 : FVec F S25x128 .f32 := k2_pay34 v35 v36 v37 v38
  have v39 : FVec F S25x128 .f32 := k2_pay18 x0 x2 x3
  have v40 : FVec F S25x128 .f32 := k2_pay19 x0 x2 x3
  have v41 : FVec F S25x128 .f32 := k2_pay20 x0 x2 x3
  have v99 : FVec F S25x128 .f32 := k2_pay35 v17 v39 v40 v41
  have v100 : FVec F S25x128 .f32 := k2_pay36 v17
  have v101 : FVec F S25x128 .f32 := k2_pay37 v17
  have v117 : FVec F S25x128 .f32 := k2_pay38 v85 v86 v87 v88 v89 v90 v91 v92 v93 v94 v95 v96 v97 v98 v99 v100 v101
  v117

/-- Slot type 0, second layer: the tree sum of the 46 column slices of v21. -/
def sumT2a (v21 : FVec F S50x5888 .f32) : FVec F S50x128 .f32 :=
  have v118 : FVec F S50x128 .f32 := k2_pay39 v21
  have v119 : FVec F S50x128 .f32 := k2_pay40 v21
  have v120 : FVec F S50x128 .f32 := k2_pay41 v21
  have v121 : FVec F S50x128 .f32 := k2_pay42 v21
  have v122 : FVec F S50x128 .f32 := k2_pay43 v21
  have v123 : FVec F S50x128 .f32 := k2_pay44 v21
  have v124 : FVec F S50x128 .f32 := k2_pay45 v21
  have v125 : FVec F S50x128 .f32 := k2_pay46 v21
  have v126 : FVec F S50x128 .f32 := k2_pay47 v21
  have v127 : FVec F S50x128 .f32 := k2_pay48 v21
  have v128 : FVec F S50x128 .f32 := k2_pay49 v21
  have v129 : FVec F S50x128 .f32 := k2_pay50 v21
  have v130 : FVec F S50x128 .f32 := k2_pay51 v21
  have v131 : FVec F S50x128 .f32 := k2_pay52 v21
  have v132 : FVec F S50x128 .f32 := k2_pay53 v21
  have v133 : FVec F S50x128 .f32 := k2_pay54 v21
  have v134 : FVec F S50x128 .f32 := k2_pay55 v21
  have v135 : FVec F S50x128 .f32 := k2_pay56 v21
  have v136 : FVec F S50x128 .f32 := k2_pay57 v21
  have v137 : FVec F S50x128 .f32 := k2_pay58 v21
  have v138 : FVec F S50x128 .f32 := k2_pay59 v21
  have v139 : FVec F S50x128 .f32 := k2_pay60 v21
  have v140 : FVec F S50x128 .f32 := k2_pay61 v21
  have v141 : FVec F S50x128 .f32 := k2_pay62 v21
  have v142 : FVec F S50x128 .f32 := k2_pay63 v21
  have v143 : FVec F S50x128 .f32 := k2_pay64 v21
  have v144 : FVec F S50x128 .f32 := k2_pay65 v21
  have v145 : FVec F S50x128 .f32 := k2_pay66 v21
  have v146 : FVec F S50x128 .f32 := k2_pay67 v21
  have v147 : FVec F S50x128 .f32 := k2_pay68 v21
  have v148 : FVec F S50x128 .f32 := k2_pay69 v21
  have v149 : FVec F S50x128 .f32 := k2_pay70 v21
  have v150 : FVec F S50x128 .f32 := k2_pay71 v21
  have v151 : FVec F S50x128 .f32 := k2_pay72 v21
  have v152 : FVec F S50x128 .f32 := k2_pay73 v21
  have v153 : FVec F S50x128 .f32 := k2_pay74 v21
  have v154 : FVec F S50x128 .f32 := k2_pay75 v21
  have v155 : FVec F S50x128 .f32 := k2_pay76 v21
  have v156 : FVec F S50x128 .f32 := k2_pay77 v21
  have v157 : FVec F S50x128 .f32 := k2_pay78 v21
  have v158 : FVec F S50x128 .f32 := k2_pay79 v21
  have v159 : FVec F S50x128 .f32 := k2_pay80 v21
  have v160 : FVec F S50x128 .f32 := k2_pay81 v21
  have v161 : FVec F S50x128 .f32 := k2_pay82 v21
  have v208 : FVec F S50x128 .f32 := k2_pay83 v21 v118 v119 v120 v121 v122 v123 v124 v125 v126 v127 v128 v129 v130 v131 v132 v133 v134 v135 v136 v137 v138 v139 v140 v141 v142 v143 v144 v145 v146 v147 v148 v149 v150 v151 v152 v153 v154 v155 v156 v157 v158 v159 v160 v161
  v208

/-- Slot type 0, third layer: the tree sum of the 46 column slices of v26. -/
def sumT3a (v26 : FVec F S100x5888 .f32) : FVec F S100x128 .f32 :=
  have v263 : FVec F S100x128 .f32 := k2_pay97 v26
  have v264 : FVec F S100x128 .f32 := k2_pay98 v26
  have v265 : FVec F S100x128 .f32 := k2_pay99 v26
  have v266 : FVec F S100x128 .f32 := k2_pay100 v26
  have v267 : FVec F S100x128 .f32 := k2_pay101 v26
  have v268 : FVec F S100x128 .f32 := k2_pay102 v26
  have v269 : FVec F S100x128 .f32 := k2_pay103 v26
  have v270 : FVec F S100x128 .f32 := k2_pay104 v26
  have v271 : FVec F S100x128 .f32 := k2_pay105 v26
  have v272 : FVec F S100x128 .f32 := k2_pay106 v26
  have v273 : FVec F S100x128 .f32 := k2_pay107 v26
  have v274 : FVec F S100x128 .f32 := k2_pay108 v26
  have v275 : FVec F S100x128 .f32 := k2_pay109 v26
  have v276 : FVec F S100x128 .f32 := k2_pay110 v26
  have v277 : FVec F S100x128 .f32 := k2_pay111 v26
  have v209 : FVec F S100x128 .f32 := k2_pay84 v26
  have v210 : FVec F S100x128 .f32 := k2_pay85 v26
  have v211 : FVec F S100x128 .f32 := k2_pay86 v26
  have v212 : FVec F S100x128 .f32 := k2_pay87 v26
  have v278 : FVec F S100x128 .f32 := k2_pay112 v209 v210 v211 v212
  have v213 : FVec F S100x128 .f32 := k2_pay88 v26
  have v214 : FVec F S100x128 .f32 := k2_pay89 v26
  have v215 : FVec F S100x128 .f32 := k2_pay90 v26
  have v216 : FVec F S100x128 .f32 := k2_pay91 v26
  have v279 : FVec F S100x128 .f32 := k2_pay113 v213 v214 v215 v216
  have v217 : FVec F S100x128 .f32 := k2_pay92 v26
  have v218 : FVec F S100x128 .f32 := k2_pay93 v26
  have v219 : FVec F S100x128 .f32 := k2_pay94 v26
  have v220 : FVec F S100x128 .f32 := k2_pay95 v26
  have v280 : FVec F S100x128 .f32 := k2_pay114 v217 v218 v219 v220
  have v221 : FVec F S100x128 .f32 := k2_pay96 v26
  have v281 : FVec F S100x128 .f32 := k2_pay115 v26 v221
  have v299 : FVec F S100x128 .f32 := k2_pay116 v263 v264 v265 v266 v267 v268 v269 v270 v271 v272 v273 v274 v275 v276 v277 v278 v279 v280 v281
  v299

/-- Slot type 1, first layer: the tree sum of the 92 column slices of v317. -/
def sumT1b (v317 : FVec F S25x11776 .f32) : FVec F S25x128 .f32 :=
  have v327 : FVec F S25x128 .f32 := k2_pay122 v317
  have v328 : FVec F S25x128 .f32 := k2_pay123 v317
  have v419 : FVec F S25x128 .f32 := k2_pay214 v327 v328
  have v329 : FVec F S25x128 .f32 := k2_pay124 v317
  have v330 : FVec F S25x128 .f32 := k2_pay125 v317
  have v420 : FVec F S25x128 .f32 := k2_pay215 v329 v330
  have v331 : FVec F S25x128 .f32 := k2_pay126 v317
  have v332 : FVec F S25x128 .f32 := k2_pay127 v317
  have v421 : FVec F S25x128 .f32 := k2_pay216 v331 v332
  have v333 : FVec F S25x128 .f32 := k2_pay128 v317
  have v334 : FVec F S25x128 .f32 := k2_pay129 v317
  have v422 : FVec F S25x128 .f32 := k2_pay217 v333 v334
  have v335 : FVec F S25x128 .f32 := k2_pay130 v317
  have v336 : FVec F S25x128 .f32 := k2_pay131 v317
  have v423 : FVec F S25x128 .f32 := k2_pay218 v335 v336
  have v337 : FVec F S25x128 .f32 := k2_pay132 v317
  have v338 : FVec F S25x128 .f32 := k2_pay133 v317
  have v424 : FVec F S25x128 .f32 := k2_pay219 v337 v338
  have v339 : FVec F S25x128 .f32 := k2_pay134 v317
  have v340 : FVec F S25x128 .f32 := k2_pay135 v317
  have v425 : FVec F S25x128 .f32 := k2_pay220 v339 v340
  have v341 : FVec F S25x128 .f32 := k2_pay136 v317
  have v342 : FVec F S25x128 .f32 := k2_pay137 v317
  have v426 : FVec F S25x128 .f32 := k2_pay221 v341 v342
  have v499 : FVec F S25x128 .f32 := k2_pay240 v419 v420 v421 v422 v423 v424 v425 v426
  have v343 : FVec F S25x128 .f32 := k2_pay138 v317
  have v344 : FVec F S25x128 .f32 := k2_pay139 v317
  have v427 : FVec F S25x128 .f32 := k2_pay222 v343 v344
  have v345 : FVec F S25x128 .f32 := k2_pay140 v317
  have v346 : FVec F S25x128 .f32 := k2_pay141 v317
  have v428 : FVec F S25x128 .f32 := k2_pay223 v345 v346
  have v347 : FVec F S25x128 .f32 := k2_pay142 v317
  have v348 : FVec F S25x128 .f32 := k2_pay143 v317
  have v429 : FVec F S25x128 .f32 := k2_pay224 v347 v348
  have v349 : FVec F S25x128 .f32 := k2_pay144 v317
  have v350 : FVec F S25x128 .f32 := k2_pay145 v317
  have v430 : FVec F S25x128 .f32 := k2_pay225 v349 v350
  have v351 : FVec F S25x128 .f32 := k2_pay146 v317
  have v352 : FVec F S25x128 .f32 := k2_pay147 v317
  have v431 : FVec F S25x128 .f32 := k2_pay226 v351 v352
  have v353 : FVec F S25x128 .f32 := k2_pay148 v317
  have v354 : FVec F S25x128 .f32 := k2_pay149 v317
  have v432 : FVec F S25x128 .f32 := k2_pay227 v353 v354
  have v355 : FVec F S25x128 .f32 := k2_pay150 v317
  have v356 : FVec F S25x128 .f32 := k2_pay151 v317
  have v433 : FVec F S25x128 .f32 := k2_pay228 v355 v356
  have v357 : FVec F S25x128 .f32 := k2_pay152 v317
  have v358 : FVec F S25x128 .f32 := k2_pay153 v317
  have v434 : FVec F S25x128 .f32 := k2_pay229 v357 v358
  have v500 : FVec F S25x128 .f32 := k2_pay241 v427 v428 v429 v430 v431 v432 v433 v434
  have v359 : FVec F S25x128 .f32 := k2_pay154 v317
  have v360 : FVec F S25x128 .f32 := k2_pay155 v317
  have v435 : FVec F S25x128 .f32 := k2_pay230 v359 v360
  have v361 : FVec F S25x128 .f32 := k2_pay156 v317
  have v362 : FVec F S25x128 .f32 := k2_pay157 v317
  have v436 : FVec F S25x128 .f32 := k2_pay231 v361 v362
  have v363 : FVec F S25x128 .f32 := k2_pay158 v317
  have v364 : FVec F S25x128 .f32 := k2_pay159 v317
  have v437 : FVec F S25x128 .f32 := k2_pay232 v363 v364
  have v365 : FVec F S25x128 .f32 := k2_pay160 v317
  have v366 : FVec F S25x128 .f32 := k2_pay161 v317
  have v438 : FVec F S25x128 .f32 := k2_pay233 v365 v366
  have v367 : FVec F S25x128 .f32 := k2_pay162 v317
  have v368 : FVec F S25x128 .f32 := k2_pay163 v317
  have v439 : FVec F S25x128 .f32 := k2_pay234 v367 v368
  have v369 : FVec F S25x128 .f32 := k2_pay164 v317
  have v370 : FVec F S25x128 .f32 := k2_pay165 v317
  have v440 : FVec F S25x128 .f32 := k2_pay235 v369 v370
  have v371 : FVec F S25x128 .f32 := k2_pay166 v317
  have v372 : FVec F S25x128 .f32 := k2_pay167 v317
  have v441 : FVec F S25x128 .f32 := k2_pay236 v371 v372
  have v373 : FVec F S25x128 .f32 := k2_pay168 v317
  have v374 : FVec F S25x128 .f32 := k2_pay169 v317
  have v442 : FVec F S25x128 .f32 := k2_pay237 v373 v374
  have v501 : FVec F S25x128 .f32 := k2_pay242 v435 v436 v437 v438 v439 v440 v441 v442
  have v379 : FVec F S25x128 .f32 := k2_pay174 v317
  have v380 : FVec F S25x128 .f32 := k2_pay175 v317
  have v381 : FVec F S25x128 .f32 := k2_pay176 v317
  have v382 : FVec F S25x128 .f32 := k2_pay177 v317
  have v383 : FVec F S25x128 .f32 := k2_pay178 v317
  have v384 : FVec F S25x128 .f32 := k2_pay179 v317
  have v385 : FVec F S25x128 .f32 := k2_pay180 v317
  have v386 : FVec F S25x128 .f32 := k2_pay181 v317
  have v387 : FVec F S25x128 .f32 := k2_pay182 v317
  have v388 : FVec F S25x128 .f32 := k2_pay183 v317
  have v389 : FVec F S25x128 .f32 := k2_pay184 v317
  have v390 : FVec F S25x128 .f32 := k2_pay185 v317
  have v375 : FVec F S25x128 .f32 := k2_pay170 v317
  have v376 : FVec F S25x128 .f32 := k2_pay171 v317
  have v443 : FVec F S25x128 .f32 := k2_pay238 v375 v376
  have v377 : FVec F S25x128 .f32 := k2_pay172 v317
  have v378 : FVec F S25x128 .f32 := k2_pay173 v317
  have v444 : FVec F S25x128 .f32 := k2_pay239 v377 v378
  have v502 : FVec F S25x128 .f32 := k2_pay243 v379 v380 v381 v382 v383 v384 v385 v386 v387 v388 v389 v390 v443 v444
  have v391 : FVec F S25x128 .f32 := k2_pay186 v317
  have v392 : FVec F S25x128 .f32 := k2_pay187 v317
  have v393 : FVec F S25x128 .f32 := k2_pay188 v317
  have v394 : FVec F S25x128 .f32 := k2_pay189 v317
  have v395 : FVec F S25x128 .f32 := k2_pay190 v317
  have v396 : FVec F S25x128 .f32 := k2_pay191 v317
  have v397 : FVec F S25x128 .f32 := k2_pay192 v317
  have v398 : FVec F S25x128 .f32 := k2_pay193 v317
  have v399 : FVec F S25x128 .f32 := k2_pay194 v317
  have v400 : FVec F S25x128 .f32 := k2_pay195 v317
  have v401 : FVec F S25x128 .f32 := k2_pay196 v317
  have v402 : FVec F S25x128 .f32 := k2_pay197 v317
  have v403 : FVec F S25x128 .f32 := k2_pay198 v317
  have v404 : FVec F S25x128 .f32 := k2_pay199 v317
  have v405 : FVec F S25x128 .f32 := k2_pay200 v317
  have v406 : FVec F S25x128 .f32 := k2_pay201 v317
  have v503 : FVec F S25x128 .f32 := k2_pay244 v391 v392 v393 v394 v395 v396 v397 v398 v399 v400 v401 v402 v403 v404 v405 v406
  have v407 : FVec F S25x128 .f32 := k2_pay202 v317
  have v408 : FVec F S25x128 .f32 := k2_pay203 v317
  have v409 : FVec F S25x128 .f32 := k2_pay204 v317
  have v410 : FVec F S25x128 .f32 := k2_pay205 v317
  have v411 : FVec F S25x128 .f32 := k2_pay206 v317
  have v412 : FVec F S25x128 .f32 := k2_pay207 v317
  have v413 : FVec F S25x128 .f32 := k2_pay208 v317
  have v414 : FVec F S25x128 .f32 := k2_pay209 v317
  have v415 : FVec F S25x128 .f32 := k2_pay210 v317
  have v416 : FVec F S25x128 .f32 := k2_pay211 v317
  have v417 : FVec F S25x128 .f32 := k2_pay212 v317
  have v418 : FVec F S25x128 .f32 := k2_pay213 v317
  have v504 : FVec F S25x128 .f32 := k2_pay245 v407 v408 v409 v410 v411 v412 v413 v414 v415 v416 v417 v418
  have v509 : FVec F S25x128 .f32 := k2_pay246 v499 v500 v501 v502 v503 v504
  v509

/-- Slot type 1, second layer: the tree sum of the 92 column slices of v321. -/
def sumT2b (v321 : FVec F S50x11776 .f32) : FVec F S50x128 .f32 :=
  have v598 : FVec F S50x128 .f32 := k2_pay335 v321
  have v599 : FVec F S50x128 .f32 := k2_pay336 v321
  have v600 : FVec F S50x128 .f32 := k2_pay337 v321
  have v601 : FVec F S50x128 .f32 := k2_pay338 v321
  have v670 : FVec F S50x128 .f32 := k2_pay362 v598 v599 v600 v601
  have v558 : FVec F S50x128 .f32 := k2_pay295 v321
  have v559 : FVec F S50x128 .f32 := k2_pay296 v321
  have v560 : FVec F S50x128 .f32 := k2_pay297 v321
  have v561 : FVec F S50x128 .f32 := k2_pay298 v321
  have v562 : FVec F S50x128 .f32 := k2_pay299 v321
  have v563 : FVec F S50x128 .f32 := k2_pay300 v321
  have v564 : FVec F S50x128 .f32 := k2_pay301 v321
  have v565 : FVec F S50x128 .f32 := k2_pay302 v321
  have v677 : FVec F S50x128 .f32 := k2_pay363 v558 v559 v560 v561 v562 v563 v564 v565
  have v566 : FVec F S50x128 .f32 := k2_pay303 v321
  have v567 : FVec F S50x128 .f32 := k2_pay304 v321
  have v568 : FVec F S50x128 .f32 := k2_pay305 v321
  have v569 : FVec F S50x128 .f32 := k2_pay306 v321
  have v570 : FVec F S50x128 .f32 := k2_pay307 v321
  have v571 : FVec F S50x128 .f32 := k2_pay308 v321
  have v572 : FVec F S50x128 .f32 := k2_pay309 v321
  have v573 : FVec F S50x128 .f32 := k2_pay310 v321
  have v678 : FVec F S50x128 .f32 := k2_pay364 v566 v567 v568 v569 v570 v571 v572 v573
  have v574 : FVec F S50x128 .f32 := k2_pay311 v321
  have v575 : FVec F S50x128 .f32 := k2_pay312 v321
  have v576 : FVec F S50x128 .f32 := k2_pay313 v321
  have v577 : FVec F S50x128 .f32 := k2_pay314 v321
  have v578 : FVec F S50x128 .f32 := k2_pay315 v321
  have v579 : FVec F S50x128 .f32 := k2_pay316 v321
  have v580 : FVec F S50x128 .f32 := k2_pay317 v321
  have v581 : FVec F S50x128 .f32 := k2_pay318 v321
  have v679 : FVec F S50x128 .f32 := k2_pay365 v574 v575 v576 v577 v578 v579 v580 v581
  have v582 : FVec F S50x128 .f32 := k2_pay319 v321
  have v583 : FVec F S50x128 .f32 := k2_pay320 v321
  have v584 : FVec F S50x128 .f32 := k2_pay321 v321
  have v585 : FVec F S50x128 .f32 := k2_pay322 v321
  have v586 : FVec F S50x128 .f32 := k2_pay323 v321
  have v587 : FVec F S50x128 .f32 := k2_pay324 v321
  have v588 : FVec F S50x128 .f32 := k2_pay325 v321
  have v589 : FVec F S50x128 .f32 := k2_pay326 v321
  have v680 : FVec F S50x128 .f32 := k2_pay366 v582 v583 v584 v585 v586 v587 v588 v589
  have v590 : FVec F S50x128 .f32 := k2_pay327 v321
  have v591 : FVec F S50x128 .f32 := k2_pay328 v321
  have v592 : FVec F S50x128 .f32 := k2_pay329 v321
  have v593 : FVec F S50x128 .f32 := k2_pay330 v321
  have v594 : FVec F S50x128 .f32 := k2_pay331 v321
  have v595 : FVec F S50x128 .f32 := k2_pay332 v321
  have v596 : FVec F S50x128 .f32 := k2_pay333 v321
  have v597 : FVec F S50x128 .f32 := k2_pay334 v321
  have v681 : FVec F S50x128 .f32 := k2_pay367 v590 v591 v592 v593 v594 v595 v596 v597
  have v510 : FVec F S50x128 .f32 := k2_pay247 v321
  have v511 : FVec F S50x128 .f32 := k2_pay248 v321
  have v602 : FVec F S50x128 .f32 := k2_pay339 v510 v511
  have v512 : FVec F S50x128 .f32 := k2_pay249 v321
  have v513 : FVec F S50x128 .f32 := k2_pay250 v321
  have v603 : FVec F S50x128 .f32 := k2_pay340 v512 v513
  have v514 : FVec F S50x128 .f32 := k2_pay251 v321
  have v515 : FVec F S50x128 .f32 := k2_pay252 v321
  have v604 : FVec F S50x128 .f32 := k2_pay341 v514 v515
  have v516 : FVec F S50x128 .f32 := k2_pay253 v321
  have v517 : FVec F S50x128 .f32 := k2_pay254 v321
  have v605 : FVec F S50x128 .f32 := k2_pay342 v516 v517
  have v518 : FVec F S50x128 .f32 := k2_pay255 v321
  have v519 : FVec F S50x128 .f32 := k2_pay256 v321
  have v606 : FVec F S50x128 .f32 := k2_pay343 v518 v519
  have v520 : FVec F S50x128 .f32 := k2_pay257 v321
  have v521 : FVec F S50x128 .f32 := k2_pay258 v321
  have v607 : FVec F S50x128 .f32 := k2_pay344 v520 v521
  have v522 : FVec F S50x128 .f32 := k2_pay259 v321
  have v523 : FVec F S50x128 .f32 := k2_pay260 v321
  have v608 : FVec F S50x128 .f32 := k2_pay345 v522 v523
  have v524 : FVec F S50x128 .f32 := k2_pay261 v321
  have v525 : FVec F S50x128 .f32 := k2_pay262 v321
  have v609 : FVec F S50x128 .f32 := k2_pay346 v524 v525
  have v682 : FVec F S50x128 .f32 := k2_pay368 v602 v603 v604 v605 v606 v607 v608 v609
  have v526 : FVec F S50x128 .f32 := k2_pay263 v321
  have v527 : FVec F S50x128 .f32 := k2_pay264 v321
  have v610 : FVec F S50x128 .f32 := k2_pay347 v526 v527
  have v528 : FVec F S50x128 .f32 := k2_pay265 v321
  have v529 : FVec F S50x128 .f32 := k2_pay266 v321
  have v611 : FVec F S50x128 .f32 := k2_pay348 v528 v529
  have v530 : FVec F S50x128 .f32 := k2_pay267 v321
  have v531 : FVec F S50x128 .f32 := k2_pay268 v321
  have v612 : FVec F S50x128 .f32 := k2_pay349 v530 v531
  have v532 : FVec F S50x128 .f32 := k2_pay269 v321
  have v533 : FVec F S50x128 .f32 := k2_pay270 v321
  have v613 : FVec F S50x128 .f32 := k2_pay350 v532 v533
  have v534 : FVec F S50x128 .f32 := k2_pay271 v321
  have v535 : FVec F S50x128 .f32 := k2_pay272 v321
  have v614 : FVec F S50x128 .f32 := k2_pay351 v534 v535
  have v536 : FVec F S50x128 .f32 := k2_pay273 v321
  have v537 : FVec F S50x128 .f32 := k2_pay274 v321
  have v615 : FVec F S50x128 .f32 := k2_pay352 v536 v537
  have v538 : FVec F S50x128 .f32 := k2_pay275 v321
  have v539 : FVec F S50x128 .f32 := k2_pay276 v321
  have v616 : FVec F S50x128 .f32 := k2_pay353 v538 v539
  have v540 : FVec F S50x128 .f32 := k2_pay277 v321
  have v541 : FVec F S50x128 .f32 := k2_pay278 v321
  have v617 : FVec F S50x128 .f32 := k2_pay354 v540 v541
  have v683 : FVec F S50x128 .f32 := k2_pay369 v610 v611 v612 v613 v614 v615 v616 v617
  have v556 : FVec F S50x128 .f32 := k2_pay293 v321
  have v557 : FVec F S50x128 .f32 := k2_pay294 v321
  have v542 : FVec F S50x128 .f32 := k2_pay279 v321
  have v543 : FVec F S50x128 .f32 := k2_pay280 v321
  have v618 : FVec F S50x128 .f32 := k2_pay355 v542 v543
  have v544 : FVec F S50x128 .f32 := k2_pay281 v321
  have v545 : FVec F S50x128 .f32 := k2_pay282 v321
  have v619 : FVec F S50x128 .f32 := k2_pay356 v544 v545
  have v546 : FVec F S50x128 .f32 := k2_pay283 v321
  have v547 : FVec F S50x128 .f32 := k2_pay284 v321
  have v620 : FVec F S50x128 .f32 := k2_pay357 v546 v547
  have v548 : FVec F S50x128 .f32 := k2_pay285 v321
  have v549 : FVec F S50x128 .f32 := k2_pay286 v321
  have v621 : FVec F S50x128 .f32 := k2_pay358 v548 v549
  have v550 : FVec F S50x128 .f32 := k2_pay287 v321
  have v551 : FVec F S50x128 .f32 := k2_pay288 v321
  have v622 : FVec F S50x128 .f32 := k2_pay359 v550 v551
  have v552 : FVec F S50x128 .f32 := k2_pay289 v321
  have v553 : FVec F S50x128 .f32 := k2_pay290 v321
  have v623 : FVec F S50x128 .f32 := k2_pay360 v552 v553
  have v554 : FVec F S50x128 .f32 := k2_pay291 v321
  have v555 : FVec F S50x128 .f32 := k2_pay292 v321
  have v624 : FVec F S50x128 .f32 := k2_pay361 v554 v555
  have v684 : FVec F S50x128 .f32 := k2_pay370 v556 v557 v618 v619 v620 v621 v622 v623 v624
  have v692 : FVec F S50x128 .f32 := k2_pay371 v670 v677 v678 v679 v680 v681 v682 v683 v684
  v692

/-- Slot type 1, third layer: the partial tree sum v853 of column slices of v326 (the last five partial sums are joined in the stored payload). -/
def sumT3b_v853 (v326 : FVec F S100x11776 .f32) : FVec F S100x128 .f32 :=
  have v781 : FVec F S100x128 .f32 := k2_pay460 v326
  have v782 : FVec F S100x128 .f32 := k2_pay461 v326
  have v783 : FVec F S100x128 .f32 := k2_pay462 v326
  have v784 : FVec F S100x128 .f32 := k2_pay463 v326
  have v853 : FVec F S100x128 .f32 := k2_pay484 v781 v782 v783 v784
  v853

/-- Slot type 1, third layer: the partial tree sum v862 of column slices of v326 (the last five partial sums are joined in the stored payload). -/
def sumT3b_v862 (v326 : FVec F S100x11776 .f32) : FVec F S100x128 .f32 :=
  have v757 : FVec F S100x128 .f32 := k2_pay436 v326
  have v758 : FVec F S100x128 .f32 := k2_pay437 v326
  have v759 : FVec F S100x128 .f32 := k2_pay438 v326
  have v760 : FVec F S100x128 .f32 := k2_pay439 v326
  have v761 : FVec F S100x128 .f32 := k2_pay440 v326
  have v762 : FVec F S100x128 .f32 := k2_pay441 v326
  have v763 : FVec F S100x128 .f32 := k2_pay442 v326
  have v764 : FVec F S100x128 .f32 := k2_pay443 v326
  have v862 : FVec F S100x128 .f32 := k2_pay493 v757 v758 v759 v760 v761 v762 v763 v764
  v862

/-- Slot type 1, third layer: the partial tree sum v863 of column slices of v326 (the last five partial sums are joined in the stored payload). -/
def sumT3b_v863 (v326 : FVec F S100x11776 .f32) : FVec F S100x128 .f32 :=
  have v765 : FVec F S100x128 .f32 := k2_pay444 v326
  have v766 : FVec F S100x128 .f32 := k2_pay445 v326
  have v767 : FVec F S100x128 .f32 := k2_pay446 v326
  have v768 : FVec F S100x128 .f32 := k2_pay447 v326
  have v769 : FVec F S100x128 .f32 := k2_pay448 v326
  have v770 : FVec F S100x128 .f32 := k2_pay449 v326
  have v771 : FVec F S100x128 .f32 := k2_pay450 v326
  have v772 : FVec F S100x128 .f32 := k2_pay451 v326
  have v863 : FVec F S100x128 .f32 := k2_pay494 v765 v766 v767 v768 v769 v770 v771 v772
  v863

/-- Slot type 1, third layer: the partial tree sum v864 of column slices of v326 (the last five partial sums are joined in the stored payload). -/
def sumT3b_v864 (v326 : FVec F S100x11776 .f32) : FVec F S100x128 .f32 :=
  have v773 : FVec F S100x128 .f32 := k2_pay452 v326
  have v774 : FVec F S100x128 .f32 := k2_pay453 v326
  have v775 : FVec F S100x128 .f32 := k2_pay454 v326
  have v776 : FVec F S100x128 .f32 := k2_pay455 v326
  have v777 : FVec F S100x128 .f32 := k2_pay456 v326
  have v778 : FVec F S100x128 .f32 := k2_pay457 v326
  have v779 : FVec F S100x128 .f32 := k2_pay458 v326
  have v780 : FVec F S100x128 .f32 := k2_pay459 v326
  have v864 : FVec F S100x128 .f32 := k2_pay495 v773 v774 v775 v776 v777 v778 v779 v780
  v864

/-- Slot type 1, third layer: the partial tree sum v874 of column slices of v326 (the last five partial sums are joined in the stored payload). -/
def sumT3b_v874 (v326 : FVec F S100x11776 .f32) : FVec F S100x128 .f32 :=
  have v693 : FVec F S100x128 .f32 := k2_pay372 v326
  have v694 : FVec F S100x128 .f32 := k2_pay373 v326
  have v785 : FVec F S100x128 .f32 := k2_pay464 v693 v694
  have v695 : FVec F S100x128 .f32 := k2_pay374 v326
  have v696 : FVec F S100x128 .f32 := k2_pay375 v326
  have v786 : FVec F S100x128 .f32 := k2_pay465 v695 v696
  have v697 : FVec F S100x128 .f32 := k2_pay376 v326
  have v698 : FVec F S100x128 .f32 := k2_pay377 v326
  have v787 : FVec F S100x128 .f32 := k2_pay466 v697 v698
  have v699 : FVec F S100x128 .f32 := k2_pay378 v326
  have v700 : FVec F S100x128 .f32 := k2_pay379 v326
  have v788 : FVec F S100x128 .f32 := k2_pay467 v699 v700
  have v854 : FVec F S100x128 .f32 := k2_pay485 v785 v786 v787 v788
  have v701 : FVec F S100x128 .f32 := k2_pay380 v326
  have v702 : FVec F S100x128 .f32 := k2_pay381 v326
  have v789 : FVec F S100x128 .f32 := k2_pay468 v701 v702
  have v703 : FVec F S100x128 .f32 := k2_pay382 v326
  have v704 : FVec F S100x128 .f32 := k2_pay383 v326
  have v790 : FVec F S100x128 .f32 := k2_pay469 v703 v704
  have v705 : FVec F S100x128 .f32 := k2_pay384 v326
  have v706 : FVec F S100x128 .f32 := k2_pay385 v326
  have v791 : FVec F S100x128 .f32 := k2_pay470 v705 v706
  have v707 : FVec F S100x128 .f32 := k2_pay386 v326
  have v708 : FVec F S100x128 .f32 := k2_pay387 v326
  have v792 : FVec F S100x128 .f32 := k2_pay471 v707 v708
  have v855 : FVec F S100x128 .f32 := k2_pay486 v789 v790 v791 v792
  have v709 : FVec F S100x128 .f32 := k2_pay388 v326
  have v710 : FVec F S100x128 .f32 := k2_pay389 v326
  have v793 : FVec F S100x128 .f32 := k2_pay472 v709 v710
  have v711 : FVec F S100x128 .f32 := k2_pay390 v326
  have v712 : FVec F S100x128 .f32 := k2_pay391 v326
  have v794 : FVec F S100x128 .f32 := k2_pay473 v711 v712
  have v713 : FVec F S100x128 .f32 := k2_pay392 v326
  have v714 : FVec F S100x128 .f32 := k2_pay393 v326
  have v795 : FVec F S100x128 .f32 := k2_pay474 v713 v714
  have v715 : FVec F S100x128 .f32 := k2_pay394 v326
  have v716 : FVec F S100x128 .f32 := k2_pay395 v326
  have v796 : FVec F S100x128 .f32 := k2_pay475 v715 v716
  have v856 : FVec F S100x128 .f32 := k2_pay487 v793 v794 v795 v796
  have v717 : FVec F S100x128 .f32 := k2_pay396 v326
  have v718 : FVec F S100x128 .f32 := k2_pay397 v326
  have v797 : FVec F S100x128 .f32 := k2_pay476 v717 v718
  have v719 : FVec F S100x128 .f32 := k2_pay398 v326
  have v720 : FVec F S100x128 .f32 := k2_pay399 v326
  have v798 : FVec F S100x128 .f32 := k2_pay477 v719 v720
  have v721 : FVec F S100x128 .f32 := k2_pay400 v326
  have v722 : FVec F S100x128 .f32 := k2_pay401 v326
  have v799 : FVec F S100x128 .f32 := k2_pay478 v721 v722
  have v723 : FVec F S100x128 .f32 := k2_pay402 v326
  have v724 : FVec F S100x128 .f32 := k2_pay403 v326
  have v800 : FVec F S100x128 .f32 := k2_pay479 v723 v724
  have v857 : FVec F S100x128 .f32 := k2_pay488 v797 v798 v799 v800
  have v725 : FVec F S100x128 .f32 := k2_pay404 v326
  have v726 : FVec F S100x128 .f32 := k2_pay405 v326
  have v801 : FVec F S100x128 .f32 := k2_pay480 v725 v726
  have v727 : FVec F S100x128 .f32 := k2_pay406 v326
  have v728 : FVec F S100x128 .f32 := k2_pay407 v326
  have v802 : FVec F S100x128 .f32 := k2_pay481 v727 v728
  have v729 : FVec F S100x128 .f32 := k2_pay408 v326
  have v730 : FVec F S100x128 .f32 := k2_pay409 v326
  have v803 : FVec F S100x128 .f32 := k2_pay482 v729 v730
  have v731 : FVec F S100x128 .f32 := k2_pay410 v326
  have v732 : FVec F S100x128 .f32 := k2_pay411 v326
  have v804 : FVec F S100x128 .f32 := k2_pay483 v731 v732
  have v858 : FVec F S100x128 .f32 := k2_pay489 v801 v802 v803 v804
  have v733 : FVec F S100x128 .f32 := k2_pay412 v326
  have v734 : FVec F S100x128 .f32 := k2_pay413 v326
  have v735 : FVec F S100x128 .f32 := k2_pay414 v326
  have v736 : FVec F S100x128 .f32 := k2_pay415 v326
  have v737 : FVec F S100x128 .f32 := k2_pay416 v326
  have v738 : FVec F S100x128 .f32 := k2_pay417 v326
  have v739 : FVec F S100x128 .f32 := k2_pay418 v326
  have v740 : FVec F S100x128 .f32 := k2_pay419 v326
  have v859 : FVec F S100x128 .f32 := k2_pay490 v733 v734 v735 v736 v737 v738 v739 v740
  have v741 : FVec F S100x128 .f32 := k2_pay420 v326
  have v742 : FVec F S100x128 .f32 := k2_pay421 v326
  have v743 : FVec F S100x128 .f32 := k2_pay422 v326
  have v744 : FVec F S100x128 .f32 := k2_pay423 v326
  have v745 : FVec F S100x128 .f32 := k2_pay424 v326
  have v746 : FVec F S100x128 .f32 := k2_pay425 v326
  have v747 : FVec F S100x128 .f32 := k2_pay426 v326
  have v748 : FVec F S100x128 .f32 := k2_pay427 v326
  have v860 : FVec F S100x128 .f32 := k2_pay491 v741 v742 v743 v744 v745 v746 v747 v748
  have v749 : FVec F S100x128 .f32 := k2_pay428 v326
  have v750 : FVec F S100x128 .f32 := k2_pay429 v326
  have v751 : FVec F S100x128 .f32 := k2_pay430 v326
  have v752 : FVec F S100x128 .f32 := k2_pay431 v326
  have v753 : FVec F S100x128 .f32 := k2_pay432 v326
  have v754 : FVec F S100x128 .f32 := k2_pay433 v326
  have v755 : FVec F S100x128 .f32 := k2_pay434 v326
  have v756 : FVec F S100x128 .f32 := k2_pay435 v326
  have v861 : FVec F S100x128 .f32 := k2_pay492 v749 v750 v751 v752 v753 v754 v755 v756
  have v874 : FVec F S100x128 .f32 := k2_pay1 v854 v855 v856 v857 v858 v859 v860 v861
  v874

/-- Slot type 1's third layer over all columns. -/
def layer3b (x1 : Vec F S1x11776 .f32) (x8 : Vec F S25x1 .f32) (x9 : Vec F S25x1 .f32) (x10 : Vec F S50x25 .f32) (x11 : Vec F S50x1 .f32) (x12 : Vec F S100x75 .f32) (x13 : Vec F S100x1 .f32) : FVec F S100x11776 .f32 :=
  have v323 : FVec F S100x11776 .f32 := k2_pay119 x1 x8 x9 x10 x11 x12
  have v324 : FVec F S100x11776 .f32 := k2_pay120 x13
  have v326 : FVec F S100x11776 .f32 := k2_pay121 v323 v324
  v326

/-- The vector the body stores, from the fourteen loaded blocks. -/
def bodyOut (x0 : Vec F S1x5888 .f32) (x1 : Vec F S1x11776 .f32) (x2 : Vec F S25x1 .f32) (x3 : Vec F S25x1 .f32) (x4 : Vec F S50x25 .f32) (x5 : Vec F S50x1 .f32) (x6 : Vec F S100x75 .f32) (x7 : Vec F S100x1 .f32) (x8 : Vec F S25x1 .f32) (x9 : Vec F S25x1 .f32) (x10 : Vec F S50x25 .f32) (x11 : Vec F S50x1 .f32) (x12 : Vec F S100x75 .f32) (x13 : Vec F S100x1 .f32) : FVec F S100x128 .f32 :=
  have v17 : FVec F S25x5888 .f32 := k2_pay3 x0 x2 x3
  have v21 : FVec F S50x5888 .f32 := k2_pay4 x0 x2 x3 x4 x5
  have v26 : FVec F S100x5888 .f32 := k2_pay5 x0 x2 x3 x4 x5 x6 x7
  have v317 : FVec F S25x11776 .f32 := k2_pay117 x1 x8 x9
  have v321 : FVec F S50x11776 .f32 := k2_pay118 x1 x8 x9 x10 x11
  have v326 : FVec F S100x11776 .f32 := layer3b x1 x8 x9 x10 x11 x12 x13
  k2_pay2 (sumT1a x0 x2 x3 v17) (sumT2a v21) (sumT3a v26) (sumT1b v317) (sumT2b v321) (sumT3b_v853 v326) (sumT3b_v862 v326) (sumT3b_v863 v326) (sumT3b_v864 v326) (sumT3b_v874 v326)

end Cert.KMlpRegion

end
-- ==== Proof.KMlpRegion.lean ====
import proofs.«205418_g46067819217304_cont_8to1_c_241_17_alg».proof.Proof.KMlpThread
import proofs.«205418_g46067819217304_cont_8to1_c_241_17_alg».proof.Proof.Gen.Kernel.Launch
import proofs.«205418_g46067819217304_cont_8to1_c_241_17_alg».proof.Proof.Gen.Kernel.Points
import Idealize.ShloMosaic.Lib.Pipeline.FrameBody
import Idealize.ShloMosaic.Lib.Pipeline.Regions
import Idealize.ShloMosaic.Lib.Pipeline.Kit
import Idealize.ShloMosaic.Lib.Ring
import Idealize.ShloMosaic.Lib.Tactic

/-!
# The embedding kernel as a pipeline region

The second TensorCore kernel walks 64 grid points. At point t it is handed a row block of 46 × 128 environment
entries of slot type 0 and one of 92 × 128 entries of slot type 1 (the 128 atoms of the point, slot by slot), and
the twelve weight blocks, which are whole arrays and the same at every point. It stores one 100 × 128 block: for each
of the 128 atoms the 100 features summed over all 138 slots, scaled. Nothing is carried from point to point, so what
the body leaves in the output buffer is one function of the fourteen blocks it was handed, and an input buffer holds
its block whether or not the pipeline fetched it at that point. This module states that as the pipeline's proof data
and proves the body's obligation at a symbolic point, once, for any float instance and any ghost state.
-/

set_option maxRecDepth 16384

noncomputable section

namespace Cert.KMlpRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]
variable {Ix : Type} [DecidableEq Ix] {Name : Type} [DecidableEq Name] {U : Type} [URA U] {Lvl : Type}

local notation "𝕄" => MT nD τ sig Ix (Elt F) Name U Lvl

-- the TensorCore's buffer contents when the region is entered, and the bound on the wait pairs recorded so far
variable (V : (c : Dev nD) → (b : Ref sig .tc) → Buf (Elt F) ((c : Thread nD τ).loc b)) (B : Set (SemLoc sig × Ix))

/-- The region's invariant on core c: the scoped buffers no window of this pipeline stages, at some contents each, and
    the generator register at some state. The body uses neither. -/
def Φmlp (c : Dev nD) : sProp 𝕄 :=
  iprop(Pipeline.scopedRest (Ix := Ix) (Name := Name) (U := U) (Lvl := Lvl) (Val := Elt F) spec2 c ∗ ∃ r, prngReg c r)

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof
    data whose array is the entry contents and whose body leaves the block in place: a window that is not fetched at a
    point has not moved its block index since the last fetch. One statement per input window. -/
theorem before2_0_of {c : Dev nD} (dat : Dat τ (Elt F) Ix Name U Lvl cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Ix Name U Lvl cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Ix Name U Lvl cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Ix Name U Lvl cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Ix Name U Lvl cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Ix Name U Lvl cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Ix Name U Lvl cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Ix Name U Lvl cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Ix Name U Lvl cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_9_of {c : Dev nD} (dat : Dat τ (Elt F) Ix Name U Lvl cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
theorem before2_10_of {c : Dev nD} (dat : Dat τ (Elt F) Ix Name U Lvl cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)
theorem before2_11_of {c : Dev nD} (dat : Dat τ (Elt F) Ix Name U Lvl cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)
theorem before2_12_of {c : Dev nD} (dat : Dat τ (Elt F) Ix Name U Lvl cfg2 c) (hA : dat.A 12 = V c (Pipeline.arrRef spec2 12))
    (hafter : ∀ t, dat.after 12 t = iblk2 V c 12 t) (t : Fin cfg2.N) (d) : dat.before 12 t d = iblk2 V c 12 t :=
  (dat.before_in_eq_fetched 12 rfl (fun _ => rfl) (fun _ _ _ => rfl) (fun t => by rw [hafter]; unfold Dat.blockOf iblk2; rw [hA]; try rfl) t d).trans
    (by unfold Dat.fetched Dat.blockOf iblk2; rw [hA]; try rfl)
theorem before2_13_of {c : Dev nD} (dat : Dat τ (Elt F) Ix Name U Lvl cfg2 c) (hA : dat.A 13 = V c (Pipeline.arrRef spec2 13))
    (hafter : ∀ t, dat.after 13 t = iblk2 V c 13 t) (t : Fin cfg2.N) (d) : dat.before 13 t d = iblk2 V c 13 t :=
  (dat.before_in_eq_fetched 13 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store take the whole buffer -/

abbrev rw_S1x5888 : Rect S1x5888 := Rect.unit (s := S1x5888) ![0, 0] S1x5888.size inb_S1x5888_S1x5888_0_0
abbrev rw_S1x11776 : Rect S1x11776 := Rect.unit (s := S1x11776) ![0, 0] S1x11776.size inb_S1x11776_S1x11776_0_0
abbrev rw_S25x1 : Rect S25x1 := Rect.unit (s := S25x1) ![0, 0] S25x1.size inb_S25x1_S25x1_0_0
abbrev rw_S50x25 : Rect S50x25 := Rect.unit (s := S50x25) ![0, 0] S50x25.size inb_S50x25_S50x25_0_0
abbrev rw_S50x1 : Rect S50x1 := Rect.unit (s := S50x1) ![0, 0] S50x1.size inb_S50x1_S50x1_0_0
abbrev rw_S100x75 : Rect S100x75 := Rect.unit (s := S100x75) ![0, 0] S100x75.size inb_S100x75_S100x75_0_0
abbrev rw_S100x1 : Rect S100x1 := Rect.unit (s := S100x1) ![0, 0] S100x1.size inb_S100x1_S100x1_0_0
abbrev rw_S100x128 : Rect S100x128 := Rect.unit (s := S100x128) ![0, 0] S100x128.size inb_S100x128_S100x128_0_0

/-! ## What the body leaves in the output window's buffer -/

/-- The output buffer after the body, from the fourteen input blocks: the one store's payload laid over the buffer. -/
def out2_14 (x0 : Vec F S1x5888 .f32) (x1 : Vec F S1x11776 .f32) (x2 : Vec F S25x1 .f32) (x3 : Vec F S25x1 .f32) (x4 : Vec F S50x25 .f32) (x5 : Vec F S50x1 .f32) (x6 : Vec F S100x75 .f32) (x7 : Vec F S100x1 .f32) (x8 : Vec F S25x1 .f32) (x9 : Vec F S25x1 .f32) (x10 : Vec F S50x25 .f32) (x11 : Vec F S50x1 .f32) (x12 : Vec F S100x75 .f32) (x13 : Vec F S100x1 .f32) : Vec F S100x128 .f32 :=
  View.canon [⟨rw_S100x128, bodyOut (View.ld x0 rw_S1x5888) (View.ld x1 rw_S1x11776) (View.ld x2 rw_S25x1) (View.ld x3 rw_S25x1) (View.ld x4 rw_S50x25) (View.ld x5 rw_S50x1) (View.ld x6 rw_S100x75) (View.ld x7 rw_S100x1) (View.ld x8 rw_S25x1) (View.ld x9 rw_S25x1) (View.ld x10 rw_S50x25) (View.ld x11 rw_S50x1) (View.ld x12 rw_S100x75) (View.ld x13 rw_S100x1)⟩]

/-- The store covers the buffer. -/
theorem cover2_14 (p0 : Vec F S100x128 .f32) (y : S100x128.Idx) :
    ∃ pc ∈ ([⟨rw_S100x128, p0⟩] : List (View.Piece (Elt F) S100x128 .f32)), y ∈ pc.1.set :=
  View.cover_of_tiled [⟨rw_S100x128, p0⟩] S100x128.size (by rfl) y

/-! ## The body's triple -/

variable [Preorder Lvl]

set_option maxHeartbeats 4000000 in
/-- The body on whole staging memrefs, the inputs' at read contents x0 … x13 and the output's at anything, runs to the
    continuation holding the inputs' as they were and the output's at the stored function of them. -/
theorem sound_kernel2 (c : Dev nD) (E : Set Name) (i : grid2.Coords) (arg1 : Memref sig .tc .vmem S1x5888 .f32) (harg1 : arg1.IsWhole) (arg2 : Memref sig .tc .vmem S1x11776 .f32) (harg2 : arg2.IsWhole) (arg3 : Memref sig .tc .vmem S25x1 .f32) (harg3 : arg3.IsWhole) (arg4 : Memref sig .tc .vmem S25x1 .f32) (harg4 : arg4.IsWhole) (arg5 : Memref sig .tc .vmem S50x25 .f32) (harg5 : arg5.IsWhole) (arg6 : Memref sig .tc .vmem S50x1 .f32) (harg6 : arg6.IsWhole) (arg7 : Memref sig .tc .vmem S100x75 .f32) (harg7 : arg7.IsWhole) (arg8 : Memref sig .tc .vmem S100x1 .f32) (harg8 : arg8.IsWhole) (arg9 : Memref sig .tc .vmem S25x1 .f32) (harg9 : arg9.IsWhole) (arg10 : Memref sig .tc .vmem S25x1 .f32) (harg10 : arg10.IsWhole) (arg11 : Memref sig .tc .vmem S50x25 .f32) (harg11 : arg11.IsWhole) (arg12 : Memref sig .tc .vmem S50x1 .f32) (harg12 : arg12.IsWhole) (arg13 : Memref sig .tc .vmem S100x75 .f32) (harg13 : arg13.IsWhole) (arg14 : Memref sig .tc .vmem S100x1 .f32) (harg14 : arg14.IsWhole) (arg15 : Memref sig .tc .vmem S100x128 .f32) (harg15 : arg15.IsWhole)
    (x0 : Vec F S1x5888 .f32) (x1 : Vec F S1x11776 .f32) (x2 : Vec F S25x1 .f32) (x3 : Vec F S25x1 .f32) (x4 : Vec F S50x25 .f32) (x5 : Vec F S50x1 .f32) (x6 : Vec F S100x75 .f32) (x7 : Vec F S100x1 .f32) (x8 : Vec F S25x1 .f32) (x9 : Vec F S25x1 .f32) (x10 : Vec F S50x25 .f32) (x11 : Vec F S50x1 .f32) (x12 : Vec F S100x75 .f32) (x13 : Vec F S100x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (out2_14 x0 x1 x2 x3 x4 x5 x6 x7 x8 x9 x10 x11 x12 x13)) -∗ K ⟨⟩))
      ⊢ wp frame (wpE (defs₀ (F := F)) Variants.none c none) E (cc2__mlp_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc2__mlp_body_eq_skeleton]; unfold cc2__mlp_body_skel
  simp only [k2_part1_eq_skeleton, k2_part2_eq_skeleton, k2_part3_eq_skeleton, k2_part4_eq_skeleton, k2_part5_eq_skeleton,
    k2_part6_eq_skeleton, k2_part7_eq_skeleton, k2_part8_eq_skeleton, k2_part9_eq_skeleton, k2_part10_eq_skeleton,
    k2_part11_eq_skeleton, k2_part12_eq_skeleton, k2_part13_eq_skeleton, k2_part14_eq_skeleton, k2_part15_eq_skeleton]
  unfold k2_part1_skel k2_part2_skel k2_part3_skel k2_part4_skel k2_part5_skel k2_part6_skel k2_part7_skel k2_part8_skel
    k2_part9_skel k2_part10_skel k2_part11_skel k2_part12_skel k2_part13_skel k2_part14_skel k2_part15_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  try dsimp only
  exact View.read_writes_eq_canon _ _ _ (cover2_14 _)

/-! ## The pipeline's proof data -/

/-- The proof data of the embedding pipeline on core c: the arrays as the region finds them; after the body at point t
    each input's buffer at its block and the output's at the stored function of the input blocks; the invariant only the
    scoped buffers no window stages and the generator register, untouched; nothing owed; full shares; the recorded wait
    pairs within B throughout (the body waits for nothing). -/
def dat1 (c : Dev nD) : Dat τ (Elt F) Ix Name U Lvl cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => out2_14 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t)
  Φ _ := Φmlp c
  q _ := fullShare
  owed _ := 0
  recorded _ := B

/-- The proof data's arrays are the region-entry contents. -/
theorem A_eq2 (c : Dev nD) (w : Fin cfg2.W) : (dat1 (Name := Name) (U := U) (Lvl := Lvl) V B c).A w = V c (Pipeline.arrRef spec2 w) := by
  dsimp only [dat1]

/-- What the body leaves, window by window. -/
theorem after2_0 (c : Dev nD) (t : Fin cfg2.N) : (dat1 (Name := Name) (U := U) (Lvl := Lvl) V B c).after 0 t = iblk2 V c 0 t := by dsimp only [dat1]
theorem after2_1 (c : Dev nD) (t : Fin cfg2.N) : (dat1 (Name := Name) (U := U) (Lvl := Lvl) V B c).after 1 t = iblk2 V c 1 t := by dsimp only [dat1]
theorem after2_2 (c : Dev nD) (t : Fin cfg2.N) : (dat1 (Name := Name) (U := U) (Lvl := Lvl) V B c).after 2 t = iblk2 V c 2 t := by dsimp only [dat1]
theorem after2_3 (c : Dev nD) (t : Fin cfg2.N) : (dat1 (Name := Name) (U := U) (Lvl := Lvl) V B c).after 3 t = iblk2 V c 3 t := by dsimp only [dat1]
theorem after2_4 (c : Dev nD) (t : Fin cfg2.N) : (dat1 (Name := Name) (U := U) (Lvl := Lvl) V B c).after 4 t = iblk2 V c 4 t := by dsimp only [dat1]
theorem after2_5 (c : Dev nD) (t : Fin cfg2.N) : (dat1 (Name := Name) (U := U) (Lvl := Lvl) V B c).after 5 t = iblk2 V c 5 t := by dsimp only [dat1]
theorem after2_6 (c : Dev nD) (t : Fin cfg2.N) : (dat1 (Name := Name) (U := U) (Lvl := Lvl) V B c).after 6 t = iblk2 V c 6 t := by dsimp only [dat1]
theorem after2_7 (c : Dev nD) (t : Fin cfg2.N) : (dat1 (Name := Name) (U := U) (Lvl := Lvl) V B c).after 7 t = iblk2 V c 7 t := by dsimp only [dat1]
theorem after2_8 (c : Dev nD) (t : Fin cfg2.N) : (dat1 (Name := Name) (U := U) (Lvl := Lvl) V B c).after 8 t = iblk2 V c 8 t := by dsimp only [dat1]
theorem after2_9 (c : Dev nD) (t : Fin cfg2.N) : (dat1 (Name := Name) (U := U) (Lvl := Lvl) V B c).after 9 t = iblk2 V c 9 t := by dsimp only [dat1]
theorem after2_10 (c : Dev nD) (t : Fin cfg2.N) : (dat1 (Name := Name) (U := U) (Lvl := Lvl) V B c).after 10 t = iblk2 V c 10 t := by dsimp only [dat1]
theorem after2_11 (c : Dev nD) (t : Fin cfg2.N) : (dat1 (Name := Name) (U := U) (Lvl := Lvl) V B c).after 11 t = iblk2 V c 11 t := by dsimp only [dat1]
theorem after2_12 (c : Dev nD) (t : Fin cfg2.N) : (dat1 (Name := Name) (U := U) (Lvl := Lvl) V B c).after 12 t = iblk2 V c 12 t := by dsimp only [dat1]
theorem after2_13 (c : Dev nD) (t : Fin cfg2.N) : (dat1 (Name := Name) (U := U) (Lvl := Lvl) V B c).after 13 t = iblk2 V c 13 t := by dsimp only [dat1]
theorem after2_14 (c : Dev nD) (t : Fin cfg2.N) :
    (dat1 (Name := Name) (U := U) (Lvl := Lvl) V B c).after 14 t = out2_14 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) := by dsimp only [dat1]

/-- Each input's current staging buffer holds its block at every point, fetched there or not. -/
theorem before2_0 (c : Dev nD) (t : Fin cfg2.N) (d) : (dat1 (Name := Name) (U := U) (Lvl := Lvl) V B c).before 0 t d = iblk2 V c 0 t :=
  before2_0_of V (dat1 (Name := Name) (U := U) (Lvl := Lvl) V B c) (A_eq2 V B c 0) (after2_0 V B c) t d
theorem before2_1 (c : Dev nD) (t : Fin cfg2.N) (d) : (dat1 (Name := Name) (U := U) (Lvl := Lvl) V B c).before 1 t d = iblk2 V c 1 t :=
  before2_1_of V (dat1 (Name := Name) (U := U) (Lvl := Lvl) V B c) (A_eq2 V B c 1) (after2_1 V B c) t d
theorem before2_2 (c : Dev nD) (t : Fin cfg2.N) (d) : (dat1 (Name := Name) (U := U) (Lvl := Lvl) V B c).before 2 t d = iblk2 V c 2 t :=
  before2_2_of V (dat1 (Name := Name) (U := U) (Lvl := Lvl) V B c) (A_eq2 V B c 2) (after2_2 V B c) t d
theorem before2_3 (c : Dev nD) (t : Fin cfg2.N) (d) : (dat1 (Name := Name) (U := U) (Lvl := Lvl) V B c).before 3 t d = iblk2 V c 3 t :=
  before2_3_of V (dat1 (Name := Name) (U := U) (Lvl := Lvl) V B c) (A_eq2 V B c 3) (after2_3 V B c) t d
theorem before2_4 (c : Dev nD) (t : Fin cfg2.N) (d) : (dat1 (Name := Name) (U := U) (Lvl := Lvl) V B c).before 4 t d = iblk2 V c 4 t :=
  before2_4_of V (dat1 (Name := Name) (U := U) (Lvl := Lvl) V B c) (A_eq2 V B c 4) (after2_4 V B c) t d
theorem before2_5 (c : Dev nD) (t : Fin cfg2.N) (d) : (dat1 (Name := Name) (U := U) (Lvl := Lvl) V B c).before 5 t d = iblk2 V c 5 t :=
  before2_5_of V (dat1 (Name := Name) (U := U) (Lvl := Lvl) V B c) (A_eq2 V B c 5) (after2_5 V B c) t d
theorem before2_6 (c : Dev nD) (t : Fin cfg2.N) (d) : (dat1 (Name := Name) (U := U) (Lvl := Lvl) V B c).before 6 t d = iblk2 V c 6 t :=
  before2_6_of V (dat1 (Name := Name) (U := U) (Lvl := Lvl) V B c) (A_eq2 V B c 6) (after2_6 V B c) t d
theorem before2_7 (c : Dev nD) (t : Fin cfg2.N) (d) : (dat1 (Name := Name) (U := U) (Lvl := Lvl) V B c).before 7 t d = iblk2 V c 7 t :=
  before2_7_of V (dat1 (Name := Name) (U := U) (Lvl := Lvl) V B c) (A_eq2 V B c 7) (after2_7 V B c) t d
theorem before2_8 (c : Dev nD) (t : Fin cfg2.N) (d) : (dat1 (Name := Name) (U := U) (Lvl := Lvl) V B c).before 8 t d = iblk2 V c 8 t :=
  before2_8_of V (dat1 (Name := Name) (U := U) (Lvl := Lvl) V B c) (A_eq2 V B c 8) (after2_8 V B c) t d
theorem before2_9 (c : Dev nD) (t : Fin cfg2.N) (d) : (dat1 (Name := Name) (U := U) (Lvl := Lvl) V B c).before 9 t d = iblk2 V c 9 t :=
  before2_9_of V (dat1 (Name := Name) (U := U) (Lvl := Lvl) V B c) (A_eq2 V B c 9) (after2_9 V B c) t d
theorem before2_10 (c : Dev nD) (t : Fin cfg2.N) (d) : (dat1 (Name := Name) (U := U) (Lvl := Lvl) V B c).before 10 t d = iblk2 V c 10 t :=
  before2_10_of V (dat1 (Name := Name) (U := U) (Lvl := Lvl) V B c) (A_eq2 V B c 10) (after2_10 V B c) t d
theorem before2_11 (c : Dev nD) (t : Fin cfg2.N) (d) : (dat1 (Name := Name) (U := U) (Lvl := Lvl) V B c).before 11 t d = iblk2 V c 11 t :=
  before2_11_of V (dat1 (Name := Name) (U := U) (Lvl := Lvl) V B c) (A_eq2 V B c 11) (after2_11 V B c) t d
theorem before2_12 (c : Dev nD) (t : Fin cfg2.N) (d) : (dat1 (Name := Name) (U := U) (Lvl := Lvl) V B c).before 12 t d = iblk2 V c 12 t :=
  before2_12_of V (dat1 (Name := Name) (U := U) (Lvl := Lvl) V B c) (A_eq2 V B c 12) (after2_12 V B c) t d
theorem before2_13 (c : Dev nD) (t : Fin cfg2.N) (d) : (dat1 (Name := Name) (U := U) (Lvl := Lvl) V B c).before 13 t d = iblk2 V c 13 t :=
  before2_13_of V (dat1 (Name := Name) (U := U) (Lvl := Lvl) V B c) (A_eq2 V B c 13) (after2_13 V B c) t d

/-! ## The body obligation, at a generic point -/

variable (ι : Ix)

/-- What the body is called with at point t, the windows one by one, -/
def bodyPre2 (c : Dev nD) (t : Fin cfg2.N) : sProp 𝕄 :=
  iprop((dat1 (Name := Name) (U := U) (Lvl := Lvl) V B c).Φ t.castSucc ∗ (dat1 (Name := Name) (U := U) (Lvl := Lvl) V B c).owesAt ι t.castSucc
    ∗ (∃ d, owns (c : Thread nD τ) (st2_0 t) fullShare ((dat1 (Name := Name) (U := U) (Lvl := Lvl) V B c).before 0 t d))
    ∗ (∃ d, owns (c : Thread nD τ) (st2_1 t) fullShare ((dat1 (Name := Name) (U := U) (Lvl := Lvl) V B c).before 1 t d))
    ∗ (∃ d, owns (c : Thread nD τ) (st2_2 t) fullShare ((dat1 (Name := Name) (U := U) (Lvl := Lvl) V B c).before 2 t d))
    ∗ (∃ d, owns (c : Thread nD τ) (st2_3 t) fullShare ((dat1 (Name := Name) (U := U) (Lvl := Lvl) V B c).before 3 t d))
    ∗ (∃ d, owns (c : Thread nD τ) (st2_4 t) fullShare ((dat1 (Name := Name) (U := U) (Lvl := Lvl) V B c).before 4 t d))
    ∗ (∃ d, owns (c : Thread nD τ) (st2_5 t) fullShare ((dat1 (Name := Name) (U := U) (Lvl := Lvl) V B c).before 5 t d))
    ∗ (∃ d, owns (c : Thread nD τ) (st2_6 t) fullShare ((dat1 (Name := Name) (U := U) (Lvl := Lvl) V B c).before 6 t d))
    ∗ (∃ d, owns (c : Thread nD τ) (st2_7 t) fullShare ((dat1 (Name := Name) (U := U) (Lvl := Lvl) V B c).before 7 t d))
    ∗ (∃ d, owns (c : Thread nD τ) (st2_8 t) fullShare ((dat1 (Name := Name) (U := U) (Lvl := Lvl) V B c).before 8 t d))
    ∗ (∃ d, owns (c : Thread nD τ) (st2_9 t) fullShare ((dat1 (Name := Name) (U := U) (Lvl := Lvl) V B c).before 9 t d))
    ∗ (∃ d, owns (c : Thread nD τ) (st2_10 t) fullShare ((dat1 (Name := Name) (U := U) (Lvl := Lvl) V B c).before 10 t d))
    ∗ (∃ d, owns (c : Thread nD τ) (st2_11 t) fullShare ((dat1 (Name := Name) (U := U) (Lvl := Lvl) V B c).before 11 t d))
    ∗ (∃ d, owns (c : Thread nD τ) (st2_12 t) fullShare ((dat1 (Name := Name) (U := U) (Lvl := Lvl) V B c).before 12 t d))
    ∗ (∃ d, owns (c : Thread nD τ) (st2_13 t) fullShare ((dat1 (Name := Name) (U := U) (Lvl := Lvl) V B c).before 13 t d))
    ∗ (∃ d, owns (c : Thread nD τ) (st2_14 t) fullShare ((dat1 (Name := Name) (U := U) (Lvl := Lvl) V B c).before 14 t d)))

/-- and what it returns. -/
def bodyPost2 (c : Dev nD) (t : Fin cfg2.N) : sProp 𝕄 :=
  iprop((dat1 (Name := Name) (U := U) (Lvl := Lvl) V B c).Φ t.succ ∗ (dat1 (Name := Name) (U := U) (Lvl := Lvl) V B c).owesAt ι t.succ
    ∗ owns (c : Thread nD τ) (st2_0 t) fullShare ((dat1 (Name := Name) (U := U) (Lvl := Lvl) V B c).after 0 t)
    ∗ owns (c : Thread nD τ) (st2_1 t) fullShare ((dat1 (Name := Name) (U := U) (Lvl := Lvl) V B c).after 1 t)
    ∗ owns (c : Thread nD τ) (st2_2 t) fullShare ((dat1 (Name := Name) (U := U) (Lvl := Lvl) V B c).after 2 t)
    ∗ owns (c : Thread nD τ) (st2_3 t) fullShare ((dat1 (Name := Name) (U := U) (Lvl := Lvl) V B c).after 3 t)
    ∗ owns (c : Thread nD τ) (st2_4 t) fullShare ((dat1 (Name := Name) (U := U) (Lvl := Lvl) V B c).after 4 t)
    ∗ owns (c : Thread nD τ) (st2_5 t) fullShare ((dat1 (Name := Name) (U := U) (Lvl := Lvl) V B c).after 5 t)
    ∗ owns (c : Thread nD τ) (st2_6 t) fullShare ((dat1 (Name := Name) (U := U) (Lvl := Lvl) V B c).after 6 t)
    ∗ owns (c : Thread nD τ) (st2_7 t) fullShare ((dat1 (Name := Name) (U := U) (Lvl := Lvl) V B c).after 7 t)
    ∗ owns (c : Thread nD τ) (st2_8 t) fullShare ((dat1 (Name := Name) (U := U) (Lvl := Lvl) V B c).after 8 t)
    ∗ owns (c : Thread nD τ) (st2_9 t) fullShare ((dat1 (Name := Name) (U := U) (Lvl := Lvl) V B c).after 9 t)
    ∗ owns (c : Thread nD τ) (st2_10 t) fullShare ((dat1 (Name := Name) (U := U) (Lvl := Lvl) V B c).after 10 t)
    ∗ owns (c : Thread nD τ) (st2_11 t) fullShare ((dat1 (Name := Name) (U := U) (Lvl := Lvl) V B c).after 11 t)
    ∗ owns (c : Thread nD τ) (st2_12 t) fullShare ((dat1 (Name := Name) (U := U) (Lvl := Lvl) V B c).after 12 t)
    ∗ owns (c : Thread nD τ) (st2_13 t) fullShare ((dat1 (Name := Name) (U := U) (Lvl := Lvl) V B c).after 13 t)
    ∗ owns (c : Thread nD τ) (st2_14 t) fullShare ((dat1 (Name := Name) (U := U) (Lvl := Lvl) V B c).after 14 t))

/-- The body at any point: the inputs' memrefs hold their blocks, so the body's triple applies; the invariant and the
    core's owes pass through unread. -/
theorem sound_body2 (c : Dev nD) (t : Fin cfg2.N) :
    bodyPre2 (Name := Name) (U := U) (Lvl := Lvl) V B ι c t ⊢ wp frame (wpE (defs₀ (F := F)) Variants.none c none) Set.univ (bodyAt2 t) (fun _ => bodyPost2 (Name := Name) (U := U) (Lvl := Lvl) V B ι c t) := by
  unfold bodyPre2 bodyPost2 bodyAt2
  simp only [before2_0, before2_1, before2_2, before2_3, before2_4, before2_5, before2_6, before2_7, before2_8, before2_9, before2_10, before2_11, before2_12, before2_13]
  rw [show (dat1 (Name := Name) (U := U) (Lvl := Lvl) V B c).Φ t.succ = (dat1 (Name := Name) (U := U) (Lvl := Lvl) V B c).Φ t.castSucc from rfl,
    show (dat1 (Name := Name) (U := U) (Lvl := Lvl) V B c).owesAt ι t.succ = (dat1 (Name := Name) (U := U) (Lvl := Lvl) V B c).owesAt ι t.castSucc from rfl,
    after2_0, after2_1, after2_2, after2_3, after2_4, after2_5, after2_6, after2_7, after2_8, after2_9, after2_10, after2_11, after2_12, after2_13, after2_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel2 c Set.univ _ _ _ _ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The pipeline's body obligation, at every point. -/
theorem body_obligation2 (c : Dev nD) :
    BodyObligation (dat1 (F := F) (Name := Name) (U := U) (Lvl := Lvl) V B c) (defs₀ (F := F)) Variants.none ι Set.univ := fun t => by
  rw [bigSep_W2, bigSep_W2]
  exact sound_body2 V B ι c t

end Cert.KMlpRegion

end
-- ==== Proof.KMain.lean ====
/-
  The kernel program's run. On each device the TensorCore runs @main: two reshapes, the SparseCore gather (started,
  run by the two SparseCores' thirty-two tiles, waited for), a line of layout operations, the environment kernel, a line
  of layout operations and the addition of the third-layer weight halves, the embedding kernel, a transpose and a reshape.
  The contents of the TensorCore's arrays are followed through @main as a fold: the launch memory, then each line's
  operations applied in order, the gather's three results at the gathered words, each kernel's outputs at what its
  pipeline leaves, everything else as it was. The arguments are never written, so they end as launched, and the result
  ends at the fold's last value.
-/
import proofs.«205418_g46067819217304_cont_8to1_c_241_17_alg».proof.Proof.KSetup
import proofs.«205418_g46067819217304_cont_8to1_c_241_17_alg».proof.Proof.KMainShape
import proofs.«205418_g46067819217304_cont_8to1_c_241_17_alg».proof.Proof.KScGather
import proofs.«205418_g46067819217304_cont_8to1_c_241_17_alg».proof.Proof.KScTile
import proofs.«205418_g46067819217304_cont_8to1_c_241_17_alg».proof.Proof.KEnvRegion
import proofs.«205418_g46067819217304_cont_8to1_c_241_17_alg».proof.Proof.KMlpRegion
import proofs.«205418_g46067819217304_cont_8to1_c_241_17_alg».proof.Proof.Gen.Kernel.Launch
import Idealize.ShloMosaic.Lib.SparseCore.Launch
import Idealize.ShloMosaic.Lib.StableHlo.Run
import Idealize.ShloMosaic.Lib.Pipeline.Regions
import Idealize.ShloMosaic.Lib.Pipeline.RegionsLoop
import Idealize.ShloMosaic.Lib.Pipeline.FrameSuffix
import Idealize.ShloMosaic.Lib.Pipeline.Frame
import Idealize.ShloMosaic.Lib.Tactic

noncomputable section

namespace Cert.Kernel.Main

open Cert.Kernel Cert.Kernel.Gen Cert.Kernel.Setup Cert.Kernel.MainShape Cert.KScGather

open Idealize.ShloMosaic Idealize.ShloMosaic.TcCoe
open Idealize.ShloMosaic.SparseCore (S V T)
open Idealize.ShloMosaic.SparseCore.Cfg (HIx Pay)
open Idealize.ShloMosaic.StableHlo (held held_sub_split held_congr wp_seq)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => 𝕄F F

variable (m : (ℓ : Loc nD τ sig) → Buf (Elt F) ℓ) (ρ : Dev nD → PrngReg)

/-! ## The arrays' contents along @main -/

/-- The TensorCore's arrays the gather reads and writes, as buffers of the device. -/
abbrev c' : DevRef τ sig := Proc.devRef .tc (main_v0 : Ref sig .tc)
abbrev n' : DevRef τ sig := Proc.devRef .tc (main_v1 : Ref sig .tc)
abbrev x' : DevRef τ sig := Proc.devRef .tc (main_v2_0 : Ref sig .tc)
abbrev y' : DevRef τ sig := Proc.devRef .tc (main_v2_1 : Ref sig .tc)
abbrev z' : DevRef τ sig := Proc.devRef .tc (main_v2_2 : Ref sig .tc)
/-- The five of them. -/
abbrev S5 : Finset (DevRef τ sig) := {c', n', x', y', z'}

/-- At launch. -/
abbrev W0 (d : Dev nD) : Valuation τ sig (Elt F) := fun b => m (d, b)
/-- After the two reshapes: the coordinates and the neighbour list flat. -/
def W1 (d : Dev nD) : Valuation τ sig (Elt F) := StableHlo.after opsHead (W0 m d)
/-- The gather's operands as the call finds them. -/
def cfAt (d : Dev nD) : Buf (Elt F) (cLoc d) := W1 m d c'
def nfAt (d : Dev nD) : Buf (Elt F) (nLoc d) := W1 m d n'
/-- After the gather: its three results at the gathered words, the rest as before. -/
def W2 (d : Dev nD) : Valuation τ sig (Elt F) :=
  Function.update (Function.update (Function.update (W1 m d) x' (gatherAt (cfAt m d) (nfAt m d) 0)) y' (gatherAt (cfAt m d) (nfAt m d) 1))
    z' (gatherAt (cfAt m d) (nfAt m d) 2)

theorem W2_x (d : Dev nD) : W2 m d x' = gatherAt (cfAt m d) (nfAt m d) 0 := by
  unfold W2
  rw [Function.update_of_ne (show x' ≠ z' by decide), Function.update_of_ne (show x' ≠ y' by decide), Function.update_self]
theorem W2_y (d : Dev nD) : W2 m d y' = gatherAt (cfAt m d) (nfAt m d) 1 := by
  unfold W2
  rw [Function.update_of_ne (show y' ≠ z' by decide), Function.update_self]
theorem W2_z (d : Dev nD) : W2 m d z' = gatherAt (cfAt m d) (nfAt m d) 2 := by
  unfold W2
  rw [Function.update_self]
theorem W2_of_ne (d : Dev nD) (b : DevRef τ sig) (hx : b ≠ x') (hy : b ≠ y') (hz : b ≠ z') : W2 m d b = W1 m d b := by
  unfold W2
  rw [Function.update_of_ne hz, Function.update_of_ne hy, Function.update_of_ne hx]

/-- The five arrays, one by one. -/
theorem held_S5 (d : Dev nD) (W : Valuation τ sig (Elt F)) :
    (held (SparseCore.T d) S5 W : sProp 𝕄) = iprop((cLoc d ↦{fullShare} W c') ∗ (nLoc d ↦{fullShare} W n') ∗ (xLoc d ↦{fullShare} W x')
      ∗ (yLoc d ↦{fullShare} W y') ∗ (zLoc d ↦{fullShare} W z')) := by
  unfold held S5
  rw [SparseCore.bigSep_insert' (by decide), SparseCore.bigSep_insert' (by decide), SparseCore.bigSep_insert' (by decide),
    SparseCore.bigSep_insert' (by decide), bigSep_singleton]

theorem S5_sub : S5 ⊆ Pipeline.ucRefs τ sig := by decide

/-- Outside the gather's results the call changes nothing. -/
theorem held_rest_W2 (d : Dev nD) :
    (held (SparseCore.T d) (Pipeline.ucRefs τ sig \ S5) (W2 m d) : sProp 𝕄) = held (SparseCore.T d) (Pipeline.ucRefs τ sig \ S5) (W1 m d) :=
  held_congr (SparseCore.T d) fun b hb => by
    have hb' := (Finset.mem_sdiff.mp hb).2
    exact W2_of_ne m d b (fun e => hb' (by rw [e]; decide)) (fun e => hb' (by rw [e]; decide)) (fun e => hb' (by rw [e]; decide))

/-! ## The lines' side conditions -/

theorem opsHead_uc : ∀ op ∈ (opsHead : List (HloOp τ sig (Elt F))), op.bufs ⊆ Pipeline.ucRefs τ sig :=
  fun op h => Pipeline.sub_ucRefs op ((List.forall_iff_forall_mem.mp opsHead_sub) op h)
theorem opsHead_fresh : ∀ op ∈ (opsHead : List (HloOp τ sig (Elt F))), op.fresh = ∅ := by
  intro _ h; (repeat (cases h with | head => rfl | tail _ h => ?_)); exact nomatch h

/-! ## After the gather: the two kernels and the lines around them -/

theorem opsAfterGather_uc : ∀ op ∈ (opsAfterGather : List (HloOp τ sig (Elt F))), op.bufs ⊆ Pipeline.ucRefs τ sig :=
  fun op h => Pipeline.sub_ucRefs op ((List.forall_iff_forall_mem.mp opsAfterGather_sub) op h)
theorem opsAfterGather_fresh : ∀ op ∈ (opsAfterGather : List (HloOp τ sig (Elt F))), op.fresh = ∅ := by
  intro _ h; (repeat (cases h with | head => rfl | tail _ h => ?_)); exact nomatch h
theorem opsAfterEnv_uc : ∀ op ∈ (opsAfterEnv : List (HloOp τ sig (Elt F))), op.bufs ⊆ Pipeline.ucRefs τ sig :=
  fun op h => Pipeline.sub_ucRefs op ((List.forall_iff_forall_mem.mp opsAfterEnv_sub) op h)
theorem opsAfterEnv_fresh : ∀ op ∈ (opsAfterEnv : List (HloOp τ sig (Elt F))), op.fresh = ∅ := by
  intro _ h; (repeat (cases h with | head => rfl | tail _ h => ?_)); exact nomatch h
theorem opsTail_uc : ∀ op ∈ (opsTail : List (HloOp τ sig (Elt F))), op.bufs ⊆ Pipeline.ucRefs τ sig :=
  fun op h => Pipeline.sub_ucRefs op ((List.forall_iff_forall_mem.mp opsTail_sub) op h)
theorem opsTail_fresh : ∀ op ∈ (opsTail : List (HloOp τ sig (Elt F))), op.fresh = ∅ := by
  intro _ h; (repeat (cases h with | head => rfl | tail _ h => ?_)); exact nomatch h

/-- No bound is asked of the waits the pipelines record: with one SparseCore call every level is at most seven. -/
abbrev Bany : Set (SemLoc sig × HIx 1) := Set.univ

/-- After the line behind the gather: what the environment kernel finds. -/
abbrev W3 (d : Dev nD) : Valuation τ sig (Elt F) := StableHlo.after opsAfterGather (W2 m d)
abbrev V3 : (c : Dev nD) → (b : Ref sig .tc) → Buf (Elt F) ((c : Thread nD τ).loc b) := fun c b => W3 m c b
/-- After the environment kernel: its arrays at what its pipeline leaves, the rest as before. -/
def W4 (d : Dev nD) : Valuation τ sig (Elt F) :=
  Pipeline.withArrays spec1 d (W3 m d) fun w => (Cert.KEnvRegion.dat0 (Ix := HIx 1) (Name := ℕ) (U := UU) (Lvl := ℕ) (V3 m) Bany d).arrAt w cfg1.N
theorem W4_arr (d : Dev nD) (w : Fin cfg1.W) :
    W4 m d (Proc.devRef .tc (Pipeline.arrRef spec1 w)) = (Cert.KEnvRegion.dat0 (Ix := HIx 1) (Name := ℕ) (U := UU) (Lvl := ℕ) (V3 m) Bany d).arrAt w cfg1.N := by
  unfold W4; exact Pipeline.withArrays_arr spec1 launch1.win.arr_inj d _ _ w
theorem W4_of_ne (d : Dev nD) (b : Ref sig .tc) (hb : ∀ w, Pipeline.arrRef spec1 w ≠ b) :
    W4 m d (Proc.devRef .tc b) = W3 m d (Proc.devRef .tc b) := by
  unfold W4; exact Pipeline.withArrays_of_ne spec1 d _ _ b hb
abbrev V4 : (c : Dev nD) → (b : Ref sig .tc) → Buf (Elt F) ((c : Thread nD τ).loc b) := fun c b => W4 m c b
/-- After the line behind the environment kernel: what the embedding kernel finds. -/
abbrev W5 (d : Dev nD) : Valuation τ sig (Elt F) := StableHlo.after opsAfterEnv (W4 m d)
abbrev V5 : (c : Dev nD) → (b : Ref sig .tc) → Buf (Elt F) ((c : Thread nD τ).loc b) := fun c b => W5 m c b
/-- After the embedding kernel. -/
def W6 (d : Dev nD) : Valuation τ sig (Elt F) :=
  Pipeline.withArrays spec2 d (W5 m d) fun w => (Cert.KMlpRegion.dat1 (Ix := HIx 1) (Name := ℕ) (U := UU) (Lvl := ℕ) (V5 m) Bany d).arrAt w cfg2.N
theorem W6_arr (d : Dev nD) (w : Fin cfg2.W) :
    W6 m d (Proc.devRef .tc (Pipeline.arrRef spec2 w)) = (Cert.KMlpRegion.dat1 (Ix := HIx 1) (Name := ℕ) (U := UU) (Lvl := ℕ) (V5 m) Bany d).arrAt w cfg2.N := by
  unfold W6; exact Pipeline.withArrays_arr spec2 launch2.win.arr_inj d _ _ w
theorem W6_of_ne (d : Dev nD) (b : Ref sig .tc) (hb : ∀ w, Pipeline.arrRef spec2 w ≠ b) :
    W6 m d (Proc.devRef .tc b) = W5 m d (Proc.devRef .tc b) := by
  unfold W6; exact Pipeline.withArrays_of_ne spec2 d _ _ b hb
abbrev V6 : (c : Dev nD) → (b : Ref sig .tc) → Buf (Elt F) ((c : Thread nD τ).loc b) := fun c b => W6 m c b
/-- When @main returns: the fold's last value. -/
abbrev W7 (d : Dev nD) : Valuation τ sig (Elt F) := StableHlo.after opsTail (W6 m d)

theorem hF0 (c : Dev nD) (w : Fin cfg1.W) :
    (Cert.KEnvRegion.dat0 (Ix := HIx 1) (Name := ℕ) (U := UU) (Lvl := ℕ) (V3 m) Bany c).arrAt w cfg1.N = V4 m c (Pipeline.arrRef spec1 w) :=
  (W4_arr m c w).symm
theorem hrest0 (c : Dev nD) : ∀ b, b ∉ Finset.univ.image (Pipeline.arrRef spec1) → V4 m c b = V3 m c b :=
  fun b hb => W4_of_ne m c b fun w e => hb (Finset.mem_image.mpr ⟨w, Finset.mem_univ _, e⟩)
theorem hF1 (c : Dev nD) (w : Fin cfg2.W) :
    (Cert.KMlpRegion.dat1 (Ix := HIx 1) (Name := ℕ) (U := UU) (Lvl := ℕ) (V5 m) Bany c).arrAt w cfg2.N = V6 m c (Pipeline.arrRef spec2 w) :=
  (W6_arr m c w).symm
theorem hrest1 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- What rides beside the arrays from the gather's return to @main's: the generator register at some state and the
    core owing nothing. -/
abbrev Ride (d : Dev nD) : sProp 𝕄 :=
  iprop((∃ r, prngReg d r) ∗ ∃ W, owes (d : Thread nD τ) (0 : CellTallies nD τ sig (HIx 1)) W)

/-- No pipeline has a prefetched table. -/
abbrev adm : (p : Fin 2) → (pcfgs (F := F) p).Adm := fun p => (cfgs p).toPCfg_adm
/-- The two pipelines' proof data, each at its region's entry contents: a literal match on the pipeline. -/
def pdats : (p : Fin 2) → (c : Dev nD) → Pipeline.Dat τ (Elt F) (HIx 1) ℕ UU ℕ (Pipeline.pin (pcfgs (F := F)) adm p) c
  | ⟨0, _⟩ => fun c => Cert.KEnvRegion.dat0 (V3 m) Bany c
  | ⟨1, _⟩ => fun c => Cert.KMlpRegion.dat1 (V5 m) Bany c

/-- The pipelines' staging cells' ghost state on device d, as the launch deals it. -/
abbrev Gd (d : Dev nD) : sProp 𝕄 := Pipeline.ghostOn (pcfgs (F := F)) adm (EP (F := F)) Finset.univ d

/-- A line of host operations as a segment over the unscoped arrays, the riding state beside them. -/
abbrev hseg (ops : List (HloOp τ sig (Elt F))) (huc : ∀ op ∈ ops, op.bufs ⊆ Pipeline.ucRefs τ sig)
    (hfresh : ∀ op ∈ ops, op.fresh = ∅) (W : Dev nD → Valuation τ sig (Elt F)) :
    Pipeline.HostSeg (Name := ℕ) (U := UU) (pcfgs (F := F)) defs₀ 𝒱₀ (K (F := F)).L (K (F := F)).lev :=
  Pipeline.HostSeg.ofOps _ _ _ _ _ (Pipeline.ucRefs τ sig) ops huc hfresh W (Ride (F := F))

set_option backward.isDefEq.respectTransparency.types false in
/-- The environment kernel over the thread state: entered from every unscoped array at W3, left at W4. Its nine arrays
    are split out of the unscoped arrays and put back at the exit contents; the generator register goes into the body's
    invariant and comes out; nothing is owed; the kernel has no semaphore of its own. -/
def reg0 : Pipeline.RegionSeg (pcfgs (F := F)) adm (pdats m) ι₀ defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (Cert.KEnvRegion.body_obligation (V3 m) Bany ι₀ c).loose
  hwaits := Pipeline.hwaits_of_owed_zero _ _ _ _ (K (F := F)).L (K (F := F)).lev 0 fun _ _ => rfl
  pre c := iprop(held (c : Thread nD τ) (Pipeline.ucRefs τ sig) (W3 m c) ∗ Ride (F := F) c)
  post c := iprop(held (c : Thread nD τ) (Pipeline.ucRefs τ sig) (W4 m c) ∗ Ride (F := F) c)
  X c := iprop(∃ r, prngReg c r)
  Y c := iprop(∃ r, prngReg c r)
  Z c := Pipeline.unscopedRest (Ix := HIx 1) (Name := ℕ) (U := UU) (Lvl := ℕ) spec1 c (V3 m c)
  hentry c := by
    rw [Pipeline.ownSems0_none]
    have hsplit := Pipeline.arrays_of_unscopedBufs (p := 0) (pcfgs (F := F)) adm (pdats m) launch1.win launch1.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Cert.KEnvRegion.Φenv c from rfl]; unfold Cert.KEnvRegion.Φenv
    iintro ⟨Hp, -, Hr⟩
    isplitl [Hr]; · iexact Hr
    iexact Hp
  hout c := by
    rw [Pipeline.ownSems0_none, show (pdats m 0 c).Φ (Fin.last _) = Cert.KEnvRegion.Φenv c from rfl]; unfold Cert.KEnvRegion.Φenv
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch1.win launch1.arr_whole c (pdats m) ((pdats m 0 c).share_full fun _ => rfl)
      (V3 m c) (V4 m c) ((pdats m 0 c).arrAt · cfg1.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The embedding kernel over the thread state: entered from every unscoped array at W5, left at W6, by the same road. -/
def reg1 : Pipeline.RegionSeg (pcfgs (F := F)) adm (pdats m) ι₀ defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (Cert.KMlpRegion.body_obligation2 (V5 m) Bany ι₀ c).loose
  hwaits := Pipeline.hwaits_of_owed_zero _ _ _ _ (K (F := F)).L (K (F := F)).lev 1 fun _ _ => rfl
  pre c := iprop(held (c : Thread nD τ) (Pipeline.ucRefs τ sig) (W5 m c) ∗ Ride (F := F) c)
  post c := iprop(held (c : Thread nD τ) (Pipeline.ucRefs τ sig) (W6 m c) ∗ Ride (F := F) c)
  X c := iprop(∃ r, prngReg c r)
  Y c := iprop(∃ r, prngReg c r)
  Z c := Pipeline.unscopedRest (Ix := HIx 1) (Name := ℕ) (U := UU) (Lvl := ℕ) spec2 c (V5 m c)
  hentry c := by
    rw [Pipeline.ownSems0_none]
    have hsplit := Pipeline.arrays_of_unscopedBufs (p := 1) (pcfgs (F := F)) adm (pdats m) launch2.win launch2.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Cert.KMlpRegion.Φmlp c from rfl]; unfold Cert.KMlpRegion.Φmlp
    iintro ⟨Hp, -, Hr⟩
    isplitl [Hr]; · iexact Hr
    iexact Hp
  hout c := by
    rw [Pipeline.ownSems0_none, show (pdats m 1 c).Φ (Fin.last _) = Cert.KMlpRegion.Φmlp c from rfl]; unfold Cert.KMlpRegion.Φmlp
    iintro ⟨Hr, Hp⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats m) ((pdats m 1 c).share_full fun _ => rfl)
      (V5 m c) (V6 m c) ((pdats m 1 c).arrAt · cfg2.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- From the gather's return to @main's, as segments: line, environment kernel, line, embedding kernel, line. -/
abbrev segs : List (Pipeline.Seg (pcfgs (F := F)) adm (pdats m) ι₀ defs₀ 𝒱₀ (K (F := F)).L (K (F := F)).lev) :=
  [ .host (hseg opsAfterGather opsAfterGather_uc opsAfterGather_fresh (W2 m)),
    .region (reg0 m),
    .host (hseg opsAfterEnv opsAfterEnv_uc opsAfterEnv_fresh (W4 m)),
    .region (reg1 m),
    .host (hseg opsTail opsTail_uc opsTail_fresh (W6 m)) ]

/-- The printed tail of @main is the segments' run, read in the SparseCore program's label signature. -/
theorem tail_eq :
    (Pipeline.chain
      [ StableHlo.seq opsAfterGather,
        Prog.lift (.customCall (SparseCore.inner (Pipeline.entry 0)) ()),
        StableHlo.seq opsAfterEnv,
        Prog.lift (.customCall (SparseCore.inner (Pipeline.entry 1)) ()),
        StableHlo.seq opsTail ] : Prog (TpuEff nD τ sig (Elt F) (SparseCore.Sig (ΛP (F := F)) 1) .tc) PUnit)
      = SparseCore.liftProg (Pipeline.Seg.run (segs m)) := by
  chain_rfl

theorem segs_chain : Pipeline.Seg.Chains (fun c => iprop(held (c : Thread nD τ) (Pipeline.ucRefs τ sig) (W2 m c) ∗ Ride (F := F) c)) (segs m)
    (fun c => iprop(held (c : Thread nD τ) (Pipeline.ucRefs τ sig) (W7 m c) ∗ Ride (F := F) c)) :=
  ⟨fun _ => .rfl, fun _ => .rfl, fun _ => .rfl, fun _ => .rfl, fun _ => .rfl, fun _ => .rfl⟩

set_option backward.isDefEq.respectTransparency.types false in
/-- The segments' run in the kernels' own label signature, before it is read in the SparseCore program's. -/
theorem tail_inner [∀ e, Nonempty (Elt F e)] (d : Dev nD) (Φ : PUnit → sProp 𝕄) :
    iprop(levAts (K (F := F)).L (K (F := F)).lev ∗ boundary (SparseCore.T d) ∗ held (SparseCore.T d) (Pipeline.ucRefs τ sig) (W2 m d) ∗ Ride (F := F) d ∗ Gd (F := F) d
        ∗ (iprop(boundary (SparseCore.T d) ∗ held (SparseCore.T d) (Pipeline.ucRefs τ sig) (W7 m d) ∗ Ride (F := F) d) -∗ Φ ⟨⟩))
      ⊢ wp frame (wpE (D (F := F)) 𝒱 (SparseCore.T d) none) Set.univ (Pipeline.Seg.run (segs m)) Φ := by
  iintro ⟨#Hla, Hbd, Hh, HR, Hg, Hk⟩
  iapply (Pipeline.wp_segs (pcfgs (F := F)) adm (pdats m) ι₀ cellOf_inj (EP (F := F)) defs₀ 𝒱₀ (K (F := F)).L (K (F := F)).lev d (segs m) Finset.univ _ _
    (by simp only [segs, Pipeline.Seg.pipes_host, Pipeline.Seg.pipes_region, Pipeline.Seg.pipes_nil]; decide)
    (fun p _ => Finset.mem_univ p) (segs_chain m))
  isplitl [Hk]
  · iintro ⟨Hbd, Hh, HR⟩
    iapply Hk
    isplitl [Hbd]; · iexact Hbd
    isplitl [Hh]; · iexact Hh
    iexact HR
  isplitl [Hbd]; · iexact Hbd
  isplitl [Hh HR]
  · isplitl [Hh]; · iexact Hh
    iexact HR
  isplitr; · iexact Hla
  iexact Hg

set_option backward.isDefEq.respectTransparency.types false in
/-- From the gather's return to @main's: line, environment kernel, line, embedding kernel, line. -/
theorem tail_run [∀ e, Nonempty (Elt F e)] (d : Dev nD) (Φ : PUnit → sProp 𝕄) :
    iprop(levAts (K (F := F)).L (K (F := F)).lev ∗ boundary (SparseCore.T d) ∗ held (SparseCore.T d) (Pipeline.ucRefs τ sig) (W2 m d) ∗ Ride (F := F) d ∗ Gd (F := F) d
        ∗ (iprop(boundary (SparseCore.T d) ∗ held (SparseCore.T d) (Pipeline.ucRefs τ sig) (W7 m d) ∗ Ride (F := F) d) -∗ Φ ⟨⟩))
      ⊢ wp frame (wpE ((K (F := F)).defs (D (F := F))) 𝒱 (SparseCore.T d) none) Set.univ
          (Pipeline.chain
            [ StableHlo.seq opsAfterGather,
              Prog.lift (.customCall (SparseCore.inner (Pipeline.entry 0)) ()),
              StableHlo.seq opsAfterEnv,
              Prog.lift (.customCall (SparseCore.inner (Pipeline.entry 1)) ()),
              StableHlo.seq opsTail ]) Φ := by
  rw [tail_eq m]
  refine BI.Entails.trans (tail_inner m d Φ) ((K (F := F)).wp_liftProg (D (F := F)) 𝒱 (SparseCore.T d) Set.univ none _ Φ)

/-! ## @main on the TensorCore -/

/-- What @main leaves the claim: every array at the fold's last value. -/
abbrev FIN (d : Dev nD) : sProp 𝕄 := held (SparseCore.T d) (Pipeline.ucRefs τ sig) (W7 m d)

/-- The TensorCore's handshake state before call n, its debts apart. -/
def tcRest (P : (K (F := F)).Pay (nD := nD) (Val := Elt F) (Name := ℕ) (U := UU)) (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (P : (K (F := F)).Pay (nD := nD) (Val := Elt F) (Name := ℕ) (U := UU)) (d : Dev nD) (n : ℕ) :
    ((K (F := F)).tcSt EH d n : sProp 𝕄)
      = iprop((∃ W, ⌜(K (F := F)).WBelow (SparseCore.T d) W (8 * n)⌝ ∗ owes (SparseCore.T d) ((K (F := F)).Otc d n) W) ∗ tcRest (F := F) P d n) := rfl

/-- With one call every level is at most seven: any recorded waits sit within the bound after it. -/
theorem wbelow_any (d : Dev nD) (W : Waits sig (HIx 1)) : (K (F := F)).WBelow (SparseCore.T d) W (8 * 1) := fun p _ => by
  rcases p with ⟨sm, _ | q⟩
  · show (K (F := F)).lev (SparseCore.T d, sm) none ≤ 8; rw [SparseCore.Cfg.lev_none]; omega
  · have := (K (F := F)).lev_some_le (SparseCore.T d, sm) q
    have hq : q.val = 0 := by omega
    show (K (F := F)).lev (SparseCore.T d, sm) (some q) ≤ 8; omega

theorem unscoped_held (d : Dev nD) :
    (unscopedBufs d (fun b => m ((SparseCore.T d).loc b)) : sProp 𝕄) = held (SparseCore.T d) (Pipeline.ucRefs τ sig) (W0 m d) :=
  Pipeline.unscopedBufs_held d (W0 m d)

theorem hmain (κ : GSem nD τ sig → ℕ) (d : Dev nD) :
    iprop((K (F := F)).ctx EH (P (cfAt m) (nfAt m)) κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_chain, Pipeline.chain_cons]
  iintro ⟨#Hctx, Hst, ⟨Hb, Hheld, -, Hprng⟩, HG⟩
  -- the two reshapes
  iapply (wp_seq (defs := (K (F := F)).defs (D (F := F))) 𝒱 none Set.univ d (Pipeline.ucRefs τ sig) _ opsHead opsHead_uc opsHead_fresh (W0 m d)) $$ [Hb Hheld]
  · isplitl [Hb] <;> iassumption
  iintro ⟨Hb, Hheld⟩
  -- the gather: its operands and results to the two SparseCores and back
  rw [Pipeline.chain_cons, wp_bind]
  ihave Hh := (Entails.of_eq (held_sub_split (SparseCore.T d) S5_sub (StableHlo.after opsHead (W0 m d)))) $$ Hheld
  icases Hh with ⟨H5, Hrest⟩
  ihave H5' := (Entails.of_eq (held_S5 (F := F) d _)) $$ H5
  icases H5' with ⟨Hc, Hn, Hx, Hy, Hz⟩
  iapply ((K (F := F)).wp_run (D (F := F)) 𝒱 (EH := EH) (P := P (cfAt m) (nfAt m)) κ d 0) $$ [Hst Hc Hn Hx Hy Hz Hb Hrest Hprng HG]
  isplitr; · iexact Hctx
  isplitl [Hst]; · iexact Hst
  isplitl [Hc Hn Hx Hy Hz]
  · iapply (st_intro (cfAt m) (nfAt m) d)
    isplitl [Hc]; · iexact Hc
    isplitl [Hn]; · iexact Hn
    isplitl [Hx]; · iexists _; iexact Hx
    isplitl [Hy]; · iexists _; iexact Hy
    iexists _; iexact Hz
  iintro ⟨Hst, Hdn⟩
  ihave Hdn' := (dn_elim (cfAt m) (nfAt m) d) $$ Hdn
  icases Hdn' with ⟨Hc, Hn, Hx, Hy, Hz⟩
  -- the arrays again, whole, at the contents after the gather
  ihave Hheld := (Entails.of_eq (held_sub_split (SparseCore.T d) S5_sub (W2 m d)).symm) $$ [Hc Hn Hx Hy Hz Hrest]
  · isplitl [Hc Hn Hx Hy Hz]
    · rw [held_S5, W2_x, W2_y, W2_z, W2_of_ne m d c' (by decide) (by decide) (by decide), W2_of_ne m d n' (by decide) (by decide) (by decide)]
      isplitl [Hc]; · iexact Hc
      isplitl [Hn]; · iexact Hn
      isplitl [Hx]; · iexact Hx
      isplitl [Hy]; · iexact Hy
      iexact Hz
    · rw [held_rest_W2]; iexact Hrest
  -- the TensorCore owes nothing more: its debts ride through the two kernels and come back
  ihave Hst' := (Entails.of_eq (show ((K (F := F)).tcSt EH d ((0 : Fin 1).val + 1) : sProp 𝕄) = _ from tcSt_eq (F := F) (P (cfAt m) (nfAt m)) d 1)) $$ Hst
  icases Hst' with ⟨⟨%W, -, HO⟩, Hstr⟩
  rw [(K (F := F)).Otc_end d (le_refl 1)]
  ihave Hla := (SparseCore.Cfg.ctx_levAts κ) $$ Hctx
  iapply (tail_run m d) $$ [Hla Hb Hheld Hprng HO HG Hstr]
  isplitl [Hla]; · iexact Hla
  isplitl [Hb]; · iexact Hb
  isplitl [Hheld]; · iexact Hheld
  isplitl [Hprng HO]
  · isplitl [Hprng]; · iexists _; iexact Hprng
    iexists W; iexact HO
  isplitl [HG]; · iexact HG
  iintro ⟨-, Hheld, -, %W', HO⟩
  isplitl [HO Hstr]
  · iapply (Entails.of_eq (tcSt_eq (F := F) (P (cfAt m) (nfAt m)) d 1).symm)
    isplitl [HO]
    · iexists W'; isplitr; · ipureintro; exact wbelow_any d W'
      rw [(K (F := F)).Otc_end d (le_refl 1)]; iexact HO
    iexact Hstr
  iexact Hheld

/-! ## The final memory -/

/-- What the TensorCore's final assertion says of the physical memory: every array at the fold's last value. -/
def fq (d : Dev nD) (s' : Phys nD τ sig (Elt F)) : Prop := ∀ b ∈ Pipeline.ucRefs τ sig, s'.mem.mem (d, b) = W7 m d b

theorem hfin (d : Dev nD) (s' : Phys nD τ sig (Elt F)) : iprop(FIN m d ∗ SI s') ⊢ (⌜fq m d s'⌝ : sProp 𝕄) := by
  show iprop((bigSep (Pipeline.ucRefs τ sig) fun b => ((SparseCore.T d).1, b) ↦{fullShare} W7 m d b) ∗ SI s') ⊢ _
  iintro ⟨Hh, HSI⟩
  ihave H := (pointsTo_read_all (Pipeline.ucRefs τ sig) (fun b => ((d, b) : Loc nD τ sig)) (W7 m d) s') $$ [Hh HSI]
  · isplitl [Hh] <;> iassumption
  icases H with ⟨%h, -⟩
  ipureintro; exact h

/-! ## The launch element of the ghost state -/

/-- The handshakes' cells, the pipelines' staging cells, and no counter yet. -/
def u₀ : UU :=
  (initOf (K (F := F)).hsCells (K (F := F)).hsToks, (initOf (Pipeline.cells cfgs cellOf_inj) (Pipeline.launchToks cfgs cellOf_inj), 1))

theorem Px_emp (cf : (d : Dev nD) → Buf (Elt F) (cLoc d)) (nf : (d : Dev nD) → Buf (Elt F) (nLoc d)) :
    (bigSep Finset.univ fun thr : Thread nD τ => bigSep Finset.univ fun q : Fin 1 => (P cf nf).x q thr) = (iprop(emp) : sProp 𝕄) := by
  have h1 : ∀ _ : Thread nD τ, (bigSep Finset.univ fun _ : Fin 1 => (iprop(emp) : sProp 𝕄)) = iprop(emp) := fun _ => BI.bigSep_emp_const _
  calc (bigSep Finset.univ fun thr : Thread nD τ => bigSep Finset.univ fun q : Fin 1 => (P cf nf).x q thr)
      = bigSep Finset.univ fun _ : Thread nD τ => (iprop(emp) : sProp 𝕄) := bigSep_congr fun thr _ => h1 thr
    _ = iprop(emp) := BI.bigSep_emp_const _

theorem hu₀ (cf : (d : Dev nD) → Buf (Elt F) (cLoc d)) (nf : (d : Dev nD) → Buf (Elt F) (nLoc d)) :
    (ownU (u₀ (F := F)) : sProp 𝕄)
      ⊢ |={Set.univ}=> iprop(BI.own (EH (initOf (K (F := F)).hsCells (K (F := F)).hsToks)) ∗ (bigSep Finset.univ fun d : Dev nD => Gd (F := F) d)
          ∗ bigSep Finset.univ fun thr : Thread nD τ => bigSep Finset.univ fun q : Fin 1 => (P cf nf).x q thr) := by
  unfold u₀
  rw [Px_emp]
  iintro Hu
  ihave H := (ownU_pair _ _) $$ Hu
  icases H with ⟨HH, HR⟩
  ihave H' := (own_pair_emb embR _ _) $$ HR
  icases H' with ⟨HP, -⟩
  ihave HP' := (Entails.of_eq (show (BI.own (((Emb.inl : Emb UP (UP × Counters)).trans embR) (initOf (Pipeline.cells cfgs cellOf_inj) (Pipeline.launchToks cfgs cellOf_inj))) : sProp 𝕄)
      = BI.own (EP (F := F) (initOf (Pipeline.cells cfgs cellOf_inj) (Pipeline.launchToks cfgs cellOf_inj))) from rfl)) $$ HP
  imod (Pipeline.fund_ghost cfgs (EP (F := F)) cellOf_inj) $$ HP' with ⟨Hg, Ht⟩
  imodintro
  isplitl [HH]; · iexact HH
  isplitl [Hg Ht]
  · iapply (show iprop((bigSep Finset.univ fun c : Dev nD => bigSep Finset.univ fun p => Pipeline.cellsGhost cfgs (EP (F := F)) p c)
          ∗ (bigSep Finset.univ fun c : Dev nD => bigSep Finset.univ fun p => (Pipeline.toksInit cfgs (EP (F := F)) p c : sProp 𝕄)))
        ⊢ bigSep Finset.univ fun c : Dev nD => Gd (F := F) c from by
      rw [← bigSep_sep']
      exact bigSep_mono fun c _ => show iprop((bigSep Finset.univ fun p : Fin 2 => Pipeline.cellsGhost cfgs (EP (F := F)) p c)
            ∗ bigSep Finset.univ fun p : Fin 2 => (Pipeline.toksInit cfgs (EP (F := F)) p c : sProp 𝕄))
          ⊢ (bigSep Finset.univ fun p : Fin 2 => iprop(Pipeline.cellsGhost cfgs (EP (F := F)) p c ∗ Pipeline.toksInit cfgs (EP (F := F)) p c) : sProp 𝕄)
        from Entails.of_eq (by rw [← bigSep_sep']))
    isplitl [Hg] <;> iassumption
  iempintro

/-! ## The run -/

/-- What every final memory satisfies: on each device every unscoped array holds the fold's last value. -/
def QC : PUnit × MemSt nD τ sig (Elt F) → Prop := fun r => ∀ d : Dev nD, ∀ b ∈ Pipeline.ucRefs τ sig, r.2.mem (d, b) = W7 m d b

/-- Every weakly fair execution of the whole family of threads terminates, nothing faulting, and ends with every
    TensorCore array at the fold's last value — provided every neighbour word names an atom. -/
theorem run_main [∀ e, Nonempty (Elt F e)] (hpre : NlOK (nfAt m)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P (cfAt m) (nfAt m)) facts v₀
    (fun q hq => match q with | 0 => nomatch hq)
    (fun q _ => match q with | 0 => tileObl (cfAt m) (nfAt m) facts hpre)
    (fun q _ => match q with | 0 => SparseCore.Cfg.VecSplit.of_plain (vecSplit (cfAt m) (nfAt m)))
    m ρ main (Gd (F := F)) (FIN m) (u₀ (F := F)) (sep_elim_left.trans (hu₀ (cfAt m) (nfAt m))) (hmain m ρ) (fq m) (hfin m) (QC m) (fun _ h => h)

end Cert.Kernel.Main

end
-- ==== Proof.KArgsKept.lean ====
/-
  The arguments of @main end as launched. Along @main the contents of the TensorCore's arrays are a fold from the launch
  memory: four straight lines of layout operations, the gather between the first two, a kernel between each later pair.
  An operation of a line writes its one result array; the gather writes its three coordinate planes; a kernel writes
  among its own arrays only, and those are results of the lines before it. None of these is one of the seventeen
  argument arrays, so at an argument the fold walks back, boundary by boundary, to the launch memory. Which array is
  which is a comparison of references, made once for all seventeen arguments.
-/
import proofs.«205418_g46067819217304_cont_8to1_c_241_17_alg».proof.Proof.KMain
import Idealize.ShloMosaic.Lib.StableHlo.Run
import Idealize.ShloMosaic.Lib.Pipeline.FrameSuffix
import Mathlib.Data.Finset.Insert
import Mathlib.Data.Finset.Dedup

noncomputable section

namespace Cert.Kernel.ArgsKept

open Cert.Kernel Cert.Kernel.MainShape Cert.Kernel.Main
open Idealize.ShloMosaic Idealize.ShloMosaic.TcCoe
open Idealize.SL.Sem

variable {F : FTy → Type} [FloatOps F]

variable (m : (ℓ : Loc nD τ sig) → Buf (Elt F) ℓ)

/-! ## The arrays in question -/

/-- The seventeen arguments of @main: coordinates, atom types, neighbour list, the two statistics tables and the two
    embedding nets' six weight and bias arrays each. -/
abbrev args : List (Ref sig .tc) :=
  [main_arg0, main_arg1, main_arg2, main_arg3, main_arg4, main_arg5, main_arg6, main_arg7, main_arg8, main_arg9,
   main_arg10, main_arg11, main_arg12, main_arg13, main_arg14, main_arg15, main_arg16]

/-- The results of the two reshapes before the gather. -/
abbrev wHead : List (Ref sig .tc) := [main_v0, main_v1]
/-- The gather's three results. -/
abbrev wGather : List (Ref sig .tc) := [main_v2_0, main_v2_1, main_v2_2]
/-- The results of the line between the gather and the environment kernel. -/
abbrev wAfterGather : List (Ref sig .tc) := [main_v3, main_v4, main_v5, main_v6, main_v7, main_v8, main_v9, main_v10, main_v11]
/-- The results of the line between the two kernels. -/
abbrev wAfterEnv : List (Ref sig .tc) :=
  [main_v13, main_v14, main_v15, main_v16, main_v17, main_v18, main_v19, main_v20, main_v21, main_v22, main_v23,
   main_v24, main_v25, main_v26, main_v27, main_v28, main_v29, main_v30, main_v31, main_v32, main_v33, main_v34,
   main_v35, main_v36, main_v37, main_v38, main_v39, main_v40]
/-- The results of the last line. -/
abbrev wTail : List (Ref sig .tc) := [main_v42, main_v43]

/-! ## Each line writes its results only -/

/-- An operation whose one written array is a member of a list writes within the list. -/
theorem sub_of_mem {W : List (Ref sig .tc)} {y : Ref sig .tc} (hy : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem hy))

theorem opsHead_writes :
    (opsHead : List (HloOp τ sig (Elt F))).Forall fun op => op.writes ⊆ (wHead.map (Proc.devRef (τ := τ) .tc)).toFinset :=
  ⟨sub_of_mem (by decide), sub_of_mem (by decide)⟩
theorem opsAfterGather_writes :
    (opsAfterGather : List (HloOp τ sig (Elt F))).Forall fun op => op.writes ⊆ (wAfterGather.map (Proc.devRef (τ := τ) .tc)).toFinset :=
  ⟨sub_of_mem (by decide), sub_of_mem (by decide), sub_of_mem (by decide), sub_of_mem (by decide), sub_of_mem (by decide), sub_of_mem (by decide), sub_of_mem (by decide), sub_of_mem (by decide), sub_of_mem (by decide)⟩
theorem opsAfterEnv_writes :
    (opsAfterEnv : List (HloOp τ sig (Elt F))).Forall fun op => op.writes ⊆ (wAfterEnv.map (Proc.devRef (τ := τ) .tc)).toFinset :=
  ⟨sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide)⟩
theorem opsTail_writes :
    (opsTail : List (HloOp τ sig (Elt F))).Forall fun op => op.writes ⊆ (wTail.map (Proc.devRef (τ := τ) .tc)).toFinset :=
  ⟨sub_of_mem (by decide), sub_of_mem (by decide)⟩

/-! ## No argument is written: the comparisons, once for the seventeen -/

theorem args_not_wHead : ∀ r ∈ args, r ∉ wHead := by decide
theorem args_not_wGather : ∀ r ∈ args, r ∉ wGather := by decide
theorem args_not_wAfterGather : ∀ r ∈ args, r ∉ wAfterGather := by decide
theorem args_not_wAfterEnv : ∀ r ∈ args, r ∉ wAfterEnv := by decide
theorem args_not_wTail : ∀ r ∈ args, r ∉ wTail := by decide
/-- No argument is an array of the environment kernel: its operands are results of the line before it. -/
theorem args_not_arr1 : ∀ r ∈ args, ∀ w, Pipeline.arrRef spec1 w ≠ r := by decide
/-- No argument is an array of the embedding kernel. -/
theorem args_not_arr2 : ∀ r ∈ args, ∀ w, Pipeline.arrRef spec2 w ≠ r := by decide

/-- An argument is none of the gather's results, as arrays of the device. -/
theorem arg_ne_gather {r : Ref sig .tc} (hr : r ∈ args) {y : Ref sig .tc} (hy : y ∈ wGather) :
    (Proc.devRef .tc r : DevRef τ sig) ≠ Proc.devRef .tc y :=
  StableHlo.devRef_ne_of_ne fun e => args_not_wGather r hr (e ▸ hy)

/-! ## The fold at an argument -/

/-- When @main returns every argument array holds what it was launched with: the fold's last value at the argument is
    the value before the last line, which is the value before the embedding kernel, and so on back to the launch. -/
theorem W7_arg (d : Dev nD) (r : Ref sig .tc) (hr : r ∈ args) :
    W7 m d (Proc.devRef .tc r) = m ((d.tc : Thread nD τ).loc r) :=
  calc W7 m d (Proc.devRef .tc r)
    _ = W6 m d (Proc.devRef .tc r) := StableHlo.after_of_writes_sub opsTail _ opsTail_writes (args_not_wTail r hr)
    _ = W5 m d (Proc.devRef .tc r) := W6_of_ne m d r (args_not_arr2 r hr)
    _ = W4 m d (Proc.devRef .tc r) := StableHlo.after_of_writes_sub opsAfterEnv _ opsAfterEnv_writes (args_not_wAfterEnv r hr)
    _ = W3 m d (Proc.devRef .tc r) := W4_of_ne m d r (args_not_arr1 r hr)
    _ = W2 m d (Proc.devRef .tc r) := StableHlo.after_of_writes_sub opsAfterGather _ opsAfterGather_writes (args_not_wAfterGather r hr)
    _ = W1 m d (Proc.devRef .tc r) :=
        W2_of_ne m d _ (arg_ne_gather hr (by decide)) (arg_ne_gather hr (by decide)) (arg_ne_gather hr (by decide))
    _ = W0 m d (Proc.devRef .tc r) := StableHlo.after_of_writes_sub opsHead _ opsHead_writes (args_not_wHead r hr)
    _ = m ((d.tc : Thread nD τ).loc r) := rfl

/-! ## Argument by argument -/

theorem W7_main_arg0 (d : Dev nD) : W7 m d (Proc.devRef .tc main_arg0) = m ((d.tc : Thread nD τ).loc main_arg0) := W7_arg m d main_arg0 (by decide)
theorem W7_main_arg1 (d : Dev nD) : W7 m d (Proc.devRef .tc main_arg1) = m ((d.tc : Thread nD τ).loc main_arg1) := W7_arg m d main_arg1 (by decide)
theorem W7_main_arg2 (d : Dev nD) : W7 m d (Proc.devRef .tc main_arg2) = m ((d.tc : Thread nD τ).loc main_arg2) := W7_arg m d main_arg2 (by decide)
theorem W7_main_arg3 (d : Dev nD) : W7 m d (Proc.devRef .tc main_arg3) = m ((d.tc : Thread nD τ).loc main_arg3) := W7_arg m d main_arg3 (by decide)
theorem W7_main_arg4 (d : Dev nD) : W7 m d (Proc.devRef .tc main_arg4) = m ((d.tc : Thread nD τ).loc main_arg4) := W7_arg m d main_arg4 (by decide)
theorem W7_main_arg5 (d : Dev nD) : W7 m d (Proc.devRef .tc main_arg5) = m ((d.tc : Thread nD τ).loc main_arg5) := W7_arg m d main_arg5 (by decide)
theorem W7_main_arg6 (d : Dev nD) : W7 m d (Proc.devRef .tc main_arg6) = m ((d.tc : Thread nD τ).loc main_arg6) := W7_arg m d main_arg6 (by decide)
theorem W7_main_arg7 (d : Dev nD) : W7 m d (Proc.devRef .tc main_arg7) = m ((d.tc : Thread nD τ).loc main_arg7) := W7_arg m d main_arg7 (by decide)
theorem W7_main_arg8 (d : Dev nD) : W7 m d (Proc.devRef .tc main_arg8) = m ((d.tc : Thread nD τ).loc main_arg8) := W7_arg m d main_arg8 (by decide)
theorem W7_main_arg9 (d : Dev nD) : W7 m d (Proc.devRef .tc main_arg9) = m ((d.tc : Thread nD τ).loc main_arg9) := W7_arg m d main_arg9 (by decide)
theorem W7_main_arg10 (d : Dev nD) : W7 m d (Proc.devRef .tc main_arg10) = m ((d.tc : Thread nD τ).loc main_arg10) := W7_arg m d main_arg10 (by decide)
theorem W7_main_arg11 (d : Dev nD) : W7 m d (Proc.devRef .tc main_arg11) = m ((d.tc : Thread nD τ).loc main_arg11) := W7_arg m d main_arg11 (by decide)
theorem W7_main_arg12 (d : Dev nD) : W7 m d (Proc.devRef .tc main_arg12) = m ((d.tc : Thread nD τ).loc main_arg12) := W7_arg m d main_arg12 (by decide)
theorem W7_main_arg13 (d : Dev nD) : W7 m d (Proc.devRef .tc main_arg13) = m ((d.tc : Thread nD τ).loc main_arg13) := W7_arg m d main_arg13 (by decide)
theorem W7_main_arg14 (d : Dev nD) : W7 m d (Proc.devRef .tc main_arg14) = m ((d.tc : Thread nD τ).loc main_arg14) := W7_arg m d main_arg14 (by decide)
theorem W7_main_arg15 (d : Dev nD) : W7 m d (Proc.devRef .tc main_arg15) = m ((d.tc : Thread nD τ).loc main_arg15) := W7_arg m d main_arg15 (by decide)
theorem W7_main_arg16 (d : Dev nD) : W7 m d (Proc.devRef .tc main_arg16) = m ((d.tc : Thread nD τ).loc main_arg16) := W7_arg m d main_arg16 (by decide)

end Cert.Kernel.ArgsKept

end
-- ==== Proof.PreFacts.lean ====
/-
  What the precondition gives. The precondition is the conjunction, as a chain of one-bit `and`s, of seventeen
  "every element" tests: for each of the fifteen float arrays, |x| < +inf at every element; for the atom-type array,
  0 ≤ w ≤ 1 at every word (signed); for the neighbour list, 0 ≤ w ≤ 10239 at every word (signed). Read back:

  * at any float instance, a neighbour word is an atom number (below 10240, so the three coordinate positions
    3w, 3w+1, 3w+2 lie inside the 30720 coordinates) and an atom-type word is 0 or 1;
  * at the extended reals, |x| < +inf says x is neither infinity, so every float entry is a real number.

  Every theorem takes the precondition as "the predicate of the seventeen arrays is the all-true word", the
  seventeen arrays implicit (they are read off the hypothesis).
-/
import proofs.«205418_g46067819217304_cont_8to1_c_241_17_alg».proof.Pre_input_domain
import proofs.«205418_g46067819217304_cont_8to1_c_241_17_alg».proof.Proof.Gen.Pre_input_domain
import Idealize.ShloMosaic.Lib.StableHlo.Predicate
import Idealize.ShloMosaic.Lib.ReduceAll
import Idealize.ShloMosaic.Lib.ValueIdx
import Idealize.ShloMosaic.PureOps.Ideal

set_option maxRecDepth 16384

noncomputable section

namespace Cert.PreFacts

open Idealize.ShloMosaic Cert.Pre_input_domain

/-- The rank-0 shape has one index. -/
instance : Subsingleton S_.Idx := ⟨fun a b => funext fun d => d.elim0⟩

/-! ### One word, one entry -/

/-- A 32-bit word that is, signed, at least 0 and at most a constant below 2³¹ has its top bit clear: it reads the
    same signed and unsigned, and its value is at most the constant. -/
theorem word_between (w : BitVec 32) (hi : ℕ) (hhi : hi < 2 ^ 31)
    (e : IntOp.andi (IntOp.cmpi .sge w 0#32) (IntOp.cmpi .sle w (BitVec.ofNat 32 hi)) = 1#1) :
    w.toInt = (w.toNat : ℤ) ∧ w.toNat ≤ hi := by
  obtain ⟨h0, h1⟩ := IntOp.andi_eq_one.1 e
  have h0' : (0#32 : BitVec 32).toInt ≤ w.toInt := IntOp.cmpi_sge.1 h0
  have h1' : w.toInt ≤ (BitVec.ofNat 32 hi).toInt := IntOp.cmpi_sle.1 h1
  rw [show (0#32 : BitVec 32).toInt = 0 from by decide] at h0'
  rw [StableHlo.Predicate.toInt_ofNat_small hi hhi] at h1'
  have h2 : 2 * w.toNat < 2 ^ 32 := BitVec.toInt_pos_iff.1 h0'
  have heq : w.toInt = (w.toNat : ℤ) := BitVec.toInt_eq_toNat_of_lt h2
  exact ⟨heq, by omega⟩

/-- The element test the precondition applies to a float entry: |x| < +inf, +inf the word 0x7F800000. -/
def FinWord {F : FTy → Type} [FloatOps F] (x : F .f32) : Prop :=
  FloatOps.cmpf .olt (FloatOps.hostAbsf x) (FloatOps.ofBits .f32 0x7F800000#32) = 1#1

/-- At the extended reals |x| is max x (-x) and the word 0x7F800000 is ⊤: max x (-x) < ⊤ says x < ⊤ and -x < ⊤,
    which rules out x = ⊤ and x = ⊥ (whose negation is ⊤), so x is a real. -/
theorem real_of_finWord (x : EReal) (hx : FinWord (F := Ideal) x) : ∃ r : ℝ, x = (r : EReal) := by
  have htop : Ideal.ofBits .f32 0x7F800000#32 = (⊤ : EReal) := by simp [Ideal.ofBits, Ideal.ieee]
  have hcmp : Ideal.cmp .olt (max x (-x)) (Ideal.ofBits .f32 0x7F800000#32) = 1#1 := hx
  rw [htop] at hcmp
  have hlt : max x (-x) < (⊤ : EReal) :=
    of_decide_eq_true ((StableHlo.Predicate.ofBool_eq_one_iff _).1 hcmp)
  obtain ⟨h1, h2⟩ := max_lt_iff.1 hlt
  induction x using EReal.rec with
  | bot => simp at h2
  | coe r => exact ⟨r, rfl⟩
  | top => simp at h1

/-! ### The conjunction, split -/

/-- The precondition read back element by element: the seventeen tests, each at every index of its array. -/
structure Elementwise {F : FTy → Type} [FloatOps F]
  (a0 : FVec F S1x30720 .f32) (a1 : IVec S1x10240 32) (a2 : IVec S1x8192x138 32)
  (a3 a4 : FVec F S2x138x1 .f32) (a5 : FVec F S1x25 .f32) (a6 : FVec F S25 .f32) (a7 : FVec F S25x50 .f32)
  (a8 : FVec F S50 .f32) (a9 : FVec F S50x100 .f32) (a10 : FVec F S100 .f32) (a11 : FVec F S1x25 .f32)
  (a12 : FVec F S25 .f32) (a13 : FVec F S25x50 .f32) (a14 : FVec F S50 .f32) (a15 : FVec F S50x100 .f32)
  (a16 : FVec F S100 .f32) : Prop where
  f0 : ∀ i : S1x30720.Idx, FinWord (a0 i)
  f3 : ∀ i : S2x138x1.Idx, FinWord (a3 i)
  f4 : ∀ i : S2x138x1.Idx, FinWord (a4 i)
  f5 : ∀ i : S1x25.Idx, FinWord (a5 i)
  f6 : ∀ i : S25.Idx, FinWord (a6 i)
  f7 : ∀ i : S25x50.Idx, FinWord (a7 i)
  f8 : ∀ i : S50.Idx, FinWord (a8 i)
  f9 : ∀ i : S50x100.Idx, FinWord (a9 i)
  f10 : ∀ i : S100.Idx, FinWord (a10 i)
  f11 : ∀ i : S1x25.Idx, FinWord (a11 i)
  f12 : ∀ i : S25.Idx, FinWord (a12 i)
  f13 : ∀ i : S25x50.Idx, FinWord (a13 i)
  f14 : ∀ i : S50.Idx, FinWord (a14 i)
  f15 : ∀ i : S50x100.Idx, FinWord (a15 i)
  f16 : ∀ i : S100.Idx, FinWord (a16 i)
  atype : ∀ i : S1x10240.Idx, IntOp.andi (IntOp.cmpi .sge (a1 i) 0#32) (IntOp.cmpi .sle (a1 i) 1#32) = 1#1
  nlist : ∀ i : S1x8192x138.Idx, IntOp.andi (IntOp.cmpi .sge (a2 i) 0#32) (IntOp.cmpi .sle (a2 i) 10239#32) = 1#1

section Generic

variable {F : FTy → Type} [FloatOps F] [Facts]
  {a0 : FVec F S1x30720 .f32} {a1 : IVec S1x10240 32} {a2 : IVec S1x8192x138 32}
  {a3 a4 : FVec F S2x138x1 .f32} {a5 : FVec F S1x25 .f32} {a6 : FVec F S25 .f32} {a7 : FVec F S25x50 .f32}
  {a8 : FVec F S50 .f32} {a9 : FVec F S50x100 .f32} {a10 : FVec F S100 .f32} {a11 : FVec F S1x25 .f32}
  {a12 : FVec F S25 .f32} {a13 : FVec F S25x50 .f32} {a14 : FVec F S50 .f32} {a15 : FVec F S50x100 .f32}
  {a16 : FVec F S100 .f32}
  (h : fn (F := F) a0 a1 a2 a3 a4 a5 a6 a7 a8 a9 a10 a11 a12 a13 a14 a15 a16 = fun _ => 1#1)
include h

/-- The all-true word at the one index of the result is a chain of sixteen `and`s of seventeen reductions by `and`;
    each link that is 1 has both sides 1, and a reduction by `and` over all axes that is 1 met only 1s. An element
    of a compared array is the comparison of the elements, the constant broadcast reading the constant everywhere. -/
theorem elementwise : Elementwise a0 a1 a2 a3 a4 a5 a6 a7 a8 a9 a10 a11 a12 a13 a14 a15 a16 := by
  have e := congrFun h ValueIdx.ix0
  simp only [Cert.Pre_input_domain.fn, Cert.Pre_input_domain.fn_part1, Cert.Pre_input_domain.fn_part2,
    Cert.Pre_input_domain.fn_part3, Cert.Pre_input_domain.fn_part4, Cert.Pre_input_domain.fn_part5,
    Idealize.ShloMosaic.andi, IntOp.andi_eq_one] at e
  obtain ⟨⟨⟨⟨⟨⟨⟨⟨⟨⟨⟨⟨⟨⟨⟨⟨e0, e3⟩, e4⟩, e5⟩, e6⟩, e7⟩, e8⟩, e9⟩, e10⟩, e11⟩, e12⟩, e13⟩, e14⟩, e15⟩, e16⟩, eat⟩, enl⟩ := e
  exact
    { f0 := fun i => Host.reduce_andi_all _ _ _ _ _ e0 i
      f3 := fun i => Host.reduce_andi_all _ _ _ _ _ e3 i
      f4 := fun i => Host.reduce_andi_all _ _ _ _ _ e4 i
      f5 := fun i => Host.reduce_andi_all _ _ _ _ _ e5 i
      f6 := fun i => Host.reduce_andi_all _ _ _ _ _ e6 i
      f7 := fun i => Host.reduce_andi_all _ _ _ _ _ e7 i
      f8 := fun i => Host.reduce_andi_all _ _ _ _ _ e8 i
      f9 := fun i => Host.reduce_andi_all _ _ _ _ _ e9 i
      f10 := fun i => Host.reduce_andi_all _ _ _ _ _ e10 i
      f11 := fun i => Host.reduce_andi_all _ _ _ _ _ e11 i
      f12 := fun i => Host.reduce_andi_all _ _ _ _ _ e12 i
      f13 := fun i => Host.reduce_andi_all _ _ _ _ _ e13 i
      f14 := fun i => Host.reduce_andi_all _ _ _ _ _ e14 i
      f15 := fun i => Host.reduce_andi_all _ _ _ _ _ e15 i
      f16 := fun i => Host.reduce_andi_all _ _ _ _ _ e16 i
      atype := fun i => Host.reduce_andi_all _ _ _ _ _ eat i
      nlist := fun i => Host.reduce_andi_all _ _ _ _ _ enl i }

/-! ### The neighbour list: every word is an atom number -/

theorem nlist_word (i : S1x8192x138.Idx) : (a2 i).toInt = ((a2 i).toNat : ℤ) ∧ (a2 i).toNat ≤ 10239 :=
  word_between (a2 i) 10239 (by norm_num) ((elementwise h).nlist i)

theorem nlist_toInt_eq (i : S1x8192x138.Idx) : (a2 i).toInt = ((a2 i).toNat : ℤ) := (nlist_word h i).1

theorem nlist_toInt (i : S1x8192x138.Idx) : 0 ≤ (a2 i).toInt ∧ (a2 i).toInt ≤ 10239 := by
  obtain ⟨he, hle⟩ := nlist_word h i
  exact ⟨by omega, by omega⟩

theorem nlist_toNat_eq (i : S1x8192x138.Idx) : (a2 i).toInt.toNat = (a2 i).toNat := by
  have he := nlist_toInt_eq h i
  omega

theorem nlist_toNat_lt (i : S1x8192x138.Idx) : (a2 i).toNat < 10240 := by
  have hle := (nlist_word h i).2
  omega

/-- The last of the three coordinate positions of the atom a neighbour word names is inside the 3 · 10240 coordinates. -/
theorem nlist_addr (i : S1x8192x138.Idx) : 3 * (a2 i).toNat + 2 < 30720 := by
  have hle := (nlist_word h i).2
  omega

/-! ### The atom types: every word is 0 or 1 -/

theorem atype_word (i : S1x10240.Idx) : (a1 i).toInt = ((a1 i).toNat : ℤ) ∧ (a1 i).toNat ≤ 1 :=
  word_between (a1 i) 1 (by norm_num) ((elementwise h).atype i)

theorem atype_toInt (i : S1x10240.Idx) : 0 ≤ (a1 i).toInt ∧ (a1 i).toInt ≤ 1 := by
  obtain ⟨he, hle⟩ := atype_word h i
  exact ⟨by omega, by omega⟩

theorem atype_toNat (i : S1x10240.Idx) : (a1 i).toNat = 0 ∨ (a1 i).toNat = 1 := by
  have hle := (atype_word h i).2
  omega

theorem atype_01 (i : S1x10240.Idx) : a1 i = 0#32 ∨ a1 i = 1#32 := by
  rcases atype_toNat h i with h0 | h1
  · exact Or.inl (BitVec.eq_of_toNat_eq (by rw [h0]; rfl))
  · exact Or.inr (BitVec.eq_of_toNat_eq (by rw [h1]; rfl))

/-! ### The float arrays: every entry passes the element test -/

theorem fin_arg0 (i : S1x30720.Idx) : FinWord (a0 i) := (elementwise h).f0 i
theorem fin_arg3 (i : S2x138x1.Idx) : FinWord (a3 i) := (elementwise h).f3 i
theorem fin_arg4 (i : S2x138x1.Idx) : FinWord (a4 i) := (elementwise h).f4 i
theorem fin_arg5 (i : S1x25.Idx) : FinWord (a5 i) := (elementwise h).f5 i
theorem fin_arg6 (i : S25.Idx) : FinWord (a6 i) := (elementwise h).f6 i
theorem fin_arg7 (i : S25x50.Idx) : FinWord (a7 i) := (elementwise h).f7 i
theorem fin_arg8 (i : S50.Idx) : FinWord (a8 i) := (elementwise h).f8 i
theorem fin_arg9 (i : S50x100.Idx) : FinWord (a9 i) := (elementwise h).f9 i
theorem fin_arg10 (i : S100.Idx) : FinWord (a10 i) := (elementwise h).f10 i
theorem fin_arg11 (i : S1x25.Idx) : FinWord (a11 i) := (elementwise h).f11 i
theorem fin_arg12 (i : S25.Idx) : FinWord (a12 i) := (elementwise h).f12 i
theorem fin_arg13 (i : S25x50.Idx) : FinWord (a13 i) := (elementwise h).f13 i
theorem fin_arg14 (i : S50.Idx) : FinWord (a14 i) := (elementwise h).f14 i
theorem fin_arg15 (i : S50x100.Idx) : FinWord (a15 i) := (elementwise h).f15 i
theorem fin_arg16 (i : S100.Idx) : FinWord (a16 i) := (elementwise h).f16 i

end Generic

section AtIdeal

variable [Facts]
  {a0 : FVec Ideal S1x30720 .f32} {a1 : IVec S1x10240 32} {a2 : IVec S1x8192x138 32}
  {a3 a4 : FVec Ideal S2x138x1 .f32} {a5 : FVec Ideal S1x25 .f32} {a6 : FVec Ideal S25 .f32} {a7 : FVec Ideal S25x50 .f32}
  {a8 : FVec Ideal S50 .f32} {a9 : FVec Ideal S50x100 .f32} {a10 : FVec Ideal S100 .f32} {a11 : FVec Ideal S1x25 .f32}
  {a12 : FVec Ideal S25 .f32} {a13 : FVec Ideal S25x50 .f32} {a14 : FVec Ideal S50 .f32} {a15 : FVec Ideal S50x100 .f32}
  {a16 : FVec Ideal S100 .f32}
  (h : fn (F := Ideal) a0 a1 a2 a3 a4 a5 a6 a7 a8 a9 a10 a11 a12 a13 a14 a15 a16 = fun _ => 1#1)
include h

/-! ### At the extended reals every float entry is a real -/

theorem real_arg0 (i : S1x30720.Idx) : ∃ r : ℝ, a0 i = (r : EReal) := real_of_finWord _ (fin_arg0 h i)
theorem real_arg3 (i : S2x138x1.Idx) : ∃ r : ℝ, a3 i = (r : EReal) := real_of_finWord _ (fin_arg3 h i)
theorem real_arg4 (i : S2x138x1.Idx) : ∃ r : ℝ, a4 i = (r : EReal) := real_of_finWord _ (fin_arg4 h i)
theorem real_arg5 (i : S1x25.Idx) : ∃ r : ℝ, a5 i = (r : EReal) := real_of_finWord _ (fin_arg5 h i)
theorem real_arg6 (i : S25.Idx) : ∃ r : ℝ, a6 i = (r : EReal) := real_of_finWord _ (fin_arg6 h i)
theorem real_arg7 (i : S25x50.Idx) : ∃ r : ℝ, a7 i = (r : EReal) := real_of_finWord _ (fin_arg7 h i)
theorem real_arg8 (i : S50.Idx) : ∃ r : ℝ, a8 i = (r : EReal) := real_of_finWord _ (fin_arg8 h i)
theorem real_arg9 (i : S50x100.Idx) : ∃ r : ℝ, a9 i = (r : EReal) := real_of_finWord _ (fin_arg9 h i)
theorem real_arg10 (i : S100.Idx) : ∃ r : ℝ, a10 i = (r : EReal) := real_of_finWord _ (fin_arg10 h i)
theorem real_arg11 (i : S1x25.Idx) : ∃ r : ℝ, a11 i = (r : EReal) := real_of_finWord _ (fin_arg11 h i)
theorem real_arg12 (i : S25.Idx) : ∃ r : ℝ, a12 i = (r : EReal) := real_of_finWord _ (fin_arg12 h i)
theorem real_arg13 (i : S25x50.Idx) : ∃ r : ℝ, a13 i = (r : EReal) := real_of_finWord _ (fin_arg13 h i)
theorem real_arg14 (i : S50.Idx) : ∃ r : ℝ, a14 i = (r : EReal) := real_of_finWord _ (fin_arg14 h i)
theorem real_arg15 (i : S50x100.Idx) : ∃ r : ℝ, a15 i = (r : EReal) := real_of_finWord _ (fin_arg15 h i)
theorem real_arg16 (i : S100.Idx) : ∃ r : ℝ, a16 i = (r : EReal) := real_of_finWord _ (fin_arg16 h i)

end AtIdeal

end Cert.PreFacts

end
-- ==== Proof.RefFrame.lean ====
/-
  The reference program is host operations only, none of which writes an argument: it runs to its end, faults
  nowhere, and its seventeen argument arrays end as they began.
-/
import proofs.«205418_g46067819217304_cont_8to1_c_241_17_alg».proof.Defs
import proofs.«205418_g46067819217304_cont_8to1_c_241_17_alg».proof.Proof.Gen.ReferenceIdeal
import proofs.«205418_g46067819217304_cont_8to1_c_241_17_alg».proof.Proof.RunArgs
import proofs.«205418_g46067819217304_cont_8to1_c_241_17_alg».proof.Proof.Gen.Pre_input_domain

noncomputable section

namespace Cert.Proof.RefFrame

open Idealize.ShloMosaic Idealize.SL.Sem

/-- The reference's frame. -/
theorem frame_ri [hR : Cert.ReferenceIdeal.Facts] [hP : Cert.Pre_input_domain.Facts] : Cert.frame_ReferenceIdeal := fun m ρ _ =>
  Cert.ReferenceIdeal.ValueP.run_args (F := Ideal) m ρ

end Cert.Proof.RefFrame

end
-- ==== Proof.Descr.lean ====
import Idealize.ShloMosaic.PureOps.Ideal
import Idealize.ShloMosaic.PureOps.Ideal.Laws
import Idealize.ShloMosaic.Lib.ValueIdx
import Mathlib.Data.EReal.Basic
import Mathlib.Data.EReal.Operations
import Mathlib.Data.EReal.Inv
import Mathlib.Algebra.BigOperators.Fin
import Mathlib.Algebra.BigOperators.Ring.Finset
import Mathlib.Analysis.SpecialFunctions.Trigonometric.DerivHyp
import Mathlib.Tactic.Ring
import Mathlib.Tactic.NormNum
import Mathlib.Tactic.Linarith
import Mathlib.Tactic.Abel

/-!
# The descriptor as mathematics

Over the extended reals: the environment-matrix entry of one (atom, neighbour) pair, the
three-layer embedding net applied to that entry, the two arrangements of the third layer
with its residual connections, and the final weighted mean over the 46 + 92 neighbour slots.
Everything is a plain function on EReal and on literal finite index types.
-/

noncomputable section

namespace Cert.Descr

open Idealize.ShloMosaic
open scoped BigOperators

/-! ## Real extended reals -/

/-- An extended real that is neither infinity. -/
def IsReal (x : EReal) : Prop := x ≠ ⊥ ∧ x ≠ ⊤

theorem isReal_coe (r : ℝ) : IsReal (r : EReal) := ⟨EReal.coe_ne_bot r, EReal.coe_ne_top r⟩

theorem IsReal.exists_coe {x : EReal} (h : IsReal x) : ∃ r : ℝ, x = (r : EReal) :=
  ⟨x.toReal, (EReal.coe_toReal h.2 h.1).symm⟩

theorem isReal_iff_exists_coe (x : EReal) : IsReal x ↔ ∃ r : ℝ, x = (r : EReal) :=
  ⟨IsReal.exists_coe, by rintro ⟨r, rfl⟩; exact isReal_coe r⟩

theorem isReal_zero : IsReal (0 : EReal) := by rw [← EReal.coe_zero]; exact isReal_coe 0
theorem isReal_one : IsReal (1 : EReal) := by rw [← EReal.coe_one]; exact isReal_coe 1

theorem IsReal.add {a b : EReal} (ha : IsReal a) (hb : IsReal b) : IsReal (a + b) := by
  obtain ⟨r, rfl⟩ := ha.exists_coe
  obtain ⟨t, rfl⟩ := hb.exists_coe
  rw [← EReal.coe_add]; exact isReal_coe _

theorem IsReal.mul {a b : EReal} (ha : IsReal a) (hb : IsReal b) : IsReal (a * b) := by
  obtain ⟨r, rfl⟩ := ha.exists_coe
  obtain ⟨t, rfl⟩ := hb.exists_coe
  rw [← EReal.coe_mul]; exact isReal_coe _

/-- The hyperbolic tangent of an extended real (-1 at ⊥, 1 at ⊤) is always real. -/
theorem isReal_tanh (x : EReal) : IsReal (Ideal.tanh x) := by
  induction x using EReal.rec with
  | bot =>
    rw [Ideal.tanh_bot, show (-1 : EReal) = ((-1 : ℝ) : EReal) from by first | rfl | simp]
    exact isReal_coe _
  | coe r => rw [Ideal.tanh_coe]; exact isReal_coe _
  | top => rw [Ideal.tanh_top]; exact isReal_one

/-- |x| < ⊤, the shape in which finiteness of an input is usually known, gives a real. -/
theorem isReal_of_abs_lt_top {x : EReal} (h : max x (-x) < ⊤) : IsReal x := by
  constructor
  · rintro rfl; simp at h
  · rintro rfl; simp at h

/-- The coercion of a finite real sum is the sum of the coercions. -/
theorem coe_finset_sum {ι : Type} (S : Finset ι) (f : ι → ℝ) :
    ((∑ i ∈ S, f i : ℝ) : EReal) = ∑ i ∈ S, (f i : EReal) := by
  classical
  refine Finset.induction_on S (by simp) ?_
  intro a S ha ih
  rw [Finset.sum_insert ha, Finset.sum_insert ha, EReal.coe_add, ih]

/-- A finite sum of reals is real. -/
theorem isReal_sum {ι : Type} (S : Finset ι) (f : ι → EReal) (h : ∀ i, IsReal (f i)) :
    IsReal (∑ i ∈ S, f i) := by
  choose g hg using fun i => (h i).exists_coe
  simp only [hg, ← coe_finset_sum]
  exact isReal_coe _

/-! ## A truth value as a number -/

/-- 1 for a true bit, 0 for a false one. -/
def indicator (b : BitVec 1) : EReal := if b = 1#1 then 1 else 0

@[simp] theorem indicator_one : indicator 1#1 = 1 := if_pos rfl
@[simp] theorem indicator_zero : indicator 0#1 = 0 := if_neg (by decide)

/-- A bit widened to 32 bits and read as a signed integer is its indicator. -/
theorem toInt_setWidth_eq_indicator (b : BitVec 1) :
    (((b.setWidth 32).toInt : ℝ) : EReal) = indicator b := by
  rcases BitVec.eq_zero_or_eq_one b with rfl | rfl
  · rw [indicator_zero, show ((0#1 : BitVec 1).setWidth 32).toInt = 0 from by decide]; simp
  · rw [indicator_one, show ((1#1 : BitVec 1).setWidth 32).toInt = 1 from by decide]; simp

/-- A bit read as an unsigned integer is its indicator. -/
theorem toNat_eq_indicator (b : BitVec 1) : ((b.toNat : ℝ) : EReal) = indicator b := by
  rcases BitVec.eq_zero_or_eq_one b with rfl | rfl
  · rw [indicator_zero, show (0#1 : BitVec 1).toNat = 0 from by decide]; simp
  · rw [indicator_one, show (1#1 : BitVec 1).toNat = 1 from by decide]; simp

/-- The same two facts with the conversions spelled as the float operations at the ideal instance:
    a widened bit converted as a signed integer, and a bit converted as an unsigned integer. -/
theorem sitofp_setWidth_eq_indicator (b : BitVec 1) :
    (FloatOps.sitofp (F := Ideal) .f32 (b.setWidth 32) : EReal) = indicator b :=
  toInt_setWidth_eq_indicator b

theorem uitofp_eq_indicator (b : BitVec 1) :
    (FloatOps.uitofp (F := Ideal) .f32 b : EReal) = indicator b :=
  toNat_eq_indicator b

theorem isReal_indicator (b : BitVec 1) : IsReal (indicator b) := by
  rcases BitVec.eq_zero_or_eq_one b with rfl | rfl
  · rw [indicator_zero]; exact isReal_zero
  · rw [indicator_one]; exact isReal_one

/-! ## The environment-matrix entry -/

/-- Euclidean distance between the neighbour (x, y, z) and the centre (cx, cy, cz):
    the square root of ((dx·dx + dy·dy) + dz·dz). -/
def dist (x y z cx cy cz : EReal) : EReal :=
  Ideal.sqrt ((x - cx) * (x - cx) + (y - cy) * (y - cy) + (z - cz) * (z - cz))

/-- [len ≤ 1/2] as a number. -/
def innerMask (len : EReal) : EReal :=
  indicator (Ideal.cmp .ole len (Ideal.ofBits .f32 0x3F000000#32))

/-- [len ≥ 6] as a number. -/
def outerMask (len : EReal) : EReal :=
  indicator (Ideal.cmp .oge len (Ideal.ofBits .f32 0x40C00000#32))

/-- 1 - clip(inner + outer, 0, 1), the clip spelled min 1 (max 0 ·). -/
def midMask (len : EReal) : EReal :=
  Ideal.ofBits .f32 0x3F800000#32
    - min (Ideal.ofBits .f32 0x3F800000#32) (max (Ideal.ofBits .f32 0x00000000#32) (innerMask len + outerMask len))

/-- (len - 1/2) / 5.5 : the position of len inside the smoothing interval. -/
def ramp (len : EReal) : EReal :=
  Ideal.div (len - Ideal.ofBits .f32 0x3F000000#32) (Ideal.ofBits .f32 0x40B00000#32)

/-- u·u·u·(-6·u·u + 15·u - 10) + 1, the quintic smoothstep from 1 down to 0. -/
def quintic (u : EReal) : EReal :=
  u * u * u
      * (Ideal.ofBits .f32 0xC0C00000#32 * u * u + Ideal.ofBits .f32 0x41700000#32 * u
          - Ideal.ofBits .f32 0x41200000#32)
    + Ideal.ofBits .f32 0x3F800000#32

/-- The switching weight: the quintic on the middle range, 1 inside, 0 outside. -/
def switchWeight (len : EReal) : EReal :=
  quintic (ramp len) * midMask len + innerMask len

/-- The raw environment entry (1 / len) · sw(len). -/
def envRaw (len : EReal) : EReal :=
  Ideal.div (Ideal.ofBits .f32 0x3F800000#32) len * switchWeight len

/-- The normalised environment-matrix entry ((1/len)·sw(len) - mean) / std for a neighbour at
    (x, y, z) of a centre atom at (cx, cy, cz), with the mean and standard deviation selected
    by the centre atom's type. -/
def envEntry (x y z cx cy cz mean std : EReal) : EReal :=
  Ideal.div (envRaw (dist x y z cx cy cz) - mean) std

/-- A sum over three coordinates started at zero is the left-nested sum of three terms. -/
theorem zero_add_sum_three (f : Fin 3 → EReal) : (0 : EReal) + ∑ k, f k = f 0 + f 1 + f 2 := by
  rw [zero_add, Fin.sum_univ_three]

/-- The distance with the squared length written as a zero-started sum over the three coordinates. -/
theorem dist_eq_of_sum (x y z cx cy cz : EReal) (d : Fin 3 → EReal)
    (h0 : d 0 = x - cx) (h1 : d 1 = y - cy) (h2 : d 2 = z - cz) :
    Ideal.sqrt ((0 : EReal) + ∑ k, d k * d k) = dist x y z cx cy cz := by
  simp only [zero_add_sum_three, h0, h1, h2, dist]

/-- Adding the indicator of a false bit, or multiplying by that of a true one, changes nothing. -/
theorem add_indicator_zero (a : EReal) : a + indicator 0#1 = a := by rw [indicator_zero, add_zero]
theorem mul_indicator_one (a : EReal) : a * indicator 1#1 = a := by rw [indicator_one, mul_one]

/-- The environment entry with the two neutral operations of a valid neighbour index made explicit:
    len + 0 in place of len, and sw · 1 in place of sw. -/
theorem envEntry_eq_masked (x y z cx cy cz mean std : EReal) :
    Ideal.div
        (Ideal.div (Ideal.ofBits .f32 0x3F800000#32) (dist x y z cx cy cz + indicator 0#1)
            * (switchWeight (dist x y z cx cy cz + indicator 0#1) * indicator 1#1)
          - mean) std
      = envEntry x y z cx cy cz mean std := by
  rw [add_indicator_zero, mul_indicator_one]
  rfl

/-! ## The embedding net on one entry -/

/-- Position a < 25 inside the first half of 50. -/
def lo (a : Fin 25) : Fin 50 := ⟨a.val, by omega⟩
/-- Position 25 + a inside the second half of 50. -/
def hi (a : Fin 25) : Fin 50 := ⟨25 + a.val, by omega⟩
/-- b mod 25 for b < 50: where b falls in the doubled 25-vector. -/
def mod25of50 (b : Fin 50) : Fin 25 := ⟨b.val % 25, Nat.mod_lt _ (by decide)⟩
/-- c mod 50 for c < 100: where c falls in the doubled 50-vector. -/
def mod50 (c : Fin 100) : Fin 50 := ⟨c.val % 50, Nat.mod_lt _ (by decide)⟩
/-- c mod 25 for c < 100: where c falls in the fourfold 25-vector. -/
def mod25 (c : Fin 100) : Fin 25 := ⟨c.val % 25, Nat.mod_lt _ (by decide)⟩

theorem mod25of50_mod50 (c : Fin 100) : mod25of50 (mod50 c) = mod25 c :=
  Fin.ext (Nat.mod_mod_of_dvd c.val (by decide : 25 ∣ 50))

theorem mod25of50_lo (a : Fin 25) : mod25of50 (lo a) = a := Fin.ext (Nat.mod_eq_of_lt a.isLt)

theorem mod25of50_hi (a : Fin 25) : mod25of50 (hi a) = a :=
  Fin.ext (by have := a.isLt; show (25 + a.val) % 25 = a.val; omega)

/-- A sum over 50 = 25 + 25 positions splits into its two halves. -/
theorem sum_fin50_halves (g : Fin 50 → ℝ) :
    ∑ b, g b = (∑ a : Fin 25, g (lo a)) + ∑ a : Fin 25, g (hi a) :=
  Fin.sum_univ_add (a := 25) (b := 25) g

/-- The weights of one embedding net 1 → 25 → 50 → 100. -/
structure Net where
  w0 : Fin 25 → EReal
  b0 : Fin 25 → EReal
  w1 : Fin 25 → Fin 50 → EReal
  b1 : Fin 50 → EReal
  w2 : Fin 50 → Fin 100 → EReal
  b2 : Fin 100 → EReal

/-- All third-layer weights are real. -/
def Net.W2Real (N : Net) : Prop := ∀ b c, IsReal (N.w2 b c)

/-- First layer: tanh(s·w0 + b0). -/
def Net.t1 (N : Net) (s : EReal) (a : Fin 25) : EReal := Ideal.tanh (s * N.w0 a + N.b0 a)

/-- Second layer before its residual: tanh(t1·w1 + b1). -/
def Net.t2 (N : Net) (s : EReal) (b : Fin 50) : EReal :=
  Ideal.tanh ((∑ a, N.t1 s a * N.w1 a b) + N.b1 b)

/-- Second layer with its residual: t2 + [t1, t1]. -/
def Net.x2 (N : Net) (s : EReal) (b : Fin 50) : EReal := N.t2 s b + N.t1 s (mod25of50 b)

/-- Third layer applied to the residual sum, with its own residual:
    tanh(x2·w2 + b2) + [x2, x2]. -/
def Net.y3 (N : Net) (s : EReal) (c : Fin 100) : EReal :=
  Ideal.tanh ((∑ b, N.x2 s b * N.w2 b c) + N.b2 c) + N.x2 s (mod50 c)

/-- Third layer with the residual folded into the weights:
    tanh(Σ_{b<50} w2[b,c]·t2[b] + Σ_{a<25} (w2[a,c] + w2[25+a,c])·t1[a] + b2[c]). -/
def Net.t3 (N : Net) (s : EReal) (c : Fin 100) : EReal :=
  Ideal.tanh ((∑ b, N.w2 b c * N.t2 s b) + (∑ a, (N.w2 (lo a) c + N.w2 (hi a) c) * N.t1 s a)
    + N.b2 c)

/-- The rearranged feature of one entry: t3 + [t2, t2] + [t1, t1, t1, t1]. -/
def Net.z3 (N : Net) (s : EReal) (c : Fin 100) : EReal :=
  N.t3 s c + N.t2 s (mod50 c) + N.t1 s (mod25 c)

/-- The first two layers with each product written weight first. -/
theorem Net.t1_eq_comm (N : Net) (s : EReal) (a : Fin 25) :
    Ideal.tanh (N.w0 a * s + N.b0 a) = N.t1 s a := by
  rw [Net.t1, mul_comm]

theorem Net.t2_eq_comm (N : Net) (s : EReal) (b : Fin 50) :
    Ideal.tanh ((∑ a, N.w1 a b * N.t1 s a) + N.b1 b) = N.t2 s b := by
  rw [Net.t2]
  simp only [mul_comm]

theorem Net.isReal_t1 (N : Net) (s : EReal) (a : Fin 25) : IsReal (N.t1 s a) := isReal_tanh _
theorem Net.isReal_t2 (N : Net) (s : EReal) (b : Fin 50) : IsReal (N.t2 s b) := isReal_tanh _
theorem Net.isReal_t3 (N : Net) (s : EReal) (c : Fin 100) : IsReal (N.t3 s c) := isReal_tanh _

theorem Net.isReal_z3 (N : Net) (s : EReal) (c : Fin 100) : IsReal (N.z3 s c) :=
  ((N.isReal_t3 s c).add (N.isReal_t2 s _)).add (N.isReal_t1 s _)

/-- A sum over 75 = 50 + 25 positions splits into its first 50 and its last 25. -/
theorem sum_fin75 (f : Fin 75 → EReal) :
    ∑ k, f k = (∑ b : Fin 50, f ⟨b.val, by omega⟩) + ∑ a : Fin 25, f ⟨50 + a.val, by omega⟩ :=
  Fin.sum_univ_add (a := 50) (b := 25) f

/-- Distributing a doubled 25-vector against 50 weights: over the reals,
    Σ_b W b·T2 b + Σ_a (W a + W (25+a))·T1 a = Σ_b (T2 b + T1 (b mod 25))·W b. -/
theorem real_preact3 (W : Fin 50 → ℝ) (T1 : Fin 25 → ℝ) (T2 : Fin 50 → ℝ) :
    (∑ b, W b * T2 b) + (∑ a, (W (lo a) + W (hi a)) * T1 a)
      = ∑ b, (T2 b + T1 (mod25of50 b)) * W b := by
  have h1 : ∀ b, (T2 b + T1 (mod25of50 b)) * W b = W b * T2 b + T1 (mod25of50 b) * W b :=
    fun b => by ring
  simp only [h1]
  rw [Finset.sum_add_distrib, sum_fin50_halves (fun b => T1 (mod25of50 b) * W b)]
  simp only [mod25of50_lo, mod25of50_hi]
  rw [← Finset.sum_add_distrib]
  congr 1
  apply Finset.sum_congr rfl
  intro a _
  ring

/-- The pre-activation of the third layer in its two arrangements. -/
theorem Net.preact3_eq (N : Net) (h : N.W2Real) (s : EReal) (c : Fin 100) :
    (∑ b, N.w2 b c * N.t2 s b) + (∑ a, (N.w2 (lo a) c + N.w2 (hi a) c) * N.t1 s a)
      = ∑ b, N.x2 s b * N.w2 b c := by
  choose W hW using fun b => (h b c).exists_coe
  choose T1 hT1 using fun a => (N.isReal_t1 s a).exists_coe
  choose T2 hT2 using fun b => (N.isReal_t2 s b).exists_coe
  simp only [Net.x2, hW, hT1, hT2]
  simp only [← EReal.coe_mul, ← EReal.coe_add, ← coe_finset_sum]
  exact congrArg Real.toEReal (real_preact3 W T1 T2)

theorem Net.t3_eq (N : Net) (h : N.W2Real) (s : EReal) (c : Fin 100) :
    N.t3 s c = Ideal.tanh ((∑ b, N.x2 s b * N.w2 b c) + N.b2 c) := by
  unfold Net.t3
  rw [N.preact3_eq h s c]

/-- The two arrangements of the third layer and its residuals agree. -/
theorem Net.z3_eq_y3 (N : Net) (h : N.W2Real) (s : EReal) (c : Fin 100) : N.z3 s c = N.y3 s c := by
  unfold Net.z3 Net.y3
  rw [N.t3_eq h s c, add_assoc,
    show N.x2 s (mod50 c) = N.t2 s (mod50 c) + N.t1 s (mod25 c) from by rw [Net.x2, mod25of50_mod50]]

/-! ## The final weighted mean over the neighbour slots -/

/-- The scale of the summed features: (46/138 in single precision) · (1/5 in single precision) / 46. -/
def kappa : EReal := ((150119994289903 / 103582791429521408 : ℝ) : EReal)

theorem word_46 : Ideal.ofBits .f32 0x42380000#32 = ((46 : ℝ) : EReal) := by
  simp [Ideal.ofBits, Ideal.ieee, -EReal.coe_mul] <;> norm_num
theorem word_92 : Ideal.ofBits .f32 0x42B80000#32 = ((92 : ℝ) : EReal) := by
  simp [Ideal.ofBits, Ideal.ieee, -EReal.coe_mul] <;> norm_num
theorem word_third : Ideal.ofBits .f32 0x3EAAAAAB#32 = ((11184811 / 33554432 : ℝ) : EReal) := by
  simp [Ideal.ofBits, Ideal.ieee, -EReal.coe_mul] <;> norm_num
theorem word_two_thirds : Ideal.ofBits .f32 0x3F2AAAAB#32 = ((11184811 / 16777216 : ℝ) : EReal) := by
  simp [Ideal.ofBits, Ideal.ieee, -EReal.coe_mul] <;> norm_num
theorem word_fifth : Ideal.ofBits .f32 0x3E4CCCCD#32 = ((13421773 / 67108864 : ℝ) : EReal) := by
  simp [Ideal.ofBits, Ideal.ieee, -EReal.coe_mul] <;> norm_num

/-- The weighted mean as written per slot type:
    ((0 + (Σ_{j<46} f0 j)/46 · (46/138)) + (Σ_{j<92} f1 j)/92 · (92/138)) · (1/5),
    the numbers being single-precision words. -/
def meanOfTypes (f0 : Fin 46 → EReal) (f1 : Fin 92 → EReal) : EReal :=
  (((0 : EReal)
      + Ideal.div (∑ j, f0 j) (Ideal.ofBits .f32 0x42380000#32) * Ideal.ofBits .f32 0x3EAAAAAB#32)
    + Ideal.div (∑ j, f1 j) (Ideal.ofBits .f32 0x42B80000#32) * Ideal.ofBits .f32 0x3F2AAAAB#32)
  * Ideal.ofBits .f32 0x3E4CCCCD#32

/-- For real summands the weighted mean is the plain sum of all 138 slots times kappa. -/
theorem sum_mul_kappa_eq_meanOfTypes (f0 : Fin 46 → EReal) (f1 : Fin 92 → EReal)
    (h0 : ∀ j, IsReal (f0 j)) (h1 : ∀ j, IsReal (f1 j)) :
    ((∑ j, f0 j) + ∑ j, f1 j) * kappa = meanOfTypes f0 f1 := by
  choose F0 hF0 using fun j => (h0 j).exists_coe
  choose F1 hF1 using fun j => (h1 j).exists_coe
  unfold meanOfTypes kappa
  simp only [hF0, hF1, ← coe_finset_sum, word_46, word_92, word_third, word_two_thirds, word_fifth]
  rw [Ideal.div_coe (by norm_num : (46 : ℝ) ≠ 0), Ideal.div_coe (by norm_num : (92 : ℝ) ≠ 0), zero_add]
  simp only [← EReal.coe_mul, ← EReal.coe_add]
  congr 1
  ring

/-! ## A balanced pairwise tree of additions is the plain sum -/

/-- One level of the pairwise tree: neighbours added two by two, an odd last term carried. -/
def pairUp : List EReal → List EReal
  | a :: b :: l => (a + b) :: pairUp l
  | [a] => [a]
  | [] => []

theorem sum_pairUp : ∀ l : List EReal, (pairUp l).sum = l.sum
  | a :: b :: l => by
    rw [pairUp, List.sum_cons, sum_pairUp l, List.sum_cons, List.sum_cons, add_assoc]
  | [a] => rfl
  | [] => rfl

theorem sum_iterate_pairUp (n : ℕ) (l : List EReal) : (pairUp^[n] l).sum = l.sum := by
  induction n generalizing l with
  | zero => rfl
  | succ n ih => rw [Function.iterate_succ_apply, ih, sum_pairUp]

/-- If n levels of the pairwise tree reduce the list to the single term t, then t is the list's sum. -/
theorem tree_eq_list_sum (n : ℕ) (l : List EReal) (t : EReal) (h : pairUp^[n] l = [t]) :
    t = l.sum := by
  have e := sum_iterate_pairUp n l
  rw [h] at e
  simpa using e

/-- The same for the terms of a finite family: the tree's root is the family's sum. -/
theorem tree_eq_sum {m : ℕ} (n : ℕ) (f : Fin m → EReal) (t : EReal)
    (h : pairUp^[n] (List.ofFn f) = [t]) : t = ∑ j, f j := by
  exact (tree_eq_list_sum n _ t h).trans List.sum_ofFn

/-- The output at feature c as the weighted mean of the per-entry features y3. -/
def refOutput (N0 N1 : Net) (s0 : Fin 46 → EReal) (s1 : Fin 92 → EReal) (c : Fin 100) : EReal :=
  meanOfTypes (fun j => N0.y3 (s0 j) c) (fun j => N1.y3 (s1 j) c)

/-- The rearranged output at feature c: every layer summed over the slots of both types first,
    then the residual concatenations, then the scale:
    (((Σ t3 + Σ t3') + [s2, s2]) + [s1, s1, s1, s1]) · kappa with s_k = Σ t_k + Σ t_k'. -/
def kerOutput (N0 N1 : Net) (s0 : Fin 46 → EReal) (s1 : Fin 92 → EReal) (c : Fin 100) : EReal :=
  ((((∑ j, N0.t3 (s0 j) c) + ∑ j, N1.t3 (s1 j) c)
      + ((∑ j, N0.t2 (s0 j) (mod50 c)) + ∑ j, N1.t2 (s1 j) (mod50 c)))
    + ((∑ j, N0.t1 (s0 j) (mod25 c)) + ∑ j, N1.t1 (s1 j) (mod25 c)))
  * kappa

/-- Summing layer by layer and then adding the residuals is summing the per-entry features. -/
theorem sums_by_layer (N0 N1 : Net) (s0 : Fin 46 → EReal) (s1 : Fin 92 → EReal) (c : Fin 100) :
    (((∑ j, N0.t3 (s0 j) c) + ∑ j, N1.t3 (s1 j) c)
        + ((∑ j, N0.t2 (s0 j) (mod50 c)) + ∑ j, N1.t2 (s1 j) (mod50 c)))
      + ((∑ j, N0.t1 (s0 j) (mod25 c)) + ∑ j, N1.t1 (s1 j) (mod25 c))
    = (∑ j, N0.z3 (s0 j) c) + ∑ j, N1.z3 (s1 j) c := by
  simp only [Net.z3, Finset.sum_add_distrib]
  abel

/-- The rearranged output is the weighted mean of the per-entry features when the third-layer
    weights are real. -/
theorem kerOutput_eq_refOutput (N0 N1 : Net) (h0 : N0.W2Real) (h1 : N1.W2Real)
    (s0 : Fin 46 → EReal) (s1 : Fin 92 → EReal) (c : Fin 100) :
    kerOutput N0 N1 s0 s1 c = refOutput N0 N1 s0 s1 c := by
  unfold kerOutput refOutput
  rw [sums_by_layer]
  have key := sum_mul_kappa_eq_meanOfTypes (fun j => N0.z3 (s0 j) c) (fun j => N1.z3 (s1 j) c)
    (fun j => N0.isReal_z3 _ c) (fun j => N1.isReal_z3 _ c)
  have e0 : (fun j => N0.z3 (s0 j) c) = fun j => N0.y3 (s0 j) c :=
    funext fun j => N0.z3_eq_y3 h0 _ c
  have e1 : (fun j => N1.z3 (s1 j) c) = fun j => N1.y3 (s1 j) c :=
    funext fun j => N1.z3_eq_y3 h1 _ c
  rw [← e0, ← e1]
  exact key

end Cert.Descr

end
-- ==== Proof.RefGather.lean ====
/-
  Reading two index-driven stages of the reference at one element, and the word facts that make them plain.

  * A `stablehlo.gather` that takes whole coordinate triples: the operand is a [1, N, 3] table of points, the start
    indices an [n, 1] column of point numbers, and result element (0, p, c) is coordinate c of the point whose number
    the column holds at row p, that number read signed and clamped into [0, N - 1].
  * A `stablehlo.gather` that takes one [M, 1] slab of a [T, M, 1] table per row: start indices [1, R, 1], result
    [1, R, M, 1]; element (0, r, m, 0) is entry (t, m, 0) of the table, t the start index of row r read signed and
    clamped into [0, T - 1].
  * An "and" reduction that starts at the true bit and meets only true bits is true.
  * Signed comparisons of a 32-bit word known to lie in a small non-negative range against the range's ends.
-/
import Idealize.ShloMosaic.Lib.ValueIdx
import Idealize.ShloMosaic.Lib.ReduceAll
import Idealize.ShloMosaic.PureOps.Ideal.Laws

noncomputable section

namespace Cert.RefGather

open Idealize.ShloMosaic Idealize.ShloMosaic.ValueIdx

/-! ## An "and" reduction over true bits -/

/-- A left fold of `and` that starts at 1 and meets only ones ends at 1. -/
theorem foldl_andi_ones {ι : Type} (f : ι → BitVec 1) (hf : ∀ n, f n = 1#1) :
    ∀ (l : List ι), l.foldl (fun r n => IntOp.andi r (f n)) 1#1 = 1#1
  | [] => rfl
  | a :: l => by
    show l.foldl (fun r n => IntOp.andi r (f n)) (IntOp.andi 1#1 (f a)) = 1#1
    rw [hf a, show IntOp.andi 1#1 1#1 = 1#1 from by decide]
    exact foldl_andi_ones f hf l

/-- A `stablehlo.reduce` by `and` whose initial value is the true bit and whose operand is true everywhere is true
    at every result index. -/
theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_ones x hx _

/-! ## Signed comparisons of a word in a small non-negative range -/

/-- A word that reads non-negative as a signed integer is `≥ 0`. -/
theorem cmpi_sge_zero {w : BitVec 32} (h : 0 ≤ w.toInt) : IntOp.cmpi .sge w 0#32 = 1#1 := by
  have h0 : (0#32 : BitVec 32).toInt = 0 := by decide
  have hb : (0#32 : BitVec 32).sle w = true := by
    show decide ((0#32 : BitVec 32).toInt ≤ w.toInt) = true
    rw [decide_eq_true_eq, h0]; exact h
  show BitVec.ofBool ((0#32 : BitVec 32).sle w) = 1#1
  rw [hb] <;> rfl

/-- A word that reads non-negative as a signed integer is not `< 0`. -/
theorem cmpi_slt_zero {w : BitVec 32} (h : 0 ≤ w.toInt) : IntOp.cmpi .slt w 0#32 = 0#1 := by
  have h0 : (0#32 : BitVec 32).toInt = 0 := by decide
  have hb : w.slt (0#32 : BitVec 32) = false := by
    show decide (w.toInt < (0#32 : BitVec 32).toInt) = false
    rw [decide_eq_false_iff_not, h0]; omega
  show BitVec.ofBool (w.slt (0#32 : BitVec 32)) = 0#1
  rw [hb] <;> rfl

/-- A word that reads at most `c` as a signed integer is `≤` the word of `c` (`c` a small literal). -/
theorem cmpi_sle_of_le {w k : BitVec 32} {c : Int} (hk : k.toInt = c) (h : w.toInt ≤ c) :
    IntOp.cmpi .sle w k = 1#1 := by
  have hb : w.sle k = true := by
    show decide (w.toInt ≤ k.toInt) = true
    rw [decide_eq_true_eq, hk]; exact h
  show BitVec.ofBool (w.sle k) = 1#1
  rw [hb] <;> rfl

/-! ## The gather of coordinate triples -/

/-- The dimension numbers of the gather `take_along_axis` makes along the point axis of a [1, N, 3] table: offset
    axes 0 and 2, the point axis collapsed and start-indexed, index vectors along axis 1 of the [n, 1] column. -/
abbrev pointDims (N n : Nat)
    (wf : GatherDims.WF ⟨3, ![1, N, 3]⟩ ⟨2, ![n, 1]⟩ ⟨3, ![1, n, 3]⟩ [0, 2] [1] [] [1] [] 1 ![1, 1, 3]) :
    GatherDims ⟨3, ![1, N, 3]⟩ ⟨2, ![n, 1]⟩ ⟨3, ![1, n, 3]⟩ where
  offsetDims := [0, 2]
  collapsedSliceDims := [1]
  operandBatchingDims := []
  startIndicesBatchingDims := []
  startIndexMap := [1]
  indexVectorDim := 1
  sliceSizes := ![1, 1, 3]
  wf := wf

/-- THE TRIPLE GATHER READ AT (0, p, c): coordinate `c` of the point numbered by the start index of row `p`, read
    signed and clamped into [0, N - 1]. -/
theorem gather_point_apply {α : Type} {N n w : Nat} (hN : 0 < N)
    (wf : GatherDims.WF ⟨3, ![1, N, 3]⟩ ⟨2, ![n, 1]⟩ ⟨3, ![1, n, 3]⟩ [0, 2] [1] [] [1] [] 1 ![1, 1, 3])
    (x : (⟨3, ![1, N, 3]⟩ : Shape).Idx → α) (idx : IVec ⟨2, ![n, 1]⟩ w) (p : Fin n) (c : Fin 3) :
    Host.gather (pointDims N n wf) x idx (ix3 (0 : Fin 1) p c)
      = x (ix3 (0 : Fin 1) ⟨min (idx (ix2 p (0 : Fin 1))).toInt.toNat (N - 1), by omega⟩ c) := by
  unfold Host.gather
  congr 1
  funext a
  refine Fin.ext ?_
  show (pointDims N n wf).start (ix3 (0 : Fin 1) p c) idx a + (pointDims N n wf).batchCoord (ix3 (0 : Fin 1) p c) a
    + (pointDims N n wf).offCoord (ix3 (0 : Fin 1) p c) a = _
  rw [GatherDims.batchCoord_eq_zero _ _ _ List.not_mem_nil, Nat.add_zero]
  match a with
  | ⟨0, _⟩ => rfl
  | ⟨1, h1⟩ =>
    have hm : (⟨1, h1⟩ : Fin (Shape.rank ⟨3, ![1, N, 3]⟩)) ∈ (pointDims N n wf).startIndexMap :=
      List.mem_singleton.mpr rfl
    unfold GatherDims.start
    rw [dif_pos hm]
    have hsi : (pointDims N n wf).siIdx (ix3 (0 : Fin 1) p c)
        ⟨List.idxOf (⟨1, h1⟩ : Fin (Shape.rank ⟨3, ![1, N, 3]⟩)) (pointDims N n wf).startIndexMap,
          List.idxOf_lt_length_iff.2 hm⟩ = ix2 p (0 : Fin 1) := by
      funext b; refine Fin.ext ?_
      match b with
      | ⟨0, _⟩ => rfl
      | ⟨1, _⟩ => rfl
    rw [hsi]
    rfl
  | ⟨2, _⟩ =>
    show (0 : Nat) + c.val = c.val
    exact Nat.zero_add _

/-! ## The gather of one slab of a small table per row -/

/-- The dimension numbers of `table[idx]` for a [T, M, 1] table and a [1, R] index array (kept as [1, R, 1]):
    offset axes 2 and 3, the table's first axis collapsed and start-indexed, index vectors along axis 2. -/
abbrev slabDims (T R M : Nat)
    (wf : GatherDims.WF ⟨3, ![T, M, 1]⟩ ⟨3, ![1, R, 1]⟩ ⟨4, ![1, R, M, 1]⟩ [2, 3] [0] [] [0] [] 2 ![1, M, 1]) :
    GatherDims ⟨3, ![T, M, 1]⟩ ⟨3, ![1, R, 1]⟩ ⟨4, ![1, R, M, 1]⟩ where
  offsetDims := [2, 3]
  collapsedSliceDims := [0]
  operandBatchingDims := []
  startIndicesBatchingDims := []
  startIndexMap := [0]
  indexVectorDim := 2
  sliceSizes := ![1, M, 1]
  wf := wf

/-- THE SLAB GATHER READ AT (0, r, m, 0): entry (t, m, 0) of the table, `t` the start index of row `r` read signed
    and clamped into [0, T - 1]. -/
theorem gather_slab_apply {α : Type} {T R M w : Nat} (hT : 0 < T)
    (wf : GatherDims.WF ⟨3, ![T, M, 1]⟩ ⟨3, ![1, R, 1]⟩ ⟨4, ![1, R, M, 1]⟩ [2, 3] [0] [] [0] [] 2 ![1, M, 1])
    (x : (⟨3, ![T, M, 1]⟩ : Shape).Idx → α) (idx : IVec ⟨3, ![1, R, 1]⟩ w) (r : Fin R) (m : Fin M) :
    Host.gather (slabDims T R M wf) x idx (ix4 (0 : Fin 1) r m (0 : Fin 1))
      = x (ix3 ⟨min (idx (ix3 (0 : Fin 1) r (0 : Fin 1))).toInt.toNat (T - 1), by omega⟩ m (0 : Fin 1)) := by
  unfold Host.gather
  congr 1
  funext a
  refine Fin.ext ?_
  show (slabDims T R M wf).start (ix4 (0 : Fin 1) r m (0 : Fin 1)) idx a
    + (slabDims T R M wf).batchCoord (ix4 (0 : Fin 1) r m (0 : Fin 1)) a
    + (slabDims T R M wf).offCoord (ix4 (0 : Fin 1) r m (0 : Fin 1)) a = _
  rw [GatherDims.batchCoord_eq_zero _ _ _ List.not_mem_nil, Nat.add_zero]
  match a with
  | ⟨0, h0⟩ =>
    have hm : (⟨0, h0⟩ : Fin (Shape.rank ⟨3, ![T, M, 1]⟩)) ∈ (slabDims T R M wf).startIndexMap :=
      List.mem_singleton.mpr rfl
    unfold GatherDims.start
    rw [dif_pos hm]
    have hsi : (slabDims T R M wf).siIdx (ix4 (0 : Fin 1) r m (0 : Fin 1))
        ⟨List.idxOf (⟨0, h0⟩ : Fin (Shape.rank ⟨3, ![T, M, 1]⟩)) (slabDims T R M wf).startIndexMap,
          List.idxOf_lt_length_iff.2 hm⟩ = ix3 (0 : Fin 1) r (0 : Fin 1) := by
      funext b; refine Fin.ext ?_
      match b with
      | ⟨0, _⟩ => rfl
      | ⟨1, _⟩ => rfl
      | ⟨2, _⟩ => rfl
    rw [hsi]
    rfl
  | ⟨1, _⟩ =>
    show (0 : Nat) + m.val = m.val
    exact Nat.zero_add _
  | ⟨2, _⟩ => rfl

end Cert.RefGather

end
-- ==== Proof.RefEnv.lean ====
/-
  The reference's normalised environment matrix, read at one entry.

  The reference gathers, for centre atom i and neighbour slot j, the three coordinates of the atom the neighbour list
  names, subtracts the centre's coordinates, takes the Euclidean length, turns it into (1 / len) times a switching
  weight, and normalises by the mean and standard deviation of the centre atom's type. Here every stage of that
  computation is read at the one index it concerns, and the result is the closed scalar formula of the eight numbers
  involved: entry (i, j, 0) of the normalised matrix is the environment entry of coord[3 * nlist[0, i, j] + 0, 1, 2],
  coord[3 * i + 0, 1, 2], mean[atype[0, i], j, 0] and std[atype[0, i], j, 0].

  The hypotheses are the ranges of the two integer arrays: every neighbour word reads, signed, in [0, 10239], and
  every atom-type word is 0 or 1. Under them the reference's guards are inert: "index ≥ 0" is true (so the list is
  used as it is, "+ [index < 0]" adds 0 and "* [index ≥ 0]" multiplies by 1), the wrap of a negative index is not
  taken, and the take's in-range test passes (so its not-a-number fill is never selected).
-/
import proofs.«205418_g46067819217304_cont_8to1_c_241_17_alg».proof.Proof.ReadP
import proofs.«205418_g46067819217304_cont_8to1_c_241_17_alg».proof.Proof.Descr
import proofs.«205418_g46067819217304_cont_8to1_c_241_17_alg».proof.Proof.RefGather
import Idealize.ShloMosaic.Lib.ValueIdx
import Idealize.ShloMosaic.Lib.Pipeline.Value
import Idealize.ShloMosaic.PureOps.Ideal.Laws

noncomputable section

namespace Cert.RefEnv

open Cert.ReferenceIdeal Cert.ReferenceIdeal.Gen Cert.ReferenceIdeal.ReadP Idealize.ShloMosaic Idealize.ShloMosaic.ValueIdx
open scoped BigOperators

/-! ## Names for the places read -/

/-- Word `3 a + c` of the flat coordinate array: coordinate `c` of atom `a`. -/
abbrev cIdx (a : Fin 10240) (c : Fin 3) : S1x30720.Idx :=
  ix2 (0 : Fin 1) (⟨3 * a.val + c.val, by have := a.isLt; have := c.isLt; omega⟩ : Fin 30720)

/-- A centre atom as an atom of the extended system: the same number. -/
def ctr (i : Fin 8192) : Fin 10240 := ⟨i.val, by have := i.isLt; omega⟩

/-- Row `p` of the flattened neighbour list is entry (p / 138, p % 138) of the list. -/
abbrev unflat (p : Fin 1130496) : S1x8192x138.Idx :=
  ix3 (0 : Fin 1) (⟨p.val / 138, by have := p.isLt; omega⟩ : Fin 8192) (⟨p.val % 138, Nat.mod_lt _ (by decide)⟩ : Fin 138)

/-- Entry (i, j) of the neighbour list sits at row 138 i + j of the flattened list. -/
abbrev flat (i : Fin 8192) (j : Fin 138) : Fin 1130496 :=
  ⟨i.val * 138 + j.val, by have := i.isLt; have := j.isLt; omega⟩

theorem unflat_flat (i : Fin 8192) (j : Fin 138) : unflat (flat i j) = ix3 (0 : Fin 1) i j := by
  funext a; refine Fin.ext ?_
  match a with
  | ⟨0, _⟩ => rfl
  | ⟨1, _⟩ => show (i.val * 138 + j.val) / 138 = i.val; have := j.isLt; omega
  | ⟨2, _⟩ => show (i.val * 138 + j.val) % 138 = j.val; have := j.isLt; omega

section
variable (x0 : FVec Ideal S1x30720 .f32) (x1 : IVec S1x10240 32) (x2 : IVec S1x8192x138 32)
  (x3 x4 : FVec Ideal S2x138x1 .f32)

/-- The atom that slot j of centre atom i names: the neighbour word read signed and clamped into [0, 10239]
    (the word itself when it is in range). -/
def nbr (i : Fin 8192) (j : Fin 138) : Fin 10240 :=
  ⟨min (x2 (ix3 (0 : Fin 1) i j)).toInt.toNat 10239, by omega⟩

/-- The type row of centre atom i: its type word read signed and clamped into [0, 1]. -/
def arow (i : Fin 8192) : Fin 2 :=
  ⟨min (x1 (ix2 (0 : Fin 1) (ctr i))).toInt.toNat 1, by omega⟩

/-- The distance between centre atom i and the atom in its slot j. -/
def len (i : Fin 8192) (j : Fin 138) : EReal :=
  Descr.dist (x0 (cIdx (nbr x2 i j) 0)) (x0 (cIdx (nbr x2 i j) 1)) (x0 (cIdx (nbr x2 i j) 2))
    (x0 (cIdx (ctr i) 0)) (x0 (cIdx (ctr i) 1)) (x0 (cIdx (ctr i) 2))

/-- In range, the clamp does nothing: the neighbour's number is the word's signed reading. -/
theorem nbr_val (hn : ∀ I : S1x8192x138.Idx, 0 ≤ (x2 I).toInt ∧ (x2 I).toInt ≤ 10239) (i : Fin 8192) (j : Fin 138) :
    (nbr x2 i j).val = (x2 (ix3 (0 : Fin 1) i j)).toInt.toNat := by
  have h := hn (ix3 (0 : Fin 1) i j)
  show min (x2 (ix3 (0 : Fin 1) i j)).toInt.toNat 10239 = (x2 (ix3 (0 : Fin 1) i j)).toInt.toNat
  omega

/-- A type word 0 names row 0 … -/
theorem arow_zero (i : Fin 8192) (h : x1 (ix2 (0 : Fin 1) (ctr i)) = 0#32) : arow x1 i = 0 := by
  refine Fin.ext ?_
  show min (x1 (ix2 (0 : Fin 1) (ctr i))).toInt.toNat 1 = 0
  rw [h] <;> decide

/-- … and a type word 1 names row 1. -/
theorem arow_one (i : Fin 8192) (h : x1 (ix2 (0 : Fin 1) (ctr i)) = 1#32) : arow x1 i = 1 := by
  refine Fin.ext ?_
  show min (x1 (ix2 (0 : Fin 1) (ctr i))).toInt.toNat 1 = 1
  rw [h] <;> decide

/-- A one-bit word as a float is its indicator. -/
theorem uitofp_bit (b : BitVec 1) : (FloatOps.uitofp (F := Ideal) .f32 b : EReal) = Descr.indicator b :=
  Descr.toNat_eq_indicator b

/-! ## The neighbour list behind its guards -/

section Nlist
variable (hn : ∀ I : S1x8192x138.Idx, 0 ≤ (x2 I).toInt ∧ (x2 I).toInt ≤ 10239)
include hn

/-- "index ≥ 0" holds at every entry. -/
theorem mask_read (I : S1x8192x138.Idx) : val_main_v2 (F := Ideal) x2 I = 1#1 := by
  rw [val_main_v2_apply, val_main_v1_apply, val_main_c_apply]
  exact RefGather.cmpi_sge_zero (hn I).1

/-- So the list with its negative entries replaced by 0 is the list. -/
theorem nlist_read (I : S1x8192x138.Idx) : val_main_v3 (F := Ideal) x2 I = x2 I := by
  rw [val_main_v3_apply, mask_read x2 hn I]
  exact select_one _ _

/-- The column of start indices the take reads: row p holds the list's entry (p / 138, p % 138); the wrap of a
    negative index is not taken. -/
theorem start_read (p : Fin 1130496) :
    val_main_call1_v5 (F := Ideal) x2 (ix2 p (0 : Fin 1)) = x2 (unflat p) := by
  have e5 : idx_main_call1_v5 (ix2 p (0 : Fin 1)) = ix3 (0 : Fin 1) p (0 : Fin 1) := by
    funext a; refine Fin.ext ?_
    match a with
    | ⟨0, _⟩ => rfl
    | ⟨1, _⟩ => show (p.val * 1 + 0) / 1 % 1130496 = p.val; have := p.isLt; omega
    | ⟨2, _⟩ => rfl
  have e7 : idx_main_v7 (ix3 (0 : Fin 1) p (0 : Fin 1)) = ix2 (0 : Fin 1) p := by
    funext a; refine Fin.ext ?_
    match a with
    | ⟨0, _⟩ => rfl
    | ⟨1, _⟩ => rfl
  have e6 : idx_main_v6 (ix2 (0 : Fin 1) p) = unflat p := by
    funext a; refine Fin.ext ?_
    match a with
    | ⟨0, _⟩ => rfl
    | ⟨1, _⟩ => show (0 * 1130496 + p.val) / 138 % 8192 = p.val / 138; have := p.isLt; omega
    | ⟨2, _⟩ => show (0 * 1130496 + p.val) % 138 = p.val % 138; omega
  rw [val_main_call1_v5_apply, e5, val_main_call1_v4_apply, val_main_call1_v1_apply, val_main_v7_apply, e7,
    val_main_v6_apply, e6, nlist_read x2 hn, val_main_call1_v0_apply, val_main_call1_c_apply,
    RefGather.cmpi_slt_zero (hn (unflat p)).1]
  exact select_zero _ _

/-- The take's in-range test passes at every row. -/
theorem inb_read (q : S1130496.Idx) : val_main_call1_v12 (F := Ideal) x2 q = 1#1 := by
  unfold val_main_call1_v12
  refine RefGather.reduce_andi_ones _ _ _ _ rfl (fun I => ?_) q
  obtain ⟨p, z, rfl⟩ : ∃ (p : Fin 1130496) (z : Fin 1), I = ix2 p z := ⟨I 0, I 1, eq_ix2 I⟩
  obtain rfl : z = 0 := Subsingleton.elim _ _
  rw [val_main_call1_v11_apply, val_main_call1_v7_apply, val_main_call1_v10_apply, start_read x2 hn p,
    val_main_call1_v6_apply, val_main_call1_c_2_apply, val_main_call1_v9_apply, val_main_call1_v8_apply,
    val_main_call1_c_1_apply, RefGather.cmpi_sge_zero (hn (unflat p)).1,
    RefGather.cmpi_sle_of_le (k := 10239#32) (c := 10239) (by decide) (hn (unflat p)).2]
  decide

/-- The take at (0, p, c): coordinate c of the atom row p names. -/
theorem take_read (p : Fin 1130496) (c : Fin 3) :
    val_main_v8 (F := Ideal) x0 x2 (ix3 (0 : Fin 1) p c)
      = x0 (cIdx ⟨min (x2 (unflat p)).toInt.toNat 10239, by omega⟩ c) := by
  rw [val_main_v8_apply, val_main_call1_v14_apply, inb_read x2 hn, select_one]
  unfold val_main_call1_v13
  refine (RefGather.gather_point_apply (N := 10240) (n := 1130496) (by decide) _ (val_main_v0 (F := Ideal) x0)
    (val_main_call1_v5 (F := Ideal) x2) p c).trans ?_
  rw [val_main_v0_apply]
  refine congrArg x0 ?_
  funext a; refine Fin.ext ?_
  match a with
  | ⟨0, _⟩ => rfl
  | ⟨1, _⟩ =>
    show ((0 * 10240 + min (val_main_call1_v5 (F := Ideal) x2 (ix2 p (0 : Fin 1))).toInt.toNat (10240 - 1)) * 3 + c.val) % 30720
      = 3 * min (x2 (unflat p)).toInt.toNat 10239 + c.val
    rw [start_read x2 hn p]
    have := c.isLt; omega

/-- The gathered neighbour coordinates at (0, i, j, c). -/
theorem nbr_read (i : Fin 8192) (j : Fin 138) (c : Fin 3) :
    val_main_v9 (F := Ideal) x0 x2 (ix4 (0 : Fin 1) i j c) = x0 (cIdx (nbr x2 i j) c) := by
  have e9 : idx_main_v9 (ix4 (0 : Fin 1) i j c) = ix3 (0 : Fin 1) (flat i j) c := by
    funext a; refine Fin.ext ?_
    match a with
    | ⟨0, _⟩ => rfl
    | ⟨1, _⟩ =>
      show (((0 * 8192 + i.val) * 138 + j.val) * 3 + c.val) / 3 % 1130496 = i.val * 138 + j.val
      have := i.isLt; have := j.isLt; have := c.isLt; omega
    | ⟨2, _⟩ =>
      show (((0 * 8192 + i.val) * 138 + j.val) * 3 + c.val) % 3 = c.val
      have := c.isLt; omega
  rw [val_main_v9_apply, e9, take_read x0 x2 hn]
  refine congrArg x0 ?_
  funext a; refine Fin.ext ?_
  match a with
  | ⟨0, _⟩ => rfl
  | ⟨1, _⟩ =>
    show 3 * min (x2 (unflat (flat i j))).toInt.toNat 10239 + c.val
      = 3 * min (x2 (ix3 (0 : Fin 1) i j)).toInt.toNat 10239 + c.val
    rw [unflat_flat]

end Nlist

/-- The centre's coordinates, broadcast along the slots, at (0, i, j, c). -/
theorem ctr_read (i : Fin 8192) (j : Fin 138) (c : Fin 3) :
    val_main_v10 (F := Ideal) x0 (ix4 (0 : Fin 1) i j c) = x0 (cIdx (ctr i) c) := by
  have e10 : idx_main_v10 (ix4 (0 : Fin 1) i j c) = ix4 (0 : Fin 1) i (0 : Fin 1) c := by
    funext a; refine Fin.ext ?_
    match a with
    | ⟨0, _⟩ => rfl
    | ⟨1, _⟩ => rfl
    | ⟨2, _⟩ => rfl
    | ⟨3, _⟩ => rfl
  have e5 : idx_main_v5 (ix4 (0 : Fin 1) i (0 : Fin 1) c) = ix3 (0 : Fin 1) i c := by
    funext a; refine Fin.ext ?_
    match a with
    | ⟨0, _⟩ => rfl
    | ⟨1, _⟩ =>
      show (((0 * 8192 + i.val) * 1 + 0) * 3 + c.val) / 3 % 8192 = i.val
      have := i.isLt; have := c.isLt; omega
    | ⟨2, _⟩ =>
      show (((0 * 8192 + i.val) * 1 + 0) * 3 + c.val) % 3 = c.val
      have := c.isLt; omega
  have e4 : idx_main_v4 (ix3 (0 : Fin 1) i c) = ix3 (0 : Fin 1) (ctr i) c := by
    funext a; refine Fin.ext ?_
    match a with
    | ⟨0, _⟩ => rfl
    | ⟨1, _⟩ => rfl
    | ⟨2, _⟩ => rfl
  rw [val_main_v10_apply, e10, val_main_v5_apply, e5, val_main_v4_apply, e4, val_main_v0_apply]
  refine congrArg x0 ?_
  funext a; refine Fin.ext ?_
  match a with
  | ⟨0, _⟩ => rfl
  | ⟨1, _⟩ =>
    show ((0 * 10240 + i.val) * 3 + c.val) % 30720 = 3 * i.val + c.val
    have := i.isLt; have := c.isLt; omega

/-! ## The distance -/

section Dist
variable (hn : ∀ I : S1x8192x138.Idx, 0 ≤ (x2 I).toInt ∧ (x2 I).toInt ≤ 10239)
include hn

/-- The coordinate differences at (0, i, j, c). -/
theorem diff_read (i : Fin 8192) (j : Fin 138) (c : Fin 3) :
    val_main_v11 (F := Ideal) x0 x2 (ix4 (0 : Fin 1) i j c) = x0 (cIdx (nbr x2 i j) c) - x0 (cIdx (ctr i) c) := by
  rw [val_main_v11_apply, nbr_read x0 x2 hn, ctr_read x0] <;> rfl

/-- The squared length at (0, i, j): the zero-started sum over the three coordinates of the squared differences. -/
theorem sq_read (i : Fin 8192) (j : Fin 138) :
    val_main_call2_v1 (F := Ideal) x0 x2 (ix3 (0 : Fin 1) i j)
      = (0 : EReal) + ∑ k : Fin 3, (x0 (cIdx (nbr x2 i j) k) - x0 (cIdx (ctr i) k))
          * (x0 (cIdx (nbr x2 i j) k) - x0 (cIdx (ctr i) k)) := by
  have e1 : ∀ k : Fin 3, idx_main_call2_v1 (ix3 (0 : Fin 1) i j) k = ix4 (0 : Fin 1) i j k := by
    intro k; funext a; refine Fin.ext ?_
    match a with
    | ⟨0, _⟩ => rfl
    | ⟨1, _⟩ => rfl
    | ⟨2, _⟩ => rfl
    | ⟨3, _⟩ => rfl
  rw [val_main_call2_v1_apply, val_main_call2_cst_apply]
  refine congrArg₂ (fun a b : EReal => a + b) Ideal.ofBits_zero_f32 (Finset.sum_congr rfl fun k _ => ?_)
  rw [e1 k, val_main_call2_v0_apply, diff_read x0 x2 hn i j k] <;> rfl

/-- The length the reference divides by, at (0, i, j, 0): the distance plus the indicator of a false bit. -/
theorem len_read (i : Fin 8192) (j : Fin 138) :
    val_main_v16 (F := Ideal) x0 x2 (ix4 (0 : Fin 1) i j (0 : Fin 1)) = len x0 x2 i j + Descr.indicator 0#1 := by
  have e2 : idx_main_call2_v2 (ix4 (0 : Fin 1) i j (0 : Fin 1)) = ix3 (0 : Fin 1) i j := by
    funext a; refine Fin.ext ?_
    match a with
    | ⟨0, _⟩ => rfl
    | ⟨1, _⟩ => rfl
    | ⟨2, _⟩ => rfl
  have e14 : idx_main_v14 (ix4 (0 : Fin 1) i j (0 : Fin 1)) = ix3 (0 : Fin 1) i j := by
    funext a; refine Fin.ext ?_
    match a with
    | ⟨0, _⟩ => rfl
    | ⟨1, _⟩ => rfl
    | ⟨2, _⟩ => rfl
  rw [val_main_v16_apply, val_main_v12_apply, val_main_call2_v2_apply, e2, sq_read x0 x2 hn i j,
    val_main_v15_apply, val_main_v14_apply, e14, val_main_v13_apply, mask_read x2 hn, uitofp_bit,
    show (~~~(1#1 : BitVec 1)) = 0#1 from by decide]
  exact congrArg (fun t : EReal => t + Descr.indicator 0#1)
    (Descr.dist_eq_of_sum _ _ _ _ _ _ (fun k => x0 (cIdx (nbr x2 i j) k) - x0 (cIdx (ctr i) k)) rfl rfl rfl)

/-! ## The switched inverse distance -/

/-- (1 / len') · (sw(len') · 1) at (0, i, j, 0), len' the length the reference divides by: the long pointwise
    stretch of the reference is the switching weight's formula, operation for operation. -/
theorem raw_read (i : Fin 8192) (j : Fin 138) :
    val_main_v51 (F := Ideal) x0 x2 (ix4 (0 : Fin 1) i j (0 : Fin 1))
      = Ideal.div (Ideal.ofBits .f32 0x3F800000#32) (val_main_v16 (F := Ideal) x0 x2 (ix4 (0 : Fin 1) i j (0 : Fin 1)))
        * (Descr.switchWeight (val_main_v16 (F := Ideal) x0 x2 (ix4 (0 : Fin 1) i j (0 : Fin 1))) * Descr.indicator 1#1) := by
  have e48 : idx_main_v48 (ix4 (0 : Fin 1) i j (0 : Fin 1)) = ix3 (0 : Fin 1) i j := by
    funext a; refine Fin.ext ?_
    match a with
    | ⟨0, _⟩ => rfl
    | ⟨1, _⟩ => rfl
    | ⟨2, _⟩ => rfl
  rw [val_main_v51_apply, val_main_v18_apply, val_main_v17_apply, val_main_cst_apply,
    val_main_v50_apply, val_main_v49_apply, val_main_v48_apply, e48, mask_read x2 hn, uitofp_bit,
    val_main_v47_apply, val_main_v46_apply, val_main_v45_apply, val_main_v43_apply, val_main_v34_apply,
    val_main_v33_apply, val_main_v42_apply, val_main_v40_apply, val_main_v37_apply, val_main_v36_apply,
    val_main_v35_apply, val_main_cst_8_apply, val_main_v39_apply, val_main_v38_apply, val_main_cst_9_apply,
    val_main_v41_apply, val_main_cst_10_apply, val_main_v44_apply, val_main_cst_11_apply,
    val_main_v32_apply, val_main_v30_apply, val_main_v29_apply, val_main_cst_6_apply, val_main_v31_apply,
    val_main_cst_7_apply, val_main_v28_apply, val_main_v27_apply, val_main_cst_5_apply, val_main_v26_apply,
    val_main_call3_v4_apply, val_main_call3_v3_apply, val_main_cst_4_apply, val_main_call3_v2_apply,
    val_main_call3_v1_apply, val_main_call3_v0_apply, val_main_cst_3_apply, val_main_v25_apply,
    val_main_v24_apply, val_main_v23_apply, val_main_v22_apply, val_main_cst_2_apply, val_main_v21_apply,
    val_main_v20_apply, val_main_v19_apply, val_main_cst_1_apply, uitofp_bit, uitofp_bit]
  generalize val_main_v16 (F := Ideal) x0 x2 (ix4 (0 : Fin 1) i j (0 : Fin 1)) = L
  rfl

end Dist

/-! ## The mean and the standard deviation of the centre atom's type -/

section Types
variable (ha : ∀ I : S1x10240.Idx, x1 I = 0#32 ∨ x1 I = 1#32)
include ha

/-- A type word is not negative. -/
theorem type_nonneg (I : S1x10240.Idx) : IntOp.cmpi .slt (x1 I) 0#32 = 0#1 := by
  rcases ha I with h | h <;> rw [h] <;> decide

/-- The row index the mean's gather uses for centre atom i: its type word (no wrap of a negative index). -/
theorem type_read_mean (i : Fin 8192) :
    val_main_v58 (F := Ideal) x1 (ix3 (0 : Fin 1) i (0 : Fin 1)) = x1 (ix2 (0 : Fin 1) (ctr i)) := by
  have e58 : idx_main_v58 (ix3 (0 : Fin 1) i (0 : Fin 1)) = ix2 (0 : Fin 1) i := by
    funext a; refine Fin.ext ?_
    match a with
    | ⟨0, _⟩ => rfl
    | ⟨1, _⟩ => rfl
  have e52 : idx_main_v52 (ix2 (0 : Fin 1) i) = ix2 (0 : Fin 1) (ctr i) := by
    funext a; refine Fin.ext ?_
    match a with
    | ⟨0, _⟩ => rfl
    | ⟨1, _⟩ => rfl
  rw [val_main_v58_apply, e58, val_main_v57_apply, val_main_v54_apply, val_main_v52_apply, e52,
    val_main_v53_apply, val_main_c_12_apply, type_nonneg x1 ha]
  exact select_zero _ _

/-- The same for the standard deviation's gather. -/
theorem type_read_std (i : Fin 8192) :
    val_main_v65 (F := Ideal) x1 (ix3 (0 : Fin 1) i (0 : Fin 1)) = x1 (ix2 (0 : Fin 1) (ctr i)) := by
  have e65 : idx_main_v65 (ix3 (0 : Fin 1) i (0 : Fin 1)) = ix2 (0 : Fin 1) i := by
    funext a; refine Fin.ext ?_
    match a with
    | ⟨0, _⟩ => rfl
    | ⟨1, _⟩ => rfl
  have e52 : idx_main_v52 (ix2 (0 : Fin 1) i) = ix2 (0 : Fin 1) (ctr i) := by
    funext a; refine Fin.ext ?_
    match a with
    | ⟨0, _⟩ => rfl
    | ⟨1, _⟩ => rfl
  rw [val_main_v65_apply, e65, val_main_v64_apply, val_main_v61_apply, val_main_v52_apply, e52,
    val_main_v60_apply, val_main_c_14_apply, type_nonneg x1 ha]
  exact select_zero _ _

/-- The mean gathered for (i, j): entry (type of i, j, 0) of the table of means. -/
theorem mean_read (i : Fin 8192) (j : Fin 138) :
    val_main_v59 (F := Ideal) x1 x3 (ix4 (0 : Fin 1) i j (0 : Fin 1)) = x3 (ix3 (arow x1 i) j (0 : Fin 1)) := by
  unfold val_main_v59
  refine (RefGather.gather_slab_apply (T := 2) (R := 8192) (M := 138) (by decide) _ x3
    (val_main_v58 (F := Ideal) x1) i j).trans ?_
  refine congrArg x3 ?_
  funext a; refine Fin.ext ?_
  match a with
  | ⟨0, _⟩ =>
    show min (val_main_v58 (F := Ideal) x1 (ix3 (0 : Fin 1) i (0 : Fin 1))).toInt.toNat 1
      = min (x1 (ix2 (0 : Fin 1) (ctr i))).toInt.toNat 1
    rw [type_read_mean x1 ha i]
  | ⟨1, _⟩ => rfl
  | ⟨2, _⟩ => rfl

/-- The standard deviation gathered for (i, j): entry (type of i, j, 0) of the table of deviations. -/
theorem std_read (i : Fin 8192) (j : Fin 138) :
    val_main_v66 (F := Ideal) x1 x4 (ix4 (0 : Fin 1) i j (0 : Fin 1)) = x4 (ix3 (arow x1 i) j (0 : Fin 1)) := by
  unfold val_main_v66
  refine (RefGather.gather_slab_apply (T := 2) (R := 8192) (M := 138) (by decide) _ x4
    (val_main_v65 (F := Ideal) x1) i j).trans ?_
  refine congrArg x4 ?_
  funext a; refine Fin.ext ?_
  match a with
  | ⟨0, _⟩ =>
    show min (val_main_v65 (F := Ideal) x1 (ix3 (0 : Fin 1) i (0 : Fin 1))).toInt.toNat 1
      = min (x1 (ix2 (0 : Fin 1) (ctr i))).toInt.toNat 1
    rw [type_read_std x1 ha i]
  | ⟨1, _⟩ => rfl
  | ⟨2, _⟩ => rfl

end Types

/-! ## The normalised entry -/

/-- ENTRY (i, j, 0) OF THE NORMALISED ENVIRONMENT MATRIX: the environment entry of the neighbour's and the centre's
    coordinates with the mean and the standard deviation of the centre's type, slot j. -/
theorem env_read (hn : ∀ I : S1x8192x138.Idx, 0 ≤ (x2 I).toInt ∧ (x2 I).toInt ≤ 10239)
    (ha : ∀ I : S1x10240.Idx, x1 I = 0#32 ∨ x1 I = 1#32) (i : Fin 8192) (j : Fin 138) :
    val_main_v69 (F := Ideal) x0 x1 x2 x3 x4 (ix3 i j (0 : Fin 1))
      = Descr.envEntry (x0 (cIdx (nbr x2 i j) 0)) (x0 (cIdx (nbr x2 i j) 1)) (x0 (cIdx (nbr x2 i j) 2))
          (x0 (cIdx (ctr i) 0)) (x0 (cIdx (ctr i) 1)) (x0 (cIdx (ctr i) 2))
          (x3 (ix3 (arow x1 i) j (0 : Fin 1))) (x4 (ix3 (arow x1 i) j (0 : Fin 1))) := by
  have e69 : idx_main_v69 (ix3 i j (0 : Fin 1)) = (ix4 (0 : Fin 1) i j (0 : Fin 1)) := by
    funext a; refine Fin.ext ?_
    match a with
    | ⟨0, _⟩ => rfl
    | ⟨1, _⟩ =>
      show ((i.val * 138 + j.val) * 1 + 0) / 138 % 8192 = i.val
      have := i.isLt; have := j.isLt; omega
    | ⟨2, _⟩ =>
      show ((i.val * 138 + j.val) * 1 + 0) / 1 % 138 = j.val
      have := j.isLt; omega
    | ⟨3, _⟩ => rfl
  rw [val_main_v69_apply, e69, val_main_v68_apply, val_main_v67_apply, raw_read x0 x2 hn i j,
    len_read x0 x2 hn i j, mean_read x1 x3 ha i j, std_read x1 x4 ha i j]
  exact Descr.envEntry_eq_masked _ _ _ _ _ _ _ _

end

end Cert.RefEnv

end
-- ==== Proof.RefNet.lean ====
import proofs.«205418_g46067819217304_cont_8to1_c_241_17_alg».proof.Proof.ReadP
import proofs.«205418_g46067819217304_cont_8to1_c_241_17_alg».proof.Proof.Descr
import Idealize.ShloMosaic.Lib.Pipeline.Value
import Idealize.ShloMosaic.Lib.ValueIdx
import Idealize.ShloMosaic.PureOps.Ideal.Laws
import Mathlib.Algebra.BigOperators.Fin

/-!
# The reference's embedding nets and final mean, read at an index

From the normalised environment matrix (8192 atoms, 138 neighbour slots) to the result
(8192 atoms, 100 features): each slot's entry goes through a three-layer net with two
residual connections (the net of the slot's type), the features are averaged over the
46 slots of the first type and over the 92 of the second, and the two means are combined
with the shares 46/138 and 92/138 and scaled by 1/5.
-/

noncomputable section

namespace Cert.RefNet

open Cert.ReferenceIdeal Cert.ReferenceIdeal.Gen Cert.ReferenceIdeal.ReadP
open Idealize.ShloMosaic Idealize.ShloMosaic.ValueIdx Idealize.ShloMosaic.StableHlo
open scoped BigOperators

/-! ## Indices are their coordinates -/

/-- Two indices of a rank-1 array with the same coordinate are equal. -/
theorem idx1_ext {n0 : Nat} (p q : (⟨1, ![n0]⟩ : Shape).Idx) (h0 : (p 0).val = (q 0).val) : p = q :=
  funext fun d => Fin.ext (by match d with | ⟨0, _⟩ => exact h0)

/-- Two indices of a rank-2 array with the same coordinates are equal. -/
theorem idx2_ext {n0 n1 : Nat} (p q : (⟨2, ![n0, n1]⟩ : Shape).Idx)
    (h0 : (p 0).val = (q 0).val) (h1 : (p 1).val = (q 1).val) : p = q :=
  funext fun d => Fin.ext (by match d with | ⟨0, _⟩ => exact h0 | ⟨1, _⟩ => exact h1)

/-- Two indices of a rank-3 array with the same coordinates are equal. -/
theorem idx3_ext {n0 n1 n2 : Nat} (p q : (⟨3, ![n0, n1, n2]⟩ : Shape).Idx)
    (h0 : (p 0).val = (q 0).val) (h1 : (p 1).val = (q 1).val) (h2 : (p 2).val = (q 2).val) : p = q :=
  funext fun d => Fin.ext (by match d with | ⟨0, _⟩ => exact h0 | ⟨1, _⟩ => exact h1 | ⟨2, _⟩ => exact h2)

/-! ## An array joined with itself along its last axis -/

/-- A rank-3 array joined with itself along its last axis, read at an index: the entry at
    coordinate c of the doubled axis is the entry at c mod C of the array. -/
theorem concat_self_apply {α : Type} {A B C T : Nat} (hC : 0 < C) (hT : T = C + C)
    (x : (⟨3, ![A, B, C]⟩ : Shape).Idx → α)
    (h : Shape.Concatenates [(⟨3, ![A, B, C]⟩ : Shape), (⟨3, ![A, B, C]⟩ : Shape)] (⟨3, ![A, B, T]⟩ : Shape) 2)
    (i : Fin A) (j : Fin B) (c : Fin T) :
    concatenate (⟨3, ![A, B, T]⟩ : Shape) 2
        [⟨(⟨3, ![A, B, C]⟩ : Shape), x⟩, ⟨(⟨3, ![A, B, C]⟩ : Shape), x⟩] h (ix3 i j c)
      = x (ix3 i j ⟨c.val % C, Nat.mod_lt _ hC⟩) := by
  by_cases hc : c.val < C
  · refine concatenate_pair_apply_left (2 : Fin 3) x x h (ix3 i j c) rfl _ (fun b => ?_)
    match b with
    | ⟨0, _⟩ => rfl
    | ⟨1, _⟩ => rfl
    | ⟨2, _⟩ => exact Nat.mod_eq_of_lt hc
  · have hc2 : c.val < C + C := hT ▸ c.isLt
    refine concatenate_pair_apply_right (2 : Fin 3) x x h (ix3 i j c) rfl rfl _ (fun b hb => ?_) ?_
    · match b with
      | ⟨0, _⟩ => rfl
      | ⟨1, _⟩ => rfl
      | ⟨2, _⟩ => exact absurd (Fin.ext rfl) hb
    · show c.val % C + C = c.val
      have hm : c.val % C = c.val - C := by
        rw [Nat.mod_eq_sub_mod (Nat.le_of_not_lt hc), Nat.mod_eq_of_lt (by omega)]
      omega

/-! ## The weights and the entries -/

/-- The six weight arrays of one embedding net, entry by entry. -/
def netOf (w0 : Vec Ideal ⟨2, ![1, 25]⟩ .f32) (b0 : Vec Ideal ⟨1, ![25]⟩ .f32)
    (w1 : Vec Ideal ⟨2, ![25, 50]⟩ .f32) (b1 : Vec Ideal ⟨1, ![50]⟩ .f32)
    (w2 : Vec Ideal ⟨2, ![50, 100]⟩ .f32) (b2 : Vec Ideal ⟨1, ![100]⟩ .f32) : Descr.Net where
  w0 := fun a => w0 (ix2 0 a)
  b0 := fun a => b0 (ix1 a)
  w1 := fun a b => w1 (ix2 a b)
  b1 := fun b => b1 (ix1 b)
  w2 := fun b c => w2 (ix2 b c)
  b2 := fun c => b2 (ix1 c)

/-- Neighbour slot j of the first type, among all 138 slots. -/
def slot0 (j : Fin 46) : Fin 138 := ⟨j.val, by omega⟩
/-- Neighbour slot j of the second type, among all 138 slots: the 46 slots of the first type come before it. -/
def slot1 (j : Fin 92) : Fin 138 := ⟨46 + j.val, by omega⟩

section

variable (x0 : (⟨S1x30720, .f32⟩ : BufTy).Contents (Elt Ideal)) (x1 : (⟨S1x10240, .i32⟩ : BufTy).Contents (Elt Ideal))
  (x2 : (⟨S1x8192x138, .i32⟩ : BufTy).Contents (Elt Ideal)) (x3 x4 : (⟨S2x138x1, .f32⟩ : BufTy).Contents (Elt Ideal))
  (w0 : (⟨S1x25, .f32⟩ : BufTy).Contents (Elt Ideal)) (b0 : (⟨S25, .f32⟩ : BufTy).Contents (Elt Ideal))
  (w1 : (⟨S25x50, .f32⟩ : BufTy).Contents (Elt Ideal)) (b1 : (⟨S50, .f32⟩ : BufTy).Contents (Elt Ideal))
  (w2 : (⟨S50x100, .f32⟩ : BufTy).Contents (Elt Ideal)) (b2 : (⟨S100, .f32⟩ : BufTy).Contents (Elt Ideal))

/-- The normalised environment entry of atom i and neighbour slot j, as the reference computes it. -/
def entry (i : Fin 8192) (j : Fin 138) : EReal :=
  val_main_v69 (F := Ideal) x0 x1 x2 x3 x4 (ix3 i j 0)

/-! ## The net of the first slot type, layer by layer -/

/-- First layer: the hyperbolic tangent of the entry times the first weight row plus the bias. -/
theorem first0 (i : Fin 8192) (j : Fin 46) (a : Fin 25) :
    val_main_v76 (F := Ideal) x0 x1 x2 x3 x4 w0 b0 (ix3 i j a)
      = (netOf w0 b0 w1 b1 w2 b2).t1 (entry x0 x1 x2 x3 x4 i (slot0 j)) a := by
  rw [val_main_v76_apply, val_main_v75_apply, val_main_v72_apply, val_main_v74_apply, val_main_v73_apply,
    Fin.sum_univ_one, val_main_v71_apply]
  have e1 : idx_main_v71 (lidx_main_v72 (ix3 i j a) 0) = ix3 i (slot0 j) 0 := idx3_ext _ _ rfl rfl rfl
  have e2 : ridx_main_v72 (ix3 i j a) 0 = ix2 0 a := idx2_ext _ _ rfl rfl
  have e3 : idx_main_v73 (idx_main_v74 (ix3 i j a)) = ix1 a := idx1_ext _ _ rfl
  rw [e1, e2, e3]
  rfl

/-- Second layer before its residual. -/
theorem second0 (i : Fin 8192) (j : Fin 46) (b : Fin 50) :
    val_main_v81 (F := Ideal) x0 x1 x2 x3 x4 w0 b0 w1 b1 (ix3 i j b)
      = (netOf w0 b0 w1 b1 w2 b2).t2 (entry x0 x1 x2 x3 x4 i (slot0 j)) b := by
  rw [val_main_v81_apply, val_main_v80_apply, val_main_v77_apply, val_main_v79_apply, val_main_v78_apply]
  have el : ∀ k : Fin 25, lidx_main_v77 (ix3 i j b) k = ix3 i j k := fun k => idx3_ext _ _ rfl rfl rfl
  have er : ∀ k : Fin 25, ridx_main_v77 (ix3 i j b) k = ix2 k b := fun k => idx2_ext _ _ rfl rfl
  have eb : idx_main_v78 (idx_main_v79 (ix3 i j b)) = ix1 b := idx1_ext _ _ rfl
  simp only [el, er, eb, first0 x0 x1 x2 x3 x4 w0 b0 w1 b1 w2 b2]
  rfl

/-- Second layer with its residual: the first layer laid twice side by side is added. -/
theorem resid0 (i : Fin 8192) (j : Fin 46) (b : Fin 50) :
    val_main_v83 (F := Ideal) x0 x1 x2 x3 x4 w0 b0 w1 b1 (ix3 i j b)
      = (netOf w0 b0 w1 b1 w2 b2).x2 (entry x0 x1 x2 x3 x4 i (slot0 j)) b := by
  have e : val_main_v82 (F := Ideal) x0 x1 x2 x3 x4 w0 b0 (ix3 i j b)
      = val_main_v76 (F := Ideal) x0 x1 x2 x3 x4 w0 b0 (ix3 i j (Descr.mod25of50 b)) := by
    unfold val_main_v82
    exact concat_self_apply (A := 8192) (B := 46) (C := 25) (T := 50) (by decide) rfl _ _ i j b
  rw [val_main_v83_apply, second0 x0 x1 x2 x3 x4 w0 b0 w1 b1 w2 b2, e, first0 x0 x1 x2 x3 x4 w0 b0 w1 b1 w2 b2]
  rfl

/-- Third layer before its residual. -/
theorem third0 (i : Fin 8192) (j : Fin 46) (c : Fin 100) :
    val_main_v88 (F := Ideal) x0 x1 x2 x3 x4 w0 b0 w1 b1 w2 b2 (ix3 i j c)
      = Ideal.tanh ((∑ b, (netOf w0 b0 w1 b1 w2 b2).x2 (entry x0 x1 x2 x3 x4 i (slot0 j)) b
          * (netOf w0 b0 w1 b1 w2 b2).w2 b c) + (netOf w0 b0 w1 b1 w2 b2).b2 c) := by
  rw [val_main_v88_apply, val_main_v87_apply, val_main_v84_apply, val_main_v86_apply, val_main_v85_apply]
  have el : ∀ k : Fin 50, lidx_main_v84 (ix3 i j c) k = ix3 i j k := fun k => idx3_ext _ _ rfl rfl rfl
  have er : ∀ k : Fin 50, ridx_main_v84 (ix3 i j c) k = ix2 k c := fun k => idx2_ext _ _ rfl rfl
  have eb : idx_main_v85 (idx_main_v86 (ix3 i j c)) = ix1 c := idx1_ext _ _ rfl
  simp only [el, er, eb, resid0 x0 x1 x2 x3 x4 w0 b0 w1 b1 w2 b2]
  rfl

/-- The feature of one slot: third layer with its residual. -/
theorem feature0 (i : Fin 8192) (j : Fin 46) (c : Fin 100) :
    val_main_v90 (F := Ideal) x0 x1 x2 x3 x4 w0 b0 w1 b1 w2 b2 (ix3 i j c)
      = (netOf w0 b0 w1 b1 w2 b2).y3 (entry x0 x1 x2 x3 x4 i (slot0 j)) c := by
  have e : val_main_v89 (F := Ideal) x0 x1 x2 x3 x4 w0 b0 w1 b1 (ix3 i j c)
      = val_main_v83 (F := Ideal) x0 x1 x2 x3 x4 w0 b0 w1 b1 (ix3 i j (Descr.mod50 c)) := by
    unfold val_main_v89
    exact concat_self_apply (A := 8192) (B := 46) (C := 50) (T := 100) (by decide) rfl _ _ i j c
  rw [val_main_v90_apply, third0 x0 x1 x2 x3 x4 w0 b0 w1 b1 w2 b2, e, resid0 x0 x1 x2 x3 x4 w0 b0 w1 b1 w2 b2]
  rfl

/-- The mean over the 46 slots of the first type, scaled by its share, on top of the zero array. -/
theorem mean0 (i : Fin 8192) (z : Fin 1) (c : Fin 100) :
    val_main_v97 (F := Ideal) x0 x1 x2 x3 x4 w0 b0 w1 b1 w2 b2 (ix3 i z c)
      = (0 : EReal) + Ideal.div (∑ j : Fin 46, (netOf w0 b0 w1 b1 w2 b2).y3 (entry x0 x1 x2 x3 x4 i (slot0 j)) c)
          (Ideal.ofBits .f32 0x42380000#32) * Ideal.ofBits .f32 0x3EAAAAAB#32 := by
  rw [val_main_v97_apply, val_main_v70_apply, val_main_cst_16_apply, val_main_v96_apply, val_main_v94_apply,
    val_main_v92_apply, val_main_v91_apply, val_main_cst_17_apply, val_main_v93_apply, val_main_cst_18_apply,
    val_main_v95_apply, val_main_cst_19_apply]
  have e : ∀ k : Fin 46, idx_main_v91 (idx_main_v92 (ix3 i z c)) k = ix3 i k c :=
    fun k => idx3_ext _ _ rfl rfl rfl
  simp only [e, feature0 x0 x1 x2 x3 x4 w0 b0 w1 b1 w2 b2, Ideal.ofBits_def, Ideal.addf_def, Ideal.mulf_def,
    Ideal.hostDivf_def, Ideal.ofBits_zero_f32, zero_add]

/-! ## The net of the second slot type, layer by layer -/

/-- First layer. -/
theorem first1 (i : Fin 8192) (j : Fin 92) (a : Fin 25) :
    val_main_v103 (F := Ideal) x0 x1 x2 x3 x4 w0 b0 (ix3 i j a)
      = (netOf w0 b0 w1 b1 w2 b2).t1 (entry x0 x1 x2 x3 x4 i (slot1 j)) a := by
  rw [val_main_v103_apply, val_main_v102_apply, val_main_v99_apply, val_main_v101_apply, val_main_v100_apply,
    Fin.sum_univ_one, val_main_v98_apply]
  have e1 : idx_main_v98 (lidx_main_v99 (ix3 i j a) 0) = ix3 i (slot1 j) 0 := idx3_ext _ _ rfl rfl rfl
  have e2 : ridx_main_v99 (ix3 i j a) 0 = ix2 0 a := idx2_ext _ _ rfl rfl
  have e3 : idx_main_v100 (idx_main_v101 (ix3 i j a)) = ix1 a := idx1_ext _ _ rfl
  rw [e1, e2, e3]
  rfl

/-- Second layer before its residual. -/
theorem second1 (i : Fin 8192) (j : Fin 92) (b : Fin 50) :
    val_main_v108 (F := Ideal) x0 x1 x2 x3 x4 w0 b0 w1 b1 (ix3 i j b)
      = (netOf w0 b0 w1 b1 w2 b2).t2 (entry x0 x1 x2 x3 x4 i (slot1 j)) b := by
  rw [val_main_v108_apply, val_main_v107_apply, val_main_v104_apply, val_main_v106_apply, val_main_v105_apply]
  have el : ∀ k : Fin 25, lidx_main_v104 (ix3 i j b) k = ix3 i j k := fun k => idx3_ext _ _ rfl rfl rfl
  have er : ∀ k : Fin 25, ridx_main_v104 (ix3 i j b) k = ix2 k b := fun k => idx2_ext _ _ rfl rfl
  have eb : idx_main_v105 (idx_main_v106 (ix3 i j b)) = ix1 b := idx1_ext _ _ rfl
  simp only [el, er, eb, first1 x0 x1 x2 x3 x4 w0 b0 w1 b1 w2 b2]
  rfl

/-- Second layer with its residual. -/
theorem resid1 (i : Fin 8192) (j : Fin 92) (b : Fin 50) :
    val_main_v110 (F := Ideal) x0 x1 x2 x3 x4 w0 b0 w1 b1 (ix3 i j b)
      = (netOf w0 b0 w1 b1 w2 b2).x2 (entry x0 x1 x2 x3 x4 i (slot1 j)) b := by
  have e : val_main_v109 (F := Ideal) x0 x1 x2 x3 x4 w0 b0 (ix3 i j b)
      = val_main_v103 (F := Ideal) x0 x1 x2 x3 x4 w0 b0 (ix3 i j (Descr.mod25of50 b)) := by
    unfold val_main_v109
    exact concat_self_apply (A := 8192) (B := 92) (C := 25) (T := 50) (by decide) rfl _ _ i j b
  rw [val_main_v110_apply, second1 x0 x1 x2 x3 x4 w0 b0 w1 b1 w2 b2, e, first1 x0 x1 x2 x3 x4 w0 b0 w1 b1 w2 b2]
  rfl

/-- Third layer before its residual. -/
theorem third1 (i : Fin 8192) (j : Fin 92) (c : Fin 100) :
    val_main_v115 (F := Ideal) x0 x1 x2 x3 x4 w0 b0 w1 b1 w2 b2 (ix3 i j c)
      = Ideal.tanh ((∑ b, (netOf w0 b0 w1 b1 w2 b2).x2 (entry x0 x1 x2 x3 x4 i (slot1 j)) b
          * (netOf w0 b0 w1 b1 w2 b2).w2 b c) + (netOf w0 b0 w1 b1 w2 b2).b2 c) := by
  rw [val_main_v115_apply, val_main_v114_apply, val_main_v111_apply, val_main_v113_apply, val_main_v112_apply]
  have el : ∀ k : Fin 50, lidx_main_v111 (ix3 i j c) k = ix3 i j k := fun k => idx3_ext _ _ rfl rfl rfl
  have er : ∀ k : Fin 50, ridx_main_v111 (ix3 i j c) k = ix2 k c := fun k => idx2_ext _ _ rfl rfl
  have eb : idx_main_v112 (idx_main_v113 (ix3 i j c)) = ix1 c := idx1_ext _ _ rfl
  simp only [el, er, eb, resid1 x0 x1 x2 x3 x4 w0 b0 w1 b1 w2 b2]
  rfl

/-- The feature of one slot. -/
theorem feature1 (i : Fin 8192) (j : Fin 92) (c : Fin 100) :
    val_main_v117 (F := Ideal) x0 x1 x2 x3 x4 w0 b0 w1 b1 w2 b2 (ix3 i j c)
      = (netOf w0 b0 w1 b1 w2 b2).y3 (entry x0 x1 x2 x3 x4 i (slot1 j)) c := by
  have e : val_main_v116 (F := Ideal) x0 x1 x2 x3 x4 w0 b0 w1 b1 (ix3 i j c)
      = val_main_v110 (F := Ideal) x0 x1 x2 x3 x4 w0 b0 w1 b1 (ix3 i j (Descr.mod50 c)) := by
    unfold val_main_v116
    exact concat_self_apply (A := 8192) (B := 92) (C := 50) (T := 100) (by decide) rfl _ _ i j c
  rw [val_main_v117_apply, third1 x0 x1 x2 x3 x4 w0 b0 w1 b1 w2 b2, e, resid1 x0 x1 x2 x3 x4 w0 b0 w1 b1 w2 b2]
  rfl

/-- The mean over the 92 slots of the second type, scaled by its share. -/
theorem mean1 (i : Fin 8192) (z : Fin 1) (c : Fin 100) :
    val_main_v123 (F := Ideal) x0 x1 x2 x3 x4 w0 b0 w1 b1 w2 b2 (ix3 i z c)
      = Ideal.div (∑ j : Fin 92, (netOf w0 b0 w1 b1 w2 b2).y3 (entry x0 x1 x2 x3 x4 i (slot1 j)) c)
          (Ideal.ofBits .f32 0x42B80000#32) * Ideal.ofBits .f32 0x3F2AAAAB#32 := by
  rw [val_main_v123_apply, val_main_v121_apply, val_main_v119_apply, val_main_v118_apply, val_main_cst_20_apply,
    val_main_v120_apply, val_main_cst_21_apply, val_main_v122_apply, val_main_cst_22_apply]
  have e : ∀ k : Fin 92, idx_main_v118 (idx_main_v119 (ix3 i z c)) k = ix3 i k c :=
    fun k => idx3_ext _ _ rfl rfl rfl
  simp only [e, feature1 x0 x1 x2 x3 x4 w0 b0 w1 b1 w2 b2, Ideal.ofBits_def, Ideal.mulf_def,
    Ideal.hostDivf_def, Ideal.ofBits_zero_f32, zero_add]

end

/-! ## The result -/

/-- The reference's result at atom i and feature c is the weighted mean, over the 46 + 92 neighbour
    slots of atom i, of the features the two embedding nets give the normalised environment entries. -/
theorem result_at (x0 : (⟨S1x30720, .f32⟩ : BufTy).Contents (Elt Ideal)) (x1 : (⟨S1x10240, .i32⟩ : BufTy).Contents (Elt Ideal))
    (x2 : (⟨S1x8192x138, .i32⟩ : BufTy).Contents (Elt Ideal)) (x3 x4 : (⟨S2x138x1, .f32⟩ : BufTy).Contents (Elt Ideal))
    (x5 : (⟨S1x25, .f32⟩ : BufTy).Contents (Elt Ideal)) (x6 : (⟨S25, .f32⟩ : BufTy).Contents (Elt Ideal))
    (x7 : (⟨S25x50, .f32⟩ : BufTy).Contents (Elt Ideal)) (x8 : (⟨S50, .f32⟩ : BufTy).Contents (Elt Ideal))
    (x9 : (⟨S50x100, .f32⟩ : BufTy).Contents (Elt Ideal)) (x10 : (⟨S100, .f32⟩ : BufTy).Contents (Elt Ideal))
    (x11 : (⟨S1x25, .f32⟩ : BufTy).Contents (Elt Ideal)) (x12 : (⟨S25, .f32⟩ : BufTy).Contents (Elt Ideal))
    (x13 : (⟨S25x50, .f32⟩ : BufTy).Contents (Elt Ideal)) (x14 : (⟨S50, .f32⟩ : BufTy).Contents (Elt Ideal))
    (x15 : (⟨S50x100, .f32⟩ : BufTy).Contents (Elt Ideal)) (x16 : (⟨S100, .f32⟩ : BufTy).Contents (Elt Ideal))
    (z : Fin 1) (i : Fin 8192) (c : Fin 100) :
    val_main_v127 (F := Ideal) x0 x1 x2 x3 x4 x5 x6 x7 x8 x9 x10 x11 x12 x13 x14 x15 x16 (ix3 z i c)
      = Descr.refOutput (netOf x5 x6 x7 x8 x9 x10) (netOf x11 x12 x13 x14 x15 x16)
          (fun j => entry x0 x1 x2 x3 x4 i (slot0 j)) (fun j => entry x0 x1 x2 x3 x4 i (slot1 j)) c := by
  rw [val_main_v127_apply, val_main_v126_apply, val_main_v124_apply, val_main_v125_apply, val_main_cst_23_apply]
  have e : idx_main_v127 (ix3 z i c) = ix3 i 0 c :=
    idx3_ext _ _
      (by show ((z.val * 8192 + i.val) * 100 + c.val) / 100 = i.val
          have hz := z.isLt; have hc := c.isLt; omega)
      rfl
      (by show ((z.val * 8192 + i.val) * 100 + c.val) % 100 = c.val
          have hz := z.isLt; have hc := c.isLt; omega)
  rw [e, mean0 x0 x1 x2 x3 x4 x5 x6 x7 x8 x9 x10, mean1 x0 x1 x2 x3 x4 x11 x12 x13 x14 x15 x16]
  rfl

/-- The same as one equation between arrays: the result as a function of its index. -/
theorem result_eq (x0 : (⟨S1x30720, .f32⟩ : BufTy).Contents (Elt Ideal)) (x1 : (⟨S1x10240, .i32⟩ : BufTy).Contents (Elt Ideal))
    (x2 : (⟨S1x8192x138, .i32⟩ : BufTy).Contents (Elt Ideal)) (x3 x4 : (⟨S2x138x1, .f32⟩ : BufTy).Contents (Elt Ideal))
    (x5 : (⟨S1x25, .f32⟩ : BufTy).Contents (Elt Ideal)) (x6 : (⟨S25, .f32⟩ : BufTy).Contents (Elt Ideal))
    (x7 : (⟨S25x50, .f32⟩ : BufTy).Contents (Elt Ideal)) (x8 : (⟨S50, .f32⟩ : BufTy).Contents (Elt Ideal))
    (x9 : (⟨S50x100, .f32⟩ : BufTy).Contents (Elt Ideal)) (x10 : (⟨S100, .f32⟩ : BufTy).Contents (Elt Ideal))
    (x11 : (⟨S1x25, .f32⟩ : BufTy).Contents (Elt Ideal)) (x12 : (⟨S25, .f32⟩ : BufTy).Contents (Elt Ideal))
    (x13 : (⟨S25x50, .f32⟩ : BufTy).Contents (Elt Ideal)) (x14 : (⟨S50, .f32⟩ : BufTy).Contents (Elt Ideal))
    (x15 : (⟨S50x100, .f32⟩ : BufTy).Contents (Elt Ideal)) (x16 : (⟨S100, .f32⟩ : BufTy).Contents (Elt Ideal)) :
    val_main_v127 (F := Ideal) x0 x1 x2 x3 x4 x5 x6 x7 x8 x9 x10 x11 x12 x13 x14 x15 x16
      = fun q : S1x8192x100.Idx => Descr.refOutput (netOf x5 x6 x7 x8 x9 x10) (netOf x11 x12 x13 x14 x15 x16)
          (fun j => entry x0 x1 x2 x3 x4 (q 1) (slot0 j)) (fun j => entry x0 x1 x2 x3 x4 (q 1) (slot1 j)) (q 2) :=
  funext fun q =>
    (congrArg (val_main_v127 (F := Ideal) x0 x1 x2 x3 x4 x5 x6 x7 x8 x9 x10 x11 x12 x13 x14 x15 x16) (eq_ix3 q)).trans
      (result_at x0 x1 x2 x3 x4 x5 x6 x7 x8 x9 x10 x11 x12 x13 x14 x15 x16 (q 0) (q 1) (q 2))

end Cert.RefNet

end
-- ==== Proof.Inputs.lean ====
import Idealize.ShloMosaic.PureOps.Ideal
import Idealize.ShloMosaic.Lib.ValueIdx
import proofs.«205418_g46067819217304_cont_8to1_c_241_17_alg».proof.Proof.Descr

/-!
# The descriptor as a function of the seventeen argument arrays

The arguments enter as plain functions on literal index types: the extended coordinates [1, 30720],
the atom types [1, 10240], the neighbour list [1, 8192, 138], the mean and the standard deviation
[2, 138, 1], and for each of the two neighbour-slot types the six arrays of an embedding net
1 → 25 → 50 → 100. From them: the neighbour atom a list word names, the statistics row an atom's type
selects, one coordinate of one atom, the normalised environment entry of an (atom, slot) pair, the net
of a slot type, and the whole result in its two arrangements, which agree when the third-layer weights
are real.
-/

noncomputable section

namespace Cert.Inputs

open Idealize.ShloMosaic Idealize.ShloMosaic.ValueIdx
open Cert.Descr

/-! ## The argument arrays' types -/

/-- Extended coordinates, three per atom, flat: [1, 30720]. -/
abbrev CoordArr : Type := (⟨2, ![1, 30720]⟩ : Shape).Idx → EReal
/-- Atom types: [1, 10240]. -/
abbrev AtypeArr : Type := (⟨2, ![1, 10240]⟩ : Shape).Idx → BitVec 32
/-- Neighbour list: [1, 8192, 138]. -/
abbrev NlistArr : Type := (⟨3, ![1, 8192, 138]⟩ : Shape).Idx → BitVec 32
/-- Mean, and standard deviation, per type and slot: [2, 138, 1]. -/
abbrev StatArr : Type := (⟨3, ![2, 138, 1]⟩ : Shape).Idx → EReal
/-- First-layer weights [1, 25] and biases [25]. -/
abbrev W0Arr : Type := (⟨2, ![1, 25]⟩ : Shape).Idx → EReal
abbrev B0Arr : Type := (⟨1, ![25]⟩ : Shape).Idx → EReal
/-- Second-layer weights [25, 50] and biases [50]. -/
abbrev W1Arr : Type := (⟨2, ![25, 50]⟩ : Shape).Idx → EReal
abbrev B1Arr : Type := (⟨1, ![50]⟩ : Shape).Idx → EReal
/-- Third-layer weights [50, 100] and biases [100]. -/
abbrev W2Arr : Type := (⟨2, ![50, 100]⟩ : Shape).Idx → EReal
abbrev B2Arr : Type := (⟨1, ![100]⟩ : Shape).Idx → EReal

/-! ## Two facts about 32-bit words -/

/-- A word whose signed value is not negative has that value as its unsigned value. -/
theorem toInt_toNat_of_nonneg (w : BitVec 32) (h0 : 0 ≤ w.toInt) : w.toInt.toNat = w.toNat := by
  have h := BitVec.toInt_eq_toNat_cond w
  have hlt := w.isLt
  split_ifs at h <;> omega

/-- A word whose signed value lies in [0, 10239]: clamping that value into [0, 10239] gives the word's
    unsigned value. -/
theorem clamp_of_range (w : BitVec 32) (h0 : 0 ≤ w.toInt) (h1 : w.toInt ≤ 10239) :
    min w.toInt.toNat 10239 = w.toNat := by
  rw [← toInt_toNat_of_nonneg w h0]; omega

/-- For a word that is 0 or 1, its signed value clamped into [0, 1] is "row 0 if the word is 0, else row 1". -/
theorem row_of_word (w : BitVec 32) (h : w = 0#32 ∨ w = 1#32) :
    (⟨min w.toInt.toNat 1, by omega⟩ : Fin 2) = if w = 0#32 then (0 : Fin 2) else 1 := by
  rcases h with rfl | rfl <;> decide

/-! ## Reading the arguments -/

/-- Word 3a + k of the flat coordinate array: coordinate k of atom a. -/
abbrev cIdx (a : Fin 10240) (k : Fin 3) : (⟨2, ![1, 30720]⟩ : Shape).Idx :=
  ix2 (0 : Fin 1) (⟨3 * a.val + k.val, by have := a.isLt; have := k.isLt; omega⟩ : Fin 30720)

/-- A local atom i < 8192 as one of the 10240 extended atoms: the same number. -/
def ctr (i : Fin 8192) : Fin 10240 := ⟨i.val, by have := i.isLt; omega⟩

@[simp] theorem ctr_val (i : Fin 8192) : (ctr i).val = i.val := rfl

/-- The neighbour atom the word nlist[0, i, j] names: its signed value clamped into [0, 10239]. -/
def nbr (nlist : NlistArr) (i : Fin 8192) (j : Fin 138) : Fin 10240 :=
  ⟨min (nlist (ix3 (0 : Fin 1) i j)).toInt.toNat 10239, by omega⟩

/-- In range, the clamp does nothing: the neighbour's number is the word's signed value … -/
theorem nbr_val (nlist : NlistArr) (hn : ∀ I, 0 ≤ (nlist I).toInt ∧ (nlist I).toInt ≤ 10239) (i : Fin 8192) (j : Fin 138) :
    (nbr nlist i j).val = (nlist (ix3 (0 : Fin 1) i j)).toInt.toNat := by
  have h := hn (ix3 (0 : Fin 1) i j)
  show min (nlist (ix3 (0 : Fin 1) i j)).toInt.toNat 10239 = (nlist (ix3 (0 : Fin 1) i j)).toInt.toNat
  omega

/-- … which is its unsigned value. -/
theorem nbr_val_toNat (nlist : NlistArr) (hn : ∀ I, 0 ≤ (nlist I).toInt ∧ (nlist I).toInt ≤ 10239) (i : Fin 8192) (j : Fin 138) :
    (nbr nlist i j).val = (nlist (ix3 (0 : Fin 1) i j)).toNat :=
  clamp_of_range _ (hn _).1 (hn _).2

/-- The statistics row atom i's type selects: the type word's signed value clamped into [0, 1]. -/
def arow (atype : AtypeArr) (i : Fin 8192) : Fin 2 :=
  ⟨min (atype (ix2 (0 : Fin 1) (ctr i))).toInt.toNat 1, by omega⟩

/-- A type word 0 names row 0 … -/
theorem arow_zero (atype : AtypeArr) (i : Fin 8192) (h : atype (ix2 (0 : Fin 1) (ctr i)) = 0#32) : arow atype i = 0 := by
  refine Fin.ext ?_
  show min (atype (ix2 (0 : Fin 1) (ctr i))).toInt.toNat 1 = 0
  rw [h]; decide

/-- … and a type word 1 names row 1. -/
theorem arow_one (atype : AtypeArr) (i : Fin 8192) (h : atype (ix2 (0 : Fin 1) (ctr i)) = 1#32) : arow atype i = 1 := by
  refine Fin.ext ?_
  show min (atype (ix2 (0 : Fin 1) (ctr i))).toInt.toNat 1 = 1
  rw [h]; decide

/-- For a type word that is 0 or 1 the row is: row 0 if the word is 0, else row 1. -/
theorem arow_eq_ite (atype : AtypeArr) (i : Fin 8192)
    (h : atype (ix2 (0 : Fin 1) (ctr i)) = 0#32 ∨ atype (ix2 (0 : Fin 1) (ctr i)) = 1#32) :
    arow atype i = if atype (ix2 (0 : Fin 1) (ctr i)) = 0#32 then (0 : Fin 2) else 1 :=
  row_of_word _ h

/-- Coordinate k of atom a: coord[0, 3a + k]. -/
abbrev coordAt (coord : CoordArr) (a : Fin 10240) (k : Fin 3) : EReal := coord (cIdx a k)

/-- The normalised environment-matrix entry of local atom i and its neighbour slot j: the neighbour's and
    the atom's own coordinates, and the mean and standard deviation of slot j in the row of the atom's type. -/
def entry (coord : CoordArr) (atype : AtypeArr) (nlist : NlistArr) (mean std : StatArr) (i : Fin 8192) (j : Fin 138) : EReal :=
  envEntry (coord (cIdx (nbr nlist i j) 0)) (coord (cIdx (nbr nlist i j) 1)) (coord (cIdx (nbr nlist i j) 2))
    (coord (cIdx (ctr i) 0)) (coord (cIdx (ctr i) 1)) (coord (cIdx (ctr i) 2))
    (mean (ix3 (arow atype i) j (0 : Fin 1))) (std (ix3 (arow atype i) j (0 : Fin 1)))

/-- Neighbour slot j of the first type, among all 138 slots. -/
def slot0 (j : Fin 46) : Fin 138 := ⟨j.val, by omega⟩
/-- Neighbour slot j of the second type, among all 138 slots: the 46 slots of the first type come before it. -/
def slot1 (j : Fin 92) : Fin 138 := ⟨46 + j.val, by omega⟩

@[simp] theorem slot0_val (j : Fin 46) : (slot0 j).val = j.val := rfl
@[simp] theorem slot1_val (j : Fin 92) : (slot1 j).val = 46 + j.val := rfl

/-- The embedding net of one slot type from its six arrays, entry by entry. -/
def net (w0 : W0Arr) (b0 : B0Arr) (w1 : W1Arr) (b1 : B1Arr) (w2 : W2Arr) (b2 : B2Arr) : Net where
  w0 := fun a => w0 (ix2 0 a)
  b0 := fun a => b0 (ix1 a)
  w1 := fun a b => w1 (ix2 a b)
  b1 := fun b => b1 (ix1 b)
  w2 := fun b c => w2 (ix2 b c)
  b2 := fun c => b2 (ix1 c)

/-- Every entry of a third-layer weight array is real. -/
def W2ArrReal (w2 : W2Arr) : Prop := ∀ b c, IsReal (w2 (ix2 b c))

theorem net_W2Real (w0 : W0Arr) (b0 : B0Arr) (w1 : W1Arr) (b1 : B1Arr) (w2 : W2Arr) (b2 : B2Arr) (h : W2ArrReal w2) :
    (net w0 b0 w1 b1 w2 b2).W2Real := fun b c => h b c

/-! ## The whole result -/

/-- Feature c of local atom i, every layer summed over the slots first (the rearranged form). -/
def outK (coord : CoordArr) (atype : AtypeArr) (nlist : NlistArr) (mean std : StatArr)
    (w00 : W0Arr) (b00 : B0Arr) (w01 : W1Arr) (b01 : B1Arr) (w02 : W2Arr) (b02 : B2Arr)
    (w10 : W0Arr) (b10 : B0Arr) (w11 : W1Arr) (b11 : B1Arr) (w12 : W2Arr) (b12 : B2Arr)
    (i : Fin 8192) (c : Fin 100) : EReal :=
  kerOutput (net w00 b00 w01 b01 w02 b02) (net w10 b10 w11 b11 w12 b12)
    (fun j => entry coord atype nlist mean std i (slot0 j))
    (fun j => entry coord atype nlist mean std i (slot1 j)) c

/-- Feature c of local atom i as the weighted mean of the per-entry features (the form as written per slot type). -/
def outR (coord : CoordArr) (atype : AtypeArr) (nlist : NlistArr) (mean std : StatArr)
    (w00 : W0Arr) (b00 : B0Arr) (w01 : W1Arr) (b01 : B1Arr) (w02 : W2Arr) (b02 : B2Arr)
    (w10 : W0Arr) (b10 : B0Arr) (w11 : W1Arr) (b11 : B1Arr) (w12 : W2Arr) (b12 : B2Arr)
    (i : Fin 8192) (c : Fin 100) : EReal :=
  refOutput (net w00 b00 w01 b01 w02 b02) (net w10 b10 w11 b11 w12 b12)
    (fun j => entry coord atype nlist mean std i (slot0 j))
    (fun j => entry coord atype nlist mean std i (slot1 j)) c

/-- The two arrangements agree when every entry of the two third-layer weight arrays is real. -/
theorem outK_eq_outR (coord : CoordArr) (atype : AtypeArr) (nlist : NlistArr) (mean std : StatArr)
    (w00 : W0Arr) (b00 : B0Arr) (w01 : W1Arr) (b01 : B1Arr) (w02 : W2Arr) (b02 : B2Arr)
    (w10 : W0Arr) (b10 : B0Arr) (w11 : W1Arr) (b11 : B1Arr) (w12 : W2Arr) (b12 : B2Arr)
    (h0 : W2ArrReal w02) (h1 : W2ArrReal w12) (i : Fin 8192) (c : Fin 100) :
    outK coord atype nlist mean std w00 b00 w01 b01 w02 b02 w10 b10 w11 b11 w12 b12 i c
      = outR coord atype nlist mean std w00 b00 w01 b01 w02 b02 w10 b10 w11 b11 w12 b12 i c :=
  kerOutput_eq_refOutput _ _ (net_W2Real _ _ _ _ _ _ h0) (net_W2Real _ _ _ _ _ _ h1) _ _ c

end Cert.Inputs

end
-- ==== Proof.HostRead.lean ====
/-
  The straight lines of @main read at an index. Between its three launches @main only moves data: reshapes, transposes,
  slices, one addition of the two halves of each third-layer weight array and one joining of columns. Each array such a
  line leaves is read here at one index as the array it was made from at one index, down to the arguments: the gathered
  coordinate planes as the coordinates of the atom a neighbour word names, the centre atoms' coordinates and types, the
  statistics tables, the normalised entries laid out slot by slot in blocks of 128 atoms, the weights as the embedding
  kernel receives them, and the result as the transposed output of the embedding kernel.
-/
import proofs.«205418_g46067819217304_cont_8to1_c_241_17_alg».proof.Proof.Main
import proofs.«205418_g46067819217304_cont_8to1_c_241_17_alg».proof.Proof.ArgsKept
import proofs.«205418_g46067819217304_cont_8to1_c_241_17_alg».proof.Proof.Inputs
import Idealize.ShloMosaic.Lib.StableHlo.Run
import Idealize.ShloMosaic.Lib.ValueIdx
import Idealize.ShloMosaic.Lib.Pipeline.Value

noncomputable section

namespace Cert.HostRead

open Cert.KernelIdeal Cert.KernelIdeal.Facts₀ Cert.KernelIdeal.Facts Cert.KernelIdeal.MainShape Cert.KernelIdeal.Main
open Cert.KernelIdeal.ArgsKept Cert.ScGather
open Idealize.ShloMosaic Idealize.ShloMosaic.ValueIdx Idealize.ShloMosaic.TcCoe
open Idealize.SL.Sem

/-! ## Small layout facts at literal ranks -/

section Layout
variable {α : Type}

/-- A vector made a column: entry (a, 0) is entry a. -/
theorem col_of_vec {n : Nat} (x : (⟨1, ![n]⟩ : Shape).Idx → α) (h : (⟨1, ![n]⟩ : Shape).ShapeCasts ⟨2, ![n, 1]⟩) (a : Fin n) :
    shapeCast ⟨2, ![n, 1]⟩ x h (ix2 a (0 : Fin 1)) = x (ix1 a) := by
  refine shapeCast_apply x h _ _ ?_
  rw [Shape.rowMajor_val_one, Shape.rowMajor_val_two]
  show a.val = a.val * 1 + 0
  omega

/-- A matrix transposed: entry (b, a) is entry (a, b). -/
theorem transpose2_apply {p q : Nat} (x : (⟨2, ![p, q]⟩ : Shape).Idx → α)
    (h : (⟨2, ![p, q]⟩ : Shape).Transposes [1, 0] ⟨2, ![q, p]⟩) (a : Fin p) (b : Fin q) :
    transpose ⟨2, ![q, p]⟩ [1, 0] x h (ix2 b a) = x (ix2 a b) := by
  refine transpose_apply _ x h (ix2 b a) (ix2 a b) fun c => ?_
  match c with
  | ⟨0, _⟩ => rfl
  | ⟨1, _⟩ => rfl

/-- Rows [o, o + p') of a matrix: entry (a, b) is entry (o + a, b). -/
theorem rows_apply {p p' q o : Nat} (x : (⟨2, ![p, q]⟩ : Shape).Idx → α)
    (h : (⟨2, ![p, q]⟩ : Shape).Slices ![o, 0] ⟨2, ![p', q]⟩) (a : Fin p') (b : Fin q) (ha : o + a.val < p) :
    extractStridedSlice ⟨2, ![p', q]⟩ ![o, 0] x h (ix2 a b) = x (ix2 ⟨o + a.val, ha⟩ b) := by
  refine extractStridedSlice_apply _ x h _ _ fun c => ?_
  match c with
  | ⟨0, _⟩ => rfl
  | ⟨1, _⟩ => exact (Nat.zero_add _).symm

end Layout

variable (m : (ℓ : Loc nD τ sig) → Buf (Elt Ideal) ℓ)

/-! ## The arguments, as launched -/

abbrev arg0 (d : Dev nD) : Cert.Inputs.CoordArr := m ((d.tc : Thread nD τ).loc main_arg0)
abbrev arg1 (d : Dev nD) : Cert.Inputs.AtypeArr := m ((d.tc : Thread nD τ).loc main_arg1)
abbrev arg2 (d : Dev nD) : Cert.Inputs.NlistArr := m ((d.tc : Thread nD τ).loc main_arg2)
abbrev arg3 (d : Dev nD) : Cert.Inputs.StatArr := m ((d.tc : Thread nD τ).loc main_arg3)
abbrev arg4 (d : Dev nD) : Cert.Inputs.StatArr := m ((d.tc : Thread nD τ).loc main_arg4)
abbrev arg5 (d : Dev nD) : Cert.Inputs.W0Arr := m ((d.tc : Thread nD τ).loc main_arg5)
abbrev arg6 (d : Dev nD) : Cert.Inputs.B0Arr := m ((d.tc : Thread nD τ).loc main_arg6)
abbrev arg7 (d : Dev nD) : Cert.Inputs.W1Arr := m ((d.tc : Thread nD τ).loc main_arg7)
abbrev arg8 (d : Dev nD) : Cert.Inputs.B1Arr := m ((d.tc : Thread nD τ).loc main_arg8)
abbrev arg9 (d : Dev nD) : Cert.Inputs.W2Arr := m ((d.tc : Thread nD τ).loc main_arg9)
abbrev arg10 (d : Dev nD) : Cert.Inputs.B2Arr := m ((d.tc : Thread nD τ).loc main_arg10)
abbrev arg11 (d : Dev nD) : Cert.Inputs.W0Arr := m ((d.tc : Thread nD τ).loc main_arg11)
abbrev arg12 (d : Dev nD) : Cert.Inputs.B0Arr := m ((d.tc : Thread nD τ).loc main_arg12)
abbrev arg13 (d : Dev nD) : Cert.Inputs.W1Arr := m ((d.tc : Thread nD τ).loc main_arg13)
abbrev arg14 (d : Dev nD) : Cert.Inputs.B1Arr := m ((d.tc : Thread nD τ).loc main_arg14)
abbrev arg15 (d : Dev nD) : Cert.Inputs.W2Arr := m ((d.tc : Thread nD τ).loc main_arg15)
abbrev arg16 (d : Dev nD) : Cert.Inputs.B2Arr := m ((d.tc : Thread nD τ).loc main_arg16)

/-! ## An argument is never written: the fold at an argument, stage by stage -/

theorem W1_arg (d : Dev nD) (r : Ref sig .tc) (hr : r ∈ args) :
    W1 m d (Proc.devRef .tc r) = m ((d.tc : Thread nD τ).loc r) := by
  unfold W1
  exact (StableHlo.after_of_writes_sub opsHead _ opsHead_writes (args_not_wHead r hr)).trans rfl

theorem W2_arg (d : Dev nD) (r : Ref sig .tc) (hr : r ∈ args) :
    W2 m d (Proc.devRef .tc r) = m ((d.tc : Thread nD τ).loc r) :=
  (W2_of_ne m d _ (arg_ne_gather hr (by decide)) (arg_ne_gather hr (by decide)) (arg_ne_gather hr (by decide))).trans
    (W1_arg m d r hr)

theorem W3_arg (d : Dev nD) (r : Ref sig .tc) (hr : r ∈ args) :
    W3 m d (Proc.devRef .tc r) = m ((d.tc : Thread nD τ).loc r) :=
  (StableHlo.after_of_writes_sub opsAfterGather _ opsAfterGather_writes (args_not_wAfterGather r hr)).trans (W2_arg m d r hr)

theorem W4_arg (d : Dev nD) (r : Ref sig .tc) (hr : r ∈ args) :
    W4 m d (Proc.devRef .tc r) = m ((d.tc : Thread nD τ).loc r) :=
  (W4_of_ne m d r (args_not_arr1 r hr)).trans (W3_arg m d r hr)

/-! ## Before the gather: the coordinates and the neighbour list, flat -/

/-- Word p of the flat coordinate array is word (0, p) of the coordinates. -/
theorem cf_at (d : Dev nD) (p : Fin 30720) :
    (cfAt m d : S30720.Idx → EReal) (ix1 p) = arg0 m d (ix2 (0 : Fin 1) p) := by
  have e : (cfAt m d : S30720.Idx → EReal)
      = shapeCast S30720 (W0 m d (Proc.devRef .tc main_arg0) : S1x30720.Idx → EReal) shapeCasts_S1x30720_S30720 := by
    unfold cfAt W1
    show StableHlo.after opsHead (W0 m d) (Proc.devRef .tc main_v0) = _
    after_results <;> rfl
  rw [e]
  refine shapeCast_apply _ _ (ix1 p) (ix2 (0 : Fin 1) p) ?_
  rw [Shape.rowMajor_val_two, Shape.rowMajor_val_one]
  show 0 * 30720 + p.val = p.val
  omega

/-- Word 138 i + j of the flat neighbour list is word (0, i, j) of the list. -/
theorem nf_at (d : Dev nD) (i : Fin 8192) (j : Fin 138) (h : i.val * 138 + j.val < 1130496) :
    (nfAt m d : S1130496.Idx → BitVec 32) (ix1 ⟨i.val * 138 + j.val, h⟩) = arg2 m d (ix3 (0 : Fin 1) i j) := by
  have e : (nfAt m d : S1130496.Idx → BitVec 32)
      = shapeCast S1130496 (W0 m d (Proc.devRef .tc main_arg2) : S1x8192x138.Idx → BitVec 32) shapeCasts_S1x8192x138_S1130496 := by
    unfold nfAt W1
    show StableHlo.after opsHead (W0 m d) (Proc.devRef .tc main_v1) = _
    after_results <;> rfl
  rw [e]
  refine shapeCast_apply _ _ _ (ix3 (0 : Fin 1) i j) ?_
  rw [Shape.rowMajor_val_three, Shape.rowMajor_val_one]
  show (0 * 8192 + i.val) * 138 + j.val = i.val * 138 + j.val
  omega

/-! ## After the gather -/

section Gathered
variable (d : Dev nD) (hn : ∀ I, 0 ≤ (arg2 m d I).toInt ∧ (arg2 m d I).toInt ≤ 10239)
include hn

/-- The gathered word at flat position 138 i + j, axis a: coordinate a of the atom that slot j of atom i names. -/
theorem gather_read (i : Fin 8192) (j : Fin 138) (a : Fin 3) (h : i.val * 138 + j.val < 1130496) :
    (gatherAt (cfAt m d) (nfAt m d) a.val : S1130496.Idx → EReal) (ix1 ⟨i.val * 138 + j.val, h⟩)
      = arg0 m d (Cert.Inputs.cIdx (Cert.Inputs.nbr (arg2 m d) i j) a) := by
  show (cfAt m d : S30720.Idx → EReal) (cIx (3 * ((nfAt m d : S1130496.Idx → BitVec 32) (ix1 ⟨i.val * 138 + j.val, h⟩)).toNat + a.val)) = _
  rw [nf_at m d i j h]
  unfold cIx
  rw [cf_at m d]
  have hv := Cert.Inputs.nbr_val_toNat (arg2 m d) hn i j
  have hl := (Cert.Inputs.nbr (arg2 m d) i j).isLt
  have ha := a.isLt
  refine congrArg (fun p : Fin 30720 => arg0 m d (ix2 (0 : Fin 1) p)) (Fin.ext ?_)
  show (3 * (arg2 m d (ix3 (0 : Fin 1) i j)).toNat + a.val) % 30720 = 3 * (Cert.Inputs.nbr (arg2 m d) i j).val + a.val
  rw [← hv]
  exact Nat.mod_eq_of_lt (by omega)

/-- The three gathered planes as [8192, 138] matrices. -/
theorem v3_at (i : Fin 8192) (j : Fin 138) :
    (W3 m d (Proc.devRef .tc main_v3) : S8192x138.Idx → EReal) (ix2 i j)
      = arg0 m d (Cert.Inputs.cIdx (Cert.Inputs.nbr (arg2 m d) i j) 0) := by
  have hlt : i.val * 138 + j.val < 1130496 := by have := i.isLt; have := j.isLt; omega
  have e : (W3 m d (Proc.devRef .tc main_v3) : S8192x138.Idx → EReal)
      = shapeCast S8192x138 (W2 m d (Proc.devRef .tc main_v2_0) : S1130496.Idx → EReal) shapeCasts_S1130496_S8192x138 := by
    show StableHlo.after opsAfterGather (W2 m d) (Proc.devRef .tc main_v3) = _
    after_results <;> rfl
  rw [e]
  refine (shapeCast_apply _ _ (ix2 i j) (ix1 ⟨i.val * 138 + j.val, hlt⟩) ?_).trans ?_
  · rw [Shape.rowMajor_val_two, Shape.rowMajor_val_one]; rfl
  · rw [W2_x m d]; exact gather_read m d hn i j 0 hlt

theorem v4_at (i : Fin 8192) (j : Fin 138) :
    (W3 m d (Proc.devRef .tc main_v4) : S8192x138.Idx → EReal) (ix2 i j)
      = arg0 m d (Cert.Inputs.cIdx (Cert.Inputs.nbr (arg2 m d) i j) 1) := by
  have hlt : i.val * 138 + j.val < 1130496 := by have := i.isLt; have := j.isLt; omega
  have e : (W3 m d (Proc.devRef .tc main_v4) : S8192x138.Idx → EReal)
      = shapeCast S8192x138 (W2 m d (Proc.devRef .tc main_v2_1) : S1130496.Idx → EReal) shapeCasts_S1130496_S8192x138 := by
    show StableHlo.after opsAfterGather (W2 m d) (Proc.devRef .tc main_v4) = _
    after_results <;> rfl
  rw [e]
  refine (shapeCast_apply _ _ (ix2 i j) (ix1 ⟨i.val * 138 + j.val, hlt⟩) ?_).trans ?_
  · rw [Shape.rowMajor_val_two, Shape.rowMajor_val_one]; rfl
  · rw [W2_y m d]; exact gather_read m d hn i j 1 hlt

theorem v5_at (i : Fin 8192) (j : Fin 138) :
    (W3 m d (Proc.devRef .tc main_v5) : S8192x138.Idx → EReal) (ix2 i j)
      = arg0 m d (Cert.Inputs.cIdx (Cert.Inputs.nbr (arg2 m d) i j) 2) := by
  have hlt : i.val * 138 + j.val < 1130496 := by have := i.isLt; have := j.isLt; omega
  have e : (W3 m d (Proc.devRef .tc main_v5) : S8192x138.Idx → EReal)
      = shapeCast S8192x138 (W2 m d (Proc.devRef .tc main_v2_2) : S1130496.Idx → EReal) shapeCasts_S1130496_S8192x138 := by
    show StableHlo.after opsAfterGather (W2 m d) (Proc.devRef .tc main_v5) = _
    after_results <;> rfl
  rw [e]
  refine (shapeCast_apply _ _ (ix2 i j) (ix1 ⟨i.val * 138 + j.val, hlt⟩) ?_).trans ?_
  · rw [Shape.rowMajor_val_two, Shape.rowMajor_val_one]; rfl
  · rw [W2_z m d]; exact gather_read m d hn i j 2 hlt

end Gathered

/-- The centre atoms' coordinates: row i of the first 8192 rows of the coordinates as a [10240, 3] matrix. -/
theorem v7_at (d : Dev nD) (i : Fin 8192) (k : Fin 3) :
    (W3 m d (Proc.devRef .tc main_v7) : S8192x3.Idx → EReal) (ix2 i k) = arg0 m d (Cert.Inputs.cIdx (Cert.Inputs.ctr i) k) := by
  have e : (W3 m d (Proc.devRef .tc main_v7) : S8192x3.Idx → EReal)
      = extractStridedSlice S8192x3 ![0, 0]
          (shapeCast S10240x3 (W2 m d (Proc.devRef .tc main_arg0) : S1x30720.Idx → EReal) shapeCasts_S1x30720_S10240x3)
          slices_S10240x3_S8192x3_0_0 := by
    show StableHlo.after opsAfterGather (W2 m d) (Proc.devRef .tc main_v7) = _
    after_results <;> rfl
  rw [e, W2_arg m d main_arg0 (by decide)]
  refine (extractStridedSlice_apply _ _ _ (ix2 i k) (ix2 (Cert.Inputs.ctr i) k) fun c => ?_).trans ?_
  · match c with
    | ⟨0, _⟩ => exact (Nat.zero_add _).symm
    | ⟨1, _⟩ => exact (Nat.zero_add _).symm
  · refine shapeCast_apply _ _ _ (Cert.Inputs.cIdx (Cert.Inputs.ctr i) k) ?_
    rw [Shape.rowMajor_val_two, Shape.rowMajor_val_two]
    show 0 * 30720 + (3 * i.val + k.val) = i.val * 3 + k.val
    omega

/-- The centre atoms' types. -/
theorem v9_at (d : Dev nD) (i : Fin 8192) :
    (W3 m d (Proc.devRef .tc main_v9) : S8192x1.Idx → BitVec 32) (ix2 i (0 : Fin 1))
      = arg1 m d (ix2 (0 : Fin 1) (Cert.Inputs.ctr i)) := by
  have e : (W3 m d (Proc.devRef .tc main_v9) : S8192x1.Idx → BitVec 32)
      = extractStridedSlice S8192x1 ![0, 0]
          (shapeCast S10240x1 (W2 m d (Proc.devRef .tc main_arg1) : S1x10240.Idx → BitVec 32) shapeCasts_S1x10240_S10240x1)
          slices_S10240x1_S8192x1_0_0 := by
    show StableHlo.after opsAfterGather (W2 m d) (Proc.devRef .tc main_v9) = _
    after_results <;> rfl
  rw [e, W2_arg m d main_arg1 (by decide)]
  refine (extractStridedSlice_apply _ _ _ (ix2 i (0 : Fin 1)) (ix2 (Cert.Inputs.ctr i) (0 : Fin 1)) fun c => ?_).trans ?_
  · match c with
    | ⟨0, _⟩ => exact (Nat.zero_add _).symm
    | ⟨1, _⟩ => exact (Nat.zero_add _).symm
  · refine shapeCast_apply _ _ _ (ix2 (0 : Fin 1) (Cert.Inputs.ctr i)) ?_
    rw [Shape.rowMajor_val_two, Shape.rowMajor_val_two]
    show 0 * 10240 + i.val = i.val * 1 + 0
    omega

/-- The mean and the standard deviation as [2, 138] tables. -/
theorem v10_at (d : Dev nD) (r : Fin 2) (j : Fin 138) :
    (W3 m d (Proc.devRef .tc main_v10) : S2x138.Idx → EReal) (ix2 r j) = arg3 m d (ix3 r j (0 : Fin 1)) := by
  have e : (W3 m d (Proc.devRef .tc main_v10) : S2x138.Idx → EReal)
      = shapeCast S2x138 (W2 m d (Proc.devRef .tc main_arg3) : S2x138x1.Idx → EReal) shapeCasts_S2x138x1_S2x138 := by
    show StableHlo.after opsAfterGather (W2 m d) (Proc.devRef .tc main_v10) = _
    after_results <;> rfl
  rw [e, W2_arg m d main_arg3 (by decide)]
  refine shapeCast_apply _ _ _ (ix3 r j (0 : Fin 1)) ?_
  rw [Shape.rowMajor_val_three, Shape.rowMajor_val_two]
  show (r.val * 138 + j.val) * 1 + 0 = r.val * 138 + j.val
  omega

theorem v11_at (d : Dev nD) (r : Fin 2) (j : Fin 138) :
    (W3 m d (Proc.devRef .tc main_v11) : S2x138.Idx → EReal) (ix2 r j) = arg4 m d (ix3 r j (0 : Fin 1)) := by
  have e : (W3 m d (Proc.devRef .tc main_v11) : S2x138.Idx → EReal)
      = shapeCast S2x138 (W2 m d (Proc.devRef .tc main_arg4) : S2x138x1.Idx → EReal) shapeCasts_S2x138x1_S2x138 := by
    show StableHlo.after opsAfterGather (W2 m d) (Proc.devRef .tc main_v11) = _
    after_results <;> rfl
  rw [e, W2_arg m d main_arg4 (by decide)]
  refine shapeCast_apply _ _ _ (ix3 r j (0 : Fin 1)) ?_
  rw [Shape.rowMajor_val_three, Shape.rowMajor_val_two]
  show (r.val * 138 + j.val) * 1 + 0 = r.val * 138 + j.val
  omega

/-! ## After the environment kernel: the entries slot by slot in blocks of 128 atoms -/

/-- Column (46 g + j) 128 + l of the first type's row is entry (128 g + l, j) of the environment kernel's first output. -/
theorem v15_at (d : Dev nD) (g : Fin 64) (j : Fin 46) (l : Fin 128)
    (hp : (g.val * 46 + j.val) * 128 + l.val < 376832) (hq : g.val * 128 + l.val < 8192) :
    (W5 m d (Proc.devRef .tc main_v15) : S1x376832.Idx → EReal) (ix2 (0 : Fin 1) ⟨(g.val * 46 + j.val) * 128 + l.val, hp⟩)
      = (W4 m d (Proc.devRef .tc main_v12_0) : S8192x46.Idx → EReal) (ix2 ⟨g.val * 128 + l.val, hq⟩ j) := by
  have e : (W5 m d (Proc.devRef .tc main_v15) : S1x376832.Idx → EReal)
      = shapeCast S1x376832
          (transpose S64x46x128 [0, 2, 1]
            (shapeCast S64x128x46 (W4 m d (Proc.devRef .tc main_v12_0) : S8192x46.Idx → EReal) shapeCasts_S8192x46_S64x128x46)
            transposes_S64x128x46_S64x46x128_0_2_1)
          shapeCasts_S64x46x128_S1x376832 := by
    show StableHlo.after opsAfterEnv (W4 m d) (Proc.devRef .tc main_v15) = _
    after_results_simp <;> rfl
  rw [e]
  refine (shapeCast_apply _ _ _ (ix3 g j l) ?_).trans ?_
  · rw [Shape.rowMajor_val_three, Shape.rowMajor_val_two]
    show (g.val * 46 + j.val) * 128 + l.val = 0 * 376832 + ((g.val * 46 + j.val) * 128 + l.val)
    omega
  refine (transpose_apply _ _ _ (ix3 g j l) (ix3 g l j) fun c => ?_).trans ?_
  · match c with
    | ⟨0, _⟩ => rfl
    | ⟨1, _⟩ => rfl
    | ⟨2, _⟩ => rfl
  · refine shapeCast_apply _ _ _ (ix2 ⟨g.val * 128 + l.val, hq⟩ j) ?_
    rw [Shape.rowMajor_val_two, Shape.rowMajor_val_three]
    show (g.val * 128 + l.val) * 46 + j.val = (g.val * 128 + l.val) * 46 + j.val
    rfl

/-- Column (92 g + j) 128 + l of the second type's row is entry (128 g + l, j) of the environment kernel's second output. -/
theorem v18_at (d : Dev nD) (g : Fin 64) (j : Fin 92) (l : Fin 128)
    (hp : (g.val * 92 + j.val) * 128 + l.val < 753664) (hq : g.val * 128 + l.val < 8192) :
    (W5 m d (Proc.devRef .tc main_v18) : S1x753664.Idx → EReal) (ix2 (0 : Fin 1) ⟨(g.val * 92 + j.val) * 128 + l.val, hp⟩)
      = (W4 m d (Proc.devRef .tc main_v12_1) : S8192x92.Idx → EReal) (ix2 ⟨g.val * 128 + l.val, hq⟩ j) := by
  have e : (W5 m d (Proc.devRef .tc main_v18) : S1x753664.Idx → EReal)
      = shapeCast S1x753664
          (transpose S64x92x128 [0, 2, 1]
            (shapeCast S64x128x92 (W4 m d (Proc.devRef .tc main_v12_1) : S8192x92.Idx → EReal) shapeCasts_S8192x92_S64x128x92)
            transposes_S64x128x92_S64x92x128_0_2_1)
          shapeCasts_S64x92x128_S1x753664 := by
    show StableHlo.after opsAfterEnv (W4 m d) (Proc.devRef .tc main_v18) = _
    after_results_simp <;> rfl
  rw [e]
  refine (shapeCast_apply _ _ _ (ix3 g j l) ?_).trans ?_
  · rw [Shape.rowMajor_val_three, Shape.rowMajor_val_two]
    show (g.val * 92 + j.val) * 128 + l.val = 0 * 753664 + ((g.val * 92 + j.val) * 128 + l.val)
    omega
  refine (transpose_apply _ _ _ (ix3 g j l) (ix3 g l j) fun c => ?_).trans ?_
  · match c with
    | ⟨0, _⟩ => rfl
    | ⟨1, _⟩ => rfl
    | ⟨2, _⟩ => rfl
  · refine shapeCast_apply _ _ _ (ix2 ⟨g.val * 128 + l.val, hq⟩ j) ?_
    rw [Shape.rowMajor_val_two, Shape.rowMajor_val_three]
    show (g.val * 128 + l.val) * 92 + j.val = (g.val * 128 + l.val) * 92 + j.val
    rfl

/-! ## After the environment kernel: the weights as the embedding kernel receives them -/

section Weights
variable (d : Dev nD)

/-- First-layer weights as a column. -/
theorem v31_at (a : Fin 25) :
    (W5 m d (Proc.devRef .tc main_v31) : S25x1.Idx → EReal) (ix2 a (0 : Fin 1)) = arg5 m d (ix2 (0 : Fin 1) a) := by
  have e : (W5 m d (Proc.devRef .tc main_v31) : S25x1.Idx → EReal)
      = transpose S25x1 [1, 0] (W4 m d (Proc.devRef .tc main_arg5) : S1x25.Idx → EReal) transposes_S1x25_S25x1_1_0 := by
    show StableHlo.after opsAfterEnv (W4 m d) (Proc.devRef .tc main_v31) = _
    after_results_simp <;> rfl
  rw [e, W4_arg m d main_arg5 (by decide)]
  exact transpose2_apply _ _ (0 : Fin 1) a
theorem v36_at (a : Fin 25) :
    (W5 m d (Proc.devRef .tc main_v36) : S25x1.Idx → EReal) (ix2 a (0 : Fin 1)) = arg11 m d (ix2 (0 : Fin 1) a) := by
  have e : (W5 m d (Proc.devRef .tc main_v36) : S25x1.Idx → EReal)
      = transpose S25x1 [1, 0] (W4 m d (Proc.devRef .tc main_arg11) : S1x25.Idx → EReal) transposes_S1x25_S25x1_1_0 := by
    show StableHlo.after opsAfterEnv (W4 m d) (Proc.devRef .tc main_v36) = _
    after_results_simp <;> rfl
  rw [e, W4_arg m d main_arg11 (by decide)]
  exact transpose2_apply _ _ (0 : Fin 1) a

/-- First-layer biases as a column. -/
theorem v32_at (a : Fin 25) :
    (W5 m d (Proc.devRef .tc main_v32) : S25x1.Idx → EReal) (ix2 a (0 : Fin 1)) = arg6 m d (ix1 a) := by
  have e : (W5 m d (Proc.devRef .tc main_v32) : S25x1.Idx → EReal)
      = shapeCast S25x1 (W4 m d (Proc.devRef .tc main_arg6) : S25.Idx → EReal) shapeCasts_S25_S25x1 := by
    show StableHlo.after opsAfterEnv (W4 m d) (Proc.devRef .tc main_v32) = _
    after_results_simp <;> rfl
  rw [e, W4_arg m d main_arg6 (by decide)]
  exact col_of_vec _ _ a
theorem v37_at (a : Fin 25) :
    (W5 m d (Proc.devRef .tc main_v37) : S25x1.Idx → EReal) (ix2 a (0 : Fin 1)) = arg12 m d (ix1 a) := by
  have e : (W5 m d (Proc.devRef .tc main_v37) : S25x1.Idx → EReal)
      = shapeCast S25x1 (W4 m d (Proc.devRef .tc main_arg12) : S25.Idx → EReal) shapeCasts_S25_S25x1 := by
    show StableHlo.after opsAfterEnv (W4 m d) (Proc.devRef .tc main_v37) = _
    after_results_simp <;> rfl
  rw [e, W4_arg m d main_arg12 (by decide)]
  exact col_of_vec _ _ a

/-- Second-layer weights transposed. -/
theorem v33_at (b : Fin 50) (a : Fin 25) :
    (W5 m d (Proc.devRef .tc main_v33) : S50x25.Idx → EReal) (ix2 b a) = arg7 m d (ix2 a b) := by
  have e : (W5 m d (Proc.devRef .tc main_v33) : S50x25.Idx → EReal)
      = transpose S50x25 [1, 0] (W4 m d (Proc.devRef .tc main_arg7) : S25x50.Idx → EReal) transposes_S25x50_S50x25_1_0 := by
    show StableHlo.after opsAfterEnv (W4 m d) (Proc.devRef .tc main_v33) = _
    after_results_simp <;> rfl
  rw [e, W4_arg m d main_arg7 (by decide)]
  exact transpose2_apply _ _ a b
theorem v38_at (b : Fin 50) (a : Fin 25) :
    (W5 m d (Proc.devRef .tc main_v38) : S50x25.Idx → EReal) (ix2 b a) = arg13 m d (ix2 a b) := by
  have e : (W5 m d (Proc.devRef .tc main_v38) : S50x25.Idx → EReal)
      = transpose S50x25 [1, 0] (W4 m d (Proc.devRef .tc main_arg13) : S25x50.Idx → EReal) transposes_S25x50_S50x25_1_0 := by
    show StableHlo.after opsAfterEnv (W4 m d) (Proc.devRef .tc main_v38) = _
    after_results_simp <;> rfl
  rw [e, W4_arg m d main_arg13 (by decide)]
  exact transpose2_apply _ _ a b

/-- Second-layer biases as a column. -/
theorem v34_at (b : Fin 50) :
    (W5 m d (Proc.devRef .tc main_v34) : S50x1.Idx → EReal) (ix2 b (0 : Fin 1)) = arg8 m d (ix1 b) := by
  have e : (W5 m d (Proc.devRef .tc main_v34) : S50x1.Idx → EReal)
      = shapeCast S50x1 (W4 m d (Proc.devRef .tc main_arg8) : S50.Idx → EReal) shapeCasts_S50_S50x1 := by
    show StableHlo.after opsAfterEnv (W4 m d) (Proc.devRef .tc main_v34) = _
    after_results_simp <;> rfl
  rw [e, W4_arg m d main_arg8 (by decide)]
  exact col_of_vec _ _ b
theorem v39_at (b : Fin 50) :
    (W5 m d (Proc.devRef .tc main_v39) : S50x1.Idx → EReal) (ix2 b (0 : Fin 1)) = arg14 m d (ix1 b) := by
  have e : (W5 m d (Proc.devRef .tc main_v39) : S50x1.Idx → EReal)
      = shapeCast S50x1 (W4 m d (Proc.devRef .tc main_arg14) : S50.Idx → EReal) shapeCasts_S50_S50x1 := by
    show StableHlo.after opsAfterEnv (W4 m d) (Proc.devRef .tc main_v39) = _
    after_results_simp <;> rfl
  rw [e, W4_arg m d main_arg14 (by decide)]
  exact col_of_vec _ _ b

/-- Third-layer biases as a column. -/
theorem v35_at (c : Fin 100) :
    (W5 m d (Proc.devRef .tc main_v35) : S100x1.Idx → EReal) (ix2 c (0 : Fin 1)) = arg10 m d (ix1 c) := by
  have e : (W5 m d (Proc.devRef .tc main_v35) : S100x1.Idx → EReal)
      = shapeCast S100x1 (W4 m d (Proc.devRef .tc main_arg10) : S100.Idx → EReal) shapeCasts_S100_S100x1 := by
    show StableHlo.after opsAfterEnv (W4 m d) (Proc.devRef .tc main_v35) = _
    after_results_simp <;> rfl
  rw [e, W4_arg m d main_arg10 (by decide)]
  exact col_of_vec _ _ c
theorem v40_at (c : Fin 100) :
    (W5 m d (Proc.devRef .tc main_v40) : S100x1.Idx → EReal) (ix2 c (0 : Fin 1)) = arg16 m d (ix1 c) := by
  have e : (W5 m d (Proc.devRef .tc main_v40) : S100x1.Idx → EReal)
      = shapeCast S100x1 (W4 m d (Proc.devRef .tc main_arg16) : S100.Idx → EReal) shapeCasts_S100_S100x1 := by
    show StableHlo.after opsAfterEnv (W4 m d) (Proc.devRef .tc main_v40) = _
    after_results_simp <;> rfl
  rw [e, W4_arg m d main_arg16 (by decide)]
  exact col_of_vec _ _ c

/-- The joined third-layer weights of a [50, 100] array w: columns 0 … 49 its transpose, columns 50 … 74 the transposed sum
    of its rows a and 25 + a. -/
def joined (w : S50x100.Idx → EReal) : S100x75.Idx → EReal :=
  concatenate S100x75 1
    [⟨S100x50, transpose S100x50 [1, 0] w transposes_S50x100_S100x50_1_0⟩,
     ⟨S100x25, transpose S100x25 [1, 0]
        (addf (extractStridedSlice S25x100 ![0, 0] w slices_S50x100_S25x100_0_0 : FVec Ideal S25x100 .f32)
              (extractStridedSlice S25x100 ![25, 0] w slices_S50x100_S25x100_25_0))
        transposes_S25x100_S100x25_1_0⟩]
    concatenates_S100x50_S100x25_S100x75_d1

/-- Column b < 50 of row c of the joined weights: w[b, c]. -/
theorem joined_lo (w : S50x100.Idx → EReal) (c : Fin 100) (b : Fin 50) :
    joined w (ix2 c (⟨b.val, by have := b.isLt; omega⟩ : Fin 75)) = w (ix2 b c) := by
  unfold joined
  refine (concatenate_pair_apply_left (s₁ := S100x50) (s₂ := S100x25) (1 : Fin S100x75.rank) _ _ _ (ix2 c (⟨b.val, by have := b.isLt; omega⟩ : Fin 75)) rfl (ix2 c b)
    fun k => ?_).trans ?_
  · match k with
    | ⟨0, _⟩ => rfl
    | ⟨1, _⟩ => rfl
  · exact transpose2_apply _ _ b c

/-- Column 50 + a of row c of the joined weights: w[a, c] + w[25 + a, c]. -/
theorem joined_hi (w : S50x100.Idx → EReal) (c : Fin 100) (a : Fin 25) :
    joined w (ix2 c (⟨50 + a.val, by have := a.isLt; omega⟩ : Fin 75))
      = w (ix2 (Cert.Descr.lo a) c) + w (ix2 (Cert.Descr.hi a) c) := by
  unfold joined
  refine (concatenate_pair_apply_right (s₁ := S100x50) (s₂ := S100x25) (1 : Fin S100x75.rank) _ _ _ (ix2 c (⟨50 + a.val, by have := a.isLt; omega⟩ : Fin 75)) rfl rfl (ix2 c a)
    (fun k hk => ?_) ?_).trans ?_
  · match k with
    | ⟨0, _⟩ => rfl
    | ⟨1, _⟩ => exact absurd (Fin.ext rfl) hk
  · show a.val + 50 = 50 + a.val
    omega
  · rw [transpose2_apply _ _ a c]
    show (extractStridedSlice S25x100 ![0, 0] w slices_S50x100_S25x100_0_0 (ix2 a c) : EReal)
        + extractStridedSlice S25x100 ![25, 0] w slices_S50x100_S25x100_25_0 (ix2 a c) = _
    rw [rows_apply (o := 0) w _ a c (by have := a.isLt; omega), rows_apply (o := 25) w _ a c (by have := a.isLt; omega)]
    have e0 : (⟨0 + a.val, by have := a.isLt; omega⟩ : Fin 50) = Cert.Descr.lo a := Fin.ext (Nat.zero_add _)
    have e1 : (⟨25 + a.val, by have := a.isLt; omega⟩ : Fin 50) = Cert.Descr.hi a := rfl
    rw [e0, e1]

theorem v24_eq : (W5 m d (Proc.devRef .tc main_v24) : S100x75.Idx → EReal) = joined (arg9 m d) := by
  have e : (W5 m d (Proc.devRef .tc main_v24) : S100x75.Idx → EReal)
      = joined (W4 m d (Proc.devRef .tc main_arg9) : S50x100.Idx → EReal) := by
    show StableHlo.after opsAfterEnv (W4 m d) (Proc.devRef .tc main_v24) = _
    after_results_simp <;> rfl
  rw [e, W4_arg m d main_arg9 (by decide)]
theorem v30_eq : (W5 m d (Proc.devRef .tc main_v30) : S100x75.Idx → EReal) = joined (arg15 m d) := by
  have e : (W5 m d (Proc.devRef .tc main_v30) : S100x75.Idx → EReal)
      = joined (W4 m d (Proc.devRef .tc main_arg15) : S50x100.Idx → EReal) := by
    show StableHlo.after opsAfterEnv (W4 m d) (Proc.devRef .tc main_v30) = _
    after_results_simp <;> rfl
  rw [e, W4_arg m d main_arg15 (by decide)]

end Weights

/-! ## After the embedding kernel: the result -/

/-- Entry (0, i, c) of the result is entry (c, i) of the embedding kernel's output. -/
theorem v43_at (d : Dev nD) (i : Fin 8192) (c : Fin 100) :
    (W7 m d (Proc.devRef .tc main_v43) : S1x8192x100.Idx → EReal) (ix3 (0 : Fin 1) i c)
      = (W6 m d (Proc.devRef .tc main_v41) : S100x8192.Idx → EReal) (ix2 c i) := by
  have e : (W7 m d (Proc.devRef .tc main_v43) : S1x8192x100.Idx → EReal)
      = shapeCast S1x8192x100
          (transpose S8192x100 [1, 0] (W6 m d (Proc.devRef .tc main_v41) : S100x8192.Idx → EReal) transposes_S100x8192_S8192x100_1_0)
          shapeCasts_S8192x100_S1x8192x100 := by
    show StableHlo.after opsTail (W6 m d) (Proc.devRef .tc main_v43) = _
    after_results <;> rfl
  rw [e]
  refine (shapeCast_apply _ _ _ (ix2 i c) ?_).trans (transpose2_apply _ _ c i)
  rw [Shape.rowMajor_val_two, Shape.rowMajor_val_three]
  show i.val * 100 + c.val = (0 * 8192 + i.val) * 100 + c.val
  omega

end Cert.HostRead

end
-- ==== Proof.EnvValue.lean ====
import proofs.«205418_g46067819217304_cont_8to1_c_241_17_alg».proof.Proof.EnvRegion
import proofs.«205418_g46067819217304_cont_8to1_c_241_17_alg».proof.Proof.Descr
import Idealize.ShloMosaic.Lib.ValueIdx
import Idealize.ShloMosaic.Lib.ValueLayout
import Idealize.ShloMosaic.Lib.Pipeline.Value
import Idealize.ShloMosaic.Lib.StableHlo.Predicate

/-!
# The environment region's two result arrays, entry by entry

At the ideal instance every operation of the environment kernel is the extended reals' own, so the block the
kernel computes at a grid point is, entry by entry, the normalised environment entry of the descriptor: row r,
column j of the block depends only on row r of the three neighbour-coordinate blocks at column j, on row r of
the centre coordinates and of the type words, and on column j of the two tables, whose row is chosen by
whether the type word is zero. The 16 grid points' blocks of 512 rows tile the 8192 rows, so each result array
is one function of the arrays the region found: columns [0, 46) of the entries in the first, columns
[46, 138) in the second.
-/

set_option maxRecDepth 16384

noncomputable section

namespace Cert.EnvValue

open Cert.KernelIdeal Cert.KernelIdeal.Gen Cert.EnvRegion
open Idealize.ShloMosaic Idealize.ShloMosaic.TcCoe Idealize.ShloMosaic.ValueIdx
open Idealize.ShloMosaic.Pipeline (Dat)
open Idealize.SL Idealize.SL.RA
open Cert.Descr (envEntry dist innerMask outerMask midMask ramp quintic switchWeight envRaw indicator)

/-! ## Small facts about layout operations and words -/

/-- A column broadcast along the rows reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A select on "the word is zero" is the if on the word. -/
theorem select_cmpi_eq_zero {α : Type} (x : BitVec 32) (A B : α) :
    Scalar.select (IntOp.cmpi .eq x 0#32) A B = if x = 0#32 then A else B := by
  by_cases h : x = 0#32
  · rw [if_pos h, show IntOp.cmpi .eq x 0#32 = 1#1 from StableHlo.Predicate.cmpi_eq_iff.mpr h, select_one]
  · rw [if_neg h, eq_zero_of_ne_one (fun e => h (StableHlo.Predicate.cmpi_eq_iff.mp e)), select_zero]

/-- The same with the three operands known up to equations. -/
theorem select_congr {α : Type} {b : BitVec 1} {w : BitVec 32} {A B A' B' : α}
    (hb : b = IntOp.cmpi .eq w 0#32) (hA : A = A') (hB : B = B') :
    Scalar.select b A B = if w = 0#32 then A' else B' := by
  subst hb; subst hA; subst hB; exact select_cmpi_eq_zero w A B

/-! ## The loads of the body, read at an index -/

section Loads
variable {e : EltTy}

theorem ld_nbr (x : S512x138.Idx → Elt Ideal e) : View.ld x rNbr = x := View.ld_unit_zero hz2 _ x
theorem ld_ty (x : S512x1.Idx → Elt Ideal e) : View.ld x rTy = x := View.ld_unit_zero hz2 _ x

theorem ld_cx (x : S512x3.Idx → Elt Ideal e) (r : Fin 512) : View.ld x rCx (ix2 r (0 : Fin 1)) = x (ix2 r (0 : Fin 3)) :=
  congrArg x (funext fun a => Fin.ext (by
    match a with
    | ⟨0, _⟩ => show 0 + 1 * r.val = r.val; omega
    | ⟨1, _⟩ => rfl))
theorem ld_cy (x : S512x3.Idx → Elt Ideal e) (r : Fin 512) : View.ld x rCy (ix2 r (0 : Fin 1)) = x (ix2 r (1 : Fin 3)) :=
  congrArg x (funext fun a => Fin.ext (by
    match a with
    | ⟨0, _⟩ => show 0 + 1 * r.val = r.val; omega
    | ⟨1, _⟩ => rfl))
theorem ld_cz (x : S512x3.Idx → Elt Ideal e) (r : Fin 512) : View.ld x rCz (ix2 r (0 : Fin 1)) = x (ix2 r (2 : Fin 3)) :=
  congrArg x (funext fun a => Fin.ext (by
    match a with
    | ⟨0, _⟩ => show 0 + 1 * r.val = r.val; omega
    | ⟨1, _⟩ => rfl))
theorem ld_row0 (x : S2x138.Idx → Elt Ideal e) (j : Fin 138) : View.ld x rRow0 (ix2 (0 : Fin 1) j) = x (ix2 (0 : Fin 2) j) :=
  congrArg x (funext fun a => Fin.ext (by
    match a with
    | ⟨0, _⟩ => rfl
    | ⟨1, _⟩ => show 0 + 1 * j.val = j.val; omega))
theorem ld_row1 (x : S2x138.Idx → Elt Ideal e) (j : Fin 138) : View.ld x rRow1 (ix2 (0 : Fin 1) j) = x (ix2 (1 : Fin 2) j) :=
  congrArg x (funext fun a => Fin.ext (by
    match a with
    | ⟨0, _⟩ => rfl
    | ⟨1, _⟩ => show 0 + 1 * j.val = j.val; omega))

end Loads

/-! ## One entry: the descriptor's definitions met up to equations on the leaves -/

theorem dist_congr {a0 a1 a2 c0 c1 c2 x y z cx cy cz : EReal}
    (h0 : a0 = x) (g0 : c0 = cx) (h1 : a1 = y) (g1 : c1 = cy) (h2 : a2 = z) (g2 : c2 = cz) :
    Ideal.sqrt ((a0 - c0) * (a0 - c0) + (a1 - c1) * (a1 - c1) + (a2 - c2) * (a2 - c2)) = dist x y z cx cy cz := by
  subst h0; subst g0; subst h1; subst g1; subst h2; subst g2; rfl

theorem midMask_congr {i o len : EReal} (hi : i = innerMask len) (ho : o = outerMask len) :
    Ideal.ofBits .f32 0x3F800000#32
        - min (Ideal.ofBits .f32 0x3F800000#32) (max (Ideal.ofBits .f32 0x00000000#32) (i + o)) = midMask len := by
  subst hi; subst ho; rfl

theorem envRaw_congr {len inv inner mid L : EReal} (hl : len = L)
    (hinv : inv = Ideal.div (Ideal.ofBits .f32 0x3F800000#32) len) (hin : inner = innerMask len) (hm : mid = midMask len) :
    inv * (quintic (ramp len) * mid + inner) = envRaw L := by
  subst hl; subst hinv; subst hin; subst hm; rfl

theorem envEntry_congr {raw m s mean std x y z cx cy cz : EReal} (hr : raw = envRaw (dist x y z cx cy cz))
    (hm : m = mean) (hs : s = std) : Ideal.div (raw - m) s = envEntry x y z cx cy cz mean std := by
  subst hr; subst hm; subst hs; rfl

/-! ## The payloads of the body at an index (r, j) of the 512 × 138 block -/

section Payloads
variable (v0 v6 v12 : Vec Ideal S512x138 .f32) (v2 v8 v14 : Vec Ideal S512x1 .f32) (r : Fin 512) (j : Fin 138)

/-- A neighbour block's entry through its identity cast. -/
theorem nbr_at (v : Vec Ideal S512x138 .f32) :
    shapeCast S512x138 v shapeCasts_S512x138_S512x138 (ix2 r j) = v (ix2 r j) :=
  congrFun (shapeCast_self v _) _
/-- A centre column's entry, cast and broadcast along the 138 columns. -/
theorem ctr_at (v : Vec Ideal S512x1 .f32) :
    broadcastTo S512x138 (shapeCast S512x1 v shapeCasts_S512x1_S512x1) broadcasts_S512x1_S512x138 (ix2 r j) = v (ix2 r (0 : Fin 1)) :=
  (broadcastTo_a1_ab_apply _ _ r j).trans (congrFun (shapeCast_self v _) _)

/-- The distance. -/
theorem pay4_at : k1_pay4 v0 v2 v6 v8 v12 v14 (ix2 r j)
    = dist (v0 (ix2 r j)) (v6 (ix2 r j)) (v12 (ix2 r j)) (v2 (ix2 r 0)) (v8 (ix2 r 0)) (v14 (ix2 r 0)) :=
  dist_congr (nbr_at r j v0) (ctr_at r j v2) (nbr_at r j v6) (ctr_at r j v8) (nbr_at r j v12) (ctr_at r j v14)

/-- Its reciprocal. -/
theorem pay5_at : k1_pay5 v0 v2 v6 v8 v12 v14 (ix2 r j)
    = Ideal.div (Ideal.ofBits .f32 0x3F800000#32) (k1_pay4 v0 v2 v6 v8 v12 v14 (ix2 r j)) := rfl

/-- [len ≤ 1/2]: the comparison's bit widened and converted. -/
theorem pay6_at : k1_pay6 v0 v2 v6 v8 v12 v14 (ix2 r j) = innerMask (k1_pay4 v0 v2 v6 v8 v12 v14 (ix2 r j)) :=
  Cert.Descr.toInt_setWidth_eq_indicator _

/-- 1 − clip([len ≤ 1/2] + [len ≥ 6], 0, 1). -/
theorem pay7_at : k1_pay7 v0 v2 v6 v8 v12 v14 (ix2 r j) = midMask (k1_pay4 v0 v2 v6 v8 v12 v14 (ix2 r j)) :=
  midMask_congr (pay6_at v0 v6 v12 v2 v8 v14 r j) (Cert.Descr.toInt_setWidth_eq_indicator _)

/-- The raw entry, from the four blocks it is computed of. -/
theorem pay8_at (v23 v25 v29 v40 : FVec Ideal S512x138 .f32) : k1_pay8 v23 v25 v29 v40 (ix2 r j)
    = v25 (ix2 r j) * (quintic (ramp (v23 (ix2 r j))) * v40 (ix2 r j) + v29 (ix2 r j)) := rfl

end Payloads

/-! ## The entry block at (r, j), from the seven input blocks -/

section Entry
variable (x0 x1 x2 : Vec Ideal S512x138 .f32) (x3 : Vec Ideal S512x3 .f32) (x4 : Vec Ideal S512x1 .i32) (x5 x6 : Vec Ideal S2x138 .f32)

/-- The descriptor's entry of row `r`, column `j` of seven blocks. -/
def entryOf (r : Fin 512) (j : Fin 138) : EReal :=
  envEntry (x0 (ix2 r j)) (x1 (ix2 r j)) (x2 (ix2 r j)) (x3 (ix2 r 0)) (x3 (ix2 r 1)) (x3 (ix2 r 2))
    (if x4 (ix2 r 0) = 0#32 then x5 (ix2 0 j) else x5 (ix2 1 j))
    (if x4 (ix2 r 0) = 0#32 then x6 (ix2 0 j) else x6 (ix2 1 j))

variable (r : Fin 512) (j : Fin 138)

theorem lenBlk_at : lenBlk x0 x1 x2 x3 (ix2 r j)
    = dist (x0 (ix2 r j)) (x1 (ix2 r j)) (x2 (ix2 r j)) (x3 (ix2 r 0)) (x3 (ix2 r 1)) (x3 (ix2 r 2)) := by
  unfold lenBlk
  refine (pay4_at _ _ _ _ _ _ r j).trans ?_
  rw [ld_nbr, ld_nbr, ld_nbr, ld_cx, ld_cy, ld_cz]

theorem rawBlk_at : rawBlk x0 x1 x2 x3 (ix2 r j)
    = envRaw (dist (x0 (ix2 r j)) (x1 (ix2 r j)) (x2 (ix2 r j)) (x3 (ix2 r 0)) (x3 (ix2 r 1)) (x3 (ix2 r 2))) := by
  unfold rawBlk
  refine (pay8_at r j _ _ _ _).trans ?_
  exact envRaw_congr (lenBlk_at x0 x1 x2 x3 r j) (pay5_at _ _ _ _ _ _ r j) (pay6_at _ _ _ _ _ _ r j) (pay7_at _ _ _ _ _ _ r j)

/-- A table's row, cast and broadcast along the 512 rows. -/
theorem row_at (v : Vec Ideal S1x138 .f32) :
    broadcastTo S512x138 (shapeCast S1x138 v shapeCasts_S1x138_S1x138) broadcasts_S1x138_S512x138 (ix2 r j) = v (ix2 (0 : Fin 1) j) :=
  (broadcastTo_1b_ab_apply _ _ r j).trans (congrFun (shapeCast_self v _) _)

/-- The type test of row `r`, broadcast along the columns. -/
theorem isZero_at (v61 : Vec Ideal S512x1 .i32) :
    broadcastTo S512x138 (shapeCast S512x1 (k1_pay9 v61) shapeCasts_S512x1_S512x1) broadcasts_S512x1_S512x138 (ix2 r j)
      = IntOp.cmpi .eq (v61 (ix2 r (0 : Fin 1))) 0#32 :=
  (broadcastTo_a1_ab_apply _ _ r j).trans ((congrFun (shapeCast_self (k1_pay9 v61) _) _).trans
    (congrArg (fun w => IntOp.cmpi .eq w 0#32) (congrFun (shapeCast_self v61 shapeCasts_S512x1_S512x1) _)))

/-- The selected mean. -/
theorem pay10_at (v61 : Vec Ideal S512x1 .i32) (v65 v67 : Vec Ideal S1x138 .f32) : k1_pay10 v61 v65 v67 (ix2 r j)
    = if v61 (ix2 r (0 : Fin 1)) = 0#32 then v65 (ix2 (0 : Fin 1) j) else v67 (ix2 (0 : Fin 1) j) :=
  select_congr (isZero_at r j v61)
    ((row_at r j _).trans (congrFun (shapeCast_self v65 _) _))
    ((row_at r j _).trans (congrFun (shapeCast_self v67 _) _))

/-- The selected standard deviation, as the last payload spells it. -/
theorem std_at (v61 : Vec Ideal S512x1 .i32) (v76 v78 : Vec Ideal S1x138 .f32) :
    Scalar.select (k1_pay12 v61 (ix2 r j)) (k1_pay13 v76 (ix2 r j))
        (broadcastTo S512x138 (shapeCast S1x138 (k1_pay11 v78) shapeCasts_S1x138_S1x138) broadcasts_S1x138_S512x138 (ix2 r j))
      = if v61 (ix2 r (0 : Fin 1)) = 0#32 then v76 (ix2 (0 : Fin 1) j) else v78 (ix2 (0 : Fin 1) j) :=
  select_congr (isZero_at r j v61)
    ((row_at r j _).trans (congrFun (shapeCast_self v76 _) _))
    ((row_at r j _).trans (congrFun (shapeCast_self v78 _) _))

/-- The last payload: (raw − mean) / std. -/
theorem pay1_at (v60 v75 : FVec Ideal S512x138 .f32) (v79 : FVec Ideal S1x138 .f32) (v81 : IVec S512x138 1) (v83 : FVec Ideal S512x138 .f32) :
    k1_pay1 v60 v75 v79 v81 v83 (ix2 r j)
      = Ideal.div (v60 (ix2 r j) - v75 (ix2 r j))
          (Scalar.select (v81 (ix2 r j)) (v83 (ix2 r j))
            (broadcastTo S512x138 (shapeCast S1x138 v79 shapeCasts_S1x138_S1x138) broadcasts_S1x138_S512x138 (ix2 r j))) := rfl

/-- THE ENTRY BLOCK AT (r, j) is the descriptor's entry of the input blocks there. -/
theorem dmBlk_at : dmBlk x0 x1 x2 x3 x4 x5 x6 (ix2 r j) = entryOf x0 x1 x2 x3 x4 x5 x6 r j := by
  unfold dmBlk entryOf
  refine (pay1_at r j _ _ _ _ _).trans ?_
  refine envEntry_congr (rawBlk_at x0 x1 x2 x3 r j) ?_ ?_
  · refine (pay10_at r j _ _ _).trans ?_
    rw [ld_ty, ld_row0, ld_row1]
  · refine (std_at r j _ _ _).trans ?_
    rw [ld_ty, ld_row0, ld_row1]

/-- Its first 46 columns … -/
theorem loBlk_at (y : S512x46.Idx) : loBlk x0 x1 x2 x3 x4 x5 x6 y
    = entryOf x0 x1 x2 x3 x4 x5 x6 ⟨(y 0).val, idx2_lt0 y⟩ ⟨0 + (y 1).val, by have := idx2_lt1 y; omega⟩ := by
  obtain ⟨p, q, rfl⟩ : ∃ (p : Fin 512) (q : Fin 46), y = ix2 p q := ⟨y 0, y 1, eq_ix2 y⟩
  refine (slice2_axis1_eq 0 (dmBlk x0 x1 x2 x3 x4 x5 x6) slices_S512x138_o0_0_S512x46 p q).trans ?_
  exact dmBlk_at x0 x1 x2 x3 x4 x5 x6 p _

/-- … and its last 92. -/
theorem hiBlk_at (y : S512x92.Idx) : hiBlk x0 x1 x2 x3 x4 x5 x6 y
    = entryOf x0 x1 x2 x3 x4 x5 x6 ⟨(y 0).val, idx2_lt0 y⟩ ⟨46 + (y 1).val, by have := idx2_lt1 y; omega⟩ := by
  obtain ⟨p, q, rfl⟩ : ∃ (p : Fin 512) (q : Fin 92), y = ix2 p q := ⟨y 0, y 1, eq_ix2 y⟩
  refine (slice2_axis1_eq 46 (dmBlk x0 x1 x2 x3 x4 x5 x6) slices_S512x138_o0_46_S512x92 p q).trans ?_
  exact dmBlk_at x0 x1 x2 x3 x4 x5 x6 p _

end Entry

/-! ## From blocks to the arrays -/

section Arrays

variable {Ix : Type} [DecidableEq Ix] {Name : Type} [DecidableEq Name] {U : Type} [URA U] {Lvl : Type} [Preorder Lvl]
variable (V : (c : Dev nD) → (b : Ref sig .tc) → Buf (Elt Ideal) ((c : Thread nD τ).loc b))
variable (B : Set (SemLoc sig × Ix))

local notation "dat₀" => dat0 (F := Ideal) (Name := Name) (U := U) (Lvl := Lvl) V B

/-- The seven input arrays as the region finds them, each at its literal shape. -/
abbrev nbrX (c : Dev nD) : S8192x138.Idx → EReal := V c main_v3
abbrev nbrY (c : Dev nD) : S8192x138.Idx → EReal := V c main_v4
abbrev nbrZ (c : Dev nD) : S8192x138.Idx → EReal := V c main_v5
abbrev ctr (c : Dev nD) : S8192x3.Idx → EReal := V c main_v7
abbrev typ (c : Dev nD) : S8192x1.Idx → BitVec 32 := V c main_v9
abbrev avg (c : Dev nD) : S2x138.Idx → EReal := V c main_v10
abbrev dev (c : Dev nD) : S2x138.Idx → EReal := V c main_v11

/-- Entry (i, j) of the normalised environment matrix of the arrays the region finds: the descriptor's entry of
    neighbour slot j of atom i, its centre atom i, and the mean and standard deviation of column j in the row
    the atom's type word selects (row 0 for the zero word, row 1 otherwise). -/
def dmEntry (c : Dev nD) (i : Fin 8192) (j : Fin 138) : EReal :=
  envEntry (nbrX V c (ix2 i j)) (nbrY V c (ix2 i j)) (nbrZ V c (ix2 i j)) (ctr V c (ix2 i 0)) (ctr V c (ix2 i 1)) (ctr V c (ix2 i 2))
    (if typ V c (ix2 i 0) = 0#32 then avg V c (ix2 0 j) else avg V c (ix2 1 j))
    (if typ V c (ix2 i 0) = 0#32 then dev V c (ix2 0 j) else dev V c (ix2 1 j))

/-- The first result array: columns [0, 46). -/
def Glo (c : Dev nD) : S8192x46.Idx → EReal :=
  fun y => dmEntry V c ⟨(y 0).val, idx2_lt0 y⟩ ⟨0 + (y 1).val, by have := idx2_lt1 y; omega⟩
/-- The second: columns [46, 138). -/
def Ghi (c : Dev nD) : S8192x92.Idx → EReal :=
  fun y => dmEntry V c ⟨(y 0).val, idx2_lt0 y⟩ ⟨46 + (y 1).val, by have := idx2_lt1 y; omega⟩

/-- The printed index maps over the 16 grid points: the five row-blocked inputs and the two outputs sit at row block
    `t` and column block 0; the two tables at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

variable (c : Dev nD) (t : Fin cfg1.N)

/-- An input block's entry is its array's entry `t` row blocks down. -/
theorem blk0_at (p : Fin 512) (q : Fin 138) (R : Fin 8192) (hR : R.val = t.val * 512 + p.val) :
    iblk V c 0 t (ix2 p q) = nbrX V c (ix2 R q) := by
  obtain ⟨e0, e1, -⟩ := idx_facts t
  show V c main_v3 (((cfg1.win 0).blk t).view.emb (ix2 p q)) = V c main_v3 (ix2 R q)
  refine congrArg (V c main_v3) (funext fun a => Fin.ext ?_)
  match a with
  | ⟨0, _⟩ => show win1_0.index t (0 : Fin 2) * 512 + 1 * p.val = R.val; omega
  | ⟨1, _⟩ => show win1_0.index t (1 : Fin 2) * 138 + 1 * q.val = q.val; omega
theorem blk1_at (p : Fin 512) (q : Fin 138) (R : Fin 8192) (hR : R.val = t.val * 512 + p.val) :
    iblk V c 1 t (ix2 p q) = nbrY V c (ix2 R q) := by
  obtain ⟨-, -, e0, e1, -⟩ := idx_facts t
  show V c main_v4 (((cfg1.win 1).blk t).view.emb (ix2 p q)) = V c main_v4 (ix2 R q)
  refine congrArg (V c main_v4) (funext fun a => Fin.ext ?_)
  match a with
  | ⟨0, _⟩ => show win1_1.index t (0 : Fin 2) * 512 + 1 * p.val = R.val; omega
  | ⟨1, _⟩ => show win1_1.index t (1 : Fin 2) * 138 + 1 * q.val = q.val; omega
theorem blk2_at (p : Fin 512) (q : Fin 138) (R : Fin 8192) (hR : R.val = t.val * 512 + p.val) :
    iblk V c 2 t (ix2 p q) = nbrZ V c (ix2 R q) := by
  obtain ⟨-, -, -, -, e0, e1, -⟩ := idx_facts t
  show V c main_v5 (((cfg1.win 2).blk t).view.emb (ix2 p q)) = V c main_v5 (ix2 R q)
  refine congrArg (V c main_v5) (funext fun a => Fin.ext ?_)
  match a with
  | ⟨0, _⟩ => show win1_2.index t (0 : Fin 2) * 512 + 1 * p.val = R.val; omega
  | ⟨1, _⟩ => show win1_2.index t (1 : Fin 2) * 138 + 1 * q.val = q.val; omega
theorem blk3_at (p : Fin 512) (q : Fin 3) (R : Fin 8192) (hR : R.val = t.val * 512 + p.val) :
    iblk V c 3 t (ix2 p q) = ctr V c (ix2 R q) := by
  obtain ⟨-, -, -, -, -, -, e0, e1, -⟩ := idx_facts t
  show V c main_v7 (((cfg1.win 3).blk t).view.emb (ix2 p q)) = V c main_v7 (ix2 R q)
  refine congrArg (V c main_v7) (funext fun a => Fin.ext ?_)
  match a with
  | ⟨0, _⟩ => show win1_3.index t (0 : Fin 2) * 512 + 1 * p.val = R.val; omega
  | ⟨1, _⟩ => show win1_3.index t (1 : Fin 2) * 3 + 1 * q.val = q.val; omega
theorem blk4_at (p : Fin 512) (q : Fin 1) (R : Fin 8192) (hR : R.val = t.val * 512 + p.val) :
    iblk V c 4 t (ix2 p q) = typ V c (ix2 R q) := by
  obtain ⟨-, -, -, -, -, -, -, -, e0, e1, -⟩ := idx_facts t
  show V c main_v9 (((cfg1.win 4).blk t).view.emb (ix2 p q)) = V c main_v9 (ix2 R q)
  refine congrArg (V c main_v9) (funext fun a => Fin.ext ?_)
  match a with
  | ⟨0, _⟩ => show win1_4.index t (0 : Fin 2) * 512 + 1 * p.val = R.val; omega
  | ⟨1, _⟩ => show win1_4.index t (1 : Fin 2) * 1 + 1 * q.val = q.val; omega
/-- A table's block is the table. -/
theorem blk5_at (p : Fin 2) (q : Fin 138) : iblk V c 5 t (ix2 p q) = avg V c (ix2 p q) := by
  obtain ⟨-, -, -, -, -, -, -, -, -, -, e0, e1, -⟩ := idx_facts t
  show V c main_v10 (((cfg1.win 5).blk t).view.emb (ix2 p q)) = V c main_v10 (ix2 p q)
  refine congrArg (V c main_v10) (funext fun a => Fin.ext ?_)
  match a with
  | ⟨0, _⟩ => show win1_5.index t (0 : Fin 2) * 2 + 1 * p.val = p.val; omega
  | ⟨1, _⟩ => show win1_5.index t (1 : Fin 2) * 138 + 1 * q.val = q.val; omega
theorem blk6_at (p : Fin 2) (q : Fin 138) : iblk V c 6 t (ix2 p q) = dev V c (ix2 p q) := by
  obtain ⟨-, -, -, -, -, -, -, -, -, -, -, -, e0, e1, -⟩ := idx_facts t
  show V c main_v11 (((cfg1.win 6).blk t).view.emb (ix2 p q)) = V c main_v11 (ix2 p q)
  refine congrArg (V c main_v11) (funext fun a => Fin.ext ?_)
  match a with
  | ⟨0, _⟩ => show win1_6.index t (0 : Fin 2) * 2 + 1 * p.val = p.val; omega
  | ⟨1, _⟩ => show win1_6.index t (1 : Fin 2) * 138 + 1 * q.val = q.val; omega

/-- The descriptor's entry of the seven blocks at point `t` is the matrix entry `t` row blocks down. -/
theorem entryOf_blocks (p : Fin 512) (q : Fin 138) (R : Fin 8192) (hR : R.val = t.val * 512 + p.val) :
    entryOf (iblk V c 0 t) (iblk V c 1 t) (iblk V c 2 t) (iblk V c 3 t) (iblk V c 4 t) (iblk V c 5 t) (iblk V c 6 t) p q
      = dmEntry V c R q := by
  unfold entryOf dmEntry
  rw [blk0_at V c t p q R hR, blk1_at V c t p q R hR, blk2_at V c t p q R hR, blk3_at V c t p 0 R hR, blk3_at V c t p 1 R hR,
    blk3_at V c t p 2 R hR, blk4_at V c t p 0 R hR, blk5_at V c t 0 q, blk5_at V c t 1 q, blk6_at V c t 0 q, blk6_at V c t 1 q]

/-- WHAT POINT `t` WRITES BACK to the first result array is block `t` of `Glo`. -/
theorem flushed_lo : (dat₀ c).flushed 7 t = ((cfg1.win 7).blk t).view.read (Elt Ideal) (Glo V c) := by
  show (cfg1.win 7).cut (grid1.coords t) ((dat₀ c).after 7 t) = _
  rw [after_7, outLo_eq]
  obtain ⟨-, -, -, -, -, -, -, -, -, -, -, -, -, -, e0, e1, -⟩ := idx_facts t
  funext y
  show loBlk (iblk V c 0 t) (iblk V c 1 t) (iblk V c 2 t) (iblk V c 3 t) (iblk V c 4 t) (iblk V c 5 t) (iblk V c 6 t) y
    = Glo V c (((cfg1.win 7).blk t).view.emb y)
  refine (loBlk_at (iblk V c 0 t) (iblk V c 1 t) (iblk V c 2 t) (iblk V c 3 t) (iblk V c 4 t) (iblk V c 5 t) (iblk V c 6 t) y).trans ?_
  unfold Glo
  have hy0 : (y 0).val < 512 := (y 0).isLt
  have hy1 : (y 1).val < 46 := (y 1).isLt
  have h0 : ((((cfg1.win 7).blk t).view.emb y) 0).val = t.val * 512 + (y 0).val := by
    show win1_7.index t (0 : Fin 2) * 512 + 1 * (y 0).val = _; omega
  have h1 : ((((cfg1.win 7).blk t).view.emb y) 1).val = (y 1).val := by
    show win1_7.index t (1 : Fin 2) * 46 + 1 * (y 1).val = _; omega
  refine (entryOf_blocks V c t _ _ ⟨t.val * 512 + (y 0).val, by have ht : t.val < 16 := lt_of_lt_of_eq t.isLt N_1; omega⟩ rfl).trans ?_
  exact congrArg₂ (dmEntry V c) (Fin.ext h0.symm) (Fin.ext (by show 0 + (y 1).val = 0 + _; rw [h1]))

/-- And to the second, block `t` of `Ghi`. -/
theorem flushed_hi : (dat₀ c).flushed 8 t = ((cfg1.win 8).blk t).view.read (Elt Ideal) (Ghi V c) := by
  show (cfg1.win 8).cut (grid1.coords t) ((dat₀ c).after 8 t) = _
  rw [after_8, outHi_eq]
  obtain ⟨-, -, -, -, -, -, -, -, -, -, -, -, -, -, -, -, e0, e1⟩ := idx_facts t
  funext y
  show hiBlk (iblk V c 0 t) (iblk V c 1 t) (iblk V c 2 t) (iblk V c 3 t) (iblk V c 4 t) (iblk V c 5 t) (iblk V c 6 t) y
    = Ghi V c (((cfg1.win 8).blk t).view.emb y)
  refine (hiBlk_at (iblk V c 0 t) (iblk V c 1 t) (iblk V c 2 t) (iblk V c 3 t) (iblk V c 4 t) (iblk V c 5 t) (iblk V c 6 t) y).trans ?_
  unfold Ghi
  have hy0 : (y 0).val < 512 := (y 0).isLt
  have hy1 : (y 1).val < 92 := (y 1).isLt
  have h0 : ((((cfg1.win 8).blk t).view.emb y) 0).val = t.val * 512 + (y 0).val := by
    show win1_8.index t (0 : Fin 2) * 512 + 1 * (y 0).val = _; omega
  have h1 : ((((cfg1.win 8).blk t).view.emb y) 1).val = (y 1).val := by
    show win1_8.index t (1 : Fin 2) * 92 + 1 * (y 1).val = _; omega
  refine (entryOf_blocks V c t _ _ ⟨t.val * 512 + (y 0).val, by have ht : t.val < 16 := lt_of_lt_of_eq t.isLt N_1; omega⟩ rfl).trans ?_
  exact congrArg₂ (dmEntry V c) (Fin.ext h0.symm) (Fin.ext (by show 46 + (y 1).val = 46 + _; rw [h1]))

/-- An index of a result array is in point `t`'s block iff each coordinate is in the block's range on its axis. -/
theorem mem_blk_lo (i : S8192x46.Idx) :
    i ∈ ((cfg1.win 7).blk t).view.set ↔ ∀ a : Fin 2, win1_7.index t a * S512x46.size a ≤ (i a).val ∧ (i a).val < win1_7.index t a * S512x46.size a + S512x46.size a := by
  show i ∈ ((View.whole main_v12_0).slice (win1_7.rect t)).set ↔ _
  rw [View.set_slice_whole, Rect.mem_set_unit]
  exact Iff.rfl
theorem mem_blk_hi (i : S8192x92.Idx) :
    i ∈ ((cfg1.win 8).blk t).view.set ↔ ∀ a : Fin 2, win1_8.index t a * S512x92.size a ≤ (i a).val ∧ (i a).val < win1_8.index t a * S512x92.size a + S512x92.size a := by
  show i ∈ ((View.whole main_v12_1).slice (win1_8.rect t)).set ↔ _
  rw [View.set_slice_whole, Rect.mem_set_unit]
  exact Iff.rfl

end Arrays

/-! ## The two result arrays after the region -/

section Final

variable {Ix : Type} [DecidableEq Ix] {Name : Type} [DecidableEq Name] {U : Type} [URA U] {Lvl : Type} [Preorder Lvl]
variable (V : (c : Dev nD) → (b : Ref sig .tc) → Buf (Elt Ideal) ((c : Thread nD τ).loc b))
variable (B : Set (SemLoc sig × Ix)) (c : Dev nD)

local notation "dat₀" => dat0 (F := Ideal) (Name := Name) (U := U) (Lvl := Lvl) V B

/-- The grid point whose block holds row `n`. -/
def pointOf (n : Nat) (hn : n < 8192) : Fin cfg1.N := ⟨n / 512, by rw [show cfg1.N = 16 from N_1]; omega⟩

/-- Every entry of the first result array is in some written-back block: the 16 blocks of 512 rows tile the rows. -/
theorem cover_lo (i : S8192x46.Idx) : ∃ t : Fin cfg1.N, (cfg1.win 7).flush t = true ∧ i ∈ ((cfg1.win 7).blk t).view.set := by
  have hi0 : (i 0).val < 8192 := idx2_lt0 i
  have hi1 : (i 1).val < 46 := idx2_lt1 i
  refine ⟨pointOf (i 0).val hi0, flush1_7 _, ?_⟩
  obtain ⟨-, -, -, -, -, -, -, -, -, -, -, -, -, -, e0, e1, -⟩ := idx_facts (pointOf (i 0).val hi0)
  have ht : (pointOf (i 0).val hi0).val = (i 0).val / 512 := rfl
  rw [mem_blk_lo]
  intro a
  match a with
  | ⟨0, _⟩ =>
    show win1_7.index (pointOf (i 0).val hi0) (0 : Fin 2) * 512 ≤ (i 0).val ∧ (i 0).val < win1_7.index (pointOf (i 0).val hi0) (0 : Fin 2) * 512 + 512
    omega
  | ⟨1, _⟩ =>
    show win1_7.index (pointOf (i 0).val hi0) (1 : Fin 2) * 46 ≤ (i 1).val ∧ (i 1).val < win1_7.index (pointOf (i 0).val hi0) (1 : Fin 2) * 46 + 46
    omega

theorem cover_hi (i : S8192x92.Idx) : ∃ t : Fin cfg1.N, (cfg1.win 8).flush t = true ∧ i ∈ ((cfg1.win 8).blk t).view.set := by
  have hi0 : (i 0).val < 8192 := idx2_lt0 i
  have hi1 : (i 1).val < 92 := idx2_lt1 i
  refine ⟨pointOf (i 0).val hi0, flush1_8 _, ?_⟩
  obtain ⟨-, -, -, -, -, -, -, -, -, -, -, -, -, -, -, -, e0, e1⟩ := idx_facts (pointOf (i 0).val hi0)
  have ht : (pointOf (i 0).val hi0).val = (i 0).val / 512 := rfl
  rw [mem_blk_hi]
  intro a
  match a with
  | ⟨0, _⟩ =>
    show win1_8.index (pointOf (i 0).val hi0) (0 : Fin 2) * 512 ≤ (i 0).val ∧ (i 0).val < win1_8.index (pointOf (i 0).val hi0) (0 : Fin 2) * 512 + 512
    omega
  | ⟨1, _⟩ =>
    show win1_8.index (pointOf (i 0).val hi0) (1 : Fin 2) * 92 ≤ (i 1).val ∧ (i 1).val < win1_8.index (pointOf (i 0).val hi0) (1 : Fin 2) * 92 + 92
    omega

/-- THE FIRST RESULT ARRAY after the region: entry (i, j) is matrix entry (i, j), j < 46. -/
theorem value_lo : (dat₀ c).arrAt 7 cfg1.N = Glo V c :=
  (dat₀ c).arrAt_eq_of_cover 7 (Glo V c) (fun t _ => flushed_lo V B c t) cover_lo

/-- THE SECOND: entry (i, j) is matrix entry (i, 46 + j), j < 92. -/
theorem value_hi : (dat₀ c).arrAt 8 cfg1.N = Ghi V c :=
  (dat₀ c).arrAt_eq_of_cover 8 (Ghi V c) (fun t _ => flushed_hi V B c t) cover_hi

end Final

end Cert.EnvValue

end
-- ==== Proof.MlpLayout.lean ====
import Idealize.ShloMosaic.Lib.ValueIdx
import Idealize.ShloMosaic.Lib.Pipeline.Value
import Idealize.ShloMosaic.PureOps.Ideal.Laws
import Mathlib.Algebra.BigOperators.Fin
import Mathlib.Algebra.BigOperators.Intervals

/-!
# Reading two-axis vectors column block by column block

The embedding kernel keeps, for each layer, one wide vector whose columns are 46 (or 92) blocks of 128 atoms, slot after
slot, cuts it into its 128-column blocks and adds the blocks up pairwise. Read at one feature row and one atom, such
a tree of additions is the sum over the slots of the wide vector at column 128 · slot + atom. The lemmas here read a
column block, a broadcast column, a stack of row blocks and the doubled and fourfold stacks at an index, and turn a
sum over slots into a sum over a range of natural numbers, so that a tree of additions and the range sum can be
compared term by term.
-/

noncomputable section

namespace Cert.MlpLayout

open Idealize.ShloMosaic Idealize.ShloMosaic.ValueIdx
open scoped BigOperators

/-! ## A row read at a natural-number column -/

/-- Entry (r, n) of a two-axis vector, 0 past the last column. -/
def rowAt {n0 N : Nat} (v : (⟨2, ![n0, N]⟩ : Shape).Idx → EReal) (r : Fin n0) (n : Nat) : EReal :=
  if h : n < N then v (ix2 r ⟨n, h⟩) else 0

theorem rowAt_of_lt {n0 N : Nat} (v : (⟨2, ![n0, N]⟩ : Shape).Idx → EReal) (r : Fin n0) (n : Nat) (h : n < N) :
    rowAt v r n = v (ix2 r ⟨n, h⟩) := dif_pos h

/-- The 128-column block starting at column o, read at (r, a), is the vector at column o + a. -/
theorem slice_cols {n0 N : Nat} (o : Nat) (v : (⟨2, ![n0, N]⟩ : Shape).Idx → EReal)
    (h : (⟨2, ![n0, N]⟩ : Shape).Slices ![0, o] ⟨2, ![n0, 128]⟩) (r : Fin n0) (a : Fin 128) :
    extractStridedSlice ⟨2, ![n0, 128]⟩ ![0, o] v h (ix2 r a) = rowAt v r (o + a.val) := by
  have hb : o + 128 ≤ N := h.2 1
  have hlt : o + a.val < N := by have := a.isLt; omega
  rw [rowAt_of_lt v r _ hlt]
  refine extractStridedSlice_apply _ v h _ _ fun b => ?_
  match b with
  | ⟨0, _⟩ => exact (Nat.zero_add _).symm
  | ⟨1, _⟩ => rfl

/-- The sum over m slots of the vector at column 128 · slot + a, as a sum over a range. -/
theorem sum_slots {n0 N : Nat} (v : (⟨2, ![n0, N]⟩ : Shape).Idx → EReal) (r : Fin n0) (a : Fin 128) (m : Nat)
    (hm : 128 * m ≤ N) :
    ∑ j : Fin m, v (ix2 r ⟨128 * j.val + a.val, by have := j.isLt; have := a.isLt; omega⟩)
      = ∑ j ∈ Finset.range m, rowAt v r (128 * j + a.val) := by
  rw [← Fin.sum_univ_eq_sum_range (fun j => rowAt v r (128 * j + a.val)) m]
  exact Finset.sum_congr rfl fun j _ => (rowAt_of_lt v r _ _).symm

/-! ## A broadcast column, and stacks of row blocks -/

/-- A column vector broadcast along the columns, read at (r, k), is the column at r. -/
theorem bcast_col {n0 N : Nat} (b : (⟨2, ![n0, 1]⟩ : Shape).Idx → EReal)
    (h : (⟨2, ![n0, 1]⟩ : Shape).Broadcasts ⟨2, ![n0, N]⟩) (hn : n0 ≠ 1) (r : Fin n0) (k : Fin N) :
    broadcastTo ⟨2, ![n0, N]⟩ b h (ix2 r k) = b (ix2 r 0) := by
  refine broadcastTo_apply b h _ _ fun a => ?_
  match a with
  | ⟨0, _⟩ => exact (if_neg hn).symm
  | ⟨1, _⟩ => exact (if_pos rfl).symm

/-- Fifty rows stacked on twenty-five: row q of the stack is row q of the first block for q < 50, and row q - 50 of the
    second block from there on. -/
theorem stack75 {N : Nat} (A : (⟨2, ![50, N]⟩ : Shape).Idx → EReal) (Bv : (⟨2, ![25, N]⟩ : Shape).Idx → EReal)
    (h : Shape.Concatenates [(⟨2, ![50, N]⟩ : Shape), ⟨2, ![25, N]⟩] ⟨2, ![75, N]⟩ 0) (c : Fin N) :
    (∀ b : Fin 50, concatenate ⟨2, ![75, N]⟩ 0 [⟨⟨2, ![50, N]⟩, A⟩, ⟨⟨2, ![25, N]⟩, Bv⟩] h (ix2 ⟨b.val, by omega⟩ c) = A (ix2 b c))
      ∧ ∀ a : Fin 25, concatenate ⟨2, ![75, N]⟩ 0 [⟨⟨2, ![50, N]⟩, A⟩, ⟨⟨2, ![25, N]⟩, Bv⟩] h (ix2 ⟨50 + a.val, by omega⟩ c) = Bv (ix2 a c) := by
  constructor
  · intro b
    refine concatenate_pair_apply_left 0 A Bv h _ rfl (ix2 b c) fun d => ?_
    match d with
    | ⟨0, _⟩ => rfl
    | ⟨1, _⟩ => rfl
  · intro a
    refine concatenate_pair_apply_right 0 A Bv h _ rfl rfl (ix2 a c) (fun d hd => ?_) (Nat.add_comm _ _)
    match d, hd with
    | ⟨0, _⟩, hd => exact absurd rfl hd
    | ⟨1, _⟩, _ => rfl

/-- A block of fifty rows stacked on itself: row k of the stack is row k mod 50 of the block. -/
theorem stack_twice (v : (⟨2, ![50, 128]⟩ : Shape).Idx → EReal)
    (h : Shape.Concatenates [(⟨2, ![50, 128]⟩ : Shape), ⟨2, ![50, 128]⟩] ⟨2, ![100, 128]⟩ 0) (k : Fin 100) (a : Fin 128) :
    concatenate ⟨2, ![100, 128]⟩ 0 [⟨⟨2, ![50, 128]⟩, v⟩, ⟨⟨2, ![50, 128]⟩, v⟩] h (ix2 k a)
      = v (ix2 ⟨k.val % 50, Nat.mod_lt _ (by decide)⟩ a) := by
  refine concatenate_replicate_apply (t := ⟨2, ![100, 128]⟩) (s₁ := ⟨2, ![50, 128]⟩) 0 2 v h rfl (ix2 k a) _ rfl fun d hd => ?_
  match d, hd with
  | ⟨0, _⟩, hd => exact absurd rfl hd
  | ⟨1, _⟩, _ => rfl

/-- A block of twenty-five rows stacked four times: row k of the stack is row k mod 25 of the block. -/
theorem stack_four (v : (⟨2, ![25, 128]⟩ : Shape).Idx → EReal)
    (h : Shape.Concatenates [(⟨2, ![25, 128]⟩ : Shape), ⟨2, ![25, 128]⟩, ⟨2, ![25, 128]⟩, ⟨2, ![25, 128]⟩] ⟨2, ![100, 128]⟩ 0)
    (k : Fin 100) (a : Fin 128) :
    concatenate ⟨2, ![100, 128]⟩ 0 [⟨⟨2, ![25, 128]⟩, v⟩, ⟨⟨2, ![25, 128]⟩, v⟩, ⟨⟨2, ![25, 128]⟩, v⟩, ⟨⟨2, ![25, 128]⟩, v⟩] h (ix2 k a)
      = v (ix2 ⟨k.val % 25, Nat.mod_lt _ (by decide)⟩ a) := by
  refine concatenate_replicate_apply (t := ⟨2, ![100, 128]⟩) (s₁ := ⟨2, ![25, 128]⟩) 0 4 v h rfl (ix2 k a) _ rfl fun d hd => ?_
  match d, hd with
  | ⟨0, _⟩, hd => exact absurd rfl hd
  | ⟨1, _⟩, _ => rfl

end Cert.MlpLayout

end
-- ==== Proof.MlpValue.lean ====
import proofs.«205418_g46067819217304_cont_8to1_c_241_17_alg».proof.Proof.MlpRegion
import proofs.«205418_g46067819217304_cont_8to1_c_241_17_alg».proof.Proof.MlpLayout
import proofs.«205418_g46067819217304_cont_8to1_c_241_17_alg».proof.Proof.Descr
import Idealize.ShloMosaic.Lib.Pipeline.Value
import Idealize.ShloMosaic.Lib.ValueIdx
import Idealize.ShloMosaic.PureOps.Ideal.Laws
import Idealize.ShloMosaic.PureOps.IdealRules
import Mathlib.Tactic.FinCases

/-!
# What the embedding kernel stores, as extended reals

Entry (k, a) of the block stored at a grid point is, for feature k and the point's atom a, the scaled sum over all 138
neighbour slots of the slot's third-layer feature, plus the second-layer sum at k mod 50 and the first-layer sum at
k mod 25: the rearranged network output of the specification. The steps: each matrix product read at an index is a
plain sum over its contraction index; each layer of each slot type at (row, column) is tanh of such a sum plus a
bias; a pairwise tree of additions of column blocks is the sum over the slots; the two stacked copies and the four
stacked copies read at row k are the summed layers at k mod 50 and k mod 25. Then the blocks are laid into the
whole array: the point that holds atom n is n / 128.
-/

set_option maxRecDepth 16384

noncomputable section

namespace Cert.MlpRegion

open Idealize.ShloMosaic Idealize.ShloMosaic.TcCoe Idealize.ShloMosaic.ValueIdx
open Idealize.ShloMosaic.Pipeline (Dat)
open Cert.KernelIdeal Cert.KernelIdeal.Gen Cert.MlpLayout
open scoped BigOperators

/-! ## The matrix products at an index

Each product contracts the one column axis of its left factor with the one row axis of its right factor, into a zero
accumulator: at (p, c) it is the sum over k of left (p, k) times right (k, c). -/

theorem lhs_mm1a_0 (i : S25x5888.Idx) (q : dot_S25x1_S1x5888_S25x5888_1_0_0_1_n_n.contr.Idx) : (dot_S25x1_S1x5888_S25x5888_1_0_0_1_n_n.lhsIdx i q 0).val = (i 0).val := by
  unfold DotDims.lhsIdx
  rw [dif_neg (show ¬(0 : Fin S25x1.rank) ∈ dot_S25x1_S1x5888_S25x5888_1_0_0_1_n_n.lhsBatch by decide), dif_pos (show (0 : Fin S25x1.rank) ∈ dot_S25x1_S1x5888_S25x5888_1_0_0_1_n_n.lhsNonContracting by decide)]
  rfl
theorem lhs_mm1a_1 (i : S25x5888.Idx) (q : dot_S25x1_S1x5888_S25x5888_1_0_0_1_n_n.contr.Idx) : (dot_S25x1_S1x5888_S25x5888_1_0_0_1_n_n.lhsIdx i q 1).val = (q ⟨0, by decide⟩).val :=
  dot_S25x1_S1x5888_S25x5888_1_0_0_1_n_n.lhsIdx_val_of_single rfl i q
theorem rhs_mm1a_0 (i : S25x5888.Idx) (q : dot_S25x1_S1x5888_S25x5888_1_0_0_1_n_n.contr.Idx) : (dot_S25x1_S1x5888_S25x5888_1_0_0_1_n_n.rhsIdx i q 0).val = (q ⟨0, by decide⟩).val :=
  dot_S25x1_S1x5888_S25x5888_1_0_0_1_n_n.rhsIdx_val_of_single rfl i q
theorem rhs_mm1a_1 (i : S25x5888.Idx) (q : dot_S25x1_S1x5888_S25x5888_1_0_0_1_n_n.contr.Idx) : (dot_S25x1_S1x5888_S25x5888_1_0_0_1_n_n.rhsIdx i q 1).val = (i 1).val := by
  unfold DotDims.rhsIdx
  rw [dif_neg (show ¬(1 : Fin S1x5888.rank) ∈ dot_S25x1_S1x5888_S25x5888_1_0_0_1_n_n.rhsBatch by decide), dif_pos (show (1 : Fin S1x5888.rank) ∈ dot_S25x1_S1x5888_S25x5888_1_0_0_1_n_n.rhsNonContracting by decide)]
  rfl
theorem mm1a_apply (l : FVec Ideal S25x1 .f32) (r : FVec Ideal S1x5888 .f32) (p : Fin 25) (c : Fin 5888) :
    FloatOps.matmul dot_S25x1_S1x5888_S25x5888_1_0_0_1_n_n none l r (constant S25x5888 .f32 0x00000000#32) (ix2 p c) = ∑ k : Fin 1, l (ix2 p k) * r (ix2 k c) := by
  rw [Ideal.matmul_constant_zero_apply, ← Equiv.sum_comp (ValueIdx.contrEquiv1 dot_S25x1_S1x5888_S25x5888_1_0_0_1_n_n 1 rfl rfl).symm]
  refine Finset.sum_congr rfl fun k _ => ?_
  have hk := ValueIdx.contrEquiv1_symm_val dot_S25x1_S1x5888_S25x5888_1_0_0_1_n_n 1 rfl rfl k
  have el : dot_S25x1_S1x5888_S25x5888_1_0_0_1_n_n.lhsIdx (ix2 p c) ((ValueIdx.contrEquiv1 dot_S25x1_S1x5888_S25x5888_1_0_0_1_n_n 1 rfl rfl).symm k) = ix2 p k := funext fun a => Fin.ext (by
    match a with
    | ⟨0, _⟩ => exact lhs_mm1a_0 _ _
    | ⟨1, _⟩ => exact (lhs_mm1a_1 _ _).trans hk)
  have er : dot_S25x1_S1x5888_S25x5888_1_0_0_1_n_n.rhsIdx (ix2 p c) ((ValueIdx.contrEquiv1 dot_S25x1_S1x5888_S25x5888_1_0_0_1_n_n 1 rfl rfl).symm k) = ix2 k c := funext fun a => Fin.ext (by
    match a with
    | ⟨0, _⟩ => exact (rhs_mm1a_0 _ _).trans hk
    | ⟨1, _⟩ => exact rhs_mm1a_1 _ _)
  rw [el, er]

theorem lhs_mm2a_0 (i : S50x5888.Idx) (q : dot_S50x25_S25x5888_S50x5888_1_0_0_1_n_n.contr.Idx) : (dot_S50x25_S25x5888_S50x5888_1_0_0_1_n_n.lhsIdx i q 0).val = (i 0).val := by
  unfold DotDims.lhsIdx
  rw [dif_neg (show ¬(0 : Fin S50x25.rank) ∈ dot_S50x25_S25x5888_S50x5888_1_0_0_1_n_n.lhsBatch by decide), dif_pos (show (0 : Fin S50x25.rank) ∈ dot_S50x25_S25x5888_S50x5888_1_0_0_1_n_n.lhsNonContracting by decide)]
  rfl
theorem lhs_mm2a_1 (i : S50x5888.Idx) (q : dot_S50x25_S25x5888_S50x5888_1_0_0_1_n_n.contr.Idx) : (dot_S50x25_S25x5888_S50x5888_1_0_0_1_n_n.lhsIdx i q 1).val = (q ⟨0, by decide⟩).val :=
  dot_S50x25_S25x5888_S50x5888_1_0_0_1_n_n.lhsIdx_val_of_single rfl i q
theorem rhs_mm2a_0 (i : S50x5888.Idx) (q : dot_S50x25_S25x5888_S50x5888_1_0_0_1_n_n.contr.Idx) : (dot_S50x25_S25x5888_S50x5888_1_0_0_1_n_n.rhsIdx i q 0).val = (q ⟨0, by decide⟩).val :=
  dot_S50x25_S25x5888_S50x5888_1_0_0_1_n_n.rhsIdx_val_of_single rfl i q
theorem rhs_mm2a_1 (i : S50x5888.Idx) (q : dot_S50x25_S25x5888_S50x5888_1_0_0_1_n_n.contr.Idx) : (dot_S50x25_S25x5888_S50x5888_1_0_0_1_n_n.rhsIdx i q 1).val = (i 1).val := by
  unfold DotDims.rhsIdx
  rw [dif_neg (show ¬(1 : Fin S25x5888.rank) ∈ dot_S50x25_S25x5888_S50x5888_1_0_0_1_n_n.rhsBatch by decide), dif_pos (show (1 : Fin S25x5888.rank) ∈ dot_S50x25_S25x5888_S50x5888_1_0_0_1_n_n.rhsNonContracting by decide)]
  rfl
theorem mm2a_apply (l : FVec Ideal S50x25 .f32) (r : FVec Ideal S25x5888 .f32) (p : Fin 50) (c : Fin 5888) :
    FloatOps.matmul dot_S50x25_S25x5888_S50x5888_1_0_0_1_n_n none l r (constant S50x5888 .f32 0x00000000#32) (ix2 p c) = ∑ k : Fin 25, l (ix2 p k) * r (ix2 k c) := by
  rw [Ideal.matmul_constant_zero_apply, ← Equiv.sum_comp (ValueIdx.contrEquiv1 dot_S50x25_S25x5888_S50x5888_1_0_0_1_n_n 25 rfl rfl).symm]
  refine Finset.sum_congr rfl fun k _ => ?_
  have hk := ValueIdx.contrEquiv1_symm_val dot_S50x25_S25x5888_S50x5888_1_0_0_1_n_n 25 rfl rfl k
  have el : dot_S50x25_S25x5888_S50x5888_1_0_0_1_n_n.lhsIdx (ix2 p c) ((ValueIdx.contrEquiv1 dot_S50x25_S25x5888_S50x5888_1_0_0_1_n_n 25 rfl rfl).symm k) = ix2 p k := funext fun a => Fin.ext (by
    match a with
    | ⟨0, _⟩ => exact lhs_mm2a_0 _ _
    | ⟨1, _⟩ => exact (lhs_mm2a_1 _ _).trans hk)
  have er : dot_S50x25_S25x5888_S50x5888_1_0_0_1_n_n.rhsIdx (ix2 p c) ((ValueIdx.contrEquiv1 dot_S50x25_S25x5888_S50x5888_1_0_0_1_n_n 25 rfl rfl).symm k) = ix2 k c := funext fun a => Fin.ext (by
    match a with
    | ⟨0, _⟩ => exact (rhs_mm2a_0 _ _).trans hk
    | ⟨1, _⟩ => exact rhs_mm2a_1 _ _)
  rw [el, er]

theorem lhs_mm3a_0 (i : S100x5888.Idx) (q : dot_S100x75_S75x5888_S100x5888_1_0_0_1_n_n.contr.Idx) : (dot_S100x75_S75x5888_S100x5888_1_0_0_1_n_n.lhsIdx i q 0).val = (i 0).val := by
  unfold DotDims.lhsIdx
  rw [dif_neg (show ¬(0 : Fin S100x75.rank) ∈ dot_S100x75_S75x5888_S100x5888_1_0_0_1_n_n.lhsBatch by decide), dif_pos (show (0 : Fin S100x75.rank) ∈ dot_S100x75_S75x5888_S100x5888_1_0_0_1_n_n.lhsNonContracting by decide)]
  rfl
theorem lhs_mm3a_1 (i : S100x5888.Idx) (q : dot_S100x75_S75x5888_S100x5888_1_0_0_1_n_n.contr.Idx) : (dot_S100x75_S75x5888_S100x5888_1_0_0_1_n_n.lhsIdx i q 1).val = (q ⟨0, by decide⟩).val :=
  dot_S100x75_S75x5888_S100x5888_1_0_0_1_n_n.lhsIdx_val_of_single rfl i q
theorem rhs_mm3a_0 (i : S100x5888.Idx) (q : dot_S100x75_S75x5888_S100x5888_1_0_0_1_n_n.contr.Idx) : (dot_S100x75_S75x5888_S100x5888_1_0_0_1_n_n.rhsIdx i q 0).val = (q ⟨0, by decide⟩).val :=
  dot_S100x75_S75x5888_S100x5888_1_0_0_1_n_n.rhsIdx_val_of_single rfl i q
theorem rhs_mm3a_1 (i : S100x5888.Idx) (q : dot_S100x75_S75x5888_S100x5888_1_0_0_1_n_n.contr.Idx) : (dot_S100x75_S75x5888_S100x5888_1_0_0_1_n_n.rhsIdx i q 1).val = (i 1).val := by
  unfold DotDims.rhsIdx
  rw [dif_neg (show ¬(1 : Fin S75x5888.rank) ∈ dot_S100x75_S75x5888_S100x5888_1_0_0_1_n_n.rhsBatch by decide), dif_pos (show (1 : Fin S75x5888.rank) ∈ dot_S100x75_S75x5888_S100x5888_1_0_0_1_n_n.rhsNonContracting by decide)]
  rfl
theorem mm3a_apply (l : FVec Ideal S100x75 .f32) (r : FVec Ideal S75x5888 .f32) (p : Fin 100) (c : Fin 5888) :
    FloatOps.matmul dot_S100x75_S75x5888_S100x5888_1_0_0_1_n_n none l r (constant S100x5888 .f32 0x00000000#32) (ix2 p c) = ∑ k : Fin 75, l (ix2 p k) * r (ix2 k c) := by
  rw [Ideal.matmul_constant_zero_apply, ← Equiv.sum_comp (ValueIdx.contrEquiv1 dot_S100x75_S75x5888_S100x5888_1_0_0_1_n_n 75 rfl rfl).symm]
  refine Finset.sum_congr rfl fun k _ => ?_
  have hk := ValueIdx.contrEquiv1_symm_val dot_S100x75_S75x5888_S100x5888_1_0_0_1_n_n 75 rfl rfl k
  have el : dot_S100x75_S75x5888_S100x5888_1_0_0_1_n_n.lhsIdx (ix2 p c) ((ValueIdx.contrEquiv1 dot_S100x75_S75x5888_S100x5888_1_0_0_1_n_n 75 rfl rfl).symm k) = ix2 p k := funext fun a => Fin.ext (by
    match a with
    | ⟨0, _⟩ => exact lhs_mm3a_0 _ _
    | ⟨1, _⟩ => exact (lhs_mm3a_1 _ _).trans hk)
  have er : dot_S100x75_S75x5888_S100x5888_1_0_0_1_n_n.rhsIdx (ix2 p c) ((ValueIdx.contrEquiv1 dot_S100x75_S75x5888_S100x5888_1_0_0_1_n_n 75 rfl rfl).symm k) = ix2 k c := funext fun a => Fin.ext (by
    match a with
    | ⟨0, _⟩ => exact (rhs_mm3a_0 _ _).trans hk
    | ⟨1, _⟩ => exact rhs_mm3a_1 _ _)
  rw [el, er]

theorem lhs_mm1b_0 (i : S25x11776.Idx) (q : dot_S25x1_S1x11776_S25x11776_1_0_0_1_n_n.contr.Idx) : (dot_S25x1_S1x11776_S25x11776_1_0_0_1_n_n.lhsIdx i q 0).val = (i 0).val := by
  unfold DotDims.lhsIdx
  rw [dif_neg (show ¬(0 : Fin S25x1.rank) ∈ dot_S25x1_S1x11776_S25x11776_1_0_0_1_n_n.lhsBatch by decide), dif_pos (show (0 : Fin S25x1.rank) ∈ dot_S25x1_S1x11776_S25x11776_1_0_0_1_n_n.lhsNonContracting by decide)]
  rfl
theorem lhs_mm1b_1 (i : S25x11776.Idx) (q : dot_S25x1_S1x11776_S25x11776_1_0_0_1_n_n.contr.Idx) : (dot_S25x1_S1x11776_S25x11776_1_0_0_1_n_n.lhsIdx i q 1).val = (q ⟨0, by decide⟩).val :=
  dot_S25x1_S1x11776_S25x11776_1_0_0_1_n_n.lhsIdx_val_of_single rfl i q
theorem rhs_mm1b_0 (i : S25x11776.Idx) (q : dot_S25x1_S1x11776_S25x11776_1_0_0_1_n_n.contr.Idx) : (dot_S25x1_S1x11776_S25x11776_1_0_0_1_n_n.rhsIdx i q 0).val = (q ⟨0, by decide⟩).val :=
  dot_S25x1_S1x11776_S25x11776_1_0_0_1_n_n.rhsIdx_val_of_single rfl i q
theorem rhs_mm1b_1 (i : S25x11776.Idx) (q : dot_S25x1_S1x11776_S25x11776_1_0_0_1_n_n.contr.Idx) : (dot_S25x1_S1x11776_S25x11776_1_0_0_1_n_n.rhsIdx i q 1).val = (i 1).val := by
  unfold DotDims.rhsIdx
  rw [dif_neg (show ¬(1 : Fin S1x11776.rank) ∈ dot_S25x1_S1x11776_S25x11776_1_0_0_1_n_n.rhsBatch by decide), dif_pos (show (1 : Fin S1x11776.rank) ∈ dot_S25x1_S1x11776_S25x11776_1_0_0_1_n_n.rhsNonContracting by decide)]
  rfl
theorem mm1b_apply (l : FVec Ideal S25x1 .f32) (r : FVec Ideal S1x11776 .f32) (p : Fin 25) (c : Fin 11776) :
    FloatOps.matmul dot_S25x1_S1x11776_S25x11776_1_0_0_1_n_n none l r (constant S25x11776 .f32 0x00000000#32) (ix2 p c) = ∑ k : Fin 1, l (ix2 p k) * r (ix2 k c) := by
  rw [Ideal.matmul_constant_zero_apply, ← Equiv.sum_comp (ValueIdx.contrEquiv1 dot_S25x1_S1x11776_S25x11776_1_0_0_1_n_n 1 rfl rfl).symm]
  refine Finset.sum_congr rfl fun k _ => ?_
  have hk := ValueIdx.contrEquiv1_symm_val dot_S25x1_S1x11776_S25x11776_1_0_0_1_n_n 1 rfl rfl k
  have el : dot_S25x1_S1x11776_S25x11776_1_0_0_1_n_n.lhsIdx (ix2 p c) ((ValueIdx.contrEquiv1 dot_S25x1_S1x11776_S25x11776_1_0_0_1_n_n 1 rfl rfl).symm k) = ix2 p k := funext fun a => Fin.ext (by
    match a with
    | ⟨0, _⟩ => exact lhs_mm1b_0 _ _
    | ⟨1, _⟩ => exact (lhs_mm1b_1 _ _).trans hk)
  have er : dot_S25x1_S1x11776_S25x11776_1_0_0_1_n_n.rhsIdx (ix2 p c) ((ValueIdx.contrEquiv1 dot_S25x1_S1x11776_S25x11776_1_0_0_1_n_n 1 rfl rfl).symm k) = ix2 k c := funext fun a => Fin.ext (by
    match a with
    | ⟨0, _⟩ => exact (rhs_mm1b_0 _ _).trans hk
    | ⟨1, _⟩ => exact rhs_mm1b_1 _ _)
  rw [el, er]

theorem lhs_mm2b_0 (i : S50x11776.Idx) (q : dot_S50x25_S25x11776_S50x11776_1_0_0_1_n_n.contr.Idx) : (dot_S50x25_S25x11776_S50x11776_1_0_0_1_n_n.lhsIdx i q 0).val = (i 0).val := by
  unfold DotDims.lhsIdx
  rw [dif_neg (show ¬(0 : Fin S50x25.rank) ∈ dot_S50x25_S25x11776_S50x11776_1_0_0_1_n_n.lhsBatch by decide), dif_pos (show (0 : Fin S50x25.rank) ∈ dot_S50x25_S25x11776_S50x11776_1_0_0_1_n_n.lhsNonContracting by decide)]
  rfl
theorem lhs_mm2b_1 (i : S50x11776.Idx) (q : dot_S50x25_S25x11776_S50x11776_1_0_0_1_n_n.contr.Idx) : (dot_S50x25_S25x11776_S50x11776_1_0_0_1_n_n.lhsIdx i q 1).val = (q ⟨0, by decide⟩).val :=
  dot_S50x25_S25x11776_S50x11776_1_0_0_1_n_n.lhsIdx_val_of_single rfl i q
theorem rhs_mm2b_0 (i : S50x11776.Idx) (q : dot_S50x25_S25x11776_S50x11776_1_0_0_1_n_n.contr.Idx) : (dot_S50x25_S25x11776_S50x11776_1_0_0_1_n_n.rhsIdx i q 0).val = (q ⟨0, by decide⟩).val :=
  dot_S50x25_S25x11776_S50x11776_1_0_0_1_n_n.rhsIdx_val_of_single rfl i q
theorem rhs_mm2b_1 (i : S50x11776.Idx) (q : dot_S50x25_S25x11776_S50x11776_1_0_0_1_n_n.contr.Idx) : (dot_S50x25_S25x11776_S50x11776_1_0_0_1_n_n.rhsIdx i q 1).val = (i 1).val := by
  unfold DotDims.rhsIdx
  rw [dif_neg (show ¬(1 : Fin S25x11776.rank) ∈ dot_S50x25_S25x11776_S50x11776_1_0_0_1_n_n.rhsBatch by decide), dif_pos (show (1 : Fin S25x11776.rank) ∈ dot_S50x25_S25x11776_S50x11776_1_0_0_1_n_n.rhsNonContracting by decide)]
  rfl
theorem mm2b_apply (l : FVec Ideal S50x25 .f32) (r : FVec Ideal S25x11776 .f32) (p : Fin 50) (c : Fin 11776) :
    FloatOps.matmul dot_S50x25_S25x11776_S50x11776_1_0_0_1_n_n none l r (constant S50x11776 .f32 0x00000000#32) (ix2 p c) = ∑ k : Fin 25, l (ix2 p k) * r (ix2 k c) := by
  rw [Ideal.matmul_constant_zero_apply, ← Equiv.sum_comp (ValueIdx.contrEquiv1 dot_S50x25_S25x11776_S50x11776_1_0_0_1_n_n 25 rfl rfl).symm]
  refine Finset.sum_congr rfl fun k _ => ?_
  have hk := ValueIdx.contrEquiv1_symm_val dot_S50x25_S25x11776_S50x11776_1_0_0_1_n_n 25 rfl rfl k
  have el : dot_S50x25_S25x11776_S50x11776_1_0_0_1_n_n.lhsIdx (ix2 p c) ((ValueIdx.contrEquiv1 dot_S50x25_S25x11776_S50x11776_1_0_0_1_n_n 25 rfl rfl).symm k) = ix2 p k := funext fun a => Fin.ext (by
    match a with
    | ⟨0, _⟩ => exact lhs_mm2b_0 _ _
    | ⟨1, _⟩ => exact (lhs_mm2b_1 _ _).trans hk)
  have er : dot_S50x25_S25x11776_S50x11776_1_0_0_1_n_n.rhsIdx (ix2 p c) ((ValueIdx.contrEquiv1 dot_S50x25_S25x11776_S50x11776_1_0_0_1_n_n 25 rfl rfl).symm k) = ix2 k c := funext fun a => Fin.ext (by
    match a with
    | ⟨0, _⟩ => exact (rhs_mm2b_0 _ _).trans hk
    | ⟨1, _⟩ => exact rhs_mm2b_1 _ _)
  rw [el, er]

theorem lhs_mm3b_0 (i : S100x11776.Idx) (q : dot_S100x75_S75x11776_S100x11776_1_0_0_1_n_n.contr.Idx) : (dot_S100x75_S75x11776_S100x11776_1_0_0_1_n_n.lhsIdx i q 0).val = (i 0).val := by
  unfold DotDims.lhsIdx
  rw [dif_neg (show ¬(0 : Fin S100x75.rank) ∈ dot_S100x75_S75x11776_S100x11776_1_0_0_1_n_n.lhsBatch by decide), dif_pos (show (0 : Fin S100x75.rank) ∈ dot_S100x75_S75x11776_S100x11776_1_0_0_1_n_n.lhsNonContracting by decide)]
  rfl
theorem lhs_mm3b_1 (i : S100x11776.Idx) (q : dot_S100x75_S75x11776_S100x11776_1_0_0_1_n_n.contr.Idx) : (dot_S100x75_S75x11776_S100x11776_1_0_0_1_n_n.lhsIdx i q 1).val = (q ⟨0, by decide⟩).val :=
  dot_S100x75_S75x11776_S100x11776_1_0_0_1_n_n.lhsIdx_val_of_single rfl i q
theorem rhs_mm3b_0 (i : S100x11776.Idx) (q : dot_S100x75_S75x11776_S100x11776_1_0_0_1_n_n.contr.Idx) : (dot_S100x75_S75x11776_S100x11776_1_0_0_1_n_n.rhsIdx i q 0).val = (q ⟨0, by decide⟩).val :=
  dot_S100x75_S75x11776_S100x11776_1_0_0_1_n_n.rhsIdx_val_of_single rfl i q
theorem rhs_mm3b_1 (i : S100x11776.Idx) (q : dot_S100x75_S75x11776_S100x11776_1_0_0_1_n_n.contr.Idx) : (dot_S100x75_S75x11776_S100x11776_1_0_0_1_n_n.rhsIdx i q 1).val = (i 1).val := by
  unfold DotDims.rhsIdx
  rw [dif_neg (show ¬(1 : Fin S75x11776.rank) ∈ dot_S100x75_S75x11776_S100x11776_1_0_0_1_n_n.rhsBatch by decide), dif_pos (show (1 : Fin S75x11776.rank) ∈ dot_S100x75_S75x11776_S100x11776_1_0_0_1_n_n.rhsNonContracting by decide)]
  rfl
theorem mm3b_apply (l : FVec Ideal S100x75 .f32) (r : FVec Ideal S75x11776 .f32) (p : Fin 100) (c : Fin 11776) :
    FloatOps.matmul dot_S100x75_S75x11776_S100x11776_1_0_0_1_n_n none l r (constant S100x11776 .f32 0x00000000#32) (ix2 p c) = ∑ k : Fin 75, l (ix2 p k) * r (ix2 k c) := by
  rw [Ideal.matmul_constant_zero_apply, ← Equiv.sum_comp (ValueIdx.contrEquiv1 dot_S100x75_S75x11776_S100x11776_1_0_0_1_n_n 75 rfl rfl).symm]
  refine Finset.sum_congr rfl fun k _ => ?_
  have hk := ValueIdx.contrEquiv1_symm_val dot_S100x75_S75x11776_S100x11776_1_0_0_1_n_n 75 rfl rfl k
  have el : dot_S100x75_S75x11776_S100x11776_1_0_0_1_n_n.lhsIdx (ix2 p c) ((ValueIdx.contrEquiv1 dot_S100x75_S75x11776_S100x11776_1_0_0_1_n_n 75 rfl rfl).symm k) = ix2 p k := funext fun a => Fin.ext (by
    match a with
    | ⟨0, _⟩ => exact lhs_mm3b_0 _ _
    | ⟨1, _⟩ => exact (lhs_mm3b_1 _ _).trans hk)
  have er : dot_S100x75_S75x11776_S100x11776_1_0_0_1_n_n.rhsIdx (ix2 p c) ((ValueIdx.contrEquiv1 dot_S100x75_S75x11776_S100x11776_1_0_0_1_n_n 75 rfl rfl).symm k) = ix2 k c := funext fun a => Fin.ext (by
    match a with
    | ⟨0, _⟩ => exact (rhs_mm3b_0 _ _).trans hk
    | ⟨1, _⟩ => exact rhs_mm3b_1 _ _)
  rw [el, er]

/-! ## The three layers of each slot type at an index

Over the columns of a row block: the first layer at (r, c) is tanh of weight r times entry c plus bias r; the second at
(b, c) tanh of the weight row b against the first layer's column c plus bias b; the third at (k, c) tanh of the
75-wide weight row k against the second layer's column stacked on the first layer's, plus bias k. -/

theorem t1a_apply (x0 : Vec Ideal S1x5888 .f32) (x2 x3 : Vec Ideal S25x1 .f32) (r : Fin 25) (c : Fin 5888) :
    k2_pay3 x0 x2 x3 (ix2 r c) = Ideal.tanh (x2 (ix2 r 0) * x0 (ix2 0 c) + x3 (ix2 r 0)) := by
  show Ideal.tanh (FloatOps.matmul (F := Ideal) dot_S25x1_S1x5888_S25x5888_1_0_0_1_n_n none (shapeCast S25x1 x2 shapeCasts_S25x1_S25x1)
        (shapeCast S1x5888 x0 shapeCasts_S1x5888_S1x5888) (constant S25x5888 .f32 0x00000000#32) (ix2 r c)
      + broadcastTo S25x5888 (shapeCast S25x1 x3 shapeCasts_S25x1_S25x1) broadcasts_S25x1_S25x5888 (ix2 r c)) = _
  simp only [shapeCast_self]
  rw [mm1a_apply, bcast_col (n0 := 25) (N := 5888) _ _ (by decide), Fin.sum_univ_one]

theorem t2a_apply (x0 : Vec Ideal S1x5888 .f32) (x2 x3 : Vec Ideal S25x1 .f32) (x4 : Vec Ideal S50x25 .f32) (x5 : Vec Ideal S50x1 .f32)
    (b : Fin 50) (c : Fin 5888) :
    k2_pay4 x0 x2 x3 x4 x5 (ix2 b c)
      = Ideal.tanh ((∑ a : Fin 25, x4 (ix2 b a) * k2_pay3 x0 x2 x3 (ix2 a c)) + x5 (ix2 b 0)) := by
  show Ideal.tanh (FloatOps.matmul dot_S50x25_S25x5888_S50x5888_1_0_0_1_n_n none (shapeCast S50x25 x4 shapeCasts_S50x25_S50x25)
        (k2_pay3 x0 x2 x3) (constant S50x5888 .f32 0x00000000#32) (ix2 b c)
      + broadcastTo S50x5888 (shapeCast S50x1 x5 shapeCasts_S50x1_S50x1) broadcasts_S50x1_S50x5888 (ix2 b c)) = _
  simp only [shapeCast_self]
  rw [mm2a_apply, bcast_col (n0 := 50) (N := 5888) _ _ (by decide)]

theorem t1b_apply (x0 : Vec Ideal S1x11776 .f32) (x2 x3 : Vec Ideal S25x1 .f32) (r : Fin 25) (c : Fin 11776) :
    k2_pay117 x0 x2 x3 (ix2 r c) = Ideal.tanh (x2 (ix2 r 0) * x0 (ix2 0 c) + x3 (ix2 r 0)) := by
  show Ideal.tanh (FloatOps.matmul (F := Ideal) dot_S25x1_S1x11776_S25x11776_1_0_0_1_n_n none (shapeCast S25x1 x2 shapeCasts_S25x1_S25x1)
        (shapeCast S1x11776 x0 shapeCasts_S1x11776_S1x11776) (constant S25x11776 .f32 0x00000000#32) (ix2 r c)
      + broadcastTo S25x11776 (shapeCast S25x1 x3 shapeCasts_S25x1_S25x1) broadcasts_S25x1_S25x11776 (ix2 r c)) = _
  simp only [shapeCast_self]
  rw [mm1b_apply, bcast_col (n0 := 25) (N := 11776) _ _ (by decide), Fin.sum_univ_one]

theorem t2b_apply (x0 : Vec Ideal S1x11776 .f32) (x2 x3 : Vec Ideal S25x1 .f32) (x4 : Vec Ideal S50x25 .f32) (x5 : Vec Ideal S50x1 .f32)
    (b : Fin 50) (c : Fin 11776) :
    k2_pay118 x0 x2 x3 x4 x5 (ix2 b c)
      = Ideal.tanh ((∑ a : Fin 25, x4 (ix2 b a) * k2_pay117 x0 x2 x3 (ix2 a c)) + x5 (ix2 b 0)) := by
  show Ideal.tanh (FloatOps.matmul dot_S50x25_S25x11776_S50x11776_1_0_0_1_n_n none (shapeCast S50x25 x4 shapeCasts_S50x25_S50x25)
        (k2_pay117 x0 x2 x3) (constant S50x11776 .f32 0x00000000#32) (ix2 b c)
      + broadcastTo S50x11776 (shapeCast S50x1 x5 shapeCasts_S50x1_S50x1) broadcasts_S50x1_S50x11776 (ix2 b c)) = _
  simp only [shapeCast_self]
  rw [mm2b_apply, bcast_col (n0 := 50) (N := 11776) _ _ (by decide)]

theorem t3a_apply (x0 : Vec Ideal S1x5888 .f32) (x2 x3 : Vec Ideal S25x1 .f32) (x4 : Vec Ideal S50x25 .f32) (x5 : Vec Ideal S50x1 .f32)
    (x6 : Vec Ideal S100x75 .f32) (x7 : Vec Ideal S100x1 .f32) (k : Fin 100) (c : Fin 5888) :
    k2_pay5 x0 x2 x3 x4 x5 x6 x7 (ix2 k c)
      = Ideal.tanh (((∑ b : Fin 50, x6 (ix2 k ⟨b.val, by omega⟩) * k2_pay4 x0 x2 x3 x4 x5 (ix2 b c))
          + ∑ a : Fin 25, x6 (ix2 k ⟨50 + a.val, by omega⟩) * k2_pay3 x0 x2 x3 (ix2 a c)) + x7 (ix2 k 0)) := by
  show Ideal.tanh (FloatOps.matmul dot_S100x75_S75x5888_S100x5888_1_0_0_1_n_n none (shapeCast S100x75 x6 shapeCasts_S100x75_S100x75)
        (concatenate S75x5888 0 [⟨S50x5888, k2_pay4 x0 x2 x3 x4 x5⟩, ⟨S25x5888, k2_pay3 x0 x2 x3⟩] concatenates_S50x5888_S25x5888_S75x5888_d0)
        (constant S100x5888 .f32 0x00000000#32) (ix2 k c)
      + broadcastTo S100x5888 (shapeCast S100x1 x7 shapeCasts_S100x1_S100x1) broadcasts_S100x1_S100x5888 (ix2 k c)) = _
  simp only [shapeCast_self]
  rw [mm3a_apply, bcast_col (n0 := 100) (N := 5888) _ _ (by decide), Cert.Descr.sum_fin75]
  have hs := stack75 (k2_pay4 x0 x2 x3 x4 x5) (k2_pay3 x0 x2 x3) concatenates_S50x5888_S25x5888_S75x5888_d0 c
  simp only [hs.1, hs.2]

theorem t3b_apply (x1 : Vec Ideal S1x11776 .f32) (x8 x9 : Vec Ideal S25x1 .f32) (x10 : Vec Ideal S50x25 .f32) (x11 : Vec Ideal S50x1 .f32)
    (x12 : Vec Ideal S100x75 .f32) (x13 : Vec Ideal S100x1 .f32) (k : Fin 100) (c : Fin 11776) :
    layer3b x1 x8 x9 x10 x11 x12 x13 (ix2 k c)
      = Ideal.tanh (((∑ b : Fin 50, x12 (ix2 k ⟨b.val, by omega⟩) * k2_pay118 x1 x8 x9 x10 x11 (ix2 b c))
          + ∑ a : Fin 25, x12 (ix2 k ⟨50 + a.val, by omega⟩) * k2_pay117 x1 x8 x9 (ix2 a c)) + x13 (ix2 k 0)) := by
  show Ideal.tanh (FloatOps.matmul dot_S100x75_S75x11776_S100x11776_1_0_0_1_n_n none (shapeCast S100x75 x12 shapeCasts_S100x75_S100x75)
        (concatenate S75x11776 0 [⟨S50x11776, k2_pay118 x1 x8 x9 x10 x11⟩, ⟨S25x11776, k2_pay117 x1 x8 x9⟩] concatenates_S50x11776_S25x11776_S75x11776_d0)
        (constant S100x11776 .f32 0x00000000#32) (ix2 k c)
      + broadcastTo S100x11776 (shapeCast S100x1 x13 shapeCasts_S100x1_S100x1) broadcasts_S100x1_S100x11776 (ix2 k c)) = _
  simp only [shapeCast_self]
  rw [mm3b_apply, bcast_col (n0 := 100) (N := 11776) _ _ (by decide), Cert.Descr.sum_fin75]
  have hs := stack75 (k2_pay118 x1 x8 x9 x10 x11) (k2_pay117 x1 x8 x9) concatenates_S50x11776_S25x11776_S75x11776_d0 c
  simp only [hs.1, hs.2]

/-! ## The pairwise trees of additions are sums over the slots -/

theorem sumT1a_apply (x0 : Vec Ideal S1x5888 .f32) (x2 x3 : Vec Ideal S25x1 .f32) (r : Fin 25) (a : Fin 128) :
    sumT1a x0 x2 x3 (k2_pay3 x0 x2 x3) (ix2 r a) = ∑ j : Fin 46, (k2_pay3 x0 x2 x3 : FVec Ideal S25x5888 .f32) (ix2 r ⟨128 * j.val + a.val, by have := j.isLt; have := a.isLt; omega⟩) := by
  rw [sum_slots (k2_pay3 x0 x2 x3 : FVec Ideal S25x5888 .f32) r a 46 (by decide)]
  unfold sumT1a
  simp only [k2_pay21, k2_pay22, k2_pay23, k2_pay24, k2_pay25, k2_pay26, k2_pay27, k2_pay28, k2_pay29, k2_pay30, k2_pay31, k2_pay6, k2_pay7, k2_pay8, k2_pay9, k2_pay32, k2_pay10, k2_pay11, k2_pay12, k2_pay13, k2_pay33, k2_pay14, k2_pay15, k2_pay16, k2_pay17, k2_pay34, k2_pay18, k2_pay19, k2_pay20, k2_pay35, k2_pay36, k2_pay37, k2_pay38, addf_apply, slice_cols]
  generalize rowAt (k2_pay3 x0 x2 x3 : FVec Ideal S25x5888 .f32) r = g
  simp only [Finset.sum_range_succ, Finset.sum_range_zero, Nat.reduceMul, zero_add]
  ac_rfl

theorem sumT2a_apply (v : FVec Ideal S50x5888 .f32) (r : Fin 50) (a : Fin 128) :
    sumT2a v (ix2 r a) = ∑ j : Fin 46, (v : FVec Ideal S50x5888 .f32) (ix2 r ⟨128 * j.val + a.val, by have := j.isLt; have := a.isLt; omega⟩) := by
  rw [sum_slots (v : FVec Ideal S50x5888 .f32) r a 46 (by decide)]
  unfold sumT2a
  simp only [k2_pay39, k2_pay40, k2_pay41, k2_pay42, k2_pay43, k2_pay44, k2_pay45, k2_pay46, k2_pay47, k2_pay48, k2_pay49, k2_pay50, k2_pay51, k2_pay52, k2_pay53, k2_pay54, k2_pay55, k2_pay56, k2_pay57, k2_pay58, k2_pay59, k2_pay60, k2_pay61, k2_pay62, k2_pay63, k2_pay64, k2_pay65, k2_pay66, k2_pay67, k2_pay68, k2_pay69, k2_pay70, k2_pay71, k2_pay72, k2_pay73, k2_pay74, k2_pay75, k2_pay76, k2_pay77, k2_pay78, k2_pay79, k2_pay80, k2_pay81, k2_pay82, k2_pay83, addf_apply, slice_cols]
  generalize rowAt (v : FVec Ideal S50x5888 .f32) r = g
  simp only [Finset.sum_range_succ, Finset.sum_range_zero, Nat.reduceMul, zero_add]
  ac_rfl

theorem sumT3a_apply (v : FVec Ideal S100x5888 .f32) (r : Fin 100) (a : Fin 128) :
    sumT3a v (ix2 r a) = ∑ j : Fin 46, (v : FVec Ideal S100x5888 .f32) (ix2 r ⟨128 * j.val + a.val, by have := j.isLt; have := a.isLt; omega⟩) := by
  rw [sum_slots (v : FVec Ideal S100x5888 .f32) r a 46 (by decide)]
  unfold sumT3a
  simp only [k2_pay97, k2_pay98, k2_pay99, k2_pay100, k2_pay101, k2_pay102, k2_pay103, k2_pay104, k2_pay105, k2_pay106, k2_pay107, k2_pay108, k2_pay109, k2_pay110, k2_pay111, k2_pay84, k2_pay85, k2_pay86, k2_pay87, k2_pay112, k2_pay88, k2_pay89, k2_pay90, k2_pay91, k2_pay113, k2_pay92, k2_pay93, k2_pay94, k2_pay95, k2_pay114, k2_pay96, k2_pay115, k2_pay116, addf_apply, slice_cols]
  generalize rowAt (v : FVec Ideal S100x5888 .f32) r = g
  simp only [Finset.sum_range_succ, Finset.sum_range_zero, Nat.reduceMul, zero_add]
  ac_rfl

theorem sumT1b_apply (v : FVec Ideal S25x11776 .f32) (r : Fin 25) (a : Fin 128) :
    sumT1b v (ix2 r a) = ∑ j : Fin 92, (v : FVec Ideal S25x11776 .f32) (ix2 r ⟨128 * j.val + a.val, by have := j.isLt; have := a.isLt; omega⟩) := by
  rw [sum_slots (v : FVec Ideal S25x11776 .f32) r a 92 (by decide)]
  unfold sumT1b
  simp only [k2_pay122, k2_pay123, k2_pay214, k2_pay124, k2_pay125, k2_pay215, k2_pay126, k2_pay127, k2_pay216, k2_pay128, k2_pay129, k2_pay217, k2_pay130, k2_pay131, k2_pay218, k2_pay132, k2_pay133, k2_pay219, k2_pay134, k2_pay135, k2_pay220, k2_pay136, k2_pay137, k2_pay221, k2_pay240, k2_pay138, k2_pay139, k2_pay222, k2_pay140, k2_pay141, k2_pay223, k2_pay142, k2_pay143, k2_pay224, k2_pay144, k2_pay145, k2_pay225, k2_pay146, k2_pay147, k2_pay226, k2_pay148, k2_pay149, k2_pay227, k2_pay150, k2_pay151, k2_pay228, k2_pay152, k2_pay153, k2_pay229, k2_pay241, k2_pay154, k2_pay155, k2_pay230, k2_pay156, k2_pay157, k2_pay231, k2_pay158, k2_pay159, k2_pay232, k2_pay160, k2_pay161, k2_pay233, k2_pay162, k2_pay163, k2_pay234, k2_pay164, k2_pay165, k2_pay235, k2_pay166, k2_pay167, k2_pay236, k2_pay168, k2_pay169, k2_pay237, k2_pay242, k2_pay174, k2_pay175, k2_pay176, k2_pay177, k2_pay178, k2_pay179, k2_pay180, k2_pay181, k2_pay182, k2_pay183, k2_pay184, k2_pay185, k2_pay170, k2_pay171, k2_pay238, k2_pay172, k2_pay173, k2_pay239, k2_pay243, k2_pay186, k2_pay187, k2_pay188, k2_pay189, k2_pay190, k2_pay191, k2_pay192, k2_pay193, k2_pay194, k2_pay195, k2_pay196, k2_pay197, k2_pay198, k2_pay199, k2_pay200, k2_pay201, k2_pay244, k2_pay202, k2_pay203, k2_pay204, k2_pay205, k2_pay206, k2_pay207, k2_pay208, k2_pay209, k2_pay210, k2_pay211, k2_pay212, k2_pay213, k2_pay245, k2_pay246, addf_apply, slice_cols]
  generalize rowAt (v : FVec Ideal S25x11776 .f32) r = g
  simp only [Finset.sum_range_succ, Finset.sum_range_zero, Nat.reduceMul, zero_add]
  ac_rfl

theorem sumT2b_apply (v : FVec Ideal S50x11776 .f32) (r : Fin 50) (a : Fin 128) :
    sumT2b v (ix2 r a) = ∑ j : Fin 92, (v : FVec Ideal S50x11776 .f32) (ix2 r ⟨128 * j.val + a.val, by have := j.isLt; have := a.isLt; omega⟩) := by
  rw [sum_slots (v : FVec Ideal S50x11776 .f32) r a 92 (by decide)]
  unfold sumT2b
  simp only [k2_pay335, k2_pay336, k2_pay337, k2_pay338, k2_pay362, k2_pay295, k2_pay296, k2_pay297, k2_pay298, k2_pay299, k2_pay300, k2_pay301, k2_pay302, k2_pay363, k2_pay303, k2_pay304, k2_pay305, k2_pay306, k2_pay307, k2_pay308, k2_pay309, k2_pay310, k2_pay364, k2_pay311, k2_pay312, k2_pay313, k2_pay314, k2_pay315, k2_pay316, k2_pay317, k2_pay318, k2_pay365, k2_pay319, k2_pay320, k2_pay321, k2_pay322, k2_pay323, k2_pay324, k2_pay325, k2_pay326, k2_pay366, k2_pay327, k2_pay328, k2_pay329, k2_pay330, k2_pay331, k2_pay332, k2_pay333, k2_pay334, k2_pay367, k2_pay247, k2_pay248, k2_pay339, k2_pay249, k2_pay250, k2_pay340, k2_pay251, k2_pay252, k2_pay341, k2_pay253, k2_pay254, k2_pay342, k2_pay255, k2_pay256, k2_pay343, k2_pay257, k2_pay258, k2_pay344, k2_pay259, k2_pay260, k2_pay345, k2_pay261, k2_pay262, k2_pay346, k2_pay368, k2_pay263, k2_pay264, k2_pay347, k2_pay265, k2_pay266, k2_pay348, k2_pay267, k2_pay268, k2_pay349, k2_pay269, k2_pay270, k2_pay350, k2_pay271, k2_pay272, k2_pay351, k2_pay273, k2_pay274, k2_pay352, k2_pay275, k2_pay276, k2_pay353, k2_pay277, k2_pay278, k2_pay354, k2_pay369, k2_pay293, k2_pay294, k2_pay279, k2_pay280, k2_pay355, k2_pay281, k2_pay282, k2_pay356, k2_pay283, k2_pay284, k2_pay357, k2_pay285, k2_pay286, k2_pay358, k2_pay287, k2_pay288, k2_pay359, k2_pay289, k2_pay290, k2_pay360, k2_pay291, k2_pay292, k2_pay361, k2_pay370, k2_pay371, addf_apply, slice_cols]
  generalize rowAt (v : FVec Ideal S50x11776 .f32) r = g
  simp only [Finset.sum_range_succ, Finset.sum_range_zero, Nat.reduceMul, zero_add]
  ac_rfl

/-- Slot type 1's third layer: the five partial sums, joined as the stored payload joins them. -/
theorem sumT3b_apply (v : FVec Ideal S100x11776 .f32) (r : Fin 100) (a : Fin 128) :
    sumT3b_v874 v (ix2 r a) + ((sumT3b_v862 v (ix2 r a) + sumT3b_v863 v (ix2 r a)) + (sumT3b_v864 v (ix2 r a) + sumT3b_v853 v (ix2 r a)))
      = ∑ j : Fin 92, v (ix2 r ⟨128 * j.val + a.val, by have := j.isLt; have := a.isLt; omega⟩) := by
  rw [sum_slots v r a 92 (by decide)]
  unfold sumT3b_v874 sumT3b_v862 sumT3b_v863 sumT3b_v864 sumT3b_v853
  simp only [k2_pay372, k2_pay373, k2_pay464, k2_pay374, k2_pay375, k2_pay465, k2_pay376, k2_pay377, k2_pay466, k2_pay378, k2_pay379, k2_pay467, k2_pay485, k2_pay380, k2_pay381, k2_pay468, k2_pay382, k2_pay383, k2_pay469, k2_pay384, k2_pay385, k2_pay470, k2_pay386, k2_pay387, k2_pay471, k2_pay486, k2_pay388, k2_pay389, k2_pay472, k2_pay390, k2_pay391, k2_pay473, k2_pay392, k2_pay393, k2_pay474, k2_pay394, k2_pay395, k2_pay475, k2_pay487, k2_pay396, k2_pay397, k2_pay476, k2_pay398, k2_pay399, k2_pay477, k2_pay400, k2_pay401, k2_pay478, k2_pay402, k2_pay403, k2_pay479, k2_pay488, k2_pay404, k2_pay405, k2_pay480, k2_pay406, k2_pay407, k2_pay481, k2_pay408, k2_pay409, k2_pay482, k2_pay410, k2_pay411, k2_pay483, k2_pay489, k2_pay412, k2_pay413, k2_pay414, k2_pay415, k2_pay416, k2_pay417, k2_pay418, k2_pay419, k2_pay490, k2_pay420, k2_pay421, k2_pay422, k2_pay423, k2_pay424, k2_pay425, k2_pay426, k2_pay427, k2_pay491, k2_pay428, k2_pay429, k2_pay430, k2_pay431, k2_pay432, k2_pay433, k2_pay434, k2_pay435, k2_pay492, k2_pay1, k2_pay436, k2_pay437, k2_pay438, k2_pay439, k2_pay440, k2_pay441, k2_pay442, k2_pay443, k2_pay493, k2_pay444, k2_pay445, k2_pay446, k2_pay447, k2_pay448, k2_pay449, k2_pay450, k2_pay451, k2_pay494, k2_pay452, k2_pay453, k2_pay454, k2_pay455, k2_pay456, k2_pay457, k2_pay458, k2_pay459, k2_pay495, k2_pay460, k2_pay461, k2_pay462, k2_pay463, k2_pay484, addf_apply, slice_cols]
  generalize rowAt v r = g
  simp only [Finset.sum_range_succ, Finset.sum_range_zero, Nat.reduceMul, zero_add]
  ac_rfl

/-! ## The stored vector at an index -/

/-- Row k mod 50 and row k mod 25, as the specification spells them. -/
theorem mod50_eq (k : Fin 100) : (⟨k.val % 50, Nat.mod_lt _ (by decide)⟩ : Fin 50) = Cert.Descr.mod50 k := rfl
theorem mod25_eq (k : Fin 100) : (⟨k.val % 25, Nat.mod_lt _ (by decide)⟩ : Fin 25) = Cert.Descr.mod25 k := rfl

/-- The scale constant is the specification's rational. -/
theorem kappa_named : Named.named (F := Ideal) Cert.KernelIdeal.κ "sel_frac_fifth_over_sel" (φ := .f32) 0x3ABDF59D#32 = Cert.Descr.kappa :=
  IdealRules.named_const.ideal_named_scalar _ _ _ _ rfl

/-- The stored vector at (k, a): the third-layer sums of both slot types, plus the second-layer sums at k mod 50, plus
    the first-layer sums at k mod 25, times the scale. -/
theorem bodyOut_apply (x0 : Vec Ideal S1x5888 .f32) (x1 : Vec Ideal S1x11776 .f32) (x2 x3 : Vec Ideal S25x1 .f32) (x4 : Vec Ideal S50x25 .f32) (x5 : Vec Ideal S50x1 .f32) (x6 : Vec Ideal S100x75 .f32) (x7 : Vec Ideal S100x1 .f32) (x8 x9 : Vec Ideal S25x1 .f32) (x10 : Vec Ideal S50x25 .f32) (x11 : Vec Ideal S50x1 .f32) (x12 : Vec Ideal S100x75 .f32) (x13 : Vec Ideal S100x1 .f32) (k : Fin 100) (a : Fin 128) :
    bodyOut x0 x1 x2 x3 x4 x5 x6 x7 x8 x9 x10 x11 x12 x13 (ix2 k a)
      = (((sumT3a (k2_pay5 x0 x2 x3 x4 x5 x6 x7) (ix2 k a)
              + (sumT3b_v874 (layer3b x1 x8 x9 x10 x11 x12 x13) (ix2 k a)
                + ((sumT3b_v862 (layer3b x1 x8 x9 x10 x11 x12 x13) (ix2 k a) + sumT3b_v863 (layer3b x1 x8 x9 x10 x11 x12 x13) (ix2 k a))
                  + (sumT3b_v864 (layer3b x1 x8 x9 x10 x11 x12 x13) (ix2 k a) + sumT3b_v853 (layer3b x1 x8 x9 x10 x11 x12 x13) (ix2 k a)))))
            + (sumT2a (k2_pay4 x0 x2 x3 x4 x5) (ix2 (Cert.Descr.mod50 k) a) + sumT2b (k2_pay118 x1 x8 x9 x10 x11) (ix2 (Cert.Descr.mod50 k) a)))
          + (sumT1a x0 x2 x3 (k2_pay3 x0 x2 x3) (ix2 (Cert.Descr.mod25 k) a) + sumT1b (k2_pay117 x1 x8 x9) (ix2 (Cert.Descr.mod25 k) a)))
        * Cert.Descr.kappa := by
  rw [← kappa_named, ← mod50_eq, ← mod25_eq]
  unfold bodyOut k2_pay2
  simp only [mulf_apply, addf_apply, broadcast_apply, stack_twice, stack_four]

/-! ## The stored vector is the specification's rearranged output -/

section Net
variable (x0 : Vec Ideal S1x5888 .f32) (x1 : Vec Ideal S1x11776 .f32) (x2 x3 : Vec Ideal S25x1 .f32) (x4 : Vec Ideal S50x25 .f32) (x5 : Vec Ideal S50x1 .f32) (x6 : Vec Ideal S100x75 .f32) (x7 : Vec Ideal S100x1 .f32) (x8 x9 : Vec Ideal S25x1 .f32) (x10 : Vec Ideal S50x25 .f32) (x11 : Vec Ideal S50x1 .f32) (x12 : Vec Ideal S100x75 .f32) (x13 : Vec Ideal S100x1 .f32) (N0 N1 : Cert.Descr.Net)
variable (h2 : ∀ r : Fin 25, x2 (ix2 r 0) = N0.w0 r) (h3 : ∀ r : Fin 25, x3 (ix2 r 0) = N0.b0 r)
  (h4 : ∀ (b : Fin 50) (r : Fin 25), x4 (ix2 b r) = N0.w1 r b) (h5 : ∀ b : Fin 50, x5 (ix2 b 0) = N0.b1 b)
  (h6lo : ∀ (k : Fin 100) (b : Fin 50), x6 (ix2 k ⟨b.val, by omega⟩) = N0.w2 b k)
  (h6hi : ∀ (k : Fin 100) (r : Fin 25), x6 (ix2 k ⟨50 + r.val, by omega⟩) = N0.w2 (Cert.Descr.lo r) k + N0.w2 (Cert.Descr.hi r) k)
  (h7 : ∀ k : Fin 100, x7 (ix2 k 0) = N0.b2 k)
  (h8 : ∀ r : Fin 25, x8 (ix2 r 0) = N1.w0 r) (h9 : ∀ r : Fin 25, x9 (ix2 r 0) = N1.b0 r)
  (h10 : ∀ (b : Fin 50) (r : Fin 25), x10 (ix2 b r) = N1.w1 r b) (h11 : ∀ b : Fin 50, x11 (ix2 b 0) = N1.b1 b)
  (h12lo : ∀ (k : Fin 100) (b : Fin 50), x12 (ix2 k ⟨b.val, by omega⟩) = N1.w2 b k)
  (h12hi : ∀ (k : Fin 100) (r : Fin 25), x12 (ix2 k ⟨50 + r.val, by omega⟩) = N1.w2 (Cert.Descr.lo r) k + N1.w2 (Cert.Descr.hi r) k)
  (h13 : ∀ k : Fin 100, x13 (ix2 k 0) = N1.b2 k)

include h2 h3 in
theorem layer1a (r : Fin 25) (c : Fin 5888) : k2_pay3 x0 x2 x3 (ix2 r c) = N0.t1 (x0 (ix2 0 c)) r := by
  rw [t1a_apply, h2, h3, mul_comm]; rfl

include h2 h3 h4 h5 in
theorem layer2a (b : Fin 50) (c : Fin 5888) : k2_pay4 x0 x2 x3 x4 x5 (ix2 b c) = N0.t2 (x0 (ix2 0 c)) b := by
  rw [t2a_apply, h5]
  simp only [layer1a x0 x2 x3 N0 h2 h3, h4]
  unfold Cert.Descr.Net.t2
  exact congrArg (fun s => Ideal.tanh (s + N0.b1 b)) (Finset.sum_congr rfl fun r _ => mul_comm _ _)

include h2 h3 h4 h5 h6lo h6hi h7 in
theorem layer3a (k : Fin 100) (c : Fin 5888) : k2_pay5 x0 x2 x3 x4 x5 x6 x7 (ix2 k c) = N0.t3 (x0 (ix2 0 c)) k := by
  rw [t3a_apply, h7]
  simp only [layer1a x0 x2 x3 N0 h2 h3, layer2a x0 x2 x3 x4 x5 N0 h2 h3 h4 h5, h6lo, h6hi]
  rfl

include h8 h9 in
theorem layer1b (r : Fin 25) (c : Fin 11776) : k2_pay117 x1 x8 x9 (ix2 r c) = N1.t1 (x1 (ix2 0 c)) r := by
  rw [t1b_apply, h8, h9, mul_comm]; rfl

include h8 h9 h10 h11 in
theorem layer2b (b : Fin 50) (c : Fin 11776) : k2_pay118 x1 x8 x9 x10 x11 (ix2 b c) = N1.t2 (x1 (ix2 0 c)) b := by
  rw [t2b_apply, h11]
  simp only [layer1b x1 x8 x9 N1 h8 h9, h10]
  unfold Cert.Descr.Net.t2
  exact congrArg (fun s => Ideal.tanh (s + N1.b1 b)) (Finset.sum_congr rfl fun r _ => mul_comm _ _)

include h8 h9 h10 h11 h12lo h12hi h13 in
theorem layer3b_eq (k : Fin 100) (c : Fin 11776) : layer3b x1 x8 x9 x10 x11 x12 x13 (ix2 k c) = N1.t3 (x1 (ix2 0 c)) k := by
  rw [t3b_apply, h13]
  simp only [layer1b x1 x8 x9 N1 h8 h9, layer2b x1 x8 x9 x10 x11 N1 h8 h9 h10 h11, h12lo, h12hi]
  rfl

include h2 h3 h4 h5 h6lo h6hi h7 h8 h9 h10 h11 h12lo h12hi h13 in
/-- With the weight blocks read as two networks, the stored vector at (k, a) is the rearranged output of the
    specification over the 46 and 92 slot entries of atom a. -/
theorem bodyOut_eq_kerOutput (k : Fin 100) (a : Fin 128) :
    bodyOut x0 x1 x2 x3 x4 x5 x6 x7 x8 x9 x10 x11 x12 x13 (ix2 k a)
      = Cert.Descr.kerOutput N0 N1
          (fun j => x0 (ix2 0 ⟨128 * j.val + a.val, by have := j.isLt; have := a.isLt; omega⟩))
          (fun j => x1 (ix2 0 ⟨128 * j.val + a.val, by have := j.isLt; have := a.isLt; omega⟩)) k := by
  rw [bodyOut_apply, sumT3a_apply, sumT3b_apply, sumT2a_apply, sumT2b_apply, sumT1a_apply, sumT1b_apply]
  simp only [layer1a x0 x2 x3 N0 h2 h3, layer2a x0 x2 x3 x4 x5 N0 h2 h3 h4 h5, layer3a x0 x2 x3 x4 x5 x6 x7 N0 h2 h3 h4 h5 h6lo h6hi h7,
    layer1b x1 x8 x9 N1 h8 h9, layer2b x1 x8 x9 x10 x11 N1 h8 h9 h10 h11, layer3b_eq x1 x8 x9 x10 x11 x12 x13 N1 h8 h9 h10 h11 h12lo h12hi h13]
  rfl

end Net

/-! ## From the blocks to the array -/

section Array

variable (V : (c : Dev nD) → (b : Ref sig .tc) → Buf (Elt Ideal) ((c : Thread nD τ).loc b))
variable {Ix : Type} [DecidableEq Ix] {Name : Type} [DecidableEq Name] {U : Type} [Idealize.SL.RA.URA U] {Lvl : Type} [Preorder Lvl]
variable (B : Set (SemLoc sig × Ix))

theorem hz2 : (![0, 0] : Fin 2 → Nat) = fun _ => 0 := funext fun a => by fin_cases a <;> rfl

theorem t_lt (t : Fin cfg2.N) : t.val < 64 := lt_of_lt_of_eq t.isLt N_2

/-- The printed index maps, decided over the grid: the two row blocks and the output block move with the point along
    the columns, every weight block stays at the origin. -/
theorem idx_facts2 : ∀ t : Fin cfg2.N, win2_0.index t (0 : Fin 2) = 0
    ∧ win2_0.index t (1 : Fin 2) = t.val
    ∧ win2_1.index t (0 : Fin 2) = 0
    ∧ win2_1.index t (1 : Fin 2) = t.val
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (0 : Fin 2) = 0
    ∧ win2_9.index t (1 : Fin 2) = 0
    ∧ win2_10.index t (0 : Fin 2) = 0
    ∧ win2_10.index t (1 : Fin 2) = 0
    ∧ win2_11.index t (0 : Fin 2) = 0
    ∧ win2_11.index t (1 : Fin 2) = 0
    ∧ win2_12.index t (0 : Fin 2) = 0
    ∧ win2_12.index t (1 : Fin 2) = 0
    ∧ win2_13.index t (0 : Fin 2) = 0
    ∧ win2_13.index t (1 : Fin 2) = 0
    ∧ win2_14.index t (0 : Fin 2) = 0
    ∧ win2_14.index t (1 : Fin 2) = t.val :=
  (by decide +kernel : ∀ t : Fin grid2.N, _)

/-- The slot-type-0 row block at point t is columns 5888 t … of the long row. -/
theorem iblk0_apply (c : Dev nD) (t : Fin cfg2.N) (col : Fin 5888) :
    (iblk2 V c 0 t : S1x5888.Idx → EReal) (ix2 0 col)
      = (V c main_v15 : S1x376832.Idx → EReal) (ix2 0 ⟨t.val * 5888 + col.val, by have := t_lt t; have := col.isLt; omega⟩) := by
  have hf := idx_facts2 t
  unfold iblk2
  show (V c main_v15 : S1x376832.Idx → EReal) (((cfg2.win 0).blk t).view.emb (ix2 0 col)) = _
  refine congrArg _ (funext fun a => Fin.ext ?_)
  match a with
  | ⟨0, _⟩ => show win2_0.index t (0 : Fin 2) * 1 + 1 * 0 = 0; omega
  | ⟨1, _⟩ => show win2_0.index t (1 : Fin 2) * 5888 + 1 * col.val = t.val * 5888 + col.val; omega

/-- The slot-type-1 row block at point t is columns 11776 t … of the long row. -/
theorem iblk1_apply (c : Dev nD) (t : Fin cfg2.N) (col : Fin 11776) :
    (iblk2 V c 1 t : S1x11776.Idx → EReal) (ix2 0 col)
      = (V c main_v18 : S1x753664.Idx → EReal) (ix2 0 ⟨t.val * 11776 + col.val, by have := t_lt t; have := col.isLt; omega⟩) := by
  have hf := idx_facts2 t
  unfold iblk2
  show (V c main_v18 : S1x753664.Idx → EReal) (((cfg2.win 1).blk t).view.emb (ix2 0 col)) = _
  refine congrArg _ (funext fun a => Fin.ext ?_)
  match a with
  | ⟨0, _⟩ => show win2_1.index t (0 : Fin 2) * 1 + 1 * 0 = 0; omega
  | ⟨1, _⟩ => show win2_1.index t (1 : Fin 2) * 11776 + 1 * col.val = t.val * 11776 + col.val; omega

/-- A weight block is its whole array, at every point. -/
theorem iblk2_eq (c : Dev nD) (t : Fin cfg2.N) : (iblk2 V c 2 t : S25x1.Idx → EReal) = (V c main_v31 : S25x1.Idx → EReal) := by
  have hf := idx_facts2 t
  funext y
  unfold iblk2
  show (V c main_v31 : S25x1.Idx → EReal) (((cfg2.win 2).blk t).view.emb y) = _
  refine congrArg _ (funext fun a => Fin.ext ?_)
  match a with
  | ⟨0, _⟩ => show win2_2.index t (0 : Fin 2) * 25 + 1 * (y 0).val = (y 0).val; omega
  | ⟨1, _⟩ => show win2_2.index t (1 : Fin 2) * 1 + 1 * (y 1).val = (y 1).val; omega
theorem iblk3_eq (c : Dev nD) (t : Fin cfg2.N) : (iblk2 V c 3 t : S25x1.Idx → EReal) = (V c main_v32 : S25x1.Idx → EReal) := by
  have hf := idx_facts2 t
  funext y
  unfold iblk2
  show (V c main_v32 : S25x1.Idx → EReal) (((cfg2.win 3).blk t).view.emb y) = _
  refine congrArg _ (funext fun a => Fin.ext ?_)
  match a with
  | ⟨0, _⟩ => show win2_3.index t (0 : Fin 2) * 25 + 1 * (y 0).val = (y 0).val; omega
  | ⟨1, _⟩ => show win2_3.index t (1 : Fin 2) * 1 + 1 * (y 1).val = (y 1).val; omega
theorem iblk4_eq (c : Dev nD) (t : Fin cfg2.N) : (iblk2 V c 4 t : S50x25.Idx → EReal) = (V c main_v33 : S50x25.Idx → EReal) := by
  have hf := idx_facts2 t
  funext y
  unfold iblk2
  show (V c main_v33 : S50x25.Idx → EReal) (((cfg2.win 4).blk t).view.emb y) = _
  refine congrArg _ (funext fun a => Fin.ext ?_)
  match a with
  | ⟨0, _⟩ => show win2_4.index t (0 : Fin 2) * 50 + 1 * (y 0).val = (y 0).val; omega
  | ⟨1, _⟩ => show win2_4.index t (1 : Fin 2) * 25 + 1 * (y 1).val = (y 1).val; omega
theorem iblk5_eq (c : Dev nD) (t : Fin cfg2.N) : (iblk2 V c 5 t : S50x1.Idx → EReal) = (V c main_v34 : S50x1.Idx → EReal) := by
  have hf := idx_facts2 t
  funext y
  unfold iblk2
  show (V c main_v34 : S50x1.Idx → EReal) (((cfg2.win 5).blk t).view.emb y) = _
  refine congrArg _ (funext fun a => Fin.ext ?_)
  match a with
  | ⟨0, _⟩ => show win2_5.index t (0 : Fin 2) * 50 + 1 * (y 0).val = (y 0).val; omega
  | ⟨1, _⟩ => show win2_5.index t (1 : Fin 2) * 1 + 1 * (y 1).val = (y 1).val; omega
theorem iblk6_eq (c : Dev nD) (t : Fin cfg2.N) : (iblk2 V c 6 t : S100x75.Idx → EReal) = (V c main_v24 : S100x75.Idx → EReal) := by
  have hf := idx_facts2 t
  funext y
  unfold iblk2
  show (V c main_v24 : S100x75.Idx → EReal) (((cfg2.win 6).blk t).view.emb y) = _
  refine congrArg _ (funext fun a => Fin.ext ?_)
  match a with
  | ⟨0, _⟩ => show win2_6.index t (0 : Fin 2) * 100 + 1 * (y 0).val = (y 0).val; omega
  | ⟨1, _⟩ => show win2_6.index t (1 : Fin 2) * 75 + 1 * (y 1).val = (y 1).val; omega
theorem iblk7_eq (c : Dev nD) (t : Fin cfg2.N) : (iblk2 V c 7 t : S100x1.Idx → EReal) = (V c main_v35 : S100x1.Idx → EReal) := by
  have hf := idx_facts2 t
  funext y
  unfold iblk2
  show (V c main_v35 : S100x1.Idx → EReal) (((cfg2.win 7).blk t).view.emb y) = _
  refine congrArg _ (funext fun a => Fin.ext ?_)
  match a with
  | ⟨0, _⟩ => show win2_7.index t (0 : Fin 2) * 100 + 1 * (y 0).val = (y 0).val; omega
  | ⟨1, _⟩ => show win2_7.index t (1 : Fin 2) * 1 + 1 * (y 1).val = (y 1).val; omega
theorem iblk8_eq (c : Dev nD) (t : Fin cfg2.N) : (iblk2 V c 8 t : S25x1.Idx → EReal) = (V c main_v36 : S25x1.Idx → EReal) := by
  have hf := idx_facts2 t
  funext y
  unfold iblk2
  show (V c main_v36 : S25x1.Idx → EReal) (((cfg2.win 8).blk t).view.emb y) = _
  refine congrArg _ (funext fun a => Fin.ext ?_)
  match a with
  | ⟨0, _⟩ => show win2_8.index t (0 : Fin 2) * 25 + 1 * (y 0).val = (y 0).val; omega
  | ⟨1, _⟩ => show win2_8.index t (1 : Fin 2) * 1 + 1 * (y 1).val = (y 1).val; omega
theorem iblk9_eq (c : Dev nD) (t : Fin cfg2.N) : (iblk2 V c 9 t : S25x1.Idx → EReal) = (V c main_v37 : S25x1.Idx → EReal) := by
  have hf := idx_facts2 t
  funext y
  unfold iblk2
  show (V c main_v37 : S25x1.Idx → EReal) (((cfg2.win 9).blk t).view.emb y) = _
  refine congrArg _ (funext fun a => Fin.ext ?_)
  match a with
  | ⟨0, _⟩ => show win2_9.index t (0 : Fin 2) * 25 + 1 * (y 0).val = (y 0).val; omega
  | ⟨1, _⟩ => show win2_9.index t (1 : Fin 2) * 1 + 1 * (y 1).val = (y 1).val; omega
theorem iblk10_eq (c : Dev nD) (t : Fin cfg2.N) : (iblk2 V c 10 t : S50x25.Idx → EReal) = (V c main_v38 : S50x25.Idx → EReal) := by
  have hf := idx_facts2 t
  funext y
  unfold iblk2
  show (V c main_v38 : S50x25.Idx → EReal) (((cfg2.win 10).blk t).view.emb y) = _
  refine congrArg _ (funext fun a => Fin.ext ?_)
  match a with
  | ⟨0, _⟩ => show win2_10.index t (0 : Fin 2) * 50 + 1 * (y 0).val = (y 0).val; omega
  | ⟨1, _⟩ => show win2_10.index t (1 : Fin 2) * 25 + 1 * (y 1).val = (y 1).val; omega
theorem iblk11_eq (c : Dev nD) (t : Fin cfg2.N) : (iblk2 V c 11 t : S50x1.Idx → EReal) = (V c main_v39 : S50x1.Idx → EReal) := by
  have hf := idx_facts2 t
  funext y
  unfold iblk2
  show (V c main_v39 : S50x1.Idx → EReal) (((cfg2.win 11).blk t).view.emb y) = _
  refine congrArg _ (funext fun a => Fin.ext ?_)
  match a with
  | ⟨0, _⟩ => show win2_11.index t (0 : Fin 2) * 50 + 1 * (y 0).val = (y 0).val; omega
  | ⟨1, _⟩ => show win2_11.index t (1 : Fin 2) * 1 + 1 * (y 1).val = (y 1).val; omega
theorem iblk12_eq (c : Dev nD) (t : Fin cfg2.N) : (iblk2 V c 12 t : S100x75.Idx → EReal) = (V c main_v30 : S100x75.Idx → EReal) := by
  have hf := idx_facts2 t
  funext y
  unfold iblk2
  show (V c main_v30 : S100x75.Idx → EReal) (((cfg2.win 12).blk t).view.emb y) = _
  refine congrArg _ (funext fun a => Fin.ext ?_)
  match a with
  | ⟨0, _⟩ => show win2_12.index t (0 : Fin 2) * 100 + 1 * (y 0).val = (y 0).val; omega
  | ⟨1, _⟩ => show win2_12.index t (1 : Fin 2) * 75 + 1 * (y 1).val = (y 1).val; omega
theorem iblk13_eq (c : Dev nD) (t : Fin cfg2.N) : (iblk2 V c 13 t : S100x1.Idx → EReal) = (V c main_v40 : S100x1.Idx → EReal) := by
  have hf := idx_facts2 t
  funext y
  unfold iblk2
  show (V c main_v40 : S100x1.Idx → EReal) (((cfg2.win 13).blk t).view.emb y) = _
  refine congrArg _ (funext fun a => Fin.ext ?_)
  match a with
  | ⟨0, _⟩ => show win2_13.index t (0 : Fin 2) * 100 + 1 * (y 0).val = (y 0).val; omega
  | ⟨1, _⟩ => show win2_13.index t (1 : Fin 2) * 1 + 1 * (y 1).val = (y 1).val; omega

/-- The twelve weight arrays the region finds are two networks' weights: first-layer weights and biases as columns,
    the second-layer weights transposed, the third-layer weights transposed with, in the last 25 columns, the sum of
    the upper and lower halves of the weight matrix. -/
structure WeightsAre (c : Dev nD) (N0 N1 : Cert.Descr.Net) : Prop where
  w0a : ∀ r : Fin 25, (V c main_v31 : S25x1.Idx → EReal) (ix2 r 0) = N0.w0 r
  b0a : ∀ r : Fin 25, (V c main_v32 : S25x1.Idx → EReal) (ix2 r 0) = N0.b0 r
  w1a : ∀ (b : Fin 50) (r : Fin 25), (V c main_v33 : S50x25.Idx → EReal) (ix2 b r) = N0.w1 r b
  b1a : ∀ b : Fin 50, (V c main_v34 : S50x1.Idx → EReal) (ix2 b 0) = N0.b1 b
  w2loa : ∀ (k : Fin 100) (b : Fin 50), (V c main_v24 : S100x75.Idx → EReal) (ix2 k ⟨b.val, by omega⟩) = N0.w2 b k
  w2hia : ∀ (k : Fin 100) (r : Fin 25), (V c main_v24 : S100x75.Idx → EReal) (ix2 k ⟨50 + r.val, by omega⟩) = N0.w2 (Cert.Descr.lo r) k + N0.w2 (Cert.Descr.hi r) k
  b2a : ∀ k : Fin 100, (V c main_v35 : S100x1.Idx → EReal) (ix2 k 0) = N0.b2 k
  w0b : ∀ r : Fin 25, (V c main_v36 : S25x1.Idx → EReal) (ix2 r 0) = N1.w0 r
  b0b : ∀ r : Fin 25, (V c main_v37 : S25x1.Idx → EReal) (ix2 r 0) = N1.b0 r
  w1b : ∀ (b : Fin 50) (r : Fin 25), (V c main_v38 : S50x25.Idx → EReal) (ix2 b r) = N1.w1 r b
  b1b : ∀ b : Fin 50, (V c main_v39 : S50x1.Idx → EReal) (ix2 b 0) = N1.b1 b
  w2lob : ∀ (k : Fin 100) (b : Fin 50), (V c main_v30 : S100x75.Idx → EReal) (ix2 k ⟨b.val, by omega⟩) = N1.w2 b k
  w2hib : ∀ (k : Fin 100) (r : Fin 25), (V c main_v30 : S100x75.Idx → EReal) (ix2 k ⟨50 + r.val, by omega⟩) = N1.w2 (Cert.Descr.lo r) k + N1.w2 (Cert.Descr.hi r) k
  b2b : ∀ k : Fin 100, (V c main_v40 : S100x1.Idx → EReal) (ix2 k 0) = N1.b2 k

/-- The 46 slot-type-0 entries of atom n, as the region finds them laid out: block n / 128, slot j, lane n mod 128. -/
def slot0 (c : Dev nD) (n : Fin 8192) : Fin 46 → EReal := fun j =>
  (V c main_v15 : S1x376832.Idx → EReal) (ix2 0 ⟨(n.val / 128) * 5888 + j.val * 128 + n.val % 128, by have := n.isLt; have := j.isLt; omega⟩)

/-- The 92 slot-type-1 entries of atom n. -/
def slot1 (c : Dev nD) (n : Fin 8192) : Fin 92 → EReal := fun j =>
  (V c main_v18 : S1x753664.Idx → EReal) (ix2 0 ⟨(n.val / 128) * 11776 + j.val * 128 + n.val % 128, by have := n.isLt; have := j.isLt; omega⟩)

/-- What the body stores at point t. -/
def blockOut (c : Dev nD) (t : Fin cfg2.N) : Vec Ideal S100x128 .f32 :=
  bodyOut (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t)

variable {V}

/-- At point t, feature k, lane a: the rearranged output over the slot entries of atom 128 t + a. -/
theorem blockOut_apply {c : Dev nD} {N0 N1 : Cert.Descr.Net} (hW : WeightsAre V c N0 N1) (t : Fin cfg2.N) (k : Fin 100) (a : Fin 128) :
    blockOut V c t (ix2 k a)
      = Cert.Descr.kerOutput N0 N1 (slot0 V c ⟨t.val * 128 + a.val, by have := t_lt t; have := a.isLt; omega⟩)
          (slot1 V c ⟨t.val * 128 + a.val, by have := t_lt t; have := a.isLt; omega⟩) k := by
  have ht := t_lt t
  have ha := a.isLt
  unfold blockOut
  rw [bodyOut_eq_kerOutput (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) N0 N1
    (fun r => by rw [iblk2_eq]; exact hW.w0a r) (fun r => by rw [iblk3_eq]; exact hW.b0a r)
    (fun b r => by rw [iblk4_eq]; exact hW.w1a b r) (fun b => by rw [iblk5_eq]; exact hW.b1a b)
    (fun k b => by rw [iblk6_eq]; exact hW.w2loa k b) (fun k r => by rw [iblk6_eq]; exact hW.w2hia k r) (fun k => by rw [iblk7_eq]; exact hW.b2a k)
    (fun r => by rw [iblk8_eq]; exact hW.w0b r) (fun r => by rw [iblk9_eq]; exact hW.b0b r)
    (fun b r => by rw [iblk10_eq]; exact hW.w1b b r) (fun b => by rw [iblk11_eq]; exact hW.b1b b)
    (fun k b => by rw [iblk12_eq]; exact hW.w2lob k b) (fun k r => by rw [iblk12_eq]; exact hW.w2hib k r) (fun k => by rw [iblk13_eq]; exact hW.b2b k)]
  have e0 : (fun j : Fin 46 => (iblk2 V c 0 t : S1x5888.Idx → EReal) (ix2 0 ⟨128 * j.val + a.val, by have := j.isLt; omega⟩))
      = slot0 V c ⟨t.val * 128 + a.val, by omega⟩ := by
    funext j
    have hj := j.isLt
    rw [iblk0_apply]
    unfold slot0
    refine congrArg _ (congrArg (ix2 0) (Fin.ext ?_))
    show t.val * 5888 + (128 * j.val + a.val) = (t.val * 128 + a.val) / 128 * 5888 + j.val * 128 + (t.val * 128 + a.val) % 128
    have h1 : (t.val * 128 + a.val) / 128 = t.val := by omega
    have h2 : (t.val * 128 + a.val) % 128 = a.val := by omega
    rw [h1, h2]; omega
  have e1 : (fun j : Fin 92 => (iblk2 V c 1 t : S1x11776.Idx → EReal) (ix2 0 ⟨128 * j.val + a.val, by have := j.isLt; omega⟩))
      = slot1 V c ⟨t.val * 128 + a.val, by omega⟩ := by
    funext j
    have hj := j.isLt
    rw [iblk1_apply]
    unfold slot1
    refine congrArg _ (congrArg (ix2 0) (Fin.ext ?_))
    show t.val * 11776 + (128 * j.val + a.val) = (t.val * 128 + a.val) / 128 * 11776 + j.val * 128 + (t.val * 128 + a.val) % 128
    have h1 : (t.val * 128 + a.val) / 128 = t.val := by omega
    have h2 : (t.val * 128 + a.val) % 128 = a.val := by omega
    rw [h1, h2]; omega
  exact congrArg₂ (fun s0 s1 => Cert.Descr.kerOutput N0 N1 s0 s1 k) e0 e1

/-- The whole output array, index by index. -/
def G14 (V : (c : Dev nD) → (b : Ref sig .tc) → Buf (Elt Ideal) ((c : Thread nD τ).loc b)) (c : Dev nD) (N0 N1 : Cert.Descr.Net) :
    S100x8192.Idx → EReal := fun i =>
  Cert.Descr.kerOutput N0 N1 (slot0 V c ⟨(i 1).val, (i 1).isLt⟩) (slot1 V c ⟨(i 1).val, (i 1).isLt⟩) ⟨(i 0).val, (i 0).isLt⟩

/-- What point t writes back is block t of the whole-array function. -/
theorem flushed14_eq {c : Dev nD} {N0 N1 : Cert.Descr.Net} (hW : WeightsAre V c N0 N1) (t : Fin cfg2.N) :
    (dat1 (F := Ideal) (Name := Name) (U := U) (Lvl := Lvl) V B c).flushed 14 t = ((cfg2.win 14).blk t).view.read (Elt Ideal) (G14 V c N0 N1) := by
  show (cfg2.win 14).cut (grid2.coords t) ((dat1 (F := Ideal) (Name := Name) (U := U) (Lvl := Lvl) V B c).after 14 t) = _
  rw [after2_14]
  unfold out2_14
  rw [View.canon_unit_zero hz2]
  simp only [View.ld_unit_zero (S := S1x5888) hz2, View.ld_unit_zero (S := S1x11776) hz2, View.ld_unit_zero (S := S25x1) hz2,
    View.ld_unit_zero (S := S50x25) hz2, View.ld_unit_zero (S := S50x1) hz2, View.ld_unit_zero (S := S100x75) hz2,
    View.ld_unit_zero (S := S100x1) hz2]
  have hf := idx_facts2 t
  have ht := t_lt t
  funext j
  obtain ⟨k, a, rfl⟩ : ∃ (k : Fin 100) (a : Fin 128), j = ix2 k a := ⟨j 0, j 1, eq_ix2 j⟩
  have ha := a.isLt
  show blockOut V c t (ix2 k a) = G14 V c N0 N1 (((cfg2.win 14).blk t).view.emb (ix2 k a))
  rw [blockOut_apply hW t k a]
  have e0 : ((((cfg2.win 14).blk t).view.emb (ix2 k a)) 0).val = k.val := by
    show win2_14.index t (0 : Fin 2) * 100 + 1 * k.val = k.val; omega
  have e1 : ((((cfg2.win 14).blk t).view.emb (ix2 k a)) 1).val = t.val * 128 + a.val := by
    show win2_14.index t (1 : Fin 2) * 128 + 1 * a.val = t.val * 128 + a.val; omega
  unfold G14
  rw [show (⟨((((cfg2.win 14).blk t).view.emb (ix2 k a)) 0).val, ((((cfg2.win 14).blk t).view.emb (ix2 k a)) 0).isLt⟩ : Fin 100) = k from Fin.ext e0,
    show (⟨((((cfg2.win 14).blk t).view.emb (ix2 k a)) 1).val, ((((cfg2.win 14).blk t).view.emb (ix2 k a)) 1).isLt⟩ : Fin 8192)
      = ⟨t.val * 128 + a.val, by omega⟩ from Fin.ext e1]

/-- An index of the array is in point t's block iff each coordinate is in the block's range on its axis. -/
theorem mem_blk14 (t : Fin cfg2.N) (i : S100x8192.Idx) :
    i ∈ ((cfg2.win 14).blk t).view.set ↔ ∀ a : Fin 2, win2_14.index t a * S100x128.size a ≤ (i a).val ∧ (i a).val < win2_14.index t a * S100x128.size a + S100x128.size a := by
  show i ∈ ((View.whole main_v41).slice (win2_14.rect t)).set ↔ _
  rw [View.set_slice_whole, Rect.mem_set_unit]
  exact Iff.rfl

/-- Every index of the array is in the block of the point that holds its atom. -/
theorem cover14 (i : S100x8192.Idx) : ∃ t : Fin cfg2.N, (cfg2.win 14).flush t = true ∧ i ∈ ((cfg2.win 14).blk t).view.set := by
  have hi0 : (i 0).val < 100 := (i 0).isLt
  have hi1 : (i 1).val < 8192 := (i 1).isLt
  let t : Fin cfg2.N := ⟨(i 1).val / 128, by rw [show cfg2.N = 64 from N_2]; omega⟩
  have hf := idx_facts2 t
  refine ⟨t, flush2_14 t, ?_⟩
  rw [mem_blk14]
  intro a
  have htv : t.val = (i 1).val / 128 := rfl
  match a with
  | ⟨0, _⟩ => show win2_14.index t (0 : Fin 2) * 100 ≤ (i 0).val ∧ (i 0).val < win2_14.index t (0 : Fin 2) * 100 + 100; omega
  | ⟨1, _⟩ => show win2_14.index t (1 : Fin 2) * 128 ≤ (i 1).val ∧ (i 1).val < win2_14.index t (1 : Fin 2) * 128 + 128; omega

/-- THE ARRAY after the region: entry (k, n) of the output is the rearranged network output of the specification for
    feature k over the 46 + 92 slot entries of atom n. -/
theorem arrAt14 {c : Dev nD} {N0 N1 : Cert.Descr.Net} (hW : WeightsAre V c N0 N1) (k : Fin 100) (n : Fin 8192) :
    ((dat1 (F := Ideal) (Name := Name) (U := U) (Lvl := Lvl) V B c).arrAt 14 cfg2.N : S100x8192.Idx → EReal) (ix2 k n)
      = Cert.Descr.kerOutput N0 N1 (slot0 V c n) (slot1 V c n) k := by
  have h := (dat1 (F := Ideal) (Name := Name) (U := U) (Lvl := Lvl) V B c).arrAt_eq_of_cover 14 (G14 V c N0 N1) (fun t _ => flushed14_eq B hW t) cover14
  exact congrFun h (ix2 k n)

end Array

end Cert.MlpRegion

end
-- ==== Proof.KernelValue.lean ====
/-
  The kernel program's result read at an index. When @main returns, entry (0, i, c) of its result array is the rearranged
  descriptor output of the seventeen arguments for atom i and feature c: the last line transposes the embedding kernel's
  output; that output is, at (c, i), the layer-by-layer sums over the 46 + 92 slot entries of atom i for the two nets
  whose weights the line before the kernel laid out; a slot entry is an entry of the environment kernel's two outputs,
  moved by that same line into blocks of 128 atoms; and such an entry is the normalised environment entry of the
  gathered neighbour coordinates, the atom's own coordinates and the statistics row of its type, all of which the line
  after the gather reads off the arguments.
-/
import proofs.«205418_g46067819217304_cont_8to1_c_241_17_alg».proof.Proof.Main
import proofs.«205418_g46067819217304_cont_8to1_c_241_17_alg».proof.Proof.HostRead
import proofs.«205418_g46067819217304_cont_8to1_c_241_17_alg».proof.Proof.EnvValue
import proofs.«205418_g46067819217304_cont_8to1_c_241_17_alg».proof.Proof.MlpValue
import proofs.«205418_g46067819217304_cont_8to1_c_241_17_alg».proof.Proof.ScGather
import proofs.«205418_g46067819217304_cont_8to1_c_241_17_alg».proof.Proof.Inputs

noncomputable section

namespace Cert.KernelValue

open Cert.KernelIdeal Cert.KernelIdeal.Setup Cert.KernelIdeal.MainShape Cert.KernelIdeal.Main Cert.HostRead
open Idealize.ShloMosaic Idealize.ShloMosaic.ValueIdx Idealize.ShloMosaic.TcCoe
open Idealize.ShloMosaic.SparseCore.Cfg (HIx)
open Idealize.SL.Sem

/-! ## Equal leaves give equal entries -/

theorem envEntry_congr8 {x x' y y' z z' cx cx' cy cy' cz cz' mn mn' sd sd' : EReal}
    (h1 : x = x') (h2 : y = y') (h3 : z = z') (h4 : cx = cx') (h5 : cy = cy') (h6 : cz = cz') (h7 : mn = mn') (h8 : sd = sd') :
    Cert.Descr.envEntry x y z cx cy cz mn sd = Cert.Descr.envEntry x' y' z' cx' cy' cz' mn' sd' := by
  subst h1; subst h2; subst h3; subst h4; subst h5; subst h6; subst h7; subst h8; rfl

theorem ite_zero_congr {α : Type} {w w' : BitVec 32} {a a' b b' : α} (hw : w = w') (ha : a = a') (hb : b = b') :
    (if w = 0#32 then a else b) = if w' = 0#32 then a' else b' := by
  subst hw; subst ha; subst hb; rfl

/-- For a type word that is 0 or 1, choosing row 0 of a table for the zero word and row 1 otherwise is reading the row
    the atom's type names. -/
theorem stat_sel (atype : Cert.Inputs.AtypeArr) (i : Fin 8192)
    (h : atype (ix2 (0 : Fin 1) (Cert.Inputs.ctr i)) = 0#32 ∨ atype (ix2 (0 : Fin 1) (Cert.Inputs.ctr i)) = 1#32)
    (s : Cert.Inputs.StatArr) (j : Fin 138) :
    (if atype (ix2 (0 : Fin 1) (Cert.Inputs.ctr i)) = 0#32 then s (ix3 (0 : Fin 2) j (0 : Fin 1)) else s (ix3 (1 : Fin 2) j (0 : Fin 1)))
      = s (ix3 (Cert.Inputs.arow atype i) j (0 : Fin 1)) := by
  rcases h with h | h
  · rw [if_pos h, Cert.Inputs.arow_zero atype i h]
  · rw [if_neg (by rw [h]; decide), Cert.Inputs.arow_one atype i h]

variable (m : (ℓ : Loc nD τ sig) → Buf (Elt Ideal) ℓ) (d : Dev nD)

/-- The two embedding nets of the arguments. -/
abbrev N0 : Cert.Descr.Net := Cert.Inputs.net (arg5 m d) (arg6 m d) (arg7 m d) (arg8 m d) (arg9 m d) (arg10 m d)
abbrev N1 : Cert.Descr.Net := Cert.Inputs.net (arg11 m d) (arg12 m d) (arg13 m d) (arg14 m d) (arg15 m d) (arg16 m d)

/-! ## The weights the embedding kernel finds -/

/-- The twelve weight arrays the embedding kernel finds are the two nets of the arguments. -/
theorem weights : Cert.MlpRegion.WeightsAre (V5 m) d (N0 m d) (N1 m d) where
  w0a r := v31_at m d r
  b0a r := v32_at m d r
  w1a b r := v33_at m d b r
  b1a b := v34_at m d b
  w2loa k b := (congrFun (v24_eq m d) _).trans (joined_lo (arg9 m d) k b)
  w2hia k r := (congrFun (v24_eq m d) _).trans (joined_hi (arg9 m d) k r)
  b2a k := v35_at m d k
  w0b r := v36_at m d r
  b0b r := v37_at m d r
  w1b b r := v38_at m d b r
  b1b b := v39_at m d b
  w2lob k b := (congrFun (v30_eq m d) _).trans (joined_lo (arg15 m d) k b)
  w2hib k r := (congrFun (v30_eq m d) _).trans (joined_hi (arg15 m d) k r)
  b2b k := v40_at m d k

/-! ## The environment kernel's outputs -/

section Entries
variable (hn : ∀ I, 0 ≤ (arg2 m d I).toInt ∧ (arg2 m d I).toInt ≤ 10239) (ha : ∀ I, arg1 m d I = 0#32 ∨ arg1 m d I = 1#32)
include hn ha

/-- Entry (i, j) of the normalised environment matrix of the arrays the environment kernel finds is the entry of the
    arguments. -/
theorem dm_eq (i : Fin 8192) (j : Fin 138) :
    Cert.EnvValue.dmEntry (V3 m) d i j = Cert.Inputs.entry (arg0 m d) (arg1 m d) (arg2 m d) (arg3 m d) (arg4 m d) i j := by
  unfold Cert.EnvValue.dmEntry Cert.Inputs.entry
  exact envEntry_congr8 (v3_at m d hn i j) (v4_at m d hn i j) (v5_at m d hn i j) (v7_at m d i 0) (v7_at m d i 1) (v7_at m d i 2)
    ((ite_zero_congr (v9_at m d i) (v10_at m d 0 j) (v10_at m d 1 j)).trans (stat_sel (arg1 m d) i (ha _) (arg3 m d) j))
    ((ite_zero_congr (v9_at m d i) (v11_at m d 0 j) (v11_at m d 1 j)).trans (stat_sel (arg1 m d) i (ha _) (arg4 m d) j))

/-- The first output: the entries of the 46 slots of the first type. -/
theorem v12_0_at (i : Fin 8192) (j : Fin 46) :
    (W4 m d (Proc.devRef .tc main_v12_0) : S8192x46.Idx → EReal) (ix2 i j)
      = Cert.Inputs.entry (arg0 m d) (arg1 m d) (arg2 m d) (arg3 m d) (arg4 m d) i (Cert.Inputs.slot0 j) := by
  have e : (W4 m d (Proc.devRef .tc main_v12_0) : S8192x46.Idx → EReal) = Cert.EnvValue.Glo (V3 m) d :=
    (W4_arr m d 7).trans (Cert.EnvValue.value_lo (Ix := HIx 1) (Name := ℕ) (U := UU) (Lvl := ℕ) (V3 m) Bany d)
  rw [e]
  exact (dm_eq m d hn ha ⟨i.val, i.isLt⟩ ⟨0 + j.val, by have := j.isLt; omega⟩).trans
    (congrArg₂ (Cert.Inputs.entry (arg0 m d) (arg1 m d) (arg2 m d) (arg3 m d) (arg4 m d)) (Fin.ext rfl) (Fin.ext (Nat.zero_add _)))

/-- The second output: the entries of the 92 slots of the second type. -/
theorem v12_1_at (i : Fin 8192) (j : Fin 92) :
    (W4 m d (Proc.devRef .tc main_v12_1) : S8192x92.Idx → EReal) (ix2 i j)
      = Cert.Inputs.entry (arg0 m d) (arg1 m d) (arg2 m d) (arg3 m d) (arg4 m d) i (Cert.Inputs.slot1 j) := by
  have e : (W4 m d (Proc.devRef .tc main_v12_1) : S8192x92.Idx → EReal) = Cert.EnvValue.Ghi (V3 m) d :=
    (W4_arr m d 8).trans (Cert.EnvValue.value_hi (Ix := HIx 1) (Name := ℕ) (U := UU) (Lvl := ℕ) (V3 m) Bany d)
  rw [e]
  exact (dm_eq m d hn ha ⟨i.val, i.isLt⟩ ⟨46 + j.val, by have := j.isLt; omega⟩).trans
    (congrArg₂ (Cert.Inputs.entry (arg0 m d) (arg1 m d) (arg2 m d) (arg3 m d) (arg4 m d)) (Fin.ext rfl) (Fin.ext rfl))

/-! ## The slot entries the embedding kernel finds -/

/-- Slot j of the first type of atom n, as the embedding kernel finds it laid out, is that entry of the arguments. -/
theorem slot0_eq (n : Fin 8192) (j : Fin 46) :
    Cert.MlpRegion.slot0 (V5 m) d n j
      = Cert.Inputs.entry (arg0 m d) (arg1 m d) (arg2 m d) (arg3 m d) (arg4 m d) n (Cert.Inputs.slot0 j) := by
  have hn' := n.isLt
  have hj := j.isLt
  have hg : n.val / 128 < 64 := by omega
  have hl : n.val % 128 < 128 := Nat.mod_lt _ (by decide)
  have hp : ((n.val / 128) * 46 + j.val) * 128 + n.val % 128 < 376832 := by omega
  have hq : (n.val / 128) * 128 + n.val % 128 < 8192 := by omega
  have en : (⟨(n.val / 128) * 128 + n.val % 128, hq⟩ : Fin 8192) = n := Fin.ext (by show (n.val / 128) * 128 + n.val % 128 = n.val; omega)
  calc Cert.MlpRegion.slot0 (V5 m) d n j
      = (W5 m d (Proc.devRef .tc main_v15) : S1x376832.Idx → EReal)
          (ix2 (0 : Fin 1) ⟨((n.val / 128) * 46 + j.val) * 128 + n.val % 128, hp⟩) :=
        congrArg (fun p : Fin 376832 => (W5 m d (Proc.devRef .tc main_v15) : S1x376832.Idx → EReal) (ix2 (0 : Fin 1) p))
          (Fin.ext (by show (n.val / 128) * 5888 + j.val * 128 + n.val % 128 = ((n.val / 128) * 46 + j.val) * 128 + n.val % 128; omega))
    _ = (W4 m d (Proc.devRef .tc main_v12_0) : S8192x46.Idx → EReal) (ix2 ⟨(n.val / 128) * 128 + n.val % 128, hq⟩ j) :=
        v15_at m d ⟨n.val / 128, hg⟩ j ⟨n.val % 128, hl⟩ hp hq
    _ = Cert.Inputs.entry (arg0 m d) (arg1 m d) (arg2 m d) (arg3 m d) (arg4 m d) ⟨(n.val / 128) * 128 + n.val % 128, hq⟩ (Cert.Inputs.slot0 j) :=
        v12_0_at m d hn ha _ j
    _ = Cert.Inputs.entry (arg0 m d) (arg1 m d) (arg2 m d) (arg3 m d) (arg4 m d) n (Cert.Inputs.slot0 j) := by rw [en]

/-- Slot j of the second type of atom n likewise. -/
theorem slot1_eq (n : Fin 8192) (j : Fin 92) :
    Cert.MlpRegion.slot1 (V5 m) d n j
      = Cert.Inputs.entry (arg0 m d) (arg1 m d) (arg2 m d) (arg3 m d) (arg4 m d) n (Cert.Inputs.slot1 j) := by
  have hn' := n.isLt
  have hj := j.isLt
  have hg : n.val / 128 < 64 := by omega
  have hl : n.val % 128 < 128 := Nat.mod_lt _ (by decide)
  have hp : ((n.val / 128) * 92 + j.val) * 128 + n.val % 128 < 753664 := by omega
  have hq : (n.val / 128) * 128 + n.val % 128 < 8192 := by omega
  have en : (⟨(n.val / 128) * 128 + n.val % 128, hq⟩ : Fin 8192) = n := Fin.ext (by show (n.val / 128) * 128 + n.val % 128 = n.val; omega)
  calc Cert.MlpRegion.slot1 (V5 m) d n j
      = (W5 m d (Proc.devRef .tc main_v18) : S1x753664.Idx → EReal)
          (ix2 (0 : Fin 1) ⟨((n.val / 128) * 92 + j.val) * 128 + n.val % 128, hp⟩) :=
        congrArg (fun p : Fin 753664 => (W5 m d (Proc.devRef .tc main_v18) : S1x753664.Idx → EReal) (ix2 (0 : Fin 1) p))
          (Fin.ext (by show (n.val / 128) * 11776 + j.val * 128 + n.val % 128 = ((n.val / 128) * 92 + j.val) * 128 + n.val % 128; omega))
    _ = (W4 m d (Proc.devRef .tc main_v12_1) : S8192x92.Idx → EReal) (ix2 ⟨(n.val / 128) * 128 + n.val % 128, hq⟩ j) :=
        v18_at m d ⟨n.val / 128, hg⟩ j ⟨n.val % 128, hl⟩ hp hq
    _ = Cert.Inputs.entry (arg0 m d) (arg1 m d) (arg2 m d) (arg3 m d) (arg4 m d) ⟨(n.val / 128) * 128 + n.val % 128, hq⟩ (Cert.Inputs.slot1 j) :=
        v12_1_at m d hn ha _ j
    _ = Cert.Inputs.entry (arg0 m d) (arg1 m d) (arg2 m d) (arg3 m d) (arg4 m d) n (Cert.Inputs.slot1 j) := by rw [en]

/-! ## The result -/

/-- ENTRY (0, i, c) OF THE RESULT when @main returns is the rearranged descriptor output of the arguments for atom i and
    feature c. -/
theorem result_eq (i : Fin 8192) (c : Fin 100) :
    (W7 m d (Proc.devRef .tc main_v43) : S1x8192x100.Idx → EReal) (ix3 (0 : Fin 1) i c)
      = Cert.Inputs.outK (arg0 m d) (arg1 m d) (arg2 m d) (arg3 m d) (arg4 m d) (arg5 m d) (arg6 m d) (arg7 m d) (arg8 m d)
          (arg9 m d) (arg10 m d) (arg11 m d) (arg12 m d) (arg13 m d) (arg14 m d) (arg15 m d) (arg16 m d) i c := by
  have e41 : (W6 m d (Proc.devRef .tc main_v41) : S100x8192.Idx → EReal)
      = ((Cert.MlpRegion.dat1 (F := Ideal) (Ix := HIx 1) (Name := ℕ) (U := UU) (Lvl := ℕ) (V5 m) Bany d).arrAt 14 cfg2.N
          : S100x8192.Idx → EReal) := W6_arr m d 14
  refine (v43_at m d i c).trans ?_
  refine (congrFun e41 (ix2 c i)).trans ?_
  refine (Cert.MlpRegion.arrAt14 (Ix := HIx 1) (Name := ℕ) (U := UU) (Lvl := ℕ) Bany (weights m d) c i).trans ?_
  exact congrArg₂ (fun s0 s1 => Cert.Descr.kerOutput (N0 m d) (N1 m d) s0 s1 c)
    (funext fun j => slot0_eq m d hn ha i j) (funext fun j => slot1_eq m d hn ha i j)

end Entries

end Cert.KernelValue

end
-- ==== Proof.Claims.lean ====
/-
  The five claims, assembled.

  * The reference is host operations only: its run, with the result's value forgotten, is its frame.
  * Each kernel program's run ends with every unscoped TensorCore array at the last value of a fold that starts at the
    launch memory; no line, gather or kernel of @main writes an argument array, so at an argument that value is the
    launch memory: the frame. The run asks that every word of the flat neighbour list name an atom; the flat list is
    a reshape of the neighbour-list argument, whose words the precondition bounds.
  * The idealized kernel differs from the printed one in one named constant: the scale of the final sum, read as the
    exact product of the reference's two printed shares divided by 46.
  * At the extended reals the kernel's result is, entry by entry, the scaled sum over all 138 slots of the
    layer-by-layer features of the normalised environment entries, and the reference's the weighted mean per slot type
    of the per-slot features of the same entries; with real third-layer weights these are one number.
-/
import proofs.«205418_g46067819217304_cont_8to1_c_241_17_alg».proof.Defs
import proofs.«205418_g46067819217304_cont_8to1_c_241_17_alg».proof.Proof.Gen.Kernel
import proofs.«205418_g46067819217304_cont_8to1_c_241_17_alg».proof.Proof.Gen.KernelIdeal
import proofs.«205418_g46067819217304_cont_8to1_c_241_17_alg».proof.Proof.Gen.ReferenceIdeal
import proofs.«205418_g46067819217304_cont_8to1_c_241_17_alg».proof.Proof.Gen.Pre_input_domain
import proofs.«205418_g46067819217304_cont_8to1_c_241_17_alg».proof.Proof.RunP
import proofs.«205418_g46067819217304_cont_8to1_c_241_17_alg».proof.Proof.ReadP
import proofs.«205418_g46067819217304_cont_8to1_c_241_17_alg».proof.Proof.Main
import proofs.«205418_g46067819217304_cont_8to1_c_241_17_alg».proof.Proof.ArgsKept
import proofs.«205418_g46067819217304_cont_8to1_c_241_17_alg».proof.Proof.KMain
import proofs.«205418_g46067819217304_cont_8to1_c_241_17_alg».proof.Proof.KArgsKept
import proofs.«205418_g46067819217304_cont_8to1_c_241_17_alg».proof.Proof.PreFacts
import proofs.«205418_g46067819217304_cont_8to1_c_241_17_alg».proof.Proof.RefFrame
import proofs.«205418_g46067819217304_cont_8to1_c_241_17_alg».proof.Proof.RefEnv
import proofs.«205418_g46067819217304_cont_8to1_c_241_17_alg».proof.Proof.RefNet
import proofs.«205418_g46067819217304_cont_8to1_c_241_17_alg».proof.Proof.Inputs
import proofs.«205418_g46067819217304_cont_8to1_c_241_17_alg».proof.Proof.HostRead
import proofs.«205418_g46067819217304_cont_8to1_c_241_17_alg».proof.Proof.KernelValue
import Idealize.ShloMosaic.Lib.StableHlo.Run
import Idealize.ShloMosaic.Lib.Pipeline.Frame
import Idealize.ShloMosaic.Lib.ValueIdx
import Idealize.ShloMosaic.PureOps.IdealRules

noncomputable section

namespace Cert.Proof.Claims

open Idealize.ShloMosaic Idealize.ShloMosaic.TcCoe Idealize.ShloMosaic.ValueIdx Idealize.SL.Sem

/-! ## The reference's frame, and the named constant -/

/-- The reference runs and leaves its arguments as launched. -/
theorem frame_ri : Cert.frame_ReferenceIdeal := Cert.Proof.RefFrame.frame_ri

/-- The one rewrite of the idealization: the scale of the final sum, named, reads as the exact rational the
    certificate's table gives it. -/
theorem preserves : Cert.preserves_Kernel_KernelIdeal :=
  IdealRules.named_const.statement Cert.KernelIdeal.κ "sel_frac_fifth_over_sel" .f32 0x3ABDF59D#32
    ((150119994289903 / 103582791429521408 : ℝ) : EReal) rfl

/-! ## The idealized kernel program's frame -/

section KI
open Cert.KernelIdeal Cert.KernelIdeal.MainShape Cert.KernelIdeal.Main Cert.KernelIdeal.ArgsKept Cert.ScGather

/-- An unscoped TensorCore array is one of those the run's final memory is known at. -/
theorem ki_mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- The gather's side condition from the precondition: the flat neighbour list is @main's first-line reshape of the
    neighbour list, so each of its words is a word of the argument, and the precondition bounds every word of the
    argument. -/
theorem ki_nlOK (m : (ℓ : Loc nD τ sig) → Buf (Elt Ideal) ℓ) (hpre : Cert.Pre_KernelIdeal m) : NlOK (nfAt m) := by
  unfold NlOK
  intro d k
  have e : (nfAt m d : S1130496.Idx → BitVec 32)
      = shapeCast S1130496 (W0 m d (Proc.devRef .tc main_arg2) : S1x8192x138.Idx → BitVec 32) := by
    unfold nfAt W1
    show StableHlo.after opsHead (W0 m d) (Proc.devRef .tc main_v1) = _
    after_results <;> rfl
  show 0 ≤ ((nfAt m d : S1130496.Idx → BitVec 32) k).toInt ∧ ((nfAt m d : S1130496.Idx → BitVec 32) k).toInt ≤ 10239
  rw [e]
  exact Cert.PreFacts.nlist_toInt (hpre d) _

/-- Every argument array ends as launched: it is unscoped, so the run's final memory holds the fold's last value
    there, and at an argument that value is the launch memory. -/
theorem ki_args_kept (m : (ℓ : Loc nD τ sig) → Buf (Elt Ideal) ℓ) (r : PUnit × MemSt nD τ sig (Elt Ideal)) (h : QC m r)
    (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  ⟨(h c _ (ki_mem_uc main_arg0 (by decide))).trans (W7_main_arg0 m c),
       (h c _ (ki_mem_uc main_arg1 (by decide))).trans (W7_main_arg1 m c),
       (h c _ (ki_mem_uc main_arg2 (by decide))).trans (W7_main_arg2 m c),
       (h c _ (ki_mem_uc main_arg3 (by decide))).trans (W7_main_arg3 m c),
       (h c _ (ki_mem_uc main_arg4 (by decide))).trans (W7_main_arg4 m c),
       (h c _ (ki_mem_uc main_arg5 (by decide))).trans (W7_main_arg5 m c),
       (h c _ (ki_mem_uc main_arg6 (by decide))).trans (W7_main_arg6 m c),
       (h c _ (ki_mem_uc main_arg7 (by decide))).trans (W7_main_arg7 m c),
       (h c _ (ki_mem_uc main_arg8 (by decide))).trans (W7_main_arg8 m c),
       (h c _ (ki_mem_uc main_arg9 (by decide))).trans (W7_main_arg9 m c),
       (h c _ (ki_mem_uc main_arg10 (by decide))).trans (W7_main_arg10 m c),
       (h c _ (ki_mem_uc main_arg11 (by decide))).trans (W7_main_arg11 m c),
       (h c _ (ki_mem_uc main_arg12 (by decide))).trans (W7_main_arg12 m c),
       (h c _ (ki_mem_uc main_arg13 (by decide))).trans (W7_main_arg13 m c),
       (h c _ (ki_mem_uc main_arg14 (by decide))).trans (W7_main_arg14 m c),
       (h c _ (ki_mem_uc main_arg15 (by decide))).trans (W7_main_arg15 m c),
       (h c _ (ki_mem_uc main_arg16 (by decide))).trans (W7_main_arg16 m c)⟩

/-- The program runs and leaves its arguments as launched. -/
theorem frame_ki : Cert.frame_KernelIdeal := fun m ρ hpre =>
  (θ_run (Cert.KernelIdeal.defs (F := Ideal)) _ _).mono (fun r h c => ki_args_kept m r h c)
    (Cert.KernelIdeal.Main.run_main (F := Ideal) m ρ (ki_nlOK m hpre))

end KI

/-! ## The word-level kernel program's frame -/

section KB
open Cert.Kernel Cert.Kernel.MainShape Cert.Kernel.Main Cert.Kernel.ArgsKept Cert.KScGather

/-- An unscoped TensorCore array is one of those the run's final memory is known at. -/
theorem kb_mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- The gather's side condition from the precondition: the flat neighbour list is @main's first-line reshape of the
    neighbour list, so each of its words is a word of the argument, and the precondition bounds every word of the
    argument. -/
theorem kb_nlOK (m : (ℓ : Loc nD τ sig) → Buf (Elt Bits) ℓ) (hpre : Cert.Pre_Kernel m) : NlOK (nfAt m) := by
  unfold NlOK
  intro d k
  have e : (nfAt m d : S1130496.Idx → BitVec 32)
      = shapeCast S1130496 (W0 m d (Proc.devRef .tc main_arg2) : S1x8192x138.Idx → BitVec 32) := by
    unfold nfAt W1
    show StableHlo.after opsHead (W0 m d) (Proc.devRef .tc main_v1) = _
    after_results <;> rfl
  show 0 ≤ ((nfAt m d : S1130496.Idx → BitVec 32) k).toInt ∧ ((nfAt m d : S1130496.Idx → BitVec 32) k).toInt ≤ 10239
  rw [e]
  exact Cert.PreFacts.nlist_toInt (hpre d) _

/-- Every argument array ends as launched: it is unscoped, so the run's final memory holds the fold's last value
    there, and at an argument that value is the launch memory. -/
theorem kb_args_kept (m : (ℓ : Loc nD τ sig) → Buf (Elt Bits) ℓ) (r : PUnit × MemSt nD τ sig (Elt Bits)) (h : QC m r)
    (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  ⟨(h c _ (kb_mem_uc main_arg0 (by decide))).trans (W7_main_arg0 m c),
       (h c _ (kb_mem_uc main_arg1 (by decide))).trans (W7_main_arg1 m c),
       (h c _ (kb_mem_uc main_arg2 (by decide))).trans (W7_main_arg2 m c),
       (h c _ (kb_mem_uc main_arg3 (by decide))).trans (W7_main_arg3 m c),
       (h c _ (kb_mem_uc main_arg4 (by decide))).trans (W7_main_arg4 m c),
       (h c _ (kb_mem_uc main_arg5 (by decide))).trans (W7_main_arg5 m c),
       (h c _ (kb_mem_uc main_arg6 (by decide))).trans (W7_main_arg6 m c),
       (h c _ (kb_mem_uc main_arg7 (by decide))).trans (W7_main_arg7 m c),
       (h c _ (kb_mem_uc main_arg8 (by decide))).trans (W7_main_arg8 m c),
       (h c _ (kb_mem_uc main_arg9 (by decide))).trans (W7_main_arg9 m c),
       (h c _ (kb_mem_uc main_arg10 (by decide))).trans (W7_main_arg10 m c),
       (h c _ (kb_mem_uc main_arg11 (by decide))).trans (W7_main_arg11 m c),
       (h c _ (kb_mem_uc main_arg12 (by decide))).trans (W7_main_arg12 m c),
       (h c _ (kb_mem_uc main_arg13 (by decide))).trans (W7_main_arg13 m c),
       (h c _ (kb_mem_uc main_arg14 (by decide))).trans (W7_main_arg14 m c),
       (h c _ (kb_mem_uc main_arg15 (by decide))).trans (W7_main_arg15 m c),
       (h c _ (kb_mem_uc main_arg16 (by decide))).trans (W7_main_arg16 m c)⟩

/-- The program runs and leaves its arguments as launched. -/
theorem frame_k : Cert.frame_Kernel := fun m ρ hpre =>
  (θ_run (Cert.Kernel.defs (F := Bits)) _ _).mono (fun r h c => kb_args_kept m r h c)
    (Cert.Kernel.Main.run_main (F := Bits) m ρ (kb_nlOK m hpre))

end KB

/-! ## The two idealized programs end with equal results -/

section Algebraic
open Cert.KernelIdeal Cert.KernelIdeal.MainShape Cert.KernelIdeal.Main Cert.KernelIdeal.ArgsKept Cert.ScGather Cert.HostRead

/-- The precondition bounds every neighbour word … -/
theorem pre_nlist (m : (ℓ : Loc nD τ sig) → Buf (Elt Ideal) ℓ) (hpre : Cert.Pre_KernelIdeal m) (c : Dev nD) :
    ∀ I, 0 ≤ (arg2 m c I).toInt ∧ (arg2 m c I).toInt ≤ 10239 :=
  fun I => Cert.PreFacts.nlist_toInt (hpre c) I

/-- … makes every atom-type word 0 or 1 … -/
theorem pre_atype (m : (ℓ : Loc nD τ sig) → Buf (Elt Ideal) ℓ) (hpre : Cert.Pre_KernelIdeal m) (c : Dev nD) :
    ∀ I, arg1 m c I = 0#32 ∨ arg1 m c I = 1#32 :=
  fun I => Cert.PreFacts.atype_01 (hpre c) I

/-- … and every third-layer weight of either net a real number. -/
theorem pre_w2_first (m : (ℓ : Loc nD τ sig) → Buf (Elt Ideal) ℓ) (hpre : Cert.Pre_KernelIdeal m) (c : Dev nD) :
    Cert.Inputs.W2ArrReal (arg9 m c) :=
  fun b k => (Cert.Descr.isReal_iff_exists_coe _).mpr (Cert.PreFacts.real_arg9 (hpre c) (ix2 b k))

theorem pre_w2_second (m : (ℓ : Loc nD τ sig) → Buf (Elt Ideal) ℓ) (hpre : Cert.Pre_KernelIdeal m) (c : Dev nD) :
    Cert.Inputs.W2ArrReal (arg15 m c) :=
  fun b k => (Cert.Descr.isReal_iff_exists_coe _).mpr (Cert.PreFacts.real_arg15 (hpre c) (ix2 b k))

/-- ONE ENTRY OF THE TWO RESULTS. At atom i and feature f the reference's result is the weighted mean of the per-slot
    features of the normalised environment entries; each entry is the environment entry of the arguments; the weighted
    mean of per-slot features is the scaled sum of the layer-by-layer sums when the third-layer weights are real; and
    that is what the kernel program's result holds. -/
theorem result_entry (m : (ℓ : Loc nD τ sig) → Buf (Elt Ideal) ℓ) (hpre : Cert.Pre_KernelIdeal m) (c : Dev nD)
    (i : Fin 8192) (f : Fin 100) :
    Cert.ReferenceIdeal.ReadP.val_main_v127 (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c) (ix3 (0 : Fin 1) i f)
      = (W7 m c (Proc.devRef .tc main_v43) : (⟨3, ![1, 8192, 100]⟩ : Shape).Idx → EReal) (ix3 (0 : Fin 1) i f) := by
  have hn := pre_nlist m hpre c
  have ha := pre_atype m hpre c
  have he : ∀ j : Fin 138, Cert.RefNet.entry (arg0 m c) (arg1 m c) (arg2 m c) (arg3 m c) (arg4 m c) i j = Cert.Inputs.entry (arg0 m c) (arg1 m c) (arg2 m c) (arg3 m c) (arg4 m c) i j :=
    fun j => (Cert.RefEnv.env_read (arg0 m c) (arg1 m c) (arg2 m c) (arg3 m c) (arg4 m c) hn ha i j).trans rfl
  calc Cert.ReferenceIdeal.ReadP.val_main_v127 (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c) (ix3 (0 : Fin 1) i f)
      = Cert.Descr.refOutput (Cert.RefNet.netOf (arg5 m c) (arg6 m c) (arg7 m c) (arg8 m c) (arg9 m c) (arg10 m c)) (Cert.RefNet.netOf (arg11 m c) (arg12 m c) (arg13 m c) (arg14 m c) (arg15 m c) (arg16 m c))
          (fun j => Cert.RefNet.entry (arg0 m c) (arg1 m c) (arg2 m c) (arg3 m c) (arg4 m c) i (Cert.RefNet.slot0 j))
          (fun j => Cert.RefNet.entry (arg0 m c) (arg1 m c) (arg2 m c) (arg3 m c) (arg4 m c) i (Cert.RefNet.slot1 j)) f :=
        Cert.RefNet.result_at (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c) (0 : Fin 1) i f
    _ = Cert.Inputs.outR (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c) i f :=
        congrArg₂ (fun s0 s1 => Cert.Descr.refOutput (Cert.Inputs.net (arg5 m c) (arg6 m c) (arg7 m c) (arg8 m c) (arg9 m c) (arg10 m c)) (Cert.Inputs.net (arg11 m c) (arg12 m c) (arg13 m c) (arg14 m c) (arg15 m c) (arg16 m c)) s0 s1 f)
          (funext fun j => he (Cert.RefNet.slot0 j)) (funext fun j => he (Cert.RefNet.slot1 j))
    _ = Cert.Inputs.outK (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c) i f :=
        (Cert.Inputs.outK_eq_outR (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c) (pre_w2_first m hpre c) (pre_w2_second m hpre c) i f).symm
    _ = (W7 m c (Proc.devRef .tc main_v43) : (⟨3, ![1, 8192, 100]⟩ : Shape).Idx → EReal) (ix3 (0 : Fin 1) i f) :=
        (Cert.KernelValue.result_eq m c hn ha i f).symm

/-- THE TWO RESULT ARRAYS. From memories that agree on the seventeen arguments, the reference's result term is the
    array the kernel program's fold ends with. -/
theorem result_agree (m : (ℓ : Loc nD τ sig) → Buf (Elt Ideal) ℓ) (hpre : Cert.Pre_KernelIdeal m)
    (m' : (ℓ : Loc Cert.ReferenceIdeal.nD Cert.ReferenceIdeal.τ Cert.ReferenceIdeal.sig) → Buf (Elt Ideal) ℓ) (c : Dev nD)
    (hag : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)
      ∧ m' ((c.tc : Thread Cert.ReferenceIdeal.nD Cert.ReferenceIdeal.τ).loc Cert.ReferenceIdeal.main_arg9) = m ((c.tc : Thread nD τ).loc main_arg9)
      ∧ m' ((c.tc : Thread Cert.ReferenceIdeal.nD Cert.ReferenceIdeal.τ).loc Cert.ReferenceIdeal.main_arg10) = m ((c.tc : Thread nD τ).loc main_arg10)
      ∧ m' ((c.tc : Thread Cert.ReferenceIdeal.nD Cert.ReferenceIdeal.τ).loc Cert.ReferenceIdeal.main_arg11) = m ((c.tc : Thread nD τ).loc main_arg11)
      ∧ m' ((c.tc : Thread Cert.ReferenceIdeal.nD Cert.ReferenceIdeal.τ).loc Cert.ReferenceIdeal.main_arg12) = m ((c.tc : Thread nD τ).loc main_arg12)
      ∧ m' ((c.tc : Thread Cert.ReferenceIdeal.nD Cert.ReferenceIdeal.τ).loc Cert.ReferenceIdeal.main_arg13) = m ((c.tc : Thread nD τ).loc main_arg13)
      ∧ m' ((c.tc : Thread Cert.ReferenceIdeal.nD Cert.ReferenceIdeal.τ).loc Cert.ReferenceIdeal.main_arg14) = m ((c.tc : Thread nD τ).loc main_arg14)
      ∧ m' ((c.tc : Thread Cert.ReferenceIdeal.nD Cert.ReferenceIdeal.τ).loc Cert.ReferenceIdeal.main_arg15) = m ((c.tc : Thread nD τ).loc main_arg15)
      ∧ m' ((c.tc : Thread Cert.ReferenceIdeal.nD Cert.ReferenceIdeal.τ).loc Cert.ReferenceIdeal.main_arg16) = m ((c.tc : Thread nD τ).loc main_arg16)) :
    (Cert.ReferenceIdeal.ValueP.res_main_v127 m' c : (⟨3, ![1, 8192, 100]⟩ : Shape).Idx → EReal) = (W7 m c (Proc.devRef .tc main_v43) : (⟨3, ![1, 8192, 100]⟩ : Shape).Idx → EReal) := by
  obtain ⟨h0, h1, h2, h3, h4, h5, h6, h7, h8, h9, h10, h11, h12, h13, h14, h15, h16⟩ := hag
  unfold Cert.ReferenceIdeal.ValueP.res_main_v127
  rw [h0, h1, h2, h3, h4, h5, h6, h7, h8, h9, h10, h11, h12, h13, h14, h15, h16]
  funext I
  obtain ⟨z, i, f, rfl⟩ : ∃ (z : Fin 1) (i : Fin 8192) (f : Fin 100), I = ix3 z i f := ⟨I 0, I 1, I 2, eq_ix3 I⟩
  obtain rfl : z = 0 := Subsingleton.elim _ _
  exact result_entry m hpre c i f

/-- At the extended reals the kernel program and the reference, from memories agreeing on the arguments, both run,
    leave their arguments as launched, and end with the same result array. -/
theorem algebraic : Cert.algebraic_KernelIdeal_ReferenceIdeal := by
  intro m ρ m' ρ' hpre hagree
  refine ⟨fun c => W7 m c (Proc.devRef .tc main_v43), ?_, ?_⟩
  · exact (θ_run (Cert.KernelIdeal.defs (F := Ideal)) _ _).mono
      (fun r h c => ⟨h c _ (ki_mem_uc main_v43 (by decide)), ki_args_kept m r h c⟩)
      (Cert.KernelIdeal.Main.run_main (F := Ideal) m ρ (ki_nlOK m hpre))
  · exact (θ_run (Cert.ReferenceIdeal.defs (F := Ideal)) _ _).mono
      (fun r h c => ⟨(h c).1.trans (result_agree m hpre m' c (hagree c)), (h c).2⟩)
      (Cert.ReferenceIdeal.ValueP.run (F := Ideal) m' ρ')

end Algebraic

end Cert.Proof.Claims

end
-- ==== Proof.lean ====
/-
  The certificate's claim: the three programs run to their end, nothing faulting, with their argument arrays as
  launched; the idealized kernel differs from the printed one by one named constant; and at the extended reals the
  idealized kernel and the idealized reference end with equal results.

  The kernel program gathers, on the SparseCores, the coordinates of every atom's 138 neighbours; on the TensorCore it
  turns each (atom, neighbour) pair into a normalised environment entry — the inverse distance times a quintic switch
  between the two cutoff radii, shifted and scaled by the statistics of the centre atom's type — and feeds each entry
  through a three-layer embedding net with residual connections, one net per slot type, summing the features over all
  slots and scaling the sum. The reference computes the same entries with a host gather and, per slot type, the mean of
  the per-slot features, weighted by the type's share of the slots, times one fifth. With real weights the kernel's
  layer-by-layer sums are the reference's per-slot features summed (the third layer's folded weights are the residual
  distributed), and the kernel's one scale is the product of the reference's printed shares over 46, which is how the
  named constant reads it. The modules under Proof/ prove the pieces; Proof/Claims.lean assembles them.
-/
import proofs.«205418_g46067819217304_cont_8to1_c_241_17_alg».proof.Defs
import proofs.«205418_g46067819217304_cont_8to1_c_241_17_alg».proof.Proof.Gen.Kernel
import proofs.«205418_g46067819217304_cont_8to1_c_241_17_alg».proof.Proof.Gen.KernelIdeal
import proofs.«205418_g46067819217304_cont_8to1_c_241_17_alg».proof.Proof.Gen.ReferenceIdeal
import proofs.«205418_g46067819217304_cont_8to1_c_241_17_alg».proof.Proof.Gen.Pre_input_domain
import proofs.«205418_g46067819217304_cont_8to1_c_241_17_alg».proof.Proof.Claims

noncomputable section

namespace Cert.Proof

theorem claim : Cert.Claim :=
  ⟨Cert.Kernel.Gen.facts, Cert.KernelIdeal.Gen.facts, Cert.ReferenceIdeal.Gen.facts, Cert.Pre_input_domain.Gen.facts,
    Claims.frame_k, Claims.frame_ki, Claims.frame_ri, Claims.preserves, Claims.algebraic⟩

end Cert.Proof

end
